-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S153x64 : Shape := ⟨2, ![153, 64]⟩
abbrev S153 : Shape := ⟨1, ![153]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S153x64 : S_.BroadcastsInDim S153x64 (![] : Fin 0 → Fin S153x64.rank)
  reducesTo_S153x64_S_d0_1 : S153x64.ReducesTo [0, 1] S_
  bcast_S_S153 : S_.BroadcastsInDim S153 (![] : Fin 0 → Fin S153.rank)
  reducesTo_S153_S_d0 : S153.ReducesTo [0] S_
  slices_S2x1600000_S1x1600000_0_0 : S2x1600000.Slices ![0, 0] S1x1600000
  shapeCasts_S1x1600000_S1600000 : S1x1600000.ShapeCasts S1600000

variable [Facts]

def fn_part4 {F : FTy → Type} [FloatOps F] (main_arg1 : IVec S2x1600000 32) (main_arg15 : FVec F S153 .f32) (main_v63 : IVec S_ 1) (main_v67 : IVec S_ 1) : IVec S_ 1 :=
  let main_v68 : IVec S_ 1 := andi main_v63 main_v67
  let main_v69 : FVec F S153 .f32 := Host.absf main_arg15
  let main_cst_26 : FVec F S_ .f32 := constant S_ .f32 0x7F800000#32
  let main_v70 : FVec F S153 .f32 := broadcastInDim S153 ![] bcast_S_S153 main_cst_26
  let main_v71 : IVec S153 1 := cmpf .olt main_v69 main_v70
  let main_c_27 : IVec S_ 1 := constantI S_ 1 1#1
  let main_v72 : IVec S_ 1 := (fun x v => Host.reduce IntOp.andi x v reducesTo_S153_S_d0 h_S_) main_v71 main_c_27
  let main_v73 : IVec S_ 1 := andi main_v68 main_v72
  let main_v74 : IVec S1x1600000 32 := (extractStridedSlice S1x1600000 ![0, 0] · slices_S2x1600000_S1x1600000_0_0) main_arg1
  let main_v75 : IVec S1600000 32 := shapeCast S1600000 main_v74 shapeCasts_S1x1600000_S1600000
  let main_c_28 : IVec S_ 32 := constantI S_ 32 0#32
  let main_v76 : IVec S1600000 32 := broadcastInDim S1600000 ![] bcast_S_S1600000 main_c_28
  let main_v77 : IVec S1600000 1 := cmpi .sge main_v75 main_v76
  let main_c_29 : IVec S_ 1 := constantI S_ 1 1#1
  let main_v78 : IVec S_ 1 := (fun x v => Host.reduce IntOp.andi x v reducesTo_S1600000_S_d0 h_S_) main_v77 main_c_29
  let main_v79 : IVec S_ 1 := andi main_v73 main_v78
  let main_v80 : IVec S1x1600000 32 := (extractStridedSlice S1x1600000 ![0, 0] · slices_S2x1600000_S1x1600000_0_0) main_arg1
  let main_v81 : IVec S1600000 32 := shapeCast S1600000 main_v80 shapeCasts_S1x1600000_S1600000
  let main_c_30 : IVec S_ 32 := constantI S_ 32 100000#32
  let main_v82 : IVec S1600000 32 := broadcastInDim S1600000 ![] bcast_S_S1600000 main_c_30
  let main_v83 : IVec S1600000 1 := cmpi .slt main_v81 main_v82
  let main_c_31 : IVec S_ 1 := constantI S_ 1 1#1
  let main_v84 : IVec S_ 1 := (fun x v => Host.reduce IntOp.andi x v reducesTo_S1600000_S_d0 h_S_) main_v83 main_c_31
  let main_v85 : IVec S_ 1 := andi main_v79 main_v84
  main_v85

def fn_part3 {F : FTy → Type} [FloatOps F] (main_arg1 : IVec S2x1600000 32) (main_arg12 : FVec F S64 .f32) (main_arg13 : FVec F S64 .f32) (main_arg14 : FVec F S153 .f32) (main_arg15 : FVec F S153 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S153 .f32 := Host.absf main_arg14
  let main_cst_24 : FVec F S_ .f32 := constant S_ .f32 0x7F800000#32
  let main_v65 : FVec F S153 .f32 := broadcastInDim S153 ![] bcast_S_S153 main_cst_24
  let main_v66 : IVec S153 1 := cmpf .olt main_v64 main_v65
  let main_c_25 : IVec S_ 1 := constantI S_ 1 1#1
  let main_v67 : IVec S_ 1 := (fun x v => Host.reduce IntOp.andi x v reducesTo_S153_S_d0 h_S_) main_v66 main_c_25
  fn_part4 (F := F) main_arg1 main_arg15 main_v63 main_v67

def fn_part2 {F : FTy → Type} [FloatOps F] (main_arg1 : IVec S2x1600000 32) (main_arg8 : FVec F S153x64 .f32) (main_arg9 : FVec F S153 .f32) (main_arg10 : FVec F S64 .f32) (main_arg11 : FVec F S64 .f32) (main_arg12 : FVec F S64 .f32) (main_arg13 : FVec F S64 .f32) (main_arg14 : FVec F S153 .f32) (main_arg15 : FVec F S153 .f32) (main_v33 : IVec S_ 1) : IVec S_ 1 :=
  let main_v34 : FVec F S153x64 .f32 := Host.absf main_arg8
  let main_cst_12 : FVec F S_ .f32 := constant S_ .f32 0x7F800000#32
  let main_v35 : FVec F S153x64 .f32 := broadcastInDim S153x64 ![] bcast_S_S153x64 main_cst_12
  let main_v36 : IVec S153x64 1 := cmpf .olt main_v34 main_v35
  let main_c_13 : IVec S_ 1 := constantI S_ 1 1#1
  let main_v37 : IVec S_ 1 := (fun x v => Host.reduce IntOp.andi x v reducesTo_S153x64_S_d0_1 h_S_) main_v36 main_c_13
  let main_v38 : IVec S_ 1 := andi main_v33 main_v37
  let main_v39 : FVec F S153 .f32 := Host.absf main_arg9
  let main_cst_14 : FVec F S_ .f32 := constant S_ .f32 0x7F800000#32
  let main_v40 : FVec F S153 .f32 := broadcastInDim S153 ![] bcast_S_S153 main_cst_14
  let main_v41 : IVec S153 1 := cmpf .olt main_v39 main_v40
  let main_c_15 : IVec S_ 1 := constantI S_ 1 1#1
  let main_v42 : IVec S_ 1 := (fun x v => Host.reduce IntOp.andi x v reducesTo_S153_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_v48 main_v49 main_v50

def fn_part1 {F : FTy → Type} [FloatOps F] (main_arg1 : IVec S2x1600000 32) (main_arg5 : FVec F S64 .f32) (main_arg6 : FVec F S64x64 .f32) (main_arg7 : FVec F S64 .f32) (main_arg8 : FVec F S153x64 .f32) (main_arg9 : FVec F S153 .f32) (main_arg10 : FVec F S64 .f32) (main_arg11 : FVec F S64 .f32) (main_arg12 : FVec F S64 .f32) (main_arg13 : FVec F S64 .f32) (main_arg14 : FVec F S153 .f32) (main_arg15 : FVec F S153 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S100000x64 .f32) (main_arg1 : IVec S2x1600000 32) (main_arg2 : FVec F S100000 .f32) (main_arg3 : FVec F S1600000 .f32) (main_arg4 : FVec F S64x64 .f32) (main_arg5 : FVec F S64 .f32) (main_arg6 : FVec F S64x64 .f32) (main_arg7 : FVec F S64 .f32) (main_arg8 : FVec F S153x64 .f32) (main_arg9 : FVec F S153 .f32) (main_arg10 : FVec F S64 .f32) (main_arg11 : FVec F S64 .f32) (main_arg12 : FVec F S64 .f32) (main_arg13 : FVec F S64 .f32) (main_arg14 : FVec F S153 .f32) (main_arg15 : FVec F S153 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S153x64 : Shape := ⟨2, ![153, 64]⟩
abbrev S153 : Shape := ⟨1, ![153]⟩
abbrev S1x1600000 : Shape := ⟨2, ![1, 1600000]⟩
abbrev S_ : Shape := ⟨0, ![]⟩
abbrev S1600000x1 : Shape := ⟨2, ![1600000, 1]⟩
abbrev S102400x64 : Shape := ⟨2, ![102400, 64]⟩
abbrev S1x64 : Shape := ⟨2, ![1, 64]⟩
abbrev S2048x64 : Shape := ⟨2, ![2048, 64]⟩
abbrev S1600000x64 : Shape := ⟨2, ![1600000, 64]⟩
abbrev S1280x1 : Shape := ⟨2, ![1280, 1]⟩
abbrev S2560x64 : Shape := ⟨2, ![2560, 64]⟩
abbrev S1280x64 : Shape := ⟨2, ![1280, 64]⟩
abbrev S1x2560 : Shape := ⟨2, ![1, 2560]⟩
abbrev S1280x2560 : Shape := ⟨2, ![1280, 2560]⟩
abbrev S1x1280 : Shape := ⟨2, ![1, 1280]⟩
abbrev S2560x1 : Shape := ⟨2, ![2560, 1]⟩
abbrev S2560x1280 : Shape := ⟨2, ![2560, 1280]⟩
abbrev S2560 : Shape := ⟨1, ![2560]⟩
abbrev S64x153 : Shape := ⟨2, ![64, 153]⟩
abbrev S1x153 : Shape := ⟨2, ![1, 153]⟩
abbrev S102400x153 : Shape := ⟨2, ![102400, 153]⟩
abbrev S2048x153 : Shape := ⟨2, ![2048, 153]⟩
abbrev S1600000x153 : Shape := ⟨2, ![1600000, 153]⟩
abbrev S2560x153 : Shape := ⟨2, ![2560, 153]⟩
abbrev S1280x153 : Shape := ⟨2, ![1280, 153]⟩
abbrev S100000x153 : Shape := ⟨2, ![100000, 153]⟩

abbrev nBuf : Space → Nat
  | .hbm => 82
  | .vmem => 74
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .f32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S153x64, .f32⟩
  | .hbm, ⟨9, _⟩ => ⟨S153, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S153, .f32⟩
  | .hbm, ⟨15, _⟩ => ⟨S153, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S1600000, .f32⟩
  | .hbm, ⟨44, _⟩ => ⟨S1600000, .f32⟩
  | .hbm, ⟨45, _⟩ => ⟨S1600000, .f32⟩
  | .hbm, ⟨46, _⟩ => ⟨S1600000, .f32⟩
  | .hbm, ⟨47, _⟩ => ⟨S1600000, .f32⟩
  | .hbm, ⟨48, _⟩ => ⟨S_, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S1600000, .f32⟩
  | .hbm, ⟨53, _⟩ => ⟨S1600000, .f32⟩
  | .hbm, ⟨54, _⟩ => ⟨S1600000x1, .i32⟩
  | .hbm, ⟨55, _⟩ => ⟨S1x1600000, .i32⟩
  | .hbm, ⟨56, _⟩ => ⟨S1600000x1, .f32⟩
  | .hbm, ⟨57, _⟩ => ⟨S_, .i32⟩
  | .hbm, ⟨58, _⟩ => ⟨S_, .f32⟩
  | .hbm, ⟨59, _⟩ => ⟨S102400x64, .f32⟩
  | .hbm, ⟨60, _⟩ => ⟨S64x64, .f32⟩
  | .hbm, ⟨61, _⟩ => ⟨S1x64, .f32⟩
  | .hbm, ⟨62, _⟩ => ⟨S102400x64, .f32⟩
  | .hbm, ⟨63, _⟩ => ⟨S1600000x64, .bf16⟩
  | .hbm, ⟨64, _⟩ => ⟨S1x64, .f32⟩
  | .hbm, ⟨65, _⟩ => ⟨S1x64, .f32⟩
  | .hbm, ⟨66, _⟩ => ⟨S102400x64, .f32⟩
  | .hbm, ⟨67, _⟩ => ⟨S64x64, .f32⟩
  | .hbm, ⟨68, _⟩ => ⟨S1x64, .f32⟩
  | .hbm, ⟨69, _⟩ => ⟨S102400x64, .f32⟩
  | .hbm, ⟨70, _⟩ => ⟨S1600000x64, .bf16⟩
  | .hbm, ⟨71, _⟩ => ⟨S1x64, .f32⟩
  | .hbm, ⟨72, _⟩ => ⟨S1x64, .f32⟩
  | .hbm, ⟨73, _⟩ => ⟨S102400x64, .f32⟩
  | .hbm, ⟨74, _⟩ => ⟨S64x153, .f32⟩
  | .hbm, ⟨75, _⟩ => ⟨S1x153, .f32⟩
  | .hbm, ⟨76, _⟩ => ⟨S102400x153, .f32⟩
  | .hbm, ⟨77, _⟩ => ⟨S1600000x153, .bf16⟩
  | .hbm, ⟨78, _⟩ => ⟨S1x153, .f32⟩
  | .hbm, ⟨79, _⟩ => ⟨S1x153, .f32⟩
  | .hbm, ⟨80, _⟩ => ⟨S102400x153, .f32⟩
  | .hbm, ⟨81, _⟩ => ⟨S100000x153, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S1x64, .f32⟩
  | .local _ .vmem, ⟨4, _⟩ => ⟨S2048x64, .f32⟩
  | .local _ .vmem, ⟨5, _⟩ => ⟨S2048x64, .f32⟩
  | .local _ .vmem, ⟨6, _⟩ => ⟨S1280x1, .i32⟩
  | .local _ .vmem, ⟨7, _⟩ => ⟨S1280x1, .i32⟩
  | .local _ .vmem, ⟨8, _⟩ => ⟨S1280x1, .f32⟩
  | .local _ .vmem, ⟨9, _⟩ => ⟨S1280x1, .f32⟩
  | .local _ .vmem, ⟨10, _⟩ => ⟨S2560x64, .f32⟩
  | .local _ .vmem, ⟨11, _⟩ => ⟨S2560x64, .f32⟩
  | .local _ .vmem, ⟨12, _⟩ => ⟨S1280x64, .bf16⟩
  | .local _ .vmem, ⟨13, _⟩ => ⟨S1280x64, .bf16⟩
  | .local _ .vmem, ⟨14, _⟩ => ⟨S1280x64, .f32⟩
  | .local _ .vmem, ⟨15, _⟩ => ⟨S1x1280, .i32⟩
  | .local _ .vmem, ⟨16, _⟩ => ⟨S1x1280, .i32⟩
  | .local _ .vmem, ⟨17, _⟩ => ⟨S1280x64, .bf16⟩
  | .local _ .vmem, ⟨18, _⟩ => ⟨S1280x64, .bf16⟩
  | .local _ .vmem, ⟨19, _⟩ => ⟨S1x64, .f32⟩
  | .local _ .vmem, ⟨20, _⟩ => ⟨S1x64, .f32⟩
  | .local _ .vmem, ⟨21, _⟩ => ⟨S2560x64, .f32⟩
  | .local _ .vmem, ⟨22, _⟩ => ⟨S2560x64, .f32⟩
  | .local _ .vmem, ⟨23, _⟩ => ⟨S2560x64, .f32⟩
  | .local _ .vmem, ⟨24, _⟩ => ⟨S2048x64, .f32⟩
  | .local _ .vmem, ⟨25, _⟩ => ⟨S2048x64, .f32⟩
  | .local _ .vmem, ⟨26, _⟩ => ⟨S64x64, .f32⟩
  | .local _ .vmem, ⟨27, _⟩ => ⟨S1x64, .f32⟩
  | .local _ .vmem, ⟨28, _⟩ => ⟨S2048x64, .f32⟩
  | .local _ .vmem, ⟨29, _⟩ => ⟨S2048x64, .f32⟩
  | .local _ .vmem, ⟨30, _⟩ => ⟨S1280x1, .i32⟩
  | .local _ .vmem, ⟨31, _⟩ => ⟨S1280x1, .i32⟩
  | .local _ .vmem, ⟨32, _⟩ => ⟨S1280x1, .f32⟩
  | .local _ .vmem, ⟨33, _⟩ => ⟨S1280x1, .f32⟩
  | .local _ .vmem, ⟨34, _⟩ => ⟨S2560x64, .f32⟩
  | .local _ .vmem, ⟨35, _⟩ => ⟨S2560x64, .f32⟩
  | .local _ .vmem, ⟨36, _⟩ => ⟨S1280x64, .bf16⟩
  | .local _ .vmem, ⟨37, _⟩ => ⟨S1280x64, .bf16⟩
  | .local _ .vmem, ⟨38, _⟩ => ⟨S1280x64, .f32⟩
  | .local _ .vmem, ⟨39, _⟩ => ⟨S1x1280, .i32⟩
  | .local _ .vmem, ⟨40, _⟩ => ⟨S1x1280, .i32⟩
  | .local _ .vmem, ⟨41, _⟩ => ⟨S1280x64, .bf16⟩
  | .local _ .vmem, ⟨42, _⟩ => ⟨S1280x64, .bf16⟩
  | .local _ .vmem, ⟨43, _⟩ => ⟨S1x64, .f32⟩
  | .local _ .vmem, ⟨44, _⟩ => ⟨S1x64, .f32⟩
  | .local _ .vmem, ⟨45, _⟩ => ⟨S2560x64, .f32⟩
  | .local _ .vmem, ⟨46, _⟩ => ⟨S2560x64, .f32⟩
  | .local _ .vmem, ⟨47, _⟩ => ⟨S2560x64, .f32⟩
  | .local _ .vmem, ⟨48, _⟩ => ⟨S2560x64, .f32⟩
  | .local _ .vmem, ⟨49, _⟩ => ⟨S2560x64, .f32⟩
  | .local _ .vmem, ⟨50, _⟩ => ⟨S2048x64, .f32⟩
  | .local _ .vmem, ⟨51, _⟩ => ⟨S2048x64, .f32⟩
  | .local _ .vmem, ⟨52, _⟩ => ⟨S64x153, .f32⟩
  | .local _ .vmem, ⟨53, _⟩ => ⟨S1x153, .f32⟩
  | .local _ .vmem, ⟨54, _⟩ => ⟨S2048x153, .f32⟩
  | .local _ .vmem, ⟨55, _⟩ => ⟨S2048x153, .f32⟩
  | .local _ .vmem, ⟨56, _⟩ => ⟨S1280x1, .i32⟩
  | .local _ .vmem, ⟨57, _⟩ => ⟨S1280x1, .i32⟩
  | .local _ .vmem, ⟨58, _⟩ => ⟨S1280x1, .f32⟩
  | .local _ .vmem, ⟨59, _⟩ => ⟨S1280x1, .f32⟩
  | .local _ .vmem, ⟨60, _⟩ => ⟨S2560x153, .f32⟩
  | .local _ .vmem, ⟨61, _⟩ => ⟨S2560x153, .f32⟩
  | .local _ .vmem, ⟨62, _⟩ => ⟨S1280x153, .bf16⟩
  | .local _ .vmem, ⟨63, _⟩ => ⟨S1280x153, .bf16⟩
  | .local _ .vmem, ⟨64, _⟩ => ⟨S1280x153, .f32⟩
  | .local _ .vmem, ⟨65, _⟩ => ⟨S1x1280, .i32⟩
  | .local _ .vmem, ⟨66, _⟩ => ⟨S1x1280, .i32⟩
  | .local _ .vmem, ⟨67, _⟩ => ⟨S1280x153, .bf16⟩
  | .local _ .vmem, ⟨68, _⟩ => ⟨S1280x153, .bf16⟩
  | .local _ .vmem, ⟨69, _⟩ => ⟨S1x153, .f32⟩
  | .local _ .vmem, ⟨70, _⟩ => ⟨S1x153, .f32⟩
  | .local _ .vmem, ⟨71, _⟩ => ⟨S2560x153, .f32⟩
  | .local _ .vmem, ⟨72, _⟩ => ⟨S2560x153, .f32⟩
  | .local _ .vmem, ⟨73, _⟩ => ⟨S2560x153, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v11 : Ref sig .tc := ⟨.hbm, 36, rfl⟩
abbrev main_cst_2 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_4 : Ref sig .tc := ⟨.hbm, 48, rfl⟩
abbrev main_v16 : Ref sig .tc := ⟨.hbm, 49, rfl⟩
abbrev main_v17 : Ref sig .tc := ⟨.hbm, 50, rfl⟩
abbrev main_cst_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_call2_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_scratch0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg5_1 : Ref sig .tc := ⟨.vmem, 48, rfl⟩
abbrev cc5_scratch0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg3_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_scratch0 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg1_1 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg4_1 : Ref sig .tc := ⟨.vmem, 72, rfl⟩
abbrev cc8_scratch0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem4_1 : DmaSem sig := 67

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1250, 40], ![false, false]⟩

def k1_cond2 (i : grid1.Coords) : BitVec 1 :=
  let arg1 : BitVec 32 := BitVec.ofNat 32 (i 1).val
  let c39_i32 : BitVec 32 := 39#32
  let v24 : BitVec 1 := Scalar.cmpi .eq arg1 c39_i32
  let v25 : BitVec 32 := Scalar.extui v24
  let c0_i32_8 : BitVec 32 := 0#32
  let v26 : BitVec 1 := Scalar.cmpi .ne v25 c0_i32_8
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2560x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1280x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![40, 1250], ![false, false]⟩

def k2_cond2 (i : grid2.Coords) : BitVec 1 :=
  let arg1 : BitVec 32 := BitVec.ofNat 32 (i 1).val
  let c1249_i32 : BitVec 32 := 1249#32
  let v23 : BitVec 1 := Scalar.cmpi .eq arg1 c1249_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x1280 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1280x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2560x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![1250, 40], ![false, false]⟩

def k4_cond2 (i : grid4.Coords) : BitVec 1 :=
  let arg1 : BitVec 32 := BitVec.ofNat 32 (i 1).val
  let c39_i32 : BitVec 32 := 39#32
  let v24 : BitVec 1 := Scalar.cmpi .eq arg1 c39_i32
  let v25 : BitVec 32 := Scalar.extui v24
  let c0_i32_8 : BitVec 32 := 0#32
  let v26 : BitVec 1 := Scalar.cmpi .ne v25 c0_i32_8
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1280x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1280x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2560x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1280x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![40, 1250], ![false, false]⟩

def k5_cond2 (i : grid5.Coords) : BitVec 1 :=
  let arg1 : BitVec 32 := BitVec.ofNat 32 (i 1).val
  let c1249_i32 : BitVec 32 := 1249#32
  let v23 : BitVec 1 := Scalar.cmpi .eq arg1 c1249_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x1280 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1280x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S2560x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S2560x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x153 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x153 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x153 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![1250, 40], ![false, false]⟩

def k7_cond2 (i : grid7.Coords) : BitVec 1 :=
  let arg1 : BitVec 32 := BitVec.ofNat 32 (i 1).val
  let c39_i32 : BitVec 32 := 39#32
  let v24 : BitVec 1 := Scalar.cmpi .eq arg1 c39_i32
  let v25 : BitVec 32 := Scalar.extui v24
  let c0_i32_8 : BitVec 32 := 0#32
  let v26 : BitVec 1 := Scalar.cmpi .ne v25 c0_i32_8
  v26

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1280x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1280x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S2560x153 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1280x153 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![40, 1250], ![false, false]⟩

def k8_cond2 (i : grid8.Coords) : BitVec 1 :=
  let arg1 : BitVec 32 := BitVec.ofNat 32 (i 1).val
  let c1249_i32 : BitVec 32 := 1249#32
  let v23 : BitVec 1 := Scalar.cmpi .eq arg1 c1249_i32
  let v24 : BitVec 32 := Scalar.extui v23
  let c0_i32_8 : BitVec 32 := 0#32
  let v25 : BitVec 1 := Scalar.cmpi .ne v24 c0_i32_8
  v25

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x1280 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1280x153 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S1x153 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x153 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S2560x153 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  shapeCasts_S1600000_S1x1600000 : S1600000.ShapeCasts S1x1600000
  pads_S100000x64_S102400x64_024000_000 : S100000x64.Pads (![0, 0] : Fin 2 → Nat) ![2400, 0] ![0, 0] S102400x64
  h_S_ : 0 < S_.numel
  transposes_S64x64_S64x64_1_0 : S64x64.Transposes [1, 0] S64x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  iota_S1x2560_d1_w32 : S1x2560.Iotas .tc 32 [1]
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  broadcasts_S1280x1_S1280x2560 : S1280x1.Broadcasts S1280x2560
  broadcasts_S1x2560_S1280x2560 : S1x2560.Broadcasts S1280x2560
  natLt_1_32 : 1 < 32
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  broadcasts_S1280x1_S1280x64 : S1280x1.Broadcasts S1280x64
  packedbf16_S1280x64_S1280x64_0_0 : (Rect.unit (s := S1280x64) ![0, 0] S1280x64.size inb_S1280x64_S1280x64_0_0).PackedRows (EltTy.packing .bf16)
  iota_S2560x1_d0_w32 : S2560x1.Iotas .tc 32 [0]
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S2560x1_S2560x1280 : S2560x1.Broadcasts S2560x1280
  broadcasts_S1x1280_S2560x1280 : S1x1280.Broadcasts S2560x1280
  reduces_S2560x64_S2560 : S2560x64.Reduces [1] S2560
  shapeCasts_S2560_S2560x1 : S2560.ShapeCasts S2560x1
  broadcasts_S2560x1_S2560x64 : S2560x1.Broadcasts S2560x64
  broadcasts_S1x64_S2560x64 : S1x64.Broadcasts S2560x64
  transposes_S153x64_S64x153_1_0 : S153x64.Transposes [1, 0] S64x153
  shapeCasts_S153_S1x153 : S153.ShapeCasts S1x153
  inb_S64x153_S64x153_0_0 : ∀ a, (![0, 0] : Fin 2 → Nat) a + S64x153.size a ≤ S64x153.size a
  h_S64x153 : 0 < S64x153.numel
  shapeCasts_S64x153_S64x153 : S64x153.ShapeCasts S64x153
  inb_S1x153_S1x153_0_0 : ∀ a, (![0, 0] : Fin 2 → Nat) a + S1x153.size a ≤ S1x153.size a
  h_S1x153 : 0 < S1x153.numel
  shapeCasts_S1x153_S1x153 : S1x153.ShapeCasts S1x153
  broadcasts_S1x153_S2048x153 : S1x153.Broadcasts S2048x153
  inb_S2048x153_S2048x153_0_0 : ∀ a, (![0, 0] : Fin 2 → Nat) a + S2048x153.size a ≤ S2048x153.size a
  h_S2048x153 : 0 < S2048x153.numel
  inb_S1280x153_S1280x153_0_0 : ∀ a, (![0, 0] : Fin 2 → Nat) a + S1280x153.size a ≤ S1280x153.size a
  h_S1280x153 : 0 < S1280x153.numel
  shapeCasts_S1280x153_S1280x153 : S1280x153.ShapeCasts S1280x153
  inb_S2560x153_S2560x153_0_0 : ∀ a, (![0, 0] : Fin 2 → Nat) a + S2560x153.size a ≤ S2560x153.size a
  h_S2560x153 : 0 < S2560x153.numel
  shapeCasts_S2560x153_S2560x153 : S2560x153.ShapeCasts S2560x153
  broadcasts_S1280x1_S1280x153 : S1280x1.Broadcasts S1280x153
  packedbf16_S1280x153_S1280x153_0_0 : (Rect.unit (s := S1280x153) ![0, 0] S1280x153.size inb_S1280x153_S1280x153_0_0).PackedRows (EltTy.packing .bf16)
  reduces_S2560x153_S2560 : S2560x153.Reduces [1] S2560
  broadcasts_S2560x1_S2560x153 : S2560x1.Broadcasts S2560x153
  broadcasts_S1x153_S2560x153 : S1x153.Broadcasts S2560x153
  slices_S102400x153_S100000x153_0_0 : S102400x153.Slices ![0, 0] S100000x153
  gather_S100000_S1600000x1_S1600000_n_0_n_n_0_1_1_wf : GatherDims.WF S100000 S1600000x1 S1600000 [] [0] [] [0] [] 1 ![1]
  dot_S2048x64_S64x64_S2048x64_1_0_0_1_n_n_wf : DotDims.WF S2048x64 S64x64 S2048x64 [1] [0] [0] [1] [] []
  dot_S1280x2560_S2560x64_S1280x64_1_0_0_1_n_n_wf : DotDims.WF S1280x2560 S2560x64 S1280x64 [1] [0] [0] [1] [] []
  dot_S2560x1280_S1280x64_S2560x64_1_0_0_1_n_n_wf : DotDims.WF S2560x1280 S1280x64 S2560x64 [1] [0] [0] [1] [] []
  dot_S2048x64_S64x153_S2048x153_1_0_0_1_n_n_wf : DotDims.WF S2048x64 S64x153 S2048x153 [1] [0] [0] [1] [] []
  dot_S1280x2560_S2560x153_S1280x153_1_0_0_1_n_n_wf : DotDims.WF S1280x2560 S2560x153 S1280x153 [1] [0] [0] [1] [] []
  dot_S2560x1280_S1280x153_S2560x153_1_0_0_1_n_n_wf : DotDims.WF S2560x1280 S1280x153 S2560x153 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S102400x64.size a
  hwx0_0 : ∀ i : grid0.Coords, EltTy.bits .f32 = 32 ∨ (Rect.block (s := S102400x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S102400x64.size a
  hwx0_3 : ∀ i : grid0.Coords, EltTy.bits .f32 = 32 ∨ (Rect.block (s := S102400x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x1.size a ≤ S1600000x1.size a
  hwx1_0 : ∀ i : grid1.Coords, EltTy.bits .i32 = 32 ∨ (Rect.block (s := S1600000x1) S1280x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x1.size a ≤ S1600000x1.size a
  hwx1_1 : ∀ i : grid1.Coords, EltTy.bits .f32 = 32 ∨ (Rect.block (s := S1600000x1) S1280x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x64.size a ≤ S102400x64.size a
  hwx1_2 : ∀ i : grid1.Coords, EltTy.bits .f32 = 32 ∨ (Rect.block (s := S102400x64) S2560x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x64.size a ≤ S1600000x64.size a
  hwx1_3 : ∀ i : grid1.Coords, EltTy.bits .bf16 = 32 ∨ (Rect.block (s := S1600000x64) S1280x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1280.size a ≤ S1x1600000.size a
  hwx2_0 : ∀ i : grid2.Coords, EltTy.bits .i32 = 32 ∨ (Rect.block (s := S1x1600000) S1x1280.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x64.size a ≤ S1600000x64.size a
  hwx2_1 : ∀ i : grid2.Coords, EltTy.bits .bf16 = 32 ∨ (Rect.block (s := S1600000x64) S1280x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2560x64.size a ≤ S102400x64.size a
  hwx2_4 : ∀ i : grid2.Coords, EltTy.bits .f32 = 32 ∨ (Rect.block (s := S102400x64) S2560x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S102400x64.size a
  hwx3_0 : ∀ i : grid3.Coords, EltTy.bits .f32 = 32 ∨ (Rect.block (s := S102400x64) S2048x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S102400x64.size a
  hwx3_3 : ∀ i : grid3.Coords, EltTy.bits .f32 = 32 ∨ (Rect.block (s := S102400x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1280x1.size a ≤ S1600000x1.size a
  hwx4_0 : ∀ i : grid4.Coords, EltTy.bits .i32 = 32 ∨ (Rect.block (s := S1600000x1) S1280x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x1.size a ≤ S1600000x1.size a
  hwx4_1 : ∀ i : grid4.Coords, EltTy.bits .f32 = 32 ∨ (Rect.block (s := S1600000x1) S1280x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2560x64.size a ≤ S102400x64.size a
  hwx4_2 : ∀ i : grid4.Coords, EltTy.bits .f32 = 32 ∨ (Rect.block (s := S102400x64) S2560x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1280x64.size a ≤ S1600000x64.size a
  hwx4_3 : ∀ i : grid4.Coords, EltTy.bits .bf16 = 32 ∨ (Rect.block (s := S1600000x64) S1280x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1280.size a ≤ S1x1600000.size a
  hwx5_0 : ∀ i : grid5.Coords, EltTy.bits .i32 = 32 ∨ (Rect.block (s := S1x1600000) S1x1280.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1280x64.size a ≤ S1600000x64.size a
  hwx5_1 : ∀ i : grid5.Coords, EltTy.bits .bf16 = 32 ∨ (Rect.block (s := S1600000x64) S1280x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2560x64.size a ≤ S102400x64.size a
  hwx5_4 : ∀ i : grid5.Coords, EltTy.bits .f32 = 32 ∨ (Rect.block (s := S102400x64) S2560x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2560x64.size a ≤ S102400x64.size a
  hwx5_5 : ∀ i : grid5.Coords, EltTy.bits .f32 = 32 ∨ (Rect.block (s := S102400x64) S2560x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S102400x64.size a
  hwx6_0 : ∀ i : grid6.Coords, EltTy.bits .f32 = 32 ∨ (Rect.block (s := S102400x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x153.size a ≤ S64x153.size a
  hwx6_1 : ∀ i : grid6.Coords, EltTy.bits .f32 = 32 ∨ (Rect.block (s := S64x153) S64x153.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x153.size a ≤ S1x153.size a
  hwx6_2 : ∀ i : grid6.Coords, EltTy.bits .f32 = 32 ∨ (Rect.block (s := S1x153) S1x153.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x153.size a ≤ S102400x153.size a
  hwx6_3 : ∀ i : grid6.Coords, EltTy.bits .f32 = 32 ∨ (Rect.block (s := S102400x153) S2048x153.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1280x1.size a ≤ S1600000x1.size a
  hwx7_0 : ∀ i : grid7.Coords, EltTy.bits .i32 = 32 ∨ (Rect.block (s := S1600000x1) S1280x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1280x1.size a ≤ S1600000x1.size a
  hwx7_1 : ∀ i : grid7.Coords, EltTy.bits .f32 = 32 ∨ (Rect.block (s := S1600000x1) S1280x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2560x153.size a ≤ S102400x153.size a
  hwx7_2 : ∀ i : grid7.Coords, EltTy.bits .f32 = 32 ∨ (Rect.block (s := S102400x153) S2560x153.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1280x153.size a ≤ S1600000x153.size a
  hwx7_3 : ∀ i : grid7.Coords, EltTy.bits .bf16 = 32 ∨ (Rect.block (s := S1600000x153) S1280x153.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x1280.size a ≤ S1x1600000.size a
  hwx8_0 : ∀ i : grid8.Coords, EltTy.bits .i32 = 32 ∨ (Rect.block (s := S1x1600000) S1x1280.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1280x153.size a ≤ S1600000x153.size a
  hwx8_1 : ∀ i : grid8.Coords, EltTy.bits .bf16 = 32 ∨ (Rect.block (s := S1600000x153) S1280x153.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x153.size a ≤ S1x153.size a
  hwx8_2 : ∀ i : grid8.Coords, EltTy.bits .f32 = 32 ∨ (Rect.block (s := S1x153) S1x153.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x153.size a ≤ S1x153.size a
  hwx8_3 : ∀ i : grid8.Coords, EltTy.bits .f32 = 32 ∨ (Rect.block (s := S1x153) S1x153.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2560x153.size a ≤ S102400x153.size a
  hwx8_4 : ∀ i : grid8.Coords, EltTy.bits .f32 = 32 ∨ (Rect.block (s := S102400x153) S2560x153.size (cc8_transform_4 i) (hinb8_4 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1280x2560_S2560x64_S1280x64_1_0_0_1_n_n : DotDims S1280x2560 S2560x64 S1280x64 where
  lhsContracting := [1]
  rhsContracting := [0]
  lhsNonContracting := [0]
  rhsNonContracting := [1]
  lhsBatch := []
  rhsBatch := []
  wf := dot_S1280x2560_S2560x64_S1280x64_1_0_0_1_n_n_wf
def dot_S2560x1280_S1280x64_S2560x64_1_0_0_1_n_n : DotDims S2560x1280 S1280x64 S2560x64 where
  lhsContracting := [1]
  rhsContracting := [0]
  lhsNonContracting := [0]
  rhsNonContracting := [1]
  lhsBatch := []
  rhsBatch := []
  wf := dot_S2560x1280_S1280x64_S2560x64_1_0_0_1_n_n_wf
def dot_S2048x64_S64x153_S2048x153_1_0_0_1_n_n : DotDims S2048x64 S64x153 S2048x153 where
  lhsContracting := [1]
  rhsContracting := [0]
  lhsNonContracting := [0]
  rhsNonContracting := [1]
  lhsBatch := []
  rhsBatch := []
  wf := dot_S2048x64_S64x153_S2048x153_1_0_0_1_n_n_wf
def dot_S1280x2560_S2560x153_S1280x153_1_0_0_1_n_n : DotDims S1280x2560 S2560x153 S1280x153 where
  lhsContracting := [1]
  rhsContracting := [0]
  lhsNonContracting := [0]
  rhsNonContracting := [1]
  lhsBatch := []
  rhsBatch := []
  wf := dot_S1280x2560_S2560x153_S1280x153_1_0_0_1_n_n_wf
def dot_S2560x1280_S1280x153_S2560x153_1_0_0_1_n_n : DotDims S2560x1280 S1280x153 S2560x153 where
  lhsContracting := [1]
  rhsContracting := [0]
  lhsNonContracting := [0]
  rhsNonContracting := [1]
  lhsBatch := []
  rhsBatch := []
  wf := dot_S2560x1280_S1280x153_S2560x153_1_0_0_1_n_n_wf

abbrev win0_0 : Pipeline.Window sig grid0 :=
  Pipeline.Window.ofSpec (Memref.whole main_v23) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1280x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1280x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2560x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1280x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v21) S1x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1280x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S2560x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v30) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v20) S1280x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S1280x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S2560x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1280x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v21) S1x1280.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1280x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S2560x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v37) S2560x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v37) S2048x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v38) S64x153.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v39) S1x153.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v40) S2048x153.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v20) S1280x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22) S1280x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v40) S2560x153.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v41) S1280x153.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v21) S1x1280.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v41) S1280x153.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v42) S1x153.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v43) S1x153.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v44) S2560x153.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S153x64 : Shape := ⟨2, ![153, 64]⟩
abbrev S153 : Shape := ⟨1, ![153]⟩
abbrev S1x1600000 : Shape := ⟨2, ![1, 1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S64x153 : Shape := ⟨2, ![64, 153]⟩
abbrev S100000x153 : Shape := ⟨2, ![100000, 153]⟩
abbrev S1x153 : Shape := ⟨2, ![1, 153]⟩
abbrev S1600000x153 : Shape := ⟨2, ![1600000, 153]⟩

abbrev nBuf : Space → Nat
  | .hbm => 279
  | .vmem => 0
  | .smem => 0
  | _ => 0

abbrev hbmTy0_0 (i : Nat) : BufTy := match i % 128 with
  | 0 => ⟨S100000x64, .f32⟩
  | 1 => ⟨S2x1600000, .i32⟩
  | 2 => ⟨S100000, .f32⟩
  | 3 => ⟨S1600000, .f32⟩
  | 4 => ⟨S64x64, .f32⟩
  | 5 => ⟨S64, .f32⟩
  | 6 => ⟨S64x64, .f32⟩
  | 7 => ⟨S64, .f32⟩
  | 8 => ⟨S153x64, .f32⟩
  | 9 => ⟨S153, .f32⟩
  | 10 => ⟨S64, .f32⟩
  | 11 => ⟨S64, .f32⟩
  | 12 => ⟨S64, .f32⟩
  | 13 => ⟨S64, .f32⟩
  | 14 => ⟨S153, .f32⟩
  | 15 => ⟨S153, .f32⟩
  | 16 => ⟨S1x1600000, .i32⟩
  | 17 => ⟨S1600000, .i32⟩
  | 18 => ⟨S1x1600000, .i32⟩
  | 19 => ⟨S1600000, .i32⟩
  | 20 => ⟨S64x64, .f32⟩
  | 21 => ⟨S100000x64, .f32⟩
  | 22 => ⟨S1x64, .f32⟩
  | 23 => ⟨S100000x64, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .f32⟩
  | 35 => ⟨S_, .f32⟩
  | 36 => ⟨S_, .f32⟩
  | 37 => ⟨S1600000, .f32⟩
  | 38 => ⟨S1600000, .f32⟩
  | 39 => ⟨S_, .f32⟩
  | 40 => ⟨S1600000, .f32⟩
  | 41 => ⟨S1600000, .f32⟩
  | 42 => ⟨S_, .f32⟩
  | 43 => ⟨S_, .f32⟩
  | 44 => ⟨S_, .f32⟩
  | 45 => ⟨S1600000, .f32⟩
  | 46 => ⟨S1600000, .f32⟩
  | 47 => ⟨S_, .f32⟩
  | 48 => ⟨S1600000, .f32⟩
  | 49 => ⟨S1600000, .f32⟩
  | 50 => ⟨S1600000, .f32⟩
  | 51 => ⟨S1600000, .f32⟩
  | 52 => ⟨S1600000, .f32⟩
  | 53 => ⟨S_, .f32⟩
  | 54 => ⟨S1600000, .f32⟩
  | 55 => ⟨S1600000, .f32⟩
  | 56 => ⟨S_, .f32⟩
  | 57 => ⟨S1600000, .f32⟩
  | 58 => ⟨S1600000, .f32⟩
  | 59 => ⟨S1600000x1, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S_, .f32⟩
  | 93 => ⟨S100000x1, .f32⟩
  | 94 => ⟨S100000x1, .f32⟩
  | 95 => ⟨S100000x1, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S64x64, .f32⟩
  | 108 => ⟨S100000x64, .f32⟩
  | 109 => ⟨S1x64, .f32⟩
  | 110 => ⟨S100000x64, .f32⟩
  | 111 => ⟨S100000x64, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .f32⟩
  | 122 => ⟨S_, .f32⟩
  | 123 => ⟨S_, .f32⟩
  | 124 => ⟨S1600000, .f32⟩
  | 125 => ⟨S1600000, .f32⟩
  | 126 => ⟨S_, .f32⟩
  | 127 => ⟨S1600000, .f32⟩
  | _ => ⟨S100000x64, .f32⟩

abbrev hbmTy0_1 (i : Nat) : BufTy := match i % 128 with
  | 0 => ⟨S1600000, .f32⟩
  | 1 => ⟨S_, .f32⟩
  | 2 => ⟨S_, .f32⟩
  | 3 => ⟨S_, .f32⟩
  | 4 => ⟨S1600000, .f32⟩
  | 5 => ⟨S1600000, .f32⟩
  | 6 => ⟨S_, .f32⟩
  | 7 => ⟨S1600000, .f32⟩
  | 8 => ⟨S1600000, .f32⟩
  | 9 => ⟨S1600000, .f32⟩
  | 10 => ⟨S1600000, .f32⟩
  | 11 => ⟨S1600000, .f32⟩
  | 12 => ⟨S_, .f32⟩
  | 13 => ⟨S1600000, .f32⟩
  | 14 => ⟨S1600000, .f32⟩
  | 15 => ⟨S_, .f32⟩
  | 16 => ⟨S1600000, .f32⟩
  | 17 => ⟨S1600000, .f32⟩
  | 18 => ⟨S1600000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x64, .f32⟩
  | 42 => ⟨S100000x64, .f32⟩
  | 43 => ⟨S100000x64, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x64, .f32⟩
  | 51 => ⟨S100000x64, .f32⟩
  | 52 => ⟨S_, .f32⟩
  | 53 => ⟨S100000x1, .f32⟩
  | 54 => ⟨S100000x1, .f32⟩
  | 55 => ⟨S100000x1, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S64x153, .f32⟩
  | 68 => ⟨S100000x153, .f32⟩
  | 69 => ⟨S1x153, .f32⟩
  | 70 => ⟨S100000x153, .f32⟩
  | 71 => ⟨S100000x153, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .f32⟩
  | 82 => ⟨S_, .f32⟩
  | 83 => ⟨S_, .f32⟩
  | 84 => ⟨S1600000, .f32⟩
  | 85 => ⟨S1600000, .f32⟩
  | 86 => ⟨S_, .f32⟩
  | 87 => ⟨S1600000, .f32⟩
  | 88 => ⟨S1600000, .f32⟩
  | 89 => ⟨S_, .f32⟩
  | 90 => ⟨S_, .f32⟩
  | 91 => ⟨S_, .f32⟩
  | 92 => ⟨S1600000, .f32⟩
  | 93 => ⟨S1600000, .f32⟩
  | 94 => ⟨S_, .f32⟩
  | 95 => ⟨S1600000, .f32⟩
  | 96 => ⟨S1600000, .f32⟩
  | 97 => ⟨S1600000, .f32⟩
  | 98 => ⟨S1600000, .f32⟩
  | 99 => ⟨S1600000, .f32⟩
  | 100 => ⟨S_, .f32⟩
  | 101 => ⟨S1600000, .f32⟩
  | 102 => ⟨S1600000, .f32⟩
  | 103 => ⟨S_, .f32⟩
  | 104 => ⟨S1600000, .f32⟩
  | 105 => ⟨S1600000, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x153, .f32⟩
  | 116 => ⟨S1600000x153, .f32⟩
  | 117 => ⟨S1600000x153, .f32⟩
  | 118 => ⟨S_, .f32⟩
  | 119 => ⟨S100000x153, .f32⟩
  | 120 => ⟨S1600000x1, .i32⟩
  | 121 => ⟨S100000x153, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x64, .f32⟩

abbrev hbmTy0_2 (i : Nat) : BufTy := match i % 128 with
  | 0 => ⟨S100000x153, .f32⟩
  | 1 => ⟨S100000x153, .f32⟩
  | 2 => ⟨S100000x153, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x153, .f32⟩
  | 10 => ⟨S100000x153, .f32⟩
  | 11 => ⟨S_, .f32⟩
  | 12 => ⟨S100000x1, .f32⟩
  | 13 => ⟨S100000x1, .f32⟩
  | 14 => ⟨S100000x1, .f32⟩
  | 15 => ⟨S100000x153, .f32⟩
  | 16 => ⟨S100000x153, .f32⟩
  | 17 => ⟨S1x153, .f32⟩
  | 18 => ⟨S100000x153, .f32⟩
  | 19 => ⟨S100000x153, .f32⟩
  | 20 => ⟨S1x153, .f32⟩
  | 21 => ⟨S100000x153, .f32⟩
  | 22 => ⟨S100000x153, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v16 : Ref sig .tc := ⟨.hbm, 41, rfl⟩
abbrev main_cst_2 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_cst_12 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_13 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_cst : Ref sig .tc := ⟨.hbm, 104, rfl⟩
abbrev main_call2_v0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_14 : Ref sig .tc := ⟨.hbm, 112, rfl⟩
abbrev main_v68 : Ref sig .tc := ⟨.hbm, 113, rfl⟩
abbrev main_v69 : Ref sig .tc := ⟨.hbm, 114, rfl⟩
abbrev main_c_15 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_16 : Ref sig .tc := ⟨.hbm, 121, rfl⟩
abbrev main_cst_17 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_v75 : Ref sig .tc := ⟨.hbm, 128, rfl⟩
abbrev main_cst_18 : Ref sig .tc := ⟨.hbm, 129, rfl⟩
abbrev main_cst_19 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_20 : Ref sig .tc := ⟨.hbm, 140, rfl⟩
abbrev main_v80 : Ref sig .tc := ⟨.hbm, 141, rfl⟩
abbrev main_v81 : Ref sig .tc := ⟨.hbm, 142, rfl⟩
abbrev main_cst_21 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_22 : Ref sig .tc := ⟨.hbm, 147, rfl⟩
abbrev main_v85 : Ref sig .tc := ⟨.hbm, 148, rfl⟩
abbrev main_v86 : Ref sig .tc := ⟨.hbm, 149, rfl⟩
abbrev main_c_23 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_cst_24 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_25 : Ref sig .tc := ⟨.hbm, 163, rfl⟩
abbrev main_v98 : Ref sig .tc := ⟨.hbm, 164, rfl⟩
abbrev main_v99 : Ref sig .tc := ⟨.hbm, 165, rfl⟩
abbrev main_cst_26 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_27 : Ref sig .tc := ⟨.hbm, 172, rfl⟩
abbrev main_v105 : Ref sig .tc := ⟨.hbm, 173, rfl⟩
abbrev main_v106 : Ref sig .tc := ⟨.hbm, 174, rfl⟩
abbrev main_cst_28 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_29 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_call5_cst : Ref sig .tc := ⟨.hbm, 192, rfl⟩
abbrev main_call5_v0 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_30 : Ref sig .tc := ⟨.hbm, 200, rfl⟩
abbrev main_v128 : Ref sig .tc := ⟨.hbm, 201, rfl⟩
abbrev main_v129 : Ref sig .tc := ⟨.hbm, 202, rfl⟩
abbrev main_c_31 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_32 : Ref sig .tc := ⟨.hbm, 209, rfl⟩
abbrev main_cst_33 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_v135 : Ref sig .tc := ⟨.hbm, 216, rfl⟩
abbrev main_cst_34 : Ref sig .tc := ⟨.hbm, 217, rfl⟩
abbrev main_cst_35 : Ref sig .tc := ⟨.hbm, 218, rfl⟩
abbrev main_call7_v0 : Ref sig .tc := ⟨.hbm, 219, rfl⟩
abbrev main_call7_v1 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_cst_36 : Ref sig .tc := ⟨.hbm, 228, rfl⟩
abbrev main_v140 : Ref sig .tc := ⟨.hbm, 229, rfl⟩
abbrev main_v141 : Ref sig .tc := ⟨.hbm, 230, rfl⟩
abbrev main_cst_37 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_c_38 : Ref sig .tc := ⟨.hbm, 235, rfl⟩
abbrev main_v145 : Ref sig .tc := ⟨.hbm, 236, rfl⟩
abbrev main_v146 : Ref sig .tc := ⟨.hbm, 237, rfl⟩
abbrev main_c_39 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_cst_40 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_41 : Ref sig .tc := ⟨.hbm, 250, rfl⟩
abbrev main_v157 : Ref sig .tc := ⟨.hbm, 251, rfl⟩
abbrev main_v158 : Ref sig .tc := ⟨.hbm, 252, rfl⟩
abbrev main_cst_42 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_cst_43 : Ref sig .tc := ⟨.hbm, 259, rfl⟩
abbrev main_v164 : Ref sig .tc := ⟨.hbm, 260, rfl⟩
abbrev main_v165 : Ref sig .tc := ⟨.hbm, 261, rfl⟩
abbrev main_cst_44 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_cst_45 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S153x64_S64x153_1_0 : S153x64.Transposes [1, 0] S64x153
  bcast_S153_S1x153_1 : S153.BroadcastsInDim S1x153 (![1] : Fin 1 → Fin S1x153.rank)
  bcast_S1x153_S100000x153_0_1 : S1x153.BroadcastsInDim S100000x153 (![0, 1] : Fin 2 → Fin S100000x153.rank)
  bcast_S1600000x1_S1600000x153_0_1 : S1600000x1.BroadcastsInDim S1600000x153 (![0, 1] : Fin 2 → Fin S1600000x153.rank)
  bcast_S_S100000x153 : S_.BroadcastsInDim S100000x153 (![] : Fin 0 → Fin S100000x153.rank)
  reducesTo_S100000x153_S100000_d1 : S100000x153.ReducesTo [1] S100000
  bcast_S100000x1_S100000x153_0_1 : S100000x1.BroadcastsInDim S100000x153 (![0, 1] : Fin 2 → Fin S100000x153.rank)
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x153_S100000x153_1_0_0_1_n_n_wf : DotDims.WF S100000x64 S64x153 S100000x153 [1] [0] [0] [1] [] []
  gather_S100000x153_S1600000x1_S1600000x153_1_0_n_n_0_1_1153_wf : GatherDims.WF S100000x153 S1600000x1 S1600000x153 [1] [0] [] [0] [] 1 ![1, 153]
  scatter_S100000x153_S1600000x1_S1600000x153_1_0_0_1_wf : ScatterDims.WF S100000x153 S1600000x1 S1600000x153 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x153_S100000x153_1_0_0_1_n_n : DotDims S100000x64 S64x153 S100000x153 where
  lhsContracting := [1]
  rhsContracting := [0]
  lhsNonContracting := [0]
  rhsNonContracting := [1]
  lhsBatch := []
  rhsBatch := []
  wf := dot_S100000x64_S64x153_S100000x153_1_0_0_1_n_n_wf
def gather_S100000x153_S1600000x1_S1600000x153_1_0_n_n_0_1_1153 : GatherDims S100000x153 S1600000x1 S1600000x153 where
  offsetDims := [1]
  collapsedSliceDims := [0]
  operandBatchingDims := []
  startIndicesBatchingDims := []
  startIndexMap := [0]
  indexVectorDim := 1
  sliceSizes := ![1, 153]
  wf := gather_S100000x153_S1600000x1_S1600000x153_1_0_n_n_0_1_1153_wf
def scatter_S100000x153_S1600000x1_S1600000x153_1_0_0_1 : ScatterDims S100000x153 S1600000x1 S1600000x153 where
  updateWindowDims := [1]
  insertedWindowDims := [0]
  scatterDimsToOperandDims := [0]
  indexVectorDim := 1
  wf := scatter_S100000x153_S1600000x1_S1600000x153_1_0_0_1_wf

class Facts : Prop extends Facts₀ where

variable [Facts]
-- ==== Proof.K.R0.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 0: the dense map of layer 1, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The same for window 1 (the weights): its index is constant, so it is fetched at the first point only. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- The same for window 2 (the bias row), also of constant index. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's one store -/

/-- The result's whole staging buffer as one rectangle. -/
abbrev r0_0 : Rect S2048x64 := Rect.unit (s := S2048x64) ![0, 0] S2048x64.size inb_S2048x64_S2048x64_0_0

/-- What the body leaves in the output window's buffer, as a function of the three input blocks: one write of
    the whole buffer, whose value is the dense map's payload on the blocks read through whole-buffer loads. -/
def out0_3 (x0 : Vec F S2048x64 .f32) (x1 : Vec F S64x64 .f32) (x2 : Vec F S1x64 .f32) : Vec F S2048x64 .f32 :=
  View.canon [⟨r0_0, k0_pay1
    (View.ld x0 (Rect.unit (s := S2048x64) ![0, 0] S2048x64.size inb_S2048x64_S2048x64_0_0))
    (View.ld x1 (Rect.unit (s := S64x64) ![0, 0] S64x64.size inb_S64x64_S64x64_0_0))
    (View.ld x2 (Rect.unit (s := S1x64) ![0, 0] S1x64.size inb_S1x64_S1x64_0_0))⟩]

/-- That one write covers the buffer. -/
theorem cover0_3 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

/-! ## The body's triple -/

set_option maxHeartbeats 1000000 in
/-- The body on whole staging memrefs — the three inputs' read as `x0 x1 x2`, the output's holding anything —
    runs to a state where the inputs' are unchanged and the output's reads `out0_3 x0 x1 x2`. -/
theorem sound_kernel0 (c : Dev nD) (E : Set ℕ) (i : grid0.Coords)
    (arg1 : Memref sig .tc .vmem S2048x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core `c`: the arrays as the region finds them; after the body at point `t`
    each input buffer at its block and the output buffer at `out0_3` of the three blocks; the invariant of a
    body that keeps nothing; nothing owed; every array held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input window's buffer: the window's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- The staging memref each window is on at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The body as the pipeline calls it at point `t`: on the point's coordinates and the current staging memrefs. -/
abbrev bodyAt0 (t : Fin cfg0.N) : Prog (TpuEff nD τ sig (Elt F) Λ₀ .tc) PUnit :=
  cc0__linear_kernel (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))

/-- What the body is entered with at point `t`, the windows listed one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input memrefs hold their blocks, so the body's triple applies; the
    invariant and what the core owes are not touched. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) :
    BodyObligation (dat0 (F := F) V c) (defs₀ (F := F)) Variants.none () Set.univ := fun t => by
  rw [bigSep_W0, bigSep_W0]
  exact sound_body0 V c t

/-! ## Entering and leaving the region -/

theorem hin0 (c : Dev nD) : Pipeline.ΦA spec0 c ⊢ (dat0 V c).Φ 0 := Entails.refl _

theorem hout0 (c : Dev nD) : (dat0 V c).Φ (Fin.last cfg0.N) ⊢ Pipeline.ΦA spec0 c := Entails.refl _

end Cert.Kernel.H

end
-- ==== Proof.K.R1Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather kernel of layer 1, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride1_0 : grid1.stride 0 = 40 := by decide
theorem stride1_1 : grid1.stride 1 = 1 := by decide

/-- Coordinate 1 of point `t`: the remainder modulo 40. -/
theorem coords1_1 (t : Fin cfg1.N) : (grid1.coords t 1).val = t.val % 40 := by
  show t.val / grid1.stride 1 % 40 = t.val % 40
  rw [stride1_1, Nat.div_one]

/-- Coordinate 0 of point `t`: the quotient by 40 (below 1250). -/
theorem coords1_0 (t : Fin cfg1.N) : (grid1.coords t 0).val = t.val / 40 % 1250 := by
  show t.val / grid1.stride 0 % 1250 = _
  rw [stride1_0]

theorem N1_lt (t : Fin cfg1.N) : t.val < 50000 := lt_of_lt_of_eq t.isLt (show cfg1.N = 50000 from N_1)

/-- Two points with the same quotient by 40 have the same coordinate 0. -/
theorem coords1_0_congr (t t' : Fin cfg1.N) (h : t.val / 40 = t'.val / 40) : grid1.coords t 0 = grid1.coords t' 0 :=
  Fin.ext (by rw [coords1_0, coords1_0, h])

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved since the point before. For any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the accumulator), from the grid coordinates. -/
abbrev cond1_0 (i : grid1.Coords) : Prop := (Scalar.cmpi .ne (Scalar.extui (Scalar.cmpi .eq (BitVec.ofNat 32 (i 1).val) 0#32)) 0#32) = 1#1

/-- Over the 40 values of coordinate 1 it holds at 0 only. -/
theorem cond1_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond1_0 (t : Fin cfg1.N) : cond1_0 (grid1.coords t) ↔ t.val % 40 = 0 := by
  rw [← coords1_1 t]; exact cond1_0_fin (grid1.coords t 1)

/-- The condition of the body's second conditional (the read-out into the output). -/
abbrev cond1_1 (i : grid1.Coords) : Prop := k1_cond2 i = 1#1

/-- Over the 40 values of coordinate 1 it holds at 39 only. -/
theorem cond1_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond1_1 (t : Fin cfg1.N) : cond1_1 (grid1.coords t) ↔ t.val % 40 = 39 := by
  rw [← coords1_1 t]; exact cond1_1_fin (grid1.coords t 1)

/-! ## Where the windows are idle, and where the output is written back -/

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- The output is idle exactly where the second condition fails. -/
theorem idle1_3_of_not (i : grid1.Coords) (h1 : ¬cond1_1 i) : cfg1.idle 3 i = true := by
  show (!(k1_cond2 i == 1#1)) = true
  rw [Bool.not_eq_true', beq_eq_false_iff_ne]; exact h1

theorem idleAt1_3_A (t : Fin cfg1.N) (h0 : cond1_0 (grid1.coords t)) (h1 : ¬cond1_1 (grid1.coords t)) : cfg1.idle 3 (grid1.coords t) = true :=
  idle1_3_of_not _ h1
theorem idleAt1_3_B (t : Fin cfg1.N) (h0 : ¬cond1_0 (grid1.coords t)) (h1 : ¬cond1_1 (grid1.coords t)) : cfg1.idle 3 (grid1.coords t) = true :=
  idle1_3_of_not _ h1
theorem liveAt1_3_C (t : Fin cfg1.N) (h0 : ¬cond1_0 (grid1.coords t)) (h1 : cond1_1 (grid1.coords t)) : cfg1.idle 3 (grid1.coords t) = false := by
  show (!(k1_cond2 (grid1.coords t) == 1#1)) = false
  rw [h1]; rfl

/-- The output's block index at a point: the quotient by 40 on the rows, 0 on the columns. -/
theorem index1_3 (t : Fin cfg1.N) : (cfg1.win 3).index t = cc1_transform_3 (grid1.coords t) := rfl

/-- Away from the points ≡ 39 (mod 40) the pipeline does not write the output's block back: the next point is not
    past the grid's end (50000 is a multiple of 40) and has the same quotient by 40, so the same block index. -/
theorem noFlush1_3 (t : Fin cfg1.N) (h : t.val % 40 ≠ 39) : (cfg1.win 3).flush t = false := by
  have hN := N1_lt t
  unfold Pipeline.Window.flush
  rw [Bool.and_eq_false_iff]; right
  rw [Bool.or_eq_false_iff]
  refine ⟨decide_eq_false (fun he => by have h2 : t.val + 1 = 50000 := he.trans N_1; omega), decide_eq_false ?_⟩
  rintro ⟨h', hne⟩
  apply hne
  rw [index1_3, index1_3]
  unfold cc1_transform_3
  rw [coords1_0_congr ⟨t.val + 1, h'⟩ t (by show (t.val + 1) / 40 = t.val / 40; omega)]

theorem noFlush1_3_A (t : Fin cfg1.N) (h0 : cond1_0 (grid1.coords t)) (h1 : ¬cond1_1 (grid1.coords t)) : (cfg1.win 3).flush t = false :=
  noFlush1_3 t (fun h => h1 ((hcond1_1 t).mpr h))
theorem noFlush1_3_B (t : Fin cfg1.N) (h0 : ¬cond1_0 (grid1.coords t)) (h1 : ¬cond1_1 (grid1.coords t)) : (cfg1.win 3).flush t = false :=
  noFlush1_3 t (fun h => h1 ((hcond1_1 t).mpr h))

/-! ## The staging memrefs and the body as the pipeline calls it -/

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-- One staging buffer of output window 3, through which its contents are stated (the choice does not matter). -/
abbrev VO1_3 : View sig .tc .vmem S1280x64 .bf16 := (Memref.whole cc1_stg3_0 : Memref sig .tc .vmem S1280x64 .bf16).view
/-- Each window's current staging memref at point `t`, spelled as the pipeline passes it, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2560x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x64 .bf16 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1280x64 .f32 := Memref.whole cc1_scratch0
/-- The scratch accumulator the kernel carries between points, as a view: what it holds is stated through it. -/
abbrev VS1_0 : View sig .tc .vmem S1280x64 .f32 := scM1_0.view

/-- The region invariant of the class with the scratch operand as a memref owned at some contents, the other
    scoped buffers of the program unopened beside it, and the generator register at some state: what the body
    obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.H

end
-- ==== Proof.K.R1RunA.lean ====
import proofs.«421344_j1254130450614_1_alg».proof.Proof.K.R1Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun1_A (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R1RunB.lean ====
import proofs.«421344_j1254130450614_1_alg».proof.Proof.K.R1Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun1_B (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R1RunC.lean ====
import proofs.«421344_j1254130450614_1_alg».proof.Proof.K.R1Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun1_C (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.R1.lean ====
import proofs.«421344_j1254130450614_1_alg».proof.Proof.K.R1RunA
import proofs.«421344_j1254130450614_1_alg».proof.Proof.K.R1RunB
import proofs.«421344_j1254130450614_1_alg».proof.Proof.K.R1RunC
import Idealize.ShloMosaic.Lib.Ring

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather kernel of layer 1): what the output and the scratch accumulator hold per case and point by
point, the proof data, the body obligation at a generic point, and the invariant's two ends. -/

/-! ## What each case leaves -/

/-- Case A stores nothing into the output (idle at its points and not written back there): no pieces, a placeholder
    nothing consults. -/
def out1_A_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) : Vec F S1280x64 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator (the reset, then the accumulation: two whole-block stores) cover it. -/
theorem scover1_A_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) (y : S1280x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1280x64.size (by sl_kernel_rfl) y

/-- What case A leaves in the scratch accumulator: its pieces read back. -/
def sout1_A_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) : Vec F S1280x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output either. -/
def out1_B_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) : Vec F S1280x64 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's piece for the scratch accumulator (one whole-block store) covers it. -/
theorem scover1_B_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) (y : S1280x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1280x64.size (by sl_kernel_rfl) y

/-- What case B leaves in the scratch accumulator. -/
def sout1_B_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) : Vec F S1280x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's piece for the output (one whole-block store) covers its block. -/
theorem cover1_C_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) (y : S1280x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1280x64.size (by sl_kernel_rfl) y

/-- What case C leaves in the output's staging buffer: its piece read back. -/
def out1_C_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) : Vec F S1280x64 .bf16 :=
  VO1_3.read (Elt F) (VO1_3.writes (Elt F) VO1_3.junk (kernelRun1_C c i arg2 harg2 arg3 harg3 arg4 harg4 arg5 harg5 arg6 harg6 hc0 hc1 x0 x1 x2 xs0).1)

/-- Case C's piece for the scratch accumulator covers it. -/
theorem scover1_C_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) (y : S1280x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1280x64.size (by sl_kernel_rfl) y

/-- What case C leaves in the scratch accumulator. -/
def sout1_C_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) : Vec F S1280x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt1 (c : Dev nD) : (n : ℕ) → n < cfg1.N → Vec F S1280x64 .bf16 × Vec F S1280x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 40 = 0 then
      if h1 : (n + 1) % 40 = 39 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 40 = 39 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 40 = 0) (h1 : ¬t.val % 40 = 39) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 40 = 0) (h1 : ¬t.val % 40 = 39) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 40 = 0) (h1 : t.val % 40 = 39) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's; afterwards the scratch accumulator at
    what the point before left in it, the other scoped buffers unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input's post at any point: the window is never idle, so its buffer at what the body leaves, its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50000 := N1_lt t
  by_cases h0 : t.val % 40 = 0
  · by_cases h1 : t.val % 40 = 39
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 50000 := N_1; omega)

end Cert.Kernel.H

end
-- ==== Proof.K.R2Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 2 (the scatter and row-normalisation kernel of layer 1): what its three runs share

The grid is 40 x 1250, the last axis fastest: point `t` has coordinates `(t / 1250 % 40, t % 1250)`. The body
branches on the second coordinate only: at 0 it resets the accumulator, at 1249 it normalises the accumulator into
the output block. Every fact over the 50000 points below is obtained from these two closed forms by arithmetic. -/

/-! ## The staging memrefs at a point and the body as the pipeline calls it -/

/-- The current staging memref of each window at point `t`. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)

/-- The kernel body at point `t`, on the memrefs the pipeline passes it: the five windows' current staging
    memrefs, then the accumulator. -/
abbrev bodyAt2 (t : Fin cfg2.N) : Prog (TpuEff nD τ sig (Elt F) Λ₀ .tc) PUnit :=
  cc2__kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (Memref.whole cc2_scratch0) (Memref.isWhole_whole _)

/-- The congruence lemmas of the kernel function and of its skeleton, stated here once: each case's run rewrites
    the function to its skeleton under them, and all three runs share this one pair. -/
theorem congr_simp_realized2 : True := by
  have := @cc2__kernel.congr_simp; have := @cc2__kernel_skel.congr_simp
  trivial

/-! ## The grid's coordinates in closed form -/

/-- The second coordinate of point `t` is `t mod 1250`. -/
theorem coords2_1 (t : Fin cfg2.N) : (grid2.coords t 1).val = t.val % 1250 := by
  show t.val / grid2.stride 1 % 1250 = t.val % 1250
  have : grid2.stride 1 = 1 := by decide
  rw [this, Nat.div_one]

/-- The first coordinate of point `t` is `t / 1250` (below 40 for every point of the grid). -/
theorem coords2_0 (t : Fin cfg2.N) : (grid2.coords t 0).val = t.val / 1250 % 40 := by
  show t.val / grid2.stride 0 % 40 = _
  have : grid2.stride 0 = 1250 := by decide
  rw [this]

/-- The grid has 50000 points. -/
theorem lt_N2 (t : Fin cfg2.N) : t.val < 50000 := lt_of_lt_of_eq t.isLt N_2

/-! ## The body's branch conditions -/

/-- The condition of the body's first conditional: the second coordinate is 0. -/
abbrev cond2_0 (i : grid2.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond2_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond2_0 : ∀ t : Fin cfg2.N, cond2_0 (grid2.coords t) ↔ t.val % 1250 = 0 := fun t => by
  rw [← coords2_1 t]; exact cond2_0_fin (grid2.coords t 1)

/-- The condition of the body's second conditional: the second coordinate is 1249. -/
abbrev cond2_1 (i : grid2.Coords) : Prop := k2_cond2 i = 1#1

/-- On a second coordinate `j < 1250` the 32-bit comparison with 1249 is the comparison of naturals. -/
theorem cond2_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond2_1 : ∀ t : Fin cfg2.N, cond2_1 (grid2.coords t) ↔ t.val % 1250 = 1249 := fun t => by
  rw [← coords2_1 t]; exact cond2_1_fin (grid2.coords t 1)

/-! ## Where the windows are idle, and where the output is written back -/

/-- The four inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-- The output is idle exactly where the second conditional is not taken. -/
theorem idle2_4_eq (i : grid2.Coords) : cfg2.idle 4 i = !(k2_cond2 i == 1#1) := rfl

theorem idle2_4_of_not (i : grid2.Coords) (h : ¬cond2_1 i) : cfg2.idle 4 i = true := by
  rw [idle2_4_eq]; simp only [Bool.not_eq_true', beq_eq_false_iff_ne, ne_eq]; exact h

theorem live2_4_of (i : grid2.Coords) (h : cond2_1 i) : cfg2.idle 4 i = false := by
  rw [idle2_4_eq]; simp only [Bool.not_eq_false', beq_iff_eq]; exact h

/-- At the points of case A the output is idle: the case stores nothing into it. -/
theorem idleAt2_4_A : ∀ t : Fin cfg2.N, cond2_0 (grid2.coords t) → ¬cond2_1 (grid2.coords t) → cfg2.idle 4 (grid2.coords t) = true :=
  fun t _ h => idle2_4_of_not _ h
/-- At the points of case B the output is idle: the case stores nothing into it. -/
theorem idleAt2_4_B : ∀ t : Fin cfg2.N, ¬cond2_0 (grid2.coords t) → ¬cond2_1 (grid2.coords t) → cfg2.idle 4 (grid2.coords t) = true :=
  fun t _ h => idle2_4_of_not _ h
/-- At the points of case C the output is live: the case stores into it. -/
theorem liveAt2_4_C : ∀ t : Fin cfg2.N, ¬cond2_0 (grid2.coords t) → cond2_1 (grid2.coords t) → cfg2.idle 4 (grid2.coords t) = false :=
  fun t _ h => live2_4_of _ h

/-- The output's block index at point `t`. -/
theorem index2_4 (t : Fin cfg2.N) : (cfg2.win 4).index t = cc2_transform_4 (grid2.coords t) := rfl

/-- Away from the points ≡ 1249 (mod 1250) the output's block is not written back: the point is not the last
    (49999 ≡ 1249), and the next point has the same first coordinate, which is all the block index reads. -/
theorem noFlush2_4_of (t : Fin cfg2.N) (h : ¬t.val % 1250 = 1249) : (cfg2.win 4).flush t = false := by
  have hN := lt_N2 t
  unfold Pipeline.Window.flush
  rw [Bool.and_eq_false_iff]; right
  rw [Bool.or_eq_false_iff]; constructor
  · exact decide_eq_false (fun e => by have e' : t.val + 1 = 50000 := e.trans N_2; omega)
  · apply decide_eq_false
    rintro ⟨h', hne⟩; apply hne
    show cc2_transform_4 (grid2.coords ⟨t.val + 1, h'⟩) = cc2_transform_4 (grid2.coords t)
    apply hreads2_4
    intro a ha
    have ha0 : a = 0 := by
      fin_cases a
      · rfl
      · exact absurd ha (by decide)
    subst ha0
    apply Fin.ext
    rw [coords2_0 ⟨t.val + 1, h'⟩, coords2_0 t]; dsimp only; omega

/-- At the points of case A the pipeline does not write the output's block back. -/
theorem noFlush2_4_A : ∀ t : Fin cfg2.N, cond2_0 (grid2.coords t) → ¬cond2_1 (grid2.coords t) → (cfg2.win 4).flush t = false :=
  fun t _ h => noFlush2_4_of t (fun e => h ((hcond2_1 t).mpr e))
/-- At the points of case B the pipeline does not write the output's block back. -/
theorem noFlush2_4_B : ∀ t : Fin cfg2.N, ¬cond2_0 (grid2.coords t) → ¬cond2_1 (grid2.coords t) → (cfg2.win 4).flush t = false :=
  fun t _ h => noFlush2_4_of t (fun e => h ((hcond2_1 t).mpr e))

/-! ## The memrefs the runs are stated over -/

/-- One staging buffer of the output window, through which its contents are stated. -/
abbrev VO2_4 : View sig .tc .vmem S2560x64 .f32 := (Memref.whole cc2_stg4_0 : Memref sig .tc .vmem S2560x64 .f32).view
/-- Each window's current staging memref at point `t`, spelled as the pipeline passes it, and its wholeness. -/
abbrev ms2_0 (t : Fin cfg2.N) : Memref sig .tc .vmem S1x1280 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2560x64 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S2560x64 .f32 := Memref.whole cc2_scratch0
/-- The accumulator as a view: what it holds between points is stated through it. -/
abbrev VS2_0 : View sig .tc .vmem S2560x64 .f32 := scM2_0.view

/-- The region's entry invariant with the accumulator as a memref owned at some contents; every other scoped
    buffer of the core that is no staging buffer of this region stays unopened beside it. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: where the window is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.H

end
-- ==== Proof.K.R2RunA.lean ====
import proofs.«421344_j1254130450614_1_alg».proof.Proof.K.R2Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the four inputs at their contents, the output at
    contents `xi4` handed back untouched, the accumulator at anything, the body runs to the continuation holding
    the inputs and the output as they were and the accumulator with its pieces written. -/
noncomputable def kernelRun2_A (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) :
    Σ' (L4 : List (View.Piece (Elt F) S2560x64 .f32)), { LS0 : List (View.Piece (Elt F) S2560x64 .f32) //
      ∀ (xi4 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨[], ?_, fun xi4 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.H

end
-- ==== Proof.K.R2RunB.lean ====
import proofs.«421344_j1254130450614_1_alg».proof.Proof.K.R2Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the four inputs at their contents, the output at contents `xi4`
    handed back untouched, the accumulator at the contents `xs0` the point before left, the body runs to the
    continuation holding the inputs and the output as they were and the accumulator with its pieces written. -/
noncomputable def kernelRun2_B (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) :
    Σ' (L4 : List (View.Piece (Elt F) S2560x64 .f32)), { LS0 : List (View.Piece (Elt F) S2560x64 .f32) //
      ∀ (xi4 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨[], ?_, fun xi4 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.H

end
-- ==== Proof.K.R2RunC.lean ====
import proofs.«421344_j1254130450614_1_alg».proof.Proof.K.R2Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows) and in the accumulator (the accumulation over
    what the point before left), WITH the run: on whole memrefs, the four inputs at their contents, the output at
    anything, the accumulator at the contents `xs0` the point before left, the body runs to the continuation
    holding the inputs as they were and the output and the accumulator each with its pieces written. -/
noncomputable def kernelRun2_C (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) :
    Σ' (L4 : List (View.Piece (Elt F) S2560x64 .f32)), { LS0 : List (View.Piece (Elt F) S2560x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.H

end
-- ==== Proof.K.R2.lean ====
import proofs.«421344_j1254130450614_1_alg».proof.Proof.K.R2RunA
import proofs.«421344_j1254130450614_1_alg».proof.Proof.K.R2RunB
import proofs.«421344_j1254130450614_1_alg».proof.Proof.K.R2RunC
import Idealize.ShloMosaic.Lib.Ring

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 2: what the output and the accumulator hold point by point, the proof data, the body obligation -/

/-! ## What each case leaves -/

/-- Case A stores nothing into the output (the window is idle at its points and not written back there): no
    pieces; the contents named here are consulted by nothing. -/
def out2_A_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) : Vec F S2560x64 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- Case A's pieces for the accumulator cover it: each store writes the whole of it. -/
theorem scover2_A_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) (y : S2560x64.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2560x64.size (by sl_kernel_rfl) y

/-- What case A leaves in the accumulator: its pieces read back. -/
def sout2_A_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) : Vec F S2560x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- Case B stores nothing into the output either. -/
def out2_B_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- Case B's piece for the accumulator covers it. -/
theorem scover2_B_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2560x64.size (by sl_kernel_rfl) y

/-- What case B leaves in the accumulator. -/
def sout2_B_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- Case C's piece for the output covers its block: one store of the whole block. -/
theorem cover2_C_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2560x64.size (by sl_kernel_rfl) y

/-- What case C leaves in the output's staging buffer: the normalised rows. -/
def out2_C_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- Case C's piece for the accumulator covers it. -/
theorem scover2_C_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2560x64.size (by sl_kernel_rfl) y

/-- What case C leaves in the accumulator. -/
def sout2_C_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt2 (c : Dev nD) : (n : ℕ) → n < cfg2.N → Vec F S2560x64 .f32 × Vec F S2560x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 1250 = 0 then
      if h1 : (n + 1) % 1250 = 1249 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 1250 = 1249 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 1250 = 0) (h1 : ¬t.val % 1250 = 1249) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 1250 = 0) (h1 : ¬t.val % 1250 = 1249) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 1250 = 0) (h1 : t.val % 1250 = 1249) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of region 2 on core `c`: the arrays as the region finds them; after the body at point `t`
    each input's buffer at its block and the output's at `outsAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem recorded_eq2 (c : Dev nD) (t : Fin (cfg2.N + 1)) : (dat2 V c).recorded t = Set.univ := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50000 := lt_N2 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 1250 = 0
  · by_cases h1 : t.val % 1250 = 1249
    · exfalso; omega
    · rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 1250 = 1249
    · rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 50000 := N_2; omega)

end Cert.Kernel.H

end
-- ==== Proof.K.R3.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 3: the dense map of layer 2, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

/-- The same for window 1 (the weights): its index is constant, so it is fetched at the first point only. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

/-- The same for window 2 (the bias row), also of constant index. -/
theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t :=
  (dat.before_in_eq_fetched 2 rfl (fun _ => rfl) (fun _ _ _ => rfl)
      (fun t => by rw [hafter]; unfold Dat.blockOf iblk3; rw [hA]; try rfl) t d).trans
    (by unfold Dat.fetched Dat.blockOf iblk3; rw [hA]; try rfl)

/-! ## The body's one store -/

/-- The result's whole staging buffer as one rectangle. -/
abbrev r3_0 : Rect S2048x64 := Rect.unit (s := S2048x64) ![0, 0] S2048x64.size inb_S2048x64_S2048x64_0_0

/-- What the body leaves in the output window's buffer, as a function of the three input blocks: one write of
    the whole buffer, whose value is the dense map's payload on the blocks read through whole-buffer loads. -/
def out3_3 (x0 : Vec F S2048x64 .f32) (x1 : Vec F S64x64 .f32) (x2 : Vec F S1x64 .f32) : Vec F S2048x64 .f32 :=
  View.canon [⟨r3_0, k3_pay1
    (View.ld x0 (Rect.unit (s := S2048x64) ![0, 0] S2048x64.size inb_S2048x64_S2048x64_0_0))
    (View.ld x1 (Rect.unit (s := S64x64) ![0, 0] S64x64.size inb_S64x64_S64x64_0_0))
    (View.ld x2 (Rect.unit (s := S1x64) ![0, 0] S1x64.size inb_S1x64_S1x64_0_0))⟩]

/-- That one write covers the buffer. -/
theorem cover3_3 (p0 : Vec F S2048x64 .f32) (y : S2048x64.Idx) :
    ∃ pc ∈ ([⟨r3_0, p0⟩] : List (View.Piece (Elt F) S2048x64 .f32)), y ∈ pc.1.set :=
  View.cover_of_tiled [⟨r3_0, p0⟩] S2048x64.size (by rfl) y

/-! ## The body's triple -/

set_option maxHeartbeats 1000000 in
/-- The body on whole staging memrefs — the three inputs' read as `x0 x1 x2`, the output's holding anything —
    runs to a state where the inputs' are unchanged and the output's reads `out3_3 x0 x1 x2`. -/
theorem sound_kernel3 (c : Dev nD) (E : Set ℕ) (i : grid3.Coords)
    (arg1 : Memref sig .tc .vmem S2048x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E
          (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of region 3 on core `c`: the arrays as the region finds them; after the body at point `t`
    each input buffer at its block and the output buffer at `out3_3` of the three blocks; the invariant of a
    body that keeps nothing; nothing owed; every array held in full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem recorded_eq3 (c : Dev nD) (t : Fin (cfg3.N + 1)) : (dat3 V c).recorded t = Set.univ := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- What the body finds in each input window's buffer: the window's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a grid point -/

/-- The staging memref each window is on at point `t`. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)

/-- The body as the pipeline calls it at point `t`: on the point's coordinates and the current staging memrefs. -/
abbrev bodyAt3 (t : Fin cfg3.N) : Prog (TpuEff nD τ sig (Elt F) Λ₀ .tc) PUnit :=
  cc3__linear_kernel (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))

/-- What the body is entered with at point `t`, the windows listed one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input memrefs hold their blocks, so the body's triple applies; the
    invariant and what the core owes are not touched. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation3 (c : Dev nD) :
    BodyObligation (dat3 (F := F) V c) (defs₀ (F := F)) Variants.none () Set.univ := fun t => by
  rw [bigSep_W3, bigSep_W3]
  exact sound_body3 V c t

/-! ## Entering and leaving the region -/

theorem hin3 (c : Dev nD) : Pipeline.ΦA spec3 c ⊢ (dat3 V c).Φ 0 := Entails.refl _

theorem hout3 (c : Dev nD) : (dat3 V c).Φ (Fin.last cfg3.N) ⊢ Pipeline.ΦA spec3 c := Entails.refl _

end Cert.Kernel.H

end
-- ==== Proof.K.R4Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather kernel of layer 2, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride4_0 : grid4.stride 0 = 40 := by decide
theorem stride4_1 : grid4.stride 1 = 1 := by decide

/-- Coordinate 1 of point `t`: the remainder modulo 40. -/
theorem coords4_1 (t : Fin cfg4.N) : (grid4.coords t 1).val = t.val % 40 := by
  show t.val / grid4.stride 1 % 40 = t.val % 40
  rw [stride4_1, Nat.div_one]

/-- Coordinate 0 of point `t`: the quotient by 40 (below 1250). -/
theorem coords4_0 (t : Fin cfg4.N) : (grid4.coords t 0).val = t.val / 40 % 1250 := by
  show t.val / grid4.stride 0 % 1250 = _
  rw [stride4_0]

theorem N4_lt (t : Fin cfg4.N) : t.val < 50000 := lt_of_lt_of_eq t.isLt (show cfg4.N = 50000 from N_4)

/-- Two points with the same quotient by 40 have the same coordinate 0. -/
theorem coords4_0_congr (t t' : Fin cfg4.N) (h : t.val / 40 = t'.val / 40) : grid4.coords t 0 = grid4.coords t' 0 :=
  Fin.ext (by rw [coords4_0, coords4_0, h])

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where the
    pipeline does not fetch, the block index has not moved since the point before. For any proof data whose
    array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reset of the accumulator), from the grid coordinates. -/
abbrev cond4_0 (i : grid4.Coords) : Prop := (Scalar.cmpi .ne (Scalar.extui (Scalar.cmpi .eq (BitVec.ofNat 32 (i 1).val) 0#32)) 0#32) = 1#1

/-- Over the 40 values of coordinate 1 it holds at 0 only. -/
theorem cond4_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond4_0 (t : Fin cfg4.N) : cond4_0 (grid4.coords t) ↔ t.val % 40 = 0 := by
  rw [← coords4_1 t]; exact cond4_0_fin (grid4.coords t 1)

/-- The condition of the body's second conditional (the read-out into the output). -/
abbrev cond4_1 (i : grid4.Coords) : Prop := k4_cond2 i = 1#1

/-- Over the 40 values of coordinate 1 it holds at 39 only. -/
theorem cond4_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond4_1 (t : Fin cfg4.N) : cond4_1 (grid4.coords t) ↔ t.val % 40 = 39 := by
  rw [← coords4_1 t]; exact cond4_1_fin (grid4.coords t 1)

/-! ## Where the windows are idle, and where the output is written back -/

/-- The inputs are never idle. -/
theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl

/-- The output is idle exactly where the second condition fails. -/
theorem idle4_3_of_not (i : grid4.Coords) (h1 : ¬cond4_1 i) : cfg4.idle 3 i = true := by
  show (!(k4_cond2 i == 1#1)) = true
  rw [Bool.not_eq_true', beq_eq_false_iff_ne]; exact h1

theorem idleAt4_3_A (t : Fin cfg4.N) (h0 : cond4_0 (grid4.coords t)) (h1 : ¬cond4_1 (grid4.coords t)) : cfg4.idle 3 (grid4.coords t) = true :=
  idle4_3_of_not _ h1
theorem idleAt4_3_B (t : Fin cfg4.N) (h0 : ¬cond4_0 (grid4.coords t)) (h1 : ¬cond4_1 (grid4.coords t)) : cfg4.idle 3 (grid4.coords t) = true :=
  idle4_3_of_not _ h1
theorem liveAt4_3_C (t : Fin cfg4.N) (h0 : ¬cond4_0 (grid4.coords t)) (h1 : cond4_1 (grid4.coords t)) : cfg4.idle 3 (grid4.coords t) = false := by
  show (!(k4_cond2 (grid4.coords t) == 1#1)) = false
  rw [h1]; rfl

/-- The output's block index at a point: the quotient by 40 on the rows, 0 on the columns. -/
theorem index4_3 (t : Fin cfg4.N) : (cfg4.win 3).index t = cc4_transform_3 (grid4.coords t) := rfl

/-- Away from the points ≡ 39 (mod 40) the pipeline does not write the output's block back: the next point is not
    past the grid's end (50000 is a multiple of 40) and has the same quotient by 40, so the same block index. -/
theorem noFlush4_3 (t : Fin cfg4.N) (h : t.val % 40 ≠ 39) : (cfg4.win 3).flush t = false := by
  have hN := N4_lt t
  unfold Pipeline.Window.flush
  rw [Bool.and_eq_false_iff]; right
  rw [Bool.or_eq_false_iff]
  refine ⟨decide_eq_false (fun he => by have h2 : t.val + 1 = 50000 := he.trans N_4; omega), decide_eq_false ?_⟩
  rintro ⟨h', hne⟩
  apply hne
  rw [index4_3, index4_3]
  unfold cc4_transform_3
  rw [coords4_0_congr ⟨t.val + 1, h'⟩ t (by show (t.val + 1) / 40 = t.val / 40; omega)]

theorem noFlush4_3_A (t : Fin cfg4.N) (h0 : cond4_0 (grid4.coords t)) (h1 : ¬cond4_1 (grid4.coords t)) : (cfg4.win 3).flush t = false :=
  noFlush4_3 t (fun h => h1 ((hcond4_1 t).mpr h))
theorem noFlush4_3_B (t : Fin cfg4.N) (h0 : ¬cond4_0 (grid4.coords t)) (h1 : ¬cond4_1 (grid4.coords t)) : (cfg4.win 3).flush t = false :=
  noFlush4_3 t (fun h => h1 ((hcond4_1 t).mpr h))

/-! ## The staging memrefs and the body as the pipeline calls it -/

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with. -/
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

/-- One staging buffer of output window 3, through which its contents are stated (the choice does not matter). -/
abbrev VO4_3 : View sig .tc .vmem S1280x64 .bf16 := (Memref.whole cc4_stg3_0 : Memref sig .tc .vmem S1280x64 .bf16).view
/-- Each window's current staging memref at point `t`, spelled as the pipeline passes it, and its wholeness. -/
abbrev ms4_0 (t : Fin cfg4.N) : Memref sig .tc .vmem S1280x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2560x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1280x64 .bf16 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S1280x64 .f32 := Memref.whole cc4_scratch0
/-- The scratch accumulator the kernel carries between points, as a view: what it holds is stated through it. -/
abbrev VS4_0 : View sig .tc .vmem S1280x64 .f32 := scM4_0.view

/-- The region invariant of the class with the scratch operand as a memref owned at some contents, the other
    scoped buffers of the program unopened beside it, and the generator register at some state: what the body
    obligation hands the run and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.H

end
-- ==== Proof.K.R4RunA.lean ====
import proofs.«421344_j1254130450614_1_alg».proof.Proof.K.R4Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun4_A (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R4RunB.lean ====
import proofs.«421344_j1254130450614_1_alg».proof.Proof.K.R4Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun4_B (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R4RunC.lean ====
import proofs.«421344_j1254130450614_1_alg».proof.Proof.K.R4Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun4_C (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.R4.lean ====
import proofs.«421344_j1254130450614_1_alg».proof.Proof.K.R4RunA
import proofs.«421344_j1254130450614_1_alg».proof.Proof.K.R4RunB
import proofs.«421344_j1254130450614_1_alg».proof.Proof.K.R4RunC
import Idealize.ShloMosaic.Lib.Ring

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather kernel of layer 2): what the output and the scratch accumulator hold per case and point by
point, the proof data, the body obligation at a generic point, and the invariant's two ends. -/

/-! ## What each case leaves -/

/-- Case A stores nothing into the output (idle at its points and not written back there): no pieces, a placeholder
    nothing consults. -/
def out4_A_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) : Vec F S1280x64 .bf16 :=
  VO4_3.read (Elt F) (VO4_3.writes (Elt F) VO4_3.junk (kernelRun4_A c i arg2 harg2 arg3 harg3 arg4 harg4 arg5 harg5 arg6 harg6 hc0 hc1 x0 x1 x2).1)

/-- Case A's pieces for the scratch accumulator (the reset, then the accumulation: two whole-block stores) cover it. -/
theorem scover4_A_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) (y : S1280x64.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1280x64.size (by sl_kernel_rfl) y

/-- What case A leaves in the scratch accumulator: its pieces read back. -/
def sout4_A_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) : Vec F S1280x64 .f32 :=
  VS4_0.read (Elt F) (VS4_0.writes (Elt F) VS4_0.junk (kernelRun4_A c i arg2 harg2 arg3 harg3 arg4 harg4 arg5 harg5 arg6 harg6 hc0 hc1 x0 x1 x2).2.1)

/-- Case B stores nothing into the output either. -/
def out4_B_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) : Vec F S1280x64 .bf16 :=
  VO4_3.read (Elt F) (VO4_3.writes (Elt F) VO4_3.junk (kernelRun4_B c i arg2 harg2 arg3 harg3 arg4 harg4 arg5 harg5 arg6 harg6 hc0 hc1 x0 x1 x2 xs0).1)

/-- Case B's piece for the scratch accumulator (one whole-block store) covers it. -/
theorem scover4_B_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) (y : S1280x64.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1280x64.size (by sl_kernel_rfl) y

/-- What case B leaves in the scratch accumulator. -/
def sout4_B_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) : Vec F S1280x64 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's piece for the output (one whole-block store) covers its block. -/
theorem cover4_C_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) (y : S1280x64.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1280x64.size (by sl_kernel_rfl) y

/-- What case C leaves in the output's staging buffer: its piece read back. -/
def out4_C_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) : Vec F S1280x64 .bf16 :=
  VO4_3.read (Elt F) (VO4_3.writes (Elt F) VO4_3.junk (kernelRun4_C c i arg2 harg2 arg3 harg3 arg4 harg4 arg5 harg5 arg6 harg6 hc0 hc1 x0 x1 x2 xs0).1)

/-- Case C's piece for the scratch accumulator covers it. -/
theorem scover4_C_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) (y : S1280x64.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1280x64.size (by sl_kernel_rfl) y

/-- What case C leaves in the scratch accumulator. -/
def sout4_C_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) : Vec F S1280x64 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt4 (c : Dev nD) : (n : ℕ) → n < cfg4.N → Vec F S1280x64 .bf16 × Vec F S1280x64 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 40 = 0 then
      if h1 : (n + 1) % 40 = 39 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 40 = 39 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 40 = 0) (h1 : ¬t.val % 40 = 39) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 40 = 0) (h1 : ¬t.val % 40 = 39) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 40 = 0) (h1 : t.val % 40 = 39) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's; afterwards the scratch accumulator at
    what the point before left in it, the other scoped buffers unopened, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of region 4 on core `c`: the arrays as the region finds them (`V`); after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- An input's post at any point: the window is never idle, so its buffer at what the body leaves, its block. -/
theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 50000 := N4_lt t
  by_cases h0 : t.val % 40 = 0
  · by_cases h1 : t.val % 40 = 39
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 50000 := N_4; omega)

end Cert.Kernel.H

end
-- ==== Proof.K.R5Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 5 (the scatter and row-normalisation kernel of layer 2): what its three runs share

The grid is 40 x 1250, the last axis fastest: point `t` has coordinates `(t / 1250 % 40, t % 1250)`. The body
branches on the second coordinate only: at 0 it resets the accumulator, at 1249 it adds the residual block to the
accumulator and normalises the sum into the output block. Beside region 2's four inputs the region has a fifth, the
residual (window 4, blocked as the output is); the output is window 5. Every fact over the 50000 points below is obtained from these two closed forms by arithmetic. -/

/-! ## The staging memrefs at a point and the body as the pipeline calls it -/

/-- The current staging memref of each window at point `t`. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev st5_4 (t : Fin cfg5.N) := (cfg5.win 4).stage (cfg5.slots t 4)
abbrev st5_5 (t : Fin cfg5.N) := (cfg5.win 5).stage (cfg5.slots t 5)

/-- The kernel body at point `t`, on the memrefs the pipeline passes it: the six windows' current staging
    memrefs, then the accumulator. -/
abbrev bodyAt5 (t : Fin cfg5.N) : Prog (TpuEff nD τ sig (Elt F) Λ₀ .tc) PUnit :=
  cc5__kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (Memref.whole cc5_scratch0) (Memref.isWhole_whole _)

/-- The congruence lemmas of the kernel function and of its skeleton, stated here once: each case's run rewrites
    the function to its skeleton under them, and all three runs share this one pair. -/
theorem congr_simp_realized5 : True := by
  have := @cc5__kernel.congr_simp; have := @cc5__kernel_skel.congr_simp
  trivial

/-! ## The grid's coordinates in closed form -/

/-- The second coordinate of point `t` is `t mod 1250`. -/
theorem coords5_1 (t : Fin cfg5.N) : (grid5.coords t 1).val = t.val % 1250 := by
  show t.val / grid5.stride 1 % 1250 = t.val % 1250
  have : grid5.stride 1 = 1 := by decide
  rw [this, Nat.div_one]

/-- The first coordinate of point `t` is `t / 1250` (below 40 for every point of the grid). -/
theorem coords5_0 (t : Fin cfg5.N) : (grid5.coords t 0).val = t.val / 1250 % 40 := by
  show t.val / grid5.stride 0 % 40 = _
  have : grid5.stride 0 = 1250 := by decide
  rw [this]

/-- The grid has 50000 points. -/
theorem lt_N5 (t : Fin cfg5.N) : t.val < 50000 := lt_of_lt_of_eq t.isLt N_5

/-! ## The body's branch conditions -/

/-- The condition of the body's first conditional: the second coordinate is 0. -/
abbrev cond5_0 (i : grid5.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond5_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond5_0 : ∀ t : Fin cfg5.N, cond5_0 (grid5.coords t) ↔ t.val % 1250 = 0 := fun t => by
  rw [← coords5_1 t]; exact cond5_0_fin (grid5.coords t 1)

/-- The condition of the body's second conditional: the second coordinate is 1249. -/
abbrev cond5_1 (i : grid5.Coords) : Prop := k5_cond2 i = 1#1

/-- On a second coordinate `j < 1250` the 32-bit comparison with 1249 is the comparison of naturals. -/
theorem cond5_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond5_1 : ∀ t : Fin cfg5.N, cond5_1 (grid5.coords t) ↔ t.val % 1250 = 1249 := fun t => by
  rw [← coords5_1 t]; exact cond5_1_fin (grid5.coords t 1)

/-! ## Where the windows are idle, and where the output is written back -/

/-- The five inputs are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl

/-- The output is idle exactly where the second conditional is not taken. -/
theorem idle5_5_eq (i : grid5.Coords) : cfg5.idle 5 i = !(k5_cond2 i == 1#1) := rfl

theorem idle5_5_of_not (i : grid5.Coords) (h : ¬cond5_1 i) : cfg5.idle 5 i = true := by
  rw [idle5_5_eq]; simp only [Bool.not_eq_true', beq_eq_false_iff_ne, ne_eq]; exact h

theorem live5_5_of (i : grid5.Coords) (h : cond5_1 i) : cfg5.idle 5 i = false := by
  rw [idle5_5_eq]; simp only [Bool.not_eq_false', beq_iff_eq]; exact h

/-- At the points of case A the output is idle: the case stores nothing into it. -/
theorem idleAt5_5_A : ∀ t : Fin cfg5.N, cond5_0 (grid5.coords t) → ¬cond5_1 (grid5.coords t) → cfg5.idle 5 (grid5.coords t) = true :=
  fun t _ h => idle5_5_of_not _ h
/-- At the points of case B the output is idle: the case stores nothing into it. -/
theorem idleAt5_5_B : ∀ t : Fin cfg5.N, ¬cond5_0 (grid5.coords t) → ¬cond5_1 (grid5.coords t) → cfg5.idle 5 (grid5.coords t) = true :=
  fun t _ h => idle5_5_of_not _ h
/-- At the points of case C the output is live: the case stores into it. -/
theorem liveAt5_5_C : ∀ t : Fin cfg5.N, ¬cond5_0 (grid5.coords t) → cond5_1 (grid5.coords t) → cfg5.idle 5 (grid5.coords t) = false :=
  fun t _ h => live5_5_of _ h

/-- The output's block index at point `t`. -/
theorem index5_5 (t : Fin cfg5.N) : (cfg5.win 5).index t = cc5_transform_5 (grid5.coords t) := rfl

/-- Away from the points ≡ 1249 (mod 1250) the output's block is not written back: the point is not the last
    (49999 ≡ 1249), and the next point has the same first coordinate, which is all the block index reads. -/
theorem noFlush5_5_of (t : Fin cfg5.N) (h : ¬t.val % 1250 = 1249) : (cfg5.win 5).flush t = false := by
  have hN := lt_N5 t
  unfold Pipeline.Window.flush
  rw [Bool.and_eq_false_iff]; right
  rw [Bool.or_eq_false_iff]; constructor
  · exact decide_eq_false (fun e => by have e' : t.val + 1 = 50000 := e.trans N_5; omega)
  · apply decide_eq_false
    rintro ⟨h', hne⟩; apply hne
    show cc5_transform_5 (grid5.coords ⟨t.val + 1, h'⟩) = cc5_transform_5 (grid5.coords t)
    apply hreads5_5
    intro a ha
    have ha0 : a = 0 := by
      fin_cases a
      · rfl
      · exact absurd ha (by decide)
    subst ha0
    apply Fin.ext
    rw [coords5_0 ⟨t.val + 1, h'⟩, coords5_0 t]; dsimp only; omega

/-- At the points of case A the pipeline does not write the output's block back. -/
theorem noFlush5_5_A : ∀ t : Fin cfg5.N, cond5_0 (grid5.coords t) → ¬cond5_1 (grid5.coords t) → (cfg5.win 5).flush t = false :=
  fun t _ h => noFlush5_5_of t (fun e => h ((hcond5_1 t).mpr e))
/-- At the points of case B the pipeline does not write the output's block back. -/
theorem noFlush5_5_B : ∀ t : Fin cfg5.N, ¬cond5_0 (grid5.coords t) → ¬cond5_1 (grid5.coords t) → (cfg5.win 5).flush t = false :=
  fun t _ h => noFlush5_5_of t (fun e => h ((hcond5_1 t).mpr e))

/-! ## The memrefs the runs are stated over -/

/-- One staging buffer of the output window, through which its contents are stated. -/
abbrev VO5_5 : View sig .tc .vmem S2560x64 .f32 := (Memref.whole cc5_stg5_0 : Memref sig .tc .vmem S2560x64 .f32).view
/-- Each window's current staging memref at point `t`, spelled as the pipeline passes it, and its wholeness. -/
abbrev ms5_0 (t : Fin cfg5.N) : Memref sig .tc .vmem S1x1280 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1280x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2560x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2560x64 .f32 := win5_5.stage (cfg5.slots t 5)
abbrev hs5_5 (t : Fin cfg5.N) : (ms5_5 t).IsWhole := hstage5_5 ((cfg5.slots t 5).cast nbuf5_5)
/-- The accumulator: a whole scoped buffer of the kernel's own, passed beside the windows. -/
abbrev scM5_0 : Memref sig .tc .vmem S2560x64 .f32 := Memref.whole cc5_scratch0
/-- The accumulator as a view: what it holds between points is stated through it. -/
abbrev VS5_0 : View sig .tc .vmem S2560x64 .f32 := scM5_0.view

/-- The region's entry invariant with the accumulator as a memref owned at some contents; every other scoped
    buffer of the core that is no staging buffer of this region stays unopened beside it. -/
theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is the entry contents and whose body leaves the block in place: where the window is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Cert.Kernel.H

end
-- ==== Proof.K.R5RunA.lean ====
import proofs.«421344_j1254130450614_1_alg».proof.Proof.K.R5Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the five inputs at their contents (the fifth is the
    residual block, which this case does not read), the output at contents `xi5` handed back untouched, the
    accumulator at anything, the body runs to the continuation holding the inputs and the output as they were and
    the accumulator with its pieces written. -/
noncomputable def kernelRun5_A (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) :
    Σ' (L5 : List (View.Piece (Elt F) S2560x64 .f32)), { LS0 : List (View.Piece (Elt F) S2560x64 .f32) //
      ∀ (xi5 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨[], ?_, fun xi5 E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.H

end
-- ==== Proof.K.R5RunB.lean ====
import proofs.«421344_j1254130450614_1_alg».proof.Proof.K.R5Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the five inputs at their contents (the fifth is the residual
    block, which this case does not read), the output at contents `xi5` handed back untouched, the accumulator at
    the contents `xs0` the point before left, the body runs to the continuation holding the inputs and the output
    as they were and the accumulator with its pieces written. -/
noncomputable def kernelRun5_B (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    Σ' (L5 : List (View.Piece (Elt F) S2560x64 .f32)), { LS0 : List (View.Piece (Elt F) S2560x64 .f32) //
      ∀ (xi5 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨[], ?_, fun xi5 E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.H

end
-- ==== Proof.K.R5RunC.lean ====
import proofs.«421344_j1254130450614_1_alg».proof.Proof.K.R5Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows of the accumulator plus the residual) and in
    the accumulator (the accumulation over what the point before left), WITH the run: on whole memrefs, the five
    inputs at their contents (the fifth the residual block), the output at anything, the accumulator at the
    contents `xs0` the point before left, the body runs to the continuation holding the inputs as they were and
    the output and the accumulator each with its pieces written. -/
noncomputable def kernelRun5_C (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    Σ' (L5 : List (View.Piece (Elt F) S2560x64 .f32)), { LS0 : List (View.Piece (Elt F) S2560x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, ?_, fun E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.H

end
-- ==== Proof.K.R5.lean ====
import proofs.«421344_j1254130450614_1_alg».proof.Proof.K.R5RunA
import proofs.«421344_j1254130450614_1_alg».proof.Proof.K.R5RunB
import proofs.«421344_j1254130450614_1_alg».proof.Proof.K.R5RunC
import Idealize.ShloMosaic.Lib.Ring

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 5: what the output and the accumulator hold point by point, the proof data, the body obligation

The region has six windows: the four inputs this kernel has at every layer (the edge tile's target words, its
message rows, the gain row and the bias row), the residual block (window 4, an input that only the last case reads)
and the output (window 5). Every list below carries the residual as a fifth input: it is handed
to the body at its block and taken back unchanged. -/

/-! ## What each case leaves -/

/-- Case A stores nothing into the output (the window is idle at its points and not written back there): no
    pieces; the contents named here are consulted by nothing. -/
def out5_A_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) : Vec F S2560x64 .f32 :=
  VO5_5.read (Elt F) (VO5_5.writes (Elt F) VO5_5.junk (kernelRun5_A c i arg2 harg2 arg3 harg3 arg4 harg4 arg5 harg5 arg6 harg6 arg7 harg7 arg8 harg8 hc0 hc1 x0 x1 x2 x3 x4).1)

/-- Case A's pieces for the accumulator cover it: each store writes the whole of it. -/
theorem scover5_A_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) (y : S2560x64.Idx) :
    ∃ pc ∈ (kernelRun5_A c i arg2 harg2 arg3 harg3 arg4 harg4 arg5 harg5 arg6 harg6 arg7 harg7 arg8 harg8 hc0 hc1 x0 x1 x2 x3 x4).2.1, y ∈ pc.1.set :=
  View.cover_of_tiledL (kernelRun5_A c i arg2 harg2 arg3 harg3 arg4 harg4 arg5 harg5 arg6 harg6 arg7 harg7 arg8 harg8 hc0 hc1 x0 x1 x2 x3 x4).2.1 S2560x64.size (by sl_kernel_rfl) y

/-- What case A leaves in the accumulator: its pieces read back. -/
def sout5_A_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) : Vec F S2560x64 .f32 :=
  VS5_0.read (Elt F) (VS5_0.writes (Elt F) VS5_0.junk (kernelRun5_A c i arg2 harg2 arg3 harg3 arg4 harg4 arg5 harg5 arg6 harg6 arg7 harg7 arg8 harg8 hc0 hc1 x0 x1 x2 x3 x4).2.1)

/-- Case B stores nothing into the output either. -/
def out5_B_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VO5_5.read (Elt F) (VO5_5.writes (Elt F) VO5_5.junk (kernelRun5_B c i arg2 harg2 arg3 harg3 arg4 harg4 arg5 harg5 arg6 harg6 arg7 harg7 arg8 harg8 hc0 hc1 x0 x1 x2 x3 x4 xs0).1)

/-- Case B's piece for the accumulator covers it. -/
theorem scover5_B_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_B c i arg2 harg2 arg3 harg3 arg4 harg4 arg5 harg5 arg6 harg6 arg7 harg7 arg8 harg8 hc0 hc1 x0 x1 x2 x3 x4 xs0).2.1, y ∈ pc.1.set :=
  View.cover_of_tiledL (kernelRun5_B c i arg2 harg2 arg3 harg3 arg4 harg4 arg5 harg5 arg6 harg6 arg7 harg7 arg8 harg8 hc0 hc1 x0 x1 x2 x3 x4 xs0).2.1 S2560x64.size (by sl_kernel_rfl) y

/-- What case B leaves in the accumulator. -/
def sout5_B_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VS5_0.read (Elt F) (VS5_0.writes (Elt F) VS5_0.junk (kernelRun5_B c i arg2 harg2 arg3 harg3 arg4 harg4 arg5 harg5 arg6 harg6 arg7 harg7 arg8 harg8 hc0 hc1 x0 x1 x2 x3 x4 xs0).2.1)

/-- Case C's piece for the output covers its block: one store of the whole block. -/
theorem cover5_C_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL (kernelRun5_C c i arg2 harg2 arg3 harg3 arg4 harg4 arg5 harg5 arg6 harg6 arg7 harg7 arg8 harg8 hc0 hc1 x0 x1 x2 x3 x4 xs0).1 S2560x64.size (by sl_kernel_rfl) y

/-- What case C leaves in the output's staging buffer: the normalised rows. -/
def out5_C_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VO5_5.read (Elt F) (VO5_5.writes (Elt F) VO5_5.junk (kernelRun5_C c i arg2 harg2 arg3 harg3 arg4 harg4 arg5 harg5 arg6 harg6 arg7 harg7 arg8 harg8 hc0 hc1 x0 x1 x2 x3 x4 xs0).1)

/-- Case C's piece for the accumulator covers it. -/
theorem scover5_C_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 hc0 hc1 x0 x1 x2 x3 x4 xs0).2.1 S2560x64.size (by sl_kernel_rfl) y

/-- What case C leaves in the accumulator. -/
def sout5_C_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VS5_0.read (Elt F) (VS5_0.writes (Elt F) VS5_0.junk (kernelRun5_C c i arg2 harg2 arg3 harg3 arg4 harg4 arg5 harg5 arg6 harg6 arg7 harg7 arg8 harg8 hc0 hc1 x0 x1 x2 x3 x4 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt5 (c : Dev nD) : (n : ℕ) → n < cfg5.N → Vec F S2560x64 .f32 × Vec F S2560x64 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 1250 = 0 then
      if h1 : (n + 1) % 1250 = 1249 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 1250 = 1249 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at a point of case A: that case's contents. -/
theorem outsAt5_A (c : Dev nD) (t : Fin cfg5.N) (h0 : t.val % 1250 = 0) (h1 : ¬t.val % 1250 = 1249) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

/-- `outsAt5` at a point of case B: that case's contents, over what the point before left. -/
theorem outsAt5_B (c : Dev nD) (t : Fin cfg5.N) (h0 : ¬t.val % 1250 = 0) (h1 : ¬t.val % 1250 = 1249) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of case C: that case's contents, over what the point before left. -/
theorem outsAt5_C (c : Dev nD) (t : Fin cfg5.N) (h0 : ¬t.val % 1250 = 0) (h1 : t.val % 1250 = 1249) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulator at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core `c`: the arrays as the region finds them; after the body at point `t`
    each input's buffer at its block and the output's at `outsAt5`; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem recorded_eq5 (c : Dev nD) (t : Fin (cfg5.N + 1)) : (dat5 V c).recorded t = Set.univ := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 50000 := lt_N5 t
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  by_cases h0 : t.val % 1250 = 0
  · by_cases h1 : t.val % 1250 = 1249
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 1250 = 1249
    · rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_C_5 c _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the entry invariant back: the accumulator's named contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 50000 := N_5; omega)

end Cert.Kernel.H

end
-- ==== Proof.K.R6.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 6: the dense map of layer 3, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
      (fun t => by rw [hafter]; unfold Dat.blockOf iblk6; rw [hA]; try rfl) t d).trans
    (by unfold Dat.fetched Dat.blockOf iblk6; rw [hA]; try rfl)

/-- The same for window 1 (the weights): its index is constant, so it is fetched at the first point only. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
      (fun t => by rw [hafter]; unfold Dat.blockOf iblk6; rw [hA]; try rfl) t d).trans
    (by unfold Dat.fetched Dat.blockOf iblk6; rw [hA]; try rfl)

/-- The same for window 2 (the bias row), also of constant index. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t :=
  (dat.before_in_eq_fetched 2 rfl (fun _ => rfl) (fun _ _ _ => rfl)
      (fun t => by rw [hafter]; unfold Dat.blockOf iblk6; rw [hA]; try rfl) t d).trans
    (by unfold Dat.fetched Dat.blockOf iblk6; rw [hA]; try rfl)

/-! ## The body's one store -/

/-- The result's whole staging buffer as one rectangle. -/
abbrev r6_0 : Rect S2048x153 := Rect.unit (s := S2048x153) ![0, 0] S2048x153.size inb_S2048x153_S2048x153_0_0

/-- What the body leaves in the output window's buffer, as a function of the three input blocks: one write of
    the whole buffer, whose value is the dense map's payload on the blocks read through whole-buffer loads. -/
def out6_3 (x0 : Vec F S2048x64 .f32) (x1 : Vec F S64x153 .f32) (x2 : Vec F S1x153 .f32) : Vec F S2048x153 .f32 :=
  View.canon [⟨r6_0, k6_pay1
    (View.ld x0 (Rect.unit (s := S2048x64) ![0, 0] S2048x64.size inb_S2048x64_S2048x64_0_0))
    (View.ld x1 (Rect.unit (s := S64x153) ![0, 0] S64x153.size inb_S64x153_S64x153_0_0))
    (View.ld x2 (Rect.unit (s := S1x153) ![0, 0] S1x153.size inb_S1x153_S1x153_0_0))⟩]

/-- That one write covers the buffer. -/
theorem cover6_3 (p0 : Vec F S2048x153 .f32) (y : S2048x153.Idx) :
    ∃ pc ∈ ([⟨r6_0, p0⟩] : List (View.Piece (Elt F) S2048x153 .f32)), y ∈ pc.1.set :=
  View.cover_of_tiled [⟨r6_0, p0⟩] S2048x153.size (by rfl) y

/-! ## The body's triple -/

set_option maxHeartbeats 1000000 in
/-- The body on whole staging memrefs — the three inputs' read as `x0 x1 x2`, the output's holding anything —
    runs to a state where the inputs' are unchanged and the output's reads `out6_3 x0 x1 x2`. -/
theorem sound_kernel6 (c : Dev nD) (E : Set ℕ) (i : grid6.Coords)
    (arg1 : Memref sig .tc .vmem S2048x64 .f32) (harg1 : arg1.IsWhole)
    (arg2 : Memref sig .tc .vmem S64x153 .f32) (harg2 : arg2.IsWhole)
    (arg3 : Memref sig .tc .vmem S1x153 .f32) (harg3 : arg3.IsWhole)
    (arg4 : Memref sig .tc .vmem S2048x153 .f32) (harg4 : arg4.IsWhole)
    (x0 : Vec F S2048x64 .f32) (x1 : Vec F S64x153 .f32) (x2 : Vec F S1x153 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E
          (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The region's proof data -/

/-- The proof data of region 6 on core `c`: the arrays as the region finds them; after the body at point `t`
    each input buffer at its block and the output buffer at `out6_3` of the three blocks; the invariant of a
    body that keeps nothing; nothing owed; every array held in full. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem recorded_eq6 (c : Dev nD) (t : Fin (cfg6.N + 1)) : (dat6 V c).recorded t = Set.univ := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- What the body finds in each input window's buffer: the window's block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body at a grid point -/

/-- The staging memref each window is on at point `t`. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The body as the pipeline calls it at point `t`: on the point's coordinates and the current staging memrefs. -/
abbrev bodyAt6 (t : Fin cfg6.N) : Prog (TpuEff nD τ sig (Elt F) Λ₀ .tc) PUnit :=
  cc6__linear_kernel (grid6.coords t)
    (win6_0.stage (cfg6.slots t 0)) (hstage6_0 ((cfg6.slots t 0).cast nbuf6_0))
    (win6_1.stage (cfg6.slots t 1)) (hstage6_1 ((cfg6.slots t 1).cast nbuf6_1))
    (win6_2.stage (cfg6.slots t 2)) (hstage6_2 ((cfg6.slots t 2).cast nbuf6_2))
    (win6_3.stage (cfg6.slots t 3)) (hstage6_3 ((cfg6.slots t 3).cast nbuf6_3))

/-- What the body is entered with at point `t`, the windows listed one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the three input memrefs hold their blocks, so the body's triple applies; the
    invariant and what the core owes are not touched. -/
theorem sound_body6 (c : Dev nD) (t : Fin cfg6.N) :
    bodyPre6 V c t ⊢ wp frame (wpE (defs₀ (F := F)) Variants.none c none) Set.univ (bodyAt6 t)
      (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation6 (c : Dev nD) :
    BodyObligation (dat6 (F := F) V c) (defs₀ (F := F)) Variants.none () Set.univ := fun t => by
  rw [bigSep_W6, bigSep_W6]
  exact sound_body6 V c t

/-! ## Entering and leaving the region -/

theorem hin6 (c : Dev nD) : Pipeline.ΦA spec6 c ⊢ (dat6 V c).Φ 0 := Entails.refl _

theorem hout6 (c : Dev nD) : (dat6 V c).Φ (Fin.last cfg6.N) ⊢ Pipeline.ΦA spec6 c := Entails.refl _

end Cert.Kernel.H

end
-- ==== Proof.K.R7Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (the gather kernel of layer 3, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride7_0 : grid7.stride 0 = 40 := by decide
theorem stride7_1 : grid7.stride 1 = 1 := by decide

/-- Coordinate 1 of point `t`: the remainder modulo 40. -/
theorem coords7_1 (t : Fin cfg7.N) : (grid7.coords t 1).val = t.val % 40 := by
  show t.val / grid7.stride 1 % 40 = t.val % 40
  rw [stride7_1, Nat.div_one]

/-- Coordinate 0 of point `t`: the quotient by 40 (below 1250). -/
theorem coords7_0 (t : Fin cfg7.N) : (grid7.coords t 0).val = t.val / 40 % 1250 := by
  show t.val / grid7.stride 0 % 1250 = _
  rw [stride7_0]

theorem N7_lt (t : Fin cfg7.N) : t.val < 50000 := lt_of_lt_of_eq t.isLt (show cfg7.N = 50000 from N_7)

/-- Two points with the same quotient by 40 have the same coordinate 0. -/
theorem coords7_0_congr (t t' : Fin cfg7.N) (h : t.val / 40 = t'.val / 40) : grid7.coords t 0 = grid7.coords t' 0 :=
  Fin.ext (by rw [coords7_0, coords7_0, h])

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: where the
    pipeline does not fetch, the block index has not moved since the point before. For any proof data whose
    array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the reset of the accumulator), from the grid coordinates. -/
abbrev cond7_0 (i : grid7.Coords) : Prop := (Scalar.cmpi .ne (Scalar.extui (Scalar.cmpi .eq (BitVec.ofNat 32 (i 1).val) 0#32)) 0#32) = 1#1

/-- Over the 40 values of coordinate 1 it holds at 0 only. -/
theorem cond7_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond7_0 (t : Fin cfg7.N) : cond7_0 (grid7.coords t) ↔ t.val % 40 = 0 := by
  rw [← coords7_1 t]; exact cond7_0_fin (grid7.coords t 1)

/-- The condition of the body's second conditional (the read-out into the output). -/
abbrev cond7_1 (i : grid7.Coords) : Prop := k7_cond2 i = 1#1

/-- Over the 40 values of coordinate 1 it holds at 39 only. -/
theorem cond7_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond7_1 (t : Fin cfg7.N) : cond7_1 (grid7.coords t) ↔ t.val % 40 = 39 := by
  rw [← coords7_1 t]; exact cond7_1_fin (grid7.coords t 1)

/-! ## Where the windows are idle, and where the output is written back -/

/-- The inputs are never idle. -/
theorem liveAt7_0 (t : Fin cfg7.N) : cfg7.idle 0 (grid7.coords t) = false := rfl
theorem liveAt7_1 (t : Fin cfg7.N) : cfg7.idle 1 (grid7.coords t) = false := rfl
theorem liveAt7_2 (t : Fin cfg7.N) : cfg7.idle 2 (grid7.coords t) = false := rfl

/-- The output is idle exactly where the second condition fails. -/
theorem idle7_3_of_not (i : grid7.Coords) (h1 : ¬cond7_1 i) : cfg7.idle 3 i = true := by
  show (!(k7_cond2 i == 1#1)) = true
  rw [Bool.not_eq_true', beq_eq_false_iff_ne]; exact h1

theorem idleAt7_3_A (t : Fin cfg7.N) (h0 : cond7_0 (grid7.coords t)) (h1 : ¬cond7_1 (grid7.coords t)) : cfg7.idle 3 (grid7.coords t) = true :=
  idle7_3_of_not _ h1
theorem idleAt7_3_B (t : Fin cfg7.N) (h0 : ¬cond7_0 (grid7.coords t)) (h1 : ¬cond7_1 (grid7.coords t)) : cfg7.idle 3 (grid7.coords t) = true :=
  idle7_3_of_not _ h1
theorem liveAt7_3_C (t : Fin cfg7.N) (h0 : ¬cond7_0 (grid7.coords t)) (h1 : cond7_1 (grid7.coords t)) : cfg7.idle 3 (grid7.coords t) = false := by
  show (!(k7_cond2 (grid7.coords t) == 1#1)) = false
  rw [h1]; rfl

/-- The output's block index at a point: the quotient by 40 on the rows, 0 on the columns. -/
theorem index7_3 (t : Fin cfg7.N) : (cfg7.win 3).index t = cc7_transform_3 (grid7.coords t) := rfl

/-- Away from the points ≡ 39 (mod 40) the pipeline does not write the output's block back: the next point is not
    past the grid's end (50000 is a multiple of 40) and has the same quotient by 40, so the same block index. -/
theorem noFlush7_3 (t : Fin cfg7.N) (h : t.val % 40 ≠ 39) : (cfg7.win 3).flush t = false := by
  have hN := N7_lt t
  unfold Pipeline.Window.flush
  rw [Bool.and_eq_false_iff]; right
  rw [Bool.or_eq_false_iff]
  refine ⟨decide_eq_false (fun he => by have h2 : t.val + 1 = 50000 := he.trans N_7; omega), decide_eq_false ?_⟩
  rintro ⟨h', hne⟩
  apply hne
  rw [index7_3, index7_3]
  unfold cc7_transform_3
  rw [coords7_0_congr ⟨t.val + 1, h'⟩ t (by show (t.val + 1) / 40 = t.val / 40; omega)]

theorem noFlush7_3_A (t : Fin cfg7.N) (h0 : cond7_0 (grid7.coords t)) (h1 : ¬cond7_1 (grid7.coords t)) : (cfg7.win 3).flush t = false :=
  noFlush7_3 t (fun h => h1 ((hcond7_1 t).mpr h))
theorem noFlush7_3_B (t : Fin cfg7.N) (h0 : ¬cond7_0 (grid7.coords t)) (h1 : ¬cond7_1 (grid7.coords t)) : (cfg7.win 3).flush t = false :=
  noFlush7_3 t (fun h => h1 ((hcond7_1 t).mpr h))

/-! ## The staging memrefs and the body as the pipeline calls it -/

/-- The current staging memref of each window at point `t`: which of its buffers it is on. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)
abbrev st7_3 (t : Fin cfg7.N) := (cfg7.win 3).stage (cfg7.slots t 3)

/-- The kernel body at point `t`, on what the pipeline calls it with. -/
abbrev bodyAt7 (t : Fin cfg7.N) : Prog (TpuEff nD τ sig (Elt F) Λ₀ .tc) PUnit :=
  cc7__gather_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

/-- One staging buffer of output window 3, through which its contents are stated (the choice does not matter). -/
abbrev VO7_3 : View sig .tc .vmem S1280x153 .bf16 := (Memref.whole cc7_stg3_0 : Memref sig .tc .vmem S1280x153 .bf16).view
/-- Each window's current staging memref at point `t`, spelled as the pipeline passes it, and its wholeness. -/
abbrev ms7_0 (t : Fin cfg7.N) : Memref sig .tc .vmem S1280x1 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1280x1 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2560x153 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1280x153 .bf16 := win7_3.stage (cfg7.slots t 3)
abbrev hs7_3 (t : Fin cfg7.N) : (ms7_3 t).IsWhole := hstage7_3 ((cfg7.slots t 3).cast nbuf7_3)
/-- The scratch operand: a whole scoped buffer of the kernel's own, passed beside the windows. -/
abbrev scM7_0 : Memref sig .tc .vmem S1280x153 .f32 := Memref.whole cc7_scratch0
/-- The scratch accumulator the kernel carries between points, as a view: what it holds is stated through it. -/
abbrev VS7_0 : View sig .tc .vmem S1280x153 .f32 := scM7_0.view

/-- The region invariant of the class with the scratch operand as a memref owned at some contents, the other
    scoped buffers of the program unopened beside it, and the generator register at some state: what the body
    obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.H

end
-- ==== Proof.K.R7RunA.lean ====
import proofs.«421344_j1254130450614_1_alg».proof.Proof.K.R7Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun7_A (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) :
    Σ' (L3 : List (View.Piece (Elt F) S1280x153 .bf16)), { LS0 : List (View.Piece (Elt F) S1280x153 .f32) //
      ∀ (xi3 : Vec F S1280x153 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R7RunB.lean ====
import proofs.«421344_j1254130450614_1_alg».proof.Proof.K.R7Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun7_B (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) :
    Σ' (L3 : List (View.Piece (Elt F) S1280x153 .bf16)), { LS0 : List (View.Piece (Elt F) S1280x153 .f32) //
      ∀ (xi3 : Vec F S1280x153 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.H

end
-- ==== Proof.K.R7RunC.lean ====
import proofs.«421344_j1254130450614_1_alg».proof.Proof.K.R7Conds

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun7_C (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) :
    Σ' (L3 : List (View.Piece (Elt F) S1280x153 .bf16)), { LS0 : List (View.Piece (Elt F) S1280x153 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.H

end
-- ==== Proof.K.R7.lean ====
import proofs.«421344_j1254130450614_1_alg».proof.Proof.K.R7RunA
import proofs.«421344_j1254130450614_1_alg».proof.Proof.K.R7RunB
import proofs.«421344_j1254130450614_1_alg».proof.Proof.K.R7RunC
import Idealize.ShloMosaic.Lib.Ring

-- membership in a rectangle of the block's extents recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (the gather kernel of layer 3): what the output and the scratch accumulator hold per case and point by
point, the proof data, the body obligation at a generic point, and the invariant's two ends. -/

/-! ## What each case leaves -/

/-- Case A stores nothing into the output (idle at its points and not written back there): no pieces, a placeholder
    nothing consults. -/
def out7_A_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) : Vec F S1280x153 .bf16 :=
  VO7_3.read (Elt F) (VO7_3.writes (Elt F) VO7_3.junk (kernelRun7_A c i arg2 harg2 arg3 harg3 arg4 harg4 arg5 harg5 arg6 harg6 hc0 hc1 x0 x1 x2).1)

/-- Case A's pieces for the scratch accumulator (the reset, then the accumulation: two whole-block stores) cover it. -/
theorem scover7_A_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) (y : S1280x153.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1280x153.size (by sl_kernel_rfl) y

/-- What case A leaves in the scratch accumulator: its pieces read back. -/
def sout7_A_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) : Vec F S1280x153 .f32 :=
  VS7_0.read (Elt F) (VS7_0.writes (Elt F) VS7_0.junk (kernelRun7_A c i arg2 harg2 arg3 harg3 arg4 harg4 arg5 harg5 arg6 harg6 hc0 hc1 x0 x1 x2).2.1)

/-- Case B stores nothing into the output either. -/
def out7_B_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) : Vec F S1280x153 .bf16 :=
  VO7_3.read (Elt F) (VO7_3.writes (Elt F) VO7_3.junk (kernelRun7_B c i arg2 harg2 arg3 harg3 arg4 harg4 arg5 harg5 arg6 harg6 hc0 hc1 x0 x1 x2 xs0).1)

/-- Case B's piece for the scratch accumulator (one whole-block store) covers it. -/
theorem scover7_B_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) (y : S1280x153.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1280x153.size (by sl_kernel_rfl) y

/-- What case B leaves in the scratch accumulator. -/
def sout7_B_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) : Vec F S1280x153 .f32 :=
  VS7_0.read (Elt F) (VS7_0.writes (Elt F) VS7_0.junk (kernelRun7_B c i arg2 harg2 arg3 harg3 arg4 harg4 arg5 harg5 arg6 harg6 hc0 hc1 x0 x1 x2 xs0).2.1)

/-- Case C's piece for the output (one whole-block store) covers its block. -/
theorem cover7_C_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) (y : S1280x153.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S1280x153.size (by sl_kernel_rfl) y

/-- What case C leaves in the output's staging buffer: its piece read back. -/
def out7_C_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) : Vec F S1280x153 .bf16 :=
  VO7_3.read (Elt F) (VO7_3.writes (Elt F) VO7_3.junk (kernelRun7_C c i arg2 harg2 arg3 harg3 arg4 harg4 arg5 harg5 arg6 harg6 hc0 hc1 x0 x1 x2 xs0).1)

/-- Case C's piece for the scratch accumulator covers it. -/
theorem scover7_C_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) (y : S1280x153.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S1280x153.size (by sl_kernel_rfl) y

/-- What case C leaves in the scratch accumulator. -/
def sout7_C_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) : Vec F S1280x153 .f32 :=
  VS7_0.read (Elt F) (VS7_0.writes (Elt F) VS7_0.junk (kernelRun7_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt7 (c : Dev nD) : (n : ℕ) → n < cfg7.N → Vec F S1280x153 .bf16 × Vec F S1280x153 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 40 = 0 then
      if h1 : (n + 1) % 40 = 39 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 40 = 39 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point of case A: that case's contents. -/
theorem outsAt7_A (c : Dev nD) (t : Fin cfg7.N) (h0 : t.val % 40 = 0) (h1 : ¬t.val % 40 = 39) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 40 = 0) (h1 : ¬t.val % 40 = 39) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 40 = 0) (h1 : t.val % 40 = 39) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest7 (c : Dev nD) : sProp 𝕄 :=
  Pipeline.scopedRestBut (Ix := Unit) (Name := ℕ) (U := UR sig nD τ) (Lvl := ℕ) (Val := Elt F) spec7 c [cc7_scratch0]

/-- The region invariant before position `n`: before the first point the class's; afterwards the scratch accumulator at
    what the point before left in it, the other scoped buffers unopened, and the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ rest7 c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ rest7 c) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ rest7 c) ∗ (∃ r, prngReg c r)) := by
  cases n with
  | zero => exact absurd rfl hz
  | succ n => rfl

/-! ## The pipeline's proof data -/

/-- The proof data of region 7 on core `c`: the arrays as the region finds them (`V`); after the body at point `t` each
    input's buffer at its block and the output's at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem recorded_eq7 (c : Dev nD) (t : Fin (cfg7.N + 1)) : (dat7 V c).recorded t = Set.univ := by
  dsimp only [dat7]

/-- The invariant at a point's start, restated at the point's number. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- An input's post at any point: the window is never idle, so its buffer at what the body leaves, its block. -/
theorem leaves7_0 (c : Dev nD) (t : Fin cfg7.N) : (dat7 V c).leavesExact 0 t = owns (c : Thread nD τ) (ms7_0 t) fullShare (iblk7 V c 0 t) := by
  unfold Dat.leavesExact; rw [liveAt7_0 t, after7_0]
theorem leaves7_1 (c : Dev nD) (t : Fin cfg7.N) : (dat7 V c).leavesExact 1 t = owns (c : Thread nD τ) (ms7_1 t) fullShare (iblk7 V c 1 t) := by
  unfold Dat.leavesExact; rw [liveAt7_1 t, after7_1]
theorem leaves7_2 (c : Dev nD) (t : Fin cfg7.N) : (dat7 V c).leavesExact 2 t = owns (c : Thread nD τ) (ms7_2 t) fullShare (iblk7 V c 2 t) := by
  unfold Dat.leavesExact; rw [liveAt7_2 t, after7_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2]
  have hN : t.val < 50000 := N7_lt t
  by_cases h0 : t.val % 40 = 0
  · by_cases h1 : t.val % 40 = 39
    · exfalso; omega
    · rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C_3 c _ _ _ _ _ _ _ _ _ _ _ _ _ _ _ _ _)
    · rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 50000 := N_7; omega)

end Cert.Kernel.H

end
-- ==== Proof.K.R8Conds.lean ====
import proofs.«421344_j1254130450614_1_alg».proof.Proof.Gen.Kernel.Launch
import proofs.«421344_j1254130450614_1_alg».proof.Proof.Gen.Kernel.Skeleton
import Idealize.ShloMosaic.Lib.Pipeline.FrameBody
import Idealize.ShloMosaic.Lib.Pipeline.Regions
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 8 (the scatter and row-normalisation kernel of layer 3): what its three runs share

The grid is 40 x 1250, the last axis fastest: point `t` has coordinates `(t / 1250 % 40, t % 1250)`. The body
branches on the second coordinate only: at 0 it resets the accumulator, at 1249 it normalises the accumulator into
the output block. Every fact over the 50000 points below is obtained from these two closed forms by arithmetic. -/

/-! ## The staging memrefs at a point and the body as the pipeline calls it -/

/-- The current staging memref of each window at point `t`. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)
abbrev st8_3 (t : Fin cfg8.N) := (cfg8.win 3).stage (cfg8.slots t 3)
abbrev st8_4 (t : Fin cfg8.N) := (cfg8.win 4).stage (cfg8.slots t 4)

/-- The kernel body at point `t`, on the memrefs the pipeline passes it: the five windows' current staging
    memrefs, then the accumulator. -/
abbrev bodyAt8 (t : Fin cfg8.N) : Prog (TpuEff nD τ sig (Elt F) Λ₀ .tc) PUnit :=
  cc8__kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (Memref.whole cc8_scratch0) (Memref.isWhole_whole _)

/-- The congruence lemmas of the kernel function and of its skeleton, stated here once: each case's run rewrites
    the function to its skeleton under them, and all three runs share this one pair. -/
theorem congr_simp_realized8 : True := by
  have := @cc8__kernel.congr_simp; have := @cc8__kernel_skel.congr_simp
  trivial

/-! ## The grid's coordinates in closed form -/

/-- The second coordinate of point `t` is `t mod 1250`. -/
theorem coords8_1 (t : Fin cfg8.N) : (grid8.coords t 1).val = t.val % 1250 := by
  show t.val / grid8.stride 1 % 1250 = t.val % 1250
  have : grid8.stride 1 = 1 := by decide
  rw [this, Nat.div_one]

/-- The first coordinate of point `t` is `t / 1250` (below 40 for every point of the grid). -/
theorem coords8_0 (t : Fin cfg8.N) : (grid8.coords t 0).val = t.val / 1250 % 40 := by
  show t.val / grid8.stride 0 % 40 = _
  have : grid8.stride 0 = 1250 := by decide
  rw [this]

/-- The grid has 50000 points. -/
theorem lt_N8 (t : Fin cfg8.N) : t.val < 50000 := lt_of_lt_of_eq t.isLt N_8

/-! ## The body's branch conditions -/

/-- The condition of the body's first conditional: the second coordinate is 0. -/
abbrev cond8_0 (i : grid8.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond8_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond8_0 : ∀ t : Fin cfg8.N, cond8_0 (grid8.coords t) ↔ t.val % 1250 = 0 := fun t => by
  rw [← coords8_1 t]; exact cond8_0_fin (grid8.coords t 1)

/-- The condition of the body's second conditional: the second coordinate is 1249. -/
abbrev cond8_1 (i : grid8.Coords) : Prop := k8_cond2 i = 1#1

/-- On a second coordinate `j < 1250` the 32-bit comparison with 1249 is the comparison of naturals. -/
theorem cond8_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond8_1 : ∀ t : Fin cfg8.N, cond8_1 (grid8.coords t) ↔ t.val % 1250 = 1249 := fun t => by
  rw [← coords8_1 t]; exact cond8_1_fin (grid8.coords t 1)

/-! ## Where the windows are idle, and where the output is written back -/

/-- The four inputs are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl
theorem liveAt8_3 : ∀ t : Fin cfg8.N, cfg8.idle 3 (grid8.coords t) = false := fun _ => rfl

/-- The output is idle exactly where the second conditional is not taken. -/
theorem idle8_4_eq (i : grid8.Coords) : cfg8.idle 4 i = !(k8_cond2 i == 1#1) := rfl

theorem idle8_4_of_not (i : grid8.Coords) (h : ¬cond8_1 i) : cfg8.idle 4 i = true := by
  rw [idle8_4_eq]; simp only [Bool.not_eq_true', beq_eq_false_iff_ne, ne_eq]; exact h

theorem live8_4_of (i : grid8.Coords) (h : cond8_1 i) : cfg8.idle 4 i = false := by
  rw [idle8_4_eq]; simp only [Bool.not_eq_false', beq_iff_eq]; exact h

/-- At the points of case A the output is idle: the case stores nothing into it. -/
theorem idleAt8_4_A : ∀ t : Fin cfg8.N, cond8_0 (grid8.coords t) → ¬cond8_1 (grid8.coords t) → cfg8.idle 4 (grid8.coords t) = true :=
  fun t _ h => idle8_4_of_not _ h
/-- At the points of case B the output is idle: the case stores nothing into it. -/
theorem idleAt8_4_B : ∀ t : Fin cfg8.N, ¬cond8_0 (grid8.coords t) → ¬cond8_1 (grid8.coords t) → cfg8.idle 4 (grid8.coords t) = true :=
  fun t _ h => idle8_4_of_not _ h
/-- At the points of case C the output is live: the case stores into it. -/
theorem liveAt8_4_C : ∀ t : Fin cfg8.N, ¬cond8_0 (grid8.coords t) → cond8_1 (grid8.coords t) → cfg8.idle 4 (grid8.coords t) = false :=
  fun t _ h => live8_4_of _ h

/-- The output's block index at point `t`. -/
theorem index8_4 (t : Fin cfg8.N) : (cfg8.win 4).index t = cc8_transform_4 (grid8.coords t) := rfl

/-- Away from the points ≡ 1249 (mod 1250) the output's block is not written back: the point is not the last
    (49999 ≡ 1249), and the next point has the same first coordinate, which is all the block index reads. -/
theorem noFlush8_4_of (t : Fin cfg8.N) (h : ¬t.val % 1250 = 1249) : (cfg8.win 4).flush t = false := by
  have hN := lt_N8 t
  unfold Pipeline.Window.flush
  rw [Bool.and_eq_false_iff]; right
  rw [Bool.or_eq_false_iff]; constructor
  · exact decide_eq_false (fun e => by have e' : t.val + 1 = 50000 := e.trans N_8; omega)
  · apply decide_eq_false
    rintro ⟨h', hne⟩; apply hne
    show cc8_transform_4 (grid8.coords ⟨t.val + 1, h'⟩) = cc8_transform_4 (grid8.coords t)
    apply hreads8_4
    intro a ha
    have ha0 : a = 0 := by
      fin_cases a
      · rfl
      · exact absurd ha (by decide)
    subst ha0
    apply Fin.ext
    rw [coords8_0 ⟨t.val + 1, h'⟩, coords8_0 t]; dsimp only; omega

/-- At the points of case A the pipeline does not write the output's block back. -/
theorem noFlush8_4_A : ∀ t : Fin cfg8.N, cond8_0 (grid8.coords t) → ¬cond8_1 (grid8.coords t) → (cfg8.win 4).flush t = false :=
  fun t _ h => noFlush8_4_of t (fun e => h ((hcond8_1 t).mpr e))
/-- At the points of case B the pipeline does not write the output's block back. -/
theorem noFlush8_4_B : ∀ t : Fin cfg8.N, ¬cond8_0 (grid8.coords t) → ¬cond8_1 (grid8.coords t) → (cfg8.win 4).flush t = false :=
  fun t _ h => noFlush8_4_of t (fun e => h ((hcond8_1 t).mpr e))

/-! ## The memrefs the runs are stated over -/

/-- One staging buffer of the output window, through which its contents are stated. -/
abbrev VO8_4 : View sig .tc .vmem S2560x153 .f32 := (Memref.whole cc8_stg4_0 : Memref sig .tc .vmem S2560x153 .f32).view
/-- Each window's current staging memref at point `t`, spelled as the pipeline passes it, and its wholeness. -/
abbrev ms8_0 (t : Fin cfg8.N) : Memref sig .tc .vmem S1x1280 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1280x153 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x153 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x153 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S2560x153 .f32 := win8_4.stage (cfg8.slots t 4)
abbrev hs8_4 (t : Fin cfg8.N) : (ms8_4 t).IsWhole := hstage8_4 ((cfg8.slots t 4).cast nbuf8_4)
/-- The accumulator: a whole scoped buffer of the kernel's own, passed beside the windows. -/
abbrev scM8_0 : Memref sig .tc .vmem S2560x153 .f32 := Memref.whole cc8_scratch0
/-- The accumulator as a view: what it holds between points is stated through it. -/
abbrev VS8_0 : View sig .tc .vmem S2560x153 .f32 := scM8_0.view

/-- The region's entry invariant with the accumulator as a memref owned at some contents; every other scoped
    buffer of the core that is no staging buffer of this region stays unopened beside it. -/
theorem PhiA8_eq (c : Dev nD) :
    (Pipeline.ΦA spec8 c : sProp 𝕄)
      = iprop(iprop((∃ d, owns (c : Thread nD τ) scM8_0 fullShare d) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof
    data whose array is the entry contents and whose body leaves the block in place: where the window is not
    fetched its block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

end Cert.Kernel.H

end
-- ==== Proof.K.R8RunA.lean ====
import proofs.«421344_j1254130450614_1_alg».proof.Proof.K.R8Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the four inputs at their contents, the output at
    contents `xi4` handed back untouched, the accumulator at anything, the body runs to the continuation holding
    the inputs and the output as they were and the accumulator with its pieces written. -/
noncomputable def kernelRun8_A (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) :
    Σ' (L4 : List (View.Piece (Elt F) S2560x153 .f32)), { LS0 : List (View.Piece (Elt F) S2560x153 .f32) //
      ∀ (xi4 : Vec F S2560x153 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨[], ?_, fun xi4 E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.H

end
-- ==== Proof.K.R8RunB.lean ====
import proofs.«421344_j1254130450614_1_alg».proof.Proof.K.R8Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the four inputs at their contents, the output at contents `xi4`
    handed back untouched, the accumulator at the contents `xs0` the point before left, the body runs to the
    continuation holding the inputs and the output as they were and the accumulator with its pieces written. -/
noncomputable def kernelRun8_B (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) :
    Σ' (L4 : List (View.Piece (Elt F) S2560x153 .f32)), { LS0 : List (View.Piece (Elt F) S2560x153 .f32) //
      ∀ (xi4 : Vec F S2560x153 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨[], ?_, fun xi4 E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.H

end
-- ==== Proof.K.R8RunC.lean ====
import proofs.«421344_j1254130450614_1_alg».proof.Proof.K.R8Conds

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows) and in the accumulator (the accumulation over
    what the point before left), WITH the run: on whole memrefs, the four inputs at their contents, the output at
    anything, the accumulator at the contents `xs0` the point before left, the body runs to the continuation
    holding the inputs as they were and the output and the accumulator each with its pieces written. -/
noncomputable def kernelRun8_C (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) :
    Σ' (L4 : List (View.Piece (Elt F) S2560x153 .f32)), { LS0 : List (View.Piece (Elt F) S2560x153 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨?_, ?_, fun E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.H

end
-- ==== Proof.K.R8.lean ====
import proofs.«421344_j1254130450614_1_alg».proof.Proof.K.R8RunA
import proofs.«421344_j1254130450614_1_alg».proof.Proof.K.R8RunB
import proofs.«421344_j1254130450614_1_alg».proof.Proof.K.R8RunC
import Idealize.ShloMosaic.Lib.Ring

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 8: what the output and the accumulator hold point by point, the proof data, the body obligation -/

/-! ## What each case leaves -/

/-- Case A stores nothing into the output (the window is idle at its points and not written back there): no
    pieces; the contents named here are consulted by nothing. -/
def out8_A_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) : Vec F S2560x153 .f32 :=
  VO8_4.read (Elt F) (VO8_4.writes (Elt F) VO8_4.junk (kernelRun8_A c i arg2 harg2 arg3 harg3 arg4 harg4 arg5 harg5 arg6 harg6 arg7 harg7 hc0 hc1 x0 x1 x2 x3).1)

/-- Case A's pieces for the accumulator cover it: each store writes the whole of it. -/
theorem scover8_A_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) (y : S2560x153.Idx) :
    ∃ pc ∈ (kernelRun8_A c i arg2 harg2 arg3 harg3 arg4 harg4 arg5 harg5 arg6 harg6 arg7 harg7 hc0 hc1 x0 x1 x2 x3).2.1, y ∈ pc.1.set :=
  View.cover_of_tiledL (kernelRun8_A c i arg2 harg2 arg3 harg3 arg4 harg4 arg5 harg5 arg6 harg6 arg7 harg7 hc0 hc1 x0 x1 x2 x3).2.1 S2560x153.size (by sl_kernel_rfl) y

/-- What case A leaves in the accumulator: its pieces read back. -/
def sout8_A_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) : Vec F S2560x153 .f32 :=
  VS8_0.read (Elt F) (VS8_0.writes (Elt F) VS8_0.junk (kernelRun8_A c i arg2 harg2 arg3 harg3 arg4 harg4 arg5 harg5 arg6 harg6 arg7 harg7 hc0 hc1 x0 x1 x2 x3).2.1)

/-- Case B stores nothing into the output either. -/
def out8_B_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VO8_4.read (Elt F) (VO8_4.writes (Elt F) VO8_4.junk (kernelRun8_B c i arg2 harg2 arg3 harg3 arg4 harg4 arg5 harg5 arg6 harg6 arg7 harg7 hc0 hc1 x0 x1 x2 x3 xs0).1)

/-- Case B's piece for the accumulator covers it. -/
theorem scover8_B_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_B c i arg2 harg2 arg3 harg3 arg4 harg4 arg5 harg5 arg6 harg6 arg7 harg7 hc0 hc1 x0 x1 x2 x3 xs0).2.1, y ∈ pc.1.set :=
  View.cover_of_tiledL (kernelRun8_B c i arg2 harg2 arg3 harg3 arg4 harg4 arg5 harg5 arg6 harg6 arg7 harg7 hc0 hc1 x0 x1 x2 x3 xs0).2.1 S2560x153.size (by sl_kernel_rfl) y

/-- What case B leaves in the accumulator. -/
def sout8_B_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VS8_0.read (Elt F) (VS8_0.writes (Elt F) VS8_0.junk (kernelRun8_B c i arg2 harg2 arg3 harg3 arg4 harg4 arg5 harg5 arg6 harg6 arg7 harg7 hc0 hc1 x0 x1 x2 x3 xs0).2.1)

/-- Case C's piece for the output covers its block: one store of the whole block. -/
theorem cover8_C_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_C c i arg2 harg2 arg3 harg3 arg4 harg4 arg5 harg5 arg6 harg6 arg7 harg7 hc0 hc1 x0 x1 x2 x3 xs0).1, y ∈ pc.1.set :=
  View.cover_of_tiledL (kernelRun8_C c i arg2 harg2 arg3 harg3 arg4 harg4 arg5 harg5 arg6 harg6 arg7 harg7 hc0 hc1 x0 x1 x2 x3 xs0).1 S2560x153.size (by sl_kernel_rfl) y

/-- What case C leaves in the output's staging buffer: the normalised rows. -/
def out8_C_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VO8_4.read (Elt F) (VO8_4.writes (Elt F) VO8_4.junk (kernelRun8_C c i arg2 harg2 arg3 harg3 arg4 harg4 arg5 harg5 arg6 harg6 arg7 harg7 hc0 hc1 x0 x1 x2 x3 xs0).1)

/-- Case C's piece for the accumulator covers it. -/
theorem scover8_C_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_C c i arg2 harg2 arg3 harg3 arg4 harg4 arg5 harg5 arg6 harg6 arg7 harg7 hc0 hc1 x0 x1 x2 x3 xs0).2.1, y ∈ pc.1.set :=
  View.cover_of_tiledL (kernelRun8_C c i arg2 harg2 arg3 harg3 arg4 harg4 arg5 harg5 arg6 harg6 arg7 harg7 hc0 hc1 x0 x1 x2 x3 xs0).2.1 S2560x153.size (by sl_kernel_rfl) y

/-- What case C leaves in the accumulator. -/
def sout8_C_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VS8_0.read (Elt F) (VS8_0.writes (Elt F) VS8_0.junk (kernelRun8_C c i arg2 harg2 arg3 harg3 arg4 harg4 arg5 harg5 arg6 harg6 arg7 harg7 hc0 hc1 x0 x1 x2 x3 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt8 (c : Dev nD) : (n : ℕ) → n < cfg8.N → Vec F S2560x153 .f32 × Vec F S2560x153 .f32
  | 0, hn => (out8_A_4 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩))
  | n + 1, hn =>
    if h0 : (n + 1) % 1250 = 0 then
      if h1 : (n + 1) % 1250 = 1249 then
        False.elim (by omega)
      else
        (out8_A_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩))
    else
      if h1 : (n + 1) % 1250 = 1249 then
        (out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)
      else
        (out8_B_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)

/-- `outsAt8` at a point of case A: that case's contents. -/
theorem outsAt8_A (c : Dev nD) (t : Fin cfg8.N) (h0 : t.val % 1250 = 0) (h1 : ¬t.val % 1250 = 1249) :
    outsAt8 V c t.val t.isLt = (out8_A_4 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t)) := by
  obtain ⟨n, hn⟩ := t
  cases n with
  | zero => exact rfl
  | succ n => exact (dif_pos h0).trans ((dif_neg h1).trans rfl)

/-- `outsAt8` at a point of case B: that case's contents, over what the point before left. -/
theorem outsAt8_B (c : Dev nD) (t : Fin cfg8.N) (h0 : ¬t.val % 1250 = 0) (h1 : ¬t.val % 1250 = 1249) :
    outsAt8 V c t.val t.isLt = (out8_B_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt8` at a point of case C: that case's contents, over what the point before left. -/
theorem outsAt8_C (c : Dev nD) (t : Fin cfg8.N) (h0 : ¬t.val % 1250 = 0) (h1 : t.val % 1250 = 1249) :
    outsAt8 V c t.val t.isLt = (out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of region 8 on core `c`: the arrays as the region finds them; after the body at point `t`
    each input's buffer at its block and the output's at `outsAt8`; the invariant `PhiS8`; nothing owed; full
    shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem recorded_eq8 (c : Dev nD) (t : Fin (cfg8.N + 1)) : (dat8 V c).recorded t = Set.univ := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 50000 := lt_N8 t
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases h0 : t.val % 1250 = 0
  · by_cases h1 : t.val % 1250 = 1249
    · exfalso; omega
    · rw [Dat.leavesExact_idle (dat8 V c) 4 t (idleAt8_4_A t ((hcond8_0 t).mpr h0) (fun h => h1 ((hcond8_1 t).mp h))) (noFlush8_4_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 1250 = 1249
    · rw [show (dat8 V c).leavesExact 4 t = owns (c : Thread nD τ) (ms8_4 t) fullShare ((dat8 V c).after 4 t) from by
        unfold Dat.leavesExact; rw [liveAt8_4_C t (fun h => h0 ((hcond8_0 t).mp h)) ((hcond8_1 t).mpr h1)], after8_4]
      rw [outsAt8_C V c t h0 h1]
      unfold out8_C_4 sout8_C_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) (iblk8 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover8_C_4 c _ _ _ _ _ _ _ _ _ _ _ _ _ _ _ _ _ _ _ _)
    · rw [Dat.leavesExact_idle (dat8 V c) 4 t (idleAt8_4_B t (fun h => h0 ((hcond8_0 t).mp h)) (fun h => h1 ((hcond8_1 t).mp h))) (noFlush8_4_B t (fun h => h0 ((hcond8_0 t).mp h)) (fun h => h1 ((hcond8_1 t).mp h)))]
      rw [outsAt8_B V c t h0 h1]
      unfold sout8_B_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) (iblk8 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the entry invariant back: the accumulator's named contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 50000 := N_8; omega)

end Cert.Kernel.H

end
-- ==== Proof.K.Vals.lean ====
/- The buffer contents of every core at each boundary between @main's 22 items (seven stretches of host operations,
   then the nine kernel regions among six more stretches): a fold from the launch memory. A stretch of host
   operations takes the contents to `StableHlo.after` of its operations; a region leaves each of its arrays at what its
   pipeline's write-backs make of it and every other buffer as it was. Beside the fold: each region's entry contents
   `Vent<K>`, and per item the lemma that reads the fold at a buffer the item writes (`_arr`) or leaves (`_of_ne`, `_keep`). -/
import proofs.«421344_j1254130450614_1_alg».proof.Proof.Gen.Kernel.Launch
import proofs.«421344_j1254130450614_1_alg».proof.Proof.Gen.Kernel.Skeleton
import proofs.«421344_j1254130450614_1_alg».proof.Proof.Gen.Kernel.Regions
import proofs.«421344_j1254130450614_1_alg».proof.Proof.K.R0
import proofs.«421344_j1254130450614_1_alg».proof.Proof.K.R1
import proofs.«421344_j1254130450614_1_alg».proof.Proof.K.R2
import proofs.«421344_j1254130450614_1_alg».proof.Proof.K.R3
import proofs.«421344_j1254130450614_1_alg».proof.Proof.K.R4
import proofs.«421344_j1254130450614_1_alg».proof.Proof.K.R5
import proofs.«421344_j1254130450614_1_alg».proof.Proof.K.R6
import proofs.«421344_j1254130450614_1_alg».proof.Proof.K.R7
import proofs.«421344_j1254130450614_1_alg».proof.Proof.K.R8
import Idealize.ShloMosaic.Lib.Pipeline.FrameBody
import Idealize.ShloMosaic.Lib.Pipeline.Regions
import Idealize.ShloMosaic.Lib.Pipeline.FrameSuffix
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main's 22 items: a fold from the launch memory -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After item 0, the host operations `hostOps0`. -/
abbrev W1 : Dev nD → Valuation τ sig (Elt F) := fun c => StableHlo.after hostOps0 (W0 m ρ c)
/-- A buffer none of `hostOps0`'s operations writes is as before them. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, the host operations `hostOps0_1`. -/
abbrev W2 : Dev nD → Valuation τ sig (Elt F) := fun c => StableHlo.after hostOps0_1 (W1 m ρ c)
/-- A buffer none of `hostOps0_1`'s operations writes is as before them. -/
theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After item 2, the host operations `hostOps0_2`. -/
abbrev W3 : Dev nD → Valuation τ sig (Elt F) := fun c => StableHlo.after hostOps0_2 (W2 m ρ c)
/-- A buffer none of `hostOps0_2`'s operations writes is as before them. -/
theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After item 3, the host operations `hostOps0_3`. -/
abbrev W4 : Dev nD → Valuation τ sig (Elt F) := fun c => StableHlo.after hostOps0_3 (W3 m ρ c)
/-- A buffer none of `hostOps0_3`'s operations writes is as before them. -/
theorem W4_keep (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After item 4, the host operations `hostOps0_4`. -/
abbrev W5 : Dev nD → Valuation τ sig (Elt F) := fun c => StableHlo.after hostOps0_4 (W4 m ρ c)
/-- A buffer none of `hostOps0_4`'s operations writes is as before them. -/
theorem W5_keep (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After item 5, the host operations `hostOps0_5`. -/
abbrev W6 : Dev nD → Valuation τ sig (Elt F) := fun c => StableHlo.after hostOps0_5 (W5 m ρ c)
/-- A buffer none of `hostOps0_5`'s operations writes is as before them. -/
theorem W6_keep (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

/-- After item 6, the host operations `hostOps0_6`. -/
abbrev W7 : Dev nD → Valuation τ sig (Elt F) := fun c => StableHlo.after hostOps0_6 (W6 m ρ c)
/-- A buffer none of `hostOps0_6`'s operations writes is as before them. -/
theorem W7_keep (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- Region 0's entry contents, read at the TensorCore's references (what its proof data take). -/
abbrev Vent0 : (c : Dev nD) → (b : Ref sig .tc) → Buf (Elt F) ((c : Thread nD τ).loc b) := fun c b => W7 m ρ c (Proc.devRef .tc b)
/-- After item 7, region 0: its arrays at what the pipeline leaves (an input as entered, the output's write-backs
    folded), every other buffer as entered. -/
def W8 (c : Dev nD) : Valuation τ sig (Elt F) :=
  Pipeline.withArrays spec0 c (W7 m ρ c) fun w => (dat0 (Vent0 m ρ) c).arrAt w cfg0.N
theorem W8_arr (c : Dev nD) (w : Fin cfg0.W) :
    W8 m ρ c (Proc.devRef .tc (Pipeline.arrRef spec0 w)) = (dat0 (Vent0 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- Region 0's exit contents, read at the TensorCore's references. -/
abbrev Vex0 : (c : Dev nD) → (b : Ref sig .tc) → Buf (Elt F) ((c : Thread nD τ).loc b) := fun c b => W8 m ρ c (Proc.devRef .tc b)
/-- At region 0's exit each of its arrays holds what the pipeline leaves, and every other buffer what it held at entry. -/
theorem hF0 (c : Dev nD) (w : Fin cfg0.W) : (dat0 (Vent0 m ρ) c).arrAt w cfg0.N = Vex0 m ρ c (Pipeline.arrRef spec0 w) :=
  (W8_arr m ρ c w).symm
theorem hrest0 (c : Dev nD) : ∀ b, b ∉ Finset.univ.image (Pipeline.arrRef spec0) → Vex0 m ρ c b = Vent0 m ρ c b :=
  fun b hb => W8_of_ne m ρ c b fun w e => hb (Finset.mem_image.mpr ⟨w, Finset.mem_univ _, e⟩)

/-- Region 1's entry contents, read at the TensorCore's references (what its proof data take). -/
abbrev Vent1 : (c : Dev nD) → (b : Ref sig .tc) → Buf (Elt F) ((c : Thread nD τ).loc b) := fun c b => W8 m ρ c (Proc.devRef .tc b)
/-- After item 8, region 1: its arrays at what the pipeline leaves (an input as entered, the output's write-backs
    folded), every other buffer as entered. -/
def W9 (c : Dev nD) : Valuation τ sig (Elt F) :=
  Pipeline.withArrays spec1 c (W8 m ρ c) fun w => (dat1 (Vent1 m ρ) c).arrAt w cfg1.N
theorem W9_arr (c : Dev nD) (w : Fin cfg1.W) :
    W9 m ρ c (Proc.devRef .tc (Pipeline.arrRef spec1 w)) = (dat1 (Vent1 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- Region 1's exit contents, read at the TensorCore's references. -/
abbrev Vex1 : (c : Dev nD) → (b : Ref sig .tc) → Buf (Elt F) ((c : Thread nD τ).loc b) := fun c b => W9 m ρ c (Proc.devRef .tc b)
/-- At region 1's exit each of its arrays holds what the pipeline leaves, and every other buffer what it held at entry. -/
theorem hF1 (c : Dev nD) (w : Fin cfg1.W) : (dat1 (Vent1 m ρ) c).arrAt w cfg1.N = Vex1 m ρ c (Pipeline.arrRef spec1 w) :=
  (W9_arr m ρ c w).symm
theorem hrest1 (c : Dev nD) : ∀ b, b ∉ Finset.univ.image (Pipeline.arrRef spec1) → Vex1 m ρ c b = Vent1 m ρ c b :=
  fun b hb => W9_of_ne m ρ c b fun w e => hb (Finset.mem_image.mpr ⟨w, Finset.mem_univ _, e⟩)

/-- After item 9, the host operations `hostOps2`. -/
abbrev W10 : Dev nD → Valuation τ sig (Elt F) := fun c => StableHlo.after hostOps2 (W9 m ρ c)
/-- A buffer none of `hostOps2`'s operations writes is as before them. -/
theorem W10_keep (c : Dev nD) (r : Ref sig .tc) (h : r ∉ hostOps2_W) :
    W10 m ρ c (Proc.devRef .tc r) = W9 m ρ c (Proc.devRef .tc r) :=
  StableHlo.after_of_writes_sub hostOps2 _ hostOps2_writes h

/-- Region 2's entry contents, read at the TensorCore's references (what its proof data take). -/
abbrev Vent2 : (c : Dev nD) → (b : Ref sig .tc) → Buf (Elt F) ((c : Thread nD τ).loc b) := fun c b => W10 m ρ c (Proc.devRef .tc b)
/-- After item 10, region 2: its arrays at what the pipeline leaves (an input as entered, the output's write-backs
    folded), every other buffer as entered. -/
def W11 (c : Dev nD) : Valuation τ sig (Elt F) :=
  Pipeline.withArrays spec2 c (W10 m ρ c) fun w => (dat2 (Vent2 m ρ) c).arrAt w cfg2.N
theorem W11_arr (c : Dev nD) (w : Fin cfg2.W) :
    W11 m ρ c (Proc.devRef .tc (Pipeline.arrRef spec2 w)) = (dat2 (Vent2 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- Region 2's exit contents, read at the TensorCore's references. -/
abbrev Vex2 : (c : Dev nD) → (b : Ref sig .tc) → Buf (Elt F) ((c : Thread nD τ).loc b) := fun c b => W11 m ρ c (Proc.devRef .tc b)
/-- At region 2's exit each of its arrays holds what the pipeline leaves, and every other buffer what it held at entry. -/
theorem hF2 (c : Dev nD) (w : Fin cfg2.W) : (dat2 (Vent2 m ρ) c).arrAt w cfg2.N = Vex2 m ρ c (Pipeline.arrRef spec2 w) :=
  (W11_arr m ρ c w).symm
theorem hrest2 (c : Dev nD) : ∀ b, b ∉ Finset.univ.image (Pipeline.arrRef spec2) → Vex2 m ρ c b = Vent2 m ρ c b :=
  fun b hb => W11_of_ne m ρ c b fun w e => hb (Finset.mem_image.mpr ⟨w, Finset.mem_univ _, e⟩)

/-- After item 11, the host operations `hostOps3`. -/
abbrev W12 : Dev nD → Valuation τ sig (Elt F) := fun c => StableHlo.after hostOps3 (W11 m ρ c)
/-- A buffer none of `hostOps3`'s operations writes is as before them. -/
theorem W12_keep (c : Dev nD) (r : Ref sig .tc) (h : r ∉ hostOps3_W) :
    W12 m ρ c (Proc.devRef .tc r) = W11 m ρ c (Proc.devRef .tc r) :=
  StableHlo.after_of_writes_sub hostOps3 _ hostOps3_writes h

/-- Region 3's entry contents, read at the TensorCore's references (what its proof data take). -/
abbrev Vent3 : (c : Dev nD) → (b : Ref sig .tc) → Buf (Elt F) ((c : Thread nD τ).loc b) := fun c b => W12 m ρ c (Proc.devRef .tc b)
/-- After item 12, region 3: its arrays at what the pipeline leaves (an input as entered, the output's write-backs
    folded), every other buffer as entered. -/
def W13 (c : Dev nD) : Valuation τ sig (Elt F) :=
  Pipeline.withArrays spec3 c (W12 m ρ c) fun w => (dat3 (Vent3 m ρ) c).arrAt w cfg3.N
theorem W13_arr (c : Dev nD) (w : Fin cfg3.W) :
    W13 m ρ c (Proc.devRef .tc (Pipeline.arrRef spec3 w)) = (dat3 (Vent3 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
/-- Region 3's exit contents, read at the TensorCore's references. -/
abbrev Vex3 : (c : Dev nD) → (b : Ref sig .tc) → Buf (Elt F) ((c : Thread nD τ).loc b) := fun c b => W13 m ρ c (Proc.devRef .tc b)
/-- At region 3's exit each of its arrays holds what the pipeline leaves, and every other buffer what it held at entry. -/
theorem hF3 (c : Dev nD) (w : Fin cfg3.W) : (dat3 (Vent3 m ρ) c).arrAt w cfg3.N = Vex3 m ρ c (Pipeline.arrRef spec3 w) :=
  (W13_arr m ρ c w).symm
theorem hrest3 (c : Dev nD) : ∀ b, b ∉ Finset.univ.image (Pipeline.arrRef spec3) → Vex3 m ρ c b = Vent3 m ρ c b :=
  fun b hb => W13_of_ne m ρ c b fun w e => hb (Finset.mem_image.mpr ⟨w, Finset.mem_univ _, e⟩)

/-- Region 4's entry contents, read at the TensorCore's references (what its proof data take). -/
abbrev Vent4 : (c : Dev nD) → (b : Ref sig .tc) → Buf (Elt F) ((c : Thread nD τ).loc b) := fun c b => W13 m ρ c (Proc.devRef .tc b)
/-- After item 13, region 4: its arrays at what the pipeline leaves (an input as entered, the output's write-backs
    folded), every other buffer as entered. -/
def W14 (c : Dev nD) : Valuation τ sig (Elt F) :=
  Pipeline.withArrays spec4 c (W13 m ρ c) fun w => (dat4 (Vent4 m ρ) c).arrAt w cfg4.N
theorem W14_arr (c : Dev nD) (w : Fin cfg4.W) :
    W14 m ρ c (Proc.devRef .tc (Pipeline.arrRef spec4 w)) = (dat4 (Vent4 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- Region 4's exit contents, read at the TensorCore's references. -/
abbrev Vex4 : (c : Dev nD) → (b : Ref sig .tc) → Buf (Elt F) ((c : Thread nD τ).loc b) := fun c b => W14 m ρ c (Proc.devRef .tc b)
/-- At region 4's exit each of its arrays holds what the pipeline leaves, and every other buffer what it held at entry. -/
theorem hF4 (c : Dev nD) (w : Fin cfg4.W) : (dat4 (Vent4 m ρ) c).arrAt w cfg4.N = Vex4 m ρ c (Pipeline.arrRef spec4 w) :=
  (W14_arr m ρ c w).symm
theorem hrest4 (c : Dev nD) : ∀ b, b ∉ Finset.univ.image (Pipeline.arrRef spec4) → Vex4 m ρ c b = Vent4 m ρ c b :=
  fun b hb => W14_of_ne m ρ c b fun w e => hb (Finset.mem_image.mpr ⟨w, Finset.mem_univ _, e⟩)

/-- After item 14, the host operations `hostOps5`. -/
abbrev W15 : Dev nD → Valuation τ sig (Elt F) := fun c => StableHlo.after hostOps5 (W14 m ρ c)
/-- A buffer none of `hostOps5`'s operations writes is as before them. -/
theorem W15_keep (c : Dev nD) (r : Ref sig .tc) (h : r ∉ hostOps5_W) :
    W15 m ρ c (Proc.devRef .tc r) = W14 m ρ c (Proc.devRef .tc r) :=
  StableHlo.after_of_writes_sub hostOps5 _ hostOps5_writes h

/-- Region 5's entry contents, read at the TensorCore's references (what its proof data take). -/
abbrev Vent5 : (c : Dev nD) → (b : Ref sig .tc) → Buf (Elt F) ((c : Thread nD τ).loc b) := fun c b => W15 m ρ c (Proc.devRef .tc b)
/-- After item 15, region 5: its arrays at what the pipeline leaves (an input as entered, the output's write-backs
    folded), every other buffer as entered. -/
def W16 (c : Dev nD) : Valuation τ sig (Elt F) :=
  Pipeline.withArrays spec5 c (W15 m ρ c) fun w => (dat5 (Vent5 m ρ) c).arrAt w cfg5.N
theorem W16_arr (c : Dev nD) (w : Fin cfg5.W) :
    W16 m ρ c (Proc.devRef .tc (Pipeline.arrRef spec5 w)) = (dat5 (Vent5 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- Region 5's exit contents, read at the TensorCore's references. -/
abbrev Vex5 : (c : Dev nD) → (b : Ref sig .tc) → Buf (Elt F) ((c : Thread nD τ).loc b) := fun c b => W16 m ρ c (Proc.devRef .tc b)
/-- At region 5's exit each of its arrays holds what the pipeline leaves, and every other buffer what it held at entry. -/
theorem hF5 (c : Dev nD) (w : Fin cfg5.W) : (dat5 (Vent5 m ρ) c).arrAt w cfg5.N = Vex5 m ρ c (Pipeline.arrRef spec5 w) :=
  (W16_arr m ρ c w).symm
theorem hrest5 (c : Dev nD) : ∀ b, b ∉ Finset.univ.image (Pipeline.arrRef spec5) → Vex5 m ρ c b = Vent5 m ρ c b :=
  fun b hb => W16_of_ne m ρ c b fun w e => hb (Finset.mem_image.mpr ⟨w, Finset.mem_univ _, e⟩)

/-- After item 16, the host operations `hostOps6`. -/
abbrev W17 : Dev nD → Valuation τ sig (Elt F) := fun c => StableHlo.after hostOps6 (W16 m ρ c)
/-- A buffer none of `hostOps6`'s operations writes is as before them. -/
theorem W17_keep (c : Dev nD) (r : Ref sig .tc) (h : r ∉ hostOps6_W) :
    W17 m ρ c (Proc.devRef .tc r) = W16 m ρ c (Proc.devRef .tc r) :=
  StableHlo.after_of_writes_sub hostOps6 _ hostOps6_writes h

/-- Region 6's entry contents, read at the TensorCore's references (what its proof data take). -/
abbrev Vent6 : (c : Dev nD) → (b : Ref sig .tc) → Buf (Elt F) ((c : Thread nD τ).loc b) := fun c b => W17 m ρ c (Proc.devRef .tc b)
/-- After item 17, region 6: its arrays at what the pipeline leaves (an input as entered, the output's write-backs
    folded), every other buffer as entered. -/
def W18 (c : Dev nD) : Valuation τ sig (Elt F) :=
  Pipeline.withArrays spec6 c (W17 m ρ c) fun w => (dat6 (Vent6 m ρ) c).arrAt w cfg6.N
theorem W18_arr (c : Dev nD) (w : Fin cfg6.W) :
    W18 m ρ c (Proc.devRef .tc (Pipeline.arrRef spec6 w)) = (dat6 (Vent6 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- Region 6's exit contents, read at the TensorCore's references. -/
abbrev Vex6 : (c : Dev nD) → (b : Ref sig .tc) → Buf (Elt F) ((c : Thread nD τ).loc b) := fun c b => W18 m ρ c (Proc.devRef .tc b)
/-- At region 6's exit each of its arrays holds what the pipeline leaves, and every other buffer what it held at entry. -/
theorem hF6 (c : Dev nD) (w : Fin cfg6.W) : (dat6 (Vent6 m ρ) c).arrAt w cfg6.N = Vex6 m ρ c (Pipeline.arrRef spec6 w) :=
  (W18_arr m ρ c w).symm
theorem hrest6 (c : Dev nD) : ∀ b, b ∉ Finset.univ.image (Pipeline.arrRef spec6) → Vex6 m ρ c b = Vent6 m ρ c b :=
  fun b hb => W18_of_ne m ρ c b fun w e => hb (Finset.mem_image.mpr ⟨w, Finset.mem_univ _, e⟩)

/-- Region 7's entry contents, read at the TensorCore's references (what its proof data take). -/
abbrev Vent7 : (c : Dev nD) → (b : Ref sig .tc) → Buf (Elt F) ((c : Thread nD τ).loc b) := fun c b => W18 m ρ c (Proc.devRef .tc b)
/-- After item 18, region 7: its arrays at what the pipeline leaves (an input as entered, the output's write-backs
    folded), every other buffer as entered. -/
def W19 (c : Dev nD) : Valuation τ sig (Elt F) :=
  Pipeline.withArrays spec7 c (W18 m ρ c) fun w => (dat7 (Vent7 m ρ) c).arrAt w cfg7.N
theorem W19_arr (c : Dev nD) (w : Fin cfg7.W) :
    W19 m ρ c (Proc.devRef .tc (Pipeline.arrRef spec7 w)) = (dat7 (Vent7 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
/-- Region 7's exit contents, read at the TensorCore's references. -/
abbrev Vex7 : (c : Dev nD) → (b : Ref sig .tc) → Buf (Elt F) ((c : Thread nD τ).loc b) := fun c b => W19 m ρ c (Proc.devRef .tc b)
/-- At region 7's exit each of its arrays holds what the pipeline leaves, and every other buffer what it held at entry. -/
theorem hF7 (c : Dev nD) (w : Fin cfg7.W) : (dat7 (Vent7 m ρ) c).arrAt w cfg7.N = Vex7 m ρ c (Pipeline.arrRef spec7 w) :=
  (W19_arr m ρ c w).symm
theorem hrest7 (c : Dev nD) : ∀ b, b ∉ Finset.univ.image (Pipeline.arrRef spec7) → Vex7 m ρ c b = Vent7 m ρ c b :=
  fun b hb => W19_of_ne m ρ c b fun w e => hb (Finset.mem_image.mpr ⟨w, Finset.mem_univ _, e⟩)

/-- After item 19, the host operations `hostOps8`. -/
abbrev W20 : Dev nD → Valuation τ sig (Elt F) := fun c => StableHlo.after hostOps8 (W19 m ρ c)
/-- A buffer none of `hostOps8`'s operations writes is as before them. -/
theorem W20_keep (c : Dev nD) (r : Ref sig .tc) (h : r ∉ hostOps8_W) :
    W20 m ρ c (Proc.devRef .tc r) = W19 m ρ c (Proc.devRef .tc r) :=
  StableHlo.after_of_writes_sub hostOps8 _ hostOps8_writes h

/-- Region 8's entry contents, read at the TensorCore's references (what its proof data take). -/
abbrev Vent8 : (c : Dev nD) → (b : Ref sig .tc) → Buf (Elt F) ((c : Thread nD τ).loc b) := fun c b => W20 m ρ c (Proc.devRef .tc b)
/-- After item 20, region 8: its arrays at what the pipeline leaves (an input as entered, the output's write-backs
    folded), every other buffer as entered. -/
def W21 (c : Dev nD) : Valuation τ sig (Elt F) :=
  Pipeline.withArrays spec8 c (W20 m ρ c) fun w => (dat8 (Vent8 m ρ) c).arrAt w cfg8.N
theorem W21_arr (c : Dev nD) (w : Fin cfg8.W) :
    W21 m ρ c (Proc.devRef .tc (Pipeline.arrRef spec8 w)) = (dat8 (Vent8 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
/-- Region 8's exit contents, read at the TensorCore's references. -/
abbrev Vex8 : (c : Dev nD) → (b : Ref sig .tc) → Buf (Elt F) ((c : Thread nD τ).loc b) := fun c b => W21 m ρ c (Proc.devRef .tc b)
/-- At region 8's exit each of its arrays holds what the pipeline leaves, and every other buffer what it held at entry. -/
theorem hF8 (c : Dev nD) (w : Fin cfg8.W) : (dat8 (Vent8 m ρ) c).arrAt w cfg8.N = Vex8 m ρ c (Pipeline.arrRef spec8 w) :=
  (W21_arr m ρ c w).symm
theorem hrest8 (c : Dev nD) : ∀ b, b ∉ Finset.univ.image (Pipeline.arrRef spec8) → Vex8 m ρ c b = Vent8 m ρ c b :=
  fun b hb => W21_of_ne m ρ c b fun w e => hb (Finset.mem_image.mpr ⟨w, Finset.mem_univ _, e⟩)

/-- After item 21, the host operations `hostOps9`. -/
abbrev W22 : Dev nD → Valuation τ sig (Elt F) := fun c => StableHlo.after hostOps9 (W21 m ρ c)
/-- A buffer none of `hostOps9`'s operations writes is as before them. -/
theorem W22_keep (c : Dev nD) (r : Ref sig .tc) (h : r ∉ hostOps9_W) :
    W22 m ρ c (Proc.devRef .tc r) = W21 m ρ c (Proc.devRef .tc r) :=
  StableHlo.after_of_writes_sub hostOps9 _ hostOps9_writes h

end Cert.Kernel.H

end
-- ==== Proof.K.Asm.lean ====
/- THE ASSEMBLY of @main's nine kernel regions and thirteen stretches of host operations into one run: each argument
   array read back through the fold of boundary contents to the launch memory, every pipeline's proof data at its
   region's entry contents, a segment per item over the thread state "every unscoped buffer at the boundary's contents,
   the generator register at some state, nothing owed", and the run of @main from any memory with zero counters:
   it terminates, the result buffer ends at the last boundary's contents, the arguments end as launched. -/
import proofs.«421344_j1254130450614_1_alg».proof.Proof.K.Vals
import Idealize.ShloMosaic.Lib.Pipeline.RegionsLoop

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation writes one and no region has one among its arrays, so the
    fold at an argument's buffer walks back to the launch memory -/

theorem W22_main_arg0 (c : Dev nD) : W22 m ρ c (Proc.devRef .tc main_arg0) = m ((c : Thread nD τ).loc main_arg0) :=
  (W22_keep m ρ c main_arg0 (by decide)).trans <|
    (W21_of_ne m ρ c main_arg0 (by decide)).trans <|
    (W20_keep m ρ c main_arg0 (by decide)).trans <|
    (W19_of_ne m ρ c main_arg0 (by decide)).trans <|
    (W18_of_ne m ρ c main_arg0 (by decide)).trans <|
    (W17_keep m ρ c main_arg0 (by decide)).trans <|
    (W16_of_ne m ρ c main_arg0 (by decide)).trans <|
    (W15_keep m ρ c main_arg0 (by decide)).trans <|
    (W14_of_ne m ρ c main_arg0 (by decide)).trans <|
    (W13_of_ne m ρ c main_arg0 (by decide)).trans <|
    (W12_keep m ρ c main_arg0 (by decide)).trans <|
    (W11_of_ne m ρ c main_arg0 (by decide)).trans <|
    (W10_keep m ρ c main_arg0 (by decide)).trans <|
    (W9_of_ne m ρ c main_arg0 (by decide)).trans <|
    (W8_of_ne m ρ c main_arg0 (by decide)).trans <|
    (W7_keep m ρ c main_arg0 (by decide)).trans <|
    (W6_keep m ρ c main_arg0 (by decide)).trans <|
    (W5_keep m ρ c main_arg0 (by decide)).trans <|
    (W4_keep m ρ c main_arg0 (by decide)).trans <|
    (W3_keep m ρ c main_arg0 (by decide)).trans <|
    (W2_keep m ρ c main_arg0 (by decide)).trans <|
    (W1_keep m ρ c main_arg0 (by decide)).trans <| rfl

theorem W22_main_arg1 (c : Dev nD) : W22 m ρ c (Proc.devRef .tc main_arg1) = m ((c : Thread nD τ).loc main_arg1) :=
  (W22_keep m ρ c main_arg1 (by decide)).trans <|
    (W21_of_ne m ρ c main_arg1 (by decide)).trans <|
    (W20_keep m ρ c main_arg1 (by decide)).trans <|
    (W19_of_ne m ρ c main_arg1 (by decide)).trans <|
    (W18_of_ne m ρ c main_arg1 (by decide)).trans <|
    (W17_keep m ρ c main_arg1 (by decide)).trans <|
    (W16_of_ne m ρ c main_arg1 (by decide)).trans <|
    (W15_keep m ρ c main_arg1 (by decide)).trans <|
    (W14_of_ne m ρ c main_arg1 (by decide)).trans <|
    (W13_of_ne m ρ c main_arg1 (by decide)).trans <|
    (W12_keep m ρ c main_arg1 (by decide)).trans <|
    (W11_of_ne m ρ c main_arg1 (by decide)).trans <|
    (W10_keep m ρ c main_arg1 (by decide)).trans <|
    (W9_of_ne m ρ c main_arg1 (by decide)).trans <|
    (W8_of_ne m ρ c main_arg1 (by decide)).trans <|
    (W7_keep m ρ c main_arg1 (by decide)).trans <|
    (W6_keep m ρ c main_arg1 (by decide)).trans <|
    (W5_keep m ρ c main_arg1 (by decide)).trans <|
    (W4_keep m ρ c main_arg1 (by decide)).trans <|
    (W3_keep m ρ c main_arg1 (by decide)).trans <|
    (W2_keep m ρ c main_arg1 (by decide)).trans <|
    (W1_keep m ρ c main_arg1 (by decide)).trans <| rfl

theorem W22_main_arg2 (c : Dev nD) : W22 m ρ c (Proc.devRef .tc main_arg2) = m ((c : Thread nD τ).loc main_arg2) :=
  (W22_keep m ρ c main_arg2 (by decide)).trans <|
    (W21_of_ne m ρ c main_arg2 (by decide)).trans <|
    (W20_keep m ρ c main_arg2 (by decide)).trans <|
    (W19_of_ne m ρ c main_arg2 (by decide)).trans <|
    (W18_of_ne m ρ c main_arg2 (by decide)).trans <|
    (W17_keep m ρ c main_arg2 (by decide)).trans <|
    (W16_of_ne m ρ c main_arg2 (by decide)).trans <|
    (W15_keep m ρ c main_arg2 (by decide)).trans <|
    (W14_of_ne m ρ c main_arg2 (by decide)).trans <|
    (W13_of_ne m ρ c main_arg2 (by decide)).trans <|
    (W12_keep m ρ c main_arg2 (by decide)).trans <|
    (W11_of_ne m ρ c main_arg2 (by decide)).trans <|
    (W10_keep m ρ c main_arg2 (by decide)).trans <|
    (W9_of_ne m ρ c main_arg2 (by decide)).trans <|
    (W8_of_ne m ρ c main_arg2 (by decide)).trans <|
    (W7_keep m ρ c main_arg2 (by decide)).trans <|
    (W6_keep m ρ c main_arg2 (by decide)).trans <|
    (W5_keep m ρ c main_arg2 (by decide)).trans <|
    (W4_keep m ρ c main_arg2 (by decide)).trans <|
    (W3_keep m ρ c main_arg2 (by decide)).trans <|
    (W2_keep m ρ c main_arg2 (by decide)).trans <|
    (W1_keep m ρ c main_arg2 (by decide)).trans <| rfl

theorem W22_main_arg3 (c : Dev nD) : W22 m ρ c (Proc.devRef .tc main_arg3) = m ((c : Thread nD τ).loc main_arg3) :=
  (W22_keep m ρ c main_arg3 (by decide)).trans <|
    (W21_of_ne m ρ c main_arg3 (by decide)).trans <|
    (W20_keep m ρ c main_arg3 (by decide)).trans <|
    (W19_of_ne m ρ c main_arg3 (by decide)).trans <|
    (W18_of_ne m ρ c main_arg3 (by decide)).trans <|
    (W17_keep m ρ c main_arg3 (by decide)).trans <|
    (W16_of_ne m ρ c main_arg3 (by decide)).trans <|
    (W15_keep m ρ c main_arg3 (by decide)).trans <|
    (W14_of_ne m ρ c main_arg3 (by decide)).trans <|
    (W13_of_ne m ρ c main_arg3 (by decide)).trans <|
    (W12_keep m ρ c main_arg3 (by decide)).trans <|
    (W11_of_ne m ρ c main_arg3 (by decide)).trans <|
    (W10_keep m ρ c main_arg3 (by decide)).trans <|
    (W9_of_ne m ρ c main_arg3 (by decide)).trans <|
    (W8_of_ne m ρ c main_arg3 (by decide)).trans <|
    (W7_keep m ρ c main_arg3 (by decide)).trans <|
    (W6_keep m ρ c main_arg3 (by decide)).trans <|
    (W5_keep m ρ c main_arg3 (by decide)).trans <|
    (W4_keep m ρ c main_arg3 (by decide)).trans <|
    (W3_keep m ρ c main_arg3 (by decide)).trans <|
    (W2_keep m ρ c main_arg3 (by decide)).trans <|
    (W1_keep m ρ c main_arg3 (by decide)).trans <| rfl

theorem W22_main_arg4 (c : Dev nD) : W22 m ρ c (Proc.devRef .tc main_arg4) = m ((c : Thread nD τ).loc main_arg4) :=
  (W22_keep m ρ c main_arg4 (by decide)).trans <|
    (W21_of_ne m ρ c main_arg4 (by decide)).trans <|
    (W20_keep m ρ c main_arg4 (by decide)).trans <|
    (W19_of_ne m ρ c main_arg4 (by decide)).trans <|
    (W18_of_ne m ρ c main_arg4 (by decide)).trans <|
    (W17_keep m ρ c main_arg4 (by decide)).trans <|
    (W16_of_ne m ρ c main_arg4 (by decide)).trans <|
    (W15_keep m ρ c main_arg4 (by decide)).trans <|
    (W14_of_ne m ρ c main_arg4 (by decide)).trans <|
    (W13_of_ne m ρ c main_arg4 (by decide)).trans <|
    (W12_keep m ρ c main_arg4 (by decide)).trans <|
    (W11_of_ne m ρ c main_arg4 (by decide)).trans <|
    (W10_keep m ρ c main_arg4 (by decide)).trans <|
    (W9_of_ne m ρ c main_arg4 (by decide)).trans <|
    (W8_of_ne m ρ c main_arg4 (by decide)).trans <|
    (W7_keep m ρ c main_arg4 (by decide)).trans <|
    (W6_keep m ρ c main_arg4 (by decide)).trans <|
    (W5_keep m ρ c main_arg4 (by decide)).trans <|
    (W4_keep m ρ c main_arg4 (by decide)).trans <|
    (W3_keep m ρ c main_arg4 (by decide)).trans <|
    (W2_keep m ρ c main_arg4 (by decide)).trans <|
    (W1_keep m ρ c main_arg4 (by decide)).trans <| rfl

theorem W22_main_arg5 (c : Dev nD) : W22 m ρ c (Proc.devRef .tc main_arg5) = m ((c : Thread nD τ).loc main_arg5) :=
  (W22_keep m ρ c main_arg5 (by decide)).trans <|
    (W21_of_ne m ρ c main_arg5 (by decide)).trans <|
    (W20_keep m ρ c main_arg5 (by decide)).trans <|
    (W19_of_ne m ρ c main_arg5 (by decide)).trans <|
    (W18_of_ne m ρ c main_arg5 (by decide)).trans <|
    (W17_keep m ρ c main_arg5 (by decide)).trans <|
    (W16_of_ne m ρ c main_arg5 (by decide)).trans <|
    (W15_keep m ρ c main_arg5 (by decide)).trans <|
    (W14_of_ne m ρ c main_arg5 (by decide)).trans <|
    (W13_of_ne m ρ c main_arg5 (by decide)).trans <|
    (W12_keep m ρ c main_arg5 (by decide)).trans <|
    (W11_of_ne m ρ c main_arg5 (by decide)).trans <|
    (W10_keep m ρ c main_arg5 (by decide)).trans <|
    (W9_of_ne m ρ c main_arg5 (by decide)).trans <|
    (W8_of_ne m ρ c main_arg5 (by decide)).trans <|
    (W7_keep m ρ c main_arg5 (by decide)).trans <|
    (W6_keep m ρ c main_arg5 (by decide)).trans <|
    (W5_keep m ρ c main_arg5 (by decide)).trans <|
    (W4_keep m ρ c main_arg5 (by decide)).trans <|
    (W3_keep m ρ c main_arg5 (by decide)).trans <|
    (W2_keep m ρ c main_arg5 (by decide)).trans <|
    (W1_keep m ρ c main_arg5 (by decide)).trans <| rfl

theorem W22_main_arg6 (c : Dev nD) : W22 m ρ c (Proc.devRef .tc main_arg6) = m ((c : Thread nD τ).loc main_arg6) :=
  (W22_keep m ρ c main_arg6 (by decide)).trans <|
    (W21_of_ne m ρ c main_arg6 (by decide)).trans <|
    (W20_keep m ρ c main_arg6 (by decide)).trans <|
    (W19_of_ne m ρ c main_arg6 (by decide)).trans <|
    (W18_of_ne m ρ c main_arg6 (by decide)).trans <|
    (W17_keep m ρ c main_arg6 (by decide)).trans <|
    (W16_of_ne m ρ c main_arg6 (by decide)).trans <|
    (W15_keep m ρ c main_arg6 (by decide)).trans <|
    (W14_of_ne m ρ c main_arg6 (by decide)).trans <|
    (W13_of_ne m ρ c main_arg6 (by decide)).trans <|
    (W12_keep m ρ c main_arg6 (by decide)).trans <|
    (W11_of_ne m ρ c main_arg6 (by decide)).trans <|
    (W10_keep m ρ c main_arg6 (by decide)).trans <|
    (W9_of_ne m ρ c main_arg6 (by decide)).trans <|
    (W8_of_ne m ρ c main_arg6 (by decide)).trans <|
    (W7_keep m ρ c main_arg6 (by decide)).trans <|
    (W6_keep m ρ c main_arg6 (by decide)).trans <|
    (W5_keep m ρ c main_arg6 (by decide)).trans <|
    (W4_keep m ρ c main_arg6 (by decide)).trans <|
    (W3_keep m ρ c main_arg6 (by decide)).trans <|
    (W2_keep m ρ c main_arg6 (by decide)).trans <|
    (W1_keep m ρ c main_arg6 (by decide)).trans <| rfl

theorem W22_main_arg7 (c : Dev nD) : W22 m ρ c (Proc.devRef .tc main_arg7) = m ((c : Thread nD τ).loc main_arg7) :=
  (W22_keep m ρ c main_arg7 (by decide)).trans <|
    (W21_of_ne m ρ c main_arg7 (by decide)).trans <|
    (W20_keep m ρ c main_arg7 (by decide)).trans <|
    (W19_of_ne m ρ c main_arg7 (by decide)).trans <|
    (W18_of_ne m ρ c main_arg7 (by decide)).trans <|
    (W17_keep m ρ c main_arg7 (by decide)).trans <|
    (W16_of_ne m ρ c main_arg7 (by decide)).trans <|
    (W15_keep m ρ c main_arg7 (by decide)).trans <|
    (W14_of_ne m ρ c main_arg7 (by decide)).trans <|
    (W13_of_ne m ρ c main_arg7 (by decide)).trans <|
    (W12_keep m ρ c main_arg7 (by decide)).trans <|
    (W11_of_ne m ρ c main_arg7 (by decide)).trans <|
    (W10_keep m ρ c main_arg7 (by decide)).trans <|
    (W9_of_ne m ρ c main_arg7 (by decide)).trans <|
    (W8_of_ne m ρ c main_arg7 (by decide)).trans <|
    (W7_keep m ρ c main_arg7 (by decide)).trans <|
    (W6_keep m ρ c main_arg7 (by decide)).trans <|
    (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide)).trans <| rfl

theorem W22_main_arg8 (c : Dev nD) : W22 m ρ c (Proc.devRef .tc main_arg8) = m ((c : Thread nD τ).loc main_arg8) :=
  (W22_keep m ρ c main_arg8 (by decide)).trans <|
    (W21_of_ne m ρ c main_arg8 (by decide)).trans <|
    (W20_keep m ρ c main_arg8 (by decide)).trans <|
    (W19_of_ne m ρ c main_arg8 (by decide)).trans <|
    (W18_of_ne m ρ c main_arg8 (by decide)).trans <|
    (W17_keep m ρ c main_arg8 (by decide)).trans <|
    (W16_of_ne m ρ c main_arg8 (by decide)).trans <|
    (W15_keep m ρ c main_arg8 (by decide)).trans <|
    (W14_of_ne m ρ c main_arg8 (by decide)).trans <|
    (W13_of_ne m ρ c main_arg8 (by decide)).trans <|
    (W12_keep m ρ c main_arg8 (by decide)).trans <|
    (W11_of_ne m ρ c main_arg8 (by decide)).trans <|
    (W10_keep m ρ c main_arg8 (by decide)).trans <|
    (W9_of_ne m ρ c main_arg8 (by decide)).trans <|
    (W8_of_ne m ρ c main_arg8 (by decide)).trans <|
    (W7_keep m ρ c main_arg8 (by decide)).trans <|
    (W6_keep m ρ c main_arg8 (by decide)).trans <|
    (W5_keep m ρ c main_arg8 (by decide)).trans <|
    (W4_keep m ρ c main_arg8 (by decide)).trans <|
    (W3_keep m ρ c main_arg8 (by decide)).trans <|
    (W2_keep m ρ c main_arg8 (by decide)).trans <|
    (W1_keep m ρ c main_arg8 (by decide)).trans <| rfl

theorem W22_main_arg9 (c : Dev nD) : W22 m ρ c (Proc.devRef .tc main_arg9) = m ((c : Thread nD τ).loc main_arg9) :=
  (W22_keep m ρ c main_arg9 (by decide)).trans <|
    (W21_of_ne m ρ c main_arg9 (by decide)).trans <|
    (W20_keep m ρ c main_arg9 (by decide)).trans <|
    (W19_of_ne m ρ c main_arg9 (by decide)).trans <|
    (W18_of_ne m ρ c main_arg9 (by decide)).trans <|
    (W17_keep m ρ c main_arg9 (by decide)).trans <|
    (W16_of_ne m ρ c main_arg9 (by decide)).trans <|
    (W15_keep m ρ c main_arg9 (by decide)).trans <|
    (W14_of_ne m ρ c main_arg9 (by decide)).trans <|
    (W13_of_ne m ρ c main_arg9 (by decide)).trans <|
    (W12_keep m ρ c main_arg9 (by decide)).trans <|
    (W11_of_ne m ρ c main_arg9 (by decide)).trans <|
    (W10_keep m ρ c main_arg9 (by decide)).trans <|
    (W9_of_ne m ρ c main_arg9 (by decide)).trans <|
    (W8_of_ne m ρ c main_arg9 (by decide)).trans <|
    (W7_keep m ρ c main_arg9 (by decide)).trans <|
    (W6_keep m ρ c main_arg9 (by decide)).trans <|
    (W5_keep m ρ c main_arg9 (by decide)).trans <|
    (W4_keep m ρ c main_arg9 (by decide)).trans <|
    (W3_keep m ρ c main_arg9 (by decide)).trans <|
    (W2_keep m ρ c main_arg9 (by decide)).trans <|
    (W1_keep m ρ c main_arg9 (by decide)).trans <| rfl

theorem W22_main_arg10 (c : Dev nD) : W22 m ρ c (Proc.devRef .tc main_arg10) = m ((c : Thread nD τ).loc main_arg10) :=
  (W22_keep m ρ c main_arg10 (by decide)).trans <|
    (W21_of_ne m ρ c main_arg10 (by decide)).trans <|
    (W20_keep m ρ c main_arg10 (by decide)).trans <|
    (W19_of_ne m ρ c main_arg10 (by decide)).trans <|
    (W18_of_ne m ρ c main_arg10 (by decide)).trans <|
    (W17_keep m ρ c main_arg10 (by decide)).trans <|
    (W16_of_ne m ρ c main_arg10 (by decide)).trans <|
    (W15_keep m ρ c main_arg10 (by decide)).trans <|
    (W14_of_ne m ρ c main_arg10 (by decide)).trans <|
    (W13_of_ne m ρ c main_arg10 (by decide)).trans <|
    (W12_keep m ρ c main_arg10 (by decide)).trans <|
    (W11_of_ne m ρ c main_arg10 (by decide)).trans <|
    (W10_keep m ρ c main_arg10 (by decide)).trans <|
    (W9_of_ne m ρ c main_arg10 (by decide)).trans <|
    (W8_of_ne m ρ c main_arg10 (by decide)).trans <|
    (W7_keep m ρ c main_arg10 (by decide)).trans <|
    (W6_keep m ρ c main_arg10 (by decide)).trans <|
    (W5_keep m ρ c main_arg10 (by decide)).trans <|
    (W4_keep m ρ c main_arg10 (by decide)).trans <|
    (W3_keep m ρ c main_arg10 (by decide)).trans <|
    (W2_keep m ρ c main_arg10 (by decide)).trans <|
    (W1_keep m ρ c main_arg10 (by decide)).trans <| rfl

theorem W22_main_arg11 (c : Dev nD) : W22 m ρ c (Proc.devRef .tc main_arg11) = m ((c : Thread nD τ).loc main_arg11) :=
  (W22_keep m ρ c main_arg11 (by decide)).trans <|
    (W21_of_ne m ρ c main_arg11 (by decide)).trans <|
    (W20_keep m ρ c main_arg11 (by decide)).trans <|
    (W19_of_ne m ρ c main_arg11 (by decide)).trans <|
    (W18_of_ne m ρ c main_arg11 (by decide)).trans <|
    (W17_keep m ρ c main_arg11 (by decide)).trans <|
    (W16_of_ne m ρ c main_arg11 (by decide)).trans <|
    (W15_keep m ρ c main_arg11 (by decide)).trans <|
    (W14_of_ne m ρ c main_arg11 (by decide)).trans <|
    (W13_of_ne m ρ c main_arg11 (by decide)).trans <|
    (W12_keep m ρ c main_arg11 (by decide)).trans <|
    (W11_of_ne m ρ c main_arg11 (by decide)).trans <|
    (W10_keep m ρ c main_arg11 (by decide)).trans <|
    (W9_of_ne m ρ c main_arg11 (by decide)).trans <|
    (W8_of_ne m ρ c main_arg11 (by decide)).trans <|
    (W7_keep m ρ c main_arg11 (by decide)).trans <|
    (W6_keep m ρ c main_arg11 (by decide)).trans <|
    (W5_keep m ρ c main_arg11 (by decide)).trans <|
    (W4_keep m ρ c main_arg11 (by decide)).trans <|
    (W3_keep m ρ c main_arg11 (by decide)).trans <|
    (W2_keep m ρ c main_arg11 (by decide)).trans <|
    (W1_keep m ρ c main_arg11 (by decide)).trans <| rfl

theorem W22_main_arg12 (c : Dev nD) : W22 m ρ c (Proc.devRef .tc main_arg12) = m ((c : Thread nD τ).loc main_arg12) :=
  (W22_keep m ρ c main_arg12 (by decide)).trans <|
    (W21_of_ne m ρ c main_arg12 (by decide)).trans <|
    (W20_keep m ρ c main_arg12 (by decide)).trans <|
    (W19_of_ne m ρ c main_arg12 (by decide)).trans <|
    (W18_of_ne m ρ c main_arg12 (by decide)).trans <|
    (W17_keep m ρ c main_arg12 (by decide)).trans <|
    (W16_of_ne m ρ c main_arg12 (by decide)).trans <|
    (W15_keep m ρ c main_arg12 (by decide)).trans <|
    (W14_of_ne m ρ c main_arg12 (by decide)).trans <|
    (W13_of_ne m ρ c main_arg12 (by decide)).trans <|
    (W12_keep m ρ c main_arg12 (by decide)).trans <|
    (W11_of_ne m ρ c main_arg12 (by decide)).trans <|
    (W10_keep m ρ c main_arg12 (by decide)).trans <|
    (W9_of_ne m ρ c main_arg12 (by decide)).trans <|
    (W8_of_ne m ρ c main_arg12 (by decide)).trans <|
    (W7_keep m ρ c main_arg12 (by decide)).trans <|
    (W6_keep m ρ c main_arg12 (by decide)).trans <|
    (W5_keep m ρ c main_arg12 (by decide)).trans <|
    (W4_keep m ρ c main_arg12 (by decide)).trans <|
    (W3_keep m ρ c main_arg12 (by decide)).trans <|
    (W2_keep m ρ c main_arg12 (by decide)).trans <|
    (W1_keep m ρ c main_arg12 (by decide)).trans <| rfl

theorem W22_main_arg13 (c : Dev nD) : W22 m ρ c (Proc.devRef .tc main_arg13) = m ((c : Thread nD τ).loc main_arg13) :=
  (W22_keep m ρ c main_arg13 (by decide)).trans <|
    (W21_of_ne m ρ c main_arg13 (by decide)).trans <|
    (W20_keep m ρ c main_arg13 (by decide)).trans <|
    (W19_of_ne m ρ c main_arg13 (by decide)).trans <|
    (W18_of_ne m ρ c main_arg13 (by decide)).trans <|
    (W17_keep m ρ c main_arg13 (by decide)).trans <|
    (W16_of_ne m ρ c main_arg13 (by decide)).trans <|
    (W15_keep m ρ c main_arg13 (by decide)).trans <|
    (W14_of_ne m ρ c main_arg13 (by decide)).trans <|
    (W13_of_ne m ρ c main_arg13 (by decide)).trans <|
    (W12_keep m ρ c main_arg13 (by decide)).trans <|
    (W11_of_ne m ρ c main_arg13 (by decide)).trans <|
    (W10_keep m ρ c main_arg13 (by decide)).trans <|
    (W9_of_ne m ρ c main_arg13 (by decide)).trans <|
    (W8_of_ne m ρ c main_arg13 (by decide)).trans <|
    (W7_keep m ρ c main_arg13 (by decide)).trans <|
    (W6_keep m ρ c main_arg13 (by decide)).trans <|
    (W5_keep m ρ c main_arg13 (by decide)).trans <|
    (W4_keep m ρ c main_arg13 (by decide)).trans <|
    (W3_keep m ρ c main_arg13 (by decide)).trans <|
    (W2_keep m ρ c main_arg13 (by decide)).trans <|
    (W1_keep m ρ c main_arg13 (by decide)).trans <| rfl

theorem W22_main_arg14 (c : Dev nD) : W22 m ρ c (Proc.devRef .tc main_arg14) = m ((c : Thread nD τ).loc main_arg14) :=
  (W22_keep m ρ c main_arg14 (by decide)).trans <|
    (W21_of_ne m ρ c main_arg14 (by decide)).trans <|
    (W20_keep m ρ c main_arg14 (by decide)).trans <|
    (W19_of_ne m ρ c main_arg14 (by decide)).trans <|
    (W18_of_ne m ρ c main_arg14 (by decide)).trans <|
    (W17_keep m ρ c main_arg14 (by decide)).trans <|
    (W16_of_ne m ρ c main_arg14 (by decide)).trans <|
    (W15_keep m ρ c main_arg14 (by decide)).trans <|
    (W14_of_ne m ρ c main_arg14 (by decide)).trans <|
    (W13_of_ne m ρ c main_arg14 (by decide)).trans <|
    (W12_keep m ρ c main_arg14 (by decide)).trans <|
    (W11_of_ne m ρ c main_arg14 (by decide)).trans <|
    (W10_keep m ρ c main_arg14 (by decide)).trans <|
    (W9_of_ne m ρ c main_arg14 (by decide)).trans <|
    (W8_of_ne m ρ c main_arg14 (by decide)).trans <|
    (W7_keep m ρ c main_arg14 (by decide)).trans <|
    (W6_keep m ρ c main_arg14 (by decide)).trans <|
    (W5_keep m ρ c main_arg14 (by decide)).trans <|
    (W4_keep m ρ c main_arg14 (by decide)).trans <|
    (W3_keep m ρ c main_arg14 (by decide)).trans <|
    (W2_keep m ρ c main_arg14 (by decide)).trans <|
    (W1_keep m ρ c main_arg14 (by decide)).trans <| rfl

theorem W22_main_arg15 (c : Dev nD) : W22 m ρ c (Proc.devRef .tc main_arg15) = m ((c : Thread nD τ).loc main_arg15) :=
  (W22_keep m ρ c main_arg15 (by decide)).trans <|
    (W21_of_ne m ρ c main_arg15 (by decide)).trans <|
    (W20_keep m ρ c main_arg15 (by decide)).trans <|
    (W19_of_ne m ρ c main_arg15 (by decide)).trans <|
    (W18_of_ne m ρ c main_arg15 (by decide)).trans <|
    (W17_keep m ρ c main_arg15 (by decide)).trans <|
    (W16_of_ne m ρ c main_arg15 (by decide)).trans <|
    (W15_keep m ρ c main_arg15 (by decide)).trans <|
    (W14_of_ne m ρ c main_arg15 (by decide)).trans <|
    (W13_of_ne m ρ c main_arg15 (by decide)).trans <|
    (W12_keep m ρ c main_arg15 (by decide)).trans <|
    (W11_of_ne m ρ c main_arg15 (by decide)).trans <|
    (W10_keep m ρ c main_arg15 (by decide)).trans <|
    (W9_of_ne m ρ c main_arg15 (by decide)).trans <|
    (W8_of_ne m ρ c main_arg15 (by decide)).trans <|
    (W7_keep m ρ c main_arg15 (by decide)).trans <|
    (W6_keep m ρ c main_arg15 (by decide)).trans <|
    (W5_keep m ρ c main_arg15 (by decide)).trans <|
    (W4_keep m ρ c main_arg15 (by decide)).trans <|
    (W3_keep m ρ c main_arg15 (by decide)).trans <|
    (W2_keep m ρ c main_arg15 (by decide)).trans <|
    (W1_keep m ρ c main_arg15 (by decide)).trans <| rfl

/-! ## The proof data family and the thread state -/

/-- Every pipeline's proof data, each at its region's entry contents: a literal `match`, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (Vent0 m ρ) c
  | ⟨1, _⟩ => fun c => dat1 (Vent1 m ρ) c
  | ⟨2, _⟩ => fun c => dat2 (Vent2 m ρ) c
  | ⟨3, _⟩ => fun c => dat3 (Vent3 m ρ) c
  | ⟨4, _⟩ => fun c => dat4 (Vent4 m ρ) c
  | ⟨5, _⟩ => fun c => dat5 (Vent5 m ρ) c
  | ⟨6, _⟩ => fun c => dat6 (Vent6 m ρ) c
  | ⟨7, _⟩ => fun c => dat7 (Vent7 m ρ) c
  | ⟨8, _⟩ => fun c => dat8 (Vent8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the boundary whose contents are `W`: every unscoped buffer there, `R` beside. -/
abbrev TS (W : Dev nD → Valuation τ sig (Elt F)) (c : Dev nD) : sProp 𝕄 :=
  iprop(StableHlo.held (c : Thread nD τ) (Pipeline.ucRefs τ sig) (W c) ∗ R c)
/-- The last thread state without the `owes`. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- REGION 0 over the thread state: entered from every unscoped buffer at `W7`, left at `W8`. Its arrays are split
    out of the unscoped buffers and put back at the exit contents; the generator register goes into the region's
    invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent0 m ρ) c).loose
  hwaits := Pipeline.hwaits_of_owed_zero _ _ _ _ L lv 0 fun c t => owed_eq0 (Vent0 m ρ) c t
  pre c := TS (W7 m ρ) c
  post c := TS (W8 m ρ) c
  X c := iprop(∃ r, prngReg c r)
  Y c := iprop(∃ r, prngReg c r)
  Z c := Pipeline.unscopedRest (Ix := Unit) (Name := ℕ) (U := UR sig nD τ) (Lvl := ℕ) spec0 c (Vent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (Vent0 m ρ) c w) (Vent0 m ρ c) fun w => A_eq0 (Vent0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (Vent0 m ρ) c 0]
      icases HO with ⟨%W, HO⟩; iexists W; isplitr
      · ipureintro; intro x _; exact Or.inl ((recorded_eq0 (Vent0 m ρ) c 0).symm ▸ Set.mem_univ x)
      iexact HO
    isplitl [Hp]; · iexact Hp
    iexact Hrest
  hin c := by
    refine .trans ?_ (hin0 (Vent0 m ρ) c); unfold Pipeline.ΦA
    iintro ⟨Hp, -, Hr⟩
    isplitl [Hr]; · iexact Hr
    iexact Hp
  hout c := by
    rw [Pipeline.ownSems0_none]
    refine (hout0 (Vent0 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (Vent0 m ρ) c w)
      (Vent0 m ρ c) (Vex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (Vent0 m ρ) c (Fin.last _)]
    icases HO with ⟨%W, -, HO⟩; iexists W; iexact HO

set_option backward.isDefEq.respectTransparency.types false in
/-- REGION 1 over the thread state: entered from every unscoped buffer at `W8`, left at `W9`. Its arrays are split
    out of the unscoped buffers and put back at the exit contents; the generator register goes into the region's
    invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m ρ) c).loose
  hwaits := Pipeline.hwaits_of_owed_zero _ _ _ _ L lv 1 fun c t => owed_eq1 (Vent1 m ρ) c t
  pre c := TS (W8 m ρ) c
  post c := TS (W9 m ρ) c
  X c := iprop(∃ r, prngReg c r)
  Y c := iprop(∃ r, prngReg c r)
  Z c := Pipeline.unscopedRest (Ix := Unit) (Name := ℕ) (U := UR sig nD τ) (Lvl := ℕ) spec1 c (Vent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (Vent1 m ρ) c w) (Vent1 m ρ c) fun w => A_eq1 (Vent1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (Vent1 m ρ) c 0]
      icases HO with ⟨%W, HO⟩; iexists W; isplitr
      · ipureintro; intro x _; exact Or.inl ((recorded_eq1 (Vent1 m ρ) c 0).symm ▸ Set.mem_univ x)
      iexact HO
    isplitl [Hp]; · iexact Hp
    iexact Hrest
  hin c := by
    refine .trans ?_ (hin1 (Vent1 m ρ) c); unfold Pipeline.ΦA
    iintro ⟨Hp, -, Hr⟩
    isplitl [Hr]; · iexact Hr
    iexact Hp
  hout c := by
    rw [Pipeline.ownSems0_none]
    refine (hout1 (Vent1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (Vent1 m ρ) c w)
      (Vent1 m ρ c) (Vex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (Vent1 m ρ) c (Fin.last _)]
    icases HO with ⟨%W, -, HO⟩; iexists W; iexact HO

set_option backward.isDefEq.respectTransparency.types false in
/-- REGION 2 over the thread state: entered from every unscoped buffer at `W10`, left at `W11`. Its arrays are split
    out of the unscoped buffers and put back at the exit contents; the generator register goes into the region's
    invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vent2 m ρ) c).loose
  hwaits := Pipeline.hwaits_of_owed_zero _ _ _ _ L lv 2 fun c t => owed_eq2 (Vent2 m ρ) c t
  pre c := TS (W10 m ρ) c
  post c := TS (W11 m ρ) c
  X c := iprop(∃ r, prngReg c r)
  Y c := iprop(∃ r, prngReg c r)
  Z c := Pipeline.unscopedRest (Ix := Unit) (Name := ℕ) (U := UR sig nD τ) (Lvl := ℕ) spec2 c (Vent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (Vent2 m ρ) c w) (Vent2 m ρ c) fun w => A_eq2 (Vent2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed_eq2 (Vent2 m ρ) c 0]
      icases HO with ⟨%W, HO⟩; iexists W; isplitr
      · ipureintro; intro x _; exact Or.inl ((recorded_eq2 (Vent2 m ρ) c 0).symm ▸ Set.mem_univ x)
      iexact HO
    isplitl [Hp]; · iexact Hp
    iexact Hrest
  hin c := by
    refine .trans ?_ (hin2 (Vent2 m ρ) c); unfold Pipeline.ΦA
    iintro ⟨Hp, -, Hr⟩
    isplitl [Hr]; · iexact Hr
    iexact Hp
  hout c := by
    rw [Pipeline.ownSems0_none]
    refine (hout2 (Vent2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (Vent2 m ρ) c w)
      (Vent2 m ρ c) (Vex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last _) = 0 from owed_eq2 (Vent2 m ρ) c (Fin.last _)]
    icases HO with ⟨%W, -, HO⟩; iexists W; iexact HO

set_option backward.isDefEq.respectTransparency.types false in
/-- REGION 3 over the thread state: entered from every unscoped buffer at `W12`, left at `W13`. Its arrays are split
    out of the unscoped buffers and put back at the exit contents; the generator register goes into the region's
    invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vent3 m ρ) c).loose
  hwaits := Pipeline.hwaits_of_owed_zero _ _ _ _ L lv 3 fun c t => owed_eq3 (Vent3 m ρ) c t
  pre c := TS (W12 m ρ) c
  post c := TS (W13 m ρ) c
  X c := iprop(∃ r, prngReg c r)
  Y c := iprop(∃ r, prngReg c r)
  Z c := Pipeline.unscopedRest (Ix := Unit) (Name := ℕ) (U := UR sig nD τ) (Lvl := ℕ) spec3 c (Vent3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => q_eq3 (Vent3 m ρ) c w) (Vent3 m ρ c) fun w => A_eq3 (Vent3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed_eq3 (Vent3 m ρ) c 0]
      icases HO with ⟨%W, HO⟩; iexists W; isplitr
      · ipureintro; intro x _; exact Or.inl ((recorded_eq3 (Vent3 m ρ) c 0).symm ▸ Set.mem_univ x)
      iexact HO
    isplitl [Hp]; · iexact Hp
    iexact Hrest
  hin c := by
    refine .trans ?_ (hin3 (Vent3 m ρ) c); unfold Pipeline.ΦA
    iintro ⟨Hp, -, Hr⟩
    isplitl [Hr]; · iexact Hr
    iexact Hp
  hout c := by
    rw [Pipeline.ownSems0_none]
    refine (hout3 (Vent3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (Vent3 m ρ) c w)
      (Vent3 m ρ c) (Vex3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last _) = 0 from owed_eq3 (Vent3 m ρ) c (Fin.last _)]
    icases HO with ⟨%W, -, HO⟩; iexists W; iexact HO

set_option backward.isDefEq.respectTransparency.types false in
/-- REGION 4 over the thread state: entered from every unscoped buffer at `W13`, left at `W14`. Its arrays are split
    out of the unscoped buffers and put back at the exit contents; the generator register goes into the region's
    invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vent4 m ρ) c).loose
  hwaits := Pipeline.hwaits_of_owed_zero _ _ _ _ L lv 4 fun c t => owed_eq4 (Vent4 m ρ) c t
  pre c := TS (W13 m ρ) c
  post c := TS (W14 m ρ) c
  X c := iprop(∃ r, prngReg c r)
  Y c := iprop(∃ r, prngReg c r)
  Z c := Pipeline.unscopedRest (Ix := Unit) (Name := ℕ) (U := UR sig nD τ) (Lvl := ℕ) spec4 c (Vent4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun w => q_eq4 (Vent4 m ρ) c w) (Vent4 m ρ c) fun w => A_eq4 (Vent4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 4 c).owed 0 = 0 from owed_eq4 (Vent4 m ρ) c 0]
      icases HO with ⟨%W, HO⟩; iexists W; isplitr
      · ipureintro; intro x _; exact Or.inl ((recorded_eq4 (Vent4 m ρ) c 0).symm ▸ Set.mem_univ x)
      iexact HO
    isplitl [Hp]; · iexact Hp
    iexact Hrest
  hin c := by
    refine .trans ?_ (hin4 (Vent4 m ρ) c); unfold Pipeline.ΦA
    iintro ⟨Hp, -, Hr⟩
    isplitl [Hr]; · iexact Hr
    iexact Hp
  hout c := by
    rw [Pipeline.ownSems0_none]
    refine (hout4 (Vent4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => q_eq4 (Vent4 m ρ) c w)
      (Vent4 m ρ c) (Vex4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 4 c).owed (Fin.last _) = 0 from owed_eq4 (Vent4 m ρ) c (Fin.last _)]
    icases HO with ⟨%W, -, HO⟩; iexists W; iexact HO

set_option backward.isDefEq.respectTransparency.types false in
/-- REGION 5 over the thread state: entered from every unscoped buffer at `W15`, left at `W16`. Its arrays are split
    out of the unscoped buffers and put back at the exit contents; the generator register goes into the region's
    invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vent5 m ρ) c).loose
  hwaits := Pipeline.hwaits_of_owed_zero _ _ _ _ L lv 5 fun c t => owed_eq5 (Vent5 m ρ) c t
  pre c := TS (W15 m ρ) c
  post c := TS (W16 m ρ) c
  X c := iprop(∃ r, prngReg c r)
  Y c := iprop(∃ r, prngReg c r)
  Z c := Pipeline.unscopedRest (Ix := Unit) (Name := ℕ) (U := UR sig nD τ) (Lvl := ℕ) spec5 c (Vent5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun w => q_eq5 (Vent5 m ρ) c w) (Vent5 m ρ c) fun w => A_eq5 (Vent5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 5 c).owed 0 = 0 from owed_eq5 (Vent5 m ρ) c 0]
      icases HO with ⟨%W, HO⟩; iexists W; isplitr
      · ipureintro; intro x _; exact Or.inl ((recorded_eq5 (Vent5 m ρ) c 0).symm ▸ Set.mem_univ x)
      iexact HO
    isplitl [Hp]; · iexact Hp
    iexact Hrest
  hin c := by
    refine .trans ?_ (hin5 (Vent5 m ρ) c); unfold Pipeline.ΦA
    iintro ⟨Hp, -, Hr⟩
    isplitl [Hr]; · iexact Hr
    iexact Hp
  hout c := by
    rw [Pipeline.ownSems0_none]
    refine (hout5 (Vent5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => q_eq5 (Vent5 m ρ) c w)
      (Vent5 m ρ c) (Vex5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 5 c).owed (Fin.last _) = 0 from owed_eq5 (Vent5 m ρ) c (Fin.last _)]
    icases HO with ⟨%W, -, HO⟩; iexists W; iexact HO

set_option backward.isDefEq.respectTransparency.types false in
/-- REGION 6 over the thread state: entered from every unscoped buffer at `W17`, left at `W18`. Its arrays are split
    out of the unscoped buffers and put back at the exit contents; the generator register goes into the region's
    invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vent6 m ρ) c).loose
  hwaits := Pipeline.hwaits_of_owed_zero _ _ _ _ L lv 6 fun c t => owed_eq6 (Vent6 m ρ) c t
  pre c := TS (W17 m ρ) c
  post c := TS (W18 m ρ) c
  X c := iprop(∃ r, prngReg c r)
  Y c := iprop(∃ r, prngReg c r)
  Z c := Pipeline.unscopedRest (Ix := Unit) (Name := ℕ) (U := UR sig nD τ) (Lvl := ℕ) spec6 c (Vent6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun w => q_eq6 (Vent6 m ρ) c w) (Vent6 m ρ c) fun w => A_eq6 (Vent6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 6 c).owed 0 = 0 from owed_eq6 (Vent6 m ρ) c 0]
      icases HO with ⟨%W, HO⟩; iexists W; isplitr
      · ipureintro; intro x _; exact Or.inl ((recorded_eq6 (Vent6 m ρ) c 0).symm ▸ Set.mem_univ x)
      iexact HO
    isplitl [Hp]; · iexact Hp
    iexact Hrest
  hin c := by
    refine .trans ?_ (hin6 (Vent6 m ρ) c); unfold Pipeline.ΦA
    iintro ⟨Hp, -, Hr⟩
    isplitl [Hr]; · iexact Hr
    iexact Hp
  hout c := by
    rw [Pipeline.ownSems0_none]
    refine (hout6 (Vent6 m ρ) c).trans ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => q_eq6 (Vent6 m ρ) c w)
      (Vent6 m ρ c) (Vex6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 6 c).owed (Fin.last _) = 0 from owed_eq6 (Vent6 m ρ) c (Fin.last _)]
    icases HO with ⟨%W, -, HO⟩; iexists W; iexact HO

set_option backward.isDefEq.respectTransparency.types false in
/-- REGION 7 over the thread state: entered from every unscoped buffer at `W18`, left at `W19`. Its arrays are split
    out of the unscoped buffers and put back at the exit contents; the generator register goes into the region's
    invariant and comes out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vent7 m ρ) c).loose
  hwaits := Pipeline.hwaits_of_owed_zero _ _ _ _ L lv 7 fun c t => owed_eq7 (Vent7 m ρ) c t
  pre c := TS (W18 m ρ) c
  post c := TS (W19 m ρ) c
  X c := iprop(∃ r, prngReg c r)
  Y c := iprop(∃ r, prngReg c r)
  Z c := Pipeline.unscopedRest (Ix := Unit) (Name := ℕ) (U := UR sig nD τ) (Lvl := ℕ) spec7 c (Vent7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun w => q_eq7 (Vent7 m ρ) c w) (Vent7 m ρ c) fun w => A_eq7 (Vent7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 7 c).owed 0 = 0 from owed_eq7 (Vent7 m ρ) c 0]
      icases HO with ⟨%W, HO⟩; iexists W; isplitr
      · ipureintro; intro x _; exact Or.inl ((recorded_eq7 (Vent7 m ρ) c 0).symm ▸ Set.mem_univ x)
      iexact HO
    isplitl [Hp]; · iexact Hp
    iexact Hrest
  hin c := by
    refine .trans ?_ (hin7 (Vent7 m ρ) c); unfold Pipeline.ΦA
    iintro ⟨Hp, -, Hr⟩
    isplitl [Hr]; · iexact Hr
    iexact Hp
  hout c := by
    rw [Pipeline.ownSems0_none]
    refine (hout7 (Vent7 m ρ) c).trans ?_; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun w => q_eq7 (Vent7 m ρ) c w)
      (Vent7 m ρ c) (Vex7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 7 c).owed (Fin.last _) = 0 from owed_eq7 (Vent7 m ρ) c (Fin.last _)]
    icases HO with ⟨%W, -, HO⟩; iexists W; iexact HO

set_option backward.isDefEq.respectTransparency.types false in
/-- REGION 8 over the thread state: entered from every unscoped buffer at `W20`, left at `W21`. Its arrays are split
    out of the unscoped buffers and put back at the exit contents; the generator register goes into the region's
    invariant and comes out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vent8 m ρ) c).loose
  hwaits := Pipeline.hwaits_of_owed_zero _ _ _ _ L lv 8 fun c t => owed_eq8 (Vent8 m ρ) c t
  pre c := TS (W20 m ρ) c
  post c := TS (W21 m ρ) c
  X c := iprop(∃ r, prngReg c r)
  Y c := iprop(∃ r, prngReg c r)
  Z c := Pipeline.unscopedRest (Ix := Unit) (Name := ℕ) (U := UR sig nD τ) (Lvl := ℕ) spec8 c (Vent8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun w => q_eq8 (Vent8 m ρ) c w) (Vent8 m ρ c) fun w => A_eq8 (Vent8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 8 c).owed 0 = 0 from owed_eq8 (Vent8 m ρ) c 0]
      icases HO with ⟨%W, HO⟩; iexists W; isplitr
      · ipureintro; intro x _; exact Or.inl ((recorded_eq8 (Vent8 m ρ) c 0).symm ▸ Set.mem_univ x)
      iexact HO
    isplitl [Hp]; · iexact Hp
    iexact Hrest
  hin c := by
    refine .trans ?_ (hin8 (Vent8 m ρ) c); unfold Pipeline.ΦA
    iintro ⟨Hp, -, Hr⟩
    isplitl [Hr]; · iexact Hr
    iexact Hp
  hout c := by
    rw [Pipeline.ownSems0_none]
    refine (hout8 (Vent8 m ρ) c).trans ?_; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun w => q_eq8 (Vent8 m ρ) c w)
      (Vent8 m ρ c) (Vex8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 8 c).owed (Fin.last _) = 0 from owed_eq8 (Vent8 m ρ) c (Fin.last _)]
    icases HO with ⟨%W, -, HO⟩; iexists W; iexact HO

/-! ## @main as segments, and the launch -/

/-- @main's 22 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ),
    .host (hseg hostOps2 hostOps2_sub hostOps2_fresh (W9 m ρ)),
    .region (reg2 m ρ),
    .host (hseg hostOps3 hostOps3_sub hostOps3_fresh (W11 m ρ)),
    .region (reg3 m ρ),
    .region (reg4 m ρ),
    .host (hseg hostOps5 hostOps5_sub hostOps5_fresh (W14 m ρ)),
    .region (reg5 m ρ),
    .host (hseg hostOps6 hostOps6_sub hostOps6_fresh (W16 m ρ)),
    .region (reg6 m ρ),
    .region (reg7 m ρ),
    .host (hseg hostOps8 hostOps8_sub hostOps8_fresh (W19 m ρ)),
    .region (reg8 m ρ),
    .host (hseg hostOps9 hostOps9_sub hostOps9_fresh (W21 m ρ)) ]

/-- The segments' programs are @main's items, in order. -/
theorem segs_prog : (segs m ρ).map Pipeline.Seg.prog = ([
    StableHlo.seq hostOps0,
    StableHlo.seq hostOps0_1,
    StableHlo.seq hostOps0_2,
    StableHlo.seq hostOps0_3,
    StableHlo.seq hostOps0_4,
    StableHlo.seq hostOps0_5,
    StableHlo.seq hostOps0_6,
    Prog.lift (.customCall (Pipeline.entry 0) ()),
    Prog.lift (.customCall (Pipeline.entry 1) ()),
    StableHlo.seq hostOps2,
    Prog.lift (.customCall (Pipeline.entry 2) ()),
    StableHlo.seq hostOps3,
    Prog.lift (.customCall (Pipeline.entry 3) ()),
    Prog.lift (.customCall (Pipeline.entry 4) ()),
    StableHlo.seq hostOps5,
    Prog.lift (.customCall (Pipeline.entry 5) ()),
    StableHlo.seq hostOps6,
    Prog.lift (.customCall (Pipeline.entry 6) ()),
    Prog.lift (.customCall (Pipeline.entry 7) ()),
    StableHlo.seq hostOps8,
    Prog.lift (.customCall (Pipeline.entry 8) ()),
    StableHlo.seq hostOps9 ] : List (Prog (TpuEff nD τ sig (Elt F) (Pipeline.Sig Λ₀ (Fin 9) fun p => (pcfgs (F := F) p).Adm) .tc) PUnit)) := rfl

/-- @main IS the run of the segments: it is the chain of its items, and the segments' run is the chain of their programs. -/
theorem main_run (c : Dev nD) : main (F := F) c = Pipeline.Seg.run (segs m ρ) := by
  rw [main_chain c, Pipeline.Seg.run_eq_chain, segs_prog]

set_option backward.isDefEq.respectTransparency.types false in
/-- THE RUN OF @main: at the compiled mesh, from any memory with zero counters, every weakly fair execution of @main on
    the TensorCores terminates, nothing faulting, and every final state holds the result `main_v45` at the last
    boundary's contents and every argument array as launched. -/
theorem run_main : θ_run defs (onTc (τ := τ) (main (F := F))) ⟨m, fun _ => 0, ρ⟩ (fun r => ∀ c : Dev nD,
      r.2.mem ((c.tc : Thread nD τ).loc main_v45) = W22 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := TS (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show TS (W22 m ρ) c ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v45 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c)⟩)

end Cert.Kernel.H

end
-- ==== Proof.KI.R0.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 0: the dense map of layer 1, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The same for window 1 (the weights): its index is constant, so it is fetched at the first point only. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- The same for window 2 (the bias row), also of constant index. -/
theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's one store -/

/-- The result's whole staging buffer as one rectangle. -/
abbrev r0_0 : Rect S2048x64 := Rect.unit (s := S2048x64) ![0, 0] S2048x64.size inb_S2048x64_S2048x64_0_0

/-- What the body leaves in the output window's buffer, as a function of the three input blocks: one write of
    the whole buffer, whose value is the dense map's payload on the blocks read through whole-buffer loads. -/
def out0_3 (x0 : Vec F S2048x64 .f32) (x1 : Vec F S64x64 .f32) (x2 : Vec F S1x64 .f32) : Vec F S2048x64 .f32 :=
  View.canon [⟨r0_0, k0_pay1
    (View.ld x0 (Rect.unit (s := S2048x64) ![0, 0] S2048x64.size inb_S2048x64_S2048x64_0_0))
    (View.ld x1 (Rect.unit (s := S64x64) ![0, 0] S64x64.size inb_S64x64_S64x64_0_0))
    (View.ld x2 (Rect.unit (s := S1x64) ![0, 0] S1x64.size inb_S1x64_S1x64_0_0))⟩]

/-- That one write covers the buffer. -/
theorem cover0_3 (p0 : Vec F S2048x64 .f32) (y : S2048x64.Idx) :
    ∃ pc ∈ ([⟨r0_0, p0⟩] : List (View.Piece (Elt F) S2048x64 .f32)), y ∈ pc.1.set :=
  View.cover_of_tiled [⟨r0_0, p0⟩] S2048x64.size (by rfl) y

/-! ## The body's triple -/

set_option maxHeartbeats 1000000 in
/-- The body on whole staging memrefs — the three inputs' read as `x0 x1 x2`, the output's holding anything —
    runs to a state where the inputs' are unchanged and the output's reads `out0_3 x0 x1 x2`. -/
theorem sound_kernel0 (c : Dev nD) (E : Set ℕ) (i : grid0.Coords)
    (arg1 : Memref sig .tc .vmem S2048x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of region 0 on core `c`: the arrays as the region finds them; after the body at point `t`
    each input buffer at its block and the output buffer at `out0_3` of the three blocks; the invariant of a
    body that keeps nothing; nothing owed; every array held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input window's buffer: the window's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- The staging memref each window is on at point `t`. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The body as the pipeline calls it at point `t`: on the point's coordinates and the current staging memrefs. -/
abbrev bodyAt0 (t : Fin cfg0.N) : Prog (TpuEff nD τ sig (Elt F) Λ₀ .tc) PUnit :=
  cc0__linear_kernel (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))

/-- What the body is entered with at point `t`, the windows listed one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input memrefs hold their blocks, so the body's triple applies; the
    invariant and what the core owes are not touched. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) :
    BodyObligation (dat0 (F := F) V c) (defs₀ (F := F)) Variants.none () Set.univ := fun t => by
  rw [bigSep_W0, bigSep_W0]
  exact sound_body0 V c t

/-! ## Entering and leaving the region -/

theorem hin0 (c : Dev nD) : Pipeline.ΦA spec0 c ⊢ (dat0 V c).Φ 0 := Entails.refl _

theorem hout0 (c : Dev nD) : (dat0 V c).Φ (Fin.last cfg0.N) ⊢ Pipeline.ΦA spec0 c := Entails.refl _

end Cert.KernelIdeal.H

end
-- ==== Proof.KI.R1Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather kernel of layer 1, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride1_0 : grid1.stride 0 = 40 := by decide
theorem stride1_1 : grid1.stride 1 = 1 := by decide

/-- Coordinate 1 of point `t`: the remainder modulo 40. -/
theorem coords1_1 (t : Fin cfg1.N) : (grid1.coords t 1).val = t.val % 40 := by
  show t.val / grid1.stride 1 % 40 = t.val % 40
  rw [stride1_1, Nat.div_one]

/-- Coordinate 0 of point `t`: the quotient by 40 (below 1250). -/
theorem coords1_0 (t : Fin cfg1.N) : (grid1.coords t 0).val = t.val / 40 % 1250 := by
  show t.val / grid1.stride 0 % 1250 = _
  rw [stride1_0]

theorem N1_lt (t : Fin cfg1.N) : t.val < 50000 := lt_of_lt_of_eq t.isLt (show cfg1.N = 50000 from N_1)

/-- Two points with the same quotient by 40 have the same coordinate 0. -/
theorem coords1_0_congr (t t' : Fin cfg1.N) (h : t.val / 40 = t'.val / 40) : grid1.coords t 0 = grid1.coords t' 0 :=
  Fin.ext (by rw [coords1_0, coords1_0, h])

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved since the point before. For any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the accumulator), from the grid coordinates. -/
abbrev cond1_0 (i : grid1.Coords) : Prop := (Scalar.cmpi .ne (Scalar.extui (Scalar.cmpi .eq (BitVec.ofNat 32 (i 1).val) 0#32)) 0#32) = 1#1

/-- Over the 40 values of coordinate 1 it holds at 0 only. -/
theorem cond1_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond1_0 (t : Fin cfg1.N) : cond1_0 (grid1.coords t) ↔ t.val % 40 = 0 := by
  rw [← coords1_1 t]; exact cond1_0_fin (grid1.coords t 1)

/-- The condition of the body's second conditional (the read-out into the output). -/
abbrev cond1_1 (i : grid1.Coords) : Prop := k1_cond2 i = 1#1

/-- Over the 40 values of coordinate 1 it holds at 39 only. -/
theorem cond1_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond1_1 (t : Fin cfg1.N) : cond1_1 (grid1.coords t) ↔ t.val % 40 = 39 := by
  rw [← coords1_1 t]; exact cond1_1_fin (grid1.coords t 1)

/-! ## Where the windows are idle, and where the output is written back -/

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

/-- The output is idle exactly where the second condition fails. -/
theorem idle1_3_of_not (i : grid1.Coords) (h1 : ¬cond1_1 i) : cfg1.idle 3 i = true := by
  show (!(k1_cond2 i == 1#1)) = true
  rw [Bool.not_eq_true', beq_eq_false_iff_ne]; exact h1

theorem idleAt1_3_A (t : Fin cfg1.N) (h0 : cond1_0 (grid1.coords t)) (h1 : ¬cond1_1 (grid1.coords t)) : cfg1.idle 3 (grid1.coords t) = true :=
  idle1_3_of_not _ h1
theorem idleAt1_3_B (t : Fin cfg1.N) (h0 : ¬cond1_0 (grid1.coords t)) (h1 : ¬cond1_1 (grid1.coords t)) : cfg1.idle 3 (grid1.coords t) = true :=
  idle1_3_of_not _ h1
theorem liveAt1_3_C (t : Fin cfg1.N) (h0 : ¬cond1_0 (grid1.coords t)) (h1 : cond1_1 (grid1.coords t)) : cfg1.idle 3 (grid1.coords t) = false := by
  show (!(k1_cond2 (grid1.coords t) == 1#1)) = false
  rw [h1]; rfl

/-- The output's block index at a point: the quotient by 40 on the rows, 0 on the columns. -/
theorem index1_3 (t : Fin cfg1.N) : (cfg1.win 3).index t = cc1_transform_3 (grid1.coords t) := rfl

/-- Away from the points ≡ 39 (mod 40) the pipeline does not write the output's block back: the next point is not
    past the grid's end (50000 is a multiple of 40) and has the same quotient by 40, so the same block index. -/
theorem noFlush1_3 (t : Fin cfg1.N) (h : t.val % 40 ≠ 39) : (cfg1.win 3).flush t = false := by
  have hN := N1_lt t
  unfold Pipeline.Window.flush
  rw [Bool.and_eq_false_iff]; right
  rw [Bool.or_eq_false_iff]
  refine ⟨decide_eq_false (fun he => by have h2 : t.val + 1 = 50000 := he.trans N_1; omega), decide_eq_false ?_⟩
  rintro ⟨h', hne⟩
  apply hne
  rw [index1_3, index1_3]
  unfold cc1_transform_3
  rw [coords1_0_congr ⟨t.val + 1, h'⟩ t (by show (t.val + 1) / 40 = t.val / 40; omega)]

theorem noFlush1_3_A (t : Fin cfg1.N) (h0 : cond1_0 (grid1.coords t)) (h1 : ¬cond1_1 (grid1.coords t)) : (cfg1.win 3).flush t = false :=
  noFlush1_3 t (fun h => h1 ((hcond1_1 t).mpr h))
theorem noFlush1_3_B (t : Fin cfg1.N) (h0 : ¬cond1_0 (grid1.coords t)) (h1 : ¬cond1_1 (grid1.coords t)) : (cfg1.win 3).flush t = false :=
  noFlush1_3 t (fun h => h1 ((hcond1_1 t).mpr h))

/-! ## The staging memrefs and the body as the pipeline calls it -/

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The kernel body at point `t`, on what the pipeline calls it with. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-- One staging buffer of output window 3, through which its contents are stated (the choice does not matter). -/
abbrev VO1_3 : View sig .tc .vmem S1280x64 .bf16 := (Memref.whole cc1_stg3_0 : Memref sig .tc .vmem S1280x64 .bf16).view
/-- Each window's current staging memref at point `t`, spelled as the pipeline passes it, and its wholeness. -/
abbrev ms1_0 (t : Fin cfg1.N) : Memref sig .tc .vmem S1280x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2560x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x64 .bf16 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1280x64 .f32 := Memref.whole cc1_scratch0
/-- The scratch accumulator the kernel carries between points, as a view: what it holds is stated through it. -/
abbrev VS1_0 : View sig .tc .vmem S1280x64 .f32 := scM1_0.view

/-- The region invariant of the class with the scratch operand as a memref owned at some contents, the other
    scoped buffers of the program unopened beside it, and the generator register at some state: what the body
    obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.H

end
-- ==== Proof.KI.R1RunA.lean ====
import proofs.«421344_j1254130450614_1_alg».proof.Proof.KI.R1Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun1_A (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R1RunB.lean ====
import proofs.«421344_j1254130450614_1_alg».proof.Proof.KI.R1Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun1_B (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R1RunC.lean ====
import proofs.«421344_j1254130450614_1_alg».proof.Proof.KI.R1Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun1_C (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.R1.lean ====
import proofs.«421344_j1254130450614_1_alg».proof.Proof.KI.R1RunA
import proofs.«421344_j1254130450614_1_alg».proof.Proof.KI.R1RunB
import proofs.«421344_j1254130450614_1_alg».proof.Proof.KI.R1RunC
import Idealize.ShloMosaic.Lib.Ring

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the gather kernel of layer 1): what the output and the scratch accumulator hold per case and point by
point, the proof data, the body obligation at a generic point, and the invariant's two ends. -/

/-! ## What each case leaves -/

/-- Case A stores nothing into the output (idle at its points and not written back there): no pieces, a placeholder
    nothing consults. -/
def out1_A_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) : Vec F S1280x64 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch accumulator (the reset, then the accumulation: two whole-block stores) cover it. -/
theorem scover1_A_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) (y : S1280x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1280x64.size (by sl_kernel_rfl) y

/-- What case A leaves in the scratch accumulator: its pieces read back. -/
def sout1_A_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i)
    (x0 : Vec F S1280x1 .i32) (x1 : Vec F S1280x1 .f32) (x2 : Vec F S2560x64 .f32) : Vec F S1280x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output either. -/
def out1_B_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) : Vec F S1280x64 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's piece for the scratch accumulator (one whole-block store) covers it. -/
theorem scover1_B_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) (y : S1280x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1280x64.size (by sl_kernel_rfl) y

/-- What case B leaves in the scratch accumulator. -/
def sout1_B_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i)
    (x0 : Vec F S1280x1 .i32) (x1 : Vec F S1280x1 .f32) (x2 : Vec F S2560x64 .f32) (xs0 : Vec F S1280x64 .f32) : Vec F S1280x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's piece for the output (one whole-block store) covers its block. -/
theorem cover1_C_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) (y : S1280x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1280x64.size (by sl_kernel_rfl) y

/-- What case C leaves in the output's staging buffer: its piece read back. -/
def out1_C_3 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) : Vec F S1280x64 .bf16 :=
  VO1_3.read (Elt F) (VO1_3.writes (Elt F) VO1_3.junk (kernelRun1_C c i arg2 harg2 arg3 harg3 arg4 harg4 arg5 harg5 arg6 harg6 hc0 hc1 x0 x1 x2 xs0).1)

/-- Case C's piece for the scratch accumulator covers it. -/
theorem scover1_C_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) (y : S1280x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1280x64.size (by sl_kernel_rfl) y

/-- What case C leaves in the scratch accumulator. -/
def sout1_C_0 (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i)
    (x0 : Vec F S1280x1 .i32) (x1 : Vec F S1280x1 .f32) (x2 : Vec F S2560x64 .f32) (xs0 : Vec F S1280x64 .f32) : Vec F S1280x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt1 (c : Dev nD) : (n : ℕ) → n < cfg1.N → Vec F S1280x64 .bf16 × Vec F S1280x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 40 = 0 then
      if h1 : (n + 1) % 40 = 39 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 40 = 39 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 40 = 0) (h1 : ¬t.val % 40 = 39) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 40 = 0) (h1 : ¬t.val % 40 = 39) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 40 = 0) (h1 : t.val % 40 = 39) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point the class's; afterwards the scratch accumulator at
    what the point before left in it, the other scoped buffers unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input's post at any point: the window is never idle, so its buffer at what the body leaves, its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50000 := N1_lt t
  by_cases h0 : t.val % 40 = 0
  · by_cases h1 : t.val % 40 = 39
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 50000 := N_1; omega)

end Cert.KernelIdeal.H

end
-- ==== Proof.KI.R2Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 2 (the scatter and row-normalisation kernel of layer 1): what its three runs share

The grid is 40 x 1250, the last axis fastest: point `t` has coordinates `(t / 1250 % 40, t % 1250)`. The body
branches on the second coordinate only: at 0 it resets the accumulator, at 1249 it normalises the accumulator into
the output block. Every fact over the 50000 points below is obtained from these two closed forms by arithmetic. -/

/-! ## The staging memrefs at a point and the body as the pipeline calls it -/

/-- The current staging memref of each window at point `t`. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev st2_4 (t : Fin cfg2.N) := (cfg2.win 4).stage (cfg2.slots t 4)

/-- The kernel body at point `t`, on the memrefs the pipeline passes it: the five windows' current staging
    memrefs, then the accumulator. -/
abbrev bodyAt2 (t : Fin cfg2.N) : Prog (TpuEff nD τ sig (Elt F) Λ₀ .tc) PUnit :=
  cc2__kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (Memref.whole cc2_scratch0) (Memref.isWhole_whole _)

/-- The congruence lemmas of the kernel function and of its skeleton, stated here once: each case's run rewrites
    the function to its skeleton under them, and all three runs share this one pair. -/
theorem congr_simp_realized2 : True := by
  have := @cc2__kernel.congr_simp; have := @cc2__kernel_skel.congr_simp
  trivial

/-! ## The grid's coordinates in closed form -/

/-- The second coordinate of point `t` is `t mod 1250`. -/
theorem coords2_1 (t : Fin cfg2.N) : (grid2.coords t 1).val = t.val % 1250 := by
  show t.val / grid2.stride 1 % 1250 = t.val % 1250
  have : grid2.stride 1 = 1 := by decide
  rw [this, Nat.div_one]

/-- The first coordinate of point `t` is `t / 1250` (below 40 for every point of the grid). -/
theorem coords2_0 (t : Fin cfg2.N) : (grid2.coords t 0).val = t.val / 1250 % 40 := by
  show t.val / grid2.stride 0 % 40 = _
  have : grid2.stride 0 = 1250 := by decide
  rw [this]

/-- The grid has 50000 points. -/
theorem lt_N2 (t : Fin cfg2.N) : t.val < 50000 := lt_of_lt_of_eq t.isLt N_2

/-! ## The body's branch conditions -/

/-- The condition of the body's first conditional: the second coordinate is 0. -/
abbrev cond2_0 (i : grid2.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond2_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond2_0 : ∀ t : Fin cfg2.N, cond2_0 (grid2.coords t) ↔ t.val % 1250 = 0 := fun t => by
  rw [← coords2_1 t]; exact cond2_0_fin (grid2.coords t 1)

/-- The condition of the body's second conditional: the second coordinate is 1249. -/
abbrev cond2_1 (i : grid2.Coords) : Prop := k2_cond2 i = 1#1

/-- On a second coordinate `j < 1250` the 32-bit comparison with 1249 is the comparison of naturals. -/
theorem cond2_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond2_1 : ∀ t : Fin cfg2.N, cond2_1 (grid2.coords t) ↔ t.val % 1250 = 1249 := fun t => by
  rw [← coords2_1 t]; exact cond2_1_fin (grid2.coords t 1)

/-! ## Where the windows are idle, and where the output is written back -/

/-- The four inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-- The output is idle exactly where the second conditional is not taken. -/
theorem idle2_4_eq (i : grid2.Coords) : cfg2.idle 4 i = !(k2_cond2 i == 1#1) := rfl

theorem idle2_4_of_not (i : grid2.Coords) (h : ¬cond2_1 i) : cfg2.idle 4 i = true := by
  rw [idle2_4_eq]; simp only [Bool.not_eq_true', beq_eq_false_iff_ne, ne_eq]; exact h

theorem live2_4_of (i : grid2.Coords) (h : cond2_1 i) : cfg2.idle 4 i = false := by
  rw [idle2_4_eq]; simp only [Bool.not_eq_false', beq_iff_eq]; exact h

/-- At the points of case A the output is idle: the case stores nothing into it. -/
theorem idleAt2_4_A : ∀ t : Fin cfg2.N, cond2_0 (grid2.coords t) → ¬cond2_1 (grid2.coords t) → cfg2.idle 4 (grid2.coords t) = true :=
  fun t _ h => idle2_4_of_not _ h
/-- At the points of case B the output is idle: the case stores nothing into it. -/
theorem idleAt2_4_B : ∀ t : Fin cfg2.N, ¬cond2_0 (grid2.coords t) → ¬cond2_1 (grid2.coords t) → cfg2.idle 4 (grid2.coords t) = true :=
  fun t _ h => idle2_4_of_not _ h
/-- At the points of case C the output is live: the case stores into it. -/
theorem liveAt2_4_C : ∀ t : Fin cfg2.N, ¬cond2_0 (grid2.coords t) → cond2_1 (grid2.coords t) → cfg2.idle 4 (grid2.coords t) = false :=
  fun t _ h => live2_4_of _ h

/-- The output's block index at point `t`. -/
theorem index2_4 (t : Fin cfg2.N) : (cfg2.win 4).index t = cc2_transform_4 (grid2.coords t) := rfl

/-- Away from the points ≡ 1249 (mod 1250) the output's block is not written back: the point is not the last
    (49999 ≡ 1249), and the next point has the same first coordinate, which is all the block index reads. -/
theorem noFlush2_4_of (t : Fin cfg2.N) (h : ¬t.val % 1250 = 1249) : (cfg2.win 4).flush t = false := by
  have hN := lt_N2 t
  unfold Pipeline.Window.flush
  rw [Bool.and_eq_false_iff]; right
  rw [Bool.or_eq_false_iff]; constructor
  · exact decide_eq_false (fun e => by have e' : t.val + 1 = 50000 := e.trans N_2; omega)
  · apply decide_eq_false
    rintro ⟨h', hne⟩; apply hne
    show cc2_transform_4 (grid2.coords ⟨t.val + 1, h'⟩) = cc2_transform_4 (grid2.coords t)
    apply hreads2_4
    intro a ha
    have ha0 : a = 0 := by
      fin_cases a
      · rfl
      · exact absurd ha (by decide)
    subst ha0
    apply Fin.ext
    rw [coords2_0 ⟨t.val + 1, h'⟩, coords2_0 t]; dsimp only; omega

/-- At the points of case A the pipeline does not write the output's block back. -/
theorem noFlush2_4_A : ∀ t : Fin cfg2.N, cond2_0 (grid2.coords t) → ¬cond2_1 (grid2.coords t) → (cfg2.win 4).flush t = false :=
  fun t _ h => noFlush2_4_of t (fun e => h ((hcond2_1 t).mpr e))
/-- At the points of case B the pipeline does not write the output's block back. -/
theorem noFlush2_4_B : ∀ t : Fin cfg2.N, ¬cond2_0 (grid2.coords t) → ¬cond2_1 (grid2.coords t) → (cfg2.win 4).flush t = false :=
  fun t _ h => noFlush2_4_of t (fun e => h ((hcond2_1 t).mpr e))

/-! ## The memrefs the runs are stated over -/

/-- One staging buffer of the output window, through which its contents are stated. -/
abbrev VO2_4 : View sig .tc .vmem S2560x64 .f32 := (Memref.whole cc2_stg4_0 : Memref sig .tc .vmem S2560x64 .f32).view
/-- Each window's current staging memref at point `t`, spelled as the pipeline passes it, and its wholeness. -/
abbrev ms2_0 (t : Fin cfg2.N) : Memref sig .tc .vmem S1x1280 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2560x64 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S2560x64 .f32 := Memref.whole cc2_scratch0
/-- The accumulator as a view: what it holds between points is stated through it. -/
abbrev VS2_0 : View sig .tc .vmem S2560x64 .f32 := scM2_0.view

/-- The region's entry invariant with the accumulator as a memref owned at some contents; every other scoped
    buffer of the core that is no staging buffer of this region stays unopened beside it. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is the entry contents and whose body leaves the block in place: where the window is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.H

end
-- ==== Proof.KI.R2RunA.lean ====
import proofs.«421344_j1254130450614_1_alg».proof.Proof.KI.R2Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the four inputs at their contents, the output at
    contents `xi4` handed back untouched, the accumulator at anything, the body runs to the continuation holding
    the inputs and the output as they were and the accumulator with its pieces written. -/
noncomputable def kernelRun2_A (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) :
    Σ' (L4 : List (View.Piece (Elt F) S2560x64 .f32)), { LS0 : List (View.Piece (Elt F) S2560x64 .f32) //
      ∀ (xi4 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨[], ?_, fun xi4 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.H

end
-- ==== Proof.KI.R2RunB.lean ====
import proofs.«421344_j1254130450614_1_alg».proof.Proof.KI.R2Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the four inputs at their contents, the output at contents `xi4`
    handed back untouched, the accumulator at the contents `xs0` the point before left, the body runs to the
    continuation holding the inputs and the output as they were and the accumulator with its pieces written. -/
noncomputable def kernelRun2_B (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) :
    Σ' (L4 : List (View.Piece (Elt F) S2560x64 .f32)), { LS0 : List (View.Piece (Elt F) S2560x64 .f32) //
      ∀ (xi4 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨[], ?_, fun xi4 E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.H

end
-- ==== Proof.KI.R2RunC.lean ====
import proofs.«421344_j1254130450614_1_alg».proof.Proof.KI.R2Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows) and in the accumulator (the accumulation over
    what the point before left), WITH the run: on whole memrefs, the four inputs at their contents, the output at
    anything, the accumulator at the contents `xs0` the point before left, the body runs to the continuation
    holding the inputs as they were and the output and the accumulator each with its pieces written. -/
noncomputable def kernelRun2_C (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) :
    Σ' (L4 : List (View.Piece (Elt F) S2560x64 .f32)), { LS0 : List (View.Piece (Elt F) S2560x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__kernel i arg2 harg2 arg3 harg3 arg4 harg4 arg5 harg5 arg6 harg6 arg7 harg7) K } := by
  refine ⟨?_, ?_, fun E K => ?run⟩
  case run =>
    simp only [cc2__kernel_eq_skeleton]; unfold cc2__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.H

end
-- ==== Proof.KI.R2.lean ====
import proofs.«421344_j1254130450614_1_alg».proof.Proof.KI.R2RunA
import proofs.«421344_j1254130450614_1_alg».proof.Proof.KI.R2RunB
import proofs.«421344_j1254130450614_1_alg».proof.Proof.KI.R2RunC
import Idealize.ShloMosaic.Lib.Ring

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 2: what the output and the accumulator hold point by point, the proof data, the body obligation -/

/-! ## What each case leaves -/

/-- Case A stores nothing into the output (the window is idle at its points and not written back there): no
    pieces; the contents named here are consulted by nothing. -/
def out2_A_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) : Vec F S2560x64 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

/-- Case A's pieces for the accumulator cover it: each store writes the whole of it. -/
theorem scover2_A_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) (y : S2560x64.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S2560x64.size (by sl_kernel_rfl) y

/-- What case A leaves in the accumulator: its pieces read back. -/
def sout2_A_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) : Vec F S2560x64 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

/-- Case B stores nothing into the output either. -/
def out2_B_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

/-- Case B's piece for the accumulator covers it. -/
theorem scover2_B_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S2560x64.size (by sl_kernel_rfl) y

/-- What case B leaves in the accumulator. -/
def sout2_B_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

/-- Case C's piece for the output covers its block: one store of the whole block. -/
theorem cover2_C_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2560x64.size (by sl_kernel_rfl) y

/-- What case C leaves in the output's staging buffer: the normalised rows. -/
def out2_C_4 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- Case C's piece for the accumulator covers it. -/
theorem scover2_C_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) (y : S2560x64.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2560x64.size (by sl_kernel_rfl) y

/-- What case C leaves in the accumulator. -/
def sout2_C_0 (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) : Vec F S2560x64 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt2 (c : Dev nD) : (n : ℕ) → n < cfg2.N → Vec F S2560x64 .f32 × Vec F S2560x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 1250 = 0 then
      if h1 : (n + 1) % 1250 = 1249 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 1250 = 1249 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- `outsAt2` at a point of case A: that case's contents. -/
theorem outsAt2_A (c : Dev nD) (t : Fin cfg2.N) (h0 : t.val % 1250 = 0) (h1 : ¬t.val % 1250 = 1249) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 1250 = 0) (h1 : ¬t.val % 1250 = 1249) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 1250 = 0) (h1 : t.val % 1250 = 1249) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of region 2 on core `c`: the arrays as the region finds them; after the body at point `t`
    each input's buffer at its block and the output's at `outsAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := by
  dsimp only [dat2]

theorem owed_eq2 (c : Dev nD) (t : Fin (cfg2.N + 1)) : (dat2 V c).owed t = 0 := by
  dsimp only [dat2]

theorem recorded_eq2 (c : Dev nD) (t : Fin (cfg2.N + 1)) : (dat2 V c).recorded t = Set.univ := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50000 := lt_N2 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 1250 = 0
  · by_cases h1 : t.val % 1250 = 1249
    · exfalso; omega
    · rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 1250 = 1249
    · rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 50000 := N_2; omega)

end Cert.KernelIdeal.H

end
-- ==== Proof.KI.R3.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 3: the dense map of layer 2, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

/-- The same for window 1 (the weights): its index is constant, so it is fetched at the first point only. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

/-- The same for window 2 (the bias row), also of constant index. -/
theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t :=
  (dat.before_in_eq_fetched 2 rfl (fun _ => rfl) (fun _ _ _ => rfl)
      (fun t => by rw [hafter]; unfold Dat.blockOf iblk3; rw [hA]; try rfl) t d).trans
    (by unfold Dat.fetched Dat.blockOf iblk3; rw [hA]; try rfl)

/-! ## The body's one store -/

/-- The result's whole staging buffer as one rectangle. -/
abbrev r3_0 : Rect S2048x64 := Rect.unit (s := S2048x64) ![0, 0] S2048x64.size inb_S2048x64_S2048x64_0_0

/-- What the body leaves in the output window's buffer, as a function of the three input blocks: one write of
    the whole buffer, whose value is the dense map's payload on the blocks read through whole-buffer loads. -/
def out3_3 (x0 : Vec F S2048x64 .f32) (x1 : Vec F S64x64 .f32) (x2 : Vec F S1x64 .f32) : Vec F S2048x64 .f32 :=
  View.canon [⟨r3_0, k3_pay1
    (View.ld x0 (Rect.unit (s := S2048x64) ![0, 0] S2048x64.size inb_S2048x64_S2048x64_0_0))
    (View.ld x1 (Rect.unit (s := S64x64) ![0, 0] S64x64.size inb_S64x64_S64x64_0_0))
    (View.ld x2 (Rect.unit (s := S1x64) ![0, 0] S1x64.size inb_S1x64_S1x64_0_0))⟩]

/-- That one write covers the buffer. -/
theorem cover3_3 (p0 : Vec F S2048x64 .f32) (y : S2048x64.Idx) :
    ∃ pc ∈ ([⟨r3_0, p0⟩] : List (View.Piece (Elt F) S2048x64 .f32)), y ∈ pc.1.set :=
  View.cover_of_tiled [⟨r3_0, p0⟩] S2048x64.size (by rfl) y

/-! ## The body's triple -/

set_option maxHeartbeats 1000000 in
/-- The body on whole staging memrefs — the three inputs' read as `x0 x1 x2`, the output's holding anything —
    runs to a state where the inputs' are unchanged and the output's reads `out3_3 x0 x1 x2`. -/
theorem sound_kernel3 (c : Dev nD) (E : Set ℕ) (i : grid3.Coords)
    (arg1 : Memref sig .tc .vmem S2048x64 .f32) (harg1 : arg1.IsWhole)
    (arg2 : Memref sig .tc .vmem S64x64 .f32) (harg2 : arg2.IsWhole)
    (arg3 : Memref sig .tc .vmem S1x64 .f32) (harg3 : arg3.IsWhole)
    (arg4 : Memref sig .tc .vmem S2048x64 .f32) (harg4 : arg4.IsWhole)
    (x0 : Vec F S2048x64 .f32) (x1 : Vec F S64x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E
          (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The region's proof data -/

/-- The proof data of region 3 on core `c`: the arrays as the region finds them; after the body at point `t`
    each input buffer at its block and the output buffer at `out3_3` of the three blocks; the invariant of a
    body that keeps nothing; nothing owed; every array held in full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem recorded_eq3 (c : Dev nD) (t : Fin (cfg3.N + 1)) : (dat3 V c).recorded t = Set.univ := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- What the body finds in each input window's buffer: the window's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body at a grid point -/

/-- The staging memref each window is on at point `t`. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)

/-- The body as the pipeline calls it at point `t`: on the point's coordinates and the current staging memrefs. -/
abbrev bodyAt3 (t : Fin cfg3.N) : Prog (TpuEff nD τ sig (Elt F) Λ₀ .tc) PUnit :=
  cc3__linear_kernel (grid3.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))

/-- What the body is entered with at point `t`, the windows listed one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input memrefs hold their blocks, so the body's triple applies; the
    invariant and what the core owes are not touched. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation3 (c : Dev nD) :
    BodyObligation (dat3 (F := F) V c) (defs₀ (F := F)) Variants.none () Set.univ := fun t => by
  rw [bigSep_W3, bigSep_W3]
  exact sound_body3 V c t

/-! ## Entering and leaving the region -/

theorem hin3 (c : Dev nD) : Pipeline.ΦA spec3 c ⊢ (dat3 V c).Φ 0 := Entails.refl _

theorem hout3 (c : Dev nD) : (dat3 V c).Φ (Fin.last cfg3.N) ⊢ Pipeline.ΦA spec3 c := Entails.refl _

end Cert.KernelIdeal.H

end
-- ==== Proof.KI.R4Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather kernel of layer 2, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride4_0 : grid4.stride 0 = 40 := by decide
theorem stride4_1 : grid4.stride 1 = 1 := by decide

/-- Coordinate 1 of point `t`: the remainder modulo 40. -/
theorem coords4_1 (t : Fin cfg4.N) : (grid4.coords t 1).val = t.val % 40 := by
  show t.val / grid4.stride 1 % 40 = t.val % 40
  rw [stride4_1, Nat.div_one]

/-- Coordinate 0 of point `t`: the quotient by 40 (below 1250). -/
theorem coords4_0 (t : Fin cfg4.N) : (grid4.coords t 0).val = t.val / 40 % 1250 := by
  show t.val / grid4.stride 0 % 1250 = _
  rw [stride4_0]

theorem N4_lt (t : Fin cfg4.N) : t.val < 50000 := lt_of_lt_of_eq t.isLt (show cfg4.N = 50000 from N_4)

/-- Two points with the same quotient by 40 have the same coordinate 0. -/
theorem coords4_0_congr (t t' : Fin cfg4.N) (h : t.val / 40 = t'.val / 40) : grid4.coords t 0 = grid4.coords t' 0 :=
  Fin.ext (by rw [coords4_0, coords4_0, h])

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: where the
    pipeline does not fetch, the block index has not moved since the point before. For any proof data whose
    array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reset of the accumulator), from the grid coordinates. -/
abbrev cond4_0 (i : grid4.Coords) : Prop := (Scalar.cmpi .ne (Scalar.extui (Scalar.cmpi .eq (BitVec.ofNat 32 (i 1).val) 0#32)) 0#32) = 1#1

/-- Over the 40 values of coordinate 1 it holds at 0 only. -/
theorem cond4_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond4_0 (t : Fin cfg4.N) : cond4_0 (grid4.coords t) ↔ t.val % 40 = 0 := by
  rw [← coords4_1 t]; exact cond4_0_fin (grid4.coords t 1)

/-- The condition of the body's second conditional (the read-out into the output). -/
abbrev cond4_1 (i : grid4.Coords) : Prop := k4_cond2 i = 1#1

/-- Over the 40 values of coordinate 1 it holds at 39 only. -/
theorem cond4_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond4_1 (t : Fin cfg4.N) : cond4_1 (grid4.coords t) ↔ t.val % 40 = 39 := by
  rw [← coords4_1 t]; exact cond4_1_fin (grid4.coords t 1)

/-! ## Where the windows are idle, and where the output is written back -/

/-- The inputs are never idle. -/
theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl

/-- The output is idle exactly where the second condition fails. -/
theorem idle4_3_of_not (i : grid4.Coords) (h1 : ¬cond4_1 i) : cfg4.idle 3 i = true := by
  show (!(k4_cond2 i == 1#1)) = true
  rw [Bool.not_eq_true', beq_eq_false_iff_ne]; exact h1

theorem idleAt4_3_A (t : Fin cfg4.N) (h0 : cond4_0 (grid4.coords t)) (h1 : ¬cond4_1 (grid4.coords t)) : cfg4.idle 3 (grid4.coords t) = true :=
  idle4_3_of_not _ h1
theorem idleAt4_3_B (t : Fin cfg4.N) (h0 : ¬cond4_0 (grid4.coords t)) (h1 : ¬cond4_1 (grid4.coords t)) : cfg4.idle 3 (grid4.coords t) = true :=
  idle4_3_of_not _ h1
theorem liveAt4_3_C (t : Fin cfg4.N) (h0 : ¬cond4_0 (grid4.coords t)) (h1 : cond4_1 (grid4.coords t)) : cfg4.idle 3 (grid4.coords t) = false := by
  show (!(k4_cond2 (grid4.coords t) == 1#1)) = false
  rw [h1]; rfl

/-- The output's block index at a point: the quotient by 40 on the rows, 0 on the columns. -/
theorem index4_3 (t : Fin cfg4.N) : (cfg4.win 3).index t = cc4_transform_3 (grid4.coords t) := rfl

/-- Away from the points ≡ 39 (mod 40) the pipeline does not write the output's block back: the next point is not
    past the grid's end (50000 is a multiple of 40) and has the same quotient by 40, so the same block index. -/
theorem noFlush4_3 (t : Fin cfg4.N) (h : t.val % 40 ≠ 39) : (cfg4.win 3).flush t = false := by
  have hN := N4_lt t
  unfold Pipeline.Window.flush
  rw [Bool.and_eq_false_iff]; right
  rw [Bool.or_eq_false_iff]
  refine ⟨decide_eq_false (fun he => by have h2 : t.val + 1 = 50000 := he.trans N_4; omega), decide_eq_false ?_⟩
  rintro ⟨h', hne⟩
  apply hne
  rw [index4_3, index4_3]
  unfold cc4_transform_3
  rw [coords4_0_congr ⟨t.val + 1, h'⟩ t (by show (t.val + 1) / 40 = t.val / 40; omega)]

theorem noFlush4_3_A (t : Fin cfg4.N) (h0 : cond4_0 (grid4.coords t)) (h1 : ¬cond4_1 (grid4.coords t)) : (cfg4.win 3).flush t = false :=
  noFlush4_3 t (fun h => h1 ((hcond4_1 t).mpr h))
theorem noFlush4_3_B (t : Fin cfg4.N) (h0 : ¬cond4_0 (grid4.coords t)) (h1 : ¬cond4_1 (grid4.coords t)) : (cfg4.win 3).flush t = false :=
  noFlush4_3 t (fun h => h1 ((hcond4_1 t).mpr h))

/-! ## The staging memrefs and the body as the pipeline calls it -/

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with. -/
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

/-- One staging buffer of output window 3, through which its contents are stated (the choice does not matter). -/
abbrev VO4_3 : View sig .tc .vmem S1280x64 .bf16 := (Memref.whole cc4_stg3_0 : Memref sig .tc .vmem S1280x64 .bf16).view
/-- Each window's current staging memref at point `t`, spelled as the pipeline passes it, and its wholeness. -/
abbrev ms4_0 (t : Fin cfg4.N) : Memref sig .tc .vmem S1280x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2560x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1280x64 .bf16 := win4_3.stage (cfg4.slots t 3)
abbrev hs4_3 (t : Fin cfg4.N) : (ms4_3 t).IsWhole := hstage4_3 ((cfg4.slots t 3).cast nbuf4_3)
/-- The scratch operand: a whole scoped buffer of the kernel's own, passed beside the windows. -/
abbrev scM4_0 : Memref sig .tc .vmem S1280x64 .f32 := Memref.whole cc4_scratch0
/-- The scratch accumulator the kernel carries between points, as a view: what it holds is stated through it. -/
abbrev VS4_0 : View sig .tc .vmem S1280x64 .f32 := scM4_0.view

/-- The region invariant of the class with the scratch operand as a memref owned at some contents, the other
    scoped buffers of the program unopened beside it, and the generator register at some state: what the body
    obligation hands the run and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.H

end
-- ==== Proof.KI.R4RunA.lean ====
import proofs.«421344_j1254130450614_1_alg».proof.Proof.KI.R4Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun4_A (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R4RunB.lean ====
import proofs.«421344_j1254130450614_1_alg».proof.Proof.KI.R4Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun4_B (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (xi3 : Vec F S1280x64 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R4RunC.lean ====
import proofs.«421344_j1254130450614_1_alg».proof.Proof.KI.R4Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun4_C (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) :
    Σ' (L3 : List (View.Piece (Elt F) S1280x64 .bf16)), { LS0 : List (View.Piece (Elt F) S1280x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.R4.lean ====
import proofs.«421344_j1254130450614_1_alg».proof.Proof.KI.R4RunA
import proofs.«421344_j1254130450614_1_alg».proof.Proof.KI.R4RunB
import proofs.«421344_j1254130450614_1_alg».proof.Proof.KI.R4RunC
import Idealize.ShloMosaic.Lib.Ring

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4 (the gather kernel of layer 2): what the output and the scratch accumulator hold per case and point by
point, the proof data, the body obligation at a generic point, and the invariant's two ends. -/

/-! ## What each case leaves -/

/-- Case A stores nothing into the output (idle at its points and not written back there): no pieces, a placeholder
    nothing consults. -/
def out4_A_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) : Vec F S1280x64 .bf16 :=
  VO4_3.read (Elt F) (VO4_3.writes (Elt F) VO4_3.junk (kernelRun4_A c i arg2 harg2 arg3 harg3 arg4 harg4 arg5 harg5 arg6 harg6 hc0 hc1 x0 x1 x2).1)

/-- Case A's pieces for the scratch accumulator (the reset, then the accumulation: two whole-block stores) cover it. -/
theorem scover4_A_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) (y : S1280x64.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1280x64.size (by sl_kernel_rfl) y

/-- What case A leaves in the scratch accumulator: its pieces read back. -/
def sout4_A_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i)
    (x0 : Vec F S1280x1 .i32) (x1 : Vec F S1280x1 .f32) (x2 : Vec F S2560x64 .f32) : Vec F S1280x64 .f32 :=
  VS4_0.read (Elt F) (VS4_0.writes (Elt F) VS4_0.junk (kernelRun4_A c i arg2 harg2 arg3 harg3 arg4 harg4 arg5 harg5 arg6 harg6 hc0 hc1 x0 x1 x2).2.1)

/-- Case B stores nothing into the output either. -/
def out4_B_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) : Vec F S1280x64 .bf16 :=
  VO4_3.read (Elt F) (VO4_3.writes (Elt F) VO4_3.junk (kernelRun4_B c i arg2 harg2 arg3 harg3 arg4 harg4 arg5 harg5 arg6 harg6 hc0 hc1 x0 x1 x2 xs0).1)

/-- Case B's piece for the scratch accumulator (one whole-block store) covers it. -/
theorem scover4_B_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) (y : S1280x64.Idx) :
    ∃ pc ∈ (kernelRun4_B c i arg2 harg2 arg3 harg3 arg4 harg4 arg5 harg5 arg6 harg6 hc0 hc1 x0 x1 x2 xs0).2.1, y ∈ pc.1.set :=
  View.cover_of_tiledL (kernelRun4_B c i arg2 harg2 arg3 harg3 arg4 harg4 arg5 harg5 arg6 harg6 hc0 hc1 x0 x1 x2 xs0).2.1 S1280x64.size (by sl_kernel_rfl) y

/-- What case B leaves in the scratch accumulator. -/
def sout4_B_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i)
    (x0 : Vec F S1280x1 .i32) (x1 : Vec F S1280x1 .f32) (x2 : Vec F S2560x64 .f32) (xs0 : Vec F S1280x64 .f32) : Vec F S1280x64 .f32 :=
  VS4_0.read (Elt F) (VS4_0.writes (Elt F) VS4_0.junk (kernelRun4_B c i arg2 harg2 arg3 harg3 arg4 harg4 arg5 harg5 arg6 harg6 hc0 hc1 x0 x1 x2 xs0).2.1)

/-- Case C's piece for the output (one whole-block store) covers its block. -/
theorem cover4_C_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) (y : S1280x64.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1280x64.size (by sl_kernel_rfl) y

/-- What case C leaves in the output's staging buffer: its piece read back. -/
def out4_C_3 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) : Vec F S1280x64 .bf16 :=
  VO4_3.read (Elt F) (VO4_3.writes (Elt F) VO4_3.junk (kernelRun4_C c i arg2 harg2 arg3 harg3 arg4 harg4 arg5 harg5 arg6 harg6 hc0 hc1 x0 x1 x2 xs0).1)

/-- Case C's piece for the scratch accumulator covers it. -/
theorem scover4_C_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) (y : S1280x64.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1280x64.size (by sl_kernel_rfl) y

/-- What case C leaves in the scratch accumulator. -/
def sout4_C_0 (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i)
    (x0 : Vec F S1280x1 .i32) (x1 : Vec F S1280x1 .f32) (x2 : Vec F S2560x64 .f32) (xs0 : Vec F S1280x64 .f32) : Vec F S1280x64 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt4 (c : Dev nD) : (n : ℕ) → n < cfg4.N → Vec F S1280x64 .bf16 × Vec F S1280x64 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 40 = 0 then
      if h1 : (n + 1) % 40 = 39 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 40 = 39 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

/-- `outsAt4` at a point of case A: that case's contents. -/
theorem outsAt4_A (c : Dev nD) (t : Fin cfg4.N) (h0 : t.val % 40 = 0) (h1 : ¬t.val % 40 = 39) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 40 = 0) (h1 : ¬t.val % 40 = 39) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 40 = 0) (h1 : t.val % 40 = 39) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest4 (c : Dev nD) : sProp 𝕄 :=
  Pipeline.scopedRestBut (Ix := Unit) (Name := ℕ) (U := UR sig nD τ) (Lvl := ℕ) (Val := Elt F) spec4 c [cc4_scratch0]

/-- The region invariant before position `n`: before the first point the class's; afterwards the scratch accumulator at
    what the point before left in it, the other scoped buffers unopened, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of region 4 on core `c`: the arrays as the region finds them (`V`); after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

/-- An input's post at any point: the window is never idle, so its buffer at what the body leaves, its block. -/
theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 50000 := N4_lt t
  by_cases h0 : t.val % 40 = 0
  · by_cases h1 : t.val % 40 = 39
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 50000 := N_4; omega)

end Cert.KernelIdeal.H

end
-- ==== Proof.KI.R5Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 5 (the scatter and row-normalisation kernel of layer 2): what its three runs share

The grid is 40 x 1250, the last axis fastest: point `t` has coordinates `(t / 1250 % 40, t % 1250)`. The body
branches on the second coordinate only: at 0 it resets the accumulator, at 1249 it adds the residual block to the
accumulator and normalises the sum into the output block. Beside region 2's four inputs the region has a fifth, the
residual (window 4, blocked as the output is); the output is window 5. Every fact over the 50000 points below is obtained from these two closed forms by arithmetic. -/

/-! ## The staging memrefs at a point and the body as the pipeline calls it -/

/-- The current staging memref of each window at point `t`. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev st5_4 (t : Fin cfg5.N) := (cfg5.win 4).stage (cfg5.slots t 4)
abbrev st5_5 (t : Fin cfg5.N) := (cfg5.win 5).stage (cfg5.slots t 5)

/-- The kernel body at point `t`, on the memrefs the pipeline passes it: the six windows' current staging
    memrefs, then the accumulator. -/
abbrev bodyAt5 (t : Fin cfg5.N) : Prog (TpuEff nD τ sig (Elt F) Λ₀ .tc) PUnit :=
  cc5__kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (Memref.whole cc5_scratch0) (Memref.isWhole_whole _)

/-- The congruence lemmas of the kernel function and of its skeleton, stated here once: each case's run rewrites
    the function to its skeleton under them, and all three runs share this one pair. -/
theorem congr_simp_realized5 : True := by
  have := @cc5__kernel.congr_simp; have := @cc5__kernel_skel.congr_simp
  trivial

/-! ## The grid's coordinates in closed form -/

/-- The second coordinate of point `t` is `t mod 1250`. -/
theorem coords5_1 (t : Fin cfg5.N) : (grid5.coords t 1).val = t.val % 1250 := by
  show t.val / grid5.stride 1 % 1250 = t.val % 1250
  have : grid5.stride 1 = 1 := by decide
  rw [this, Nat.div_one]

/-- The first coordinate of point `t` is `t / 1250` (below 40 for every point of the grid). -/
theorem coords5_0 (t : Fin cfg5.N) : (grid5.coords t 0).val = t.val / 1250 % 40 := by
  show t.val / grid5.stride 0 % 40 = _
  have : grid5.stride 0 = 1250 := by decide
  rw [this]

/-- The grid has 50000 points. -/
theorem lt_N5 (t : Fin cfg5.N) : t.val < 50000 := lt_of_lt_of_eq t.isLt N_5

/-! ## The body's branch conditions -/

/-- The condition of the body's first conditional: the second coordinate is 0. -/
abbrev cond5_0 (i : grid5.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond5_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond5_0 : ∀ t : Fin cfg5.N, cond5_0 (grid5.coords t) ↔ t.val % 1250 = 0 := fun t => by
  rw [← coords5_1 t]; exact cond5_0_fin (grid5.coords t 1)

/-- The condition of the body's second conditional: the second coordinate is 1249. -/
abbrev cond5_1 (i : grid5.Coords) : Prop := k5_cond2 i = 1#1

/-- On a second coordinate `j < 1250` the 32-bit comparison with 1249 is the comparison of naturals. -/
theorem cond5_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond5_1 : ∀ t : Fin cfg5.N, cond5_1 (grid5.coords t) ↔ t.val % 1250 = 1249 := fun t => by
  rw [← coords5_1 t]; exact cond5_1_fin (grid5.coords t 1)

/-! ## Where the windows are idle, and where the output is written back -/

/-- The five inputs are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl

/-- The output is idle exactly where the second conditional is not taken. -/
theorem idle5_5_eq (i : grid5.Coords) : cfg5.idle 5 i = !(k5_cond2 i == 1#1) := rfl

theorem idle5_5_of_not (i : grid5.Coords) (h : ¬cond5_1 i) : cfg5.idle 5 i = true := by
  rw [idle5_5_eq]; simp only [Bool.not_eq_true', beq_eq_false_iff_ne, ne_eq]; exact h

theorem live5_5_of (i : grid5.Coords) (h : cond5_1 i) : cfg5.idle 5 i = false := by
  rw [idle5_5_eq]; simp only [Bool.not_eq_false', beq_iff_eq]; exact h

/-- At the points of case A the output is idle: the case stores nothing into it. -/
theorem idleAt5_5_A : ∀ t : Fin cfg5.N, cond5_0 (grid5.coords t) → ¬cond5_1 (grid5.coords t) → cfg5.idle 5 (grid5.coords t) = true :=
  fun t _ h => idle5_5_of_not _ h
/-- At the points of case B the output is idle: the case stores nothing into it. -/
theorem idleAt5_5_B : ∀ t : Fin cfg5.N, ¬cond5_0 (grid5.coords t) → ¬cond5_1 (grid5.coords t) → cfg5.idle 5 (grid5.coords t) = true :=
  fun t _ h => idle5_5_of_not _ h
/-- At the points of case C the output is live: the case stores into it. -/
theorem liveAt5_5_C : ∀ t : Fin cfg5.N, ¬cond5_0 (grid5.coords t) → cond5_1 (grid5.coords t) → cfg5.idle 5 (grid5.coords t) = false :=
  fun t _ h => live5_5_of _ h

/-- The output's block index at point `t`. -/
theorem index5_5 (t : Fin cfg5.N) : (cfg5.win 5).index t = cc5_transform_5 (grid5.coords t) := rfl

/-- Away from the points ≡ 1249 (mod 1250) the output's block is not written back: the point is not the last
    (49999 ≡ 1249), and the next point has the same first coordinate, which is all the block index reads. -/
theorem noFlush5_5_of (t : Fin cfg5.N) (h : ¬t.val % 1250 = 1249) : (cfg5.win 5).flush t = false := by
  have hN := lt_N5 t
  unfold Pipeline.Window.flush
  rw [Bool.and_eq_false_iff]; right
  rw [Bool.or_eq_false_iff]; constructor
  · exact decide_eq_false (fun e => by have e' : t.val + 1 = 50000 := e.trans N_5; omega)
  · apply decide_eq_false
    rintro ⟨h', hne⟩; apply hne
    show cc5_transform_5 (grid5.coords ⟨t.val + 1, h'⟩) = cc5_transform_5 (grid5.coords t)
    apply hreads5_5
    intro a ha
    have ha0 : a = 0 := by
      fin_cases a
      · rfl
      · exact absurd ha (by decide)
    subst ha0
    apply Fin.ext
    rw [coords5_0 ⟨t.val + 1, h'⟩, coords5_0 t]; dsimp only; omega

/-- At the points of case A the pipeline does not write the output's block back. -/
theorem noFlush5_5_A : ∀ t : Fin cfg5.N, cond5_0 (grid5.coords t) → ¬cond5_1 (grid5.coords t) → (cfg5.win 5).flush t = false :=
  fun t _ h => noFlush5_5_of t (fun e => h ((hcond5_1 t).mpr e))
/-- At the points of case B the pipeline does not write the output's block back. -/
theorem noFlush5_5_B : ∀ t : Fin cfg5.N, ¬cond5_0 (grid5.coords t) → ¬cond5_1 (grid5.coords t) → (cfg5.win 5).flush t = false :=
  fun t _ h => noFlush5_5_of t (fun e => h ((hcond5_1 t).mpr e))

/-! ## The memrefs the runs are stated over -/

/-- One staging buffer of the output window, through which its contents are stated. -/
abbrev VO5_5 : View sig .tc .vmem S2560x64 .f32 := (Memref.whole cc5_stg5_0 : Memref sig .tc .vmem S2560x64 .f32).view
/-- Each window's current staging memref at point `t`, spelled as the pipeline passes it, and its wholeness. -/
abbrev ms5_0 (t : Fin cfg5.N) : Memref sig .tc .vmem S1x1280 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1280x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2560x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2560x64 .f32 := win5_5.stage (cfg5.slots t 5)
abbrev hs5_5 (t : Fin cfg5.N) : (ms5_5 t).IsWhole := hstage5_5 ((cfg5.slots t 5).cast nbuf5_5)
/-- The accumulator: a whole scoped buffer of the kernel's own, passed beside the windows. -/
abbrev scM5_0 : Memref sig .tc .vmem S2560x64 .f32 := Memref.whole cc5_scratch0
/-- The accumulator as a view: what it holds between points is stated through it. -/
abbrev VS5_0 : View sig .tc .vmem S2560x64 .f32 := scM5_0.view

/-- The region's entry invariant with the accumulator as a memref owned at some contents; every other scoped
    buffer of the core that is no staging buffer of this region stays unopened beside it. -/
theorem PhiA5_eq (c : Dev nD) :
    (Pipeline.ΦA spec5 c : sProp 𝕄)
      = iprop(iprop((∃ d, owns (c : Thread nD τ) scM5_0 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is the entry contents and whose body leaves the block in place: where the window is not
    fetched its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Cert.KernelIdeal.H

end
-- ==== Proof.KI.R5RunA.lean ====
import proofs.«421344_j1254130450614_1_alg».proof.Proof.KI.R5Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the five inputs at their contents (the fifth is the
    residual block, which this case does not read), the output at contents `xi5` handed back untouched, the
    accumulator at anything, the body runs to the continuation holding the inputs and the output as they were and
    the accumulator with its pieces written. -/
noncomputable def kernelRun5_A (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) :
    Σ' (L5 : List (View.Piece (Elt F) S2560x64 .f32)), { LS0 : List (View.Piece (Elt F) S2560x64 .f32) //
      ∀ (xi5 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨[], ?_, fun xi5 E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.H

end
-- ==== Proof.KI.R5RunB.lean ====
import proofs.«421344_j1254130450614_1_alg».proof.Proof.KI.R5Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the five inputs at their contents (the fifth is the residual
    block, which this case does not read), the output at contents `xi5` handed back untouched, the accumulator at
    the contents `xs0` the point before left, the body runs to the continuation holding the inputs and the output
    as they were and the accumulator with its pieces written. -/
noncomputable def kernelRun5_B (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    Σ' (L5 : List (View.Piece (Elt F) S2560x64 .f32)), { LS0 : List (View.Piece (Elt F) S2560x64 .f32) //
      ∀ (xi5 : Vec F S2560x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨[], ?_, fun xi5 E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.H

end
-- ==== Proof.KI.R5RunC.lean ====
import proofs.«421344_j1254130450614_1_alg».proof.Proof.KI.R5Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows of the accumulator plus the residual) and in
    the accumulator (the accumulation over what the point before left), WITH the run: on whole memrefs, the five
    inputs at their contents (the fifth the residual block), the output at anything, the accumulator at the
    contents `xs0` the point before left, the body runs to the continuation holding the inputs as they were and
    the output and the accumulator each with its pieces written. -/
noncomputable def kernelRun5_C (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    Σ' (L5 : List (View.Piece (Elt F) S2560x64 .f32)), { LS0 : List (View.Piece (Elt F) S2560x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc5__kernel i arg2 harg2 arg3 harg3 arg4 harg4 arg5 harg5 arg6 harg6 arg7 harg7 arg8 harg8) K } := by
  refine ⟨?_, ?_, fun E K => ?run⟩
  case run =>
    simp only [cc5__kernel_eq_skeleton]; unfold cc5__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.H

end
-- ==== Proof.KI.R5.lean ====
import proofs.«421344_j1254130450614_1_alg».proof.Proof.KI.R5RunA
import proofs.«421344_j1254130450614_1_alg».proof.Proof.KI.R5RunB
import proofs.«421344_j1254130450614_1_alg».proof.Proof.KI.R5RunC
import Idealize.ShloMosaic.Lib.Ring

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 5: what the output and the accumulator hold point by point, the proof data, the body obligation

The region has six windows: the four inputs this kernel has at every layer (the edge tile's target words, its
message rows, the gain row and the bias row), the residual block (window 4, an input that only the last case reads)
and the output (window 5). Every list below carries the residual as a fifth input: it is handed
to the body at its block and taken back unchanged. -/

/-! ## What each case leaves -/

/-- Case A stores nothing into the output (the window is idle at its points and not written back there): no
    pieces; the contents named here are consulted by nothing. -/
def out5_A_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) : Vec F S2560x64 .f32 :=
  VO5_5.read (Elt F) (VO5_5.writes (Elt F) VO5_5.junk (kernelRun5_A c i arg2 harg2 arg3 harg3 arg4 harg4 arg5 harg5 arg6 harg6 arg7 harg7 arg8 harg8 hc0 hc1 x0 x1 x2 x3 x4).1)

/-- Case A's pieces for the accumulator cover it: each store writes the whole of it. -/
theorem scover5_A_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) (y : S2560x64.Idx) :
    ∃ pc ∈ (kernelRun5_A c i arg2 harg2 arg3 harg3 arg4 harg4 arg5 harg5 arg6 harg6 arg7 harg7 arg8 harg8 hc0 hc1 x0 x1 x2 x3 x4).2.1, y ∈ pc.1.set :=
  View.cover_of_tiledL (kernelRun5_A c i arg2 harg2 arg3 harg3 arg4 harg4 arg5 harg5 arg6 harg6 arg7 harg7 arg8 harg8 hc0 hc1 x0 x1 x2 x3 x4).2.1 S2560x64.size (by sl_kernel_rfl) y

/-- What case A leaves in the accumulator: its pieces read back. -/
def sout5_A_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) : Vec F S2560x64 .f32 :=
  VS5_0.read (Elt F) (VS5_0.writes (Elt F) VS5_0.junk (kernelRun5_A c i arg2 harg2 arg3 harg3 arg4 harg4 arg5 harg5 arg6 harg6 arg7 harg7 arg8 harg8 hc0 hc1 x0 x1 x2 x3 x4).2.1)

/-- Case B stores nothing into the output either. -/
def out5_B_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VO5_5.read (Elt F) (VO5_5.writes (Elt F) VO5_5.junk (kernelRun5_B c i arg2 harg2 arg3 harg3 arg4 harg4 arg5 harg5 arg6 harg6 arg7 harg7 arg8 harg8 hc0 hc1 x0 x1 x2 x3 x4 xs0).1)

/-- Case B's piece for the accumulator covers it. -/
theorem scover5_B_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_B c i arg2 harg2 arg3 harg3 arg4 harg4 arg5 harg5 arg6 harg6 arg7 harg7 arg8 harg8 hc0 hc1 x0 x1 x2 x3 x4 xs0).2.1, y ∈ pc.1.set :=
  View.cover_of_tiledL (kernelRun5_B c i arg2 harg2 arg3 harg3 arg4 harg4 arg5 harg5 arg6 harg6 arg7 harg7 arg8 harg8 hc0 hc1 x0 x1 x2 x3 x4 xs0).2.1 S2560x64.size (by sl_kernel_rfl) y

/-- What case B leaves in the accumulator. -/
def sout5_B_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VS5_0.read (Elt F) (VS5_0.writes (Elt F) VS5_0.junk (kernelRun5_B c i arg2 harg2 arg3 harg3 arg4 harg4 arg5 harg5 arg6 harg6 arg7 harg7 arg8 harg8 hc0 hc1 x0 x1 x2 x3 x4 xs0).2.1)

/-- Case C's piece for the output covers its block: one store of the whole block. -/
theorem cover5_C_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_C c i arg2 harg2 arg3 harg3 arg4 harg4 arg5 harg5 arg6 harg6 arg7 harg7 arg8 harg8 hc0 hc1 x0 x1 x2 x3 x4 xs0).1, y ∈ pc.1.set :=
  View.cover_of_tiledL (kernelRun5_C c i arg2 harg2 arg3 harg3 arg4 harg4 arg5 harg5 arg6 harg6 arg7 harg7 arg8 harg8 hc0 hc1 x0 x1 x2 x3 x4 xs0).1 S2560x64.size (by sl_kernel_rfl) y

/-- What case C leaves in the output's staging buffer: the normalised rows. -/
def out5_C_5 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VO5_5.read (Elt F) (VO5_5.writes (Elt F) VO5_5.junk (kernelRun5_C c i arg2 harg2 arg3 harg3 arg4 harg4 arg5 harg5 arg6 harg6 arg7 harg7 arg8 harg8 hc0 hc1 x0 x1 x2 x3 x4 xs0).1)

/-- Case C's piece for the accumulator covers it. -/
theorem scover5_C_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) (y : S2560x64.Idx) :
    ∃ pc ∈ (kernelRun5_C c i arg2 harg2 arg3 harg3 arg4 harg4 arg5 harg5 arg6 harg6 arg7 harg7 arg8 harg8 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 hc0 hc1 x0 x1 x2 x3 x4 xs0).2.1 S2560x64.size (by sl_kernel_rfl) y

/-- What case C leaves in the accumulator. -/
def sout5_C_0 (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) : Vec F S2560x64 .f32 :=
  VS5_0.read (Elt F) (VS5_0.writes (Elt F) VS5_0.junk (kernelRun5_C c i arg2 harg2 arg3 harg3 arg4 harg4 arg5 harg5 arg6 harg6 arg7 harg7 arg8 harg8 hc0 hc1 x0 x1 x2 x3 x4 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt5 (c : Dev nD) : (n : ℕ) → n < cfg5.N → Vec F S2560x64 .f32 × Vec F S2560x64 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 1250 = 0 then
      if h1 : (n + 1) % 1250 = 1249 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 1250 = 1249 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

/-- `outsAt5` at a point of case A: that case's contents. -/
theorem outsAt5_A (c : Dev nD) (t : Fin cfg5.N) (h0 : t.val % 1250 = 0) (h1 : ¬t.val % 1250 = 1249) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

/-- `outsAt5` at a point of case B: that case's contents, over what the point before left. -/
theorem outsAt5_B (c : Dev nD) (t : Fin cfg5.N) (h0 : ¬t.val % 1250 = 0) (h1 : ¬t.val % 1250 = 1249) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of case C: that case's contents, over what the point before left. -/
theorem outsAt5_C (c : Dev nD) (t : Fin cfg5.N) (h0 : ¬t.val % 1250 = 0) (h1 : t.val % 1250 = 1249) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulator at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core `c`: the arrays as the region finds them; after the body at point `t`
    each input's buffer at its block and the output's at `outsAt5`; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem recorded_eq5 (c : Dev nD) (t : Fin (cfg5.N + 1)) : (dat5 V c).recorded t = Set.univ := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 50000 := lt_N5 t
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  by_cases h0 : t.val % 1250 = 0
  · by_cases h1 : t.val % 1250 = 1249
    · exfalso; omega
    · rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_A c (grid5.coords t) _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 1250 = 1249
    · rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [outsAt5_C V c t h0 h1]
      unfold out5_C_5 sout5_C_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_C c (grid5.coords t) _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover5_C_5 c _ _ _ _ _ _ _ _ _ _ _ _ _ _ _ _ _ _ _ _ _ _ _)
    · rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun5_B c (grid5.coords t) _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover5_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the entry invariant back: the accumulator's named contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 50000 := N_5; omega)

end Cert.KernelIdeal.H

end
-- ==== Proof.KI.R6.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- membership of an index in a rectangle of 2048 rows is looked up structurally, one step per row
set_option maxRecDepth 16384

/-! # Region 6: the dense map of layer 3, one block of 2048 rows per grid point

The body reads three staging buffers (a block of rows, the whole weight matrix, the bias row), writes the
fourth once, whole, and keeps nothing between points.  Everything below is stated at the contents `V` the
TensorCore's buffers hold when the region is entered. -/

/-! ## The windows' blocks -/

/-- The block of window `w` at grid point `t`, cut out of the window's array as the region finds it. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- An input window's staging buffer holds the window's block at every point, whether or not the block was
    moved in at that point: a point without a fetch has the block index of the point before, so the buffer
    still holds the right block.  Stated for any proof data over the entry contents whose body leaves the
    window's buffer as it found it.  Window 0 (the rows) moves at every point. -/
theorem before6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t :=
  (dat.before_in_eq_fetched 0 rfl (fun _ => rfl) (fun _ _ _ => rfl)
      (fun t => by rw [hafter]; unfold Dat.blockOf iblk6; rw [hA]; try rfl) t d).trans
    (by unfold Dat.fetched Dat.blockOf iblk6; rw [hA]; try rfl)

/-- The same for window 1 (the weights): its index is constant, so it is fetched at the first point only. -/
theorem before6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t :=
  (dat.before_in_eq_fetched 1 rfl (fun _ => rfl) (fun _ _ _ => rfl)
      (fun t => by rw [hafter]; unfold Dat.blockOf iblk6; rw [hA]; try rfl) t d).trans
    (by unfold Dat.fetched Dat.blockOf iblk6; rw [hA]; try rfl)

/-- The same for window 2 (the bias row), also of constant index. -/
theorem before6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t :=
  (dat.before_in_eq_fetched 2 rfl (fun _ => rfl) (fun _ _ _ => rfl)
      (fun t => by rw [hafter]; unfold Dat.blockOf iblk6; rw [hA]; try rfl) t d).trans
    (by unfold Dat.fetched Dat.blockOf iblk6; rw [hA]; try rfl)

/-! ## The body's one store -/

/-- The result's whole staging buffer as one rectangle. -/
abbrev r6_0 : Rect S2048x153 := Rect.unit (s := S2048x153) ![0, 0] S2048x153.size inb_S2048x153_S2048x153_0_0

/-- What the body leaves in the output window's buffer, as a function of the three input blocks: one write of
    the whole buffer, whose value is the dense map's payload on the blocks read through whole-buffer loads. -/
def out6_3 (x0 : Vec F S2048x64 .f32) (x1 : Vec F S64x153 .f32) (x2 : Vec F S1x153 .f32) : Vec F S2048x153 .f32 :=
  View.canon [⟨r6_0, k6_pay1
    (View.ld x0 (Rect.unit (s := S2048x64) ![0, 0] S2048x64.size inb_S2048x64_S2048x64_0_0))
    (View.ld x1 (Rect.unit (s := S64x153) ![0, 0] S64x153.size inb_S64x153_S64x153_0_0))
    (View.ld x2 (Rect.unit (s := S1x153) ![0, 0] S1x153.size inb_S1x153_S1x153_0_0))⟩]

/-- That one write covers the buffer. -/
theorem cover6_3 (p0 : Vec F S2048x153 .f32) (y : S2048x153.Idx) :
    ∃ pc ∈ ([⟨r6_0, p0⟩] : List (View.Piece (Elt F) S2048x153 .f32)), y ∈ pc.1.set :=
  View.cover_of_tiled [⟨r6_0, p0⟩] S2048x153.size (by rfl) y

/-! ## The body's triple -/

set_option maxHeartbeats 1000000 in
/-- The body on whole staging memrefs — the three inputs' read as `x0 x1 x2`, the output's holding anything —
    runs to a state where the inputs' are unchanged and the output's reads `out6_3 x0 x1 x2`. -/
theorem sound_kernel6 (c : Dev nD) (E : Set ℕ) (i : grid6.Coords)
    (arg1 : Memref sig .tc .vmem S2048x64 .f32) (harg1 : arg1.IsWhole)
    (arg2 : Memref sig .tc .vmem S64x153 .f32) (harg2 : arg2.IsWhole)
    (arg3 : Memref sig .tc .vmem S1x153 .f32) (harg3 : arg3.IsWhole)
    (arg4 : Memref sig .tc .vmem S2048x153 .f32) (harg4 : arg4.IsWhole)
    (x0 : Vec F S2048x64 .f32) (x1 : Vec F S64x153 .f32) (x2 : Vec F S1x153 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out6_3 x0 x1 x2)) -∗ K ⟨⟩))
      ⊢ wp frame (wpE (defs₀ (F := F)) Variants.none c none) E
          (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The region's proof data -/

/-- The proof data of region 6 on core `c`: the arrays as the region finds them; after the body at point `t`
    each input buffer at its block and the output buffer at `out6_3` of the three blocks; the invariant of a
    body that keeps nothing; nothing owed; every array held in full. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem recorded_eq6 (c : Dev nD) (t : Fin (cfg6.N + 1)) : (dat6 V c).recorded t = Set.univ := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

/-- What the body finds in each input window's buffer: the window's block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body at a grid point -/

/-- The staging memref each window is on at point `t`. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The body as the pipeline calls it at point `t`: on the point's coordinates and the current staging memrefs. -/
abbrev bodyAt6 (t : Fin cfg6.N) : Prog (TpuEff nD τ sig (Elt F) Λ₀ .tc) PUnit :=
  cc6__linear_kernel (grid6.coords t)
    (win6_0.stage (cfg6.slots t 0)) (hstage6_0 ((cfg6.slots t 0).cast nbuf6_0))
    (win6_1.stage (cfg6.slots t 1)) (hstage6_1 ((cfg6.slots t 1).cast nbuf6_1))
    (win6_2.stage (cfg6.slots t 2)) (hstage6_2 ((cfg6.slots t 2).cast nbuf6_2))
    (win6_3.stage (cfg6.slots t 3)) (hstage6_3 ((cfg6.slots t 3).cast nbuf6_3))

/-- What the body is entered with at point `t`, the windows listed one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the three input memrefs hold their blocks, so the body's triple applies; the
    invariant and what the core owes are not touched. -/
theorem sound_body6 (c : Dev nD) (t : Fin cfg6.N) :
    bodyPre6 V c t ⊢ wp frame (wpE (defs₀ (F := F)) Variants.none c none) Set.univ (bodyAt6 t)
      (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation6 (c : Dev nD) :
    BodyObligation (dat6 (F := F) V c) (defs₀ (F := F)) Variants.none () Set.univ := fun t => by
  rw [bigSep_W6, bigSep_W6]
  exact sound_body6 V c t

/-! ## Entering and leaving the region -/

theorem hin6 (c : Dev nD) : Pipeline.ΦA spec6 c ⊢ (dat6 V c).Φ 0 := Entails.refl _

theorem hout6 (c : Dev nD) : (dat6 V c).Φ (Fin.last cfg6.N) ⊢ Pipeline.ΦA spec6 c := Entails.refl _

end Cert.KernelIdeal.H

end
-- ==== Proof.KI.R7Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (the gather kernel of layer 3, grid 1250 × 40): the conditions of the body, where the
windows are idle and where the output is written back, the staging memrefs, and the region invariant
with the scratch accumulator named. Every fact over the 50000 grid points is proved by arithmetic on the
point's number: coordinate 1 is the number modulo 40, coordinate 0 the quotient by 40. -/

/-! ## The grid's coordinates -/

theorem stride7_0 : grid7.stride 0 = 40 := by decide
theorem stride7_1 : grid7.stride 1 = 1 := by decide

/-- Coordinate 1 of point `t`: the remainder modulo 40. -/
theorem coords7_1 (t : Fin cfg7.N) : (grid7.coords t 1).val = t.val % 40 := by
  show t.val / grid7.stride 1 % 40 = t.val % 40
  rw [stride7_1, Nat.div_one]

/-- Coordinate 0 of point `t`: the quotient by 40 (below 1250). -/
theorem coords7_0 (t : Fin cfg7.N) : (grid7.coords t 0).val = t.val / 40 % 1250 := by
  show t.val / grid7.stride 0 % 1250 = _
  rw [stride7_0]

theorem N7_lt (t : Fin cfg7.N) : t.val < 50000 := lt_of_lt_of_eq t.isLt (show cfg7.N = 50000 from N_7)

/-- Two points with the same quotient by 40 have the same coordinate 0. -/
theorem coords7_0_congr (t t' : Fin cfg7.N) (h : t.val / 40 = t'.val / 40) : grid7.coords t 0 = grid7.coords t' 0 :=
  Fin.ext (by rw [coords7_0, coords7_0, h])

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: where the
    pipeline does not fetch, the block index has not moved since the point before. For any proof data whose
    array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's first conditional (the reset of the accumulator), from the grid coordinates. -/
abbrev cond7_0 (i : grid7.Coords) : Prop := (Scalar.cmpi .ne (Scalar.extui (Scalar.cmpi .eq (BitVec.ofNat 32 (i 1).val) 0#32)) 0#32) = 1#1

/-- Over the 40 values of coordinate 1 it holds at 0 only. -/
theorem cond7_0_fin : ∀ j : Fin 40, ((Scalar.cmpi .ne (Scalar.extui (Scalar.cmpi .eq (BitVec.ofNat 32 j.val) 0#32)) 0#32) = 1#1) ↔ j.val = 0 := by decide

/-- It holds at the points ≡ 0 (mod 40). -/
theorem hcond7_0 (t : Fin cfg7.N) : cond7_0 (grid7.coords t) ↔ t.val % 40 = 0 := by
  rw [← coords7_1 t]; exact cond7_0_fin (grid7.coords t 1)

/-- The condition of the body's second conditional (the read-out into the output). -/
abbrev cond7_1 (i : grid7.Coords) : Prop := k7_cond2 i = 1#1

/-- Over the 40 values of coordinate 1 it holds at 39 only. -/
theorem cond7_1_fin : ∀ j : Fin 40, ((Scalar.cmpi .ne (Scalar.extui (Scalar.cmpi .eq (BitVec.ofNat 32 j.val) 39#32)) 0#32) = 1#1) ↔ j.val = 39 := by decide

/-- It holds at the points ≡ 39 (mod 40). -/
theorem hcond7_1 (t : Fin cfg7.N) : cond7_1 (grid7.coords t) ↔ t.val % 40 = 39 := by
  rw [← coords7_1 t]; exact cond7_1_fin (grid7.coords t 1)

/-! ## Where the windows are idle, and where the output is written back -/

/-- The inputs are never idle. -/
theorem liveAt7_0 (t : Fin cfg7.N) : cfg7.idle 0 (grid7.coords t) = false := rfl
theorem liveAt7_1 (t : Fin cfg7.N) : cfg7.idle 1 (grid7.coords t) = false := rfl
theorem liveAt7_2 (t : Fin cfg7.N) : cfg7.idle 2 (grid7.coords t) = false := rfl

/-- The output is idle exactly where the second condition fails. -/
theorem idle7_3_of_not (i : grid7.Coords) (h1 : ¬cond7_1 i) : cfg7.idle 3 i = true := by
  show (!(k7_cond2 i == 1#1)) = true
  rw [Bool.not_eq_true', beq_eq_false_iff_ne]; exact h1

theorem idleAt7_3_A (t : Fin cfg7.N) (h0 : cond7_0 (grid7.coords t)) (h1 : ¬cond7_1 (grid7.coords t)) : cfg7.idle 3 (grid7.coords t) = true :=
  idle7_3_of_not _ h1
theorem idleAt7_3_B (t : Fin cfg7.N) (h0 : ¬cond7_0 (grid7.coords t)) (h1 : ¬cond7_1 (grid7.coords t)) : cfg7.idle 3 (grid7.coords t) = true :=
  idle7_3_of_not _ h1
theorem liveAt7_3_C (t : Fin cfg7.N) (h0 : ¬cond7_0 (grid7.coords t)) (h1 : cond7_1 (grid7.coords t)) : cfg7.idle 3 (grid7.coords t) = false := by
  show (!(k7_cond2 (grid7.coords t) == 1#1)) = false
  rw [h1]; rfl

/-- The output's block index at a point: the quotient by 40 on the rows, 0 on the columns. -/
theorem index7_3 (t : Fin cfg7.N) : (cfg7.win 3).index t = cc7_transform_3 (grid7.coords t) := rfl

/-- Away from the points ≡ 39 (mod 40) the pipeline does not write the output's block back: the next point is not
    past the grid's end (50000 is a multiple of 40) and has the same quotient by 40, so the same block index. -/
theorem noFlush7_3 (t : Fin cfg7.N) (h : t.val % 40 ≠ 39) : (cfg7.win 3).flush t = false := by
  have hN := N7_lt t
  unfold Pipeline.Window.flush
  rw [Bool.and_eq_false_iff]; right
  rw [Bool.or_eq_false_iff]
  refine ⟨decide_eq_false (fun he => by have h2 : t.val + 1 = 50000 := he.trans N_7; omega), decide_eq_false ?_⟩
  rintro ⟨h', hne⟩
  apply hne
  rw [index7_3, index7_3]
  unfold cc7_transform_3
  rw [coords7_0_congr ⟨t.val + 1, h'⟩ t (by show (t.val + 1) / 40 = t.val / 40; omega)]

theorem noFlush7_3_A (t : Fin cfg7.N) (h0 : cond7_0 (grid7.coords t)) (h1 : ¬cond7_1 (grid7.coords t)) : (cfg7.win 3).flush t = false :=
  noFlush7_3 t (fun h => h1 ((hcond7_1 t).mpr h))
theorem noFlush7_3_B (t : Fin cfg7.N) (h0 : ¬cond7_0 (grid7.coords t)) (h1 : ¬cond7_1 (grid7.coords t)) : (cfg7.win 3).flush t = false :=
  noFlush7_3 t (fun h => h1 ((hcond7_1 t).mpr h))

/-! ## The staging memrefs and the body as the pipeline calls it -/

/-- The current staging memref of each window at point `t`: which of its buffers it is on. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)
abbrev st7_3 (t : Fin cfg7.N) := (cfg7.win 3).stage (cfg7.slots t 3)

/-- The kernel body at point `t`, on what the pipeline calls it with. -/
abbrev bodyAt7 (t : Fin cfg7.N) : Prog (TpuEff nD τ sig (Elt F) Λ₀ .tc) PUnit :=
  cc7__gather_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

/-- One staging buffer of output window 3, through which its contents are stated (the choice does not matter). -/
abbrev VO7_3 : View sig .tc .vmem S1280x153 .bf16 := (Memref.whole cc7_stg3_0 : Memref sig .tc .vmem S1280x153 .bf16).view
/-- Each window's current staging memref at point `t`, spelled as the pipeline passes it, and its wholeness. -/
abbrev ms7_0 (t : Fin cfg7.N) : Memref sig .tc .vmem S1280x1 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1280x1 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2560x153 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1280x153 .bf16 := win7_3.stage (cfg7.slots t 3)
abbrev hs7_3 (t : Fin cfg7.N) : (ms7_3 t).IsWhole := hstage7_3 ((cfg7.slots t 3).cast nbuf7_3)
/-- The scratch operand: a whole scoped buffer of the kernel's own, passed beside the windows. -/
abbrev scM7_0 : Memref sig .tc .vmem S1280x153 .f32 := Memref.whole cc7_scratch0
/-- The scratch accumulator the kernel carries between points, as a view: what it holds is stated through it. -/
abbrev VS7_0 : View sig .tc .vmem S1280x153 .f32 := scM7_0.view

/-- The region invariant of the class with the scratch operand as a memref owned at some contents, the other
    scoped buffers of the program unopened beside it, and the generator register at some state: what the body
    obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.H

end
-- ==== Proof.KI.R7RunA.lean ====
import proofs.«421344_j1254130450614_1_alg».proof.Proof.KI.R7Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case A (coordinate 1 is 0: the accumulator is reset, then accumulated into; the output is not
stored): the body's triple on whole memrefs. -/

set_option maxHeartbeats 1000000 in
/-- What the body's stores leave in the output's staging memref (nothing) and in the scratch accumulator, as pieces
    (last first), in case A, with the proof that on whole memrefs — the three inputs' at their contents, the idle
    output's at contents handed back untouched, the scratch at anything — the body runs to the continuation holding
    the inputs' and the output's as they were and the scratch with its pieces written. -/
noncomputable def kernelRun7_A (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) :
    Σ' (L3 : List (View.Piece (Elt F) S1280x153 .bf16)), { LS0 : List (View.Piece (Elt F) S1280x153 .f32) //
      ∀ (xi3 : Vec F S1280x153 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R7RunB.lean ====
import proofs.«421344_j1254130450614_1_alg».proof.Proof.KI.R7Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case B (coordinate 1 is neither 0 nor 39: the accumulator is accumulated into; the output is not
stored): the body's triple on whole memrefs. -/

set_option maxHeartbeats 1000000 in
/-- What the body's stores leave in the output's staging memref (nothing) and in the scratch accumulator, as pieces
    (last first), in case B, with the proof that on whole memrefs — the three inputs' at their contents, the idle
    output's at contents handed back untouched, the scratch at what the point before left — the body runs to the
    continuation holding the inputs' and the output's as they were and the scratch with its pieces written. -/
noncomputable def kernelRun7_B (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) :
    Σ' (L3 : List (View.Piece (Elt F) S1280x153 .bf16)), { LS0 : List (View.Piece (Elt F) S1280x153 .f32) //
      ∀ (xi3 : Vec F S1280x153 .bf16) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.H

end
-- ==== Proof.KI.R7RunC.lean ====
import proofs.«421344_j1254130450614_1_alg».proof.Proof.KI.R7Conds

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7, case C (coordinate 1 is 39: the accumulator is accumulated into, then read, gated and rounded
into the output): the body's triple on whole memrefs. -/

set_option maxHeartbeats 1000000 in
/-- What the body's stores leave in the output's staging memref and in the scratch accumulator, as pieces (last
    first), in case C, with the proof that on whole memrefs — the three inputs' at their contents, the output's at
    anything, the scratch at what the point before left — the body runs to the continuation holding the inputs' as
    they were and the output's and the scratch with their pieces written. -/
noncomputable def kernelRun7_C (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) :
    Σ' (L3 : List (View.Piece (Elt F) S1280x153 .bf16)), { LS0 : List (View.Piece (Elt F) S1280x153 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.H

end
-- ==== Proof.KI.R7.lean ====
import proofs.«421344_j1254130450614_1_alg».proof.Proof.KI.R7RunA
import proofs.«421344_j1254130450614_1_alg».proof.Proof.KI.R7RunB
import proofs.«421344_j1254130450614_1_alg».proof.Proof.KI.R7RunC
import Idealize.ShloMosaic.Lib.Ring

-- membership in a rectangle of the block's extents recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7 (the gather kernel of layer 3): what the output and the scratch accumulator hold per case and point by
point, the proof data, the body obligation at a generic point, and the invariant's two ends. -/

/-! ## What each case leaves -/

/-- Case A stores nothing into the output (idle at its points and not written back there): no pieces, a placeholder
    nothing consults. -/
def out7_A_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) : Vec F S1280x153 .bf16 :=
  VO7_3.read (Elt F) (VO7_3.writes (Elt F) VO7_3.junk (kernelRun7_A c i arg2 harg2 arg3 harg3 arg4 harg4 arg5 harg5 arg6 harg6 hc0 hc1 x0 x1 x2).1)

/-- Case A's pieces for the scratch accumulator (the reset, then the accumulation: two whole-block stores) cover it. -/
theorem scover7_A_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) (y : S1280x153.Idx) :
    ∃ pc ∈ (kernelRun7_A c i arg2 harg2 arg3 harg3 arg4 harg4 arg5 harg5 arg6 harg6 hc0 hc1 x0 x1 x2).2.1, y ∈ pc.1.set :=
  View.cover_of_tiledL (kernelRun7_A c i arg2 harg2 arg3 harg3 arg4 harg4 arg5 harg5 arg6 harg6 hc0 hc1 x0 x1 x2).2.1 S1280x153.size (by sl_kernel_rfl) y

/-- What case A leaves in the scratch accumulator: its pieces read back. -/
def sout7_A_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i)
    (x0 : Vec F S1280x1 .i32) (x1 : Vec F S1280x1 .f32) (x2 : Vec F S2560x153 .f32) : Vec F S1280x153 .f32 :=
  VS7_0.read (Elt F) (VS7_0.writes (Elt F) VS7_0.junk (kernelRun7_A c i arg2 harg2 arg3 harg3 arg4 harg4 arg5 harg5 arg6 harg6 hc0 hc1 x0 x1 x2).2.1)

/-- Case B stores nothing into the output either. -/
def out7_B_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) : Vec F S1280x153 .bf16 :=
  VO7_3.read (Elt F) (VO7_3.writes (Elt F) VO7_3.junk (kernelRun7_B c i arg2 harg2 arg3 harg3 arg4 harg4 arg5 harg5 arg6 harg6 hc0 hc1 x0 x1 x2 xs0).1)

/-- Case B's piece for the scratch accumulator (one whole-block store) covers it. -/
theorem scover7_B_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) (y : S1280x153.Idx) :
    ∃ pc ∈ (kernelRun7_B c i arg2 harg2 arg3 harg3 arg4 harg4 arg5 harg5 arg6 harg6 hc0 hc1 x0 x1 x2 xs0).2.1, y ∈ pc.1.set :=
  View.cover_of_tiledL (kernelRun7_B c i arg2 harg2 arg3 harg3 arg4 harg4 arg5 harg5 arg6 harg6 hc0 hc1 x0 x1 x2 xs0).2.1 S1280x153.size (by sl_kernel_rfl) y

/-- What case B leaves in the scratch accumulator. -/
def sout7_B_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i)
    (x0 : Vec F S1280x1 .i32) (x1 : Vec F S1280x1 .f32) (x2 : Vec F S2560x153 .f32) (xs0 : Vec F S1280x153 .f32) : Vec F S1280x153 .f32 :=
  VS7_0.read (Elt F) (VS7_0.writes (Elt F) VS7_0.junk (kernelRun7_B c i arg2 harg2 arg3 harg3 arg4 harg4 arg5 harg5 arg6 harg6 hc0 hc1 x0 x1 x2 xs0).2.1)

/-- Case C's piece for the output (one whole-block store) covers its block. -/
theorem cover7_C_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) (y : S1280x153.Idx) :
    ∃ pc ∈ (kernelRun7_C c i arg2 harg2 arg3 harg3 arg4 harg4 arg5 harg5 arg6 harg6 hc0 hc1 x0 x1 x2 xs0).1, y ∈ pc.1.set :=
  View.cover_of_tiledL (kernelRun7_C c i arg2 harg2 arg3 harg3 arg4 harg4 arg5 harg5 arg6 harg6 hc0 hc1 x0 x1 x2 xs0).1 S1280x153.size (by sl_kernel_rfl) y

/-- What case C leaves in the output's staging buffer: its piece read back. -/
def out7_C_3 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) : Vec F S1280x153 .bf16 :=
  VO7_3.read (Elt F) (VO7_3.writes (Elt F) VO7_3.junk (kernelRun7_C c i arg2 harg2 arg3 harg3 arg4 harg4 arg5 harg5 arg6 harg6 hc0 hc1 x0 x1 x2 xs0).1)

/-- Case C's piece for the scratch accumulator covers it. -/
theorem scover7_C_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) (y : S1280x153.Idx) :
    ∃ pc ∈ (kernelRun7_C c i arg2 harg2 arg3 harg3 arg4 harg4 arg5 harg5 arg6 harg6 hc0 hc1 x0 x1 x2 xs0).2.1, y ∈ pc.1.set :=
  View.cover_of_tiledL (kernelRun7_C c i arg2 harg2 arg3 harg3 arg4 harg4 arg5 harg5 arg6 harg6 hc0 hc1 x0 x1 x2 xs0).2.1 S1280x153.size (by sl_kernel_rfl) y

/-- What case C leaves in the scratch accumulator. -/
def sout7_C_0 (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i)
    (x0 : Vec F S1280x1 .i32) (x1 : Vec F S1280x1 .f32) (x2 : Vec F S2560x153 .f32) (xs0 : Vec F S1280x153 .f32) : Vec F S1280x153 .f32 :=
  VS7_0.read (Elt F) (VS7_0.writes (Elt F) VS7_0.junk (kernelRun7_C c i arg2 harg2 arg3 harg3 arg4 harg4 arg5 harg5 arg6 harg6 hc0 hc1 x0 x1 x2 xs0).2.1)

/-! ## What the output and the accumulator hold after each point -/

/-- The accumulation. What the output's staging buffer and the scratch accumulator hold after the body at position `n`
    (a pair: the output, then the scratch): the case the point's remainder modulo 40 selects, run at the point's memrefs
    and input blocks, the accumulator it reads at what this leaves at `n - 1`. No point has both remainders 0 and 39. -/
def outsAt7 (c : Dev nD) : (n : ℕ) → n < cfg7.N → Vec F S1280x153 .bf16 × Vec F S1280x153 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 40 = 0 then
      if h1 : (n + 1) % 40 = 39 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 40 = 39 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- `outsAt7` at a point of case A: that case's contents. -/
theorem outsAt7_A (c : Dev nD) (t : Fin cfg7.N) (h0 : t.val % 40 = 0) (h1 : ¬t.val % 40 = 39) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t), sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- `outsAt7` at a point of case B: that case's contents, over what the point before left. -/
theorem outsAt7_B (c : Dev nD) (t : Fin cfg7.N) (h0 : ¬t.val % 40 = 0) (h1 : ¬t.val % 40 = 39) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2, sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt7` at a point of case C: that case's contents, over what the point before left. -/
theorem outsAt7_C (c : Dev nD) (t : Fin cfg7.N) (h0 : ¬t.val % 40 = 0) (h1 : t.val % 40 = 39) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- The other scoped buffers of the program (every one but this call's staging buffers and its scratch), unopened. -/
abbrev rest7 (c : Dev nD) : sProp 𝕄 :=
  Pipeline.scopedRestBut (Ix := Unit) (Name := ℕ) (U := UR sig nD τ) (Lvl := ℕ) (Val := Elt F) spec7 c [cc7_scratch0]

/-- The region invariant before position `n`: before the first point the class's; afterwards the scratch accumulator at
    what the point before left in it, the other scoped buffers unopened, and the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ rest7 c) ∗ (∃ r, prngReg c r))

theorem PhiS7_zero (c : Dev nD) (n : ℕ) (h : n ≤ cfg7.N) (hz : n = 0) : PhiS7 V c n h = Pipeline.ΦA spec7 c := by
  subst hz; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ rest7 c) ∗ (∃ r, prngReg c r)) := rfl

/-- Before a point that is not the first: the accumulator at what the point before left. -/
theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ rest7 c) ∗ (∃ r, prngReg c r)) := by
  cases n with
  | zero => exact absurd rfl hz
  | succ n => rfl

/-! ## The pipeline's proof data -/

/-- The proof data of region 7 on core `c`: the arrays as the region finds them (`V`); after the body at point `t` each
    input's buffer at its block and the output's at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem recorded_eq7 (c : Dev nD) (t : Fin (cfg7.N + 1)) : (dat7 V c).recorded t = Set.univ := by
  dsimp only [dat7]

/-- The invariant at a point's start, restated at the point's number. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

/-- An input's post at any point: the window is never idle, so its buffer at what the body leaves, its block. -/
theorem leaves7_0 (c : Dev nD) (t : Fin cfg7.N) : (dat7 V c).leavesExact 0 t = owns (c : Thread nD τ) (ms7_0 t) fullShare (iblk7 V c 0 t) := by
  unfold Dat.leavesExact; rw [liveAt7_0 t, after7_0]
theorem leaves7_1 (c : Dev nD) (t : Fin cfg7.N) : (dat7 V c).leavesExact 1 t = owns (c : Thread nD τ) (ms7_1 t) fullShare (iblk7 V c 1 t) := by
  unfold Dat.leavesExact; rw [liveAt7_1 t, after7_1]
theorem leaves7_2 (c : Dev nD) (t : Fin cfg7.N) : (dat7 V c).leavesExact 2 t = owns (c : Thread nD τ) (ms7_2 t) fullShare (iblk7 V c 2 t) := by
  unfold Dat.leavesExact; rw [liveAt7_2 t, after7_2]

set_option maxHeartbeats 4800000 in
/-- The body at any point: the inputs' memrefs hold their blocks; the point's remainder modulo 40 says which case it is
    in, so that case's run applies; the invariant hands the body the accumulator at what the point before left (at
    anything at the first point) and takes it back at this point's contents; the other scoped buffers and the generator
    register pass through; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2]
  have hN : t.val < 50000 := N7_lt t
  by_cases h0 : t.val % 40 = 0
  · by_cases h1 : t.val % 40 = 39
    · exfalso; omega
    · rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 40 = 39
    · rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩⟩
      iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_C_3 c _ _ _ _ _ _ _ _ _ _ _ _ _ _ _ _ _)
    · rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      rw [PhiS7_castSucc V c t, PhiS7_pos V c _ _ hz]
      iintro ⟨⟨⟨HS0, Hr⟩, Hg⟩, Ho, ⟨%d0, H0⟩, ⟨%d1, H1⟩, ⟨%d2, H2⟩, ⟨%d3, H3⟩⟩
      iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 50000 := N_7; omega)

end Cert.KernelIdeal.H

end
-- ==== Proof.KI.R8Conds.lean ====
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 8 (the scatter and row-normalisation kernel of layer 3): what its three runs share

The grid is 40 x 1250, the last axis fastest: point `t` has coordinates `(t / 1250 % 40, t % 1250)`. The body
branches on the second coordinate only: at 0 it resets the accumulator, at 1249 it normalises the accumulator into
the output block. Every fact over the 50000 points below is obtained from these two closed forms by arithmetic. -/

/-! ## The staging memrefs at a point and the body as the pipeline calls it -/

/-- The current staging memref of each window at point `t`. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)
abbrev st8_3 (t : Fin cfg8.N) := (cfg8.win 3).stage (cfg8.slots t 3)
abbrev st8_4 (t : Fin cfg8.N) := (cfg8.win 4).stage (cfg8.slots t 4)

/-- The kernel body at point `t`, on the memrefs the pipeline passes it: the five windows' current staging
    memrefs, then the accumulator. -/
abbrev bodyAt8 (t : Fin cfg8.N) : Prog (TpuEff nD τ sig (Elt F) Λ₀ .tc) PUnit :=
  cc8__kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (win8_4.stage (cfg8.slots t 4)) (hstage8_4 ((cfg8.slots t 4).cast nbuf8_4)) (Memref.whole cc8_scratch0) (Memref.isWhole_whole _)

/-- The congruence lemmas of the kernel function and of its skeleton, stated here once: each case's run rewrites
    the function to its skeleton under them, and all three runs share this one pair. -/
theorem congr_simp_realized8 : True := by
  have := @cc8__kernel.congr_simp; have := @cc8__kernel_skel.congr_simp
  trivial

/-! ## The grid's coordinates in closed form -/

/-- The second coordinate of point `t` is `t mod 1250`. -/
theorem coords8_1 (t : Fin cfg8.N) : (grid8.coords t 1).val = t.val % 1250 := by
  show t.val / grid8.stride 1 % 1250 = t.val % 1250
  have : grid8.stride 1 = 1 := by decide
  rw [this, Nat.div_one]

/-- The first coordinate of point `t` is `t / 1250` (below 40 for every point of the grid). -/
theorem coords8_0 (t : Fin cfg8.N) : (grid8.coords t 0).val = t.val / 1250 % 40 := by
  show t.val / grid8.stride 0 % 40 = _
  have : grid8.stride 0 = 1250 := by decide
  rw [this]

/-- The grid has 50000 points. -/
theorem lt_N8 (t : Fin cfg8.N) : t.val < 50000 := lt_of_lt_of_eq t.isLt N_8

/-! ## The body's branch conditions -/

/-- The condition of the body's first conditional: the second coordinate is 0. -/
abbrev cond8_0 (i : grid8.Coords) : Prop := (Scalar.cmpi .ne (Scalar.extui (Scalar.cmpi .eq (BitVec.ofNat 32 (i 1).val) 0#32)) 0#32) = 1#1

/-- On a second coordinate `j < 1250` the 32-bit comparison with 0 is the comparison of naturals. -/
theorem cond8_0_fin : ∀ j : Fin 1250, ((Scalar.cmpi .ne (Scalar.extui (Scalar.cmpi .eq (BitVec.ofNat 32 j.val) 0#32)) 0#32) = 1#1) ↔ j.val = 0 := by
  decide +kernel

/-- It holds at the points ≡ 0 (mod 1250). -/
theorem hcond8_0 : ∀ t : Fin cfg8.N, cond8_0 (grid8.coords t) ↔ t.val % 1250 = 0 := fun t => by
  rw [← coords8_1 t]; exact cond8_0_fin (grid8.coords t 1)

/-- The condition of the body's second conditional: the second coordinate is 1249. -/
abbrev cond8_1 (i : grid8.Coords) : Prop := k8_cond2 i = 1#1

/-- On a second coordinate `j < 1250` the 32-bit comparison with 1249 is the comparison of naturals. -/
theorem cond8_1_fin : ∀ j : Fin 1250, ((Scalar.cmpi .ne (Scalar.extui (Scalar.cmpi .eq (BitVec.ofNat 32 j.val) 1249#32)) 0#32) = 1#1) ↔ j.val = 1249 := by
  decide +kernel

/-- It holds at the points ≡ 1249 (mod 1250). -/
theorem hcond8_1 : ∀ t : Fin cfg8.N, cond8_1 (grid8.coords t) ↔ t.val % 1250 = 1249 := fun t => by
  rw [← coords8_1 t]; exact cond8_1_fin (grid8.coords t 1)

/-! ## Where the windows are idle, and where the output is written back -/

/-- The four inputs are never idle. -/
theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl
theorem liveAt8_3 : ∀ t : Fin cfg8.N, cfg8.idle 3 (grid8.coords t) = false := fun _ => rfl

/-- The output is idle exactly where the second conditional is not taken. -/
theorem idle8_4_eq (i : grid8.Coords) : cfg8.idle 4 i = !(k8_cond2 i == 1#1) := rfl

theorem idle8_4_of_not (i : grid8.Coords) (h : ¬cond8_1 i) : cfg8.idle 4 i = true := by
  rw [idle8_4_eq]; simp only [Bool.not_eq_true', beq_eq_false_iff_ne, ne_eq]; exact h

theorem live8_4_of (i : grid8.Coords) (h : cond8_1 i) : cfg8.idle 4 i = false := by
  rw [idle8_4_eq]; simp only [Bool.not_eq_false', beq_iff_eq]; exact h

/-- At the points of case A the output is idle: the case stores nothing into it. -/
theorem idleAt8_4_A : ∀ t : Fin cfg8.N, cond8_0 (grid8.coords t) → ¬cond8_1 (grid8.coords t) → cfg8.idle 4 (grid8.coords t) = true :=
  fun t _ h => idle8_4_of_not _ h
/-- At the points of case B the output is idle: the case stores nothing into it. -/
theorem idleAt8_4_B : ∀ t : Fin cfg8.N, ¬cond8_0 (grid8.coords t) → ¬cond8_1 (grid8.coords t) → cfg8.idle 4 (grid8.coords t) = true :=
  fun t _ h => idle8_4_of_not _ h
/-- At the points of case C the output is live: the case stores into it. -/
theorem liveAt8_4_C : ∀ t : Fin cfg8.N, ¬cond8_0 (grid8.coords t) → cond8_1 (grid8.coords t) → cfg8.idle 4 (grid8.coords t) = false :=
  fun t _ h => live8_4_of _ h

/-- The output's block index at point `t`. -/
theorem index8_4 (t : Fin cfg8.N) : (cfg8.win 4).index t = cc8_transform_4 (grid8.coords t) := rfl

/-- Away from the points ≡ 1249 (mod 1250) the output's block is not written back: the point is not the last
    (49999 ≡ 1249), and the next point has the same first coordinate, which is all the block index reads. -/
theorem noFlush8_4_of (t : Fin cfg8.N) (h : ¬t.val % 1250 = 1249) : (cfg8.win 4).flush t = false := by
  have hN := lt_N8 t
  unfold Pipeline.Window.flush
  rw [Bool.and_eq_false_iff]; right
  rw [Bool.or_eq_false_iff]; constructor
  · exact decide_eq_false (fun e => by have e' : t.val + 1 = 50000 := e.trans N_8; omega)
  · apply decide_eq_false
    rintro ⟨h', hne⟩; apply hne
    show cc8_transform_4 (grid8.coords ⟨t.val + 1, h'⟩) = cc8_transform_4 (grid8.coords t)
    apply hreads8_4
    intro a ha
    have ha0 : a = 0 := by
      fin_cases a
      · rfl
      · exact absurd ha (by decide)
    subst ha0
    apply Fin.ext
    rw [coords8_0 ⟨t.val + 1, h'⟩, coords8_0 t]; dsimp only; omega

/-- At the points of case A the pipeline does not write the output's block back. -/
theorem noFlush8_4_A : ∀ t : Fin cfg8.N, cond8_0 (grid8.coords t) → ¬cond8_1 (grid8.coords t) → (cfg8.win 4).flush t = false :=
  fun t _ h => noFlush8_4_of t (fun e => h ((hcond8_1 t).mpr e))
/-- At the points of case B the pipeline does not write the output's block back. -/
theorem noFlush8_4_B : ∀ t : Fin cfg8.N, ¬cond8_0 (grid8.coords t) → ¬cond8_1 (grid8.coords t) → (cfg8.win 4).flush t = false :=
  fun t _ h => noFlush8_4_of t (fun e => h ((hcond8_1 t).mpr e))

/-! ## The memrefs the runs are stated over -/

/-- One staging buffer of the output window, through which its contents are stated. -/
abbrev VO8_4 : View sig .tc .vmem S2560x153 .f32 := (Memref.whole cc8_stg4_0 : Memref sig .tc .vmem S2560x153 .f32).view
/-- Each window's current staging memref at point `t`, spelled as the pipeline passes it, and its wholeness. -/
abbrev ms8_0 (t : Fin cfg8.N) : Memref sig .tc .vmem S1x1280 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1280x153 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x153 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x153 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S2560x153 .f32 := win8_4.stage (cfg8.slots t 4)
abbrev hs8_4 (t : Fin cfg8.N) : (ms8_4 t).IsWhole := hstage8_4 ((cfg8.slots t 4).cast nbuf8_4)
/-- The accumulator: a whole scoped buffer of the kernel's own, passed beside the windows. -/
abbrev scM8_0 : Memref sig .tc .vmem S2560x153 .f32 := Memref.whole cc8_scratch0
/-- The accumulator as a view: what it holds between points is stated through it. -/
abbrev VS8_0 : View sig .tc .vmem S2560x153 .f32 := scM8_0.view

/-- The region's entry invariant with the accumulator as a memref owned at some contents; every other scoped
    buffer of the core that is no staging buffer of this region stays unopened beside it. -/
theorem PhiA8_eq (c : Dev nD) :
    (Pipeline.ΦA spec8 c : sProp 𝕄)
      = iprop(iprop((∃ d, owns (c : Thread nD τ) scM8_0 fullShare d) ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not, for any proof
    data whose array is the entry contents and whose body leaves the block in place: where the window is not
    fetched its block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

end Cert.KernelIdeal.H

end
-- ==== Proof.KI.R8RunA.lean ====
import proofs.«421344_j1254130450614_1_alg».proof.Proof.KI.R8Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE A (second coordinate 0: the first conditional taken, the second not). The pieces the body's stores leave
    in the output's staging memref (none: the case stores nothing there) and in the accumulator (the reset, then
    the accumulation over it), WITH the run: on whole memrefs, the four inputs at their contents, the output at
    contents `xi4` handed back untouched, the accumulator at anything, the body runs to the continuation holding
    the inputs and the output as they were and the accumulator with its pieces written. -/
noncomputable def kernelRun8_A (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) :
    Σ' (L4 : List (View.Piece (Elt F) S2560x153 .f32)), { LS0 : List (View.Piece (Elt F) S2560x153 .f32) //
      ∀ (xi4 : Vec F S2560x153 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨[], ?_, fun xi4 E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.H

end
-- ==== Proof.KI.R8RunB.lean ====
import proofs.«421344_j1254130450614_1_alg».proof.Proof.KI.R8Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE B (second coordinate strictly between 0 and 1249: neither conditional taken). The pieces the body's
    stores leave in the output's staging memref (none) and in the accumulator (the accumulation over what the point
    before left), WITH the run: on whole memrefs, the four inputs at their contents, the output at contents `xi4`
    handed back untouched, the accumulator at the contents `xs0` the point before left, the body runs to the
    continuation holding the inputs and the output as they were and the accumulator with its pieces written. -/
noncomputable def kernelRun8_B (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) :
    Σ' (L4 : List (View.Piece (Elt F) S2560x153 .f32)), { LS0 : List (View.Piece (Elt F) S2560x153 .f32) //
      ∀ (xi4 : Vec F S2560x153 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨[], ?_, fun xi4 E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.H

end
-- ==== Proof.KI.R8RunC.lean ====
import proofs.«421344_j1254130450614_1_alg».proof.Proof.KI.R8Conds

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

set_option maxHeartbeats 1000000 in
/-- CASE C (second coordinate 1249: the first conditional not taken, the second taken). The pieces the body's
    stores leave in the output's staging memref (the normalised rows) and in the accumulator (the accumulation over
    what the point before left), WITH the run: on whole memrefs, the four inputs at their contents, the output at
    anything, the accumulator at the contents `xs0` the point before left, the body runs to the continuation
    holding the inputs as they were and the output and the accumulator each with its pieces written. -/
noncomputable def kernelRun8_C (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) :
    Σ' (L4 : List (View.Piece (Elt F) S2560x153 .f32)), { LS0 : List (View.Piece (Elt F) S2560x153 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc8__kernel i arg2 harg2 arg3 harg3 arg4 harg4 arg5 harg5 arg6 harg6 arg7 harg7) K } := by
  refine ⟨?_, ?_, fun E K => ?run⟩
  case run =>
    simp only [cc8__kernel_eq_skeleton]; unfold cc8__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.H

end
-- ==== Proof.KI.R8.lean ====
import proofs.«421344_j1254130450614_1_alg».proof.Proof.KI.R8RunA
import proofs.«421344_j1254130450614_1_alg».proof.Proof.KI.R8RunB
import proofs.«421344_j1254130450614_1_alg».proof.Proof.KI.R8RunC
import Idealize.ShloMosaic.Lib.Ring

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxRecDepth 16384

/-! # Region 8: what the output and the accumulator hold point by point, the proof data, the body obligation -/

/-! ## What each case leaves -/

/-- Case A stores nothing into the output (the window is idle at its points and not written back there): no
    pieces; the contents named here are consulted by nothing. -/
def out8_A_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) : Vec F S2560x153 .f32 :=
  VO8_4.read (Elt F) (VO8_4.writes (Elt F) VO8_4.junk (kernelRun8_A c i arg2 harg2 arg3 harg3 arg4 harg4 arg5 harg5 arg6 harg6 arg7 harg7 hc0 hc1 x0 x1 x2 x3).1)

/-- Case A's pieces for the accumulator cover it: each store writes the whole of it. -/
theorem scover8_A_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) (y : S2560x153.Idx) :
    ∃ pc ∈ (kernelRun8_A c i arg2 harg2 arg3 harg3 arg4 harg4 arg5 harg5 arg6 harg6 arg7 harg7 hc0 hc1 x0 x1 x2 x3).2.1, y ∈ pc.1.set :=
  View.cover_of_tiledL (kernelRun8_A c i arg2 harg2 arg3 harg3 arg4 harg4 arg5 harg5 arg6 harg6 arg7 harg7 hc0 hc1 x0 x1 x2 x3).2.1 S2560x153.size (by sl_kernel_rfl) y

/-- What case A leaves in the accumulator: its pieces read back. -/
def sout8_A_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) : Vec F S2560x153 .f32 :=
  VS8_0.read (Elt F) (VS8_0.writes (Elt F) VS8_0.junk (kernelRun8_A c i arg2 harg2 arg3 harg3 arg4 harg4 arg5 harg5 arg6 harg6 arg7 harg7 hc0 hc1 x0 x1 x2 x3).2.1)

/-- Case B stores nothing into the output either. -/
def out8_B_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VO8_4.read (Elt F) (VO8_4.writes (Elt F) VO8_4.junk (kernelRun8_B c i arg2 harg2 arg3 harg3 arg4 harg4 arg5 harg5 arg6 harg6 arg7 harg7 hc0 hc1 x0 x1 x2 x3 xs0).1)

/-- Case B's piece for the accumulator covers it. -/
theorem scover8_B_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_B c i arg2 harg2 arg3 harg3 arg4 harg4 arg5 harg5 arg6 harg6 arg7 harg7 hc0 hc1 x0 x1 x2 x3 xs0).2.1, y ∈ pc.1.set :=
  View.cover_of_tiledL (kernelRun8_B c i arg2 harg2 arg3 harg3 arg4 harg4 arg5 harg5 arg6 harg6 arg7 harg7 hc0 hc1 x0 x1 x2 x3 xs0).2.1 S2560x153.size (by sl_kernel_rfl) y

/-- What case B leaves in the accumulator. -/
def sout8_B_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VS8_0.read (Elt F) (VS8_0.writes (Elt F) VS8_0.junk (kernelRun8_B c i arg2 harg2 arg3 harg3 arg4 harg4 arg5 harg5 arg6 harg6 arg7 harg7 hc0 hc1 x0 x1 x2 x3 xs0).2.1)

/-- Case C's piece for the output covers its block: one store of the whole block. -/
theorem cover8_C_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_C c i arg2 harg2 arg3 harg3 arg4 harg4 arg5 harg5 arg6 harg6 arg7 harg7 hc0 hc1 x0 x1 x2 x3 xs0).1, y ∈ pc.1.set :=
  View.cover_of_tiledL (kernelRun8_C c i arg2 harg2 arg3 harg3 arg4 harg4 arg5 harg5 arg6 harg6 arg7 harg7 hc0 hc1 x0 x1 x2 x3 xs0).1 S2560x153.size (by sl_kernel_rfl) y

/-- What case C leaves in the output's staging buffer: the normalised rows. -/
def out8_C_4 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VO8_4.read (Elt F) (VO8_4.writes (Elt F) VO8_4.junk (kernelRun8_C c i arg2 harg2 arg3 harg3 arg4 harg4 arg5 harg5 arg6 harg6 arg7 harg7 hc0 hc1 x0 x1 x2 x3 xs0).1)

/-- Case C's piece for the accumulator covers it. -/
theorem scover8_C_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) (y : S2560x153.Idx) :
    ∃ pc ∈ (kernelRun8_C c i arg2 harg2 arg3 harg3 arg4 harg4 arg5 harg5 arg6 harg6 arg7 harg7 hc0 hc1 x0 x1 x2 x3 xs0).2.1, y ∈ pc.1.set :=
  View.cover_of_tiledL (kernelRun8_C c i arg2 harg2 arg3 harg3 arg4 harg4 arg5 harg5 arg6 harg6 arg7 harg7 hc0 hc1 x0 x1 x2 x3 xs0).2.1 S2560x153.size (by sl_kernel_rfl) y

/-- What case C leaves in the accumulator. -/
def sout8_C_0 (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) : Vec F S2560x153 .f32 :=
  VS8_0.read (Elt F) (VS8_0.writes (Elt F) VS8_0.junk (kernelRun8_C c i arg2 harg2 arg3 harg3 arg4 harg4 arg5 harg5 arg6 harg6 arg7 harg7 hc0 hc1 x0 x1 x2 x3 xs0).2.1)

/-! ## What the output and the accumulator hold after each point -/

/-- THE ACCUMULATION. What the output's staging buffer and the accumulator hold after the body at position `n`
    (a pair: the output, then the accumulator): the case the closed forms select at `n`, run at the point's
    memrefs and input blocks, the accumulator taken at what this leaves at `n - 1` in the cases that read it. -/
def outsAt8 (c : Dev nD) : (n : ℕ) → n < cfg8.N → Vec F S2560x153 .f32 × Vec F S2560x153 .f32
  | 0, hn => (out8_A_4 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩))
  | n + 1, hn =>
    if h0 : (n + 1) % 1250 = 0 then
      if h1 : (n + 1) % 1250 = 1249 then
        False.elim (by omega)
      else
        (out8_A_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩))
    else
      if h1 : (n + 1) % 1250 = 1249 then
        (out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)
      else
        (out8_B_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)

/-- `outsAt8` at a point of case A: that case's contents. -/
theorem outsAt8_A (c : Dev nD) (t : Fin cfg8.N) (h0 : t.val % 1250 = 0) (h1 : ¬t.val % 1250 = 1249) :
    outsAt8 V c t.val t.isLt = (out8_A_4 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t)) := by
  obtain ⟨n, hn⟩ := t
  cases n with
  | zero => exact rfl
  | succ n => exact (dif_pos h0).trans ((dif_neg h1).trans rfl)

/-- `outsAt8` at a point of case B: that case's contents, over what the point before left. -/
theorem outsAt8_B (c : Dev nD) (t : Fin cfg8.N) (h0 : ¬t.val % 1250 = 0) (h1 : ¬t.val % 1250 = 1249) :
    outsAt8 V c t.val t.isLt = (out8_B_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt8` at a point of case C: that case's contents, over what the point before left. -/
theorem outsAt8_C (c : Dev nD) (t : Fin cfg8.N) (h0 : ¬t.val % 1250 = 0) (h1 : t.val % 1250 = 1249) :
    outsAt8 V c t.val t.isLt = (out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the entry invariant (the accumulator at
    anything); afterwards the accumulator at what the point before left in it, the other scoped buffers of the
    core unopened, and the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulator at that point's contents. -/
theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut (Ix := Unit) (Name := ℕ) (U := UR sig nD τ) (Lvl := ℕ) (Val := Elt F) spec8 c [cc8_scratch0]) ∗ (∃ r, prngReg c r)) := rfl

/-- Before a point that is not the first: the accumulator at what the point before left. -/
theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of region 8 on core `c`: the arrays as the region finds them; after the body at point `t`
    each input's buffer at its block and the output's at `outsAt8`; the invariant `PhiS8`; nothing owed; full
    shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem recorded_eq8 (c : Dev nD) (t : Fin (cfg8.N + 1)) : (dat8 V c).recorded t = Set.univ := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point. The inputs' memrefs hold their blocks; the closed forms say which case the point is in;
    the invariant hands the body the accumulator at what the point before left (at anything at the first point)
    and takes it back at this point's contents, the other scoped buffers and the generator register passing
    through untouched; an idle output is handed back as found, a stored one at its pieces; nothing is owed. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 50000 := lt_N8 t
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases h0 : t.val % 1250 = 0
  · by_cases h1 : t.val % 1250 = 1249
    · exfalso; omega
    · rw [Dat.leavesExact_idle (dat8 V c) 4 t (idleAt8_4_A t ((hcond8_0 t).mpr h0) (fun h => h1 ((hcond8_1 t).mp h))) (noFlush8_4_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, HR⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 1250 = 1249
    · rw [show (dat8 V c).leavesExact 4 t = owns (c : Thread nD τ) (ms8_4 t) fullShare ((dat8 V c).after 4 t) from by
        unfold Dat.leavesExact; rw [liveAt8_4_C t (fun h => h0 ((hcond8_0 t).mp h)) ((hcond8_1 t).mpr h1)], after8_4]
      rw [outsAt8_C V c t h0 h1]
      unfold out8_C_4 sout8_C_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) (iblk8 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover8_C_4 c _ _ _ _ _ _ _ _ _ _ _ _ _ _ _ _ _ _ _ _)
    · rw [Dat.leavesExact_idle (dat8 V c) 4 t (idleAt8_4_B t (fun h => h0 ((hcond8_0 t).mp h)) (fun h => h1 ((hcond8_1 t).mp h))) (noFlush8_4_B t (fun h => h0 ((hcond8_0 t).mp h)) (fun h => h1 ((hcond8_1 t).mp h)))]
      rw [outsAt8_B V c t h0 h1]
      unfold sout8_B_0; (try dsimp only)
      by_cases hz : t.val = 0
      · exfalso; omega
      · rw [PhiS8_castSucc V c t, PhiS8_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) (iblk8 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover8_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the entry invariant back: the accumulator's named contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, HR⟩, Hg⟩
  isplitl [HS0 HR]
  · isplitl [HS0]
    · iexists _; iexact HS0
    iexact HR
  iexact Hg

/-- The same after the last point. -/
theorem hout8 (c : Dev nD) : (dat8 V c).Φ (Fin.last cfg8.N) ⊢ Pipeline.ΦA spec8 c :=
  Phi_out8 V c _ (by rw [Fin.val_last]; have : cfg8.N = 50000 := N_8; omega)

end Cert.KernelIdeal.H

end
-- ==== Proof.KI.Vals.lean ====
/- The buffer contents of every core at each boundary between @main's 22 items (seven stretches of host operations,
   then the nine kernel regions among six more stretches): a fold from the launch memory. A stretch of host
   operations takes the contents to `StableHlo.after` of its operations; a region leaves each of its arrays at what its
   pipeline's write-backs make of it and every other buffer as it was. Beside the fold: each region's entry contents
   `Vent<K>`, and per item the lemma that reads the fold at a buffer the item writes (`_arr`) or leaves (`_of_ne`, `_keep`). -/
import proofs.«421344_j1254130450614_1_alg».proof.Proof.Gen.KernelIdeal.Launch
import proofs.«421344_j1254130450614_1_alg».proof.Proof.Gen.KernelIdeal.Skeleton
import proofs.«421344_j1254130450614_1_alg».proof.Proof.Gen.KernelIdeal.Regions
import proofs.«421344_j1254130450614_1_alg».proof.Proof.KI.R0
import proofs.«421344_j1254130450614_1_alg».proof.Proof.KI.R1
import proofs.«421344_j1254130450614_1_alg».proof.Proof.KI.R2
import proofs.«421344_j1254130450614_1_alg».proof.Proof.KI.R3
import proofs.«421344_j1254130450614_1_alg».proof.Proof.KI.R4
import proofs.«421344_j1254130450614_1_alg».proof.Proof.KI.R5
import proofs.«421344_j1254130450614_1_alg».proof.Proof.KI.R6
import proofs.«421344_j1254130450614_1_alg».proof.Proof.KI.R7
import proofs.«421344_j1254130450614_1_alg».proof.Proof.KI.R8
import Idealize.ShloMosaic.Lib.Pipeline.FrameBody
import Idealize.ShloMosaic.Lib.Pipeline.Regions
import Idealize.ShloMosaic.Lib.Pipeline.FrameSuffix
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main's 22 items: a fold from the launch memory -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After item 0, the host operations `hostOps0`. -/
abbrev W1 : Dev nD → Valuation τ sig (Elt F) := fun c => StableHlo.after hostOps0 (W0 m ρ c)
/-- A buffer none of `hostOps0`'s operations writes is as before them. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, the host operations `hostOps0_1`. -/
abbrev W2 : Dev nD → Valuation τ sig (Elt F) := fun c => StableHlo.after hostOps0_1 (W1 m ρ c)
/-- A buffer none of `hostOps0_1`'s operations writes is as before them. -/
theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After item 2, the host operations `hostOps0_2`. -/
abbrev W3 : Dev nD → Valuation τ sig (Elt F) := fun c => StableHlo.after hostOps0_2 (W2 m ρ c)
/-- A buffer none of `hostOps0_2`'s operations writes is as before them. -/
theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After item 3, the host operations `hostOps0_3`. -/
abbrev W4 : Dev nD → Valuation τ sig (Elt F) := fun c => StableHlo.after hostOps0_3 (W3 m ρ c)
/-- A buffer none of `hostOps0_3`'s operations writes is as before them. -/
theorem W4_keep (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- After item 4, the host operations `hostOps0_4`. -/
abbrev W5 : Dev nD → Valuation τ sig (Elt F) := fun c => StableHlo.after hostOps0_4 (W4 m ρ c)
/-- A buffer none of `hostOps0_4`'s operations writes is as before them. -/
theorem W5_keep (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

/-- After item 5, the host operations `hostOps0_5`. -/
abbrev W6 : Dev nD → Valuation τ sig (Elt F) := fun c => StableHlo.after hostOps0_5 (W5 m ρ c)
/-- A buffer none of `hostOps0_5`'s operations writes is as before them. -/
theorem W6_keep (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

/-- After item 6, the host operations `hostOps0_6`. -/
abbrev W7 : Dev nD → Valuation τ sig (Elt F) := fun c => StableHlo.after hostOps0_6 (W6 m ρ c)
/-- A buffer none of `hostOps0_6`'s operations writes is as before them. -/
theorem W7_keep (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- Region 0's entry contents, read at the TensorCore's references (what its proof data take). -/
abbrev Vent0 : (c : Dev nD) → (b : Ref sig .tc) → Buf (Elt F) ((c : Thread nD τ).loc b) := fun c b => W7 m ρ c (Proc.devRef .tc b)
/-- After item 7, region 0: its arrays at what the pipeline leaves (an input as entered, the output's write-backs
    folded), every other buffer as entered. -/
def W8 (c : Dev nD) : Valuation τ sig (Elt F) :=
  Pipeline.withArrays spec0 c (W7 m ρ c) fun w => (dat0 (Vent0 m ρ) c).arrAt w cfg0.N
theorem W8_arr (c : Dev nD) (w : Fin cfg0.W) :
    W8 m ρ c (Proc.devRef .tc (Pipeline.arrRef spec0 w)) = (dat0 (Vent0 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- Region 0's exit contents, read at the TensorCore's references. -/
abbrev Vex0 : (c : Dev nD) → (b : Ref sig .tc) → Buf (Elt F) ((c : Thread nD τ).loc b) := fun c b => W8 m ρ c (Proc.devRef .tc b)
/-- At region 0's exit each of its arrays holds what the pipeline leaves, and every other buffer what it held at entry. -/
theorem hF0 (c : Dev nD) (w : Fin cfg0.W) : (dat0 (Vent0 m ρ) c).arrAt w cfg0.N = Vex0 m ρ c (Pipeline.arrRef spec0 w) :=
  (W8_arr m ρ c w).symm
theorem hrest0 (c : Dev nD) : ∀ b, b ∉ Finset.univ.image (Pipeline.arrRef spec0) → Vex0 m ρ c b = Vent0 m ρ c b :=
  fun b hb => W8_of_ne m ρ c b fun w e => hb (Finset.mem_image.mpr ⟨w, Finset.mem_univ _, e⟩)

/-- Region 1's entry contents, read at the TensorCore's references (what its proof data take). -/
abbrev Vent1 : (c : Dev nD) → (b : Ref sig .tc) → Buf (Elt F) ((c : Thread nD τ).loc b) := fun c b => W8 m ρ c (Proc.devRef .tc b)
/-- After item 8, region 1: its arrays at what the pipeline leaves (an input as entered, the output's write-backs
    folded), every other buffer as entered. -/
def W9 (c : Dev nD) : Valuation τ sig (Elt F) :=
  Pipeline.withArrays spec1 c (W8 m ρ c) fun w => (dat1 (Vent1 m ρ) c).arrAt w cfg1.N
theorem W9_arr (c : Dev nD) (w : Fin cfg1.W) :
    W9 m ρ c (Proc.devRef .tc (Pipeline.arrRef spec1 w)) = (dat1 (Vent1 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
/-- Region 1's exit contents, read at the TensorCore's references. -/
abbrev Vex1 : (c : Dev nD) → (b : Ref sig .tc) → Buf (Elt F) ((c : Thread nD τ).loc b) := fun c b => W9 m ρ c (Proc.devRef .tc b)
/-- At region 1's exit each of its arrays holds what the pipeline leaves, and every other buffer what it held at entry. -/
theorem hF1 (c : Dev nD) (w : Fin cfg1.W) : (dat1 (Vent1 m ρ) c).arrAt w cfg1.N = Vex1 m ρ c (Pipeline.arrRef spec1 w) :=
  (W9_arr m ρ c w).symm
theorem hrest1 (c : Dev nD) : ∀ b, b ∉ Finset.univ.image (Pipeline.arrRef spec1) → Vex1 m ρ c b = Vent1 m ρ c b :=
  fun b hb => W9_of_ne m ρ c b fun w e => hb (Finset.mem_image.mpr ⟨w, Finset.mem_univ _, e⟩)

/-- After item 9, the host operations `hostOps2`. -/
abbrev W10 : Dev nD → Valuation τ sig (Elt F) := fun c => StableHlo.after hostOps2 (W9 m ρ c)
/-- A buffer none of `hostOps2`'s operations writes is as before them. -/
theorem W10_keep (c : Dev nD) (r : Ref sig .tc) (h : r ∉ hostOps2_W) :
    W10 m ρ c (Proc.devRef .tc r) = W9 m ρ c (Proc.devRef .tc r) :=
  StableHlo.after_of_writes_sub hostOps2 _ hostOps2_writes h

/-- Region 2's entry contents, read at the TensorCore's references (what its proof data take). -/
abbrev Vent2 : (c : Dev nD) → (b : Ref sig .tc) → Buf (Elt F) ((c : Thread nD τ).loc b) := fun c b => W10 m ρ c (Proc.devRef .tc b)
/-- After item 10, region 2: its arrays at what the pipeline leaves (an input as entered, the output's write-backs
    folded), every other buffer as entered. -/
def W11 (c : Dev nD) : Valuation τ sig (Elt F) :=
  Pipeline.withArrays spec2 c (W10 m ρ c) fun w => (dat2 (Vent2 m ρ) c).arrAt w cfg2.N
theorem W11_arr (c : Dev nD) (w : Fin cfg2.W) :
    W11 m ρ c (Proc.devRef .tc (Pipeline.arrRef spec2 w)) = (dat2 (Vent2 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- Region 2's exit contents, read at the TensorCore's references. -/
abbrev Vex2 : (c : Dev nD) → (b : Ref sig .tc) → Buf (Elt F) ((c : Thread nD τ).loc b) := fun c b => W11 m ρ c (Proc.devRef .tc b)
/-- At region 2's exit each of its arrays holds what the pipeline leaves, and every other buffer what it held at entry. -/
theorem hF2 (c : Dev nD) (w : Fin cfg2.W) : (dat2 (Vent2 m ρ) c).arrAt w cfg2.N = Vex2 m ρ c (Pipeline.arrRef spec2 w) :=
  (W11_arr m ρ c w).symm
theorem hrest2 (c : Dev nD) : ∀ b, b ∉ Finset.univ.image (Pipeline.arrRef spec2) → Vex2 m ρ c b = Vent2 m ρ c b :=
  fun b hb => W11_of_ne m ρ c b fun w e => hb (Finset.mem_image.mpr ⟨w, Finset.mem_univ _, e⟩)

/-- After item 11, the host operations `hostOps3`. -/
abbrev W12 : Dev nD → Valuation τ sig (Elt F) := fun c => StableHlo.after hostOps3 (W11 m ρ c)
/-- A buffer none of `hostOps3`'s operations writes is as before them. -/
theorem W12_keep (c : Dev nD) (r : Ref sig .tc) (h : r ∉ hostOps3_W) :
    W12 m ρ c (Proc.devRef .tc r) = W11 m ρ c (Proc.devRef .tc r) :=
  StableHlo.after_of_writes_sub hostOps3 _ hostOps3_writes h

/-- Region 3's entry contents, read at the TensorCore's references (what its proof data take). -/
abbrev Vent3 : (c : Dev nD) → (b : Ref sig .tc) → Buf (Elt F) ((c : Thread nD τ).loc b) := fun c b => W12 m ρ c (Proc.devRef .tc b)
/-- After item 12, region 3: its arrays at what the pipeline leaves (an input as entered, the output's write-backs
    folded), every other buffer as entered. -/
def W13 (c : Dev nD) : Valuation τ sig (Elt F) :=
  Pipeline.withArrays spec3 c (W12 m ρ c) fun w => (dat3 (Vent3 m ρ) c).arrAt w cfg3.N
theorem W13_arr (c : Dev nD) (w : Fin cfg3.W) :
    W13 m ρ c (Proc.devRef .tc (Pipeline.arrRef spec3 w)) = (dat3 (Vent3 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
/-- Region 3's exit contents, read at the TensorCore's references. -/
abbrev Vex3 : (c : Dev nD) → (b : Ref sig .tc) → Buf (Elt F) ((c : Thread nD τ).loc b) := fun c b => W13 m ρ c (Proc.devRef .tc b)
/-- At region 3's exit each of its arrays holds what the pipeline leaves, and every other buffer what it held at entry. -/
theorem hF3 (c : Dev nD) (w : Fin cfg3.W) : (dat3 (Vent3 m ρ) c).arrAt w cfg3.N = Vex3 m ρ c (Pipeline.arrRef spec3 w) :=
  (W13_arr m ρ c w).symm
theorem hrest3 (c : Dev nD) : ∀ b, b ∉ Finset.univ.image (Pipeline.arrRef spec3) → Vex3 m ρ c b = Vent3 m ρ c b :=
  fun b hb => W13_of_ne m ρ c b fun w e => hb (Finset.mem_image.mpr ⟨w, Finset.mem_univ _, e⟩)

/-- Region 4's entry contents, read at the TensorCore's references (what its proof data take). -/
abbrev Vent4 : (c : Dev nD) → (b : Ref sig .tc) → Buf (Elt F) ((c : Thread nD τ).loc b) := fun c b => W13 m ρ c (Proc.devRef .tc b)
/-- After item 13, region 4: its arrays at what the pipeline leaves (an input as entered, the output's write-backs
    folded), every other buffer as entered. -/
def W14 (c : Dev nD) : Valuation τ sig (Elt F) :=
  Pipeline.withArrays spec4 c (W13 m ρ c) fun w => (dat4 (Vent4 m ρ) c).arrAt w cfg4.N
theorem W14_arr (c : Dev nD) (w : Fin cfg4.W) :
    W14 m ρ c (Proc.devRef .tc (Pipeline.arrRef spec4 w)) = (dat4 (Vent4 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- Region 4's exit contents, read at the TensorCore's references. -/
abbrev Vex4 : (c : Dev nD) → (b : Ref sig .tc) → Buf (Elt F) ((c : Thread nD τ).loc b) := fun c b => W14 m ρ c (Proc.devRef .tc b)
/-- At region 4's exit each of its arrays holds what the pipeline leaves, and every other buffer what it held at entry. -/
theorem hF4 (c : Dev nD) (w : Fin cfg4.W) : (dat4 (Vent4 m ρ) c).arrAt w cfg4.N = Vex4 m ρ c (Pipeline.arrRef spec4 w) :=
  (W14_arr m ρ c w).symm
theorem hrest4 (c : Dev nD) : ∀ b, b ∉ Finset.univ.image (Pipeline.arrRef spec4) → Vex4 m ρ c b = Vent4 m ρ c b :=
  fun b hb => W14_of_ne m ρ c b fun w e => hb (Finset.mem_image.mpr ⟨w, Finset.mem_univ _, e⟩)

/-- After item 14, the host operations `hostOps5`. -/
abbrev W15 : Dev nD → Valuation τ sig (Elt F) := fun c => StableHlo.after hostOps5 (W14 m ρ c)
/-- A buffer none of `hostOps5`'s operations writes is as before them. -/
theorem W15_keep (c : Dev nD) (r : Ref sig .tc) (h : r ∉ hostOps5_W) :
    W15 m ρ c (Proc.devRef .tc r) = W14 m ρ c (Proc.devRef .tc r) :=
  StableHlo.after_of_writes_sub hostOps5 _ hostOps5_writes h

/-- Region 5's entry contents, read at the TensorCore's references (what its proof data take). -/
abbrev Vent5 : (c : Dev nD) → (b : Ref sig .tc) → Buf (Elt F) ((c : Thread nD τ).loc b) := fun c b => W15 m ρ c (Proc.devRef .tc b)
/-- After item 15, region 5: its arrays at what the pipeline leaves (an input as entered, the output's write-backs
    folded), every other buffer as entered. -/
def W16 (c : Dev nD) : Valuation τ sig (Elt F) :=
  Pipeline.withArrays spec5 c (W15 m ρ c) fun w => (dat5 (Vent5 m ρ) c).arrAt w cfg5.N
theorem W16_arr (c : Dev nD) (w : Fin cfg5.W) :
    W16 m ρ c (Proc.devRef .tc (Pipeline.arrRef spec5 w)) = (dat5 (Vent5 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- Region 5's exit contents, read at the TensorCore's references. -/
abbrev Vex5 : (c : Dev nD) → (b : Ref sig .tc) → Buf (Elt F) ((c : Thread nD τ).loc b) := fun c b => W16 m ρ c (Proc.devRef .tc b)
/-- At region 5's exit each of its arrays holds what the pipeline leaves, and every other buffer what it held at entry. -/
theorem hF5 (c : Dev nD) (w : Fin cfg5.W) : (dat5 (Vent5 m ρ) c).arrAt w cfg5.N = Vex5 m ρ c (Pipeline.arrRef spec5 w) :=
  (W16_arr m ρ c w).symm
theorem hrest5 (c : Dev nD) : ∀ b, b ∉ Finset.univ.image (Pipeline.arrRef spec5) → Vex5 m ρ c b = Vent5 m ρ c b :=
  fun b hb => W16_of_ne m ρ c b fun w e => hb (Finset.mem_image.mpr ⟨w, Finset.mem_univ _, e⟩)

/-- After item 16, the host operations `hostOps6`. -/
abbrev W17 : Dev nD → Valuation τ sig (Elt F) := fun c => StableHlo.after hostOps6 (W16 m ρ c)
/-- A buffer none of `hostOps6`'s operations writes is as before them. -/
theorem W17_keep (c : Dev nD) (r : Ref sig .tc) (h : r ∉ hostOps6_W) :
    W17 m ρ c (Proc.devRef .tc r) = W16 m ρ c (Proc.devRef .tc r) :=
  StableHlo.after_of_writes_sub hostOps6 _ hostOps6_writes h

/-- Region 6's entry contents, read at the TensorCore's references (what its proof data take). -/
abbrev Vent6 : (c : Dev nD) → (b : Ref sig .tc) → Buf (Elt F) ((c : Thread nD τ).loc b) := fun c b => W17 m ρ c (Proc.devRef .tc b)
/-- After item 17, region 6: its arrays at what the pipeline leaves (an input as entered, the output's write-backs
    folded), every other buffer as entered. -/
def W18 (c : Dev nD) : Valuation τ sig (Elt F) :=
  Pipeline.withArrays spec6 c (W17 m ρ c) fun w => (dat6 (Vent6 m ρ) c).arrAt w cfg6.N
theorem W18_arr (c : Dev nD) (w : Fin cfg6.W) :
    W18 m ρ c (Proc.devRef .tc (Pipeline.arrRef spec6 w)) = (dat6 (Vent6 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- Region 6's exit contents, read at the TensorCore's references. -/
abbrev Vex6 : (c : Dev nD) → (b : Ref sig .tc) → Buf (Elt F) ((c : Thread nD τ).loc b) := fun c b => W18 m ρ c (Proc.devRef .tc b)
/-- At region 6's exit each of its arrays holds what the pipeline leaves, and every other buffer what it held at entry. -/
theorem hF6 (c : Dev nD) (w : Fin cfg6.W) : (dat6 (Vent6 m ρ) c).arrAt w cfg6.N = Vex6 m ρ c (Pipeline.arrRef spec6 w) :=
  (W18_arr m ρ c w).symm
theorem hrest6 (c : Dev nD) : ∀ b, b ∉ Finset.univ.image (Pipeline.arrRef spec6) → Vex6 m ρ c b = Vent6 m ρ c b :=
  fun b hb => W18_of_ne m ρ c b fun w e => hb (Finset.mem_image.mpr ⟨w, Finset.mem_univ _, e⟩)

/-- Region 7's entry contents, read at the TensorCore's references (what its proof data take). -/
abbrev Vent7 : (c : Dev nD) → (b : Ref sig .tc) → Buf (Elt F) ((c : Thread nD τ).loc b) := fun c b => W18 m ρ c (Proc.devRef .tc b)
/-- After item 18, region 7: its arrays at what the pipeline leaves (an input as entered, the output's write-backs
    folded), every other buffer as entered. -/
def W19 (c : Dev nD) : Valuation τ sig (Elt F) :=
  Pipeline.withArrays spec7 c (W18 m ρ c) fun w => (dat7 (Vent7 m ρ) c).arrAt w cfg7.N
theorem W19_arr (c : Dev nD) (w : Fin cfg7.W) :
    W19 m ρ c (Proc.devRef .tc (Pipeline.arrRef spec7 w)) = (dat7 (Vent7 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
/-- Region 7's exit contents, read at the TensorCore's references. -/
abbrev Vex7 : (c : Dev nD) → (b : Ref sig .tc) → Buf (Elt F) ((c : Thread nD τ).loc b) := fun c b => W19 m ρ c (Proc.devRef .tc b)
/-- At region 7's exit each of its arrays holds what the pipeline leaves, and every other buffer what it held at entry. -/
theorem hF7 (c : Dev nD) (w : Fin cfg7.W) : (dat7 (Vent7 m ρ) c).arrAt w cfg7.N = Vex7 m ρ c (Pipeline.arrRef spec7 w) :=
  (W19_arr m ρ c w).symm
theorem hrest7 (c : Dev nD) : ∀ b, b ∉ Finset.univ.image (Pipeline.arrRef spec7) → Vex7 m ρ c b = Vent7 m ρ c b :=
  fun b hb => W19_of_ne m ρ c b fun w e => hb (Finset.mem_image.mpr ⟨w, Finset.mem_univ _, e⟩)

/-- After item 19, the host operations `hostOps8`. -/
abbrev W20 : Dev nD → Valuation τ sig (Elt F) := fun c => StableHlo.after hostOps8 (W19 m ρ c)
/-- A buffer none of `hostOps8`'s operations writes is as before them. -/
theorem W20_keep (c : Dev nD) (r : Ref sig .tc) (h : r ∉ hostOps8_W) :
    W20 m ρ c (Proc.devRef .tc r) = W19 m ρ c (Proc.devRef .tc r) :=
  StableHlo.after_of_writes_sub hostOps8 _ hostOps8_writes h

/-- Region 8's entry contents, read at the TensorCore's references (what its proof data take). -/
abbrev Vent8 : (c : Dev nD) → (b : Ref sig .tc) → Buf (Elt F) ((c : Thread nD τ).loc b) := fun c b => W20 m ρ c (Proc.devRef .tc b)
/-- After item 20, region 8: its arrays at what the pipeline leaves (an input as entered, the output's write-backs
    folded), every other buffer as entered. -/
def W21 (c : Dev nD) : Valuation τ sig (Elt F) :=
  Pipeline.withArrays spec8 c (W20 m ρ c) fun w => (dat8 (Vent8 m ρ) c).arrAt w cfg8.N
theorem W21_arr (c : Dev nD) (w : Fin cfg8.W) :
    W21 m ρ c (Proc.devRef .tc (Pipeline.arrRef spec8 w)) = (dat8 (Vent8 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
/-- Region 8's exit contents, read at the TensorCore's references. -/
abbrev Vex8 : (c : Dev nD) → (b : Ref sig .tc) → Buf (Elt F) ((c : Thread nD τ).loc b) := fun c b => W21 m ρ c (Proc.devRef .tc b)
/-- At region 8's exit each of its arrays holds what the pipeline leaves, and every other buffer what it held at entry. -/
theorem hF8 (c : Dev nD) (w : Fin cfg8.W) : (dat8 (Vent8 m ρ) c).arrAt w cfg8.N = Vex8 m ρ c (Pipeline.arrRef spec8 w) :=
  (W21_arr m ρ c w).symm
theorem hrest8 (c : Dev nD) : ∀ b, b ∉ Finset.univ.image (Pipeline.arrRef spec8) → Vex8 m ρ c b = Vent8 m ρ c b :=
  fun b hb => W21_of_ne m ρ c b fun w e => hb (Finset.mem_image.mpr ⟨w, Finset.mem_univ _, e⟩)

/-- After item 21, the host operations `hostOps9`. -/
abbrev W22 : Dev nD → Valuation τ sig (Elt F) := fun c => StableHlo.after hostOps9 (W21 m ρ c)
/-- A buffer none of `hostOps9`'s operations writes is as before them. -/
theorem W22_keep (c : Dev nD) (r : Ref sig .tc) (h : r ∉ hostOps9_W) :
    W22 m ρ c (Proc.devRef .tc r) = W21 m ρ c (Proc.devRef .tc r) :=
  StableHlo.after_of_writes_sub hostOps9 _ hostOps9_writes h

end Cert.KernelIdeal.H

end
-- ==== Proof.KI.Asm.lean ====
/- THE ASSEMBLY of @main's nine kernel regions and thirteen stretches of host operations into one run: each argument
   array read back through the fold of boundary contents to the launch memory, every pipeline's proof data at its
   region's entry contents, a segment per item over the thread state "every unscoped buffer at the boundary's contents,
   the generator register at some state, nothing owed", and the run of @main from any memory with zero counters:
   it terminates, the result buffer ends at the last boundary's contents, the arguments end as launched. -/
import proofs.«421344_j1254130450614_1_alg».proof.Proof.KI.Vals
import Idealize.ShloMosaic.Lib.Pipeline.RegionsLoop

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation writes one and no region has one among its arrays, so the
    fold at an argument's buffer walks back to the launch memory -/

theorem W22_main_arg0 (c : Dev nD) : W22 m ρ c (Proc.devRef .tc main_arg0) = m ((c : Thread nD τ).loc main_arg0) :=
  (W22_keep m ρ c main_arg0 (by decide)).trans <|
    (W21_of_ne m ρ c main_arg0 (by decide)).trans <|
    (W20_keep m ρ c main_arg0 (by decide)).trans <|
    (W19_of_ne m ρ c main_arg0 (by decide)).trans <|
    (W18_of_ne m ρ c main_arg0 (by decide)).trans <|
    (W17_keep m ρ c main_arg0 (by decide)).trans <|
    (W16_of_ne m ρ c main_arg0 (by decide)).trans <|
    (W15_keep m ρ c main_arg0 (by decide)).trans <|
    (W14_of_ne m ρ c main_arg0 (by decide)).trans <|
    (W13_of_ne m ρ c main_arg0 (by decide)).trans <|
    (W12_keep m ρ c main_arg0 (by decide)).trans <|
    (W11_of_ne m ρ c main_arg0 (by decide)).trans <|
    (W10_keep m ρ c main_arg0 (by decide)).trans <|
    (W9_of_ne m ρ c main_arg0 (by decide)).trans <|
    (W8_of_ne m ρ c main_arg0 (by decide)).trans <|
    (W7_keep m ρ c main_arg0 (by decide)).trans <|
    (W6_keep m ρ c main_arg0 (by decide)).trans <|
    (W5_keep m ρ c main_arg0 (by decide)).trans <|
    (W4_keep m ρ c main_arg0 (by decide)).trans <|
    (W3_keep m ρ c main_arg0 (by decide)).trans <|
    (W2_keep m ρ c main_arg0 (by decide)).trans <|
    (W1_keep m ρ c main_arg0 (by decide)).trans <| rfl

theorem W22_main_arg1 (c : Dev nD) : W22 m ρ c (Proc.devRef .tc main_arg1) = m ((c : Thread nD τ).loc main_arg1) :=
  (W22_keep m ρ c main_arg1 (by decide)).trans <|
    (W21_of_ne m ρ c main_arg1 (by decide)).trans <|
    (W20_keep m ρ c main_arg1 (by decide)).trans <|
    (W19_of_ne m ρ c main_arg1 (by decide)).trans <|
    (W18_of_ne m ρ c main_arg1 (by decide)).trans <|
    (W17_keep m ρ c main_arg1 (by decide)).trans <|
    (W16_of_ne m ρ c main_arg1 (by decide)).trans <|
    (W15_keep m ρ c main_arg1 (by decide)).trans <|
    (W14_of_ne m ρ c main_arg1 (by decide)).trans <|
    (W13_of_ne m ρ c main_arg1 (by decide)).trans <|
    (W12_keep m ρ c main_arg1 (by decide)).trans <|
    (W11_of_ne m ρ c main_arg1 (by decide)).trans <|
    (W10_keep m ρ c main_arg1 (by decide)).trans <|
    (W9_of_ne m ρ c main_arg1 (by decide)).trans <|
    (W8_of_ne m ρ c main_arg1 (by decide)).trans <|
    (W7_keep m ρ c main_arg1 (by decide)).trans <|
    (W6_keep m ρ c main_arg1 (by decide)).trans <|
    (W5_keep m ρ c main_arg1 (by decide)).trans <|
    (W4_keep m ρ c main_arg1 (by decide)).trans <|
    (W3_keep m ρ c main_arg1 (by decide)).trans <|
    (W2_keep m ρ c main_arg1 (by decide)).trans <|
    (W1_keep m ρ c main_arg1 (by decide)).trans <| rfl

theorem W22_main_arg2 (c : Dev nD) : W22 m ρ c (Proc.devRef .tc main_arg2) = m ((c : Thread nD τ).loc main_arg2) :=
  (W22_keep m ρ c main_arg2 (by decide)).trans <|
    (W21_of_ne m ρ c main_arg2 (by decide)).trans <|
    (W20_keep m ρ c main_arg2 (by decide)).trans <|
    (W19_of_ne m ρ c main_arg2 (by decide)).trans <|
    (W18_of_ne m ρ c main_arg2 (by decide)).trans <|
    (W17_keep m ρ c main_arg2 (by decide)).trans <|
    (W16_of_ne m ρ c main_arg2 (by decide)).trans <|
    (W15_keep m ρ c main_arg2 (by decide)).trans <|
    (W14_of_ne m ρ c main_arg2 (by decide)).trans <|
    (W13_of_ne m ρ c main_arg2 (by decide)).trans <|
    (W12_keep m ρ c main_arg2 (by decide)).trans <|
    (W11_of_ne m ρ c main_arg2 (by decide)).trans <|
    (W10_keep m ρ c main_arg2 (by decide)).trans <|
    (W9_of_ne m ρ c main_arg2 (by decide)).trans <|
    (W8_of_ne m ρ c main_arg2 (by decide)).trans <|
    (W7_keep m ρ c main_arg2 (by decide)).trans <|
    (W6_keep m ρ c main_arg2 (by decide)).trans <|
    (W5_keep m ρ c main_arg2 (by decide)).trans <|
    (W4_keep m ρ c main_arg2 (by decide)).trans <|
    (W3_keep m ρ c main_arg2 (by decide)).trans <|
    (W2_keep m ρ c main_arg2 (by decide)).trans <|
    (W1_keep m ρ c main_arg2 (by decide)).trans <| rfl

theorem W22_main_arg3 (c : Dev nD) : W22 m ρ c (Proc.devRef .tc main_arg3) = m ((c : Thread nD τ).loc main_arg3) :=
  (W22_keep m ρ c main_arg3 (by decide)).trans <|
    (W21_of_ne m ρ c main_arg3 (by decide)).trans <|
    (W20_keep m ρ c main_arg3 (by decide)).trans <|
    (W19_of_ne m ρ c main_arg3 (by decide)).trans <|
    (W18_of_ne m ρ c main_arg3 (by decide)).trans <|
    (W17_keep m ρ c main_arg3 (by decide)).trans <|
    (W16_of_ne m ρ c main_arg3 (by decide)).trans <|
    (W15_keep m ρ c main_arg3 (by decide)).trans <|
    (W14_of_ne m ρ c main_arg3 (by decide)).trans <|
    (W13_of_ne m ρ c main_arg3 (by decide)).trans <|
    (W12_keep m ρ c main_arg3 (by decide)).trans <|
    (W11_of_ne m ρ c main_arg3 (by decide)).trans <|
    (W10_keep m ρ c main_arg3 (by decide)).trans <|
    (W9_of_ne m ρ c main_arg3 (by decide)).trans <|
    (W8_of_ne m ρ c main_arg3 (by decide)).trans <|
    (W7_keep m ρ c main_arg3 (by decide)).trans <|
    (W6_keep m ρ c main_arg3 (by decide)).trans <|
    (W5_keep m ρ c main_arg3 (by decide)).trans <|
    (W4_keep m ρ c main_arg3 (by decide)).trans <|
    (W3_keep m ρ c main_arg3 (by decide)).trans <|
    (W2_keep m ρ c main_arg3 (by decide)).trans <|
    (W1_keep m ρ c main_arg3 (by decide)).trans <| rfl

theorem W22_main_arg4 (c : Dev nD) : W22 m ρ c (Proc.devRef .tc main_arg4) = m ((c : Thread nD τ).loc main_arg4) :=
  (W22_keep m ρ c main_arg4 (by decide)).trans <|
    (W21_of_ne m ρ c main_arg4 (by decide)).trans <|
    (W20_keep m ρ c main_arg4 (by decide)).trans <|
    (W19_of_ne m ρ c main_arg4 (by decide)).trans <|
    (W18_of_ne m ρ c main_arg4 (by decide)).trans <|
    (W17_keep m ρ c main_arg4 (by decide)).trans <|
    (W16_of_ne m ρ c main_arg4 (by decide)).trans <|
    (W15_keep m ρ c main_arg4 (by decide)).trans <|
    (W14_of_ne m ρ c main_arg4 (by decide)).trans <|
    (W13_of_ne m ρ c main_arg4 (by decide)).trans <|
    (W12_keep m ρ c main_arg4 (by decide)).trans <|
    (W11_of_ne m ρ c main_arg4 (by decide)).trans <|
    (W10_keep m ρ c main_arg4 (by decide)).trans <|
    (W9_of_ne m ρ c main_arg4 (by decide)).trans <|
    (W8_of_ne m ρ c main_arg4 (by decide)).trans <|
    (W7_keep m ρ c main_arg4 (by decide)).trans <|
    (W6_keep m ρ c main_arg4 (by decide)).trans <|
    (W5_keep m ρ c main_arg4 (by decide)).trans <|
    (W4_keep m ρ c main_arg4 (by decide)).trans <|
    (W3_keep m ρ c main_arg4 (by decide)).trans <|
    (W2_keep m ρ c main_arg4 (by decide)).trans <|
    (W1_keep m ρ c main_arg4 (by decide)).trans <| rfl

theorem W22_main_arg5 (c : Dev nD) : W22 m ρ c (Proc.devRef .tc main_arg5) = m ((c : Thread nD τ).loc main_arg5) :=
  (W22_keep m ρ c main_arg5 (by decide)).trans <|
    (W21_of_ne m ρ c main_arg5 (by decide)).trans <|
    (W20_keep m ρ c main_arg5 (by decide)).trans <|
    (W19_of_ne m ρ c main_arg5 (by decide)).trans <|
    (W18_of_ne m ρ c main_arg5 (by decide)).trans <|
    (W17_keep m ρ c main_arg5 (by decide)).trans <|
    (W16_of_ne m ρ c main_arg5 (by decide)).trans <|
    (W15_keep m ρ c main_arg5 (by decide)).trans <|
    (W14_of_ne m ρ c main_arg5 (by decide)).trans <|
    (W13_of_ne m ρ c main_arg5 (by decide)).trans <|
    (W12_keep m ρ c main_arg5 (by decide)).trans <|
    (W11_of_ne m ρ c main_arg5 (by decide)).trans <|
    (W10_keep m ρ c main_arg5 (by decide)).trans <|
    (W9_of_ne m ρ c main_arg5 (by decide)).trans <|
    (W8_of_ne m ρ c main_arg5 (by decide)).trans <|
    (W7_keep m ρ c main_arg5 (by decide)).trans <|
    (W6_keep m ρ c main_arg5 (by decide)).trans <|
    (W5_keep m ρ c main_arg5 (by decide)).trans <|
    (W4_keep m ρ c main_arg5 (by decide)).trans <|
    (W3_keep m ρ c main_arg5 (by decide)).trans <|
    (W2_keep m ρ c main_arg5 (by decide)).trans <|
    (W1_keep m ρ c main_arg5 (by decide)).trans <| rfl

theorem W22_main_arg6 (c : Dev nD) : W22 m ρ c (Proc.devRef .tc main_arg6) = m ((c : Thread nD τ).loc main_arg6) :=
  (W22_keep m ρ c main_arg6 (by decide)).trans <|
    (W21_of_ne m ρ c main_arg6 (by decide)).trans <|
    (W20_keep m ρ c main_arg6 (by decide)).trans <|
    (W19_of_ne m ρ c main_arg6 (by decide)).trans <|
    (W18_of_ne m ρ c main_arg6 (by decide)).trans <|
    (W17_keep m ρ c main_arg6 (by decide)).trans <|
    (W16_of_ne m ρ c main_arg6 (by decide)).trans <|
    (W15_keep m ρ c main_arg6 (by decide)).trans <|
    (W14_of_ne m ρ c main_arg6 (by decide)).trans <|
    (W13_of_ne m ρ c main_arg6 (by decide)).trans <|
    (W12_keep m ρ c main_arg6 (by decide)).trans <|
    (W11_of_ne m ρ c main_arg6 (by decide)).trans <|
    (W10_keep m ρ c main_arg6 (by decide)).trans <|
    (W9_of_ne m ρ c main_arg6 (by decide)).trans <|
    (W8_of_ne m ρ c main_arg6 (by decide)).trans <|
    (W7_keep m ρ c main_arg6 (by decide)).trans <|
    (W6_keep m ρ c main_arg6 (by decide)).trans <|
    (W5_keep m ρ c main_arg6 (by decide)).trans <|
    (W4_keep m ρ c main_arg6 (by decide)).trans <|
    (W3_keep m ρ c main_arg6 (by decide)).trans <|
    (W2_keep m ρ c main_arg6 (by decide)).trans <|
    (W1_keep m ρ c main_arg6 (by decide)).trans <| rfl

theorem W22_main_arg7 (c : Dev nD) : W22 m ρ c (Proc.devRef .tc main_arg7) = m ((c : Thread nD τ).loc main_arg7) :=
  (W22_keep m ρ c main_arg7 (by decide)).trans <|
    (W21_of_ne m ρ c main_arg7 (by decide)).trans <|
    (W20_keep m ρ c main_arg7 (by decide)).trans <|
    (W19_of_ne m ρ c main_arg7 (by decide)).trans <|
    (W18_of_ne m ρ c main_arg7 (by decide)).trans <|
    (W17_keep m ρ c main_arg7 (by decide)).trans <|
    (W16_of_ne m ρ c main_arg7 (by decide)).trans <|
    (W15_keep m ρ c main_arg7 (by decide)).trans <|
    (W14_of_ne m ρ c main_arg7 (by decide)).trans <|
    (W13_of_ne m ρ c main_arg7 (by decide)).trans <|
    (W12_keep m ρ c main_arg7 (by decide)).trans <|
    (W11_of_ne m ρ c main_arg7 (by decide)).trans <|
    (W10_keep m ρ c main_arg7 (by decide)).trans <|
    (W9_of_ne m ρ c main_arg7 (by decide)).trans <|
    (W8_of_ne m ρ c main_arg7 (by decide)).trans <|
    (W7_keep m ρ c main_arg7 (by decide)).trans <|
    (W6_keep m ρ c main_arg7 (by decide)).trans <|
    (W5_keep m ρ c main_arg7 (by decide)).trans <|
    (W4_keep m ρ c main_arg7 (by decide)).trans <|
    (W3_keep m ρ c main_arg7 (by decide)).trans <|
    (W2_keep m ρ c main_arg7 (by decide)).trans <|
    (W1_keep m ρ c main_arg7 (by decide)).trans <| rfl

theorem W22_main_arg8 (c : Dev nD) : W22 m ρ c (Proc.devRef .tc main_arg8) = m ((c : Thread nD τ).loc main_arg8) :=
  (W22_keep m ρ c main_arg8 (by decide)).trans <|
    (W21_of_ne m ρ c main_arg8 (by decide)).trans <|
    (W20_keep m ρ c main_arg8 (by decide)).trans <|
    (W19_of_ne m ρ c main_arg8 (by decide)).trans <|
    (W18_of_ne m ρ c main_arg8 (by decide)).trans <|
    (W17_keep m ρ c main_arg8 (by decide)).trans <|
    (W16_of_ne m ρ c main_arg8 (by decide)).trans <|
    (W15_keep m ρ c main_arg8 (by decide)).trans <|
    (W14_of_ne m ρ c main_arg8 (by decide)).trans <|
    (W13_of_ne m ρ c main_arg8 (by decide)).trans <|
    (W12_keep m ρ c main_arg8 (by decide)).trans <|
    (W11_of_ne m ρ c main_arg8 (by decide)).trans <|
    (W10_keep m ρ c main_arg8 (by decide)).trans <|
    (W9_of_ne m ρ c main_arg8 (by decide)).trans <|
    (W8_of_ne m ρ c main_arg8 (by decide)).trans <|
    (W7_keep m ρ c main_arg8 (by decide)).trans <|
    (W6_keep m ρ c main_arg8 (by decide)).trans <|
    (W5_keep m ρ c main_arg8 (by decide)).trans <|
    (W4_keep m ρ c main_arg8 (by decide)).trans <|
    (W3_keep m ρ c main_arg8 (by decide)).trans <|
    (W2_keep m ρ c main_arg8 (by decide)).trans <|
    (W1_keep m ρ c main_arg8 (by decide)).trans <| rfl

theorem W22_main_arg9 (c : Dev nD) : W22 m ρ c (Proc.devRef .tc main_arg9) = m ((c : Thread nD τ).loc main_arg9) :=
  (W22_keep m ρ c main_arg9 (by decide)).trans <|
    (W21_of_ne m ρ c main_arg9 (by decide)).trans <|
    (W20_keep m ρ c main_arg9 (by decide)).trans <|
    (W19_of_ne m ρ c main_arg9 (by decide)).trans <|
    (W18_of_ne m ρ c main_arg9 (by decide)).trans <|
    (W17_keep m ρ c main_arg9 (by decide)).trans <|
    (W16_of_ne m ρ c main_arg9 (by decide)).trans <|
    (W15_keep m ρ c main_arg9 (by decide)).trans <|
    (W14_of_ne m ρ c main_arg9 (by decide)).trans <|
    (W13_of_ne m ρ c main_arg9 (by decide)).trans <|
    (W12_keep m ρ c main_arg9 (by decide)).trans <|
    (W11_of_ne m ρ c main_arg9 (by decide)).trans <|
    (W10_keep m ρ c main_arg9 (by decide)).trans <|
    (W9_of_ne m ρ c main_arg9 (by decide)).trans <|
    (W8_of_ne m ρ c main_arg9 (by decide)).trans <|
    (W7_keep m ρ c main_arg9 (by decide)).trans <|
    (W6_keep m ρ c main_arg9 (by decide)).trans <|
    (W5_keep m ρ c main_arg9 (by decide)).trans <|
    (W4_keep m ρ c main_arg9 (by decide)).trans <|
    (W3_keep m ρ c main_arg9 (by decide)).trans <|
    (W2_keep m ρ c main_arg9 (by decide)).trans <|
    (W1_keep m ρ c main_arg9 (by decide)).trans <| rfl

theorem W22_main_arg10 (c : Dev nD) : W22 m ρ c (Proc.devRef .tc main_arg10) = m ((c : Thread nD τ).loc main_arg10) :=
  (W22_keep m ρ c main_arg10 (by decide)).trans <|
    (W21_of_ne m ρ c main_arg10 (by decide)).trans <|
    (W20_keep m ρ c main_arg10 (by decide)).trans <|
    (W19_of_ne m ρ c main_arg10 (by decide)).trans <|
    (W18_of_ne m ρ c main_arg10 (by decide)).trans <|
    (W17_keep m ρ c main_arg10 (by decide)).trans <|
    (W16_of_ne m ρ c main_arg10 (by decide)).trans <|
    (W15_keep m ρ c main_arg10 (by decide)).trans <|
    (W14_of_ne m ρ c main_arg10 (by decide)).trans <|
    (W13_of_ne m ρ c main_arg10 (by decide)).trans <|
    (W12_keep m ρ c main_arg10 (by decide)).trans <|
    (W11_of_ne m ρ c main_arg10 (by decide)).trans <|
    (W10_keep m ρ c main_arg10 (by decide)).trans <|
    (W9_of_ne m ρ c main_arg10 (by decide)).trans <|
    (W8_of_ne m ρ c main_arg10 (by decide)).trans <|
    (W7_keep m ρ c main_arg10 (by decide)).trans <|
    (W6_keep m ρ c main_arg10 (by decide)).trans <|
    (W5_keep m ρ c main_arg10 (by decide)).trans <|
    (W4_keep m ρ c main_arg10 (by decide)).trans <|
    (W3_keep m ρ c main_arg10 (by decide)).trans <|
    (W2_keep m ρ c main_arg10 (by decide)).trans <|
    (W1_keep m ρ c main_arg10 (by decide)).trans <| rfl

theorem W22_main_arg11 (c : Dev nD) : W22 m ρ c (Proc.devRef .tc main_arg11) = m ((c : Thread nD τ).loc main_arg11) :=
  (W22_keep m ρ c main_arg11 (by decide)).trans <|
    (W21_of_ne m ρ c main_arg11 (by decide)).trans <|
    (W20_keep m ρ c main_arg11 (by decide)).trans <|
    (W19_of_ne m ρ c main_arg11 (by decide)).trans <|
    (W18_of_ne m ρ c main_arg11 (by decide)).trans <|
    (W17_keep m ρ c main_arg11 (by decide)).trans <|
    (W16_of_ne m ρ c main_arg11 (by decide)).trans <|
    (W15_keep m ρ c main_arg11 (by decide)).trans <|
    (W14_of_ne m ρ c main_arg11 (by decide)).trans <|
    (W13_of_ne m ρ c main_arg11 (by decide)).trans <|
    (W12_keep m ρ c main_arg11 (by decide)).trans <|
    (W11_of_ne m ρ c main_arg11 (by decide)).trans <|
    (W10_keep m ρ c main_arg11 (by decide)).trans <|
    (W9_of_ne m ρ c main_arg11 (by decide)).trans <|
    (W8_of_ne m ρ c main_arg11 (by decide)).trans <|
    (W7_keep m ρ c main_arg11 (by decide)).trans <|
    (W6_keep m ρ c main_arg11 (by decide)).trans <|
    (W5_keep m ρ c main_arg11 (by decide)).trans <|
    (W4_keep m ρ c main_arg11 (by decide)).trans <|
    (W3_keep m ρ c main_arg11 (by decide)).trans <|
    (W2_keep m ρ c main_arg11 (by decide)).trans <|
    (W1_keep m ρ c main_arg11 (by decide)).trans <| rfl

theorem W22_main_arg12 (c : Dev nD) : W22 m ρ c (Proc.devRef .tc main_arg12) = m ((c : Thread nD τ).loc main_arg12) :=
  (W22_keep m ρ c main_arg12 (by decide)).trans <|
    (W21_of_ne m ρ c main_arg12 (by decide)).trans <|
    (W20_keep m ρ c main_arg12 (by decide)).trans <|
    (W19_of_ne m ρ c main_arg12 (by decide)).trans <|
    (W18_of_ne m ρ c main_arg12 (by decide)).trans <|
    (W17_keep m ρ c main_arg12 (by decide)).trans <|
    (W16_of_ne m ρ c main_arg12 (by decide)).trans <|
    (W15_keep m ρ c main_arg12 (by decide)).trans <|
    (W14_of_ne m ρ c main_arg12 (by decide)).trans <|
    (W13_of_ne m ρ c main_arg12 (by decide)).trans <|
    (W12_keep m ρ c main_arg12 (by decide)).trans <|
    (W11_of_ne m ρ c main_arg12 (by decide)).trans <|
    (W10_keep m ρ c main_arg12 (by decide)).trans <|
    (W9_of_ne m ρ c main_arg12 (by decide)).trans <|
    (W8_of_ne m ρ c main_arg12 (by decide)).trans <|
    (W7_keep m ρ c main_arg12 (by decide)).trans <|
    (W6_keep m ρ c main_arg12 (by decide)).trans <|
    (W5_keep m ρ c main_arg12 (by decide)).trans <|
    (W4_keep m ρ c main_arg12 (by decide)).trans <|
    (W3_keep m ρ c main_arg12 (by decide)).trans <|
    (W2_keep m ρ c main_arg12 (by decide)).trans <|
    (W1_keep m ρ c main_arg12 (by decide)).trans <| rfl

theorem W22_main_arg13 (c : Dev nD) : W22 m ρ c (Proc.devRef .tc main_arg13) = m ((c : Thread nD τ).loc main_arg13) :=
  (W22_keep m ρ c main_arg13 (by decide)).trans <|
    (W21_of_ne m ρ c main_arg13 (by decide)).trans <|
    (W20_keep m ρ c main_arg13 (by decide)).trans <|
    (W19_of_ne m ρ c main_arg13 (by decide)).trans <|
    (W18_of_ne m ρ c main_arg13 (by decide)).trans <|
    (W17_keep m ρ c main_arg13 (by decide)).trans <|
    (W16_of_ne m ρ c main_arg13 (by decide)).trans <|
    (W15_keep m ρ c main_arg13 (by decide)).trans <|
    (W14_of_ne m ρ c main_arg13 (by decide)).trans <|
    (W13_of_ne m ρ c main_arg13 (by decide)).trans <|
    (W12_keep m ρ c main_arg13 (by decide)).trans <|
    (W11_of_ne m ρ c main_arg13 (by decide)).trans <|
    (W10_keep m ρ c main_arg13 (by decide)).trans <|
    (W9_of_ne m ρ c main_arg13 (by decide)).trans <|
    (W8_of_ne m ρ c main_arg13 (by decide)).trans <|
    (W7_keep m ρ c main_arg13 (by decide)).trans <|
    (W6_keep m ρ c main_arg13 (by decide)).trans <|
    (W5_keep m ρ c main_arg13 (by decide)).trans <|
    (W4_keep m ρ c main_arg13 (by decide)).trans <|
    (W3_keep m ρ c main_arg13 (by decide)).trans <|
    (W2_keep m ρ c main_arg13 (by decide)).trans <|
    (W1_keep m ρ c main_arg13 (by decide)).trans <| rfl

theorem W22_main_arg14 (c : Dev nD) : W22 m ρ c (Proc.devRef .tc main_arg14) = m ((c : Thread nD τ).loc main_arg14) :=
  (W22_keep m ρ c main_arg14 (by decide)).trans <|
    (W21_of_ne m ρ c main_arg14 (by decide)).trans <|
    (W20_keep m ρ c main_arg14 (by decide)).trans <|
    (W19_of_ne m ρ c main_arg14 (by decide)).trans <|
    (W18_of_ne m ρ c main_arg14 (by decide)).trans <|
    (W17_keep m ρ c main_arg14 (by decide)).trans <|
    (W16_of_ne m ρ c main_arg14 (by decide)).trans <|
    (W15_keep m ρ c main_arg14 (by decide)).trans <|
    (W14_of_ne m ρ c main_arg14 (by decide)).trans <|
    (W13_of_ne m ρ c main_arg14 (by decide)).trans <|
    (W12_keep m ρ c main_arg14 (by decide)).trans <|
    (W11_of_ne m ρ c main_arg14 (by decide)).trans <|
    (W10_keep m ρ c main_arg14 (by decide)).trans <|
    (W9_of_ne m ρ c main_arg14 (by decide)).trans <|
    (W8_of_ne m ρ c main_arg14 (by decide)).trans <|
    (W7_keep m ρ c main_arg14 (by decide)).trans <|
    (W6_keep m ρ c main_arg14 (by decide)).trans <|
    (W5_keep m ρ c main_arg14 (by decide)).trans <|
    (W4_keep m ρ c main_arg14 (by decide)).trans <|
    (W3_keep m ρ c main_arg14 (by decide)).trans <|
    (W2_keep m ρ c main_arg14 (by decide)).trans <|
    (W1_keep m ρ c main_arg14 (by decide)).trans <| rfl

theorem W22_main_arg15 (c : Dev nD) : W22 m ρ c (Proc.devRef .tc main_arg15) = m ((c : Thread nD τ).loc main_arg15) :=
  (W22_keep m ρ c main_arg15 (by decide)).trans <|
    (W21_of_ne m ρ c main_arg15 (by decide)).trans <|
    (W20_keep m ρ c main_arg15 (by decide)).trans <|
    (W19_of_ne m ρ c main_arg15 (by decide)).trans <|
    (W18_of_ne m ρ c main_arg15 (by decide)).trans <|
    (W17_keep m ρ c main_arg15 (by decide)).trans <|
    (W16_of_ne m ρ c main_arg15 (by decide)).trans <|
    (W15_keep m ρ c main_arg15 (by decide)).trans <|
    (W14_of_ne m ρ c main_arg15 (by decide)).trans <|
    (W13_of_ne m ρ c main_arg15 (by decide)).trans <|
    (W12_keep m ρ c main_arg15 (by decide)).trans <|
    (W11_of_ne m ρ c main_arg15 (by decide)).trans <|
    (W10_keep m ρ c main_arg15 (by decide)).trans <|
    (W9_of_ne m ρ c main_arg15 (by decide)).trans <|
    (W8_of_ne m ρ c main_arg15 (by decide)).trans <|
    (W7_keep m ρ c main_arg15 (by decide)).trans <|
    (W6_keep m ρ c main_arg15 (by decide)).trans <|
    (W5_keep m ρ c main_arg15 (by decide)).trans <|
    (W4_keep m ρ c main_arg15 (by decide)).trans <|
    (W3_keep m ρ c main_arg15 (by decide)).trans <|
    (W2_keep m ρ c main_arg15 (by decide)).trans <|
    (W1_keep m ρ c main_arg15 (by decide)).trans <| rfl

/-! ## The proof data family and the thread state -/

/-- Every pipeline's proof data, each at its region's entry contents: a literal `match`, so that the pinned
    configuration at a numeral reduces to the printed one. -/
def pdats : (p : Fin 9) → (c : Dev nD) → Dat τ (Elt F) Unit ℕ (UR sig nD τ) ℕ (Pipeline.pin (pcfgs (F := F)) adm p) c
  | ⟨0, _⟩ => fun c => dat0 (Vent0 m ρ) c
  | ⟨1, _⟩ => fun c => dat1 (Vent1 m ρ) c
  | ⟨2, _⟩ => fun c => dat2 (Vent2 m ρ) c
  | ⟨3, _⟩ => fun c => dat3 (Vent3 m ρ) c
  | ⟨4, _⟩ => fun c => dat4 (Vent4 m ρ) c
  | ⟨5, _⟩ => fun c => dat5 (Vent5 m ρ) c
  | ⟨6, _⟩ => fun c => dat6 (Vent6 m ρ) c
  | ⟨7, _⟩ => fun c => dat7 (Vent7 m ρ) c
  | ⟨8, _⟩ => fun c => dat8 (Vent8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the boundary whose contents are `W`: every unscoped buffer there, `R` beside. -/
abbrev TS (W : Dev nD → Valuation τ sig (Elt F)) (c : Dev nD) : sProp 𝕄 :=
  iprop(StableHlo.held (c : Thread nD τ) (Pipeline.ucRefs τ sig) (W c) ∗ R c)
/-- The last thread state without the `owes`. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- REGION 0 over the thread state: entered from every unscoped buffer at `W7`, left at `W8`. Its arrays are split
    out of the unscoped buffers and put back at the exit contents; the generator register goes into the region's
    invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent0 m ρ) c).loose
  hwaits := Pipeline.hwaits_of_owed_zero _ _ _ _ L lv 0 fun c t => owed_eq0 (Vent0 m ρ) c t
  pre c := TS (W7 m ρ) c
  post c := TS (W8 m ρ) c
  X c := iprop(∃ r, prngReg c r)
  Y c := iprop(∃ r, prngReg c r)
  Z c := Pipeline.unscopedRest (Ix := Unit) (Name := ℕ) (U := UR sig nD τ) (Lvl := ℕ) spec0 c (Vent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (Vent0 m ρ) c w) (Vent0 m ρ c) fun w => A_eq0 (Vent0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (Vent0 m ρ) c 0]
      icases HO with ⟨%W, HO⟩; iexists W; isplitr
      · ipureintro; intro x _; exact Or.inl ((recorded_eq0 (Vent0 m ρ) c 0).symm ▸ Set.mem_univ x)
      iexact HO
    isplitl [Hp]; · iexact Hp
    iexact Hrest
  hin c := by
    refine .trans ?_ (hin0 (Vent0 m ρ) c); unfold Pipeline.ΦA
    iintro ⟨Hp, -, Hr⟩
    isplitl [Hr]; · iexact Hr
    iexact Hp
  hout c := by
    rw [Pipeline.ownSems0_none]
    refine (hout0 (Vent0 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (Vent0 m ρ) c w)
      (Vent0 m ρ c) (Vex0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (Vent0 m ρ) c (Fin.last _)]
    icases HO with ⟨%W, -, HO⟩; iexists W; iexact HO

set_option backward.isDefEq.respectTransparency.types false in
/-- REGION 1 over the thread state: entered from every unscoped buffer at `W8`, left at `W9`. Its arrays are split
    out of the unscoped buffers and put back at the exit contents; the generator register goes into the region's
    invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m ρ) c).loose
  hwaits := Pipeline.hwaits_of_owed_zero _ _ _ _ L lv 1 fun c t => owed_eq1 (Vent1 m ρ) c t
  pre c := TS (W8 m ρ) c
  post c := TS (W9 m ρ) c
  X c := iprop(∃ r, prngReg c r)
  Y c := iprop(∃ r, prngReg c r)
  Z c := Pipeline.unscopedRest (Ix := Unit) (Name := ℕ) (U := UR sig nD τ) (Lvl := ℕ) spec1 c (Vent1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (Vent1 m ρ) c w) (Vent1 m ρ c) fun w => A_eq1 (Vent1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (Vent1 m ρ) c 0]
      icases HO with ⟨%W, HO⟩; iexists W; isplitr
      · ipureintro; intro x _; exact Or.inl ((recorded_eq1 (Vent1 m ρ) c 0).symm ▸ Set.mem_univ x)
      iexact HO
    isplitl [Hp]; · iexact Hp
    iexact Hrest
  hin c := by
    refine .trans ?_ (hin1 (Vent1 m ρ) c); unfold Pipeline.ΦA
    iintro ⟨Hp, -, Hr⟩
    isplitl [Hr]; · iexact Hr
    iexact Hp
  hout c := by
    rw [Pipeline.ownSems0_none]
    refine (hout1 (Vent1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (Vent1 m ρ) c w)
      (Vent1 m ρ c) (Vex1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (Vent1 m ρ) c (Fin.last _)]
    icases HO with ⟨%W, -, HO⟩; iexists W; iexact HO

set_option backward.isDefEq.respectTransparency.types false in
/-- REGION 2 over the thread state: entered from every unscoped buffer at `W10`, left at `W11`. Its arrays are split
    out of the unscoped buffers and put back at the exit contents; the generator register goes into the region's
    invariant and comes out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vent2 m ρ) c).loose
  hwaits := Pipeline.hwaits_of_owed_zero _ _ _ _ L lv 2 fun c t => owed_eq2 (Vent2 m ρ) c t
  pre c := TS (W10 m ρ) c
  post c := TS (W11 m ρ) c
  X c := iprop(∃ r, prngReg c r)
  Y c := iprop(∃ r, prngReg c r)
  Z c := Pipeline.unscopedRest (Ix := Unit) (Name := ℕ) (U := UR sig nD τ) (Lvl := ℕ) spec2 c (Vent2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (Vent2 m ρ) c w) (Vent2 m ρ c) fun w => A_eq2 (Vent2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed_eq2 (Vent2 m ρ) c 0]
      icases HO with ⟨%W, HO⟩; iexists W; isplitr
      · ipureintro; intro x _; exact Or.inl ((recorded_eq2 (Vent2 m ρ) c 0).symm ▸ Set.mem_univ x)
      iexact HO
    isplitl [Hp]; · iexact Hp
    iexact Hrest
  hin c := by
    refine .trans ?_ (hin2 (Vent2 m ρ) c); unfold Pipeline.ΦA
    iintro ⟨Hp, -, Hr⟩
    isplitl [Hr]; · iexact Hr
    iexact Hp
  hout c := by
    rw [Pipeline.ownSems0_none]
    refine (hout2 (Vent2 m ρ) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (Vent2 m ρ) c w)
      (Vent2 m ρ c) (Vex2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last _) = 0 from owed_eq2 (Vent2 m ρ) c (Fin.last _)]
    icases HO with ⟨%W, -, HO⟩; iexists W; iexact HO

set_option backward.isDefEq.respectTransparency.types false in
/-- REGION 3 over the thread state: entered from every unscoped buffer at `W12`, left at `W13`. Its arrays are split
    out of the unscoped buffers and put back at the exit contents; the generator register goes into the region's
    invariant and comes out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vent3 m ρ) c).loose
  hwaits := Pipeline.hwaits_of_owed_zero _ _ _ _ L lv 3 fun c t => owed_eq3 (Vent3 m ρ) c t
  pre c := TS (W12 m ρ) c
  post c := TS (W13 m ρ) c
  X c := iprop(∃ r, prngReg c r)
  Y c := iprop(∃ r, prngReg c r)
  Z c := Pipeline.unscopedRest (Ix := Unit) (Name := ℕ) (U := UR sig nD τ) (Lvl := ℕ) spec3 c (Vent3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => q_eq3 (Vent3 m ρ) c w) (Vent3 m ρ c) fun w => A_eq3 (Vent3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed_eq3 (Vent3 m ρ) c 0]
      icases HO with ⟨%W, HO⟩; iexists W; isplitr
      · ipureintro; intro x _; exact Or.inl ((recorded_eq3 (Vent3 m ρ) c 0).symm ▸ Set.mem_univ x)
      iexact HO
    isplitl [Hp]; · iexact Hp
    iexact Hrest
  hin c := by
    refine .trans ?_ (hin3 (Vent3 m ρ) c); unfold Pipeline.ΦA
    iintro ⟨Hp, -, Hr⟩
    isplitl [Hr]; · iexact Hr
    iexact Hp
  hout c := by
    rw [Pipeline.ownSems0_none]
    refine (hout3 (Vent3 m ρ) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (Vent3 m ρ) c w)
      (Vent3 m ρ c) (Vex3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last _) = 0 from owed_eq3 (Vent3 m ρ) c (Fin.last _)]
    icases HO with ⟨%W, -, HO⟩; iexists W; iexact HO

set_option backward.isDefEq.respectTransparency.types false in
/-- REGION 4 over the thread state: entered from every unscoped buffer at `W13`, left at `W14`. Its arrays are split
    out of the unscoped buffers and put back at the exit contents; the generator register goes into the region's
    invariant and comes out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vent4 m ρ) c).loose
  hwaits := Pipeline.hwaits_of_owed_zero _ _ _ _ L lv 4 fun c t => owed_eq4 (Vent4 m ρ) c t
  pre c := TS (W13 m ρ) c
  post c := TS (W14 m ρ) c
  X c := iprop(∃ r, prngReg c r)
  Y c := iprop(∃ r, prngReg c r)
  Z c := Pipeline.unscopedRest (Ix := Unit) (Name := ℕ) (U := UR sig nD τ) (Lvl := ℕ) spec4 c (Vent4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun w => q_eq4 (Vent4 m ρ) c w) (Vent4 m ρ c) fun w => A_eq4 (Vent4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 4 c).owed 0 = 0 from owed_eq4 (Vent4 m ρ) c 0]
      icases HO with ⟨%W, HO⟩; iexists W; isplitr
      · ipureintro; intro x _; exact Or.inl ((recorded_eq4 (Vent4 m ρ) c 0).symm ▸ Set.mem_univ x)
      iexact HO
    isplitl [Hp]; · iexact Hp
    iexact Hrest
  hin c := by
    refine .trans ?_ (hin4 (Vent4 m ρ) c); unfold Pipeline.ΦA
    iintro ⟨Hp, -, Hr⟩
    isplitl [Hr]; · iexact Hr
    iexact Hp
  hout c := by
    rw [Pipeline.ownSems0_none]
    refine (hout4 (Vent4 m ρ) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun w => q_eq4 (Vent4 m ρ) c w)
      (Vent4 m ρ c) (Vex4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 4 c).owed (Fin.last _) = 0 from owed_eq4 (Vent4 m ρ) c (Fin.last _)]
    icases HO with ⟨%W, -, HO⟩; iexists W; iexact HO

set_option backward.isDefEq.respectTransparency.types false in
/-- REGION 5 over the thread state: entered from every unscoped buffer at `W15`, left at `W16`. Its arrays are split
    out of the unscoped buffers and put back at the exit contents; the generator register goes into the region's
    invariant and comes out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vent5 m ρ) c).loose
  hwaits := Pipeline.hwaits_of_owed_zero _ _ _ _ L lv 5 fun c t => owed_eq5 (Vent5 m ρ) c t
  pre c := TS (W15 m ρ) c
  post c := TS (W16 m ρ) c
  X c := iprop(∃ r, prngReg c r)
  Y c := iprop(∃ r, prngReg c r)
  Z c := Pipeline.unscopedRest (Ix := Unit) (Name := ℕ) (U := UR sig nD τ) (Lvl := ℕ) spec5 c (Vent5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun w => q_eq5 (Vent5 m ρ) c w) (Vent5 m ρ c) fun w => A_eq5 (Vent5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 5 c).owed 0 = 0 from owed_eq5 (Vent5 m ρ) c 0]
      icases HO with ⟨%W, HO⟩; iexists W; isplitr
      · ipureintro; intro x _; exact Or.inl ((recorded_eq5 (Vent5 m ρ) c 0).symm ▸ Set.mem_univ x)
      iexact HO
    isplitl [Hp]; · iexact Hp
    iexact Hrest
  hin c := by
    refine .trans ?_ (hin5 (Vent5 m ρ) c); unfold Pipeline.ΦA
    iintro ⟨Hp, -, Hr⟩
    isplitl [Hr]; · iexact Hr
    iexact Hp
  hout c := by
    rw [Pipeline.ownSems0_none]
    refine (hout5 (Vent5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun w => q_eq5 (Vent5 m ρ) c w)
      (Vent5 m ρ c) (Vex5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 5 c).owed (Fin.last _) = 0 from owed_eq5 (Vent5 m ρ) c (Fin.last _)]
    icases HO with ⟨%W, -, HO⟩; iexists W; iexact HO

set_option backward.isDefEq.respectTransparency.types false in
/-- REGION 6 over the thread state: entered from every unscoped buffer at `W17`, left at `W18`. Its arrays are split
    out of the unscoped buffers and put back at the exit contents; the generator register goes into the region's
    invariant and comes out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vent6 m ρ) c).loose
  hwaits := Pipeline.hwaits_of_owed_zero _ _ _ _ L lv 6 fun c t => owed_eq6 (Vent6 m ρ) c t
  pre c := TS (W17 m ρ) c
  post c := TS (W18 m ρ) c
  X c := iprop(∃ r, prngReg c r)
  Y c := iprop(∃ r, prngReg c r)
  Z c := Pipeline.unscopedRest (Ix := Unit) (Name := ℕ) (U := UR sig nD τ) (Lvl := ℕ) spec6 c (Vent6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun w => q_eq6 (Vent6 m ρ) c w) (Vent6 m ρ c) fun w => A_eq6 (Vent6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 6 c).owed 0 = 0 from owed_eq6 (Vent6 m ρ) c 0]
      icases HO with ⟨%W, HO⟩; iexists W; isplitr
      · ipureintro; intro x _; exact Or.inl ((recorded_eq6 (Vent6 m ρ) c 0).symm ▸ Set.mem_univ x)
      iexact HO
    isplitl [Hp]; · iexact Hp
    iexact Hrest
  hin c := by
    refine .trans ?_ (hin6 (Vent6 m ρ) c); unfold Pipeline.ΦA
    iintro ⟨Hp, -, Hr⟩
    isplitl [Hr]; · iexact Hr
    iexact Hp
  hout c := by
    rw [Pipeline.ownSems0_none]
    refine (hout6 (Vent6 m ρ) c).trans ?_; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun w => q_eq6 (Vent6 m ρ) c w)
      (Vent6 m ρ c) (Vex6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 6 c).owed (Fin.last _) = 0 from owed_eq6 (Vent6 m ρ) c (Fin.last _)]
    icases HO with ⟨%W, -, HO⟩; iexists W; iexact HO

set_option backward.isDefEq.respectTransparency.types false in
/-- REGION 7 over the thread state: entered from every unscoped buffer at `W18`, left at `W19`. Its arrays are split
    out of the unscoped buffers and put back at the exit contents; the generator register goes into the region's
    invariant and comes out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vent7 m ρ) c).loose
  hwaits := Pipeline.hwaits_of_owed_zero _ _ _ _ L lv 7 fun c t => owed_eq7 (Vent7 m ρ) c t
  pre c := TS (W18 m ρ) c
  post c := TS (W19 m ρ) c
  X c := iprop(∃ r, prngReg c r)
  Y c := iprop(∃ r, prngReg c r)
  Z c := Pipeline.unscopedRest (Ix := Unit) (Name := ℕ) (U := UR sig nD τ) (Lvl := ℕ) spec7 c (Vent7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun w => q_eq7 (Vent7 m ρ) c w) (Vent7 m ρ c) fun w => A_eq7 (Vent7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 7 c).owed 0 = 0 from owed_eq7 (Vent7 m ρ) c 0]
      icases HO with ⟨%W, HO⟩; iexists W; isplitr
      · ipureintro; intro x _; exact Or.inl ((recorded_eq7 (Vent7 m ρ) c 0).symm ▸ Set.mem_univ x)
      iexact HO
    isplitl [Hp]; · iexact Hp
    iexact Hrest
  hin c := by
    refine .trans ?_ (hin7 (Vent7 m ρ) c); unfold Pipeline.ΦA
    iintro ⟨Hp, -, Hr⟩
    isplitl [Hr]; · iexact Hr
    iexact Hp
  hout c := by
    rw [Pipeline.ownSems0_none]
    refine (hout7 (Vent7 m ρ) c).trans ?_; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun w => q_eq7 (Vent7 m ρ) c w)
      (Vent7 m ρ c) (Vex7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 7 c).owed (Fin.last _) = 0 from owed_eq7 (Vent7 m ρ) c (Fin.last _)]
    icases HO with ⟨%W, -, HO⟩; iexists W; iexact HO

set_option backward.isDefEq.respectTransparency.types false in
/-- REGION 8 over the thread state: entered from every unscoped buffer at `W20`, left at `W21`. Its arrays are split
    out of the unscoped buffers and put back at the exit contents; the generator register goes into the region's
    invariant and comes out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vent8 m ρ) c).loose
  hwaits := Pipeline.hwaits_of_owed_zero _ _ _ _ L lv 8 fun c t => owed_eq8 (Vent8 m ρ) c t
  pre c := TS (W20 m ρ) c
  post c := TS (W21 m ρ) c
  X c := iprop(∃ r, prngReg c r)
  Y c := iprop(∃ r, prngReg c r)
  Z c := Pipeline.unscopedRest (Ix := Unit) (Name := ℕ) (U := UR sig nD τ) (Lvl := ℕ) spec8 c (Vent8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun w => q_eq8 (Vent8 m ρ) c w) (Vent8 m ρ c) fun w => A_eq8 (Vent8 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 8 c).owed 0 = 0 from owed_eq8 (Vent8 m ρ) c 0]
      icases HO with ⟨%W, HO⟩; iexists W; isplitr
      · ipureintro; intro x _; exact Or.inl ((recorded_eq8 (Vent8 m ρ) c 0).symm ▸ Set.mem_univ x)
      iexact HO
    isplitl [Hp]; · iexact Hp
    iexact Hrest
  hin c := by
    refine .trans ?_ (hin8 (Vent8 m ρ) c); unfold Pipeline.ΦA
    iintro ⟨Hp, -, Hr⟩
    isplitl [Hr]; · iexact Hr
    iexact Hp
  hout c := by
    rw [Pipeline.ownSems0_none]
    refine (hout8 (Vent8 m ρ) c).trans ?_; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun w => q_eq8 (Vent8 m ρ) c w)
      (Vent8 m ρ c) (Vex8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 8 c).owed (Fin.last _) = 0 from owed_eq8 (Vent8 m ρ) c (Fin.last _)]
    icases HO with ⟨%W, -, HO⟩; iexists W; iexact HO

/-! ## @main as segments, and the launch -/

/-- @main's 22 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ),
    .host (hseg hostOps2 hostOps2_sub hostOps2_fresh (W9 m ρ)),
    .region (reg2 m ρ),
    .host (hseg hostOps3 hostOps3_sub hostOps3_fresh (W11 m ρ)),
    .region (reg3 m ρ),
    .region (reg4 m ρ),
    .host (hseg hostOps5 hostOps5_sub hostOps5_fresh (W14 m ρ)),
    .region (reg5 m ρ),
    .host (hseg hostOps6 hostOps6_sub hostOps6_fresh (W16 m ρ)),
    .region (reg6 m ρ),
    .region (reg7 m ρ),
    .host (hseg hostOps8 hostOps8_sub hostOps8_fresh (W19 m ρ)),
    .region (reg8 m ρ),
    .host (hseg hostOps9 hostOps9_sub hostOps9_fresh (W21 m ρ)) ]

/-- The segments' programs are @main's items, in order. -/
theorem segs_prog : (segs m ρ).map Pipeline.Seg.prog = ([
    StableHlo.seq hostOps0,
    StableHlo.seq hostOps0_1,
    StableHlo.seq hostOps0_2,
    StableHlo.seq hostOps0_3,
    StableHlo.seq hostOps0_4,
    StableHlo.seq hostOps0_5,
    StableHlo.seq hostOps0_6,
    Prog.lift (.customCall (Pipeline.entry 0) ()),
    Prog.lift (.customCall (Pipeline.entry 1) ()),
    StableHlo.seq hostOps2,
    Prog.lift (.customCall (Pipeline.entry 2) ()),
    StableHlo.seq hostOps3,
    Prog.lift (.customCall (Pipeline.entry 3) ()),
    Prog.lift (.customCall (Pipeline.entry 4) ()),
    StableHlo.seq hostOps5,
    Prog.lift (.customCall (Pipeline.entry 5) ()),
    StableHlo.seq hostOps6,
    Prog.lift (.customCall (Pipeline.entry 6) ()),
    Prog.lift (.customCall (Pipeline.entry 7) ()),
    StableHlo.seq hostOps8,
    Prog.lift (.customCall (Pipeline.entry 8) ()),
    StableHlo.seq hostOps9 ] : List (Prog (TpuEff nD τ sig (Elt F) (Pipeline.Sig Λ₀ (Fin 9) fun p => (pcfgs (F := F) p).Adm) .tc) PUnit)) := rfl

/-- @main IS the run of the segments: it is the chain of its items, and the segments' run is the chain of their programs. -/
theorem main_run (c : Dev nD) : main (F := F) c = Pipeline.Seg.run (segs m ρ) := by
  rw [main_chain c, Pipeline.Seg.run_eq_chain, segs_prog]

set_option backward.isDefEq.respectTransparency.types false in
/-- THE RUN OF @main: at the compiled mesh, from any memory with zero counters, every weakly fair execution of @main on
    the TensorCores terminates, nothing faulting, and every final state holds the result `main_v45` at the last
    boundary's contents and every argument array as launched. -/
theorem run_main : θ_run defs (onTc (τ := τ) (main (F := F))) ⟨m, fun _ => 0, ρ⟩ (fun r => ∀ c : Dev nD,
      r.2.mem ((c.tc : Thread nD τ).loc main_v45) = W22 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := TS (W0 m ρ)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show TS (W22 m ρ) c ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v45 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c)⟩)

end Cert.KernelIdeal.H

end
-- ==== Proof.Gate.lean ====
/-
  The edge gate, once, as a function of the trust vector, the edge coefficients and the source-row words:
  gate[e] = 1 / (1 + exp (−(clip(trust[row[e]], 0, 1) · clip(coeffs[e], −5, 5)))), where the lookup `trust[row[e]]`
  wraps a negative word by the table's length and then clamps into the table, as the host's gather does. Both the
  kernel program and the reference compute this same chain of host operations before anything else; stating it once,
  over the library's operations only, lets each side name it. Also the two rows of the edge list as vectors.
-/
import Idealize.ShloMosaic.Lib.StableHlo
import Idealize.ShloMosaic.PureOps
import Idealize.ShloMosaic.Lib.ValueLayout

noncomputable section

namespace Cert.Gate

open Idealize.ShloMosaic Idealize.ShloMosaic.ValueIdx

/-- The node vector, the edge vector, the edge column and the scalar shapes. -/
abbrev SN : Shape := ⟨1, ![100000]⟩
abbrev SE : Shape := ⟨1, ![1600000]⟩
abbrev SEx1 : Shape := ⟨2, ![1600000, 1]⟩
abbrev S0 : Shape := ⟨0, ![]⟩

theorem bcast0 : S0.BroadcastsInDim SE (![] : Fin 0 → Fin SE.rank) := by decide
theorem bcastCol : SE.BroadcastsInDim SEx1 (![0] : Fin 1 → Fin SEx1.rank) := by decide

/-- The dimension numbers of `trust[idx]` for a column of start indices: one collapsed, start-indexed axis. -/
def trustDims : GatherDims SN SEx1 SE where
  offsetDims := []
  collapsedSliceDims := [0]
  operandBatchingDims := []
  startIndicesBatchingDims := []
  startIndexMap := [0]
  indexVectorDim := 1
  sliceSizes := ![1]
  wf := by decide

variable {F : FTy → Type} [FloatOps F]

/-- A float constant splat over the edges. -/
def splatF (b : BitVec 32) : FVec F SE .f32 := broadcastInDim SE ![] bcast0 (constant S0 .f32 b)
/-- A word constant splat over the edges. -/
def splatI (b : BitVec 32) : IVec SE 32 := broadcastInDim SE ![] bcast0 (constantI S0 32 b)

/-- A negative row word wrapped by the table's length (the index normalisation of `trust[row]`). -/
def wrapRow (row : IVec SE 32) : IVec SE 32 := select (cmpi .slt row (splatI 0#32)) (addi row (splatI 100000#32)) row

/-- THE GATE: 1 / (1 + exp (−(clip(trust[row], 0, 1) · clip(coeffs, −5, 5)))), elementwise over the edges. -/
def gateOf (trust : FVec F SN .f32) (coeffs : FVec F SE .f32) (row : IVec SE 32) : FVec F SE .f32 :=
  Host.divf (splatF 0x3F800000#32) (addf (splatF 0x3F800000#32) (Host.exp (Host.negf (mulf
    (minimumf (splatF 0x3F800000#32) (maximumf (splatF 0x00000000#32)
      (Host.gather trustDims trust (broadcastInDim SEx1 ![0] bcastCol (wrapRow row)))))
    (minimumf (splatF 0x40A00000#32) (maximumf (splatF 0xC0A00000#32) coeffs))))))

/-! ## The two rows of a two-row table, as vectors -/

/-- Row 0 (the source rows) and row 1 (the targets) of a [2, n] table. -/
def row0 {n : Nat} (ei : IVec ⟨2, ![2, n]⟩ 32) : IVec ⟨1, ![n]⟩ 32 := fun i => ei (ix2 (0 : Fin 2) (i 0))
def row1 {n : Nat} (ei : IVec ⟨2, ![2, n]⟩ 32) : IVec ⟨1, ![n]⟩ 32 := fun i => ei (ix2 (1 : Fin 2) (i 0))

theorem row0_apply {n : Nat} (ei : IVec ⟨2, ![2, n]⟩ 32) (e : Fin n) : row0 ei (ix1 e) = ei (ix2 (0 : Fin 2) e) := rfl
theorem row1_apply {n : Nat} (ei : IVec ⟨2, ![2, n]⟩ 32) (e : Fin n) : row1 ei (ix1 e) = ei (ix2 (1 : Fin 2) e) := rfl

/-- Row 0 cut out of the table and flattened is `row0`. -/
theorem slice_row0 {n : Nat} (ei : IVec ⟨2, ![2, n]⟩ 32)
    (hs : (⟨2, ![2, n]⟩ : Shape).Slices ![0, 0] ⟨2, ![1, n]⟩) (hc : (⟨2, ![1, n]⟩ : Shape).ShapeCasts ⟨1, ![n]⟩) :
    shapeCast ⟨1, ![n]⟩ (extractStridedSlice ⟨2, ![1, n]⟩ ![0, 0] ei hs) hc = row0 ei := by
  funext i
  obtain ⟨e, rfl⟩ : ∃ e, i = ix1 e := ⟨i 0, eq_ix1 i⟩
  rw [shapeCast_1a_a_apply, slice2_axis0_apply 0 ei hs (0 : Fin 1) e (0 : Fin 2) rfl]
  rfl

/-- Row 1 cut out of the table and flattened is `row1`. -/
theorem slice_row1 {n : Nat} (ei : IVec ⟨2, ![2, n]⟩ 32)
    (hs : (⟨2, ![2, n]⟩ : Shape).Slices ![1, 0] ⟨2, ![1, n]⟩) (hc : (⟨2, ![1, n]⟩ : Shape).ShapeCasts ⟨1, ![n]⟩) :
    shapeCast ⟨1, ![n]⟩ (extractStridedSlice ⟨2, ![1, n]⟩ ![1, 0] ei hs) hc = row1 ei := by
  funext i
  obtain ⟨e, rfl⟩ : ∃ e, i = ix1 e := ⟨i 0, eq_ix1 i⟩
  rw [shapeCast_1a_a_apply, slice2_axis0_apply 1 ei hs (0 : Fin 1) e (1 : Fin 2) rfl]
  rfl

end Cert.Gate

end
-- ==== Proof.KI.HostVals.lean ====
/-
  What the host operations leave in the arrays the kernel regions read, as index functions of the valuation they
  started from. Before the first region the host cuts the edge list into its two rows (the source-row words as a
  column, the target words as a row), computes the edge gate (a column), pads the node features with rows of the
  converted zero word to 102400 rows, transposes the first layer's weights and lays its bias out as a row; between
  the later regions it lays the remaining weights and vectors out the same way; after the last region it keeps the
  first 100000 rows. Each lemma reads one such array at one index; the gate stays the one named function.
-/
import proofs.«421344_j1254130450614_1_alg».proof.Proof.Gen.KernelIdeal.Launch
import proofs.«421344_j1254130450614_1_alg».proof.Proof.Gen.KernelIdeal.Skeleton
import Idealize.ShloMosaic.Lib.Pipeline.FrameBody
import Idealize.ShloMosaic.Lib.Pipeline.Regions
import proofs.«421344_j1254130450614_1_alg».proof.Proof.Gate
import Idealize.ShloMosaic.Lib.Tactic
import Idealize.ShloMosaic.Lib.ValueLayout
import Idealize.ShloMosaic.Lib.KernelVsHost

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- What the host stretches before region 0 leave, from the valuation `W0` at launch. -/
abbrev afterHost0 (W0 : Valuation τ sig (Elt F)) : Valuation τ sig (Elt F) :=
  StableHlo.after hostOps0_6 (StableHlo.after hostOps0_5 (StableHlo.after hostOps0_4 (StableHlo.after hostOps0_3
    (StableHlo.after hostOps0_2 (StableHlo.after hostOps0_1 (StableHlo.after hostOps0 W0))))))

/-! ## Layout reads the host stretches need -/

/-- A vector cast to a column reads, at `(e, 0)`, the vector at `e`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (W0 : Valuation τ sig (Elt F))

/-! ## The arrays region 0 and its successors read, as functions of the launch valuation -/

/-- The row words as a column: entry `(e, 0)` is row 0 of the edge list at `e`. -/
theorem v20_eq :
    (afterHost0 W0 (Proc.devRef .tc main_v20) : IVec S1600000x1 32)
      = shapeCast S1600000x1 (Cert.Gate.row0 (W0 (Proc.devRef .tc main_arg1) : IVec S2x1600000 32)) shapeCasts_S1600000_S1600000x1 := by
  rw [← Cert.Gate.slice_row0 _ slices_S2x1600000_S1x1600000_0_0 shapeCasts_S1x1600000_S1600000]
  dsimp only [afterHost0, hostOps0, hostOps0_1, hostOps0_2, hostOps0_3, hostOps0_4, hostOps0_5, hostOps0_6]
  after_results_simp
  rfl

theorem v20_apply (e : Fin 1600000) (u : Fin 1) :
    (afterHost0 W0 (Proc.devRef .tc main_v20) : IVec S1600000x1 32) (ix2 e u)
      = (W0 (Proc.devRef .tc main_arg1) : IVec S2x1600000 32) (ix2 (0 : Fin 2) e) := by
  rw [v20_eq, shapeCast_a_a1_apply]; rfl

/-- The target words as a row: entry `(0, e)` is row 1 of the edge list at `e`. -/
theorem v21_eq :
    (afterHost0 W0 (Proc.devRef .tc main_v21) : IVec S1x1600000 32)
      = shapeCast S1x1600000 (Cert.Gate.row1 (W0 (Proc.devRef .tc main_arg1) : IVec S2x1600000 32)) shapeCasts_S1600000_S1x1600000 := by
  rw [← Cert.Gate.slice_row1 _ slices_S2x1600000_S1x1600000_1_0 shapeCasts_S1x1600000_S1600000]
  dsimp only [afterHost0, hostOps0, hostOps0_1, hostOps0_2, hostOps0_3, hostOps0_4, hostOps0_5, hostOps0_6]
  after_results_simp
  rfl

theorem v21_apply (u : Fin 1) (e : Fin 1600000) :
    (afterHost0 W0 (Proc.devRef .tc main_v21) : IVec S1x1600000 32) (ix2 u e)
      = (W0 (Proc.devRef .tc main_arg1) : IVec S2x1600000 32) (ix2 (1 : Fin 2) e) := by
  rw [v21_eq, shapeCast_a_1a_apply]; rfl

/-- The gate as a column: entry `(e, 0)` is the gate of edge `e`. -/
theorem v22_eq :
    (afterHost0 W0 (Proc.devRef .tc main_v22) : FVec F S1600000x1 .f32)
      = shapeCast S1600000x1 (Cert.Gate.gateOf (W0 (Proc.devRef .tc main_arg2) : FVec F S100000 .f32)
          (W0 (Proc.devRef .tc main_arg3) : FVec F S1600000 .f32)
          (Cert.Gate.row0 (W0 (Proc.devRef .tc main_arg1) : IVec S2x1600000 32))) shapeCasts_S1600000_S1600000x1 := by
  rw [← Cert.Gate.slice_row0 _ slices_S2x1600000_S1x1600000_0_0 shapeCasts_S1x1600000_S1600000]
  dsimp only [afterHost0, hostOps0, hostOps0_1, hostOps0_2, hostOps0_3, hostOps0_4, hostOps0_5, hostOps0_6]
  after_results_simp
  rfl

theorem v22_apply (e : Fin 1600000) (u : Fin 1) :
    (afterHost0 W0 (Proc.devRef .tc main_v22) : FVec F S1600000x1 .f32) (ix2 e u)
      = Cert.Gate.gateOf (W0 (Proc.devRef .tc main_arg2) : FVec F S100000 .f32)
          (W0 (Proc.devRef .tc main_arg3) : FVec F S1600000 .f32)
          (Cert.Gate.row0 (W0 (Proc.devRef .tc main_arg1) : IVec S2x1600000 32)) (ix1 e) := by
  rw [v22_eq, shapeCast_a_a1_apply]

/-- The node features padded to 102400 rows: the features' own rows, then rows of the converted zero word. -/
theorem v23_eq :
    (afterHost0 W0 (Proc.devRef .tc main_v23) : FVec F S102400x64 .f32)
      = pad S102400x64 ![0, 0] ![2400, 0] ![0, 0] (W0 (Proc.devRef .tc main_arg0) : FVec F S100000x64 .f32)
          (sitofp .f32 (constantI S_ 32 0#32) : FVec F S_ .f32) pads_S100000x64_S102400x64_024000_000 h_S_ := by
  dsimp only [afterHost0, hostOps0, hostOps0_1, hostOps0_2, hostOps0_3, hostOps0_4, hostOps0_5, hostOps0_6]
  after_results_simp
  rfl

theorem v23_apply_lt (r : Fin 102400) (k : Fin 64) (hr : r.val < 100000) :
    (afterHost0 W0 (Proc.devRef .tc main_v23) : FVec F S102400x64 .f32) (ix2 r k)
      = (W0 (Proc.devRef .tc main_arg0) : FVec F S100000x64 .f32) (ix2 (⟨r.val, hr⟩ : Fin 100000) k) := by
  rw [v23_eq]
  refine pad_apply_of_inside _ _ _ _ _ _ _ _ _ fun a => ?_
  match a with
  | ⟨0, _⟩ => show r.val = 0 + r.val * (0 + 1); omega
  | ⟨1, _⟩ => show k.val = 0 + k.val * (0 + 1); omega

theorem v23_apply_ge (r : Fin 102400) (k : Fin 64) (hr : 100000 ≤ r.val) :
    (afterHost0 W0 (Proc.devRef .tc main_v23) : FVec F S102400x64 .f32) (ix2 r k)
      = FloatOps.sitofp (F := F) .f32 (0#32 : BitVec 32) := by
  rw [v23_eq]
  refine (pad_apply_of_not_inside _ _ _ _ _ _ _ _ (0 : Fin 2) fun h => ?_).trans rfl
  have h3 : (r.val - 0) / (0 + 1) < 100000 := h.2.2
  omega

/-- The first layer's weights transposed. -/
theorem v24_eq :
    (afterHost0 W0 (Proc.devRef .tc main_v24) : FVec F S64x64 .f32)
      = transpose S64x64 [1, 0] (W0 (Proc.devRef .tc main_arg4) : FVec F S64x64 .f32) transposes_S64x64_S64x64_1_0 := by
  dsimp only [afterHost0, hostOps0, hostOps0_1, hostOps0_2, hostOps0_3, hostOps0_4, hostOps0_5, hostOps0_6]
  after_results_simp

theorem v24_apply (j i : Fin 64) :
    (afterHost0 W0 (Proc.devRef .tc main_v24) : FVec F S64x64 .f32) (ix2 j i)
      = (W0 (Proc.devRef .tc main_arg4) : FVec F S64x64 .f32) (ix2 i j) := by
  rw [v24_eq, transpose_ix2_apply]

/-- The first layer's bias as a row. -/
theorem v25_eq :
    (afterHost0 W0 (Proc.devRef .tc main_v25) : FVec F S1x64 .f32)
      = shapeCast S1x64 (W0 (Proc.devRef .tc main_arg5) : FVec F S64 .f32) shapeCasts_S64_S1x64 := by
  dsimp only [afterHost0, hostOps0, hostOps0_1, hostOps0_2, hostOps0_3, hostOps0_4, hostOps0_5, hostOps0_6]
  after_results_simp
  rfl

theorem v25_apply (u : Fin 1) (k : Fin 64) :
    (afterHost0 W0 (Proc.devRef .tc main_v25) : FVec F S1x64 .f32) (ix2 u k)
      = (W0 (Proc.devRef .tc main_arg5) : FVec F S64 .f32) (ix1 k) := by
  rw [v25_eq, shapeCast_a_1a_apply]

/-! ## The later host stretches, each from an arbitrary valuation `W` before it -/

variable (W : Valuation τ sig (Elt F))

/-- A vector cast to a row, after a stretch of two such casts: the first … -/
theorem v28_apply (u : Fin 1) (k : Fin 64) :
    (StableHlo.after hostOps2 W (Proc.devRef .tc main_v28) : FVec F S1x64 .f32) (ix2 u k)
      = (W (Proc.devRef .tc main_arg10) : FVec F S64 .f32) (ix1 k) := by
  have e : (StableHlo.after hostOps2 W (Proc.devRef .tc main_v28) : FVec F S1x64 .f32)
      = shapeCast S1x64 (W (Proc.devRef .tc main_arg10) : FVec F S64 .f32) shapeCasts_S64_S1x64 := by
    dsimp only [hostOps2]; after_results_simp; rfl
  rw [e, shapeCast_a_1a_apply]

/-- … and the second. -/
theorem v29_apply (u : Fin 1) (k : Fin 64) :
    (StableHlo.after hostOps2 W (Proc.devRef .tc main_v29) : FVec F S1x64 .f32) (ix2 u k)
      = (W (Proc.devRef .tc main_arg11) : FVec F S64 .f32) (ix1 k) := by
  have e : (StableHlo.after hostOps2 W (Proc.devRef .tc main_v29) : FVec F S1x64 .f32)
      = shapeCast S1x64 (W (Proc.devRef .tc main_arg11) : FVec F S64 .f32) shapeCasts_S64_S1x64 := by
    dsimp only [hostOps2]; after_results_simp; rfl
  rw [e, shapeCast_a_1a_apply]

/-- The second layer's weights transposed … -/
theorem v31_apply (j i : Fin 64) :
    (StableHlo.after hostOps3 W (Proc.devRef .tc main_v31) : FVec F S64x64 .f32) (ix2 j i)
      = (W (Proc.devRef .tc main_arg6) : FVec F S64x64 .f32) (ix2 i j) := by
  have e : (StableHlo.after hostOps3 W (Proc.devRef .tc main_v31) : FVec F S64x64 .f32)
      = transpose S64x64 [1, 0] (W (Proc.devRef .tc main_arg6) : FVec F S64x64 .f32) transposes_S64x64_S64x64_1_0 := by
    dsimp only [hostOps3]; after_results_simp
  rw [e, transpose_ix2_apply]

/-- … and its bias as a row. -/
theorem v32_apply (u : Fin 1) (k : Fin 64) :
    (StableHlo.after hostOps3 W (Proc.devRef .tc main_v32) : FVec F S1x64 .f32) (ix2 u k)
      = (W (Proc.devRef .tc main_arg7) : FVec F S64 .f32) (ix1 k) := by
  have e : (StableHlo.after hostOps3 W (Proc.devRef .tc main_v32) : FVec F S1x64 .f32)
      = shapeCast S1x64 (W (Proc.devRef .tc main_arg7) : FVec F S64 .f32) shapeCasts_S64_S1x64 := by
    dsimp only [hostOps3]; after_results_simp; rfl
  rw [e, shapeCast_a_1a_apply]

theorem v35_apply (u : Fin 1) (k : Fin 64) :
    (StableHlo.after hostOps5 W (Proc.devRef .tc main_v35) : FVec F S1x64 .f32) (ix2 u k)
      = (W (Proc.devRef .tc main_arg12) : FVec F S64 .f32) (ix1 k) := by
  have e : (StableHlo.after hostOps5 W (Proc.devRef .tc main_v35) : FVec F S1x64 .f32)
      = shapeCast S1x64 (W (Proc.devRef .tc main_arg12) : FVec F S64 .f32) shapeCasts_S64_S1x64 := by
    dsimp only [hostOps5]; after_results_simp; rfl
  rw [e, shapeCast_a_1a_apply]

theorem v36_apply (u : Fin 1) (k : Fin 64) :
    (StableHlo.after hostOps5 W (Proc.devRef .tc main_v36) : FVec F S1x64 .f32) (ix2 u k)
      = (W (Proc.devRef .tc main_arg13) : FVec F S64 .f32) (ix1 k) := by
  have e : (StableHlo.after hostOps5 W (Proc.devRef .tc main_v36) : FVec F S1x64 .f32)
      = shapeCast S1x64 (W (Proc.devRef .tc main_arg13) : FVec F S64 .f32) shapeCasts_S64_S1x64 := by
    dsimp only [hostOps5]; after_results_simp; rfl
  rw [e, shapeCast_a_1a_apply]

/-- The third layer's weights transposed, [64, 153] … -/
theorem v38_apply (j : Fin 64) (i : Fin 153) :
    (StableHlo.after hostOps6 W (Proc.devRef .tc main_v38) : FVec F S64x153 .f32) (ix2 j i)
      = (W (Proc.devRef .tc main_arg8) : FVec F S153x64 .f32) (ix2 i j) := by
  have e : (StableHlo.after hostOps6 W (Proc.devRef .tc main_v38) : FVec F S64x153 .f32)
      = transpose S64x153 [1, 0] (W (Proc.devRef .tc main_arg8) : FVec F S153x64 .f32) transposes_S153x64_S64x153_1_0 := by
    dsimp only [hostOps6]; after_results_simp
  rw [e, transpose_ix2_apply]

/-- … and its bias as a row. -/
theorem v39_apply (u : Fin 1) (k : Fin 153) :
    (StableHlo.after hostOps6 W (Proc.devRef .tc main_v39) : FVec F S1x153 .f32) (ix2 u k)
      = (W (Proc.devRef .tc main_arg9) : FVec F S153 .f32) (ix1 k) := by
  have e : (StableHlo.after hostOps6 W (Proc.devRef .tc main_v39) : FVec F S1x153 .f32)
      = shapeCast S1x153 (W (Proc.devRef .tc main_arg9) : FVec F S153 .f32) shapeCasts_S153_S1x153 := by
    dsimp only [hostOps6]; after_results_simp; rfl
  rw [e, shapeCast_a_1a_apply]

theorem v42_apply (u : Fin 1) (k : Fin 153) :
    (StableHlo.after hostOps8 W (Proc.devRef .tc main_v42) : FVec F S1x153 .f32) (ix2 u k)
      = (W (Proc.devRef .tc main_arg14) : FVec F S153 .f32) (ix1 k) := by
  have e : (StableHlo.after hostOps8 W (Proc.devRef .tc main_v42) : FVec F S1x153 .f32)
      = shapeCast S1x153 (W (Proc.devRef .tc main_arg14) : FVec F S153 .f32) shapeCasts_S153_S1x153 := by
    dsimp only [hostOps8]; after_results_simp; rfl
  rw [e, shapeCast_a_1a_apply]

theorem v43_apply (u : Fin 1) (k : Fin 153) :
    (StableHlo.after hostOps8 W (Proc.devRef .tc main_v43) : FVec F S1x153 .f32) (ix2 u k)
      = (W (Proc.devRef .tc main_arg15) : FVec F S153 .f32) (ix1 k) := by
  have e : (StableHlo.after hostOps8 W (Proc.devRef .tc main_v43) : FVec F S1x153 .f32)
      = shapeCast S1x153 (W (Proc.devRef .tc main_arg15) : FVec F S153 .f32) shapeCasts_S153_S1x153 := by
    dsimp only [hostOps8]; after_results_simp; rfl
  rw [e, shapeCast_a_1a_apply]

/-- The result: the first 100000 rows of the last region's output. -/
theorem v45_apply (r : Fin 100000) (k : Fin 153) :
    (StableHlo.after hostOps9 W (Proc.devRef .tc main_v45) : FVec F S100000x153 .f32) (ix2 r k)
      = (W (Proc.devRef .tc main_v44) : FVec F S102400x153 .f32) (ix2 (⟨r.val, by omega⟩ : Fin 102400) k) := by
  have e : (StableHlo.after hostOps9 W (Proc.devRef .tc main_v45) : FVec F S100000x153 .f32)
      = extractStridedSlice S100000x153 ![0, 0] (W (Proc.devRef .tc main_v44) : FVec F S102400x153 .f32) slices_S102400x153_S100000x153_0_0 := by
    dsimp only [hostOps9]; after_results_simp
  rw [e]
  exact slice2_axis0_apply 0 _ _ r k _ (by show r.val = 0 + r.val; omega)

end Cert.KernelIdeal.H

end
-- ==== Proof.KI.Walk.lean ====
import proofs.«421344_j1254130450614_1_alg».proof.Proof.KI.Vals

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # Where each region's input arrays come from

Between the boundaries of @main's items a buffer changes only where an item writes it: a stretch of host operations
writes the results of its operations, a region writes its output array (an input array it holds is left as entered).
So the contents a region finds in an input array at its entry are, walking back item by item: the write-backs of the
region that produced the array, or the result of the host stretch that computed it, or (for the index vectors, computed
before the first region) what the seventh stretch left. The arguments of @main are written by nothing at all and hold
the launch memory throughout. -/

/-! ## The launch memory under the first seven stretches -/

/-- A buffer none of the first seven stretches of host operations writes holds, after them, the launch memory. -/
theorem W7_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m ρ c (Proc.devRef .tc r) = m ((c : Thread nD τ).loc r) :=
  calc W7 m ρ c (Proc.devRef .tc r)
    _ = W6 m ρ c (Proc.devRef .tc r) := W7_keep m ρ c r h6
    _ = W5 m ρ c (Proc.devRef .tc r) := W6_keep m ρ c r h5
    _ = W4 m ρ c (Proc.devRef .tc r) := W5_keep m ρ c r h4
    _ = W3 m ρ c (Proc.devRef .tc r) := W4_keep m ρ c r h3
    _ = W2 m ρ c (Proc.devRef .tc r) := W3_keep m ρ c r h2
    _ = W1 m ρ c (Proc.devRef .tc r) := W2_keep m ρ c r h1
    _ = W0 m ρ c (Proc.devRef .tc r) := W1_keep m ρ c r h0
    _ = m ((c : Thread nD τ).loc r) := rfl

theorem W7_main_arg0 (c : Dev nD) : W7 m ρ c (Proc.devRef .tc main_arg0) = m ((c : Thread nD τ).loc main_arg0) :=
  W7_launch m ρ c main_arg0 (by decide) (by decide) (by decide) (by decide) (by decide) (by decide) (by decide)
theorem W7_main_arg1 (c : Dev nD) : W7 m ρ c (Proc.devRef .tc main_arg1) = m ((c : Thread nD τ).loc main_arg1) :=
  W7_launch m ρ c main_arg1 (by decide) (by decide) (by decide) (by decide) (by decide) (by decide) (by decide)
theorem W7_main_arg2 (c : Dev nD) : W7 m ρ c (Proc.devRef .tc main_arg2) = m ((c : Thread nD τ).loc main_arg2) :=
  W7_launch m ρ c main_arg2 (by decide) (by decide) (by decide) (by decide) (by decide) (by decide) (by decide)
theorem W7_main_arg3 (c : Dev nD) : W7 m ρ c (Proc.devRef .tc main_arg3) = m ((c : Thread nD τ).loc main_arg3) :=
  W7_launch m ρ c main_arg3 (by decide) (by decide) (by decide) (by decide) (by decide) (by decide) (by decide)
theorem W7_main_arg4 (c : Dev nD) : W7 m ρ c (Proc.devRef .tc main_arg4) = m ((c : Thread nD τ).loc main_arg4) :=
  W7_launch m ρ c main_arg4 (by decide) (by decide) (by decide) (by decide) (by decide) (by decide) (by decide)
theorem W7_main_arg5 (c : Dev nD) : W7 m ρ c (Proc.devRef .tc main_arg5) = m ((c : Thread nD τ).loc main_arg5) :=
  W7_launch m ρ c main_arg5 (by decide) (by decide) (by decide) (by decide) (by decide) (by decide) (by decide)
theorem W7_main_arg6 (c : Dev nD) : W7 m ρ c (Proc.devRef .tc main_arg6) = m ((c : Thread nD τ).loc main_arg6) :=
  W7_launch m ρ c main_arg6 (by decide) (by decide) (by decide) (by decide) (by decide) (by decide) (by decide)
theorem W7_main_arg7 (c : Dev nD) : W7 m ρ c (Proc.devRef .tc main_arg7) = m ((c : Thread nD τ).loc main_arg7) :=
  W7_launch m ρ c main_arg7 (by decide) (by decide) (by decide) (by decide) (by decide) (by decide) (by decide)
theorem W7_main_arg8 (c : Dev nD) : W7 m ρ c (Proc.devRef .tc main_arg8) = m ((c : Thread nD τ).loc main_arg8) :=
  W7_launch m ρ c main_arg8 (by decide) (by decide) (by decide) (by decide) (by decide) (by decide) (by decide)
theorem W7_main_arg9 (c : Dev nD) : W7 m ρ c (Proc.devRef .tc main_arg9) = m ((c : Thread nD τ).loc main_arg9) :=
  W7_launch m ρ c main_arg9 (by decide) (by decide) (by decide) (by decide) (by decide) (by decide) (by decide)
theorem W7_main_arg10 (c : Dev nD) : W7 m ρ c (Proc.devRef .tc main_arg10) = m ((c : Thread nD τ).loc main_arg10) :=
  W7_launch m ρ c main_arg10 (by decide) (by decide) (by decide) (by decide) (by decide) (by decide) (by decide)
theorem W7_main_arg11 (c : Dev nD) : W7 m ρ c (Proc.devRef .tc main_arg11) = m ((c : Thread nD τ).loc main_arg11) :=
  W7_launch m ρ c main_arg11 (by decide) (by decide) (by decide) (by decide) (by decide) (by decide) (by decide)
theorem W7_main_arg12 (c : Dev nD) : W7 m ρ c (Proc.devRef .tc main_arg12) = m ((c : Thread nD τ).loc main_arg12) :=
  W7_launch m ρ c main_arg12 (by decide) (by decide) (by decide) (by decide) (by decide) (by decide) (by decide)
theorem W7_main_arg13 (c : Dev nD) : W7 m ρ c (Proc.devRef .tc main_arg13) = m ((c : Thread nD τ).loc main_arg13) :=
  W7_launch m ρ c main_arg13 (by decide) (by decide) (by decide) (by decide) (by decide) (by decide) (by decide)
theorem W7_main_arg14 (c : Dev nD) : W7 m ρ c (Proc.devRef .tc main_arg14) = m ((c : Thread nD τ).loc main_arg14) :=
  W7_launch m ρ c main_arg14 (by decide) (by decide) (by decide) (by decide) (by decide) (by decide) (by decide)
theorem W7_main_arg15 (c : Dev nD) : W7 m ρ c (Proc.devRef .tc main_arg15) = m ((c : Thread nD τ).loc main_arg15) :=
  W7_launch m ρ c main_arg15 (by decide) (by decide) (by decide) (by decide) (by decide) (by decide) (by decide)

/-! ## A buffer that the items between two boundaries leave alone

Each lemma walks from the entry of one of the later host stretches (or of the last region) back to the entry of the
previous one, for a buffer that is neither written by the host stretch in between nor an array of a region in between. -/

theorem W9_of_W7 (c : Dev nD) (r : Ref sig .tc) (a0 : ∀ w, Pipeline.arrRef spec0 w ≠ r) (a1 : ∀ w, Pipeline.arrRef spec1 w ≠ r) :
    W9 m ρ c (Proc.devRef .tc r) = W7 m ρ c (Proc.devRef .tc r) :=
  (W9_of_ne m ρ c r a1).trans (W8_of_ne m ρ c r a0)

theorem W11_of_W9 (c : Dev nD) (r : Ref sig .tc) (h : r ∉ hostOps2_W) (a2 : ∀ w, Pipeline.arrRef spec2 w ≠ r) :
    W11 m ρ c (Proc.devRef .tc r) = W9 m ρ c (Proc.devRef .tc r) :=
  (W11_of_ne m ρ c r a2).trans (W10_keep m ρ c r h)

theorem W14_of_W11 (c : Dev nD) (r : Ref sig .tc) (h : r ∉ hostOps3_W) (a3 : ∀ w, Pipeline.arrRef spec3 w ≠ r)
    (a4 : ∀ w, Pipeline.arrRef spec4 w ≠ r) : W14 m ρ c (Proc.devRef .tc r) = W11 m ρ c (Proc.devRef .tc r) :=
  (W14_of_ne m ρ c r a4).trans ((W13_of_ne m ρ c r a3).trans (W12_keep m ρ c r h))

theorem W16_of_W14 (c : Dev nD) (r : Ref sig .tc) (h : r ∉ hostOps5_W) (a5 : ∀ w, Pipeline.arrRef spec5 w ≠ r) :
    W16 m ρ c (Proc.devRef .tc r) = W14 m ρ c (Proc.devRef .tc r) :=
  (W16_of_ne m ρ c r a5).trans (W15_keep m ρ c r h)

theorem W19_of_W16 (c : Dev nD) (r : Ref sig .tc) (h : r ∉ hostOps6_W) (a6 : ∀ w, Pipeline.arrRef spec6 w ≠ r)
    (a7 : ∀ w, Pipeline.arrRef spec7 w ≠ r) : W19 m ρ c (Proc.devRef .tc r) = W16 m ρ c (Proc.devRef .tc r) :=
  (W19_of_ne m ρ c r a7).trans ((W18_of_ne m ρ c r a6).trans (W17_keep m ρ c r h))

/-! ## Region 1 (the first gather): the two index vectors as the seventh stretch left them, the table from region 0 -/

theorem Vent1_main_v20 (c : Dev nD) : Vent1 m ρ c main_v20 = W7 m ρ c (Proc.devRef .tc main_v20) :=
  W8_of_ne m ρ c main_v20 (by decide)

theorem Vent1_main_v22 (c : Dev nD) : Vent1 m ρ c main_v22 = W7 m ρ c (Proc.devRef .tc main_v22) :=
  W8_of_ne m ρ c main_v22 (by decide)

theorem Vent1_main_v26 (c : Dev nD) : Vent1 m ρ c main_v26 = (dat0 (Vent0 m ρ) c).arrAt 3 cfg0.N :=
  W8_arr m ρ c 3

/-- Region 1 holds the index vectors as inputs: it leaves them as it found them. -/
theorem W9_main_v20 (c : Dev nD) : W9 m ρ c (Proc.devRef .tc main_v20) = W8 m ρ c (Proc.devRef .tc main_v20) :=
  calc W9 m ρ c (Proc.devRef .tc main_v20)
    _ = (dat1 (Vent1 m ρ) c).arrAt 0 cfg1.N := W9_arr m ρ c 0
    _ = (dat1 (Vent1 m ρ) c).A 0 := (dat1 (Vent1 m ρ) c).arrAt_in 0 rfl _
    _ = W8 m ρ c (Proc.devRef .tc main_v20) := A_eq1 (Vent1 m ρ) c 0

theorem W9_main_v22 (c : Dev nD) : W9 m ρ c (Proc.devRef .tc main_v22) = W8 m ρ c (Proc.devRef .tc main_v22) :=
  calc W9 m ρ c (Proc.devRef .tc main_v22)
    _ = (dat1 (Vent1 m ρ) c).arrAt 1 cfg1.N := W9_arr m ρ c 1
    _ = (dat1 (Vent1 m ρ) c).A 1 := (dat1 (Vent1 m ρ) c).arrAt_in 1 rfl _
    _ = W8 m ρ c (Proc.devRef .tc main_v22) := A_eq1 (Vent1 m ρ) c 1

/-! ## Region 2 (the first scatter and normalisation) -/

theorem Vent2_main_v21 (c : Dev nD) : Vent2 m ρ c main_v21 = W7 m ρ c (Proc.devRef .tc main_v21) :=
  (W10_keep m ρ c main_v21 (by decide)).trans (W9_of_W7 m ρ c main_v21 (by decide) (by decide))

theorem Vent2_main_v27 (c : Dev nD) : Vent2 m ρ c main_v27 = (dat1 (Vent1 m ρ) c).arrAt 3 cfg1.N :=
  calc Vent2 m ρ c main_v27
    _ = W9 m ρ c (Proc.devRef .tc main_v27) := W10_keep m ρ c main_v27 (by decide)
    _ = (dat1 (Vent1 m ρ) c).arrAt 3 cfg1.N := W9_arr m ρ c 3

theorem Vent2_main_v28 (c : Dev nD) :
    Vent2 m ρ c main_v28 = StableHlo.after hostOps2 (W9 m ρ c) (Proc.devRef .tc main_v28) := rfl

theorem Vent2_main_v29 (c : Dev nD) :
    Vent2 m ρ c main_v29 = StableHlo.after hostOps2 (W9 m ρ c) (Proc.devRef .tc main_v29) := rfl

theorem W9_main_arg10 (c : Dev nD) : W9 m ρ c (Proc.devRef .tc main_arg10) = m ((c : Thread nD τ).loc main_arg10) :=
  (W9_of_W7 m ρ c main_arg10 (by decide) (by decide)).trans (W7_main_arg10 m ρ c)

theorem W9_main_arg11 (c : Dev nD) : W9 m ρ c (Proc.devRef .tc main_arg11) = m ((c : Thread nD τ).loc main_arg11) :=
  (W9_of_W7 m ρ c main_arg11 (by decide) (by decide)).trans (W7_main_arg11 m ρ c)

/-- Region 2 holds the column index vector as an input. -/
theorem W11_main_v21 (c : Dev nD) : W11 m ρ c (Proc.devRef .tc main_v21) = W10 m ρ c (Proc.devRef .tc main_v21) :=
  calc W11 m ρ c (Proc.devRef .tc main_v21)
    _ = (dat2 (Vent2 m ρ) c).arrAt 0 cfg2.N := W11_arr m ρ c 0
    _ = (dat2 (Vent2 m ρ) c).A 0 := (dat2 (Vent2 m ρ) c).arrAt_in 0 rfl _
    _ = W10 m ρ c (Proc.devRef .tc main_v21) := A_eq2 (Vent2 m ρ) c 0

/-! ## Region 3 (the second linear layer) -/

theorem Vent3_main_v30 (c : Dev nD) : Vent3 m ρ c main_v30 = (dat2 (Vent2 m ρ) c).arrAt 4 cfg2.N :=
  calc Vent3 m ρ c main_v30
    _ = W11 m ρ c (Proc.devRef .tc main_v30) := W12_keep m ρ c main_v30 (by decide)
    _ = (dat2 (Vent2 m ρ) c).arrAt 4 cfg2.N := W11_arr m ρ c 4

theorem Vent3_main_v31 (c : Dev nD) :
    Vent3 m ρ c main_v31 = StableHlo.after hostOps3 (W11 m ρ c) (Proc.devRef .tc main_v31) := rfl

theorem Vent3_main_v32 (c : Dev nD) :
    Vent3 m ρ c main_v32 = StableHlo.after hostOps3 (W11 m ρ c) (Proc.devRef .tc main_v32) := rfl

theorem W11_main_arg6 (c : Dev nD) : W11 m ρ c (Proc.devRef .tc main_arg6) = m ((c : Thread nD τ).loc main_arg6) :=
  (W11_of_W9 m ρ c main_arg6 (by decide) (by decide)).trans
    ((W9_of_W7 m ρ c main_arg6 (by decide) (by decide)).trans (W7_main_arg6 m ρ c))

theorem W11_main_arg7 (c : Dev nD) : W11 m ρ c (Proc.devRef .tc main_arg7) = m ((c : Thread nD τ).loc main_arg7) :=
  (W11_of_W9 m ρ c main_arg7 (by decide) (by decide)).trans
    ((W9_of_W7 m ρ c main_arg7 (by decide) (by decide)).trans (W7_main_arg7 m ρ c))

/-- Region 3 holds the first layer's result as an input. -/
theorem W13_main_v30 (c : Dev nD) : W13 m ρ c (Proc.devRef .tc main_v30) = W12 m ρ c (Proc.devRef .tc main_v30) :=
  calc W13 m ρ c (Proc.devRef .tc main_v30)
    _ = (dat3 (Vent3 m ρ) c).arrAt 0 cfg3.N := W13_arr m ρ c 0
    _ = (dat3 (Vent3 m ρ) c).A 0 := (dat3 (Vent3 m ρ) c).arrAt_in 0 rfl _
    _ = W12 m ρ c (Proc.devRef .tc main_v30) := A_eq3 (Vent3 m ρ) c 0

/-! ## Region 4 (the second gather) -/

theorem Vent4_main_v20 (c : Dev nD) : Vent4 m ρ c main_v20 = W7 m ρ c (Proc.devRef .tc main_v20) :=
  calc Vent4 m ρ c main_v20
    _ = W12 m ρ c (Proc.devRef .tc main_v20) := W13_of_ne m ρ c main_v20 (by decide)
    _ = W11 m ρ c (Proc.devRef .tc main_v20) := W12_keep m ρ c main_v20 (by decide)
    _ = W9 m ρ c (Proc.devRef .tc main_v20) := W11_of_W9 m ρ c main_v20 (by decide) (by decide)
    _ = W8 m ρ c (Proc.devRef .tc main_v20) := W9_main_v20 m ρ c
    _ = W7 m ρ c (Proc.devRef .tc main_v20) := Vent1_main_v20 m ρ c

theorem Vent4_main_v22 (c : Dev nD) : Vent4 m ρ c main_v22 = W7 m ρ c (Proc.devRef .tc main_v22) :=
  calc Vent4 m ρ c main_v22
    _ = W12 m ρ c (Proc.devRef .tc main_v22) := W13_of_ne m ρ c main_v22 (by decide)
    _ = W11 m ρ c (Proc.devRef .tc main_v22) := W12_keep m ρ c main_v22 (by decide)
    _ = W9 m ρ c (Proc.devRef .tc main_v22) := W11_of_W9 m ρ c main_v22 (by decide) (by decide)
    _ = W8 m ρ c (Proc.devRef .tc main_v22) := W9_main_v22 m ρ c
    _ = W7 m ρ c (Proc.devRef .tc main_v22) := Vent1_main_v22 m ρ c

theorem Vent4_main_v33 (c : Dev nD) : Vent4 m ρ c main_v33 = (dat3 (Vent3 m ρ) c).arrAt 3 cfg3.N :=
  W13_arr m ρ c 3

/-- Region 4 holds the index vectors as inputs. -/
theorem W14_main_v20 (c : Dev nD) : W14 m ρ c (Proc.devRef .tc main_v20) = W13 m ρ c (Proc.devRef .tc main_v20) :=
  calc W14 m ρ c (Proc.devRef .tc main_v20)
    _ = (dat4 (Vent4 m ρ) c).arrAt 0 cfg4.N := W14_arr m ρ c 0
    _ = (dat4 (Vent4 m ρ) c).A 0 := (dat4 (Vent4 m ρ) c).arrAt_in 0 rfl _
    _ = W13 m ρ c (Proc.devRef .tc main_v20) := A_eq4 (Vent4 m ρ) c 0

theorem W14_main_v22 (c : Dev nD) : W14 m ρ c (Proc.devRef .tc main_v22) = W13 m ρ c (Proc.devRef .tc main_v22) :=
  calc W14 m ρ c (Proc.devRef .tc main_v22)
    _ = (dat4 (Vent4 m ρ) c).arrAt 1 cfg4.N := W14_arr m ρ c 1
    _ = (dat4 (Vent4 m ρ) c).A 1 := (dat4 (Vent4 m ρ) c).arrAt_in 1 rfl _
    _ = W13 m ρ c (Proc.devRef .tc main_v22) := A_eq4 (Vent4 m ρ) c 1

/-! ## Region 5 (the second scatter and normalisation, with the first layer's result as the residual) -/

theorem Vent5_main_v21 (c : Dev nD) : Vent5 m ρ c main_v21 = W7 m ρ c (Proc.devRef .tc main_v21) :=
  calc Vent5 m ρ c main_v21
    _ = W14 m ρ c (Proc.devRef .tc main_v21) := W15_keep m ρ c main_v21 (by decide)
    _ = W11 m ρ c (Proc.devRef .tc main_v21) := W14_of_W11 m ρ c main_v21 (by decide) (by decide) (by decide)
    _ = W10 m ρ c (Proc.devRef .tc main_v21) := W11_main_v21 m ρ c
    _ = W7 m ρ c (Proc.devRef .tc main_v21) := Vent2_main_v21 m ρ c

theorem Vent5_main_v34 (c : Dev nD) : Vent5 m ρ c main_v34 = (dat4 (Vent4 m ρ) c).arrAt 3 cfg4.N :=
  calc Vent5 m ρ c main_v34
    _ = W14 m ρ c (Proc.devRef .tc main_v34) := W15_keep m ρ c main_v34 (by decide)
    _ = (dat4 (Vent4 m ρ) c).arrAt 3 cfg4.N := W14_arr m ρ c 3

theorem Vent5_main_v35 (c : Dev nD) :
    Vent5 m ρ c main_v35 = StableHlo.after hostOps5 (W14 m ρ c) (Proc.devRef .tc main_v35) := rfl

theorem Vent5_main_v36 (c : Dev nD) :
    Vent5 m ρ c main_v36 = StableHlo.after hostOps5 (W14 m ρ c) (Proc.devRef .tc main_v36) := rfl

theorem W14_main_arg12 (c : Dev nD) : W14 m ρ c (Proc.devRef .tc main_arg12) = m ((c : Thread nD τ).loc main_arg12) :=
  (W14_of_W11 m ρ c main_arg12 (by decide) (by decide) (by decide)).trans
    ((W11_of_W9 m ρ c main_arg12 (by decide) (by decide)).trans
      ((W9_of_W7 m ρ c main_arg12 (by decide) (by decide)).trans (W7_main_arg12 m ρ c)))

theorem W14_main_arg13 (c : Dev nD) : W14 m ρ c (Proc.devRef .tc main_arg13) = m ((c : Thread nD τ).loc main_arg13) :=
  (W14_of_W11 m ρ c main_arg13 (by decide) (by decide) (by decide)).trans
    ((W11_of_W9 m ρ c main_arg13 (by decide) (by decide)).trans
      ((W9_of_W7 m ρ c main_arg13 (by decide) (by decide)).trans (W7_main_arg13 m ρ c)))

theorem Vent5_main_v30 (c : Dev nD) : Vent5 m ρ c main_v30 = (dat2 (Vent2 m ρ) c).arrAt 4 cfg2.N :=
  calc Vent5 m ρ c main_v30
    _ = W14 m ρ c (Proc.devRef .tc main_v30) := W15_keep m ρ c main_v30 (by decide)
    _ = W13 m ρ c (Proc.devRef .tc main_v30) := W14_of_ne m ρ c main_v30 (by decide)
    _ = W12 m ρ c (Proc.devRef .tc main_v30) := W13_main_v30 m ρ c
    _ = (dat2 (Vent2 m ρ) c).arrAt 4 cfg2.N := Vent3_main_v30 m ρ c

/-- Region 5 holds the column index vector as an input. -/
theorem W16_main_v21 (c : Dev nD) : W16 m ρ c (Proc.devRef .tc main_v21) = W15 m ρ c (Proc.devRef .tc main_v21) :=
  calc W16 m ρ c (Proc.devRef .tc main_v21)
    _ = (dat5 (Vent5 m ρ) c).arrAt 0 cfg5.N := W16_arr m ρ c 0
    _ = (dat5 (Vent5 m ρ) c).A 0 := (dat5 (Vent5 m ρ) c).arrAt_in 0 rfl _
    _ = W15 m ρ c (Proc.devRef .tc main_v21) := A_eq5 (Vent5 m ρ) c 0

/-! ## Region 6 (the third linear layer) -/

theorem Vent6_main_v37 (c : Dev nD) : Vent6 m ρ c main_v37 = (dat5 (Vent5 m ρ) c).arrAt 5 cfg5.N :=
  calc Vent6 m ρ c main_v37
    _ = W16 m ρ c (Proc.devRef .tc main_v37) := W17_keep m ρ c main_v37 (by decide)
    _ = (dat5 (Vent5 m ρ) c).arrAt 5 cfg5.N := W16_arr m ρ c 5

theorem Vent6_main_v38 (c : Dev nD) :
    Vent6 m ρ c main_v38 = StableHlo.after hostOps6 (W16 m ρ c) (Proc.devRef .tc main_v38) := rfl

theorem Vent6_main_v39 (c : Dev nD) :
    Vent6 m ρ c main_v39 = StableHlo.after hostOps6 (W16 m ρ c) (Proc.devRef .tc main_v39) := rfl

theorem W16_main_arg8 (c : Dev nD) : W16 m ρ c (Proc.devRef .tc main_arg8) = m ((c : Thread nD τ).loc main_arg8) :=
  (W16_of_W14 m ρ c main_arg8 (by decide) (by decide)).trans
    ((W14_of_W11 m ρ c main_arg8 (by decide) (by decide) (by decide)).trans
      ((W11_of_W9 m ρ c main_arg8 (by decide) (by decide)).trans
        ((W9_of_W7 m ρ c main_arg8 (by decide) (by decide)).trans (W7_main_arg8 m ρ c))))

theorem W16_main_arg9 (c : Dev nD) : W16 m ρ c (Proc.devRef .tc main_arg9) = m ((c : Thread nD τ).loc main_arg9) :=
  (W16_of_W14 m ρ c main_arg9 (by decide) (by decide)).trans
    ((W14_of_W11 m ρ c main_arg9 (by decide) (by decide) (by decide)).trans
      ((W11_of_W9 m ρ c main_arg9 (by decide) (by decide)).trans
        ((W9_of_W7 m ρ c main_arg9 (by decide) (by decide)).trans (W7_main_arg9 m ρ c))))

/-! ## Region 7 (the third gather) -/

theorem Vent7_main_v20 (c : Dev nD) : Vent7 m ρ c main_v20 = W7 m ρ c (Proc.devRef .tc main_v20) :=
  calc Vent7 m ρ c main_v20
    _ = W17 m ρ c (Proc.devRef .tc main_v20) := W18_of_ne m ρ c main_v20 (by decide)
    _ = W16 m ρ c (Proc.devRef .tc main_v20) := W17_keep m ρ c main_v20 (by decide)
    _ = W14 m ρ c (Proc.devRef .tc main_v20) := W16_of_W14 m ρ c main_v20 (by decide) (by decide)
    _ = W13 m ρ c (Proc.devRef .tc main_v20) := W14_main_v20 m ρ c
    _ = W7 m ρ c (Proc.devRef .tc main_v20) := Vent4_main_v20 m ρ c

theorem Vent7_main_v22 (c : Dev nD) : Vent7 m ρ c main_v22 = W7 m ρ c (Proc.devRef .tc main_v22) :=
  calc Vent7 m ρ c main_v22
    _ = W17 m ρ c (Proc.devRef .tc main_v22) := W18_of_ne m ρ c main_v22 (by decide)
    _ = W16 m ρ c (Proc.devRef .tc main_v22) := W17_keep m ρ c main_v22 (by decide)
    _ = W14 m ρ c (Proc.devRef .tc main_v22) := W16_of_W14 m ρ c main_v22 (by decide) (by decide)
    _ = W13 m ρ c (Proc.devRef .tc main_v22) := W14_main_v22 m ρ c
    _ = W7 m ρ c (Proc.devRef .tc main_v22) := Vent4_main_v22 m ρ c

theorem Vent7_main_v40 (c : Dev nD) : Vent7 m ρ c main_v40 = (dat6 (Vent6 m ρ) c).arrAt 3 cfg6.N :=
  W18_arr m ρ c 3

/-! ## Region 8 (the third scatter and normalisation) -/

theorem Vent8_main_v21 (c : Dev nD) : Vent8 m ρ c main_v21 = W7 m ρ c (Proc.devRef .tc main_v21) :=
  calc Vent8 m ρ c main_v21
    _ = W19 m ρ c (Proc.devRef .tc main_v21) := W20_keep m ρ c main_v21 (by decide)
    _ = W16 m ρ c (Proc.devRef .tc main_v21) := W19_of_W16 m ρ c main_v21 (by decide) (by decide) (by decide)
    _ = W15 m ρ c (Proc.devRef .tc main_v21) := W16_main_v21 m ρ c
    _ = W7 m ρ c (Proc.devRef .tc main_v21) := Vent5_main_v21 m ρ c

theorem Vent8_main_v41 (c : Dev nD) : Vent8 m ρ c main_v41 = (dat7 (Vent7 m ρ) c).arrAt 3 cfg7.N :=
  calc Vent8 m ρ c main_v41
    _ = W19 m ρ c (Proc.devRef .tc main_v41) := W20_keep m ρ c main_v41 (by decide)
    _ = (dat7 (Vent7 m ρ) c).arrAt 3 cfg7.N := W19_arr m ρ c 3

theorem Vent8_main_v42 (c : Dev nD) :
    Vent8 m ρ c main_v42 = StableHlo.after hostOps8 (W19 m ρ c) (Proc.devRef .tc main_v42) := rfl

theorem Vent8_main_v43 (c : Dev nD) :
    Vent8 m ρ c main_v43 = StableHlo.after hostOps8 (W19 m ρ c) (Proc.devRef .tc main_v43) := rfl

theorem W19_main_arg14 (c : Dev nD) : W19 m ρ c (Proc.devRef .tc main_arg14) = m ((c : Thread nD τ).loc main_arg14) :=
  (W19_of_W16 m ρ c main_arg14 (by decide) (by decide) (by decide)).trans (
    (W16_of_W14 m ρ c main_arg14 (by decide) (by decide)).trans
    ((W14_of_W11 m ρ c main_arg14 (by decide) (by decide) (by decide)).trans
      ((W11_of_W9 m ρ c main_arg14 (by decide) (by decide)).trans
        ((W9_of_W7 m ρ c main_arg14 (by decide) (by decide)).trans (W7_main_arg14 m ρ c)))))

theorem W19_main_arg15 (c : Dev nD) : W19 m ρ c (Proc.devRef .tc main_arg15) = m ((c : Thread nD τ).loc main_arg15) :=
  (W19_of_W16 m ρ c main_arg15 (by decide) (by decide) (by decide)).trans (
    (W16_of_W14 m ρ c main_arg15 (by decide) (by decide)).trans
    ((W14_of_W11 m ρ c main_arg15 (by decide) (by decide) (by decide)).trans
      ((W11_of_W9 m ρ c main_arg15 (by decide) (by decide)).trans
        ((W9_of_W7 m ρ c main_arg15 (by decide) (by decide)).trans (W7_main_arg15 m ρ c)))))

/-! ## The end: the result is the last stretch's slice of region 8's output -/

theorem W22_main_v45 (c : Dev nD) :
    W22 m ρ c (Proc.devRef .tc main_v45) = StableHlo.after hostOps9 (W21 m ρ c) (Proc.devRef .tc main_v45) := rfl

theorem W21_main_v44 (c : Dev nD) : W21 m ρ c (Proc.devRef .tc main_v44) = (dat8 (Vent8 m ρ) c).arrAt 4 cfg8.N :=
  W21_arr m ρ c 4

end Cert.KernelIdeal.H

end
-- ==== Proof.Spec.lean ====
import Idealize.ShloMosaic.PureOps.Ideal

/-!
The layer's mathematics over the extended reals, written over plain finite index types.

A message-passing layer takes node features, applies a dense map, gathers one row per edge and
scales it by the edge's gate, sums the messages landing on each node, optionally adds a residual,
and normalises each row to zero mean and unit variance before an affine map and an optional
clamp at zero.  Every function below is one of those stages as a function of its operands.
-/

noncomputable section

namespace Cert.Spec

open Idealize.ShloMosaic
open scoped BigOperators

variable {N K D E : ℕ}

/-- The dense stage: row `n` of `x` against column `d` of the transposed weights, plus the bias. -/
def lin (x : Fin N → Fin K → EReal) (wt : Fin K → Fin D → EReal) (b : Fin D → EReal)
    (n : Fin N) (d : Fin D) : EReal :=
  (∑ k, x n k * wt k d) + b d

/-- The messages landing on node `n`: every edge whose target word is `n` contributes its row. -/
def seg (col : Fin E → BitVec 32) (msg : Fin E → Fin D → EReal) (n : Fin N) (d : Fin D) : EReal :=
  ∑ e, (if col e = BitVec.ofNat 32 n.val then msg e d else 0)

/-- A row's mean: its sum divided by the row length `c` (the length as the program's own literal). -/
def mean (c : EReal) (v : Fin N → Fin D → EReal) (n : Fin N) : EReal :=
  Ideal.div (∑ d, v n d) c

/-- A row's variance about its mean, with the same divisor. -/
def var (c : EReal) (v : Fin N → Fin D → EReal) (n : Fin N) : EReal :=
  Ideal.div (∑ d, (v n d - mean c v n) * (v n d - mean c v n)) c

/-- Row normalisation in the multiply-by-reciprocal-root form. -/
def normMul (c eps : EReal) (v : Fin N → Fin D → EReal) (g b : Fin D → EReal)
    (n : Fin N) (d : Fin D) : EReal :=
  (v n d - mean c v n) * Ideal.rsqrt (var c v n + eps) * g d + b d

/-- Row normalisation in the divide-by-root form. -/
def normDiv (c eps : EReal) (v : Fin N → Fin D → EReal) (g b : Fin D → EReal)
    (n : Fin N) (d : Fin D) : EReal :=
  Ideal.div (v n d - mean c v n) (Ideal.sqrt (var c v n + eps)) * g d + b d

/-- The clamp at zero. -/
def relu (x : EReal) : EReal := max x 0

end Cert.Spec

end
-- ==== Proof.LibNormForms.lean ====
import proofs.«421344_j1254130450614_1_alg».proof.Proof.Spec
import Idealize.ShloMosaic.PureOps.Ideal
import Mathlib.Data.EReal.Inv
import Mathlib.Data.EReal.Operations
import Mathlib.Analysis.SpecialFunctions.Pow.Real

/-!
Two ways of writing a row normalisation, and why they agree over the extended reals.

A row's variance is a sum of squares divided by a positive real, so it is never negative — also
when an entry is infinite, since `(±∞) * (±∞) = +∞`.  Adding a positive real to it gives a positive
extended real `y`, possibly `+∞`, and for such `y` multiplying by the reciprocal root is dividing by the
root: at `+∞` both sides are `a * 0`, and at a positive real `r` both are `a * (√r)⁻¹`.

The last section reads the three bit patterns that occur as divisors and offsets as the
positive reals they denote.
-/

noncomputable section

namespace Cert.LibNormForms

open Idealize.ShloMosaic
open scoped BigOperators

/-! ### Division by a nonzero divisor -/

/-- Off zero, the quotient is the product with the inverse. -/
theorem div_eq_mul_inv {c : EReal} (hc : c ≠ 0) (x : EReal) : Ideal.div x c = x * c⁻¹ := by
  unfold Ideal.div
  rw [if_neg hc]

/-- Division by a nonzero real. -/
theorem div_coe {r : ℝ} (hr : r ≠ 0) (x : EReal) : Ideal.div x (r : EReal) = x * ((r⁻¹ : ℝ) : EReal) := by
  rw [div_eq_mul_inv (EReal.coe_ne_zero.2 hr), EReal.coe_inv]

/-! ### Squares and their sums are not negative -/

/-- A square is not negative, also at the infinities. -/
theorem mul_self_nonneg (x : EReal) : 0 ≤ x * x := by
  induction x using EReal.rec with
  | bot => rw [EReal.bot_mul_bot]; exact le_top
  | coe r => rw [← EReal.coe_mul]; exact EReal.coe_nonneg.2 (_root_.mul_self_nonneg r)
  | top => rw [EReal.top_mul_top]; exact le_top

/-- A sum of squares is not negative. -/
theorem sum_mul_self_nonneg {D : ℕ} (x : Fin D → EReal) : 0 ≤ ∑ d, x d * x d :=
  Finset.sum_nonneg fun d _ => mul_self_nonneg (x d)

/-- A quantity that is not negative, divided by a positive real, is not negative. -/
theorem div_nonneg_of_pos {r : ℝ} (hr : 0 < r) {x : EReal} (hx : 0 ≤ x) :
    0 ≤ Ideal.div x (r : EReal) := by
  rw [div_coe (ne_of_gt hr)]
  exact EReal.mul_nonneg hx (EReal.coe_nonneg.2 (le_of_lt (inv_pos.2 hr)))

/-- The variance with a positive real divisor is not negative. -/
theorem var_nonneg {N D : ℕ} {r : ℝ} (hr : 0 < r) (v : Fin N → Fin D → EReal) (n : Fin N) :
    0 ≤ Cert.Spec.var (r : EReal) v n := by
  unfold Cert.Spec.var
  exact div_nonneg_of_pos hr
    (sum_mul_self_nonneg fun d => v n d - Cert.Spec.mean (r : EReal) v n)

/-- The variance plus a positive real offset is positive. -/
theorem var_add_pos {N D : ℕ} {r e : ℝ} (hr : 0 < r) (he : 0 < e) (v : Fin N → Fin D → EReal)
    (n : Fin N) : 0 < Cert.Spec.var (r : EReal) v n + (e : EReal) :=
  lt_of_lt_of_le (EReal.coe_pos.2 he) (le_add_of_nonneg_left (var_nonneg hr v n))

/-! ### Reciprocal root against division by the root -/

/-- For positive `y` (possibly `+∞`), multiplying by the reciprocal root of `y` is dividing by its
    root. -/
theorem mul_rsqrt_eq_div_sqrt (a : EReal) {y : EReal} (hy : 0 < y) :
    a * Ideal.rsqrt y = Ideal.div a (Ideal.sqrt y) := by
  induction y using EReal.rec with
  | bot => exact absurd hy (not_lt_of_ge bot_le)
  | top =>
    show a * 0 = Ideal.div a ⊤
    rw [div_eq_mul_inv EReal.top_ne_zero, EReal.inv_top]
  | coe r =>
    have hr : 0 < r := EReal.coe_pos.1 hy
    have h1 : ¬ r < 0 := not_lt_of_ge (le_of_lt hr)
    have h2 : ¬ r = 0 := ne_of_gt hr
    have hs : Real.sqrt r ≠ 0 := ne_of_gt (Real.sqrt_pos.2 hr)
    show a * (if r < 0 then ⊥ else if r = 0 then ⊤ else (((Real.sqrt r)⁻¹ : ℝ) : EReal))
      = Ideal.div a (if r < 0 then ⊥ else ((Real.sqrt r : ℝ) : EReal))
    rw [if_neg h1, if_neg h2, if_neg h1, div_coe hs]

/-- The two forms of the row normalisation agree when the divisor and the offset are positive
    reals. -/
theorem normMul_eq_normDiv {N D : ℕ} {r e : ℝ} (hr : 0 < r) (he : 0 < e)
    (v : Fin N → Fin D → EReal) (g b : Fin D → EReal) :
    Cert.Spec.normMul (r : EReal) (e : EReal) v g b = Cert.Spec.normDiv (r : EReal) (e : EReal) v g b := by
  funext n d
  unfold Cert.Spec.normMul Cert.Spec.normDiv
  rw [mul_rsqrt_eq_div_sqrt _ (var_add_pos hr he v n)]

/-! ### The literals -/

/-- The pattern `0x42800000` denotes `64`. -/
theorem lit64 : Ideal.ofBits .f32 0x42800000#32 = ((64 : ℝ) : EReal) := by
  simp [Ideal.ofBits, Ideal.ieee]
  rw [← EReal.coe_mul, EReal.coe_eq_coe_iff]
  norm_num

/-- The pattern `0x43190000` denotes `153`. -/
theorem lit153 : Ideal.ofBits .f32 0x43190000#32 = ((153 : ℝ) : EReal) := by
  simp [Ideal.ofBits, Ideal.ieee]
  rw [← EReal.coe_mul, EReal.coe_eq_coe_iff]
  norm_num

/-- The pattern `0x3727C5AC` denotes `10995116 / 2 ^ 40`, a little under `10⁻⁵`. -/
theorem litEps : Ideal.ofBits .f32 0x3727C5AC#32 = ((10995116 / 2 ^ 40 : ℝ) : EReal) := by
  simp [Ideal.ofBits, Ideal.ieee]
  rw [← EReal.coe_mul, EReal.coe_eq_coe_iff]
  norm_num

/-- `64`, `153` and the offset are positive reals. -/
theorem lit64_pos : ∃ r : ℝ, 0 < r ∧ Ideal.ofBits .f32 0x42800000#32 = (r : EReal) :=
  ⟨64, by norm_num, lit64⟩

theorem lit153_pos : ∃ r : ℝ, 0 < r ∧ Ideal.ofBits .f32 0x43190000#32 = (r : EReal) :=
  ⟨153, by norm_num, lit153⟩

theorem litEps_pos : ∃ r : ℝ, 0 < r ∧ Ideal.ofBits .f32 0x3727C5AC#32 = (r : EReal) :=
  ⟨10995116 / 2 ^ 40, by norm_num, litEps⟩

/-- The two forms agree for rows of length `64` with the offset above. -/
theorem normMul_eq_normDiv_64 {N D : ℕ} (v : Fin N → Fin D → EReal) (g b : Fin D → EReal) :
    Cert.Spec.normMul (Ideal.ofBits .f32 0x42800000#32) (Ideal.ofBits .f32 0x3727C5AC#32) v g b
      = Cert.Spec.normDiv (Ideal.ofBits .f32 0x42800000#32) (Ideal.ofBits .f32 0x3727C5AC#32) v g b := by
  rw [lit64, litEps]
  exact normMul_eq_normDiv (by norm_num) (by norm_num) v g b

/-- The two forms agree for rows of length `153` with the offset above. -/
theorem normMul_eq_normDiv_153 {N D : ℕ} (v : Fin N → Fin D → EReal) (g b : Fin D → EReal) :
    Cert.Spec.normMul (Ideal.ofBits .f32 0x43190000#32) (Ideal.ofBits .f32 0x3727C5AC#32) v g b
      = Cert.Spec.normDiv (Ideal.ofBits .f32 0x43190000#32) (Ideal.ofBits .f32 0x3727C5AC#32) v g b := by
  rw [lit153, litEps]
  exact normMul_eq_normDiv (by norm_num) (by norm_num) v g b

end Cert.LibNormForms

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Layer.lean ====
import proofs.«421344_j1254130450614_1_alg».proof.Proof.Spec
import proofs.«421344_j1254130450614_1_alg».proof.Proof.LibNormForms
import proofs.«421344_j1254130450614_1_alg».proof.Proof.LibTileSums

/-!
One layer, read twice: over padded rows and over the rows themselves.

The stages of a layer act row by row: the dense stage, the mean, the variance and both forms of the
normalisation at row `n` depend on row `n` of their operand only, and the sum of the messages landing
on node `n` depends on `n` through its number only.  So a layer computed over `NP ≥ N` rows whose first
`N` rows carry the data agrees, on those rows, with the layer computed over `N` rows — provided every
gathered row number lies below `N`, so that the gather reads a data row on both sides.  Together with
the agreement of the two forms of the normalisation this is the whole comparison of one layer.
-/

noncomputable section

namespace Cert.Layer

open Idealize.ShloMosaic
open Cert.Spec
open scoped BigOperators

variable {N N' NP K D E : ℕ}

/-! ### Each stage reads one row -/

/-- The dense stage at row `n` reads row `n` of its operand only. -/
theorem lin_row_congr (x : Fin N → Fin K → EReal) (x' : Fin N' → Fin K → EReal)
    (wt : Fin K → Fin D → EReal) (b : Fin D → EReal) (n : Fin N) (n' : Fin N')
    (h : ∀ k, x n k = x' n' k) (d : Fin D) : lin x wt b n d = lin x' wt b n' d := by
  unfold lin
  rw [Finset.sum_congr rfl fun k _ => by rw [h k]]

/-- The messages landing on a node depend on the node through its number only. -/
theorem seg_val_congr (col : Fin E → BitVec 32) (M M' : Fin E → Fin D → EReal)
    (hM : ∀ e d, M e d = M' e d) (n : Fin N) (n' : Fin N') (hn : n.val = n'.val) (d : Fin D) :
    seg col M n d = seg col M' n' d := by
  unfold seg
  exact Finset.sum_congr rfl fun e _ => by rw [hn, hM e d]

/-- The mean of row `n` reads row `n` only. -/
theorem mean_row_congr (c : EReal) (v : Fin N → Fin D → EReal) (v' : Fin N' → Fin D → EReal)
    (n : Fin N) (n' : Fin N') (h : ∀ d, v n d = v' n' d) : mean c v n = mean c v' n' := by
  unfold mean
  rw [Finset.sum_congr rfl fun d _ => h d]

/-- The variance of row `n` reads row `n` only. -/
theorem var_row_congr (c : EReal) (v : Fin N → Fin D → EReal) (v' : Fin N' → Fin D → EReal)
    (n : Fin N) (n' : Fin N') (h : ∀ d, v n d = v' n' d) : var c v n = var c v' n' := by
  unfold var
  rw [mean_row_congr c v v' n n' h, Finset.sum_congr rfl fun d _ => by rw [h d]]

/-- The reciprocal-root form of the normalisation at row `n` reads row `n` only. -/
theorem normMul_row_congr (c eps : EReal) (v : Fin N → Fin D → EReal) (v' : Fin N' → Fin D → EReal)
    (g b : Fin D → EReal) (n : Fin N) (n' : Fin N') (h : ∀ d, v n d = v' n' d) (d : Fin D) :
    normMul c eps v g b n d = normMul c eps v' g b n' d := by
  unfold normMul
  rw [h d, mean_row_congr c v v' n n' h, var_row_congr c v v' n n' h]

/-- The divide-by-root form of the normalisation at row `n` reads row `n` only. -/
theorem normDiv_row_congr (c eps : EReal) (v : Fin N → Fin D → EReal) (v' : Fin N' → Fin D → EReal)
    (g b : Fin D → EReal) (n : Fin N) (n' : Fin N') (h : ∀ d, v n d = v' n' d) (d : Fin D) :
    normDiv c eps v g b n d = normDiv c eps v' g b n' d := by
  unfold normDiv
  rw [h d, mean_row_congr c v v' n n' h, var_row_congr c v v' n n' h]

/-! ### Padded rows against the rows themselves -/

/-- Normalising padded rows in the reciprocal-root form agrees, on the data rows, with normalising
    the rows themselves in the divide-by-root form, for a positive real divisor and offset. -/
theorem norm_rows (hNP : N ≤ NP) {rc re : ℝ} (hrc : 0 < rc) (hre : 0 < re)
    (S : Fin NP → Fin D → EReal) (s : Fin N → Fin D → EReal)
    (hS : ∀ (n : Fin N) (d : Fin D), S ⟨n.val, lt_of_lt_of_le n.isLt hNP⟩ d = s n d)
    (G Be : Fin D → EReal) (n : Fin N) (d : Fin D) :
    normMul (rc : EReal) (re : EReal) S G Be ⟨n.val, lt_of_lt_of_le n.isLt hNP⟩ d
      = normDiv (rc : EReal) (re : EReal) s G Be n d := by
  rw [Cert.LibNormForms.normMul_eq_normDiv hrc hre]
  exact normDiv_row_congr _ _ S s G Be _ n (hS n) d

/-- The gathered, gated rows agree: the padded operand's row and the operand's own row of the same
    number carry the same entries, and the gate multiplies from either side. -/
theorem msg_rows (hNP : N ≤ NP) (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row : Fin E → BitVec 32) (hrow : ∀ e, (row e).toNat < N) (gate : Fin E → EReal)
    (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (e : Fin E) (d : Fin D) : M e d = msg e d := by
  rw [hM e d, hmsg e d, mul_comm]
  congr 1
  exact lin_row_congr X x WT B _ ⟨(row e).toNat, hrow e⟩ (fun k => hX ⟨(row e).toNat, hrow e⟩ k) d

/-- The sums of the messages agree on the data rows. -/
theorem seg_rows (hNP : N ≤ NP) (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row col : Fin E → BitVec 32) (hrow : ∀ e, (row e).toNat < N) (gate : Fin E → EReal)
    (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (n : Fin N) (d : Fin D) :
    seg (N := NP) col M ⟨n.val, lt_of_lt_of_le n.isLt hNP⟩ d = seg (N := N) col msg n d :=
  seg_val_congr col M msg (msg_rows hNP X x hX WT B row hrow gate M msg hM hmsg) _ n rfl d

/-- One layer without a residual: dense stage, gather and gate, sum per node, normalisation. -/
theorem layer_rows (hNP : N ≤ NP) {rc re : ℝ} (hrc : 0 < rc) (hre : 0 < re)
    (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row col : Fin E → BitVec 32) (hrow : ∀ e, (row e).toNat < N) (gate : Fin E → EReal)
    (G Be : Fin D → EReal) (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (n : Fin N) (d : Fin D) :
    normMul (rc : EReal) (re : EReal) (seg (N := NP) col M) G Be
        ⟨n.val, lt_of_lt_of_le n.isLt hNP⟩ d
      = normDiv (rc : EReal) (re : EReal) (seg (N := N) col msg) G Be n d :=
  norm_rows hNP hrc hre _ _
    (fun n' d' => seg_rows hNP X x hX WT B row col hrow gate M msg hM hmsg n' d') G Be n d

/-- One layer with a residual added to the summed messages before the normalisation. -/
theorem layer_rows_res (hNP : N ≤ NP) {rc re : ℝ} (hrc : 0 < rc) (hre : 0 < re)
    (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row col : Fin E → BitVec 32) (hrow : ∀ e, (row e).toNat < N) (gate : Fin E → EReal)
    (G Be : Fin D → EReal) (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (R : Fin NP → Fin D → EReal) (r : Fin N → Fin D → EReal)
    (hR : ∀ (n : Fin N) (d : Fin D), R ⟨n.val, lt_of_lt_of_le n.isLt hNP⟩ d = r n d)
    (n : Fin N) (d : Fin D) :
    normMul (rc : EReal) (re : EReal) (fun n d => seg (N := NP) col M n d + R n d) G Be
        ⟨n.val, lt_of_lt_of_le n.isLt hNP⟩ d
      = normDiv (rc : EReal) (re : EReal) (fun n d => seg (N := N) col msg n d + r n d) G Be n d :=
  norm_rows hNP hrc hre _ _
    (fun n' d' => by
      show seg (N := NP) col M ⟨n'.val, _⟩ d' + R ⟨n'.val, _⟩ d' = seg (N := N) col msg n' d' + r n' d'
      rw [seg_rows hNP X x hX WT B row col hrow gate M msg hM hmsg n' d', hR n' d']) G Be n d

/-- The same with the reference adding the residual on the left. -/
theorem layer_rows_res' (hNP : N ≤ NP) {rc re : ℝ} (hrc : 0 < rc) (hre : 0 < re)
    (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row col : Fin E → BitVec 32) (hrow : ∀ e, (row e).toNat < N) (gate : Fin E → EReal)
    (G Be : Fin D → EReal) (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (R : Fin NP → Fin D → EReal) (r : Fin N → Fin D → EReal)
    (hR : ∀ (n : Fin N) (d : Fin D), R ⟨n.val, lt_of_lt_of_le n.isLt hNP⟩ d = r n d)
    (n : Fin N) (d : Fin D) :
    normMul (rc : EReal) (re : EReal) (fun n d => seg (N := NP) col M n d + R n d) G Be
        ⟨n.val, lt_of_lt_of_le n.isLt hNP⟩ d
      = normDiv (rc : EReal) (re : EReal) (fun n d => r n d + seg (N := N) col msg n d) G Be n d :=
  norm_rows hNP hrc hre _ _
    (fun n' d' => by
      show seg (N := NP) col M ⟨n'.val, _⟩ d' + R ⟨n'.val, _⟩ d' = r n' d' + seg (N := N) col msg n' d'
      rw [seg_rows hNP X x hX WT B row col hrow gate M msg hM hmsg n' d', hR n' d', add_comm]) G Be n d

/-- The kernel adding the residual on the left, the reference on the right. -/
theorem layer_rows_res'' (hNP : N ≤ NP) {rc re : ℝ} (hrc : 0 < rc) (hre : 0 < re)
    (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (row col : Fin E → BitVec 32) (hrow : ∀ e, (row e).toNat < N) (gate : Fin E → EReal)
    (G Be : Fin D → EReal) (M msg : Fin E → Fin D → EReal)
    (hM : ∀ e d, M e d
      = lin X WT B ⟨(row e).toNat, lt_of_lt_of_le (hrow e) hNP⟩ d * gate e)
    (hmsg : ∀ e d, msg e d = gate e * lin x WT B ⟨(row e).toNat, hrow e⟩ d)
    (R : Fin NP → Fin D → EReal) (r : Fin N → Fin D → EReal)
    (hR : ∀ (n : Fin N) (d : Fin D), R ⟨n.val, lt_of_lt_of_le n.isLt hNP⟩ d = r n d)
    (n : Fin N) (d : Fin D) :
    normMul (rc : EReal) (re : EReal) (fun n d => R n d + seg (N := NP) col M n d) G Be
        ⟨n.val, lt_of_lt_of_le n.isLt hNP⟩ d
      = normDiv (rc : EReal) (re : EReal) (fun n d => seg (N := N) col msg n d + r n d) G Be n d :=
  norm_rows hNP hrc hre _ _
    (fun n' d' => by
      show R ⟨n'.val, _⟩ d' + seg (N := NP) col M ⟨n'.val, _⟩ d' = seg (N := N) col msg n' d' + r n' d'
      rw [seg_rows hNP X x hX WT B row col hrow gate M msg hM hmsg n' d', hR n' d', add_comm]) G Be n d

/-! ### With the clamp at zero -/

/-- Equal values have equal clamps. -/
theorem relu_congr {a b : EReal} (h : a = b) : relu a = relu b := congrArg relu h

end Cert.Layer

end
-- ==== Proof.Compose.lean ====
import proofs.«421344_j1254130450614_1_alg».proof.Proof.Layer

/-!
Three layers, one after the other.

The first part names the reference's computation over `N` rows: the aggregation of gated, gathered
rows, and the three layers built from it (the first two clamped at zero, the second with a
residual, the third of another width and unclamped).  The second part takes the same computation
over `NP ≥ N` padded rows, every intermediate array given by an equation, and shows that its last
array agrees with the reference's on the first `N` rows.  Agreement on the first `N` rows passes from
each array to the next because every stage reads one row at a time and every gathered row number
lies below `N`.
-/

noncomputable section

namespace Cert.Compose

open Idealize.ShloMosaic
open Cert.Spec Cert.Layer
open scoped BigOperators

/-! ### The reference's computation -/

section Ref

variable {N E : ℕ} (col : Fin E → BitVec 32) (gate : Fin E → EReal) (src : Fin E → Fin N)

/-- Aggregation: each edge gathers the row of its source node, scales it by its gate, and the
    results are summed onto the edge's target node. -/
def agg {D : ℕ} (h : Fin N → Fin D → EReal) : Fin N → Fin D → EReal :=
  seg col (fun e d => gate e * h (src e) d)

/-- A first layer: dense stage, aggregation, normalisation, clamp at zero. -/
def refH1 {K D : ℕ} (c eps : EReal) (x : Fin N → Fin K → EReal) (WT : Fin K → Fin D → EReal)
    (B G BE : Fin D → EReal) : Fin N → Fin D → EReal :=
  fun n d => relu (normDiv c eps (agg col gate src (lin x WT B)) G BE n d)

/-- A middle layer: as the first, with the layer's input added to the aggregate before the
    normalisation. -/
def refH2 {D : ℕ} (c eps : EReal) (h : Fin N → Fin D → EReal) (WT : Fin D → Fin D → EReal)
    (B G BE : Fin D → EReal) : Fin N → Fin D → EReal :=
  fun n d => relu (normDiv c eps (fun n d => agg col gate src (lin h WT B) n d + h n d) G BE n d)

/-- A last layer: dense stage, aggregation, normalisation; no clamp. -/
def refOut {K D : ℕ} (c eps : EReal) (h : Fin N → Fin K → EReal) (WT : Fin K → Fin D → EReal)
    (B G BE : Fin D → EReal) : Fin N → Fin D → EReal :=
  normDiv c eps (agg col gate src (lin h WT B)) G BE

end Ref

/-! ### Agreement on the data rows passes through each stage -/

section Steps

variable {N NP E : ℕ} (hNP : N ≤ NP)

/-- The dense stage: if the padded operand agrees with the operand on the data rows, so do the
    results. -/
theorem lin_step {K D : ℕ} (X : Fin NP → Fin K → EReal) (x : Fin N → Fin K → EReal)
    (hX : ∀ (n : Fin N) (k : Fin K), X ⟨n.val, lt_of_lt_of_le n.isLt hNP⟩ k = x n k)
    (WT : Fin K → Fin D → EReal) (B : Fin D → EReal)
    (H : Fin NP → Fin D → EReal) (hH : ∀ n d, H n d = lin X WT B n d)
    (n : Fin N) (d : Fin D) :
    H ⟨n.val, lt_of_lt_of_le n.isLt hNP⟩ d = lin x WT B n d := by
  rw [hH]
  exact lin_row_congr X x WT B _ n (hX n) d

/-- The aggregation: gathering row `row e` of a padded array that agrees with `h` on the data rows,
    gating it and summing per node, agrees on the data rows with the aggregation of `h` — the
    gathered row is the data row `src e`. -/
theorem agg_step {D : ℕ} (col row : Fin E → BitVec 32) (gate : Fin E → EReal) (src : Fin E → Fin N)
    (hlt : ∀ e, (row e).toNat < NP) (hsrc : ∀ e, (src e).val = (row e).toNat)
    (H : Fin NP → Fin D → EReal) (h : Fin N → Fin D → EReal)
    (hH : ∀ (n : Fin N) (d : Fin D), H ⟨n.val, lt_of_lt_of_le n.isLt hNP⟩ d = h n d)
    (M : Fin E → Fin D → EReal) (hM : ∀ e d, M e d = H ⟨(row e).toNat, hlt e⟩ d * gate e)
    (n : Fin N) (d : Fin D) :
    seg (N := NP) col M ⟨n.val, lt_of_lt_of_le n.isLt hNP⟩ d = agg col gate src h n d := by
  unfold agg
  refine seg_val_congr col M _ (fun e d' => ?_) _ n rfl d
  have hrow : (⟨(row e).toNat, hlt e⟩ : Fin NP)
      = ⟨(src e).val, lt_of_lt_of_le (src e).isLt hNP⟩ := Fin.ext (hsrc e).symm
  rw [hM e d', mul_comm, hrow, hH (src e) d']

end Steps

/-! ### The three layers -/

/-- The three layers over padded rows agree with the reference's three layers on the data rows. -/
theorem three_layers {N NP E K D1 D3 : ℕ} (hNP : N ≤ NP)
    {r64 r153 re : ℝ} (h64 : 0 < r64) (h153 : 0 < r153) (hre : 0 < re)
    (col row : Fin E → BitVec 32) (gate : Fin E → EReal) (src : Fin E → Fin N)
    (hlt : ∀ e, (row e).toNat < NP) (hsrc : ∀ e, (src e).val = (row e).toNat)
    (x : Fin N → Fin K → EReal)
    (WT1 : Fin K → Fin D1 → EReal) (B1 G1 BE1 : Fin D1 → EReal)
    (WT2 : Fin D1 → Fin D1 → EReal) (B2 G2 BE2 : Fin D1 → EReal)
    (WT3 : Fin D1 → Fin D3 → EReal) (B3 G3 BE3 : Fin D3 → EReal)
    (X0 : Fin NP → Fin K → EReal) (H1 O1 H2 O2 : Fin NP → Fin D1 → EReal)
    (H3 O3 : Fin NP → Fin D3 → EReal)
    (M1 M2 : Fin E → Fin D1 → EReal) (M3 : Fin E → Fin D3 → EReal)
    (hX : ∀ (n : Fin N) (k : Fin K), X0 ⟨n.val, lt_of_lt_of_le n.isLt hNP⟩ k = x n k)
    (hH1 : ∀ n d, H1 n d = lin X0 WT1 B1 n d)
    (hM1 : ∀ e d, M1 e d = H1 ⟨(row e).toNat, hlt e⟩ d * gate e)
    (hO1 : ∀ n d, O1 n d
      = relu (normMul (r64 : EReal) (re : EReal) (seg (N := NP) col M1) G1 BE1 n d))
    (hH2 : ∀ n d, H2 n d = lin O1 WT2 B2 n d)
    (hM2 : ∀ e d, M2 e d = H2 ⟨(row e).toNat, hlt e⟩ d * gate e)
    (hO2 : ∀ n d, O2 n d
      = relu (normMul (r64 : EReal) (re : EReal)
          (fun n d => seg (N := NP) col M2 n d + O1 n d) G2 BE2 n d))
    (hH3 : ∀ n d, H3 n d = lin O2 WT3 B3 n d)
    (hM3 : ∀ e d, M3 e d = H3 ⟨(row e).toNat, hlt e⟩ d * gate e)
    (hO3 : ∀ n d, O3 n d
      = normMul (r153 : EReal) (re : EReal) (seg (N := NP) col M3) G3 BE3 n d)
    (n : Fin N) (d : Fin D3) :
    O3 ⟨n.val, lt_of_lt_of_le n.isLt hNP⟩ d
      = refOut col gate src (r153 : EReal) (re : EReal)
          (refH2 col gate src (r64 : EReal) (re : EReal)
            (refH1 col gate src (r64 : EReal) (re : EReal) x WT1 B1 G1 BE1) WT2 B2 G2 BE2)
          WT3 B3 G3 BE3 n d := by
  have a1 := lin_step hNP X0 x hX WT1 B1 H1 hH1
  have s1 := agg_step hNP col row gate src hlt hsrc H1 _ a1 M1 hM1
  have o1 : ∀ (n : Fin N) (d : Fin D1), O1 ⟨n.val, lt_of_lt_of_le n.isLt hNP⟩ d
      = refH1 col gate src (r64 : EReal) (re : EReal) x WT1 B1 G1 BE1 n d := fun n d => by
    rw [hO1]
    exact relu_congr (norm_rows hNP h64 hre _ _ s1 G1 BE1 n d)
  have a2 := lin_step hNP O1 _ o1 WT2 B2 H2 hH2
  have s2 := agg_step hNP col row gate src hlt hsrc H2 _ a2 M2 hM2
  have o2 : ∀ (n : Fin N) (d : Fin D1), O2 ⟨n.val, lt_of_lt_of_le n.isLt hNP⟩ d
      = refH2 col gate src (r64 : EReal) (re : EReal)
          (refH1 col gate src (r64 : EReal) (re : EReal) x WT1 B1 G1 BE1) WT2 B2 G2 BE2 n d :=
    fun n d => by
      rw [hO2]
      refine relu_congr (norm_rows hNP h64 hre _ _ (fun n' d' => ?_) G2 BE2 n d)
      show seg (N := NP) col M2 ⟨n'.val, _⟩ d' + O1 ⟨n'.val, _⟩ d' = _
      rw [s2 n' d', o1 n' d']
  have a3 := lin_step hNP O2 _ o2 WT3 B3 H3 hH3
  have s3 := agg_step hNP col row gate src hlt hsrc H3 _ a3 M3 hM3
  rw [hO3]
  exact norm_rows hNP h153 hre _ _ s3 G3 BE3 n d

end Cert.Compose

end
-- ==== Proof.Ref.Ops.lean ====
import Idealize.ShloMosaic.Lib.ValueIdx
import Idealize.ShloMosaic.PureOps.Ideal
import Idealize.ShloMosaic.PureOps.Ideal.Laws

/-!
Two host operations read at an index, for a table of rows and one index word per edge.

A row gather takes a table `[N, D]` and start indices `[E, 1]` and returns `[E, D]`: row `e` of the
result is the table's row at the start word of `e`, read signed and clamped into `[0, N - 1]`.
An accumulating row scatter takes an array `[N, D]`, index words `[E, 1]` and updates `[E, D]`:
element `(n, c)` of the result is the array's element plus the sum of the updates `(e, c)` over the
edges `e` whose index word, read signed, is `n`; an update whose word names no row is dropped.
-/

noncomputable section

namespace Cert.RefOps

open Idealize.ShloMosaic Idealize.ShloMosaic.ValueIdx
open scoped BigOperators

/-! ## The row gather -/

section Gather
variable {α : Type}

/-- The dimension numbers of a row gather: the result's axis 1 is the offset axis, the table's axis 0
    is collapsed and is the one the start index names, the index vector is the start indices' axis 1. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start word names: the word read signed, clamped into `[0, N - 1]`. -/
def clampRow (N : Nat) (hN : 0 < N) {w : Nat} (b : BitVec w) : Fin N :=
  ⟨min b.toInt.toNat (N - 1), by omega⟩

/-- The row gather at `(e, c)`: the table at the clamped row of edge `e`'s start word, column `c`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 (clampRow N hN (idx (ix2 e ⟨0, Nat.one_pos⟩))) c) := by
  unfold Host.gather
  congr 1
  funext a
  refine Fin.ext ?_
  show (rowsDims N E D wf).start (ix2 e c) idx a + (rowsDims N E D wf).batchCoord (ix2 e c) a
      + (rowsDims N E D wf).offCoord (ix2 e c) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowsDims N E D wf).startIndexMap from List.mem_singleton.mpr rfl)]
    have hsi : (rowsDims N E D wf).siIdx (ix2 e c) ⟨List.idxOf (⟨0, h0⟩ : Fin 2) (rowsDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    unfold GatherDims.start
    rw [dif_neg (show ¬ (⟨1, h1⟩ : Fin 2) ∈ (rowsDims N E D wf).startIndexMap from
      fun h => absurd (congrArg Fin.val (List.mem_singleton.mp h)) (show ¬ (1 : Nat) = 0 by decide)), Nat.zero_add]
    rfl

end Gather

/-! ## The accumulating row scatter -/

section Scatter

/-- The dimension numbers of a row scatter: the updates' axis 1 is the window axis, the array's axis 0
    is inserted and is the one the index word names, the index vector is the index words' axis 1. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window starts at edge `e`'s index word, read signed. -/
theorem rows_start0 (h0 : 0 < 2) :
    (rowsScatter N E D wf).start (ix2 e c) idx ⟨0, h0⟩ = (idx (ix2 e ⟨0, Nat.one_pos⟩)).toInt := by
  unfold ScatterDims.start
  rw [dif_pos (show (⟨0, h0⟩ : Fin 2) ∈ (rowsScatter N E D wf).scatterDimsToOperandDims from
    List.mem_singleton.mpr rfl)]
  have hsi : (rowsScatter N E D wf).siIdx (ix2 e c)
      ⟨List.idxOf (⟨0, h0⟩ : Fin 2) (rowsScatter N E D wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis the window starts at `0`. -/
theorem rows_start1 (h1 : 1 < 2) :
    (rowsScatter N E D wf).start (ix2 e c) idx ⟨1, h1⟩ = 0 := by
  unfold ScatterDims.start
  rw [dif_neg (show ¬ (⟨1, h1⟩ : Fin 2) ∈ (rowsScatter N E D wf).scatterDimsToOperandDims from
    fun h => absurd (congrArg Fin.val (List.mem_singleton.mp h)) (show ¬ (1 : Nat) = 0 by decide))]

/-- The row axis is inserted: no window coordinate. -/
theorem rows_window0 (h0 : 0 < 2) : (rowsScatter N E D wf).window (ix2 e c) ⟨0, h0⟩ = 0 := by
  unfold ScatterDims.window
  rw [dif_neg (show ¬ (⟨0, h0⟩ : Fin 2) ∈ (rowsScatter N E D wf).sKept by
    simp [ScatterDims.sKept, Shape.kept, List.mem_filter])]

/-- The column axis carries the update's column. -/
theorem rows_window1 (h1 : 1 < 2) : (rowsScatter N E D wf).window (ix2 e c) ⟨1, h1⟩ = c.val := by
  unfold ScatterDims.window
  rw [dif_pos (show (⟨1, h1⟩ : Fin 2) ∈ (rowsScatter N E D wf).sKept by
    simp [ScatterDims.sKept, Shape.kept, List.mem_filter, List.mem_finRange])]
  rfl

/-- Update `(e, c)` lands on element `(n, c')` exactly when edge `e`'s index word, read signed, is `n`
    and the columns agree. -/
theorem rows_resultIdx_eq_some_iff (n : Fin N) (c' : Fin D) :
    (rowsScatter N E D wf).resultIdx? (ix2 e c) idx = some (ix2 n c')
      ↔ (idx (ix2 e ⟨0, Nat.one_pos⟩)).toInt = (n.val : Int) ∧ c = c' := by
  have hn := n.isLt
  have hc := c.isLt
  unfold ScatterDims.resultIdx?
  constructor
  · intro H
    split at H
    · rename_i h
      have H' := Option.some.inj H
      have e0 := congrArg (fun f => (f ⟨0, Nat.zero_lt_two⟩ : Fin _).val) H'
      have e1 := congrArg (fun f => (f ⟨1, Nat.one_lt_two⟩ : Fin _).val) H'
      have b0 := (h ⟨0, Nat.zero_lt_two⟩).1
      simp only [rows_start0, rows_window0, rows_start1, rows_window1] at e0 e1 b0
      refine ⟨?_, Fin.ext ?_⟩
      · change ((idx (ix2 e ⟨0, Nat.one_pos⟩)).toInt + ((0 : Nat) : Int)).toNat = n.val at e0
        omega
      · change ((0 : Int) + ((c.val : Nat) : Int)).toNat = c'.val at e1
        omega
    · exact absurd H (by simp)
  · rintro ⟨ht, rfl⟩
    have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < (⟨2, ![N, D]⟩ : Shape).size a := by
      intro a
      match a with
      | ⟨0, h0⟩ =>
        rw [rows_start0, rows_window0, ht]
        exact ⟨by omega, by show ((n.val : Int) + ((0 : Nat) : Int)) < (N : Int); omega⟩
      | ⟨1, h1⟩ =>
        rw [rows_start1, rows_window1]
        exact ⟨by omega, by show ((0 : Int) + ((c.val : Nat) : Int)) < (D : Int); omega⟩
    rw [dif_pos hall]
    congr 1
    funext a
    refine Fin.ext ?_
    match a with
    | ⟨0, h0⟩ =>
      show ((rowsScatter N E D wf).start (ix2 e c) idx ⟨0, h0⟩ + (rowsScatter N E D wf).window (ix2 e c) ⟨0, h0⟩).toNat = n.val
      rw [rows_start0, rows_window0, ht]; omega
    | ⟨1, h1⟩ =>
      show ((rowsScatter N E D wf).start (ix2 e c) idx ⟨1, h1⟩ + (rowsScatter N E D wf).window (ix2 e c) ⟨1, h1⟩).toNat = c.val
      rw [rows_start1, rows_window1]; omega

/-- The accumulating row scatter at `(n, c)`: the array's element plus the updates `(e, c)` of the edges
    whose index word, read signed, is `n`. -/
theorem scatterAdd_rows_apply (x : (⟨2, ![N, D]⟩ : Shape).Idx → EReal)
    (upd : (⟨2, ![E, D]⟩ : Shape).Idx → EReal) (n : Fin N) (c : Fin D) :
    Ideal.hostScatterAdd (rowsScatter N E D wf) x idx upd (ix2 n c)
      = x (ix2 n c) + ∑ e : Fin E,
          if (idx (ix2 e ⟨0, Nat.one_pos⟩)).toInt = (n.val : Int) then upd (ix2 e c) else 0 := by
  unfold Ideal.hostScatterAdd
  congr 1
  rw [Finset.sum_filter, sum_idx2]
  refine Finset.sum_congr rfl fun e _ => ?_
  simp only [rows_resultIdx_eq_some_iff]
  by_cases ht : (idx (ix2 e ⟨0, Nat.one_pos⟩)).toInt = (n.val : Int)
  · simp only [ht, true_and, if_true]
    rw [Finset.sum_ite_eq' Finset.univ c (fun b => upd (ix2 e b)), if_pos (Finset.mem_univ c)]
  · simp only [ht, false_and, if_false, Finset.sum_const_zero]

end Scatter

/-! ## Index words -/

/-- A 32-bit word read signed is the natural number `n` below `2 ^ 31` exactly when it is `n`'s word. -/
theorem toInt_eq_natCast_iff (b : BitVec 32) (n : Nat) (hn : n < 2 ^ 31) :
    b.toInt = (n : Int) ↔ b = BitVec.ofNat 32 n := by
  have hb := b.isLt
  constructor
  · intro h
    rw [BitVec.toInt_eq_toNat_cond] at h
    apply BitVec.eq_of_toNat_eq
    rw [BitVec.toNat_ofNat, Nat.mod_eq_of_lt (by omega)]
    split at h <;> omega
  · rintro rfl
    rw [BitVec.toInt_eq_toNat_cond, BitVec.toNat_ofNat, Nat.mod_eq_of_lt (by omega)]
    split <;> omega

end Cert.RefOps

end
-- ==== Proof.Ref.Defs.lean ====
import proofs.«421344_j1254130450614_1_alg».proof.Proof.Ref.Ops
import proofs.«421344_j1254130450614_1_alg».proof.Proof.Gate
import proofs.«421344_j1254130450614_1_alg».proof.Proof.Compose

/-!
What the reference computes, named over its sixteen arguments.

The arguments are read as curried functions: the node features and the weights as matrices, the biases and the
normalisation's scale and shift as vectors, the edge list as a source word and a target word per edge.  An edge reads the
table row its source word names, a negative word first wrapped by the table's length and the result clamped into the
table; its gate is the shared gate chain of the trust vector, the coefficients and the source words.  The result is the
three layers composed.
-/

noncomputable section

namespace Cert.RefSide

open Idealize.ShloMosaic Idealize.ShloMosaic.ValueIdx

/-! ## The operands as curried functions -/

/-- A matrix by row and column; its transpose; a vector by position. -/
def mat {R C : Nat} (x : (⟨2, ![R, C]⟩ : Shape).Idx → EReal) : Fin R → Fin C → EReal := fun r c => x (ix2 r c)
def matT {R C : Nat} (x : (⟨2, ![R, C]⟩ : Shape).Idx → EReal) : Fin C → Fin R → EReal := fun c r => x (ix2 r c)
def vec {C : Nat} (x : (⟨1, ![C]⟩ : Shape).Idx → EReal) : Fin C → EReal := fun c => x (ix1 c)

/-- The two row lengths and the variance offset, as the program's own literals. -/
def c64 : EReal := Ideal.ofBits .f32 0x42800000#32
def c153 : EReal := Ideal.ofBits .f32 0x43190000#32
def eps : EReal := Ideal.ofBits .f32 0x3727C5AC#32

/-- A negative source word wrapped by the table's length. -/
def normW (b : BitVec 32) : BitVec 32 := Scalar.select (IntOp.cmpi .slt b 0#32) (IntOp.addi b 100000#32) b

/-- A word that is not negative is left as it is. -/
theorem normW_of_nonneg (b : BitVec 32) (h : 0 ≤ b.toInt) : normW b = b := by
  have z : (0#32 : BitVec 32).toInt = 0 := by decide
  have hs : b.slt 0#32 = false := by
    unfold BitVec.slt
    exact decide_eq_false (by rw [z]; omega)
  show (if BitVec.ofBool (b.slt 0#32) = 1 then IntOp.addi b 100000#32 else b) = b
  rw [hs]
  exact if_neg (by decide)

section Args

variable (x0 : (⟨2, ![100000, 64]⟩ : Shape).Idx → EReal) (x1 : (⟨2, ![2, 1600000]⟩ : Shape).Idx → BitVec 32)
  (x2 : (⟨1, ![100000]⟩ : Shape).Idx → EReal) (x3 : (⟨1, ![1600000]⟩ : Shape).Idx → EReal)
  (x4 : (⟨2, ![64, 64]⟩ : Shape).Idx → EReal) (x5 : (⟨1, ![64]⟩ : Shape).Idx → EReal)
  (x6 : (⟨2, ![64, 64]⟩ : Shape).Idx → EReal) (x7 : (⟨1, ![64]⟩ : Shape).Idx → EReal)
  (x8 : (⟨2, ![153, 64]⟩ : Shape).Idx → EReal) (x9 : (⟨1, ![153]⟩ : Shape).Idx → EReal)
  (x10 x11 x12 x13 : (⟨1, ![64]⟩ : Shape).Idx → EReal) (x14 x15 : (⟨1, ![153]⟩ : Shape).Idx → EReal)

/-- The source word and the target word of edge `e`. -/
def rowW (e : Fin 1600000) : BitVec 32 := x1 (ix2 (0 : Fin 2) e)
def colW (e : Fin 1600000) : BitVec 32 := x1 (ix2 (1 : Fin 2) e)

/-- The table row edge `e` reads: its wrapped source word, read signed and clamped into the table. -/
def srcRow (e : Fin 1600000) : Fin 100000 := Cert.RefOps.clampRow 100000 (by decide) (normW (rowW x1 e))

/-- A source word that names a table row is read as that row. -/
theorem srcRow_val (e : Fin 1600000) (h : 0 ≤ (rowW x1 e).toInt ∧ (rowW x1 e).toInt < 100000) :
    (srcRow x1 e).val = (rowW x1 e).toNat := by
  unfold srcRow Cert.RefOps.clampRow
  rw [normW_of_nonneg _ h.1]
  show min (rowW x1 e).toInt.toNat (100000 - 1) = (rowW x1 e).toNat
  have hc := BitVec.toInt_eq_toNat_cond (rowW x1 e)
  have hb := (rowW x1 e).isLt
  obtain ⟨h0, h1⟩ := h
  split at hc <;> omega

/-- The edge's gate: the shared gate chain of the trust vector, the coefficients and the source words. -/
def gate (e : Fin 1600000) : EReal := Cert.Gate.gateOf (F := Ideal) x2 x3 (Cert.Gate.row0 x1) (ix1 e)

/-- The first layer's output. -/
def h1 : Fin 100000 → Fin 64 → EReal :=
  Cert.Compose.refH1 (colW x1) (gate x1 x2 x3) (srcRow x1) c64 eps (mat x0) (matT x4) (vec x5) (vec x10) (vec x11)

/-- The second layer's output. -/
def h2 : Fin 100000 → Fin 64 → EReal :=
  Cert.Compose.refH2 (colW x1) (gate x1 x2 x3) (srcRow x1) c64 eps (h1 x0 x1 x2 x3 x4 x5 x10 x11)
    (matT x6) (vec x7) (vec x12) (vec x13)

/-- The reference's result. -/
def out : Fin 100000 → Fin 153 → EReal :=
  Cert.Compose.refOut (colW x1) (gate x1 x2 x3) (srcRow x1) c153 eps
    (h2 x0 x1 x2 x3 x4 x5 x6 x7 x10 x11 x12 x13) (matT x8) (vec x9) (vec x14) (vec x15)

end Args

end Cert.RefSide

end
-- ==== Proof.PreRows.lean ====
/-
  The printed precondition read back at the edge list's first row. The predicate is the conjunction of
  fifteen finiteness tests and two range tests over row 0 of the edge list; the two range tests are the
  last conjuncts. Each is a reduction by `and` of a signed comparison of the row (cut out of the
  two-row table and flattened) against a splat constant, so the predicate being one says the comparison
  holds at every entry: 0 ≤ row[e] and row[e] < 100000, signed, for each of the 1600000 entries.
-/
import proofs.«421344_j1254130450614_1_alg».proof.Pre_finite_inputs
import Idealize.ShloMosaic.Lib.ReduceAll
import Idealize.ShloMosaic.Lib.ValueLayout
import Idealize.ShloMosaic.Lib.StableHlo.Predicate

noncomputable section

namespace Cert.PreRows

open Idealize.ShloMosaic Idealize.ShloMosaic.ValueIdx
open Cert.Pre_finite_inputs

/-- The scalar shape has one index. -/
instance : Subsingleton (⟨0, ![]⟩ : Shape).Idx := ⟨fun a b => funext fun d => d.elim0⟩

/-- Row 0 of a two-row table, cut out and flattened, reads at `e` the table at `(0, e)`. -/
theorem row0_apply {n : Nat} (ei : IVec ⟨2, ![2, n]⟩ 32)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] ei hs) hc (ix1 e) = ei (ix2 (0 : Fin 2) e) := by
  rw [shapeCast_1a_a_apply, slice2_axis0_apply 0 ei hs (0 : Fin 1) e (0 : Fin 2) rfl]

/-- A reduction by `and`, down to a scalar, of a comparison of row 0 against a splat constant: when it is one, the
    comparison's bit is set at every entry of the row. -/
theorem all_row0 {n : Nat} (p : CmpIPredicate) (k : BitVec 32) (ei : IVec ⟨2, ![2, n]⟩ 32)
    (hs : (⟨2, ![2, n]⟩ : Shape).Slices ![0, 0] ⟨2, ![1, n]⟩)
    (hc : (⟨2, ![1, n]⟩ : Shape).ShapeCasts ⟨1, ![n]⟩)
    (hb : (⟨0, ![]⟩ : Shape).BroadcastsInDim ⟨1, ![n]⟩ (![] : Fin 0 → Fin 1))
    (hr : (⟨1, ![n]⟩ : Shape).ReducesTo [0] ⟨0, ![]⟩) (h0 : 0 < (⟨0, ![]⟩ : Shape).numel)
    (init : IVec ⟨0, ![]⟩ 1)
    (h : Host.reduce IntOp.andi
      (cmpi p (shapeCast ⟨1, ![n]⟩ (extractStridedSlice ⟨2, ![1, n]⟩ ![0, 0] ei hs) hc)
        (broadcastInDim ⟨1, ![n]⟩ ![] hb (constantI ⟨0, ![]⟩ 32 k))) init hr h0 ix0 = 1#1) (e : Fin n) :
    IntOp.cmpi p (ei (ix2 (0 : Fin 2) e)) k = 1#1 := by
  have hb1 := Host.reduce_andi_all _ init hr h0 ix0 h (ix1 e)
  rw [← row0_apply ei hs hc e]
  exact hb1

variable {F : FTy → Type} [FloatOps F] [Facts]

/-- The predicate's last part being one: both range tests hold at every entry of row 0. -/
theorem part4_rows (ei : IVec S2x1600000 32) (a15 : FVec F S153 .f32) (p q : IVec S_ 1)
    (h : fn_part4 (F := F) ei a15 p q ix0 = 1#1) (e : Fin 1600000) :
    IntOp.cmpi .sge (ei (ix2 (0 : Fin 2) e)) 0#32 = 1#1 ∧ IntOp.cmpi .slt (ei (ix2 (0 : Fin 2) e)) 100000#32 = 1#1 := by
  dsimp only [fn_part4] at h
  obtain ⟨h1, hlt⟩ := IntOp.andi_eq_one.1 h
  obtain ⟨-, hge⟩ := IntOp.andi_eq_one.1 h1
  exact ⟨all_row0 .sge 0#32 ei _ _ _ _ _ _ hge e, all_row0 .slt 100000#32 ei _ _ _ _ _ _ hlt e⟩

/-- THE PRECONDITION DECODED: every entry of the edge list's row 0 is, signed, in [0, 100000). -/
theorem rows_of_pre (x : FVec F S100000x64 .f32) (ei : IVec S2x1600000 32) (a2 : FVec F S100000 .f32)
    (a3 : FVec F S1600000 .f32) (a4 : FVec F S64x64 .f32) (a5 : FVec F S64 .f32) (a6 : FVec F S64x64 .f32)
    (a7 : FVec F S64 .f32) (a8 : FVec F S153x64 .f32) (a9 : FVec F S153 .f32) (a10 a11 a12 a13 : FVec F S64 .f32)
    (a14 a15 : FVec F S153 .f32)
    (h : fn (F := F) x ei a2 a3 a4 a5 a6 a7 a8 a9 a10 a11 a12 a13 a14 a15 = fun _ => 1#1) (e : Fin 1600000) :
    0 ≤ (ei (ix2 (0 : Fin 2) e)).toInt ∧ (ei (ix2 (0 : Fin 2) e)).toInt < 100000 := by
  have h0 := congrFun h ix0
  dsimp only [fn, fn_part1, fn_part2, fn_part3] at h0
  obtain ⟨hge, hlt⟩ := part4_rows ei a15 _ _ h0 e
  have hge' := IntOp.cmpi_sge.1 hge
  have hlt' := IntOp.cmpi_slt.1 hlt
  rw [show (0#32 : BitVec 32).toInt = 0 from by decide] at hge'
  rw [show (100000#32 : BitVec 32).toInt = 100000 from by decide] at hlt'
  exact ⟨hge', hlt'⟩

/-- Its corollary: each entry, read unsigned, is below 100000, and its signed and unsigned readings agree. -/
theorem rows_toNat_of_pre (x : FVec F S100000x64 .f32) (ei : IVec S2x1600000 32) (a2 : FVec F S100000 .f32)
    (a3 : FVec F S1600000 .f32) (a4 : FVec F S64x64 .f32) (a5 : FVec F S64 .f32) (a6 : FVec F S64x64 .f32)
    (a7 : FVec F S64 .f32) (a8 : FVec F S153x64 .f32) (a9 : FVec F S153 .f32) (a10 a11 a12 a13 : FVec F S64 .f32)
    (a14 a15 : FVec F S153 .f32)
    (h : fn (F := F) x ei a2 a3 a4 a5 a6 a7 a8 a9 a10 a11 a12 a13 a14 a15 = fun _ => 1#1) (e : Fin 1600000) :
    (ei (ix2 (0 : Fin 2) e)).toNat < 100000 ∧ (ei (ix2 (0 : Fin 2) e)).toInt = ((ei (ix2 (0 : Fin 2) e)).toNat : Int) := by
  obtain ⟨h0, h1⟩ := rows_of_pre x ei a2 a3 a4 a5 a6 a7 a8 a9 a10 a11 a12 a13 a14 a15 h e
  generalize ei (ix2 (0 : Fin 2) e) = w at h0 h1
  have hw := w.isLt
  rw [BitVec.toInt_eq_toNat_cond] at h0 h1 ⊢
  split at h0 <;> split <;> omega

end Cert.PreRows

end
-- ==== Proof.KI.Bridge.lean ====
import proofs.«421344_j1254130450614_1_alg».proof.Proof.KI.Vals
import proofs.«421344_j1254130450614_1_alg».proof.Proof.KI.HostVals
import proofs.«421344_j1254130450614_1_alg».proof.Proof.KI.Walk
import proofs.«421344_j1254130450614_1_alg».proof.Proof.Compose
import proofs.«421344_j1254130450614_1_alg».proof.Proof.LibNormForms
import proofs.«421344_j1254130450614_1_alg».proof.Proof.Ref.Defs
import proofs.«421344_j1254130450614_1_alg».proof.Proof.PreRows

/-!
The kernel program's result, read as the three layers over padded rows.

Every array a region produces is read as a curried function; each region's value is rewritten, array by
array, to the arrays of the regions before it and to the launch arrays, following each buffer back through the
boundaries that leave it untouched.  That turns the nine region values into the ten equations the
composition of three layers asks for; the composition then gives the result on the first 100000 rows as the
reference's three layers of the launch arrays.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Spec Cert.RefSide

variable (m : (ℓ : Loc nD τ sig) → Buf (Elt Ideal) ℓ) (ρ : Dev nD → PrngReg) (c : Dev nD)

/-- A float array read at an index, as an extended real. -/
abbrev rdF {S : Shape} {φ : FTy} (x : FVec Ideal S φ) (i : S.Idx) : EReal := x i

/-! ### The launch arrays -/

abbrev A0 : FVec Ideal S100000x64 .f32 := W0 (F := Ideal) m ρ c (Proc.devRef .tc main_arg0)
abbrev A1 : IVec S2x1600000 32 := W0 (F := Ideal) m ρ c (Proc.devRef .tc main_arg1)
abbrev A2 : FVec Ideal S100000 .f32 := W0 (F := Ideal) m ρ c (Proc.devRef .tc main_arg2)
abbrev A3 : FVec Ideal S1600000 .f32 := W0 (F := Ideal) m ρ c (Proc.devRef .tc main_arg3)
abbrev A4 : FVec Ideal S64x64 .f32 := W0 (F := Ideal) m ρ c (Proc.devRef .tc main_arg4)
abbrev A5 : FVec Ideal S64 .f32 := W0 (F := Ideal) m ρ c (Proc.devRef .tc main_arg5)
abbrev A6 : FVec Ideal S64x64 .f32 := W0 (F := Ideal) m ρ c (Proc.devRef .tc main_arg6)
abbrev A7 : FVec Ideal S64 .f32 := W0 (F := Ideal) m ρ c (Proc.devRef .tc main_arg7)
abbrev A8 : FVec Ideal S153x64 .f32 := W0 (F := Ideal) m ρ c (Proc.devRef .tc main_arg8)
abbrev A9 : FVec Ideal S153 .f32 := W0 (F := Ideal) m ρ c (Proc.devRef .tc main_arg9)
abbrev A10 : FVec Ideal S64 .f32 := W0 (F := Ideal) m ρ c (Proc.devRef .tc main_arg10)
abbrev A11 : FVec Ideal S64 .f32 := W0 (F := Ideal) m ρ c (Proc.devRef .tc main_arg11)
abbrev A12 : FVec Ideal S64 .f32 := W0 (F := Ideal) m ρ c (Proc.devRef .tc main_arg12)
abbrev A13 : FVec Ideal S64 .f32 := W0 (F := Ideal) m ρ c (Proc.devRef .tc main_arg13)
abbrev A14 : FVec Ideal S153 .f32 := W0 (F := Ideal) m ρ c (Proc.devRef .tc main_arg14)
abbrev A15 : FVec Ideal S153 .f32 := W0 (F := Ideal) m ρ c (Proc.devRef .tc main_arg15)

/-! ### The arrays the regions read and produce, as curried functions

Each is read where the next region finds it on entry. -/

def kX0 (n : Fin 102400) (k : Fin 64) : EReal := (Vent0 m ρ c main_v23 : FVec Ideal S102400x64 .f32) (ix2 n k)
def kH1 (n : Fin 102400) (d : Fin 64) : EReal := (Vent1 m ρ c main_v26 : FVec Ideal S102400x64 .f32) (ix2 n d)
def kM1 (e : Fin 1600000) (d : Fin 64) : EReal := (Vent2 m ρ c main_v27 : FVec Ideal S1600000x64 .bf16) (ix2 e d)
def kO1 (n : Fin 102400) (d : Fin 64) : EReal := (Vent3 m ρ c main_v30 : FVec Ideal S102400x64 .f32) (ix2 n d)
def kH2 (n : Fin 102400) (d : Fin 64) : EReal := (Vent4 m ρ c main_v33 : FVec Ideal S102400x64 .f32) (ix2 n d)
def kM2 (e : Fin 1600000) (d : Fin 64) : EReal := (Vent5 m ρ c main_v34 : FVec Ideal S1600000x64 .bf16) (ix2 e d)
def kO2 (n : Fin 102400) (d : Fin 64) : EReal := (Vent6 m ρ c main_v37 : FVec Ideal S102400x64 .f32) (ix2 n d)
def kH3 (n : Fin 102400) (d : Fin 153) : EReal := (Vent7 m ρ c main_v40 : FVec Ideal S102400x153 .f32) (ix2 n d)
def kM3 (e : Fin 1600000) (d : Fin 153) : EReal := (Vent8 m ρ c main_v41 : FVec Ideal S1600000x153 .bf16) (ix2 e d)
def kO3 (n : Fin 102400) (d : Fin 153) : EReal := (W21 (F := Ideal) m ρ c (Proc.devRef .tc main_v44) : FVec Ideal S102400x153 .f32) (ix2 n d)

/-! ### One equation per stage -/

/-- The padded features carry the features on the first 100000 rows. -/
theorem bridge_hX (n : Fin 100000) (k : Fin 64) :
    kX0 m ρ c ⟨n.val, lt_of_lt_of_le n.isLt (by norm_num)⟩ k = mat (A0 m ρ c) n k := by
  unfold kX0
  exact v23_apply_lt (F := Ideal) (W0 m ρ c) ⟨n.val, lt_of_lt_of_le n.isLt (by norm_num)⟩ k n.isLt

/-- What region 0 leaves in its output: the dense stage of its three operands. -/
def RV0 : Prop :=
  ∀ (n : Fin 102400) (d : Fin 64),
    ((dat0 (F := Ideal) (Vent0 m ρ) c).arrAt 3 cfg0.N : FVec Ideal S102400x64 .f32) (ix2 n d)
      = lin (fun (n : Fin 102400) (k : Fin 64) => (Vent0 m ρ c main_v23 : FVec Ideal S102400x64 .f32) (ix2 n k))
          (fun (k : Fin 64) (d : Fin 64) => (Vent0 m ρ c main_v24 : FVec Ideal S64x64 .f32) (ix2 k d))
          (fun (d : Fin 64) => (Vent0 m ρ c main_v25 : FVec Ideal S1x64 .f32) (ix2 (0 : Fin 1) d)) n d

/-- Region 0's output is the dense stage of its operand with the layer's transposed weights and bias. -/
theorem bridge_hH1 (hV : RV0 m ρ c) (n : Fin 102400) (d : Fin 64) :
    kH1 m ρ c n d = lin (kX0 m ρ c) (matT (A4 m ρ c)) (vec (A5 m ρ c)) n d := by
  have e0 : (Vent1 m ρ c main_v26 : FVec Ideal S102400x64 .f32)
      = ((dat0 (F := Ideal) (Vent0 m ρ) c).arrAt 3 cfg0.N : FVec Ideal S102400x64 .f32) := Vent1_main_v26 m ρ c
  have e1 : (fun (n : Fin 102400) (k : Fin 64) => (Vent0 m ρ c main_v23 : FVec Ideal S102400x64 .f32) (ix2 n k)) = kX0 m ρ c := rfl
  have e2 : (fun (k : Fin 64) (d : Fin 64) => (Vent0 m ρ c main_v24 : FVec Ideal S64x64 .f32) (ix2 k d)) = matT (A4 m ρ c) := by
    funext k d
    exact v24_apply (F := Ideal) (W0 m ρ c) k d
  have e3 : (fun (d : Fin 64) => (Vent0 m ρ c main_v25 : FVec Ideal S1x64 .f32) (ix2 (0 : Fin 1) d)) = vec (A5 m ρ c) := by
    funext d
    exact v25_apply (F := Ideal) (W0 m ρ c) 0 d
  unfold kH1
  rw [e0, hV n d, e1, e2, e3]

/-- What region 1 leaves in its output: at an edge whose source word names a padded row, that row of the
    operand times the edge's gate. -/
def RV1 : Prop :=
  ∀ (e : Fin 1600000) (d : Fin 64)
    (hrow : ((Vent1 m ρ c main_v20 : IVec S1600000x1 32) (ix2 e (0 : Fin 1))).toNat < 102400),
    ((dat1 (F := Ideal) (Vent1 m ρ) c).arrAt 3 cfg1.N : FVec Ideal S1600000x64 .bf16) (ix2 e d)
      = rdF (S := S102400x64) (φ := .f32) (Vent1 m ρ c main_v26) (ix2 (⟨_, hrow⟩ : Fin 102400) d)
        * rdF (S := S1600000x1) (φ := .f32) (Vent1 m ρ c main_v22) (ix2 e (0 : Fin 1))

/-- Region 1's output at an edge is the gathered row of its operand times the edge's gate. -/
theorem bridge_hM1 (hV : RV1 m ρ c)
    (hlt : ∀ e, (rowW (A1 m ρ c) e).toNat < 102400) (e : Fin 1600000) (d : Fin 64) :
    kM1 m ρ c e d = kH1 m ρ c ⟨(rowW (A1 m ρ c) e).toNat, hlt e⟩ d * gate (A1 m ρ c) (A2 m ρ c) (A3 m ρ c) e := by
  have e0 : (Vent2 m ρ c main_v27 : FVec Ideal S1600000x64 .bf16)
      = ((dat1 (F := Ideal) (Vent1 m ρ) c).arrAt 3 cfg1.N : FVec Ideal S1600000x64 .bf16) := Vent2_main_v27 m ρ c
  have r20 : (Vent1 m ρ c main_v20 : IVec S1600000x1 32) (ix2 e (0 : Fin 1)) = rowW (A1 m ρ c) e :=
    (congrArg (fun f : IVec S1600000x1 32 => f (ix2 e (0 : Fin 1))) (Vent1_main_v20 m ρ c)).trans
      (v20_apply (F := Ideal) (W0 m ρ c) e 0)
  have r22 : rdF (S := S1600000x1) (φ := .f32) (Vent1 m ρ c main_v22) (ix2 e (0 : Fin 1)) = gate (A1 m ρ c) (A2 m ρ c) (A3 m ρ c) e :=
    (congrArg (fun f : FVec Ideal S1600000x1 .f32 => f (ix2 e (0 : Fin 1))) (Vent1_main_v22 m ρ c)).trans
      (v22_apply (F := Ideal) (W0 m ρ c) e 0)
  have hrow : ((Vent1 m ρ c main_v20 : IVec S1600000x1 32) (ix2 e (0 : Fin 1))).toNat < 102400 := by
    rw [r20]; exact hlt e
  have hidx : (⟨((Vent1 m ρ c main_v20 : IVec S1600000x1 32) (ix2 e (0 : Fin 1))).toNat, hrow⟩ : Fin 102400)
      = ⟨(rowW (A1 m ρ c) e).toNat, hlt e⟩ := Fin.ext (congrArg BitVec.toNat r20)
  unfold kM1
  rw [e0, hV e d hrow, hidx, r22]
  rfl

/-- What region 2 leaves in its output: the normalised sum of the messages landing on each row, clamped at zero. -/
def RV2 : Prop :=
  ∀ (n : Fin 102400) (d : Fin 64),
    ((dat2 (F := Ideal) (Vent2 m ρ) c).arrAt 4 cfg2.N : FVec Ideal S102400x64 .f32) (ix2 n d)
      = relu (normMul (Ideal.ofBits .f32 0x42800000#32) (Ideal.ofBits .f32 0x3727C5AC#32)
          (seg (N := 102400) (fun (e : Fin 1600000) => (Vent2 m ρ c main_v21 : IVec S1x1600000 32) (ix2 (0 : Fin 1) e)) (fun (e : Fin 1600000) (d : Fin 64) => (Vent2 m ρ c main_v27 : FVec Ideal S1600000x64 .bf16) (ix2 e d)))
          (fun (d : Fin 64) => (Vent2 m ρ c main_v28 : FVec Ideal S1x64 .f32) (ix2 (0 : Fin 1) d))
          (fun (d : Fin 64) => (Vent2 m ρ c main_v29 : FVec Ideal S1x64 .f32) (ix2 (0 : Fin 1) d)) n d)

/-- Region 2's output in terms of the messages, the target words and the layer's scale and shift. -/
theorem bridge_hO1 (hV : RV2 m ρ c) (n : Fin 102400) (d : Fin 64) :
    kO1 m ρ c n d
      = relu (normMul ((64 : ℝ) : EReal) ((10995116 / 2 ^ 40 : ℝ) : EReal)
          (seg (N := 102400) (colW (A1 m ρ c)) (kM1 m ρ c))
          (vec (A10 m ρ c)) (vec (A11 m ρ c)) n d) := by
  have e0 : (Vent3 m ρ c main_v30 : FVec Ideal S102400x64 .f32)
      = ((dat2 (F := Ideal) (Vent2 m ρ) c).arrAt 4 cfg2.N : FVec Ideal S102400x64 .f32) := Vent3_main_v30 m ρ c
  have eC : (fun (e : Fin 1600000) => (Vent2 m ρ c main_v21 : IVec S1x1600000 32) (ix2 (0 : Fin 1) e)) = colW (A1 m ρ c) := by
    funext e
    exact (congrArg (fun f : IVec S1x1600000 32 => f (ix2 (0 : Fin 1) e)) (Vent2_main_v21 m ρ c)).trans
      (v21_apply (F := Ideal) (W0 m ρ c) 0 e)
  have eM : (fun (e : Fin 1600000) (d : Fin 64) => (Vent2 m ρ c main_v27 : FVec Ideal S1600000x64 .bf16) (ix2 e d)) = kM1 m ρ c := rfl
  have eG : (fun (d : Fin 64) => (Vent2 m ρ c main_v28 : FVec Ideal S1x64 .f32) (ix2 (0 : Fin 1) d)) = vec (A10 m ρ c) := by
    funext d
    exact (v28_apply (F := Ideal) (W9 m ρ c) 0 d).trans
      (congrArg (fun f : FVec Ideal S64 .f32 => f (ix1 d)) (W9_main_arg10 m ρ c))
  have eB : (fun (d : Fin 64) => (Vent2 m ρ c main_v29 : FVec Ideal S1x64 .f32) (ix2 (0 : Fin 1) d)) = vec (A11 m ρ c) := by
    funext d
    exact (v29_apply (F := Ideal) (W9 m ρ c) 0 d).trans
      (congrArg (fun f : FVec Ideal S64 .f32 => f (ix1 d)) (W9_main_arg11 m ρ c))
  unfold kO1
  rw [e0, hV n d, eC, eM, eG, eB, Cert.LibNormForms.lit64, Cert.LibNormForms.litEps]

/-- What region 3 leaves in its output: the dense stage of its three operands. -/
def RV3 : Prop :=
  ∀ (n : Fin 102400) (d : Fin 64),
    ((dat3 (F := Ideal) (Vent3 m ρ) c).arrAt 3 cfg3.N : FVec Ideal S102400x64 .f32) (ix2 n d)
      = lin (fun (n : Fin 102400) (k : Fin 64) => (Vent3 m ρ c main_v30 : FVec Ideal S102400x64 .f32) (ix2 n k))
          (fun (k : Fin 64) (d : Fin 64) => (Vent3 m ρ c main_v31 : FVec Ideal S64x64 .f32) (ix2 k d))
          (fun (d : Fin 64) => (Vent3 m ρ c main_v32 : FVec Ideal S1x64 .f32) (ix2 (0 : Fin 1) d)) n d

/-- Region 3's output is the dense stage of its operand with the layer's transposed weights and bias. -/
theorem bridge_hH2 (hV : RV3 m ρ c) (n : Fin 102400) (d : Fin 64) :
    kH2 m ρ c n d = lin (kO1 m ρ c) (matT (A6 m ρ c)) (vec (A7 m ρ c)) n d := by
  have e0 : (Vent4 m ρ c main_v33 : FVec Ideal S102400x64 .f32)
      = ((dat3 (F := Ideal) (Vent3 m ρ) c).arrAt 3 cfg3.N : FVec Ideal S102400x64 .f32) := Vent4_main_v33 m ρ c
  have e1 : (fun (n : Fin 102400) (k : Fin 64) => (Vent3 m ρ c main_v30 : FVec Ideal S102400x64 .f32) (ix2 n k)) = kO1 m ρ c := rfl
  have e2 : (fun (k : Fin 64) (d : Fin 64) => (Vent3 m ρ c main_v31 : FVec Ideal S64x64 .f32) (ix2 k d)) = matT (A6 m ρ c) := by
    funext k d
    exact (v31_apply (F := Ideal) (W11 m ρ c) k d).trans
      (congrArg (fun f : FVec Ideal S64x64 .f32 => f (ix2 d k)) (W11_main_arg6 m ρ c))
  have e3 : (fun (d : Fin 64) => (Vent3 m ρ c main_v32 : FVec Ideal S1x64 .f32) (ix2 (0 : Fin 1) d)) = vec (A7 m ρ c) := by
    funext d
    exact (v32_apply (F := Ideal) (W11 m ρ c) 0 d).trans
      (congrArg (fun f : FVec Ideal S64 .f32 => f (ix1 d)) (W11_main_arg7 m ρ c))
  unfold kH2
  rw [e0, hV n d, e1, e2, e3]

/-- What region 4 leaves in its output: at an edge whose source word names a padded row, that row of the
    operand times the edge's gate. -/
def RV4 : Prop :=
  ∀ (e : Fin 1600000) (d : Fin 64)
    (hrow : ((Vent4 m ρ c main_v20 : IVec S1600000x1 32) (ix2 e (0 : Fin 1))).toNat < 102400),
    ((dat4 (F := Ideal) (Vent4 m ρ) c).arrAt 3 cfg4.N : FVec Ideal S1600000x64 .bf16) (ix2 e d)
      = rdF (S := S102400x64) (φ := .f32) (Vent4 m ρ c main_v33) (ix2 (⟨_, hrow⟩ : Fin 102400) d)
        * rdF (S := S1600000x1) (φ := .f32) (Vent4 m ρ c main_v22) (ix2 e (0 : Fin 1))

/-- Region 4's output at an edge is the gathered row of its operand times the edge's gate. -/
theorem bridge_hM2 (hV : RV4 m ρ c)
    (hlt : ∀ e, (rowW (A1 m ρ c) e).toNat < 102400) (e : Fin 1600000) (d : Fin 64) :
    kM2 m ρ c e d = kH2 m ρ c ⟨(rowW (A1 m ρ c) e).toNat, hlt e⟩ d * gate (A1 m ρ c) (A2 m ρ c) (A3 m ρ c) e := by
  have e0 : (Vent5 m ρ c main_v34 : FVec Ideal S1600000x64 .bf16)
      = ((dat4 (F := Ideal) (Vent4 m ρ) c).arrAt 3 cfg4.N : FVec Ideal S1600000x64 .bf16) := Vent5_main_v34 m ρ c
  have r20 : (Vent4 m ρ c main_v20 : IVec S1600000x1 32) (ix2 e (0 : Fin 1)) = rowW (A1 m ρ c) e :=
    (congrArg (fun f : IVec S1600000x1 32 => f (ix2 e (0 : Fin 1))) (Vent4_main_v20 m ρ c)).trans
      (v20_apply (F := Ideal) (W0 m ρ c) e 0)
  have r22 : rdF (S := S1600000x1) (φ := .f32) (Vent4 m ρ c main_v22) (ix2 e (0 : Fin 1)) = gate (A1 m ρ c) (A2 m ρ c) (A3 m ρ c) e :=
    (congrArg (fun f : FVec Ideal S1600000x1 .f32 => f (ix2 e (0 : Fin 1))) (Vent4_main_v22 m ρ c)).trans
      (v22_apply (F := Ideal) (W0 m ρ c) e 0)
  have hrow : ((Vent4 m ρ c main_v20 : IVec S1600000x1 32) (ix2 e (0 : Fin 1))).toNat < 102400 := by
    rw [r20]; exact hlt e
  have hidx : (⟨((Vent4 m ρ c main_v20 : IVec S1600000x1 32) (ix2 e (0 : Fin 1))).toNat, hrow⟩ : Fin 102400)
      = ⟨(rowW (A1 m ρ c) e).toNat, hlt e⟩ := Fin.ext (congrArg BitVec.toNat r20)
  unfold kM2
  rw [e0, hV e d hrow, hidx, r22]
  rfl

/-- What region 5 leaves in its output: the normalised sum of the messages landing on each row, the residual added first, clamped at zero. -/
def RV5 : Prop :=
  ∀ (n : Fin 102400) (d : Fin 64),
    ((dat5 (F := Ideal) (Vent5 m ρ) c).arrAt 5 cfg5.N : FVec Ideal S102400x64 .f32) (ix2 n d)
      = relu (normMul (Ideal.ofBits .f32 0x42800000#32) (Ideal.ofBits .f32 0x3727C5AC#32)
          (fun (n : Fin 102400) (d : Fin 64) => seg (N := 102400) (fun (e : Fin 1600000) => (Vent5 m ρ c main_v21 : IVec S1x1600000 32) (ix2 (0 : Fin 1) e)) (fun (e : Fin 1600000) (d : Fin 64) => (Vent5 m ρ c main_v34 : FVec Ideal S1600000x64 .bf16) (ix2 e d)) n d + rdF (S := S102400x64) (φ := .f32) (Vent5 m ρ c main_v30) (ix2 n d))
          (fun (d : Fin 64) => (Vent5 m ρ c main_v35 : FVec Ideal S1x64 .f32) (ix2 (0 : Fin 1) d))
          (fun (d : Fin 64) => (Vent5 m ρ c main_v36 : FVec Ideal S1x64 .f32) (ix2 (0 : Fin 1) d)) n d)

/-- Region 5's output in terms of the messages, the target words and the layer's scale and shift. -/
theorem bridge_hO2 (hV : RV5 m ρ c) (n : Fin 102400) (d : Fin 64) :
    kO2 m ρ c n d
      = relu (normMul ((64 : ℝ) : EReal) ((10995116 / 2 ^ 40 : ℝ) : EReal)
          (fun (n : Fin 102400) (d : Fin 64) => seg (N := 102400) (colW (A1 m ρ c)) (kM2 m ρ c) n d + kO1 m ρ c n d)
          (vec (A12 m ρ c)) (vec (A13 m ρ c)) n d) := by
  have e0 : (Vent6 m ρ c main_v37 : FVec Ideal S102400x64 .f32)
      = ((dat5 (F := Ideal) (Vent5 m ρ) c).arrAt 5 cfg5.N : FVec Ideal S102400x64 .f32) := Vent6_main_v37 m ρ c
  have eC : (fun (e : Fin 1600000) => (Vent5 m ρ c main_v21 : IVec S1x1600000 32) (ix2 (0 : Fin 1) e)) = colW (A1 m ρ c) := by
    funext e
    exact (congrArg (fun f : IVec S1x1600000 32 => f (ix2 (0 : Fin 1) e)) (Vent5_main_v21 m ρ c)).trans
      (v21_apply (F := Ideal) (W0 m ρ c) 0 e)
  have eM : (fun (e : Fin 1600000) (d : Fin 64) => (Vent5 m ρ c main_v34 : FVec Ideal S1600000x64 .bf16) (ix2 e d)) = kM2 m ρ c := rfl
  have eG : (fun (d : Fin 64) => (Vent5 m ρ c main_v35 : FVec Ideal S1x64 .f32) (ix2 (0 : Fin 1) d)) = vec (A12 m ρ c) := by
    funext d
    exact (v35_apply (F := Ideal) (W14 m ρ c) 0 d).trans
      (congrArg (fun f : FVec Ideal S64 .f32 => f (ix1 d)) (W14_main_arg12 m ρ c))
  have eB : (fun (d : Fin 64) => (Vent5 m ρ c main_v36 : FVec Ideal S1x64 .f32) (ix2 (0 : Fin 1) d)) = vec (A13 m ρ c) := by
    funext d
    exact (v36_apply (F := Ideal) (W14 m ρ c) 0 d).trans
      (congrArg (fun f : FVec Ideal S64 .f32 => f (ix1 d)) (W14_main_arg13 m ρ c))
  have eR : (Vent5 m ρ c main_v30 : FVec Ideal S102400x64 .f32) = (Vent3 m ρ c main_v30 : FVec Ideal S102400x64 .f32) :=
    (Vent5_main_v30 m ρ c).trans (Vent3_main_v30 m ρ c).symm
  unfold kO2
  rw [e0, hV n d, eC, eM, eG, eB, eR, Cert.LibNormForms.lit64, Cert.LibNormForms.litEps]
  rfl

/-- What region 6 leaves in its output: the dense stage of its three operands. -/
def RV6 : Prop :=
  ∀ (n : Fin 102400) (d : Fin 153),
    ((dat6 (F := Ideal) (Vent6 m ρ) c).arrAt 3 cfg6.N : FVec Ideal S102400x153 .f32) (ix2 n d)
      = lin (fun (n : Fin 102400) (k : Fin 64) => (Vent6 m ρ c main_v37 : FVec Ideal S102400x64 .f32) (ix2 n k))
          (fun (k : Fin 64) (d : Fin 153) => (Vent6 m ρ c main_v38 : FVec Ideal S64x153 .f32) (ix2 k d))
          (fun (d : Fin 153) => (Vent6 m ρ c main_v39 : FVec Ideal S1x153 .f32) (ix2 (0 : Fin 1) d)) n d

/-- Region 6's output is the dense stage of its operand with the layer's transposed weights and bias. -/
theorem bridge_hH3 (hV : RV6 m ρ c) (n : Fin 102400) (d : Fin 153) :
    kH3 m ρ c n d = lin (kO2 m ρ c) (matT (A8 m ρ c)) (vec (A9 m ρ c)) n d := by
  have e0 : (Vent7 m ρ c main_v40 : FVec Ideal S102400x153 .f32)
      = ((dat6 (F := Ideal) (Vent6 m ρ) c).arrAt 3 cfg6.N : FVec Ideal S102400x153 .f32) := Vent7_main_v40 m ρ c
  have e1 : (fun (n : Fin 102400) (k : Fin 64) => (Vent6 m ρ c main_v37 : FVec Ideal S102400x64 .f32) (ix2 n k)) = kO2 m ρ c := rfl
  have e2 : (fun (k : Fin 64) (d : Fin 153) => (Vent6 m ρ c main_v38 : FVec Ideal S64x153 .f32) (ix2 k d)) = matT (A8 m ρ c) := by
    funext k d
    exact (v38_apply (F := Ideal) (W16 m ρ c) k d).trans
      (congrArg (fun f : FVec Ideal S153x64 .f32 => f (ix2 d k)) (W16_main_arg8 m ρ c))
  have e3 : (fun (d : Fin 153) => (Vent6 m ρ c main_v39 : FVec Ideal S1x153 .f32) (ix2 (0 : Fin 1) d)) = vec (A9 m ρ c) := by
    funext d
    exact (v39_apply (F := Ideal) (W16 m ρ c) 0 d).trans
      (congrArg (fun f : FVec Ideal S153 .f32 => f (ix1 d)) (W16_main_arg9 m ρ c))
  unfold kH3
  rw [e0, hV n d, e1, e2, e3]

/-- What region 7 leaves in its output: at an edge whose source word names a padded row, that row of the
    operand times the edge's gate. -/
def RV7 : Prop :=
  ∀ (e : Fin 1600000) (d : Fin 153)
    (hrow : ((Vent7 m ρ c main_v20 : IVec S1600000x1 32) (ix2 e (0 : Fin 1))).toNat < 102400),
    ((dat7 (F := Ideal) (Vent7 m ρ) c).arrAt 3 cfg7.N : FVec Ideal S1600000x153 .bf16) (ix2 e d)
      = rdF (S := S102400x153) (φ := .f32) (Vent7 m ρ c main_v40) (ix2 (⟨_, hrow⟩ : Fin 102400) d)
        * rdF (S := S1600000x1) (φ := .f32) (Vent7 m ρ c main_v22) (ix2 e (0 : Fin 1))

/-- Region 7's output at an edge is the gathered row of its operand times the edge's gate. -/
theorem bridge_hM3 (hV : RV7 m ρ c)
    (hlt : ∀ e, (rowW (A1 m ρ c) e).toNat < 102400) (e : Fin 1600000) (d : Fin 153) :
    kM3 m ρ c e d = kH3 m ρ c ⟨(rowW (A1 m ρ c) e).toNat, hlt e⟩ d * gate (A1 m ρ c) (A2 m ρ c) (A3 m ρ c) e := by
  have e0 : (Vent8 m ρ c main_v41 : FVec Ideal S1600000x153 .bf16)
      = ((dat7 (F := Ideal) (Vent7 m ρ) c).arrAt 3 cfg7.N : FVec Ideal S1600000x153 .bf16) := Vent8_main_v41 m ρ c
  have r20 : (Vent7 m ρ c main_v20 : IVec S1600000x1 32) (ix2 e (0 : Fin 1)) = rowW (A1 m ρ c) e :=
    (congrArg (fun f : IVec S1600000x1 32 => f (ix2 e (0 : Fin 1))) (Vent7_main_v20 m ρ c)).trans
      (v20_apply (F := Ideal) (W0 m ρ c) e 0)
  have r22 : rdF (S := S1600000x1) (φ := .f32) (Vent7 m ρ c main_v22) (ix2 e (0 : Fin 1)) = gate (A1 m ρ c) (A2 m ρ c) (A3 m ρ c) e :=
    (congrArg (fun f : FVec Ideal S1600000x1 .f32 => f (ix2 e (0 : Fin 1))) (Vent7_main_v22 m ρ c)).trans
      (v22_apply (F := Ideal) (W0 m ρ c) e 0)
  have hrow : ((Vent7 m ρ c main_v20 : IVec S1600000x1 32) (ix2 e (0 : Fin 1))).toNat < 102400 := by
    rw [r20]; exact hlt e
  have hidx : (⟨((Vent7 m ρ c main_v20 : IVec S1600000x1 32) (ix2 e (0 : Fin 1))).toNat, hrow⟩ : Fin 102400)
      = ⟨(rowW (A1 m ρ c) e).toNat, hlt e⟩ := Fin.ext (congrArg BitVec.toNat r20)
  unfold kM3
  rw [e0, hV e d hrow, hidx, r22]
  rfl

/-- What region 8 leaves in its output: the normalised sum of the messages landing on each row. -/
def RV8 : Prop :=
  ∀ (n : Fin 102400) (d : Fin 153),
    ((dat8 (F := Ideal) (Vent8 m ρ) c).arrAt 4 cfg8.N : FVec Ideal S102400x153 .f32) (ix2 n d)
      = normMul (Ideal.ofBits .f32 0x43190000#32) (Ideal.ofBits .f32 0x3727C5AC#32)
          (seg (N := 102400) (fun (e : Fin 1600000) => (Vent8 m ρ c main_v21 : IVec S1x1600000 32) (ix2 (0 : Fin 1) e)) (fun (e : Fin 1600000) (d : Fin 153) => (Vent8 m ρ c main_v41 : FVec Ideal S1600000x153 .bf16) (ix2 e d)))
          (fun (d : Fin 153) => (Vent8 m ρ c main_v42 : FVec Ideal S1x153 .f32) (ix2 (0 : Fin 1) d))
          (fun (d : Fin 153) => (Vent8 m ρ c main_v43 : FVec Ideal S1x153 .f32) (ix2 (0 : Fin 1) d)) n d

/-- Region 8's output in terms of the messages, the target words and the layer's scale and shift. -/
theorem bridge_hO3 (hV : RV8 m ρ c) (n : Fin 102400) (d : Fin 153) :
    kO3 m ρ c n d
      = normMul ((153 : ℝ) : EReal) ((10995116 / 2 ^ 40 : ℝ) : EReal)
          (seg (N := 102400) (colW (A1 m ρ c)) (kM3 m ρ c))
          (vec (A14 m ρ c)) (vec (A15 m ρ c)) n d := by
  have e0 : (W21 (F := Ideal) m ρ c (Proc.devRef .tc main_v44) : FVec Ideal S102400x153 .f32)
      = ((dat8 (F := Ideal) (Vent8 m ρ) c).arrAt 4 cfg8.N : FVec Ideal S102400x153 .f32) := W21_main_v44 m ρ c
  have eC : (fun (e : Fin 1600000) => (Vent8 m ρ c main_v21 : IVec S1x1600000 32) (ix2 (0 : Fin 1) e)) = colW (A1 m ρ c) := by
    funext e
    exact (congrArg (fun f : IVec S1x1600000 32 => f (ix2 (0 : Fin 1) e)) (Vent8_main_v21 m ρ c)).trans
      (v21_apply (F := Ideal) (W0 m ρ c) 0 e)
  have eM : (fun (e : Fin 1600000) (d : Fin 153) => (Vent8 m ρ c main_v41 : FVec Ideal S1600000x153 .bf16) (ix2 e d)) = kM3 m ρ c := rfl
  have eG : (fun (d : Fin 153) => (Vent8 m ρ c main_v42 : FVec Ideal S1x153 .f32) (ix2 (0 : Fin 1) d)) = vec (A14 m ρ c) := by
    funext d
    exact (v42_apply (F := Ideal) (W19 m ρ c) 0 d).trans
      (congrArg (fun f : FVec Ideal S153 .f32 => f (ix1 d)) (W19_main_arg14 m ρ c))
  have eB : (fun (d : Fin 153) => (Vent8 m ρ c main_v43 : FVec Ideal S1x153 .f32) (ix2 (0 : Fin 1) d)) = vec (A15 m ρ c) := by
    funext d
    exact (v43_apply (F := Ideal) (W19 m ρ c) 0 d).trans
      (congrArg (fun f : FVec Ideal S153 .f32 => f (ix1 d)) (W19_main_arg15 m ρ c))
  unfold kO3
  rw [e0, hV n d, eC, eM, eG, eB, Cert.LibNormForms.lit153, Cert.LibNormForms.litEps]

/-! ### The result -/

/-- The result on the first 100000 rows, given each region's value and the range of the source words. -/
theorem kernel_result_of
    (hV0 : RV0 m ρ c) (hV1 : RV1 m ρ c) (hV2 : RV2 m ρ c) (hV3 : RV3 m ρ c) (hV4 : RV4 m ρ c) (hV5 : RV5 m ρ c) (hV6 : RV6 m ρ c) (hV7 : RV7 m ρ c) (hV8 : RV8 m ρ c)
    (hrowsI : ∀ e, 0 ≤ (rowW (A1 m ρ c) e).toInt ∧ (rowW (A1 m ρ c) e).toInt < 100000)
    (hrowsN : ∀ e, (rowW (A1 m ρ c) e).toNat < 100000)
    (n : Fin 100000) (d : Fin 153) :
    (W22 (F := Ideal) m ρ c (Proc.devRef .tc main_v45) : FVec Ideal S100000x153 .f32) (ix2 n d)
      = Cert.RefSide.out (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) (A14 m ρ c) (A15 m ρ c) n d := by
  have hlt : ∀ e, (rowW (A1 m ρ c) e).toNat < 102400 := fun e => lt_trans (hrowsN e) (by norm_num)
  have hsrc : ∀ e, (srcRow (A1 m ρ c) e).val = (rowW (A1 m ρ c) e).toNat := fun e => srcRow_val (A1 m ρ c) e (hrowsI e)
  have h45 := v45_apply (F := Ideal) (W21 m ρ c) n d
  refine h45.trans ?_
  show kO3 m ρ c ⟨n.val, _⟩ d = _
  unfold Cert.RefSide.out Cert.RefSide.h2 Cert.RefSide.h1 Cert.RefSide.c64 Cert.RefSide.c153 Cert.RefSide.eps
  rw [Cert.LibNormForms.lit64, Cert.LibNormForms.lit153, Cert.LibNormForms.litEps]
  exact Cert.Compose.three_layers (N := 100000) (NP := 102400) (by norm_num)
    (r64 := 64) (r153 := 153) (re := 10995116 / 2 ^ 40) (by norm_num) (by norm_num) (by norm_num)
    (colW (A1 m ρ c)) (rowW (A1 m ρ c)) (gate (A1 m ρ c) (A2 m ρ c) (A3 m ρ c)) (srcRow (A1 m ρ c)) hlt hsrc
    (mat (A0 m ρ c))
    (matT (A4 m ρ c)) (vec (A5 m ρ c)) (vec (A10 m ρ c)) (vec (A11 m ρ c))
    (matT (A6 m ρ c)) (vec (A7 m ρ c)) (vec (A12 m ρ c)) (vec (A13 m ρ c))
    (matT (A8 m ρ c)) (vec (A9 m ρ c)) (vec (A14 m ρ c)) (vec (A15 m ρ c))
    (kX0 m ρ c) (kH1 m ρ c) (kO1 m ρ c) (kH2 m ρ c) (kO2 m ρ c) (kH3 m ρ c) (kO3 m ρ c)
    (kM1 m ρ c) (kM2 m ρ c) (kM3 m ρ c)
    (bridge_hX m ρ c)
    (bridge_hH1 m ρ c hV0) (bridge_hM1 m ρ c hV1 hlt) (bridge_hO1 m ρ c hV2)
    (bridge_hH2 m ρ c hV3) (bridge_hM2 m ρ c hV4 hlt) (bridge_hO2 m ρ c hV5)
    (bridge_hH3 m ρ c hV6) (bridge_hM3 m ρ c hV7 hlt) (bridge_hO3 m ρ c hV8)
    n d

/-- The same from the printed precondition: it bounds every source word, read signed, by `0` and `100000`. -/
theorem kernel_result_pre [Cert.Pre_finite_inputs.Facts]
    (hV0 : RV0 m ρ c) (hV1 : RV1 m ρ c) (hV2 : RV2 m ρ c) (hV3 : RV3 m ρ c) (hV4 : RV4 m ρ c) (hV5 : RV5 m ρ c) (hV6 : RV6 m ρ c) (hV7 : RV7 m ρ c) (hV8 : RV8 m ρ c)
    (hpre : Cert.Pre_finite_inputs.fn (F := Ideal) (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) (A14 m ρ c) (A15 m ρ c) = fun _ => 1#1)
    (n : Fin 100000) (d : Fin 153) :
    (W22 (F := Ideal) m ρ c (Proc.devRef .tc main_v45) : FVec Ideal S100000x153 .f32) (ix2 n d)
      = Cert.RefSide.out (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) (A14 m ρ c) (A15 m ρ c) n d :=
  kernel_result_of m ρ c hV0 hV1 hV2 hV3 hV4 hV5 hV6 hV7 hV8
    (fun e => Cert.PreRows.rows_of_pre (F := Ideal) (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) (A14 m ρ c) (A15 m ρ c) hpre e)
    (fun e => (Cert.PreRows.rows_toNat_of_pre (F := Ideal) (A0 m ρ c) (A1 m ρ c) (A2 m ρ c) (A3 m ρ c) (A4 m ρ c) (A5 m ρ c) (A6 m ρ c) (A7 m ρ c) (A8 m ρ c) (A9 m ρ c) (A10 m ρ c) (A11 m ρ c) (A12 m ρ c) (A13 m ρ c) (A14 m ρ c) (A15 m ρ c) hpre e).1) n d

end Cert.KernelIdeal.H

end
-- ==== Proof.KI.V0.lean ====
import proofs.«421344_j1254130450614_1_alg».proof.Proof.KI.R0
import proofs.«421344_j1254130450614_1_alg».proof.Proof.Spec
import Idealize.ShloMosaic.Lib.ValueIdx
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # Region 0 at the extended reals: the array it leaves is the dense map of the arrays it reads

Over the extended reals the narrowing of both factors to sixteen bits is the identity, the product into a zero
accumulator is the plain sum of products over the 64 contracted columns, and the bias row is added to every
row.  Point `t` of the grid computes rows `2048 t … 2048 t + 2047`; the fifty blocks tile the 102400 rows. -/

variable (V : (c : Dev nD) → (b : Ref sig .tc) → Buf (Elt Ideal) ((c : Thread nD τ).loc b))

/-! ## The payload at an index -/

/-- The operand indices of the product at output index `j` and contraction position `k`, axis by axis: the left
    factor is read at (row of `j`, `k`), the right one at (`k`, column of `j`). -/
theorem lhs0_0 (j : S2048x64.Idx) (k : dot_S2048x64_S64x64_S2048x64_1_0_0_1_n_n.contr.Idx) :
    (dot_S2048x64_S64x64_S2048x64_1_0_0_1_n_n.lhsIdx j k 0 : ℕ) = j 0 := by
  simp [DotDims.lhsIdx, dot_S2048x64_S64x64_S2048x64_1_0_0_1_n_n]; rfl
theorem lhs0_1 (j : S2048x64.Idx) (k : dot_S2048x64_S64x64_S2048x64_1_0_0_1_n_n.contr.Idx) :
    (dot_S2048x64_S64x64_S2048x64_1_0_0_1_n_n.lhsIdx j k 1 : ℕ) = k ⟨0, by decide⟩ := by
  simp [DotDims.lhsIdx, dot_S2048x64_S64x64_S2048x64_1_0_0_1_n_n]; rfl
theorem rhs0_0 (j : S2048x64.Idx) (k : dot_S2048x64_S64x64_S2048x64_1_0_0_1_n_n.contr.Idx) :
    (dot_S2048x64_S64x64_S2048x64_1_0_0_1_n_n.rhsIdx j k 0 : ℕ) = k ⟨0, by decide⟩ := by
  simp [DotDims.rhsIdx, dot_S2048x64_S64x64_S2048x64_1_0_0_1_n_n]; rfl
theorem rhs0_1 (j : S2048x64.Idx) (k : dot_S2048x64_S64x64_S2048x64_1_0_0_1_n_n.contr.Idx) :
    (dot_S2048x64_S64x64_S2048x64_1_0_0_1_n_n.rhsIdx j k 1 : ℕ) = j 1 := by
  simp [DotDims.rhsIdx, dot_S2048x64_S64x64_S2048x64_1_0_0_1_n_n]; rfl

/-- The stored value at (row `p`, column `q`) of a block: the sum over the contracted columns of row `p` of the
    first block against column `q` of the second, plus the bias at column `q`. -/
theorem pay0_apply (x0 : Vec Ideal S2048x64 .f32) (x1 : Vec Ideal S64x64 .f32) (x2 : Vec Ideal S1x64 .f32)
    (p : Fin 2048) (q : Fin 64) :
    k0_pay1 x0 x1 x2 (ix2 p q) = (∑ k : Fin 64, x0 (ix2 p k) * x1 (ix2 k q)) + x2 (ix2 0 q) := by
  unfold k0_pay1
  rw [addf_apply]
  simp only [shapeCast_self, matmul]
  rw [Ideal.matmul_constant_zero_apply,
    broadcastTo_apply x2 broadcasts_S1x64_S2048x64 (ix2 p q) (ix2 0 q)
      (fun a => match a with | ⟨0, _⟩ => rfl | ⟨1, _⟩ => rfl),
    ← Equiv.sum_comp (contrEquiv1 dot_S2048x64_S64x64_S2048x64_1_0_0_1_n_n 64 rfl rfl).symm]
  refine congrArg (· + x2 (ix2 0 q)) (Finset.sum_congr rfl fun k _ => ?_)
  have hk := contrEquiv1_symm_val dot_S2048x64_S64x64_S2048x64_1_0_0_1_n_n 64 rfl rfl k
  show x0 _ * x1 _ = _
  congr 1
  · refine congrArg x0 (Shape.idx_ext₂ ?_ ?_)
    · exact lhs0_0 _ _
    · exact (lhs0_1 _ _).trans hk
  · refine congrArg x1 (Shape.idx_ext₂ ?_ ?_)
    · exact (rhs0_0 _ _).trans hk
    · exact rhs0_1 _ _

/-! ## From blocks to the array -/

/-- The dense map of the three arrays as the region finds them, as one function of the output index. -/
def G0 (c : Dev nD) : S102400x64.Idx → EReal := fun i =>
  Cert.Spec.lin (N := 102400) (K := 64) (D := 64) (fun n k => V c main_v23 (ix2 n k))
    (fun k d => V c main_v24 (ix2 k d)) (fun d => V c main_v25 (ix2 0 d)) (i 0) (i 1)

theorem hz0 : (![0, 0] : Fin 2 → Nat) = fun _ => 0 := funext fun a => by fin_cases a <;> rfl

/-- Where each window's block sits at grid point `t`: the rows' and the result's blocks are the `t`-th block of
    2048 rows, the weights' and the bias' blocks are the whole arrays (checked point by point over the 50 points). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result's block is written back at every point. -/
theorem flush0_3 : ∀ t : Fin cfg0.N, (cfg0.win 3).flush t = true :=
  (by decide +kernel : ∀ t : Fin grid0.N, win0_3.flush t = true)

/-- What point `t` writes back is the payload of the three blocks the point reads: the one store covers the
    buffer and each load reads a whole buffer. -/
theorem flushed0_pay (c : Dev nD) (t : Fin cfg0.N) :
    (dat0 V c).flushed 3 t = k0_pay1 (iblk0 V c 0 t) (iblk0 V c 1 t) (iblk0 V c 2 t) := by
  show (cfg0.win 3).cut (grid0.coords t) ((dat0 V c).after 3 t) = _
  rw [after0_3]
  unfold out0_3
  rw [View.canon_unit_zero hz0]
  simp only [View.ld_unit_zero (S := S2048x64) hz0, View.ld_unit_zero (S := S64x64) hz0,
    View.ld_unit_zero (S := S1x64) hz0]
  rfl

/-- Where the entries of point `t`'s blocks sit in their arrays, against the place of entry (`p`, `q`) of the
    result's block: the rows' block shares the result's rows, -/
theorem emb0_rows (t : Fin cfg0.N) (p : Fin 2048) (q : Fin 64) (k : Fin 64) :
    ((cfg0.win 0).blk t).view.emb (ix2 p k) = ix2 ((((cfg0.win 3).blk t).view.emb (ix2 p q)) 0) k := by
  obtain ⟨e00, e01, -, -, -, -, e30, e31⟩ := idx_facts0 t
  funext a; apply Fin.ext
  match a with
  | ⟨0, _⟩ =>
    show win0_0.index t (0 : Fin 2) * 2048 + 1 * p.val = win0_3.index t (0 : Fin 2) * 2048 + 1 * p.val
    omega
  | ⟨1, _⟩ =>
    show win0_0.index t (1 : Fin 2) * 64 + 1 * k.val = k.val
    omega

/-- the weights' block is the whole matrix and shares the result's columns, -/
theorem emb0_wts (t : Fin cfg0.N) (p : Fin 2048) (q : Fin 64) (k : Fin 64) :
    ((cfg0.win 1).blk t).view.emb (ix2 k q) = ix2 k ((((cfg0.win 3).blk t).view.emb (ix2 p q)) 1) := by
  obtain ⟨-, -, e10, e11, -, -, e30, e31⟩ := idx_facts0 t
  have hq : q.val < 64 := q.isLt
  funext a; apply Fin.ext
  match a with
  | ⟨0, _⟩ =>
    show win0_1.index t (0 : Fin 2) * 64 + 1 * k.val = k.val
    omega
  | ⟨1, _⟩ =>
    show win0_1.index t (1 : Fin 2) * 64 + 1 * q.val = win0_3.index t (1 : Fin 2) * 64 + 1 * q.val
    omega

/-- and the bias' block is the whole row and shares the result's columns. -/
theorem emb0_bias (t : Fin cfg0.N) (p : Fin 2048) (q : Fin 64) :
    ((cfg0.win 2).blk t).view.emb (ix2 0 q) = ix2 0 ((((cfg0.win 3).blk t).view.emb (ix2 p q)) 1) := by
  obtain ⟨-, -, -, -, e20, e21, e30, e31⟩ := idx_facts0 t
  have hq : q.val < 64 := q.isLt
  funext a; apply Fin.ext
  match a with
  | ⟨0, _⟩ =>
    show win0_2.index t (0 : Fin 2) * 1 + 1 * 0 = 0
    omega
  | ⟨1, _⟩ =>
    show win0_2.index t (1 : Fin 2) * 64 + 1 * q.val = win0_3.index t (1 : Fin 2) * 64 + 1 * q.val
    omega

/-- So the payload's value at entry (`p`, `q`) of blocks that read the three arrays at point `t` is the dense map
    at the entry's place in the result array. -/
theorem blocks0_eq (c : Dev nD) (t : Fin cfg0.N) (p : Fin 2048) (q : Fin 64)
    (x0 : Vec Ideal S2048x64 .f32) (x1 : Vec Ideal S64x64 .f32) (x2 : Vec Ideal S1x64 .f32)
    (b0 : ∀ y : S2048x64.Idx, x0 y = V c main_v23 (((cfg0.win 0).blk t).view.emb y))
    (b1 : ∀ y : S64x64.Idx, x1 y = V c main_v24 (((cfg0.win 1).blk t).view.emb y))
    (b2 : ∀ y : S1x64.Idx, x2 y = V c main_v25 (((cfg0.win 2).blk t).view.emb y)) :
    (∑ k : Fin 64, x0 (ix2 p k) * x1 (ix2 k q)) + x2 (ix2 0 q)
      = ((cfg0.win 3).blk t).view.read (Elt Ideal) (G0 V c) (ix2 p q) := by
  have r3 : ((cfg0.win 3).blk t).view.read (Elt Ideal) (G0 V c) (ix2 p q)
      = G0 V c (((cfg0.win 3).blk t).view.emb (ix2 p q)) := rfl
  refine Eq.trans ?_ r3.symm
  unfold G0 Cert.Spec.lin
  simp only [b0, b1, b2, emb0_rows t p q, emb0_wts t p q, emb0_bias t p q]
  rfl

/-- What point `t` writes back is block `t` of the dense map. -/
theorem flushed0_eq (c : Dev nD) (t : Fin cfg0.N) :
    (dat0 V c).flushed 3 t = ((cfg0.win 3).blk t).view.read (Elt Ideal) (G0 V c) := by
  rw [flushed0_pay]
  funext j
  obtain ⟨p, q, rfl⟩ : ∃ (p : Fin 2048) (q : Fin 64), j = ix2 p q := ⟨j 0, j 1, eq_ix2 j⟩
  exact (pay0_apply _ _ _ p q).trans
    (blocks0_eq V c t p q _ _ _ (fun _ => rfl) (fun _ => rfl) (fun _ => rfl))

/-- An index of the result array lies in point `t`'s block iff on each axis it lies in the block's range. -/
theorem mem_blk0 (t : Fin cfg0.N) (i : S102400x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v26).slice (win0_3.rect t)).set ↔ _
  rw [View.set_slice_whole, Rect.mem_set_unit]
  exact Iff.rfl

/-- Every index of the result array is in the block of the point its row falls in: row `r` is in block `r / 2048`. -/
theorem cover0 (i : S102400x64.Idx) :
    ∃ t : Fin cfg0.N, (cfg0.win 3).flush t = true ∧ i ∈ ((cfg0.win 3).blk t).view.set := by
  have hi0 : (i 0).val < 102400 := (i 0).isLt
  have hi1 : (i 1).val < 64 := (i 1).isLt
  have ht : (i 0).val / 2048 < cfg0.N := by
    show (i 0).val / 2048 < grid0.N
    rw [N_0]; omega
  obtain ⟨-, -, -, -, -, -, e30, e31⟩ := idx_facts0 ⟨(i 0).val / 2048, ht⟩
  have e30' : win0_3.index ⟨(i 0).val / 2048, ht⟩ (0 : Fin 2) = (i 0).val / 2048 := e30
  refine ⟨⟨(i 0).val / 2048, ht⟩, flush0_3 _, ?_⟩
  rw [mem_blk0]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    omega
  | ⟨1, _⟩ =>
    show win0_3.index ⟨(i 0).val / 2048, ht⟩ (1 : Fin 2) * 64 ≤ (i 1).val
      ∧ (i 1).val < win0_3.index ⟨(i 0).val / 2048, ht⟩ (1 : Fin 2) * 64 + 64
    omega

/-- The result array after the region: the dense map of the three arrays read, at every index. -/
theorem arrAt0_out (c : Dev nD) (n : Fin 102400) (d : Fin 64) :
    (dat0 (F := Ideal) V c).arrAt 3 cfg0.N (ValueIdx.ix2 n d)
      = Cert.Spec.lin (fun n k => V c main_v23 (ix2 n k)) (fun k d => V c main_v24 (ix2 k d))
          (fun d => V c main_v25 (ix2 0 d)) n d := by
  rw [(dat0 V c).arrAt_eq_of_cover 3 (G0 V c) (fun t _ => flushed0_eq V c t) cover0]
  rfl

/-- The arrays the region only reads are as it found them. -/
theorem arrAt0_in (c : Dev nD) (w : Fin cfg0.W) (hw : w ≠ 3) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, h => exact absurd rfl h
  exact ((dat0 V c).arrAt_in w hin _).trans (A_eq0 V c w)

end Cert.KernelIdeal.H

end
-- ==== Proof.KI.V1Pay.lean ====
/-
  Region 1's three stored values, read at one entry over the extended reals.

  The gather kernel works on a block of 1280 edges against a tile of 2560 nodes at a time. For each edge row r it compares the
  edge's source-node word with the node numbers of the tile's 2560 columns (column q of tile j is node q + 2560 j), turns the
  comparison into a 0/1 coefficient, and multiplies that one-hot row into the tile's 2560 × 64 feature block: entry (r, d) of the
  product is the sum over the tile's columns of coefficient × feature, which is the feature row of the named node if it lies in
  this tile and 0 otherwise. The product is added to the running block; the running block starts at zero, and after the last
  tile each of its rows is scaled by the edge's gate. Over the extended reals the narrowing format changes are the identity, so
  the three statements below are exact.
-/
import proofs.«421344_j1254130450614_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.H

open Cert.KernelIdeal Cert.KernelIdeal.Gen
open Idealize.ShloMosaic Idealize.ShloMosaic.ValueIdx
open scoped BigOperators

/-- The reset block is zero everywhere. -/
theorem k1_pay1_apply (r : Fin 1280) (d : Fin 64) : (k1_pay1 (F := Ideal)) (ix2 r d) = 0 := by
  unfold k1_pay1
  refine (congrFun (shapeCast_self _ _) (ix2 r d)).trans ?_
  exact Ideal.ofBits_zero_f32

/-- The written-back block is the accumulator scaled row by row by the gate column. -/
theorem k1_pay3_apply (v27 : Vec Ideal S1280x64 .f32) (v28 : Vec Ideal S1280x1 .f32) (r : Fin 1280) (d : Fin 64) :
    k1_pay3 (F := Ideal) v27 v28 (ix2 r d) = v27 (ix2 r d) * v28 (ix2 r (0 : Fin 1)) := by
  unfold k1_pay3
  show v27 (ix2 r d) * broadcastTo S1280x64 (shapeCast S1280x1 v28 shapeCasts_S1280x1_S1280x1) broadcasts_S1280x1_S1280x64 (ix2 r d) = _
  refine congrArg (v27 (ix2 r d) * ·) ?_
  refine (broadcastTo_apply _ broadcasts_S1280x1_S1280x64 (ix2 r d) (ix2 r (0 : Fin 1)) (fun a => ?_)).trans ?_
  · match a with
    | ⟨0, _⟩ => rfl
    | ⟨1, _⟩ => rfl
  · exact congrFun (shapeCast_self v28 _) _

/-! ### The gather matmul's operand indices, axis by axis

For a plain rows × contraction times contraction × columns product the left operand is read at
(output row, contraction position) and the right at (contraction position, output column). -/

theorem lhs_gather1_0 (j : S1280x64.Idx) (q : dot_S1280x2560_S2560x64_S1280x64_1_0_0_1_n_n.contr.Idx) :
    (dot_S1280x2560_S2560x64_S1280x64_1_0_0_1_n_n.lhsIdx j q 0).val = (j 0).val := by
  unfold DotDims.lhsIdx
  rw [dif_neg (show ¬(0 : Fin S1280x2560.rank) ∈ dot_S1280x2560_S2560x64_S1280x64_1_0_0_1_n_n.lhsBatch by decide), dif_pos (show (0 : Fin S1280x2560.rank) ∈ dot_S1280x2560_S2560x64_S1280x64_1_0_0_1_n_n.lhsNonContracting by decide)]
  rfl
theorem lhs_gather1_1 (j : S1280x64.Idx) (q : dot_S1280x2560_S2560x64_S1280x64_1_0_0_1_n_n.contr.Idx) :
    (dot_S1280x2560_S2560x64_S1280x64_1_0_0_1_n_n.lhsIdx j q 1).val = (q ⟨0, by decide⟩).val :=
  dot_S1280x2560_S2560x64_S1280x64_1_0_0_1_n_n.lhsIdx_val_of_single rfl j q
theorem rhs_gather1_0 (j : S1280x64.Idx) (q : dot_S1280x2560_S2560x64_S1280x64_1_0_0_1_n_n.contr.Idx) :
    (dot_S1280x2560_S2560x64_S1280x64_1_0_0_1_n_n.rhsIdx j q 0).val = (q ⟨0, by decide⟩).val :=
  dot_S1280x2560_S2560x64_S1280x64_1_0_0_1_n_n.rhsIdx_val_of_single rfl j q
theorem rhs_gather1_1 (j : S1280x64.Idx) (q : dot_S1280x2560_S2560x64_S1280x64_1_0_0_1_n_n.contr.Idx) :
    (dot_S1280x2560_S2560x64_S1280x64_1_0_0_1_n_n.rhsIdx j q 1).val = (j 1).val := by
  unfold DotDims.rhsIdx
  rw [dif_neg (show ¬(1 : Fin S2560x64.rank) ∈ dot_S1280x2560_S2560x64_S1280x64_1_0_0_1_n_n.rhsBatch by decide), dif_pos (show (1 : Fin S2560x64.rank) ∈ dot_S1280x2560_S2560x64_S1280x64_1_0_0_1_n_n.rhsNonContracting by decide)]
  rfl

/-- A comparison bit, widened to a word and converted as a signed integer, is 1 where the two words agree and 0 elsewhere. -/
theorem onehot_word (x y : BitVec 32) :
    (FloatOps.sitofp .f32 ((IntOp.cmpi .eq x y).setWidth 32) : Ideal .f32) = if x = y then (1 : EReal) else 0 := by
  have key : ∀ b : Bool, ((((BitVec.ofBool b).setWidth 32).toInt : ℝ) : EReal) = if b = true then (1 : EReal) else 0 := by
    intro b
    cases b
    · have h0 : ((BitVec.ofBool false).setWidth 32).toInt = 0 := by decide
      rw [h0]; simp
    · have h1 : ((BitVec.ofBool true).setWidth 32).toInt = 1 := by decide
      rw [h1]; simp
  refine (key (x == y)).trans ?_
  simp only [beq_iff_eq]

/-- The column's node number: lane position plus the node tile's offset, as 32-bit words, is the word of the sum. -/
theorem node_word (q j : Nat) :
    IntOp.addi (BitVec.ofNat 32 q) (Scalar.muli (BitVec.ofNat 32 j) 2560#32) = BitVec.ofNat 32 (q + j * 2560) := by
  show BitVec.ofNat 32 q + BitVec.ofNat 32 j * BitVec.ofNat 32 2560 = _
  rw [BitVec.ofNat_add, BitVec.ofNat_mul]

/-- One tile's update at entry (r, d): the running value plus the sum over the tile's 2560 columns of the 0/1 coefficient
    "edge r's source word is the word of node q + 2560 j" times the tile's feature entry (q, d), j the node-tile coordinate. -/
theorem k1_pay2_apply (i : grid1.Coords) (v7 : Vec Ideal S1280x1 .i32) (v15 : Vec Ideal S2560x64 .f32)
    (v18 : Vec Ideal S1280x64 .f32) (r : Fin 1280) (d : Fin 64) :
    k1_pay2 (F := Ideal) i v7 v15 v18 (ix2 r d)
      = v18 (ix2 r d) + ∑ q : Fin 2560,
          (if v7 (ix2 r (0 : Fin 1)) = BitVec.ofNat 32 (q.val + (i 1).val * 2560) then (1 : EReal) else 0) * v15 (ix2 q d) := by
  unfold k1_pay2
  refine (congrFun (shapeCast_self _ _) (ix2 r d)).trans ?_
  refine (addf_apply _ _ _).trans ?_
  refine congrArg (v18 (ix2 r d) + ·) ?_
  refine (Ideal.matmul_constant_zero_apply dot_S1280x2560_S2560x64_S1280x64_1_0_0_1_n_n none _ _ (ix2 r d)).trans ?_
  rw [← Equiv.sum_comp (contrEquiv1 dot_S1280x2560_S2560x64_S1280x64_1_0_0_1_n_n 2560 rfl rfl).symm]
  refine Finset.sum_congr rfl fun k _ => ?_
  have hk := contrEquiv1_symm_val dot_S1280x2560_S2560x64_S1280x64_1_0_0_1_n_n 2560 rfl rfl k
  have el : dot_S1280x2560_S2560x64_S1280x64_1_0_0_1_n_n.lhsIdx (ix2 r d) ((contrEquiv1 dot_S1280x2560_S2560x64_S1280x64_1_0_0_1_n_n 2560 rfl rfl).symm k) = ix2 r k := funext fun a => Fin.ext (by
    match a with
    | ⟨0, _⟩ => exact lhs_gather1_0 _ _
    | ⟨1, _⟩ => exact (lhs_gather1_1 _ _).trans hk)
  have er : dot_S1280x2560_S2560x64_S1280x64_1_0_0_1_n_n.rhsIdx (ix2 r d) ((contrEquiv1 dot_S1280x2560_S2560x64_S1280x64_1_0_0_1_n_n 2560 rfl rfl).symm k) = ix2 k d := funext fun a => Fin.ext (by
    match a with
    | ⟨0, _⟩ => exact (rhs_gather1_0 _ _).trans hk
    | ⟨1, _⟩ => exact rhs_gather1_1 _ _)
  rw [el, er]
  have hX : broadcastTo S1280x2560 (shapeCast S1280x1 v7 shapeCasts_S1280x1_S1280x1) broadcasts_S1280x1_S1280x2560 (ix2 r k)
      = v7 (ix2 r (0 : Fin 1)) :=
    (broadcastTo_apply _ broadcasts_S1280x1_S1280x2560 (ix2 r k) (ix2 r (0 : Fin 1)) (fun a => by
      match a with
      | ⟨0, _⟩ => rfl
      | ⟨1, _⟩ => rfl)).trans (congrFun (shapeCast_self v7 _) _)
  have hY : broadcastTo S1280x2560 (addi (iota Kind.tc S1x2560 32 [1] iota_S1x2560_d1_w32)
        (broadcast S1x2560 (Scalar.muli (BitVec.ofNat 32 (i 1).val) 2560#32))) broadcasts_S1x2560_S1280x2560 (ix2 r k)
      = BitVec.ofNat 32 (k.val + (i 1).val * 2560) := by
    refine (broadcastTo_apply _ broadcasts_S1x2560_S1280x2560 (ix2 r k) (ix2 (0 : Fin 1) k) (fun a => by
      match a with
      | ⟨0, _⟩ => rfl
      | ⟨1, _⟩ => rfl)).trans ?_
    refine (congrArg (IntOp.addi · (Scalar.muli (BitVec.ofNat 32 (i 1).val) 2560#32))
      (iota_single_apply Kind.tc S1x2560 32 (1 : Fin S1x2560.rank) iota_S1x2560_d1_w32 (ix2 (0 : Fin 1) k))).trans ?_
    exact node_word k.val (i 1).val
  refine congrArg₂ (· * ·) ?_ (congrFun (shapeCast_self v15 shapeCasts_S2560x64_S2560x64) (ix2 k d))
  refine (congrArg₂ (fun x y => (FloatOps.sitofp .f32 ((IntOp.cmpi .eq x y).setWidth 32) : Ideal .f32)) hX hY).trans ?_
  exact onehot_word _ _

end Cert.KernelIdeal.H

end
-- ==== Proof.KI.V1.lean ====
/-
  Region 1's value over the extended reals: what the gather kernel's output array holds when the region ends.

  The grid has 1250 × 40 points; point t works on edge block t / 40 (1280 edges) against node tile t % 40 (2560 nodes). A scratch
  block is carried from point to point. At tile 0 it is reset to zero and the tile's product is added; at every later tile the
  tile's product is added to what it held. Tile j's product at entry (r, d) is the sum over the tile's nodes of the indicator
  "edge r's source word names node q + 2560 j" times that node's feature d. So after tile j the scratch holds the sum of the
  products of tiles 0 … j (by induction on the point), and after tile 39 it holds the sum over all 102400 nodes of indicator ×
  feature, which is the one feature row the source word names, or 0 when the word names no row. At tile 39 the scratch, scaled
  row by row by the edge's gate, is stored into the output block, and that block is written back to rows (t / 40) * 1280 … of the
  output array; the 1250 written-back blocks tile the array, so row e is written by the last point of edge block e / 1280.

  Only these laws of the extended reals are used: sums in a commutative monoid, 0 + x = x, 0 * x = 0, 1 * x = x.
-/
import proofs.«421344_j1254130450614_1_alg».proof.Proof.KI.R1
import proofs.«421344_j1254130450614_1_alg».proof.Proof.KI.V1Pay
import proofs.«421344_j1254130450614_1_alg».proof.Proof.LibTileSums
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibTileSums
open scoped BigOperators

/-! ## What each case of the body leaves, as values of the blocks it read -/

section Pieces
variable {F : FTy → Type} [FloatOps F]

theorem hz1 : (![0, 0] : Fin 2 → Nat) = fun _ => 0 := funext fun a => by fin_cases a <;> rfl

/-- At the first node tile the scratch is reset to the zero block and then updated: it ends at the update of zero. -/
theorem sout1_A_eq (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond1_0 i) (hc1 : ¬cond1_1 i) (x0 : Vec F S1280x1 .i32) (x1 : Vec F S1280x1 .f32) (x2 : Vec F S2560x64 .f32) :
    sout1_A_0 c i arg2 harg2 arg3 harg3 arg4 harg4 arg5 harg5 arg6 harg6 hc0 hc1 x0 x1 x2 = k1_pay2 i x0 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1280x64) hz1, View.readCov_unit_zero (S := S1280x64) _ hz1]
  simp only [View.readAt_eq_ld, harg2.read_unread, harg3.read_unread, harg4.read_unread, harg6.read_unread, View.ld_unit_zero (S := S1280x1) hz1, View.ld_unit_zero (S := S2560x64) hz1, View.ld_unit_zero (S := S1280x64) hz1]

/-- Away from the first and last node tiles the scratch ends at the update of what it held. -/
theorem sout1_B_eq (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : ¬cond1_1 i) (x0 : Vec F S1280x1 .i32) (x1 : Vec F S1280x1 .f32) (x2 : Vec F S2560x64 .f32) (xs0 : Vec F S1280x64 .f32) :
    sout1_B_0 c i arg2 harg2 arg3 harg3 arg4 harg4 arg5 harg5 arg6 harg6 hc0 hc1 x0 x1 x2 xs0 = k1_pay2 i x0 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz1]
  simp only [View.readAt_eq_ld, harg2.read_unread, harg3.read_unread, harg4.read_unread, harg6.read_unread, View.ld_unit_zero (S := S1280x1) hz1, View.ld_unit_zero (S := S2560x64) hz1, View.ld_unit_zero (S := S1280x64) hz1]

/-- At the last node tile the scratch is updated as elsewhere … -/
theorem sout1_C_eq (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i) (x0 : Vec F S1280x1 .i32) (x1 : Vec F S1280x1 .f32) (x2 : Vec F S2560x64 .f32) (xs0 : Vec F S1280x64 .f32) :
    sout1_C_0 c i arg2 harg2 arg3 harg3 arg4 harg4 arg5 harg5 arg6 harg6 hc0 hc1 x0 x1 x2 xs0 = k1_pay2 i x0 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg4.read_unread, harg6.read_unread, View.ld_unit_zero (S := S1280x1) hz1, View.ld_unit_zero (S := S2560x64) hz1, View.ld_unit_zero (S := S1280x64) hz1]

/-- … and the output block is the updated scratch, read back, scaled by the gate column. -/
theorem out1_C_eq (c : Dev nD) (i : grid1.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond1_0 i) (hc1 : cond1_1 i) (x0 : Vec F S1280x1 .i32) (x1 : Vec F S1280x1 .f32) (x2 : Vec F S2560x64 .f32) (xs0 : Vec F S1280x64 .f32) :
    out1_C_3 c i arg2 harg2 arg3 harg3 arg4 harg4 arg5 harg5 arg6 harg6 hc0 hc1 x0 x1 x2 xs0 = k1_pay3 (k1_pay2 i x0 x2 xs0) x1 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz1, View.readCov_unit_zero (S := S1280x64) _ hz1]
  simp only [View.readAt_eq_ld, harg2.read_unread, harg3.read_unread, harg4.read_unread, harg6.read_unread, View.ld_unit_zero (S := S1280x1) hz1, View.ld_unit_zero (S := S2560x64) hz1, View.ld_unit_zero (S := S1280x64) hz1]

end Pieces

variable (V : (c : Dev nD) → (b : Ref sig .tc) → Buf (Elt Ideal) ((c : Thread nD τ).loc b))

/-! ## The three arrays the region reads, at their literal types -/

/-- Each edge's source-node word. -/
abbrev srcArr1 (c : Dev nD) : Vec Ideal S1600000x1 .i32 := V c main_v20
/-- Each edge's gate. -/
abbrev gateArr1 (c : Dev nD) : Vec Ideal S1600000x1 .f32 := V c main_v22
/-- The node features (102400 rows, the last 2400 padding). -/
abbrev featArr1 (c : Dev nD) : Vec Ideal S102400x64 .f32 := V c main_v26

/-- The source word of row `r` of edge block `b` (0 past the last edge block, which no point reaches). -/
def srcRow1 (c : Dev nD) (b : ℕ) (r : Fin 1280) : BitVec 32 :=
  if h : b * 1280 + r.val < 1600000 then srcArr1 V c (ix2 ⟨b * 1280 + r.val, h⟩ (0 : Fin 1)) else 0

/-! ## The one-hot sums over the node tiles -/

/-- Row `n` of the node features at column `d`, and 0 past the last row. -/
def featRow1 (H : Vec Ideal S102400x64 .f32) (n : ℕ) (d : Fin 64) : EReal :=
  if h : n < 102400 then H (ix2 ⟨n, h⟩ d) else 0

/-- Node tile `j`'s contribution at column `d` for an edge whose source word is `w`: the sum over the tile's 2560 nodes of
    the indicator "w names node q + 2560 j" times that node's feature. -/
def tileSum1 (H : Vec Ideal S102400x64 .f32) (w : BitVec 32) (d : Fin 64) (j : ℕ) : EReal :=
  ∑ q : Fin 2560, (if w = BitVec.ofNat 32 (q.val + j * 2560) then (1 : EReal) else 0) * featRow1 H (j * 2560 + q.val) d

/-- After all 40 tiles the running sum is the feature row the word names, or 0 if it names no row. -/
theorem accum_tileSum1_last (H : Vec Ideal S102400x64 .f32) (w : BitVec 32) (d : Fin 64) :
    accum (tileSum1 H w d) 39 = if hw : w.toNat < 102400 then H (ix2 ⟨w.toNat, hw⟩ d) else 0 := by
  rw [accum_eq_sum]
  have h1 := sum_tiles (A := 40) (B := 2560) (n := 102400) rfl
    (fun k => (if w = BitVec.ofNat 32 k.val then (1 : EReal) else 0) * featRow1 H k.val d)
  have h2 := onehot_sum (n := 102400) (by norm_num) w (fun k => featRow1 H k.val d)
  refine (Finset.sum_congr rfl fun k _ => ?_).trans (h1.trans (h2.trans ?_))
  · unfold tileSum1
    refine Finset.sum_congr rfl fun q _ => ?_
    show _ = (if w = BitVec.ofNat 32 (k.val * 2560 + q.val) then (1 : EReal) else 0) * featRow1 H (k.val * 2560 + q.val) d
    rw [Nat.add_comm q.val]
  · by_cases hw : w.toNat < 102400
    · rw [dif_pos hw, dif_pos hw]
      show featRow1 H w.toNat d = _
      unfold featRow1
      rw [dif_pos hw]
    · rw [dif_neg hw, dif_neg hw]

/-! ## The windows' blocks, entry by entry

Point `t` of the 1250 × 40 grid works on edge block `t / 40` and node tile `t % 40`: the edge windows' blocks start at row
`(t / 40) * 1280` of their arrays, the feature window's at row `(t % 40) * 2560`. -/

theorem tr1_0_0 (t : Fin cfg1.N) : cc1_transform_0 (grid1.coords t) 0 = t.val / 40 := by
  show (BitVec.ofNat 32 (grid1.coords t 0).val).toNat = _
  rw [BitVec.toNat_ofNat, coords1_0]
  have := N1_lt t
  omega
theorem tr1_1_0 (t : Fin cfg1.N) : cc1_transform_1 (grid1.coords t) 0 = t.val / 40 := tr1_0_0 t
theorem tr1_3_0 (t : Fin cfg1.N) : cc1_transform_3 (grid1.coords t) 0 = t.val / 40 := tr1_0_0 t
theorem tr1_2_0 (t : Fin cfg1.N) : cc1_transform_2 (grid1.coords t) 0 = t.val % 40 := by
  show (BitVec.ofNat 32 (grid1.coords t 1).val).toNat = _
  rw [BitVec.toNat_ofNat, coords1_1]
  omega

/-- The source-word block at point `t`, row `r`: the source word of edge `(t / 40) * 1280 + r`. -/
theorem iblk1_0_apply (c : Dev nD) (t : Fin cfg1.N) (r : Fin 1280) (hr : t.val / 40 * 1280 + r.val < 1600000) :
    (iblk1 V c 0 t : Vec Ideal S1280x1 .i32) (ix2 r (0 : Fin 1))
      = V c main_v20 (ix2 ⟨t.val / 40 * 1280 + r.val, hr⟩ (0 : Fin 1)) := by
  unfold iblk1
  rw [View.read_apply]
  show V c main_v20 _ = V c main_v20 _
  congr 1
  funext a
  apply Fin.ext
  match a with
  | ⟨0, _⟩ =>
    show win1_0.index t 0 * 1280 + 1 * r.val = t.val / 40 * 1280 + r.val
    rw [show win1_0.index t 0 = t.val / 40 from tr1_0_0 t]; omega
  | ⟨1, _⟩ => rfl

/-- The gate block at point `t`, row `r`: the gate of edge `(t / 40) * 1280 + r`. -/
theorem iblk1_1_apply (c : Dev nD) (t : Fin cfg1.N) (r : Fin 1280) (hr : t.val / 40 * 1280 + r.val < 1600000) :
    (iblk1 V c 1 t : Vec Ideal S1280x1 .f32) (ix2 r (0 : Fin 1))
      = V c main_v22 (ix2 ⟨t.val / 40 * 1280 + r.val, hr⟩ (0 : Fin 1)) := by
  unfold iblk1
  rw [View.read_apply]
  show V c main_v22 _ = V c main_v22 _
  congr 1
  funext a
  apply Fin.ext
  match a with
  | ⟨0, _⟩ =>
    show win1_1.index t 0 * 1280 + 1 * r.val = t.val / 40 * 1280 + r.val
    rw [show win1_1.index t 0 = t.val / 40 from tr1_1_0 t]; omega
  | ⟨1, _⟩ => rfl

/-- The feature block at point `t`, entry `(q, d)`: node `(t % 40) * 2560 + q`'s feature `d`. -/
theorem iblk1_2_apply (c : Dev nD) (t : Fin cfg1.N) (q : Fin 2560) (d : Fin 64) (hq : t.val % 40 * 2560 + q.val < 102400) :
    (iblk1 V c 2 t : Vec Ideal S2560x64 .f32) (ix2 q d)
      = V c main_v26 (ix2 ⟨t.val % 40 * 2560 + q.val, hq⟩ d) := by
  unfold iblk1
  rw [View.read_apply]
  show V c main_v26 _ = V c main_v26 _
  congr 1
  funext a
  apply Fin.ext
  match a with
  | ⟨0, _⟩ =>
    show win1_2.index t 0 * 2560 + 1 * q.val = t.val % 40 * 2560 + q.val
    rw [show win1_2.index t 0 = t.val % 40 from tr1_2_0 t]; omega
  | ⟨1, _⟩ =>
    show win1_2.index t 1 * 64 + 1 * d.val = d.val
    rw [show win1_2.index t 1 = 0 from rfl]; omega

/-! ## The output's blocks: where they are written back, and which rows they hold -/

/-- The output's block is written back at the points ≡ 39 (mod 40): the next point, if any, starts the next edge block. -/
theorem flush1_3_of (t : Fin cfg1.N) (h : t.val % 40 = 39) : (cfg1.win 3).flush t = true := by
  have hN := N1_lt t
  unfold Pipeline.Window.flush
  rw [Bool.and_eq_true]
  refine ⟨rfl, ?_⟩
  rw [Bool.or_eq_true]
  by_cases hl : t.val + 1 = 50000
  · left; exact decide_eq_true (hl.trans N_1.symm)
  · right
    have hlt : t.val + 1 < cfg1.N := lt_of_lt_of_eq (by omega : t.val + 1 < 50000) N_1.symm
    refine decide_eq_true ⟨hlt, fun he => ?_⟩
    have h0 := congrFun he 0
    rw [index1_3, index1_3, tr1_3_0, tr1_3_0] at h0
    have h0' : (t.val + 1) / 40 = t.val / 40 := h0
    omega

/-- An index of the output array is in point `t`'s block iff each coordinate is in the block's range on its axis. -/
theorem mem_blk1_3 (t : Fin cfg1.N) (i : S1600000x64.Idx) :
    i ∈ ((cfg1.win 3).blk t).view.set ↔ ∀ a : Fin 2, win1_3.index t a * S1280x64.size a ≤ (i a).val ∧ (i a).val < win1_3.index t a * S1280x64.size a + S1280x64.size a := by
  show i ∈ ((View.whole main_v27).slice (win1_3.rect t)).set ↔ _
  rw [View.set_slice_whole, Rect.mem_set_unit]
  exact Iff.rfl

/-- The last point of edge block `e / 1280`. -/
def lastPt1 (e : Fin 1600000) : Fin cfg1.N := ⟨e.val / 1280 * 40 + 39, lt_of_lt_of_eq (by have := e.isLt; omega) N_1.symm⟩

theorem lastPt1_div (e : Fin 1600000) : (lastPt1 e).val / 40 = e.val / 1280 := by show (e.val / 1280 * 40 + 39) / 40 = _; omega
theorem lastPt1_mod (e : Fin 1600000) : (lastPt1 e).val % 40 = 39 := by show (e.val / 1280 * 40 + 39) % 40 = _; omega

/-- Every entry of the output array is in the block some written-back point holds: row `e`'s is the last point of its edge block. -/
theorem cover1_3 (i : S1600000x64.Idx) : ∃ t : Fin cfg1.N, (cfg1.win 3).flush t = true ∧ i ∈ ((cfg1.win 3).blk t).view.set := by
  have h0 : (i 0).val < 1600000 := (i 0).isLt
  have h1 : (i 1).val < 64 := (i 1).isLt
  refine ⟨lastPt1 ⟨(i 0).val, h0⟩, flush1_3_of _ (lastPt1_mod _), ?_⟩
  rw [mem_blk1_3]
  intro a
  match a with
  | ⟨0, _⟩ =>
    show win1_3.index (lastPt1 ⟨(i 0).val, h0⟩) 0 * 1280 ≤ (i 0).val ∧ (i 0).val < win1_3.index (lastPt1 ⟨(i 0).val, h0⟩) 0 * 1280 + 1280
    rw [show win1_3.index (lastPt1 ⟨(i 0).val, h0⟩) 0 = (lastPt1 ⟨(i 0).val, h0⟩).val / 40 from tr1_3_0 _, lastPt1_div]
    show (i 0).val / 1280 * 1280 ≤ (i 0).val ∧ (i 0).val < (i 0).val / 1280 * 1280 + 1280
    omega
  | ⟨1, _⟩ =>
    show win1_3.index (lastPt1 ⟨(i 0).val, h0⟩) 1 * 64 ≤ (i 1).val ∧ (i 1).val < win1_3.index (lastPt1 ⟨(i 0).val, h0⟩) 1 * 64 + 64
    rw [show win1_3.index (lastPt1 ⟨(i 0).val, h0⟩) 1 = 0 from rfl]
    omega

/-! ## One point's update, in terms of the arrays -/

/-- Edge `(t / 40) * 1280 + r` is an edge: the grid has 1250 edge blocks of 1280 rows. -/
theorem edge1_lt (t : Fin cfg1.N) (r : Fin 1280) : t.val / 40 * 1280 + r.val < 1600000 := by
  have := N1_lt t; have := r.isLt; omega

theorem srcRow1_eq (c : Dev nD) (t : Fin cfg1.N) (r : Fin 1280) :
    srcRow1 V c (t.val / 40) r = srcArr1 V c (ix2 ⟨t.val / 40 * 1280 + r.val, edge1_lt t r⟩ (0 : Fin 1)) := dif_pos (edge1_lt t r)

/-- The update at point `t`, entry `(r, d)`: the running value plus node tile `t % 40`'s contribution for the edge's source word. -/
theorem k1_pay2_at (c : Dev nD) (t : Fin cfg1.N) (xs : Vec Ideal S1280x64 .f32) (r : Fin 1280) (d : Fin 64) :
    k1_pay2 (F := Ideal) (grid1.coords t) (iblk1 V c 0 t) (iblk1 V c 2 t) xs (ix2 r d)
      = xs (ix2 r d) + tileSum1 (featArr1 V c) (srcRow1 V c (t.val / 40) r) d (t.val % 40) := by
  refine (k1_pay2_apply (grid1.coords t) (iblk1 V c 0 t) (iblk1 V c 2 t) xs r d).trans ?_
  refine congrArg (xs (ix2 r d) + ·) ?_
  rw [srcRow1_eq]
  unfold tileSum1
  refine Finset.sum_congr rfl fun q _ => ?_
  have hq : t.val % 40 * 2560 + q.val < 102400 := by have := q.isLt; omega
  rw [iblk1_0_apply V c t r (edge1_lt t r), iblk1_2_apply V c t q d hq, coords1_1]
  unfold featRow1
  rw [dif_pos hq]

/-! ## The scratch after each point: the running sum of the tile contributions -/

theorem step1_A (c : Dev nD) (t : Fin cfg1.N) (h0 : t.val % 40 = 0) (h1 : ¬t.val % 40 = 39) (r : Fin 1280) (d : Fin 64) :
    (outsAt1 V c t.val t.isLt).2 (ix2 r d) = 0 + tileSum1 (featArr1 V c) (srcRow1 V c (t.val / 40) r) d (t.val % 40) := by
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 r d)).trans ?_
  refine (k1_pay2_at V c t (k1_pay1 (F := Ideal)) r d).trans ?_
  rw [k1_pay1_apply]

theorem step1_B (c : Dev nD) (t : Fin cfg1.N) (h0 : ¬t.val % 40 = 0) (h1 : ¬t.val % 40 = 39) (r : Fin 1280) (d : Fin 64) :
    (outsAt1 V c t.val t.isLt).2 (ix2 r d)
      = (outsAt1 V c (t.val - 1) (Nat.lt_of_le_of_lt (Nat.sub_le _ _) t.isLt)).2 (ix2 r d) + tileSum1 (featArr1 V c) (srcRow1 V c (t.val / 40) r) d (t.val % 40) := by
  rw [outsAt1_B V c t h0 h1]
  dsimp only
  refine (congrFun (sout1_B_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) (ix2 r d)).trans ?_
  exact k1_pay2_at V c t (outsAt1 V c (t.val - 1) (Nat.lt_of_le_of_lt (Nat.sub_le _ _) t.isLt)).2 r d

theorem step1_C (c : Dev nD) (t : Fin cfg1.N) (h0 : ¬t.val % 40 = 0) (h1 : t.val % 40 = 39) (r : Fin 1280) (d : Fin 64) :
    (outsAt1 V c t.val t.isLt).2 (ix2 r d)
      = (outsAt1 V c (t.val - 1) (Nat.lt_of_le_of_lt (Nat.sub_le _ _) t.isLt)).2 (ix2 r d) + tileSum1 (featArr1 V c) (srcRow1 V c (t.val / 40) r) d (t.val % 40) := by
  rw [outsAt1_C V c t h0 h1]
  dsimp only
  refine (congrFun (sout1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 r d)).trans ?_
  exact k1_pay2_at V c t (outsAt1 V c (t.val - 1) (Nat.lt_of_le_of_lt (Nat.sub_le _ _) t.isLt)).2 r d

/-- After point `n` the scratch entry `(r, d)` holds the running sum, over the node tiles `0 … n % 40`, of the tiles'
    contributions for the source word of row `r` of edge block `n / 40`. -/
theorem scratch1_eq (c : Dev nD) : ∀ (n : ℕ) (hn : n < cfg1.N) (r : Fin 1280) (d : Fin 64),
    (outsAt1 V c n hn).2 (ix2 r d) = accum (tileSum1 (featArr1 V c) (srcRow1 V c (n / 40) r) d) (n % 40)
  | 0, hn, r, d => step1_A V c ⟨0, hn⟩ rfl (by show ¬((0 : ℕ) % 40 = 39); omega) r d
  | n + 1, hn, r, d => by
    by_cases h0 : (n + 1) % 40 = 0
    · have h1 : ¬(n + 1) % 40 = 39 := by omega
      refine (step1_A V c ⟨n + 1, hn⟩ h0 h1 r d).trans ?_
      show 0 + tileSum1 (featArr1 V c) (srcRow1 V c ((n + 1) / 40) r) d ((n + 1) % 40) = _
      rw [h0]; rfl
    · have ih := scratch1_eq c n (Nat.lt_of_succ_lt hn) r d
      have hdiv : n / 40 = (n + 1) / 40 := by omega
      have hmod : (n + 1) % 40 = n % 40 + 1 := by omega
      have hstep : (outsAt1 V c (n + 1) hn).2 (ix2 r d)
          = (outsAt1 V c n (Nat.lt_of_succ_lt hn)).2 (ix2 r d) + tileSum1 (featArr1 V c) (srcRow1 V c ((n + 1) / 40) r) d ((n + 1) % 40) := by
        by_cases h1 : (n + 1) % 40 = 39
        · exact step1_C V c ⟨n + 1, hn⟩ h0 h1 r d
        · exact step1_B V c ⟨n + 1, hn⟩ h0 h1 r d
      rw [hstep, ih, hdiv, hmod]
      rfl

/-! ## The output block at a written-back point, and the array at the end -/

/-- Row `e`, column `d` of what the output array ends holding: the feature row the edge's source word names (0 if it names
    none) times the edge's gate. -/
def G1row (c : Dev nD) (e : Fin 1600000) (d : Fin 64) : EReal :=
  (if hw : (srcArr1 V c (ix2 e (0 : Fin 1))).toNat < 102400 then featArr1 V c (ix2 ⟨(srcArr1 V c (ix2 e (0 : Fin 1))).toNat, hw⟩ d) else 0)
    * gateArr1 V c (ix2 e (0 : Fin 1))

/-- The whole output array at the end of the region. -/
def G1 (c : Dev nD) : Vec Ideal S1600000x64 .bf16 := fun i => G1row V c (i 0) (i 1)

/-- At the last node tile the output block is the scratch, entry by entry, times the edge's gate. -/
theorem out1_C_val (c : Dev nD) (t : Fin cfg1.N) (h0 : ¬t.val % 40 = 0) (h1 : t.val % 40 = 39) (r : Fin 1280) (d : Fin 64) :
    (outsAt1 V c t.val t.isLt).1 (ix2 r d)
      = (outsAt1 V c t.val t.isLt).2 (ix2 r d) * gateArr1 V c (ix2 ⟨t.val / 40 * 1280 + r.val, edge1_lt t r⟩ (0 : Fin 1)) := by
  rw [outsAt1_C V c t h0 h1]
  dsimp only
  refine (congrFun (out1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 r d)).trans ?_
  refine (k1_pay3_apply _ (iblk1 V c 1 t) r d).trans ?_
  rw [iblk1_1_apply V c t r (edge1_lt t r)]
  refine congrArg (· * gateArr1 V c (ix2 ⟨t.val / 40 * 1280 + r.val, edge1_lt t r⟩ (0 : Fin 1))) ?_
  exact (congrFun (sout1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 r d)).symm

/-- So at a written-back point the output block's entry `(r, d)` is row `(t / 40) * 1280 + r`, column `d` of `G1`. -/
theorem out1_at_flush (c : Dev nD) (t : Fin cfg1.N) (h1 : t.val % 40 = 39) (r : Fin 1280) (d : Fin 64) :
    (outsAt1 V c t.val t.isLt).1 (ix2 r d) = G1row V c ⟨t.val / 40 * 1280 + r.val, edge1_lt t r⟩ d := by
  have h0 : ¬t.val % 40 = 0 := by omega
  rw [out1_C_val V c t h0 h1 r d, scratch1_eq V c t.val t.isLt r d, h1, accum_tileSum1_last, srcRow1_eq]
  rfl

/-- What a written-back point writes back is its block of `G1`. -/
theorem flushed1_eq (c : Dev nD) (t : Fin cfg1.N) (hf : (cfg1.win 3).flush t = true) :
    (dat1 (F := Ideal) V c).flushed 3 t = ((cfg1.win 3).blk t).view.read (Elt Ideal) (G1 V c) := by
  have h1 : t.val % 40 = 39 := by
    by_contra h
    rw [noFlush1_3 t h] at hf
    exact Bool.false_ne_true hf
  show (cfg1.win 3).cut (grid1.coords t) ((dat1 (F := Ideal) V c).after 3 t) = _
  rw [after1_3]
  funext j
  obtain ⟨r, d, rfl⟩ : ∃ (r : Fin 1280) (d : Fin 64), j = ix2 r d := ⟨j 0, j 1, eq_ix2 j⟩
  have e0 : (((cfg1.win 3).blk t).view.emb (ix2 r d) : S1600000x64.Idx) = ix2 ⟨t.val / 40 * 1280 + r.val, edge1_lt t r⟩ d := by
    funext a
    apply Fin.ext
    match a with
    | ⟨0, _⟩ =>
      show win1_3.index t 0 * 1280 + 1 * r.val = t.val / 40 * 1280 + r.val
      rw [show win1_3.index t 0 = t.val / 40 from tr1_3_0 t]; omega
    | ⟨1, _⟩ =>
      show win1_3.index t 1 * 64 + 1 * d.val = d.val
      rw [show win1_3.index t 1 = 0 from rfl]; omega
  show (outsAt1 V c t.val t.isLt).1 (ix2 r d) = G1 V c (((cfg1.win 3).blk t).view.emb (ix2 r d))
  rw [e0, out1_at_flush V c t h1 r d]
  rfl

/-- The output array after the region: every row written by the last point of its edge block. -/
theorem arrAt1_out_eq (c : Dev nD) : (dat1 (F := Ideal) V c).arrAt 3 cfg1.N = G1 V c :=
  (dat1 (F := Ideal) V c).arrAt_eq_of_cover 3 (G1 V c) (flushed1_eq V c) cover1_3

/-- Row `e` of the output array, when the edge's source word names a feature row: that row times the edge's gate. -/
theorem arrAt1_out (c : Dev nD) (e : Fin 1600000) (d : Fin 64) (hrow : (srcArr1 V c (ix2 e (0 : Fin 1))).toNat < 102400) :
    (dat1 (F := Ideal) V c).arrAt 3 cfg1.N (ix2 e d)
      = featArr1 V c (ix2 ⟨(srcArr1 V c (ix2 e (0 : Fin 1))).toNat, hrow⟩ d) * gateArr1 V c (ix2 e (0 : Fin 1)) := by
  refine (congrFun (arrAt1_out_eq V c) (ix2 e d)).trans ?_
  show G1row V c e d = _
  unfold G1row
  rw [dif_pos hrow]

/-! ## The input windows' arrays are left as the region found them -/

theorem arrAt1_in_0 (c : Dev nD) (n : ℕ) : (dat1 (F := Ideal) V c).arrAt 0 n = V c main_v20 :=
  ((dat1 (F := Ideal) V c).arrAt_in 0 rfl n).trans (A_eq1 V c 0)
theorem arrAt1_in_1 (c : Dev nD) (n : ℕ) : (dat1 (F := Ideal) V c).arrAt 1 n = V c main_v22 :=
  ((dat1 (F := Ideal) V c).arrAt_in 1 rfl n).trans (A_eq1 V c 1)
theorem arrAt1_in_2 (c : Dev nD) (n : ℕ) : (dat1 (F := Ideal) V c).arrAt 2 n = V c main_v26 :=
  ((dat1 (F := Ideal) V c).arrAt_in 2 rfl n).trans (A_eq1 V c 2)

end Cert.KernelIdeal.H

end
-- ==== Proof.KI.V2Pieces.lean ====
/- Region 2 (scatter by a one-hot matrix product into an accumulator carried across the grid's second axis, then a
   row normalisation): WHAT EACH CASE OF THE BODY LEAVES, as the skeleton's payloads of the blocks it read.
   Case A (second coordinate 0): the accumulator is filled with zeros, read back, and updated: it ends at the update of
   the zero block. Cases B and C: it ends at the update of what the point before left. Case C (second coordinate
   1249) also stores the output block: the normalisation of the accumulator just updated, by the scale and shift rows.
   Each store writes its whole buffer at zero offsets, so what the writes leave reads back as the last store's
   payload, and every load through the whole-buffer rectangle reads the buffer's contents. -/
import proofs.«421344_j1254130450614_1_alg».proof.Proof.KI.R2
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every load and store of the body, however spelt. -/
theorem hz2 : (![0, 0] : Fin 2 → Nat) = fun _ => 0 := funext fun a => by fin_cases a <;> rfl

/-- CASE A: the accumulator ends at the update, by the index block `x0` and the message block `x1`, of the zero block:
    the zero fill is read back by the update's load, and the update's store covers the buffer. -/
theorem sout2_A_0_eq (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : cond2_0 i) (hc1 : ¬cond2_1 i)
    (x0 : Vec F S1x1280 .i32) (x1 : Vec F S1280x64 .bf16) (x2 : Vec F S1x64 .f32) (x3 : Vec F S1x64 .f32) :
    sout2_A_0 c i arg2 harg2 arg3 harg3 arg4 harg4 arg5 harg5 arg6 harg6 arg7 harg7 hc0 hc1 x0 x1 x2 x3 = k2_pay2 i x0 (k2_pay1 (F := F)) x1 := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S2560x64) hz2, View.readCov_unit_zero (S := S2560x64) _ hz2]
  simp only [View.readAt_eq_ld, harg2.read_unread, harg3.read_unread, View.ld_unit_zero (S := S1x1280) hz2, View.ld_unit_zero (S := S1280x64) hz2]

/-- CASE B: the accumulator ends at the update of `xs0`, what the point before left in it. -/
theorem sout2_B_0_eq (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : ¬cond2_1 i)
    (x0 : Vec F S1x1280 .i32) (x1 : Vec F S1280x64 .bf16) (x2 : Vec F S1x64 .f32) (x3 : Vec F S1x64 .f32) (xs0 : Vec F S2560x64 .f32) :
    sout2_B_0 c i arg2 harg2 arg3 harg3 arg4 harg4 arg5 harg5 arg6 harg6 arg7 harg7 hc0 hc1 x0 x1 x2 x3 xs0 = k2_pay2 i x0 xs0 x1 := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero hz2]
  simp only [View.readAt_eq_ld, harg2.read_unread, harg3.read_unread, harg7.read_unread, View.ld_unit_zero (S := S1x1280) hz2,
    View.ld_unit_zero (S := S1280x64) hz2, View.ld_unit_zero (S := S2560x64) hz2]

/-- CASE C: the accumulator ends at the update of `xs0`, as in case B. -/
theorem sout2_C_0_eq (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) :
    sout2_C_0 c i arg2 harg2 arg3 harg3 arg4 harg4 arg5 harg5 arg6 harg6 arg7 harg7 hc0 hc1 x0 x1 x2 x3 xs0 = k2_pay2 i x0 xs0 x1 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg7.read_unread, View.ld_unit_zero (S := S1x1280) hz2,
    View.ld_unit_zero (S := S1280x64) hz2, View.ld_unit_zero (S := S2560x64) hz2]

/-- CASE C: the output block ends at the normalisation of the accumulator just updated (the store's load reads the
    update back), scaled by the row `x2` and shifted by the row `x3`. -/
theorem out2_C_4_eq (c : Dev nD) (i : grid2.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (hc0 : ¬cond2_0 i) (hc1 : cond2_1 i)
    (x0 : Vec F S1x1280 .i32) (x1 : Vec F S1280x64 .bf16) (x2 : Vec F S1x64 .f32) (x3 : Vec F S1x64 .f32) (xs0 : Vec F S2560x64 .f32) :
    out2_C_4 c i arg2 harg2 arg3 harg3 arg4 harg4 arg5 harg5 arg6 harg6 arg7 harg7 hc0 hc1 x0 x1 x2 x3 xs0 = k2_pay3 (k2_pay2 i x0 xs0 x1) x2 x3 := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readCov_unit_zero (S := S2560x64) _ hz2, View.readAt_eq_ld, harg2.read_unread, harg3.read_unread, harg4.read_unread,
    harg5.read_unread, harg7.read_unread, View.ld_unit_zero (S := S1x1280) hz2, View.ld_unit_zero (S := S1280x64) hz2,
    View.ld_unit_zero (S := S2560x64) hz2, View.ld_unit_zero (S := S1x64) hz2]

end Cert.KernelIdeal.H

end
-- ==== Proof.KI.V2Pay.lean ====
import proofs.«421344_j1254130450614_1_alg».proof.Proof.Gen.KernelIdeal.Skeleton
import proofs.«421344_j1254130450614_1_alg».proof.Proof.Spec
import Idealize.ShloMosaic.Lib.ValueLayout
import Idealize.ShloMosaic.PureOps.Ideal.Laws

/-!
The three values region 2's body stores, read at one entry `(r, d)` at the ideal values.

The region sums edge messages into node rows and then normalises each row.  A grid point holds a block of 2560
node rows and a tile of 1280 edges.  The body resets a 2560 × 64 accumulator to zero at the first tile of a block,
adds to it the product of a one-hot matrix with the tile's messages (entry `(r, q)` of the one-hot matrix is one
exactly when edge `q` of the tile targets row `r` of the block, compared as 32-bit words), and at the last tile
writes out the accumulator's rows normalised to zero mean and unit variance, scaled, shifted and clamped at zero.
-/

noncomputable section

namespace Cert.KernelIdeal.H

open Cert.KernelIdeal Cert.KernelIdeal.Gen
open Idealize.ShloMosaic Idealize.ShloMosaic.ValueIdx
open scoped BigOperators

/-! ## Two column layouts read at an index -/

section Columns
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The reset payload -/

/-- The reset stores the zero block. -/
theorem k2_pay1_apply (r : Fin 2560) (d : Fin 64) : (k2_pay1 (F := Ideal)) (ix2 r d) = 0 := by
  unfold k2_pay1
  rw [shapeCast_self]
  show Ideal.ofBits .f32 0x00000000#32 = 0
  exact Ideal.ofBits_zero_f32

/-! ## The row-normalisation payload -/

/-- A lane sum with the zero accumulator: at row `r`, the sum of the row's 64 entries. -/
theorem lane_sum (v : FVec Ideal S2560x64 .f32) (r : Fin 2560) :
    multiReduction .add [1] S2560 v 0x00000000#32 reduces_S2560x64_S2560 (.inl rfl) rfl (ix1 r)
      = ∑ d : Fin 64, v (ix2 r d) := by
  refine (Ideal.multiReduction_add_single v 0x00000000#32 reduces_S2560x64_S2560 (.inl rfl) rfl (ix1 r)).trans ?_
  refine Finset.sum_congr rfl fun d _ => congrArg v ?_
  funext a
  match a with
  | ⟨0, _⟩ => rfl
  | ⟨1, _⟩ => rfl

/-- The column of row means of a block: each row's lane sum divided by the row length's literal. -/
def meanCol (v : FVec Ideal S2560x64 .f32) : FVec Ideal S2560x1 .f32 :=
  divf (shapeCast S2560x1 (multiReduction .add [1] S2560 v 0x00000000#32 reduces_S2560x64_S2560 (.inl rfl) rfl)
      shapeCasts_S2560_S2560x1)
    (broadcast S2560x1 (Scalar.ofBits .f32 0x42800000#32))

/-- The mean column at row `r` is the row's mean. -/
theorem meanCol_apply (v : FVec Ideal S2560x64 .f32) (r : Fin 2560) (u : Fin 1) :
    meanCol v (ix2 r u)
      = Cert.Spec.mean (Ideal.ofBits .f32 0x42800000#32) (fun r d => v (ix2 r d)) r := by
  show Ideal.div (shapeCast S2560x1 _ shapeCasts_S2560_S2560x1 (ix2 r u)) (Ideal.ofBits .f32 0x42800000#32) = _
  rw [shapeCast_a_a1_apply, lane_sum]
  rfl

/-- The payload as one expression in the mean column. -/
theorem k2_pay3_eq (v26 : Vec Ideal S2560x64 .f32) (v45 : Vec Ideal S1x64 .f32) (v49 : Vec Ideal S1x64 .f32) :
    k2_pay3 v26 v45 v49
      = maximumf
          (addf
            (mulf
              (mulf (subf v26 (broadcastTo S2560x64 (meanCol v26) broadcasts_S2560x1_S2560x64))
                (broadcastTo S2560x64
                  (rsqrt (addf
                    (meanCol (mulf (subf v26 (broadcastTo S2560x64 (meanCol v26) broadcasts_S2560x1_S2560x64))
                                   (subf v26 (broadcastTo S2560x64 (meanCol v26) broadcasts_S2560x1_S2560x64))))
                    (broadcast S2560x1 (Scalar.ofBits .f32 0x3727C5AC#32))))
                  broadcasts_S2560x1_S2560x64))
              (broadcastTo S2560x64 (shapeCast S1x64 v45 shapeCasts_S1x64_S1x64) broadcasts_S1x64_S2560x64))
            (broadcastTo S2560x64 (shapeCast S1x64 v49 shapeCasts_S1x64_S1x64) broadcasts_S1x64_S2560x64))
          (broadcast S2560x64 (Scalar.ofBits .f32 0x00000000#32)) := rfl

/-- A reciprocal square root at an index, at the ideal values. -/
theorem rsqrt_apply {s : Shape} {φ : FTy} (a : FVec Ideal s φ) (i : s.Idx) : rsqrt a i = Ideal.rsqrt (a i) := rfl

/-- A scalar constant at the ideal values is the extended real its word encodes. -/
theorem scalar_ofBits (φ : FTy) (b : BitVec φ.bits) : (Scalar.ofBits φ b : Ideal φ) = Ideal.ofBits φ b := rfl

/-- The flush payload at `(r, d)`: the row normalisation of the accumulated block, clamped at zero. -/
theorem k2_pay3_apply (v26 : Vec Ideal S2560x64 .f32) (v45 : Vec Ideal S1x64 .f32) (v49 : Vec Ideal S1x64 .f32)
    (r : Fin 2560) (d : Fin 64) :
    k2_pay3 v26 v45 v49 (ix2 r d)
      = Cert.Spec.relu (Cert.Spec.normMul (Ideal.ofBits .f32 0x42800000#32) (Ideal.ofBits .f32 0x3727C5AC#32)
          (fun r d => v26 (ix2 r d)) (fun d => v45 (ix2 0 d)) (fun d => v49 (ix2 0 d)) r d) := by
  rw [k2_pay3_eq]
  simp only [maximumf_apply, addf_apply, mulf_apply, subf_apply, rsqrt_apply, broadcast_apply,
    broadcastTo_a1_ab_apply, broadcastTo_1b_ab_apply, shapeCast_self, meanCol_apply, scalar_ofBits,
    Ideal.ofBits_zero_f32]
  rfl

/-! ## The update payload: a one-hot product added to the accumulator -/

/-- The left operand's row coordinate is the output's row … -/
theorem lhs_d2_0 (j : S2560x64.Idx) (k : dot_S2560x1280_S1280x64_S2560x64_1_0_0_1_n_n.contr.Idx) :
    (dot_S2560x1280_S1280x64_S2560x64_1_0_0_1_n_n.lhsIdx j k 0).val = (j 0).val := rfl
/-- … its column coordinate the contraction position … -/
theorem lhs_d2_1 (j : S2560x64.Idx) (k : dot_S2560x1280_S1280x64_S2560x64_1_0_0_1_n_n.contr.Idx) :
    (dot_S2560x1280_S1280x64_S2560x64_1_0_0_1_n_n.lhsIdx j k 1).val = (k ⟨0, by decide⟩).val :=
  dot_S2560x1280_S1280x64_S2560x64_1_0_0_1_n_n.lhsIdx_val_of_single rfl j k
/-- … the right operand's row coordinate the contraction position … -/
theorem rhs_d2_0 (j : S2560x64.Idx) (k : dot_S2560x1280_S1280x64_S2560x64_1_0_0_1_n_n.contr.Idx) :
    (dot_S2560x1280_S1280x64_S2560x64_1_0_0_1_n_n.rhsIdx j k 0).val = (k ⟨0, by decide⟩).val :=
  dot_S2560x1280_S1280x64_S2560x64_1_0_0_1_n_n.rhsIdx_val_of_single rfl j k
/-- … and its column coordinate the output's column. -/
theorem rhs_d2_1 (j : S2560x64.Idx) (k : dot_S2560x1280_S1280x64_S2560x64_1_0_0_1_n_n.contr.Idx) :
    (dot_S2560x1280_S1280x64_S2560x64_1_0_0_1_n_n.rhsIdx j k 1).val = (j 1).val := rfl

/-- The product into the zero accumulator at `(r, d)`: row `r` of the left operand against column `d` of the right. -/
theorem matmul2_apply (a : FVec Ideal S2560x1280 .bf16) (b : FVec Ideal S1280x64 .bf16) (r : Fin 2560) (d : Fin 64) :
    matmul dot_S2560x1280_S1280x64_S2560x64_1_0_0_1_n_n none a b (constant S2560x64 .f32 0x00000000#32) (ix2 r d)
      = ∑ q : Fin 1280, a (ix2 r q) * b (ix2 q d) := by
  refine (Ideal.matmul_constant_zero_apply dot_S2560x1280_S1280x64_S2560x64_1_0_0_1_n_n none a b (ix2 r d)).trans ?_
  refine (Equiv.sum_comp (contrEquiv1 dot_S2560x1280_S1280x64_S2560x64_1_0_0_1_n_n 1280 rfl rfl).symm _).symm.trans ?_
  refine Finset.sum_congr rfl fun q _ => ?_
  have hk := contrEquiv1_symm_val dot_S2560x1280_S1280x64_S2560x64_1_0_0_1_n_n 1280 rfl rfl q
  congr 1
  · refine congrArg a (funext fun ax => Fin.ext ?_)
    match ax with
    | ⟨0, _⟩ => exact lhs_d2_0 _ _
    | ⟨1, _⟩ => exact (lhs_d2_1 _ _).trans hk
  · refine congrArg b (funext fun ax => Fin.ext ?_)
    match ax with
    | ⟨0, _⟩ => exact (rhs_d2_0 _ _).trans hk
    | ⟨1, _⟩ => exact rhs_d2_1 _ _

/-- Two compared words, widened and converted: one where they agree, zero elsewhere. -/
theorem onehot_val (x y : BitVec 32) :
    (FloatOps.sitofp .f32 ((IntOp.cmpi .eq x y).setWidth 32) : Ideal .f32) = if x = y then 1 else 0 := by
  show ((((IntOp.cmpi .eq x y).setWidth 32).toInt : ℝ) : EReal) = _
  by_cases h : x = y
  · have e : IntOp.cmpi .eq x y = 1#1 := by simp [IntOp.cmpi, h]
    rw [e, if_pos h]
    simp
  · have e : IntOp.cmpi .eq x y = 0#1 := by
      show BitVec.ofBool (x == y) = 0#1
      rw [beq_eq_false_iff_ne.mpr h]
      rfl
    rw [e, if_neg h]
    simp

/-- The row's word: the row inside the block plus the block's first row, as 32-bit words. -/
theorem row_word (r i0 : ℕ) :
    IntOp.addi (BitVec.ofNat 32 r) (Scalar.muli (BitVec.ofNat 32 i0) 2560#32) = BitVec.ofNat 32 (r + i0 * 2560) := by
  show BitVec.ofNat 32 r + BitVec.ofNat 32 i0 * BitVec.ofNat 32 2560 = _
  rw [← BitVec.ofNat_mul, ← BitVec.ofNat_add]

/-- The one-hot block of a grid point: entry `(r, q)` compares the row's word with the target word of edge `q`. -/
def onehot2 (i : grid2.Coords) (v7 : Vec Ideal S1x1280 .i32) : FVec Ideal S2560x1280 .bf16 :=
  truncf .bf16 (sitofp .f32 (extui 32 (cmpi .eq
    (broadcastTo S2560x1280
      (addi (iota .tc S2560x1 32 [0] iota_S2560x1_d0_w32)
        (broadcast S2560x1 (Scalar.muli (BitVec.ofNat 32 (i 0).val) 2560#32)))
      broadcasts_S2560x1_S2560x1280)
    (broadcastTo S2560x1280 (shapeCast S1x1280 v7 shapeCasts_S1x1280_S1x1280) broadcasts_S1x1280_S2560x1280))
    natLt_1_32)) bitsLt_bf16_f32

theorem onehot2_apply (i : grid2.Coords) (v7 : Vec Ideal S1x1280 .i32) (r : Fin 2560) (q : Fin 1280) :
    onehot2 i v7 (ix2 r q)
      = if BitVec.ofNat 32 (r.val + (i 0).val * 2560) = v7 (ix2 0 q) then 1 else 0 := by
  show (FloatOps.sitofp .f32 ((IntOp.cmpi .eq
      (broadcastTo S2560x1280 _ broadcasts_S2560x1_S2560x1280 (ix2 r q))
      (broadcastTo S2560x1280 _ broadcasts_S1x1280_S2560x1280 (ix2 r q))).setWidth 32) : Ideal .f32) = _
  rw [broadcastTo_a1_ab_apply, broadcastTo_1b_ab_apply, shapeCast_self, onehot_val]
  show (if IntOp.addi (iota .tc S2560x1 32 [0] iota_S2560x1_d0_w32 (ix2 r (0 : Fin 1)))
        (Scalar.muli (BitVec.ofNat 32 (i 0).val) 2560#32) = v7 (ix2 0 q) then (1 : EReal) else 0) = _
  rw [iota_single_apply]
  show (if IntOp.addi (BitVec.ofNat 32 r.val) (Scalar.muli (BitVec.ofNat 32 (i 0).val) 2560#32) = v7 (ix2 0 q)
        then (1 : EReal) else 0) = _
  rw [row_word]

/-- The payload as one expression in the one-hot block. -/
theorem k2_pay2_eq (i : grid2.Coords) (v7 : Vec Ideal S1x1280 .i32) (v15 : Vec Ideal S2560x64 .f32)
    (v16 : Vec Ideal S1280x64 .bf16) :
    k2_pay2 i v7 v15 v16
      = shapeCast S2560x64
          (addf v15 (matmul (φ₁ := .bf16) (φ₂ := .bf16) dot_S2560x1280_S1280x64_S2560x64_1_0_0_1_n_n none (onehot2 i v7)
            (shapeCast S1280x64 v16 shapeCasts_S1280x64_S1280x64 : FVec Ideal S1280x64 .bf16)
            (constant S2560x64 .f32 0x00000000#32)))
          shapeCasts_S2560x64_S2560x64 := rfl

/-- The update payload at `(r, d)`: the accumulator there plus the rows of the edge tile whose target is this row. -/
theorem k2_pay2_apply (i : grid2.Coords) (v7 : Vec Ideal S1x1280 .i32) (v15 : Vec Ideal S2560x64 .f32)
    (v16 : Vec Ideal S1280x64 .bf16) (r : Fin 2560) (d : Fin 64) :
    k2_pay2 i v7 v15 v16 (ix2 r d)
      = v15 (ix2 r d) + ∑ q : Fin 1280,
          (if BitVec.ofNat 32 (r.val + (i 0).val * 2560) = v7 (ix2 0 q) then 1 else 0) * v16 (ix2 q d) := by
  rw [k2_pay2_eq, shapeCast_self, addf_apply, matmul2_apply]
  refine congrArg (v15 (ix2 r d) + ·) (Finset.sum_congr rfl fun q _ => ?_)
  rw [onehot2_apply, shapeCast_self]

/-! ## The normalisation of a row depends on that row only -/

theorem normMul_row {N M D : ℕ} (c eps : EReal) (v : Fin N → Fin D → EReal) (w : Fin M → Fin D → EReal)
    (g b g' b' : Fin D → EReal) (n : Fin N) (m : Fin M) (h : ∀ d, v n d = w m d) (hg : ∀ d, g d = g' d)
    (hb : ∀ d, b d = b' d) (d : Fin D) :
    Cert.Spec.normMul c eps v g b n d = Cert.Spec.normMul c eps w g' b' m d := by
  have hv : v n = w m := funext h
  simp only [Cert.Spec.normMul, Cert.Spec.var, Cert.Spec.mean, hv, hg, hb]

/-! ## Words -/

/-- A number below `2 ^ 32`, as a 32-bit word and back, is itself. -/
theorem word_nat (x : ℕ) (hx : x < 4294967296) : (BitVec.ofNat 32 x).toNat = x := by
  rw [BitVec.toNat_ofNat]; exact Nat.mod_eq_of_lt hx

end Cert.KernelIdeal.H

end
-- ==== Proof.KI.V2.lean ====
import proofs.«421344_j1254130450614_1_alg».proof.Proof.KI.V2Pieces
import proofs.«421344_j1254130450614_1_alg».proof.Proof.KI.V2Pay
import proofs.«421344_j1254130450614_1_alg».proof.Proof.LibTileSums
import Idealize.ShloMosaic.Lib.Pipeline.Value

/-!
What region 2 leaves in its output array, at the ideal values.

The grid is 40 blocks of 2560 node rows by 1250 tiles of 1280 edges, the tiles of one block run through first to last.
Write `col e` for the target word of edge `e` and `msg e` for its message row.  At tile `i` of block `j` the
accumulator gains, in row `r` and lane `d`, the messages `msg (1280 i + q) d` of the tile's edges whose target word is
the word of `2560 j + r`; the first tile starts from zero.  By induction on the point, after tile `i` the accumulator
holds the sum over the tiles up to `i`; after the last tile that is the sum over all 1600000 edges whose target is the
row — the segment sum.  That tile also writes the block back: each accumulated row normalised to zero mean and unit
variance, scaled, shifted and clamped at zero.  Every row of the array lies in exactly one such block, so the array
ends holding that function of the four input arrays, and the input arrays are untouched.
-/

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Sums over the edges, tile by tile -/

section Tiles
variable (col : Fin 1600000 → BitVec 32) (msg : Fin 1600000 → Fin 64 → EReal)

/-- What tile `i` of 1280 edges adds, at lane `d`, to the row whose word is `w` (nothing past the last tile). -/
def tileTerm2 (w : BitVec 32) (d : Fin 64) (i : ℕ) : EReal :=
  if h : i < 1250 then
    ∑ q : Fin 1280, (if w = col ⟨i * 1280 + q.val, by have := q.isLt; omega⟩ then (1 : EReal) else 0)
      * msg ⟨i * 1280 + q.val, by have := q.isLt; omega⟩ d
  else 0

/-- The 1250 tiles together: every edge whose target word is `w` contributes its message. -/
theorem tileTerm2_sum (w : BitVec 32) (d : Fin 64) :
    ∑ i ∈ Finset.range 1250, tileTerm2 col msg w d i = ∑ e : Fin 1600000, (if col e = w then msg e d else 0) := by
  rw [Finset.sum_range]
  refine Cert.LibTileSums.sum_tiles_of (A := 1250) (B := 1280) (n := 1600000) rfl
    (fun e => if col e = w then msg e d else 0) (fun i => tileTerm2 col msg w d i.val) fun i => ?_
  unfold tileTerm2
  rw [dif_pos i.isLt]
  refine Finset.sum_congr rfl fun q _ => ?_
  by_cases h : w = col ⟨i.val * 1280 + q.val, Cert.LibTileSums.tile_lt rfl i q⟩
  · rw [if_pos h, one_mul]; exact (if_pos h.symm).symm
  · rw [if_neg h, zero_mul]; exact (if_neg fun e => h e.symm).symm

end Tiles

/-! ## The region's arrays and blocks at their literal types -/

section Blocks
variable (V : (c : Dev nD) → (b : Ref sig .tc) → Buf (Elt Ideal) ((c : Thread nD τ).loc b))

/-- The target words of the 1600000 edges, the messages, the scale and the shift, as the region finds them. -/
abbrev colArr2 (c : Dev nD) : Vec Ideal S1x1600000 .i32 := V c main_v21
abbrev msgArr2 (c : Dev nD) : Vec Ideal S1600000x64 .bf16 := V c main_v27
abbrev gArr2 (c : Dev nD) : Vec Ideal S1x64 .f32 := V c main_v28
abbrev bArr2 (c : Dev nD) : Vec Ideal S1x64 .f32 := V c main_v29

/-- The four input blocks at point `t`. -/
abbrev colBlk2 (c : Dev nD) (t : Fin cfg2.N) : Vec Ideal S1x1280 .i32 := iblk2 V c 0 t
abbrev msgBlk2 (c : Dev nD) (t : Fin cfg2.N) : Vec Ideal S1280x64 .bf16 := iblk2 V c 1 t
abbrev gBlk2 (c : Dev nD) (t : Fin cfg2.N) : Vec Ideal S1x64 .f32 := iblk2 V c 2 t
abbrev bBlk2 (c : Dev nD) (t : Fin cfg2.N) : Vec Ideal S1x64 .f32 := iblk2 V c 3 t

/-- Edge `q` of the tile at point `t` is edge `(t mod 1250) · 1280 + q`: its target word … -/
theorem colBlk2_apply (c : Dev nD) (t : Fin cfg2.N) (q : Fin 1280) :
    colBlk2 V c t (ix2 0 q)
      = colArr2 V c (ix2 0 ⟨t.val % 1250 * 1280 + q.val, by have := q.isLt; have := Nat.mod_lt t.val (show 1250 > 0 by decide); omega⟩) := by
  show ((cfg2.win 0).blk t).view.read (Elt Ideal) (V c main_v21) (ix2 0 q) = _
  rw [View.read_apply]
  refine congrArg (V c main_v21) (funext fun a => Fin.ext ?_)
  have h1 : win2_0.index t 1 = t.val % 1250 := by
    show (BitVec.ofNat 32 (grid2.coords t 1).val).toNat = _
    rw [coords2_1 t]; exact word_nat _ (by have := Nat.mod_lt t.val (show 1250 > 0 by decide); omega)
  match a with
  | ⟨0, _⟩ => show win2_0.index t 0 * 1 + 1 * 0 = 0; show (0#32 : BitVec 32).toNat * 1 + 1 * 0 = 0; rfl
  | ⟨1, _⟩ => show win2_0.index t 1 * 1280 + 1 * q.val = t.val % 1250 * 1280 + q.val; rw [h1]; omega

/-- … and its message row. -/
theorem msgBlk2_apply (c : Dev nD) (t : Fin cfg2.N) (q : Fin 1280) (d : Fin 64) :
    msgBlk2 V c t (ix2 q d)
      = msgArr2 V c (ix2 ⟨t.val % 1250 * 1280 + q.val, by have := q.isLt; have := Nat.mod_lt t.val (show 1250 > 0 by decide); omega⟩ d) := by
  show ((cfg2.win 1).blk t).view.read (Elt Ideal) (V c main_v27) (ix2 q d) = _
  rw [View.read_apply]
  refine congrArg (V c main_v27) (funext fun a => Fin.ext ?_)
  have h0 : win2_1.index t 0 = t.val % 1250 := by
    show (BitVec.ofNat 32 (grid2.coords t 1).val).toNat = _
    rw [coords2_1 t]; exact word_nat _ (by have := Nat.mod_lt t.val (show 1250 > 0 by decide); omega)
  match a with
  | ⟨0, _⟩ => show win2_1.index t 0 * 1280 + 1 * q.val = t.val % 1250 * 1280 + q.val; rw [h0]; omega
  | ⟨1, _⟩ => show win2_1.index t 1 * 64 + 1 * d.val = d.val; show (0#32 : BitVec 32).toNat * 64 + 1 * d.val = d.val; simp

/-- The scale and the shift are one block each: every point reads the whole row. -/
theorem gBlk2_apply (c : Dev nD) (t : Fin cfg2.N) (d : Fin 64) : gBlk2 V c t (ix2 0 d) = gArr2 V c (ix2 0 d) := by
  show ((cfg2.win 2).blk t).view.read (Elt Ideal) (V c main_v28) (ix2 0 d) = _
  rw [View.read_apply]
  refine congrArg (V c main_v28) (funext fun a => Fin.ext ?_)
  match a with
  | ⟨0, _⟩ => show (0#32 : BitVec 32).toNat * 1 + 1 * 0 = 0; rfl
  | ⟨1, _⟩ => show (0#32 : BitVec 32).toNat * 64 + 1 * d.val = d.val; simp

theorem bBlk2_apply (c : Dev nD) (t : Fin cfg2.N) (d : Fin 64) : bBlk2 V c t (ix2 0 d) = bArr2 V c (ix2 0 d) := by
  show ((cfg2.win 3).blk t).view.read (Elt Ideal) (V c main_v29) (ix2 0 d) = _
  rw [View.read_apply]
  refine congrArg (V c main_v29) (funext fun a => Fin.ext ?_)
  match a with
  | ⟨0, _⟩ => show (0#32 : BitVec 32).toNat * 1 + 1 * 0 = 0; rfl
  | ⟨1, _⟩ => show (0#32 : BitVec 32).toNat * 64 + 1 * d.val = d.val; simp

/-- The first coordinate of a point is its block of node rows. -/
theorem coords2_0' (t : Fin cfg2.N) : (grid2.coords t 0).val = t.val / 1250 := by
  rw [coords2_0 t]; have := lt_N2 t; exact Nat.mod_eq_of_lt (by omega)

/-- THE UPDATE AT A POINT: over an accumulator `xs`, entry `(r, d)` gains what the point's tile of edges sends to
    node row `r` of the point's block. -/
theorem pay2_at (c : Dev nD) (t : Fin cfg2.N) (xs : Vec Ideal S2560x64 .f32) (r : Fin 2560) (d : Fin 64) :
    k2_pay2 (grid2.coords t) (colBlk2 V c t) xs (msgBlk2 V c t) (ix2 r d)
      = xs (ix2 r d) + tileTerm2 (fun e => colArr2 V c (ix2 0 e)) (fun e d => msgArr2 V c (ix2 e d))
          (BitVec.ofNat 32 (r.val + t.val / 1250 * 2560)) d (t.val % 1250) := by
  rw [k2_pay2_apply, coords2_0']
  refine congrArg (xs (ix2 r d) + ·) ?_
  unfold tileTerm2
  rw [dif_pos (Nat.mod_lt _ (by decide))]
  refine Finset.sum_congr rfl fun q _ => ?_
  rw [colBlk2_apply, msgBlk2_apply]

end Blocks

/-! ## What the accumulator holds after each point -/

section Acc
variable (V : (c : Dev nD) → (b : Ref sig .tc) → Buf (Elt Ideal) ((c : Thread nD τ).loc b))

/-- The edges' target words and messages as plain functions of the edge. -/
abbrev colF2 (c : Dev nD) : Fin 1600000 → BitVec 32 := fun e => colArr2 V c (ix2 0 e)
abbrev msgF2 (c : Dev nD) : Fin 1600000 → Fin 64 → EReal := fun e d => msgArr2 V c (ix2 e d)

/-- At the first tile of a block of rows the accumulator is reset and holds that tile's contribution. -/
theorem acc2_first (c : Dev nD) (t : Fin cfg2.N) (h0 : t.val % 1250 = 0) (r : Fin 2560) (d : Fin 64) :
    (outsAt2 V c t.val t.isLt).2 (ix2 r d)
      = tileTerm2 (colF2 V c) (msgF2 V c) (BitVec.ofNat 32 (r.val + t.val / 1250 * 2560)) d 0 := by
  have h1 : ¬t.val % 1250 = 1249 := by omega
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) (ix2 r d)).trans ?_
  refine (pay2_at V c t (k2_pay1 (F := Ideal)) r d).trans ?_
  rw [k2_pay1_apply, zero_add, h0]

/-- At every later tile it gains that tile's contribution. -/
theorem acc2_next (c : Dev nD) (t : Fin cfg2.N) (h0 : ¬t.val % 1250 = 0) (r : Fin 2560) (d : Fin 64) :
    (outsAt2 V c t.val t.isLt).2 (ix2 r d)
      = (outsAt2 V c (t.val - 1) (Nat.lt_of_le_of_lt (Nat.sub_le _ _) t.isLt)).2 (ix2 r d)
        + tileTerm2 (colF2 V c) (msgF2 V c) (BitVec.ofNat 32 (r.val + t.val / 1250 * 2560)) d (t.val % 1250) := by
  by_cases h1 : t.val % 1250 = 1249
  · rw [outsAt2_C V c t h0 h1]
    dsimp only
    refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) (ix2 r d)).trans ?_
    exact pay2_at V c t _ r d
  · rw [outsAt2_B V c t h0 h1]
    dsimp only
    refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) (ix2 r d)).trans ?_
    exact pay2_at V c t _ r d

/-- So after point `n` it holds the contributions of the tiles `0 … n mod 1250` to the rows of block `n / 1250`. -/
theorem acc2_eq (c : Dev nD) : ∀ (n : ℕ) (hn : n < cfg2.N) (r : Fin 2560) (d : Fin 64),
    (outsAt2 V c n hn).2 (ix2 r d)
      = ∑ i ∈ Finset.range (n % 1250 + 1),
          tileTerm2 (colF2 V c) (msgF2 V c) (BitVec.ofNat 32 (r.val + n / 1250 * 2560)) d i
  | 0, hn, r, d => by
    refine (acc2_first V c ⟨0, hn⟩ (Nat.zero_mod _) r d).trans ?_
    show _ = ∑ i ∈ Finset.range (0 % 1250 + 1), _
    rw [Nat.zero_mod, Nat.zero_add, Finset.sum_range_one]
  | n + 1, hn, r, d => by
    by_cases h0 : (n + 1) % 1250 = 0
    · refine (acc2_first V c ⟨n + 1, hn⟩ h0 r d).trans ?_
      show tileTerm2 _ _ (BitVec.ofNat 32 (r.val + (n + 1) / 1250 * 2560)) d 0 = _
      rw [h0, Nat.zero_add, Finset.sum_range_one]
    · refine (acc2_next V c ⟨n + 1, hn⟩ h0 r d).trans ?_
      show (outsAt2 V c n _).2 (ix2 r d)
          + tileTerm2 _ _ (BitVec.ofNat 32 (r.val + (n + 1) / 1250 * 2560)) d ((n + 1) % 1250) = _
      rw [acc2_eq c n _ r d]
      have e1 : (n + 1) / 1250 = n / 1250 := by omega
      have e2 : (n + 1) % 1250 = n % 1250 + 1 := by omega
      rw [e1, e2]
      exact (Finset.sum_range_succ _ _).symm

end Acc

/-! ## The output array -/

section Out
variable (V : (c : Dev nD) → (b : Ref sig .tc) → Buf (Elt Ideal) ((c : Thread nD τ).loc b))

/-- Entry `(n, d)` of what the region's output ends holding: the messages summed onto node `n`, the row normalised,
    scaled, shifted and clamped at zero. -/
def outVal2 (c : Dev nD) (n : Fin 102400) (d : Fin 64) : EReal :=
  Cert.Spec.relu (Cert.Spec.normMul (Ideal.ofBits .f32 0x42800000#32) (Ideal.ofBits .f32 0x3727C5AC#32)
    (Cert.Spec.seg (colF2 V c) (msgF2 V c)) (fun d => gArr2 V c (ix2 0 d)) (fun d => bArr2 V c (ix2 0 d)) n d)

/-- The same as contents of the output array. -/
def outArr2 (c : Dev nD) : Vec Ideal S102400x64 .f32 :=
  fun idx => outVal2 V c ⟨(idx 0).val, idx2_lt0 idx⟩ ⟨(idx 1).val, idx2_lt1 idx⟩

/-- The output's block at point `t` is the block of rows `t / 1250`, … -/
theorem index2_4_0 (t : Fin cfg2.N) : (cfg2.win 4).index t 0 = t.val / 1250 := by
  show (BitVec.ofNat 32 (grid2.coords t 0).val).toNat = _
  rw [coords2_0' t]; have := lt_N2 t; exact word_nat _ (by omega)
/-- … all 64 lanes. -/
theorem index2_4_1 (t : Fin cfg2.N) : (cfg2.win 4).index t 1 = 0 := rfl

/-- The last tile of a block of rows writes the block back. -/
theorem flush2_4_of (t : Fin cfg2.N) (h : t.val % 1250 = 1249) : (cfg2.win 4).flush t = true := by
  have hN := lt_N2 t
  unfold Pipeline.Window.flush
  rw [Bool.and_eq_true]
  refine ⟨rfl, ?_⟩
  rw [Bool.or_eq_true]
  by_cases hl : t.val + 1 = 50000
  · left; exact decide_eq_true (hl.trans N_2.symm)
  · right
    apply decide_eq_true
    have h' : t.val + 1 < cfg2.N := lt_of_lt_of_eq (by omega : t.val + 1 < 50000) N_2.symm
    refine ⟨h', fun e => ?_⟩
    have e0 := congrFun e 0
    rw [index2_4_0 ⟨t.val + 1, h'⟩, index2_4_0 t] at e0
    dsimp only at e0
    omega

/-- At the last tile of a block of rows, the rows of the accumulator are the segment sums of the block's nodes. -/
theorem acc2_last (c : Dev nD) (t : Fin cfg2.N) (h1 : t.val % 1250 = 1249) (r : Fin 2560) (d : Fin 64)
    (hn : t.val / 1250 * 2560 + r.val < 102400) :
    (outsAt2 V c t.val t.isLt).2 (ix2 r d) = Cert.Spec.seg (colF2 V c) (msgF2 V c) (⟨t.val / 1250 * 2560 + r.val, hn⟩ : Fin 102400) d := by
  rw [acc2_eq V c t.val t.isLt r d, h1, tileTerm2_sum]
  show _ = ∑ e, (if colF2 V c e = BitVec.ofNat 32 (t.val / 1250 * 2560 + r.val) then msgF2 V c e d else 0)
  rw [Nat.add_comm r.val]

/-- What the last tile of a block of rows leaves in the output's staging buffer. -/
theorem out2_at (c : Dev nD) (t : Fin cfg2.N) (h1 : t.val % 1250 = 1249) (r : Fin 2560) (d : Fin 64)
    (hn : t.val / 1250 * 2560 + r.val < 102400) :
    (outsAt2 V c t.val t.isLt).1 (ix2 r d) = outVal2 V c ⟨t.val / 1250 * 2560 + r.val, hn⟩ d := by
  have h0 : ¬t.val % 1250 = 0 := by omega
  have e : (outsAt2 V c t.val t.isLt).1 = k2_pay3 (outsAt2 V c t.val t.isLt).2 (gBlk2 V c t) (bBlk2 V c t) := by
    rw [outsAt2_C V c t h0 h1]
    dsimp only
    rw [out2_C_4_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2]
  refine (congrFun e (ix2 r d)).trans ?_
  refine (k2_pay3_apply _ _ _ r d).trans ?_
  refine congrArg Cert.Spec.relu ?_
  exact normMul_row _ _ _ _ _ _ _ _ r ⟨t.val / 1250 * 2560 + r.val, hn⟩
    (fun d => acc2_last V c t h1 r d hn) (fun d => gBlk2_apply V c t d) (fun d => bBlk2_apply V c t d) d

/-- Reading any contents of the output array through a point's block is reading them at the block's entries. -/
theorem read_blk2_4 (G : Vec Ideal S102400x64 .f32) (t : Fin cfg2.N) (r : Fin 2560) (d : Fin 64) :
    ((cfg2.win 4).blk t).view.read (Elt Ideal) G (ix2 r d) = G (((cfg2.win 4).blk t).view.emb (ix2 r d)) := rfl

/-- The output's blocks are whole: what is written back of a staging buffer is the buffer. -/
theorem cut2_4 (X : Vec Ideal S2560x64 .f32) (t : Fin cfg2.N) (r : Fin 2560) (d : Fin 64) :
    (cfg2.win 4).cut (grid2.coords t) X (ix2 r d) = X (ix2 r d) := rfl

/-- Entry `(r, d)` of the block at point `t` is entry `(t / 1250 · 2560 + r, d)` of the array. -/
theorem emb2_4 (t : Fin cfg2.N) (r : Fin 2560) (d : Fin 64) (hn : t.val / 1250 * 2560 + r.val < 102400) :
    (((cfg2.win 4).blk t).view.emb (ix2 r d) : S102400x64.Idx)
      = ix2 (⟨t.val / 1250 * 2560 + r.val, hn⟩ : Fin 102400) d := by
  funext a
  apply Fin.ext
  match a with
  | ⟨0, _⟩ =>
    show (cfg2.win 4).index t 0 * 2560 + 1 * r.val = t.val / 1250 * 2560 + r.val
    rw [index2_4_0]; omega
  | ⟨1, _⟩ =>
    show (cfg2.win 4).index t 1 * 64 + 1 * d.val = d.val
    rw [index2_4_1]; omega

/-- WHAT A POINT WRITES BACK is its block of the output array's final contents. -/
theorem flushed2_4_eq (c : Dev nD) (t : Fin cfg2.N) (hf : (cfg2.win 4).flush t = true) :
    (dat2 V c).flushed 4 t = ((cfg2.win 4).blk t).view.read (Elt Ideal) (outArr2 V c) := by
  have h1 : t.val % 1250 = 1249 := by
    by_contra h
    rw [noFlush2_4_of t h] at hf
    exact Bool.false_ne_true hf
  have hN := lt_N2 t
  show (cfg2.win 4).cut (grid2.coords t) ((dat2 V c).after 4 t) = _
  rw [after2_4]
  funext y
  obtain ⟨r, d, rfl⟩ : ∃ (r : Fin 2560) (d : Fin 64), y = ix2 r d := ⟨y 0, y 1, eq_ix2 y⟩
  have hn : t.val / 1250 * 2560 + r.val < 102400 := by have := r.isLt; omega
  rw [read_blk2_4, cut2_4, emb2_4 t r d hn, out2_at V c t h1 r d hn]
  rfl

/-- Every entry of the output array lies in the block some point writes back: the last tile of its block of rows. -/
theorem cover2_4 (i : S102400x64.Idx) :
    ∃ t : Fin cfg2.N, (cfg2.win 4).flush t = true ∧ i ∈ ((cfg2.win 4).blk t).view.set := by
  have hi0 : (i 0).val < 102400 := idx2_lt0 i
  have hi1 : (i 1).val < 64 := idx2_lt1 i
  have ht : (i 0).val / 2560 * 1250 + 1249 < cfg2.N := lt_of_lt_of_eq (by omega : (i 0).val / 2560 * 1250 + 1249 < 50000) N_2.symm
  refine ⟨⟨(i 0).val / 2560 * 1250 + 1249, ht⟩, flush2_4_of _ (by dsimp only; omega), ?_⟩
  show i ∈ ((View.whole main_v30).slice (win2_4.rect ⟨(i 0).val / 2560 * 1250 + 1249, ht⟩)).set
  rw [View.set_slice_whole, Rect.mem_set_unit]
  intro a
  match a with
  | ⟨0, _⟩ =>
    show (cfg2.win 4).index ⟨_, ht⟩ 0 * 2560 ≤ (i 0).val ∧ (i 0).val < (cfg2.win 4).index ⟨_, ht⟩ 0 * 2560 + win2_4.xsize (grid2.coords ⟨_, ht⟩) 0
    rw [index2_4_0, show win2_4.xsize (grid2.coords ⟨_, ht⟩) 0 = 2560 from rfl]; dsimp only; omega
  | ⟨1, _⟩ =>
    show (cfg2.win 4).index ⟨_, ht⟩ 1 * 64 ≤ (i 1).val ∧ (i 1).val < (cfg2.win 4).index ⟨_, ht⟩ 1 * 64 + win2_4.xsize (grid2.coords ⟨_, ht⟩) 1
    rw [index2_4_1, show win2_4.xsize (grid2.coords ⟨_, ht⟩) 1 = 64 from rfl]; omega

/-- THE OUTPUT ARRAY after the region. -/
theorem arrAt2_final (c : Dev nD) : (dat2 V c).arrAt 4 cfg2.N = outArr2 V c :=
  (dat2 V c).arrAt_eq_of_cover 4 (outArr2 V c) (flushed2_4_eq V c) cover2_4

/-- Entry `(n, d)` of the output array after the region. -/
theorem arrAt2_out (c : Dev nD) (n : Fin 102400) (d : Fin 64) :
    (dat2 (F := Ideal) V c).arrAt 4 cfg2.N (ix2 n d)
      = Cert.Spec.relu (Cert.Spec.normMul (Ideal.ofBits .f32 0x42800000#32) (Ideal.ofBits .f32 0x3727C5AC#32)
          (Cert.Spec.seg (fun e => V c main_v21 (ix2 0 e)) (fun e d => V c main_v27 (ix2 e d)))
          (fun d => V c main_v28 (ix2 0 d)) (fun d => V c main_v29 (ix2 0 d)) n d) :=
  congrFun (arrAt2_final V c) (ix2 n d)

/-- The four input arrays are as the region found them. -/
theorem arrAt2_in (c : Dev nD) (w : Fin cfg2.W) (hw : (cfg2.win w).isOut = false) (t : ℕ) :
    (dat2 (F := Ideal) V c).arrAt w t = V c (Pipeline.arrRef spec2 w) :=
  ((dat2 V c).arrAt_in w hw t).trans (A_eq2 V c w)

end Out

end Cert.KernelIdeal.H

end
-- ==== Proof.KI.V3.lean ====
import proofs.«421344_j1254130450614_1_alg».proof.Proof.KI.R3
import proofs.«421344_j1254130450614_1_alg».proof.Proof.Spec
import Idealize.ShloMosaic.Lib.ValueIdx
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # Region 3 at the extended reals: the array it leaves is the dense map of the arrays it reads

Over the extended reals the narrowing of both factors to sixteen bits is the identity, the product into a zero
accumulator is the plain sum of products over the 64 contracted columns, and the bias row is added to every
row.  Point `t` of the grid computes rows `2048 t … 2048 t + 2047`; the fifty blocks tile the 102400 rows. -/

variable (V : (c : Dev nD) → (b : Ref sig .tc) → Buf (Elt Ideal) ((c : Thread nD τ).loc b))

/-! ## The payload at an index -/

/-- The operand indices of the product at output index `j` and contraction position `k`, axis by axis: the left
    factor is read at (row of `j`, `k`), the right one at (`k`, column of `j`). -/
theorem lhs3_0 (j : S2048x64.Idx) (k : dot_S2048x64_S64x64_S2048x64_1_0_0_1_n_n.contr.Idx) :
    (dot_S2048x64_S64x64_S2048x64_1_0_0_1_n_n.lhsIdx j k 0 : ℕ) = j 0 := by
  simp [DotDims.lhsIdx, dot_S2048x64_S64x64_S2048x64_1_0_0_1_n_n]; rfl
theorem lhs3_1 (j : S2048x64.Idx) (k : dot_S2048x64_S64x64_S2048x64_1_0_0_1_n_n.contr.Idx) :
    (dot_S2048x64_S64x64_S2048x64_1_0_0_1_n_n.lhsIdx j k 1 : ℕ) = k ⟨0, by decide⟩ := by
  simp [DotDims.lhsIdx, dot_S2048x64_S64x64_S2048x64_1_0_0_1_n_n]; rfl
theorem rhs3_0 (j : S2048x64.Idx) (k : dot_S2048x64_S64x64_S2048x64_1_0_0_1_n_n.contr.Idx) :
    (dot_S2048x64_S64x64_S2048x64_1_0_0_1_n_n.rhsIdx j k 0 : ℕ) = k ⟨0, by decide⟩ := by
  simp [DotDims.rhsIdx, dot_S2048x64_S64x64_S2048x64_1_0_0_1_n_n]; rfl
theorem rhs3_1 (j : S2048x64.Idx) (k : dot_S2048x64_S64x64_S2048x64_1_0_0_1_n_n.contr.Idx) :
    (dot_S2048x64_S64x64_S2048x64_1_0_0_1_n_n.rhsIdx j k 1 : ℕ) = j 1 := by
  simp [DotDims.rhsIdx, dot_S2048x64_S64x64_S2048x64_1_0_0_1_n_n]; rfl

/-- The stored value at (row `p`, column `q`) of a block: the sum over the contracted columns of row `p` of the
    first block against column `q` of the second, plus the bias at column `q`. -/
theorem pay3_apply (x0 : Vec Ideal S2048x64 .f32) (x1 : Vec Ideal S64x64 .f32) (x2 : Vec Ideal S1x64 .f32)
    (p : Fin 2048) (q : Fin 64) :
    k3_pay1 x0 x1 x2 (ix2 p q) = (∑ k : Fin 64, x0 (ix2 p k) * x1 (ix2 k q)) + x2 (ix2 0 q) := by
  unfold k3_pay1
  rw [addf_apply]
  simp only [shapeCast_self, matmul]
  rw [Ideal.matmul_constant_zero_apply,
    broadcastTo_apply x2 broadcasts_S1x64_S2048x64 (ix2 p q) (ix2 0 q)
      (fun a => match a with | ⟨0, _⟩ => rfl | ⟨1, _⟩ => rfl),
    ← Equiv.sum_comp (contrEquiv1 dot_S2048x64_S64x64_S2048x64_1_0_0_1_n_n 64 rfl rfl).symm]
  refine congrArg (· + x2 (ix2 0 q)) (Finset.sum_congr rfl fun k _ => ?_)
  have hk := contrEquiv1_symm_val dot_S2048x64_S64x64_S2048x64_1_0_0_1_n_n 64 rfl rfl k
  show x0 _ * x1 _ = _
  congr 1
  · refine congrArg x0 (Shape.idx_ext₂ ?_ ?_)
    · exact lhs3_0 _ _
    · exact (lhs3_1 _ _).trans hk
  · refine congrArg x1 (Shape.idx_ext₂ ?_ ?_)
    · exact (rhs3_0 _ _).trans hk
    · exact rhs3_1 _ _

/-! ## From blocks to the array -/

/-- The dense map of the three arrays as the region finds them, as one function of the output index. -/
def G3 (c : Dev nD) : S102400x64.Idx → EReal := fun i =>
  Cert.Spec.lin (N := 102400) (K := 64) (D := 64) (fun n k => V c main_v30 (ix2 n k))
    (fun k d => V c main_v31 (ix2 k d)) (fun d => V c main_v32 (ix2 0 d)) (i 0) (i 1)

theorem hz3 : (![0, 0] : Fin 2 → Nat) = fun _ => 0 := funext fun a => by fin_cases a <;> rfl

/-- Where each window's block sits at grid point `t`: the rows' and the result's blocks are the `t`-th block of
    2048 rows, the weights' and the bias' blocks are the whole arrays (checked point by point over the 50 points). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The result's block is written back at every point. -/
theorem flush3_3 : ∀ t : Fin cfg3.N, (cfg3.win 3).flush t = true :=
  (by decide +kernel : ∀ t : Fin grid3.N, win3_3.flush t = true)

/-- What point `t` writes back is the payload of the three blocks the point reads: the one store covers the
    buffer and each load reads a whole buffer. -/
theorem flushed3_pay (c : Dev nD) (t : Fin cfg3.N) :
    (dat3 V c).flushed 3 t = k3_pay1 (iblk3 V c 0 t) (iblk3 V c 1 t) (iblk3 V c 2 t) := by
  show (cfg3.win 3).cut (grid3.coords t) ((dat3 V c).after 3 t) = _
  rw [after3_3]
  unfold out3_3
  rw [View.canon_unit_zero hz3]
  simp only [View.ld_unit_zero (S := S2048x64) hz3, View.ld_unit_zero (S := S64x64) hz3,
    View.ld_unit_zero (S := S1x64) hz3]
  rfl

/-- Where the entries of point `t`'s blocks sit in their arrays, against the place of entry (`p`, `q`) of the
    result's block: the rows' block shares the result's rows, -/
theorem emb3_rows (t : Fin cfg3.N) (p : Fin 2048) (q : Fin 64) (k : Fin 64) :
    ((cfg3.win 0).blk t).view.emb (ix2 p k) = ix2 ((((cfg3.win 3).blk t).view.emb (ix2 p q)) 0) k := by
  obtain ⟨e00, e01, -, -, -, -, e30, e31⟩ := idx_facts3 t
  funext a; apply Fin.ext
  match a with
  | ⟨0, _⟩ =>
    show win3_0.index t (0 : Fin 2) * 2048 + 1 * p.val = win3_3.index t (0 : Fin 2) * 2048 + 1 * p.val
    omega
  | ⟨1, _⟩ =>
    show win3_0.index t (1 : Fin 2) * 64 + 1 * k.val = k.val
    omega

/-- the weights' block is the whole matrix and shares the result's columns, -/
theorem emb3_wts (t : Fin cfg3.N) (p : Fin 2048) (q : Fin 64) (k : Fin 64) :
    ((cfg3.win 1).blk t).view.emb (ix2 k q) = ix2 k ((((cfg3.win 3).blk t).view.emb (ix2 p q)) 1) := by
  obtain ⟨-, -, e10, e11, -, -, e30, e31⟩ := idx_facts3 t
  have hq : q.val < 64 := q.isLt
  funext a; apply Fin.ext
  match a with
  | ⟨0, _⟩ =>
    show win3_1.index t (0 : Fin 2) * 64 + 1 * k.val = k.val
    omega
  | ⟨1, _⟩ =>
    show win3_1.index t (1 : Fin 2) * 64 + 1 * q.val = win3_3.index t (1 : Fin 2) * 64 + 1 * q.val
    omega

/-- and the bias' block is the whole row and shares the result's columns. -/
theorem emb3_bias (t : Fin cfg3.N) (p : Fin 2048) (q : Fin 64) :
    ((cfg3.win 2).blk t).view.emb (ix2 0 q) = ix2 0 ((((cfg3.win 3).blk t).view.emb (ix2 p q)) 1) := by
  obtain ⟨-, -, -, -, e20, e21, e30, e31⟩ := idx_facts3 t
  have hq : q.val < 64 := q.isLt
  funext a; apply Fin.ext
  match a with
  | ⟨0, _⟩ =>
    show win3_2.index t (0 : Fin 2) * 1 + 1 * 0 = 0
    omega
  | ⟨1, _⟩ =>
    show win3_2.index t (1 : Fin 2) * 64 + 1 * q.val = win3_3.index t (1 : Fin 2) * 64 + 1 * q.val
    omega

/-- So the payload's value at entry (`p`, `q`) of blocks that read the three arrays at point `t` is the dense map
    at the entry's place in the result array. -/
theorem blocks3_eq (c : Dev nD) (t : Fin cfg3.N) (p : Fin 2048) (q : Fin 64)
    (x0 : Vec Ideal S2048x64 .f32) (x1 : Vec Ideal S64x64 .f32) (x2 : Vec Ideal S1x64 .f32)
    (b0 : ∀ y : S2048x64.Idx, x0 y = V c main_v30 (((cfg3.win 0).blk t).view.emb y))
    (b1 : ∀ y : S64x64.Idx, x1 y = V c main_v31 (((cfg3.win 1).blk t).view.emb y))
    (b2 : ∀ y : S1x64.Idx, x2 y = V c main_v32 (((cfg3.win 2).blk t).view.emb y)) :
    (∑ k : Fin 64, x0 (ix2 p k) * x1 (ix2 k q)) + x2 (ix2 0 q)
      = ((cfg3.win 3).blk t).view.read (Elt Ideal) (G3 V c) (ix2 p q) := by
  have r3 : ((cfg3.win 3).blk t).view.read (Elt Ideal) (G3 V c) (ix2 p q)
      = G3 V c (((cfg3.win 3).blk t).view.emb (ix2 p q)) := rfl
  refine Eq.trans ?_ r3.symm
  unfold G3 Cert.Spec.lin
  simp only [b0, b1, b2, emb3_rows t p q, emb3_wts t p q, emb3_bias t p q]
  rfl

/-- What point `t` writes back is block `t` of the dense map. -/
theorem flushed3_eq (c : Dev nD) (t : Fin cfg3.N) :
    (dat3 V c).flushed 3 t = ((cfg3.win 3).blk t).view.read (Elt Ideal) (G3 V c) := by
  rw [flushed3_pay]
  funext j
  obtain ⟨p, q, rfl⟩ : ∃ (p : Fin 2048) (q : Fin 64), j = ix2 p q := ⟨j 0, j 1, eq_ix2 j⟩
  exact (pay3_apply _ _ _ p q).trans
    (blocks3_eq V c t p q _ _ _ (fun _ => rfl) (fun _ => rfl) (fun _ => rfl))

/-- An index of the result array lies in point `t`'s block iff on each axis it lies in the block's range. -/
theorem mem_blk3 (t : Fin cfg3.N) (i : S102400x64.Idx) :
    i ∈ ((cfg3.win 3).blk t).view.set ↔ ∀ a : Fin 2, win3_3.index t a * S2048x64.size a ≤ (i a).val
      ∧ (i a).val < win3_3.index t a * S2048x64.size a + S2048x64.size a := by
  show i ∈ ((View.whole main_v33).slice (win3_3.rect t)).set ↔ _
  rw [View.set_slice_whole, Rect.mem_set_unit]
  exact Iff.rfl

/-- Every index of the result array is in the block of the point its row falls in: row `r` is in block `r / 2048`. -/
theorem cover3 (i : S102400x64.Idx) :
    ∃ t : Fin cfg3.N, (cfg3.win 3).flush t = true ∧ i ∈ ((cfg3.win 3).blk t).view.set := by
  have hi0 : (i 0).val < 102400 := (i 0).isLt
  have hi1 : (i 1).val < 64 := (i 1).isLt
  have ht : (i 0).val / 2048 < cfg3.N := by
    show (i 0).val / 2048 < grid3.N
    rw [N_3]; omega
  obtain ⟨-, -, -, -, -, -, e30, e31⟩ := idx_facts3 ⟨(i 0).val / 2048, ht⟩
  have e30' : win3_3.index ⟨(i 0).val / 2048, ht⟩ (0 : Fin 2) = (i 0).val / 2048 := e30
  refine ⟨⟨(i 0).val / 2048, ht⟩, flush3_3 _, ?_⟩
  rw [mem_blk3]
  intro a
  match a with
  | ⟨0, _⟩ =>
    show win3_3.index ⟨(i 0).val / 2048, ht⟩ (0 : Fin 2) * 2048 ≤ (i 0).val
      ∧ (i 0).val < win3_3.index ⟨(i 0).val / 2048, ht⟩ (0 : Fin 2) * 2048 + 2048
    omega
  | ⟨1, _⟩ =>
    show win3_3.index ⟨(i 0).val / 2048, ht⟩ (1 : Fin 2) * 64 ≤ (i 1).val
      ∧ (i 1).val < win3_3.index ⟨(i 0).val / 2048, ht⟩ (1 : Fin 2) * 64 + 64
    omega

/-- The result array after the region: the dense map of the three arrays read, at every index. -/
theorem arrAt3_out (c : Dev nD) (n : Fin 102400) (d : Fin 64) :
    (dat3 (F := Ideal) V c).arrAt 3 cfg3.N (ValueIdx.ix2 n d)
      = Cert.Spec.lin (fun n k => V c main_v30 (ix2 n k)) (fun k d => V c main_v31 (ix2 k d))
          (fun d => V c main_v32 (ix2 0 d)) n d := by
  rw [(dat3 V c).arrAt_eq_of_cover 3 (G3 V c) (fun t _ => flushed3_eq V c t) cover3]
  rfl

/-- The arrays the region only reads are as it found them. -/
theorem arrAt3_in (c : Dev nD) (w : Fin cfg3.W) (hw : w ≠ 3) :
    (dat3 V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, h => exact absurd rfl h
  exact ((dat3 V c).arrAt_in w hin _).trans (A_eq3 V c w)

end Cert.KernelIdeal.H

end
-- ==== Proof.KI.V4Pay.lean ====
/-
  Region 4's three stored values, read at one entry over the extended reals.

  The gather kernel works on a block of 1280 edges against a tile of 2560 nodes at a time. For each edge row r it compares the
  edge's source-node word with the node numbers of the tile's 2560 columns (column q of tile j is node q + 2560 j), turns the
  comparison into a 0/1 coefficient, and multiplies that one-hot row into the tile's 2560 × 64 feature block: entry (r, d) of the
  product is the sum over the tile's columns of coefficient × feature, which is the feature row of the named node if it lies in
  this tile and 0 otherwise. The product is added to the running block; the running block starts at zero, and after the last
  tile each of its rows is scaled by the edge's gate. Over the extended reals the narrowing format changes are the identity, so
  the three statements below are exact.
-/
import proofs.«421344_j1254130450614_1_alg».proof.Proof.Gen.KernelIdeal.Skeleton
import Idealize.ShloMosaic.Lib.Pipeline.Value
import Idealize.ShloMosaic.Lib.ValueIdx
import Idealize.ShloMosaic.PureOps.Ideal.Laws
import proofs.«421344_j1254130450614_1_alg».proof.Proof.KI.V1Pay

noncomputable section

namespace Cert.KernelIdeal.H

open Cert.KernelIdeal Cert.KernelIdeal.Gen
open Idealize.ShloMosaic Idealize.ShloMosaic.ValueIdx
open scoped BigOperators

/-- The reset block is zero everywhere. -/
theorem k4_pay1_apply (r : Fin 1280) (d : Fin 64) : (k4_pay1 (F := Ideal)) (ix2 r d) = 0 := by
  unfold k4_pay1
  refine (congrFun (shapeCast_self _ _) (ix2 r d)).trans ?_
  exact Ideal.ofBits_zero_f32

/-- The written-back block is the accumulator scaled row by row by the gate column. -/
theorem k4_pay3_apply (v27 : Vec Ideal S1280x64 .f32) (v28 : Vec Ideal S1280x1 .f32) (r : Fin 1280) (d : Fin 64) :
    k4_pay3 (F := Ideal) v27 v28 (ix2 r d) = v27 (ix2 r d) * v28 (ix2 r (0 : Fin 1)) := by
  unfold k4_pay3
  show v27 (ix2 r d) * broadcastTo S1280x64 (shapeCast S1280x1 v28 shapeCasts_S1280x1_S1280x1) broadcasts_S1280x1_S1280x64 (ix2 r d) = _
  refine congrArg (v27 (ix2 r d) * ·) ?_
  refine (broadcastTo_apply _ broadcasts_S1280x1_S1280x64 (ix2 r d) (ix2 r (0 : Fin 1)) (fun a => ?_)).trans ?_
  · match a with
    | ⟨0, _⟩ => rfl
    | ⟨1, _⟩ => rfl
  · exact congrFun (shapeCast_self v28 _) _

/-! ### The gather matmul's operand indices, axis by axis

For a plain rows × contraction times contraction × columns product the left operand is read at
(output row, contraction position) and the right at (contraction position, output column). -/

theorem lhs_gather4_0 (j : S1280x64.Idx) (q : dot_S1280x2560_S2560x64_S1280x64_1_0_0_1_n_n.contr.Idx) :
    (dot_S1280x2560_S2560x64_S1280x64_1_0_0_1_n_n.lhsIdx j q 0).val = (j 0).val := by
  unfold DotDims.lhsIdx
  rw [dif_neg (show ¬(0 : Fin S1280x2560.rank) ∈ dot_S1280x2560_S2560x64_S1280x64_1_0_0_1_n_n.lhsBatch by decide), dif_pos (show (0 : Fin S1280x2560.rank) ∈ dot_S1280x2560_S2560x64_S1280x64_1_0_0_1_n_n.lhsNonContracting by decide)]
  rfl
theorem lhs_gather4_1 (j : S1280x64.Idx) (q : dot_S1280x2560_S2560x64_S1280x64_1_0_0_1_n_n.contr.Idx) :
    (dot_S1280x2560_S2560x64_S1280x64_1_0_0_1_n_n.lhsIdx j q 1).val = (q ⟨0, by decide⟩).val :=
  dot_S1280x2560_S2560x64_S1280x64_1_0_0_1_n_n.lhsIdx_val_of_single rfl j q
theorem rhs_gather4_0 (j : S1280x64.Idx) (q : dot_S1280x2560_S2560x64_S1280x64_1_0_0_1_n_n.contr.Idx) :
    (dot_S1280x2560_S2560x64_S1280x64_1_0_0_1_n_n.rhsIdx j q 0).val = (q ⟨0, by decide⟩).val :=
  dot_S1280x2560_S2560x64_S1280x64_1_0_0_1_n_n.rhsIdx_val_of_single rfl j q
theorem rhs_gather4_1 (j : S1280x64.Idx) (q : dot_S1280x2560_S2560x64_S1280x64_1_0_0_1_n_n.contr.Idx) :
    (dot_S1280x2560_S2560x64_S1280x64_1_0_0_1_n_n.rhsIdx j q 1).val = (j 1).val := by
  unfold DotDims.rhsIdx
  rw [dif_neg (show ¬(1 : Fin S2560x64.rank) ∈ dot_S1280x2560_S2560x64_S1280x64_1_0_0_1_n_n.rhsBatch by decide), dif_pos (show (1 : Fin S2560x64.rank) ∈ dot_S1280x2560_S2560x64_S1280x64_1_0_0_1_n_n.rhsNonContracting by decide)]
  rfl

/-- One tile's update at entry (r, d): the running value plus the sum over the tile's 2560 columns of the 0/1 coefficient
    "edge r's source word is the word of node q + 2560 j" times the tile's feature entry (q, d), j the node-tile coordinate. -/
theorem k4_pay2_apply (i : grid4.Coords) (v7 : Vec Ideal S1280x1 .i32) (v15 : Vec Ideal S2560x64 .f32)
    (v18 : Vec Ideal S1280x64 .f32) (r : Fin 1280) (d : Fin 64) :
    k4_pay2 (F := Ideal) i v7 v15 v18 (ix2 r d)
      = v18 (ix2 r d) + ∑ q : Fin 2560,
          (if v7 (ix2 r (0 : Fin 1)) = BitVec.ofNat 32 (q.val + (i 1).val * 2560) then (1 : EReal) else 0) * v15 (ix2 q d) := by
  unfold k4_pay2
  refine (congrFun (shapeCast_self _ _) (ix2 r d)).trans ?_
  refine (addf_apply _ _ _).trans ?_
  refine congrArg (v18 (ix2 r d) + ·) ?_
  refine (Ideal.matmul_constant_zero_apply dot_S1280x2560_S2560x64_S1280x64_1_0_0_1_n_n none _ _ (ix2 r d)).trans ?_
  rw [← Equiv.sum_comp (contrEquiv1 dot_S1280x2560_S2560x64_S1280x64_1_0_0_1_n_n 2560 rfl rfl).symm]
  refine Finset.sum_congr rfl fun k _ => ?_
  have hk := contrEquiv1_symm_val dot_S1280x2560_S2560x64_S1280x64_1_0_0_1_n_n 2560 rfl rfl k
  have el : dot_S1280x2560_S2560x64_S1280x64_1_0_0_1_n_n.lhsIdx (ix2 r d) ((contrEquiv1 dot_S1280x2560_S2560x64_S1280x64_1_0_0_1_n_n 2560 rfl rfl).symm k) = ix2 r k := funext fun a => Fin.ext (by
    match a with
    | ⟨0, _⟩ => exact lhs_gather4_0 _ _
    | ⟨1, _⟩ => exact (lhs_gather4_1 _ _).trans hk)
  have er : dot_S1280x2560_S2560x64_S1280x64_1_0_0_1_n_n.rhsIdx (ix2 r d) ((contrEquiv1 dot_S1280x2560_S2560x64_S1280x64_1_0_0_1_n_n 2560 rfl rfl).symm k) = ix2 k d := funext fun a => Fin.ext (by
    match a with
    | ⟨0, _⟩ => exact (rhs_gather4_0 _ _).trans hk
    | ⟨1, _⟩ => exact rhs_gather4_1 _ _)
  rw [el, er]
  have hX : broadcastTo S1280x2560 (shapeCast S1280x1 v7 shapeCasts_S1280x1_S1280x1) broadcasts_S1280x1_S1280x2560 (ix2 r k)
      = v7 (ix2 r (0 : Fin 1)) :=
    (broadcastTo_apply _ broadcasts_S1280x1_S1280x2560 (ix2 r k) (ix2 r (0 : Fin 1)) (fun a => by
      match a with
      | ⟨0, _⟩ => rfl
      | ⟨1, _⟩ => rfl)).trans (congrFun (shapeCast_self v7 _) _)
  have hY : broadcastTo S1280x2560 (addi (iota Kind.tc S1x2560 32 [1] iota_S1x2560_d1_w32)
        (broadcast S1x2560 (Scalar.muli (BitVec.ofNat 32 (i 1).val) 2560#32))) broadcasts_S1x2560_S1280x2560 (ix2 r k)
      = BitVec.ofNat 32 (k.val + (i 1).val * 2560) := by
    refine (broadcastTo_apply _ broadcasts_S1x2560_S1280x2560 (ix2 r k) (ix2 (0 : Fin 1) k) (fun a => by
      match a with
      | ⟨0, _⟩ => rfl
      | ⟨1, _⟩ => rfl)).trans ?_
    refine (congrArg (IntOp.addi · (Scalar.muli (BitVec.ofNat 32 (i 1).val) 2560#32))
      (iota_single_apply Kind.tc S1x2560 32 (1 : Fin S1x2560.rank) iota_S1x2560_d1_w32 (ix2 (0 : Fin 1) k))).trans ?_
    exact node_word k.val (i 1).val
  refine congrArg₂ (· * ·) ?_ (congrFun (shapeCast_self v15 shapeCasts_S2560x64_S2560x64) (ix2 k d))
  refine (congrArg₂ (fun x y => (FloatOps.sitofp .f32 ((IntOp.cmpi .eq x y).setWidth 32) : Ideal .f32)) hX hY).trans ?_
  exact onehot_word _ _

end Cert.KernelIdeal.H

end
-- ==== Proof.KI.V4.lean ====
/-
  Region 4's value over the extended reals: what the gather kernel's output array holds when the region ends.

  The grid has 1250 × 40 points; point t works on edge block t / 40 (1280 edges) against node tile t % 40 (2560 nodes). A scratch
  block is carried from point to point. At tile 0 it is reset to zero and the tile's product is added; at every later tile the
  tile's product is added to what it held. Tile j's product at entry (r, d) is the sum over the tile's nodes of the indicator
  "edge r's source word names node q + 2560 j" times that node's feature d. So after tile j the scratch holds the sum of the
  products of tiles 0 … j (by induction on the point), and after tile 39 it holds the sum over all 102400 nodes of indicator ×
  feature, which is the one feature row the source word names, or 0 when the word names no row. At tile 39 the scratch, scaled
  row by row by the edge's gate, is stored into the output block, and that block is written back to rows (t / 40) * 1280 … of the
  output array; the 1250 written-back blocks tile the array, so row e is written by the last point of edge block e / 1280.

  Only these laws of the extended reals are used: sums in a commutative monoid, 0 + x = x, 0 * x = 0, 1 * x = x.
-/
import proofs.«421344_j1254130450614_1_alg».proof.Proof.KI.R4
import proofs.«421344_j1254130450614_1_alg».proof.Proof.KI.V4Pay
import proofs.«421344_j1254130450614_1_alg».proof.Proof.LibTileSums
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibTileSums
open scoped BigOperators

/-! ## What each case of the body leaves, as values of the blocks it read -/

section Pieces
variable {F : FTy → Type} [FloatOps F]

theorem hz4 : (![0, 0] : Fin 2 → Nat) = fun _ => 0 := funext fun a => by fin_cases a <;> rfl

/-- At the first node tile the scratch is reset to the zero block and then updated: it ends at the update of zero. -/
theorem sout4_A_eq (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : cond4_0 i) (hc1 : ¬cond4_1 i) (x0 : Vec F S1280x1 .i32) (x1 : Vec F S1280x1 .f32) (x2 : Vec F S2560x64 .f32) :
    sout4_A_0 c i arg2 harg2 arg3 harg3 arg4 harg4 arg5 harg5 arg6 harg6 hc0 hc1 x0 x1 x2 = k4_pay2 i x0 x2 (k4_pay1 (F := F)) := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S1280x64) hz4, View.readCov_unit_zero (S := S1280x64) _ hz4]
  simp only [View.readAt_eq_ld, harg2.read_unread, harg3.read_unread, harg4.read_unread, harg6.read_unread, View.ld_unit_zero (S := S1280x1) hz4, View.ld_unit_zero (S := S2560x64) hz4, View.ld_unit_zero (S := S1280x64) hz4]

/-- Away from the first and last node tiles the scratch ends at the update of what it held. -/
theorem sout4_B_eq (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : ¬cond4_1 i) (x0 : Vec F S1280x1 .i32) (x1 : Vec F S1280x1 .f32) (x2 : Vec F S2560x64 .f32) (xs0 : Vec F S1280x64 .f32) :
    sout4_B_0 c i arg2 harg2 arg3 harg3 arg4 harg4 arg5 harg5 arg6 harg6 hc0 hc1 x0 x1 x2 xs0 = k4_pay2 i x0 x2 xs0 := by
  unfold sout4_B_0
  rw [View.read_writes_eq_canon _ _ _ (scover4_B_0 c i arg2 harg2 arg3 harg3 arg4 harg4 arg5 harg5 arg6 harg6 hc0 hc1 x0 x1 x2 xs0)]
  unfold kernelRun4_B
  dsimp only
  sl_unfold_words
  rw [View.canon_unit_zero hz4]
  simp only [View.readAt_eq_ld, harg2.read_unread, harg3.read_unread, harg4.read_unread, harg6.read_unread, View.ld_unit_zero (S := S1280x1) hz4, View.ld_unit_zero (S := S2560x64) hz4, View.ld_unit_zero (S := S1280x64) hz4]

/-- At the last node tile the scratch is updated as elsewhere … -/
theorem sout4_C_eq (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i) (x0 : Vec F S1280x1 .i32) (x1 : Vec F S1280x1 .f32) (x2 : Vec F S2560x64 .f32) (xs0 : Vec F S1280x64 .f32) :
    sout4_C_0 c i arg2 harg2 arg3 harg3 arg4 harg4 arg5 harg5 arg6 harg6 hc0 hc1 x0 x1 x2 xs0 = k4_pay2 i x0 x2 xs0 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_words
  rw [View.canon_unit_zero hz4]
  simp only [View.readAt_eq_ld, harg2.read_unread, harg3.read_unread, harg4.read_unread, harg6.read_unread, View.ld_unit_zero (S := S1280x1) hz4, View.ld_unit_zero (S := S2560x64) hz4, View.ld_unit_zero (S := S1280x64) hz4]

/-- … and the output block is the updated scratch, read back, scaled by the gate column. -/
theorem out4_C_eq (c : Dev nD) (i : grid4.Coords) (arg2 : Memref sig .tc .vmem S1280x1 .i32) (harg2 : arg2.IsWhole) (arg3 : Memref sig .tc .vmem S1280x1 .f32) (harg3 : arg3.IsWhole) (arg4 : Memref sig .tc .vmem S2560x64 .f32) (harg4 : arg4.IsWhole) (arg5 : Memref sig .tc .vmem S1280x64 .bf16) (harg5 : arg5.IsWhole) (arg6 : Memref sig .tc .vmem S1280x64 .f32) (harg6 : arg6.IsWhole) (hc0 : ¬cond4_0 i) (hc1 : cond4_1 i) (x0 : Vec F S1280x1 .i32) (x1 : Vec F S1280x1 .f32) (x2 : Vec F S2560x64 .f32) (xs0 : Vec F S1280x64 .f32) :
    out4_C_3 c i arg2 harg2 arg3 harg3 arg4 harg4 arg5 harg5 arg6 harg6 hc0 hc1 x0 x1 x2 xs0 = k4_pay3 (k4_pay2 i x0 x2 xs0) x1 := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_words
  rw [View.canon_unit_zero hz4, View.readCov_unit_zero (S := S1280x64) _ hz4]
  simp only [View.readAt_eq_ld, harg2.read_unread, harg3.read_unread, harg4.read_unread, harg6.read_unread, View.ld_unit_zero (S := S1280x1) hz4, View.ld_unit_zero (S := S2560x64) hz4, View.ld_unit_zero (S := S1280x64) hz4]

end Pieces

variable (V : (c : Dev nD) → (b : Ref sig .tc) → Buf (Elt Ideal) ((c : Thread nD τ).loc b))

/-! ## The three arrays the region reads, at their literal types -/

/-- Each edge's source-node word. -/
abbrev srcArr4 (c : Dev nD) : Vec Ideal S1600000x1 .i32 := V c main_v20
/-- Each edge's gate. -/
abbrev gateArr4 (c : Dev nD) : Vec Ideal S1600000x1 .f32 := V c main_v22
/-- The node features (102400 rows, the last 2400 padding). -/
abbrev featArr4 (c : Dev nD) : Vec Ideal S102400x64 .f32 := V c main_v33

/-- The source word of row `r` of edge block `b` (0 past the last edge block, which no point reaches). -/
def srcRow4 (c : Dev nD) (b : ℕ) (r : Fin 1280) : BitVec 32 :=
  if h : b * 1280 + r.val < 1600000 then srcArr4 V c (ix2 ⟨b * 1280 + r.val, h⟩ (0 : Fin 1)) else 0

/-! ## The one-hot sums over the node tiles -/

/-- Row `n` of the node features at column `d`, and 0 past the last row. -/
def featRow4 (H : Vec Ideal S102400x64 .f32) (n : ℕ) (d : Fin 64) : EReal :=
  if h : n < 102400 then H (ix2 ⟨n, h⟩ d) else 0

/-- Node tile `j`'s contribution at column `d` for an edge whose source word is `w`: the sum over the tile's 2560 nodes of
    the indicator "w names node q + 2560 j" times that node's feature. -/
def tileSum4 (H : Vec Ideal S102400x64 .f32) (w : BitVec 32) (d : Fin 64) (j : ℕ) : EReal :=
  ∑ q : Fin 2560, (if w = BitVec.ofNat 32 (q.val + j * 2560) then (1 : EReal) else 0) * featRow4 H (j * 2560 + q.val) d

/-- After all 40 tiles the running sum is the feature row the word names, or 0 if it names no row. -/
theorem accum_tileSum4_last (H : Vec Ideal S102400x64 .f32) (w : BitVec 32) (d : Fin 64) :
    accum (tileSum4 H w d) 39 = if hw : w.toNat < 102400 then H (ix2 ⟨w.toNat, hw⟩ d) else 0 := by
  rw [accum_eq_sum]
  have h1 := sum_tiles (A := 40) (B := 2560) (n := 102400) rfl
    (fun k => (if w = BitVec.ofNat 32 k.val then (1 : EReal) else 0) * featRow4 H k.val d)
  have h2 := onehot_sum (n := 102400) (by norm_num) w (fun k => featRow4 H k.val d)
  refine (Finset.sum_congr rfl fun k _ => ?_).trans (h1.trans (h2.trans ?_))
  · unfold tileSum4
    refine Finset.sum_congr rfl fun q _ => ?_
    show _ = (if w = BitVec.ofNat 32 (k.val * 2560 + q.val) then (1 : EReal) else 0) * featRow4 H (k.val * 2560 + q.val) d
    rw [Nat.add_comm q.val]
  · by_cases hw : w.toNat < 102400
    · rw [dif_pos hw, dif_pos hw]
      show featRow4 H w.toNat d = _
      unfold featRow4
      rw [dif_pos hw]
    · rw [dif_neg hw, dif_neg hw]

/-! ## The windows' blocks, entry by entry

Point `t` of the 1250 × 40 grid works on edge block `t / 40` and node tile `t % 40`: the edge windows' blocks start at row
`(t / 40) * 1280` of their arrays, the feature window's at row `(t % 40) * 2560`. -/

theorem tr4_0_0 (t : Fin cfg4.N) : cc4_transform_0 (grid4.coords t) 0 = t.val / 40 := by
  show (BitVec.ofNat 32 (grid4.coords t 0).val).toNat = _
  rw [BitVec.toNat_ofNat, coords4_0]
  have := N4_lt t
  omega
theorem tr4_1_0 (t : Fin cfg4.N) : cc4_transform_1 (grid4.coords t) 0 = t.val / 40 := tr4_0_0 t
theorem tr4_3_0 (t : Fin cfg4.N) : cc4_transform_3 (grid4.coords t) 0 = t.val / 40 := tr4_0_0 t
theorem tr4_2_0 (t : Fin cfg4.N) : cc4_transform_2 (grid4.coords t) 0 = t.val % 40 := by
  show (BitVec.ofNat 32 (grid4.coords t 1).val).toNat = _
  rw [BitVec.toNat_ofNat, coords4_1]
  omega

/-- The source-word block at point `t`, row `r`: the source word of edge `(t / 40) * 1280 + r`. -/
theorem iblk4_0_apply (c : Dev nD) (t : Fin cfg4.N) (r : Fin 1280) (hr : t.val / 40 * 1280 + r.val < 1600000) :
    (iblk4 V c 0 t : Vec Ideal S1280x1 .i32) (ix2 r (0 : Fin 1))
      = V c main_v20 (ix2 ⟨t.val / 40 * 1280 + r.val, hr⟩ (0 : Fin 1)) := by
  unfold iblk4
  rw [View.read_apply]
  show V c main_v20 _ = V c main_v20 _
  congr 1
  funext a
  apply Fin.ext
  match a with
  | ⟨0, _⟩ =>
    show win4_0.index t 0 * 1280 + 1 * r.val = t.val / 40 * 1280 + r.val
    rw [show win4_0.index t 0 = t.val / 40 from tr4_0_0 t]; omega
  | ⟨1, _⟩ => rfl

/-- The gate block at point `t`, row `r`: the gate of edge `(t / 40) * 1280 + r`. -/
theorem iblk4_1_apply (c : Dev nD) (t : Fin cfg4.N) (r : Fin 1280) (hr : t.val / 40 * 1280 + r.val < 1600000) :
    (iblk4 V c 1 t : Vec Ideal S1280x1 .f32) (ix2 r (0 : Fin 1))
      = V c main_v22 (ix2 ⟨t.val / 40 * 1280 + r.val, hr⟩ (0 : Fin 1)) := by
  unfold iblk4
  rw [View.read_apply]
  show V c main_v22 _ = V c main_v22 _
  congr 1
  funext a
  apply Fin.ext
  match a with
  | ⟨0, _⟩ =>
    show win4_1.index t 0 * 1280 + 1 * r.val = t.val / 40 * 1280 + r.val
    rw [show win4_1.index t 0 = t.val / 40 from tr4_1_0 t]; omega
  | ⟨1, _⟩ => rfl

/-- The feature block at point `t`, entry `(q, d)`: node `(t % 40) * 2560 + q`'s feature `d`. -/
theorem iblk4_2_apply (c : Dev nD) (t : Fin cfg4.N) (q : Fin 2560) (d : Fin 64) (hq : t.val % 40 * 2560 + q.val < 102400) :
    (iblk4 V c 2 t : Vec Ideal S2560x64 .f32) (ix2 q d)
      = V c main_v33 (ix2 ⟨t.val % 40 * 2560 + q.val, hq⟩ d) := by
  unfold iblk4
  rw [View.read_apply]
  show V c main_v33 _ = V c main_v33 _
  congr 1
  funext a
  apply Fin.ext
  match a with
  | ⟨0, _⟩ =>
    show win4_2.index t 0 * 2560 + 1 * q.val = t.val % 40 * 2560 + q.val
    rw [show win4_2.index t 0 = t.val % 40 from tr4_2_0 t]; omega
  | ⟨1, _⟩ =>
    show win4_2.index t 1 * 64 + 1 * d.val = d.val
    rw [show win4_2.index t 1 = 0 from rfl]; omega

/-! ## The output's blocks: where they are written back, and which rows they hold -/

/-- The output's block is written back at the points ≡ 39 (mod 40): the next point, if any, starts the next edge block. -/
theorem flush4_3_of (t : Fin cfg4.N) (h : t.val % 40 = 39) : (cfg4.win 3).flush t = true := by
  have hN := N4_lt t
  unfold Pipeline.Window.flush
  rw [Bool.and_eq_true]
  refine ⟨rfl, ?_⟩
  rw [Bool.or_eq_true]
  by_cases hl : t.val + 1 = 50000
  · left; exact decide_eq_true (hl.trans N_4.symm)
  · right
    have hlt : t.val + 1 < cfg4.N := lt_of_lt_of_eq (by omega : t.val + 1 < 50000) N_4.symm
    refine decide_eq_true ⟨hlt, fun he => ?_⟩
    have h0 := congrFun he 0
    rw [index4_3, index4_3, tr4_3_0, tr4_3_0] at h0
    have h0' : (t.val + 1) / 40 = t.val / 40 := h0
    omega

/-- An index of the output array is in point `t`'s block iff each coordinate is in the block's range on its axis. -/
theorem mem_blk4_3 (t : Fin cfg4.N) (i : S1600000x64.Idx) :
    i ∈ ((cfg4.win 3).blk t).view.set ↔ ∀ a : Fin 2, win4_3.index t a * S1280x64.size a ≤ (i a).val ∧ (i a).val < win4_3.index t a * S1280x64.size a + S1280x64.size a := by
  show i ∈ ((View.whole main_v34).slice (win4_3.rect t)).set ↔ _
  rw [View.set_slice_whole, Rect.mem_set_unit]
  exact Iff.rfl

/-- The last point of edge block `e / 1280`. -/
def lastPt4 (e : Fin 1600000) : Fin cfg4.N := ⟨e.val / 1280 * 40 + 39, lt_of_lt_of_eq (by have := e.isLt; omega) N_4.symm⟩

theorem lastPt4_div (e : Fin 1600000) : (lastPt4 e).val / 40 = e.val / 1280 := by show (e.val / 1280 * 40 + 39) / 40 = _; omega
theorem lastPt4_mod (e : Fin 1600000) : (lastPt4 e).val % 40 = 39 := by show (e.val / 1280 * 40 + 39) % 40 = _; omega

/-- Every entry of the output array is in the block some written-back point holds: row `e`'s is the last point of its edge block. -/
theorem cover4_3 (i : S1600000x64.Idx) : ∃ t : Fin cfg4.N, (cfg4.win 3).flush t = true ∧ i ∈ ((cfg4.win 3).blk t).view.set := by
  have h0 : (i 0).val < 1600000 := (i 0).isLt
  have h1 : (i 1).val < 64 := (i 1).isLt
  refine ⟨lastPt4 ⟨(i 0).val, h0⟩, flush4_3_of _ (lastPt4_mod _), ?_⟩
  rw [mem_blk4_3]
  intro a
  match a with
  | ⟨0, _⟩ =>
    show win4_3.index (lastPt4 ⟨(i 0).val, h0⟩) 0 * 1280 ≤ (i 0).val ∧ (i 0).val < win4_3.index (lastPt4 ⟨(i 0).val, h0⟩) 0 * 1280 + 1280
    rw [show win4_3.index (lastPt4 ⟨(i 0).val, h0⟩) 0 = (lastPt4 ⟨(i 0).val, h0⟩).val / 40 from tr4_3_0 _, lastPt4_div]
    show (i 0).val / 1280 * 1280 ≤ (i 0).val ∧ (i 0).val < (i 0).val / 1280 * 1280 + 1280
    omega
  | ⟨1, _⟩ =>
    show win4_3.index (lastPt4 ⟨(i 0).val, h0⟩) 1 * 64 ≤ (i 1).val ∧ (i 1).val < win4_3.index (lastPt4 ⟨(i 0).val, h0⟩) 1 * 64 + 64
    rw [show win4_3.index (lastPt4 ⟨(i 0).val, h0⟩) 1 = 0 from rfl]
    omega

/-! ## One point's update, in terms of the arrays -/

/-- Edge `(t / 40) * 1280 + r` is an edge: the grid has 1250 edge blocks of 1280 rows. -/
theorem edge4_lt (t : Fin cfg4.N) (r : Fin 1280) : t.val / 40 * 1280 + r.val < 1600000 := by
  have := N4_lt t; have := r.isLt; omega

theorem srcRow4_eq (c : Dev nD) (t : Fin cfg4.N) (r : Fin 1280) :
    srcRow4 V c (t.val / 40) r = srcArr4 V c (ix2 ⟨t.val / 40 * 1280 + r.val, edge4_lt t r⟩ (0 : Fin 1)) := dif_pos (edge4_lt t r)

/-- The update at point `t`, entry `(r, d)`: the running value plus node tile `t % 40`'s contribution for the edge's source word. -/
theorem k4_pay2_at (c : Dev nD) (t : Fin cfg4.N) (xs : Vec Ideal S1280x64 .f32) (r : Fin 1280) (d : Fin 64) :
    k4_pay2 (F := Ideal) (grid4.coords t) (iblk4 V c 0 t) (iblk4 V c 2 t) xs (ix2 r d)
      = xs (ix2 r d) + tileSum4 (featArr4 V c) (srcRow4 V c (t.val / 40) r) d (t.val % 40) := by
  refine (k4_pay2_apply (grid4.coords t) (iblk4 V c 0 t) (iblk4 V c 2 t) xs r d).trans ?_
  refine congrArg (xs (ix2 r d) + ·) ?_
  rw [srcRow4_eq]
  unfold tileSum4
  refine Finset.sum_congr rfl fun q _ => ?_
  have hq : t.val % 40 * 2560 + q.val < 102400 := by have := q.isLt; omega
  rw [iblk4_0_apply V c t r (edge4_lt t r), iblk4_2_apply V c t q d hq, coords4_1]
  unfold featRow4
  rw [dif_pos hq]

/-! ## The scratch after each point: the running sum of the tile contributions -/

theorem step4_A (c : Dev nD) (t : Fin cfg4.N) (h0 : t.val % 40 = 0) (h1 : ¬t.val % 40 = 39) (r : Fin 1280) (d : Fin 64) :
    (outsAt4 V c t.val t.isLt).2 (ix2 r d) = 0 + tileSum4 (featArr4 V c) (srcRow4 V c (t.val / 40) r) d (t.val % 40) := by
  rw [outsAt4_A V c t h0 h1]
  dsimp only
  refine (congrFun (sout4_A_eq (F := Ideal) c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) (ix2 r d)).trans ?_
  refine (k4_pay2_at V c t (k4_pay1 (F := Ideal)) r d).trans ?_
  rw [k4_pay1_apply]

theorem step4_B (c : Dev nD) (t : Fin cfg4.N) (h0 : ¬t.val % 40 = 0) (h1 : ¬t.val % 40 = 39) (r : Fin 1280) (d : Fin 64) :
    (outsAt4 V c t.val t.isLt).2 (ix2 r d)
      = (outsAt4 V c (t.val - 1) (Nat.lt_of_le_of_lt (Nat.sub_le _ _) t.isLt)).2 (ix2 r d) + tileSum4 (featArr4 V c) (srcRow4 V c (t.val / 40) r) d (t.val % 40) := by
  rw [outsAt4_B V c t h0 h1]
  dsimp only
  refine (congrFun (sout4_B_eq (F := Ideal) c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) (ix2 r d)).trans ?_
  exact k4_pay2_at V c t (outsAt4 V c (t.val - 1) (Nat.lt_of_le_of_lt (Nat.sub_le _ _) t.isLt)).2 r d

theorem step4_C (c : Dev nD) (t : Fin cfg4.N) (h0 : ¬t.val % 40 = 0) (h1 : t.val % 40 = 39) (r : Fin 1280) (d : Fin 64) :
    (outsAt4 V c t.val t.isLt).2 (ix2 r d)
      = (outsAt4 V c (t.val - 1) (Nat.lt_of_le_of_lt (Nat.sub_le _ _) t.isLt)).2 (ix2 r d) + tileSum4 (featArr4 V c) (srcRow4 V c (t.val / 40) r) d (t.val % 40) := by
  rw [outsAt4_C V c t h0 h1]
  dsimp only
  refine (congrFun (sout4_C_eq (F := Ideal) c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) (ix2 r d)).trans ?_
  exact k4_pay2_at V c t (outsAt4 V c (t.val - 1) (Nat.lt_of_le_of_lt (Nat.sub_le _ _) t.isLt)).2 r d

/-- After point `n` the scratch entry `(r, d)` holds the running sum, over the node tiles `0 … n % 40`, of the tiles'
    contributions for the source word of row `r` of edge block `n / 40`. -/
theorem scratch4_eq (c : Dev nD) : ∀ (n : ℕ) (hn : n < cfg4.N) (r : Fin 1280) (d : Fin 64),
    (outsAt4 V c n hn).2 (ix2 r d) = accum (tileSum4 (featArr4 V c) (srcRow4 V c (n / 40) r) d) (n % 40)
  | 0, hn, r, d => step4_A V c ⟨0, hn⟩ rfl (by show ¬((0 : ℕ) % 40 = 39); omega) r d
  | n + 1, hn, r, d => by
    by_cases h0 : (n + 1) % 40 = 0
    · have h1 : ¬(n + 1) % 40 = 39 := by omega
      refine (step4_A V c ⟨n + 1, hn⟩ h0 h1 r d).trans ?_
      show 0 + tileSum4 (featArr4 V c) (srcRow4 V c ((n + 1) / 40) r) d ((n + 1) % 40) = _
      rw [h0]; rfl
    · have ih := scratch4_eq c n (Nat.lt_of_succ_lt hn) r d
      have hdiv : n / 40 = (n + 1) / 40 := by omega
      have hmod : (n + 1) % 40 = n % 40 + 1 := by omega
      have hstep : (outsAt4 V c (n + 1) hn).2 (ix2 r d)
          = (outsAt4 V c n (Nat.lt_of_succ_lt hn)).2 (ix2 r d) + tileSum4 (featArr4 V c) (srcRow4 V c ((n + 1) / 40) r) d ((n + 1) % 40) := by
        by_cases h1 : (n + 1) % 40 = 39
        · exact step4_C V c ⟨n + 1, hn⟩ h0 h1 r d
        · exact step4_B V c ⟨n + 1, hn⟩ h0 h1 r d
      rw [hstep, ih, hdiv, hmod]
      rfl

/-! ## The output block at a written-back point, and the array at the end -/

/-- Row `e`, column `d` of what the output array ends holding: the feature row the edge's source word names (0 if it names
    none) times the edge's gate. -/
def G4row (c : Dev nD) (e : Fin 1600000) (d : Fin 64) : EReal :=
  (if hw : (srcArr4 V c (ix2 e (0 : Fin 1))).toNat < 102400 then featArr4 V c (ix2 ⟨(srcArr4 V c (ix2 e (0 : Fin 1))).toNat, hw⟩ d) else 0)
    * gateArr4 V c (ix2 e (0 : Fin 1))

/-- The whole output array at the end of the region. -/
def G4 (c : Dev nD) : Vec Ideal S1600000x64 .bf16 := fun i => G4row V c (i 0) (i 1)

/-- At the last node tile the output block is the scratch, entry by entry, times the edge's gate. -/
theorem out4_C_val (c : Dev nD) (t : Fin cfg4.N) (h0 : ¬t.val % 40 = 0) (h1 : t.val % 40 = 39) (r : Fin 1280) (d : Fin 64) :
    (outsAt4 V c t.val t.isLt).1 (ix2 r d)
      = (outsAt4 V c t.val t.isLt).2 (ix2 r d) * gateArr4 V c (ix2 ⟨t.val / 40 * 1280 + r.val, edge4_lt t r⟩ (0 : Fin 1)) := by
  rw [outsAt4_C V c t h0 h1]
  dsimp only
  refine (congrFun (out4_C_eq (F := Ideal) c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) (ix2 r d)).trans ?_
  refine (k4_pay3_apply _ (iblk4 V c 1 t) r d).trans ?_
  rw [iblk4_1_apply V c t r (edge4_lt t r)]
  refine congrArg (· * gateArr4 V c (ix2 ⟨t.val / 40 * 1280 + r.val, edge4_lt t r⟩ (0 : Fin 1))) ?_
  exact (congrFun (sout4_C_eq (F := Ideal) c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) (ix2 r d)).symm

/-- So at a written-back point the output block's entry `(r, d)` is row `(t / 40) * 1280 + r`, column `d` of `G4`. -/
theorem out4_at_flush (c : Dev nD) (t : Fin cfg4.N) (h1 : t.val % 40 = 39) (r : Fin 1280) (d : Fin 64) :
    (outsAt4 V c t.val t.isLt).1 (ix2 r d) = G4row V c ⟨t.val / 40 * 1280 + r.val, edge4_lt t r⟩ d := by
  have h0 : ¬t.val % 40 = 0 := by omega
  rw [out4_C_val V c t h0 h1 r d, scratch4_eq V c t.val t.isLt r d, h1, accum_tileSum4_last, srcRow4_eq]
  rfl

/-- What a written-back point writes back is its block of `G4`. -/
theorem flushed4_eq (c : Dev nD) (t : Fin cfg4.N) (hf : (cfg4.win 3).flush t = true) :
    (dat4 (F := Ideal) V c).flushed 3 t = ((cfg4.win 3).blk t).view.read (Elt Ideal) (G4 V c) := by
  have h1 : t.val % 40 = 39 := by
    by_contra h
    rw [noFlush4_3 t h] at hf
    exact Bool.false_ne_true hf
  show (cfg4.win 3).cut (grid4.coords t) ((dat4 (F := Ideal) V c).after 3 t) = _
  rw [after4_3]
  funext j
  obtain ⟨r, d, rfl⟩ : ∃ (r : Fin 1280) (d : Fin 64), j = ix2 r d := ⟨j 0, j 1, eq_ix2 j⟩
  have e0 : (((cfg4.win 3).blk t).view.emb (ix2 r d) : S1600000x64.Idx) = ix2 ⟨t.val / 40 * 1280 + r.val, edge4_lt t r⟩ d := by
    funext a
    apply Fin.ext
    match a with
    | ⟨0, _⟩ =>
      show win4_3.index t 0 * 1280 + 1 * r.val = t.val / 40 * 1280 + r.val
      rw [show win4_3.index t 0 = t.val / 40 from tr4_3_0 t]; omega
    | ⟨1, _⟩ =>
      show win4_3.index t 1 * 64 + 1 * d.val = d.val
      rw [show win4_3.index t 1 = 0 from rfl]; omega
  show (outsAt4 V c t.val t.isLt).1 (ix2 r d) = G4 V c (((cfg4.win 3).blk t).view.emb (ix2 r d))
  rw [e0, out4_at_flush V c t h1 r d]
  rfl

/-- The output array after the region: every row written by the last point of its edge block. -/
theorem arrAt4_out_eq (c : Dev nD) : (dat4 (F := Ideal) V c).arrAt 3 cfg4.N = G4 V c :=
  (dat4 (F := Ideal) V c).arrAt_eq_of_cover 3 (G4 V c) (flushed4_eq V c) cover4_3

/-- Row `e` of the output array, when the edge's source word names a feature row: that row times the edge's gate. -/
theorem arrAt4_out (c : Dev nD) (e : Fin 1600000) (d : Fin 64) (hrow : (srcArr4 V c (ix2 e (0 : Fin 1))).toNat < 102400) :
    (dat4 (F := Ideal) V c).arrAt 3 cfg4.N (ix2 e d)
      = featArr4 V c (ix2 ⟨(srcArr4 V c (ix2 e (0 : Fin 1))).toNat, hrow⟩ d) * gateArr4 V c (ix2 e (0 : Fin 1)) := by
  refine (congrFun (arrAt4_out_eq V c) (ix2 e d)).trans ?_
  show G4row V c e d = _
  unfold G4row
  rw [dif_pos hrow]

/-! ## The input windows' arrays are left as the region found them -/

theorem arrAt4_in_0 (c : Dev nD) (n : ℕ) : (dat4 (F := Ideal) V c).arrAt 0 n = V c main_v20 :=
  ((dat4 (F := Ideal) V c).arrAt_in 0 rfl n).trans (A_eq4 V c 0)
theorem arrAt4_in_1 (c : Dev nD) (n : ℕ) : (dat4 (F := Ideal) V c).arrAt 1 n = V c main_v22 :=
  ((dat4 (F := Ideal) V c).arrAt_in 1 rfl n).trans (A_eq4 V c 1)
theorem arrAt4_in_2 (c : Dev nD) (n : ℕ) : (dat4 (F := Ideal) V c).arrAt 2 n = V c main_v33 :=
  ((dat4 (F := Ideal) V c).arrAt_in 2 rfl n).trans (A_eq4 V c 2)

end Cert.KernelIdeal.H

end
-- ==== Proof.KI.V5Pay.lean ====
import proofs.«421344_j1254130450614_1_alg».proof.Proof.Gen.KernelIdeal.Skeleton
import proofs.«421344_j1254130450614_1_alg».proof.Proof.KI.V2Pay
import proofs.«421344_j1254130450614_1_alg».proof.Proof.Spec
import Idealize.ShloMosaic.Lib.ValueLayout
import Idealize.ShloMosaic.PureOps.Ideal.Laws

/-!
The first two values region 5 stores (the reset of the accumulator and its update), read at one entry (r, d) at the ideal
values, with the row-mean lemmas at the row width of this region. The third value, the row normalisation, is read in the module beside this one.
-/

noncomputable section

namespace Cert.KernelIdeal.H

open Cert.KernelIdeal Cert.KernelIdeal.Gen
open Idealize.ShloMosaic Idealize.ShloMosaic.ValueIdx
open scoped BigOperators

/-! ## The reset payload -/

/-- The reset stores the zero block. -/
theorem k5_pay1_apply (r : Fin 2560) (d : Fin 64) : (k5_pay1 (F := Ideal)) (ix2 r d) = 0 := by
  unfold k5_pay1
  rw [shapeCast_self]
  show Ideal.ofBits .f32 0x00000000#32 = 0
  exact Ideal.ofBits_zero_f32

/-! ## The row-normalisation payload -/

/-- A lane sum with the zero accumulator: at row `r`, the sum of the row's 64 entries. -/
theorem lane_sum5 (v : FVec Ideal S2560x64 .f32) (r : Fin 2560) :
    multiReduction .add [1] S2560 v 0x00000000#32 reduces_S2560x64_S2560 (.inl rfl) rfl (ix1 r)
      = ∑ d : Fin 64, v (ix2 r d) := by
  refine (Ideal.multiReduction_add_single v 0x00000000#32 reduces_S2560x64_S2560 (.inl rfl) rfl (ix1 r)).trans ?_
  refine Finset.sum_congr rfl fun d _ => congrArg v ?_
  funext a
  match a with
  | ⟨0, _⟩ => rfl
  | ⟨1, _⟩ => rfl

/-- The column of row means of a block: each row's lane sum divided by the row length's literal. -/
def meanCol5 (v : FVec Ideal S2560x64 .f32) : FVec Ideal S2560x1 .f32 :=
  divf (shapeCast S2560x1 (multiReduction .add [1] S2560 v 0x00000000#32 reduces_S2560x64_S2560 (.inl rfl) rfl)
      shapeCasts_S2560_S2560x1)
    (broadcast S2560x1 (Scalar.ofBits .f32 0x42800000#32))

/-- The mean column at row `r` is the row's mean. -/
theorem meanCol5_apply (v : FVec Ideal S2560x64 .f32) (r : Fin 2560) (u : Fin 1) :
    meanCol5 v (ix2 r u)
      = Cert.Spec.mean (Ideal.ofBits .f32 0x42800000#32) (fun r d => v (ix2 r d)) r := by
  show Ideal.div (shapeCast S2560x1 _ shapeCasts_S2560_S2560x1 (ix2 r u)) (Ideal.ofBits .f32 0x42800000#32) = _
  rw [shapeCast_a_a1_apply, lane_sum5]
  rfl

/-! ## The update payload: a one-hot product added to the accumulator -/

/-- The left operand's row coordinate is the output's row … -/
theorem lhs_d5_0 (j : S2560x64.Idx) (k : dot_S2560x1280_S1280x64_S2560x64_1_0_0_1_n_n.contr.Idx) :
    (dot_S2560x1280_S1280x64_S2560x64_1_0_0_1_n_n.lhsIdx j k 0).val = (j 0).val := rfl
/-- … its column coordinate the contraction position … -/
theorem lhs_d5_1 (j : S2560x64.Idx) (k : dot_S2560x1280_S1280x64_S2560x64_1_0_0_1_n_n.contr.Idx) :
    (dot_S2560x1280_S1280x64_S2560x64_1_0_0_1_n_n.lhsIdx j k 1).val = (k ⟨0, by decide⟩).val :=
  dot_S2560x1280_S1280x64_S2560x64_1_0_0_1_n_n.lhsIdx_val_of_single rfl j k
/-- … the right operand's row coordinate the contraction position … -/
theorem rhs_d5_0 (j : S2560x64.Idx) (k : dot_S2560x1280_S1280x64_S2560x64_1_0_0_1_n_n.contr.Idx) :
    (dot_S2560x1280_S1280x64_S2560x64_1_0_0_1_n_n.rhsIdx j k 0).val = (k ⟨0, by decide⟩).val :=
  dot_S2560x1280_S1280x64_S2560x64_1_0_0_1_n_n.rhsIdx_val_of_single rfl j k
/-- … and its column coordinate the output's column. -/
theorem rhs_d5_1 (j : S2560x64.Idx) (k : dot_S2560x1280_S1280x64_S2560x64_1_0_0_1_n_n.contr.Idx) :
    (dot_S2560x1280_S1280x64_S2560x64_1_0_0_1_n_n.rhsIdx j k 1).val = (j 1).val := rfl

/-- The product into the zero accumulator at `(r, d)`: row `r` of the left operand against column `d` of the right. -/
theorem matmul5_apply (a : FVec Ideal S2560x1280 .bf16) (b : FVec Ideal S1280x64 .bf16) (r : Fin 2560) (d : Fin 64) :
    matmul dot_S2560x1280_S1280x64_S2560x64_1_0_0_1_n_n none a b (constant S2560x64 .f32 0x00000000#32) (ix2 r d)
      = ∑ q : Fin 1280, a (ix2 r q) * b (ix2 q d) := by
  refine (Ideal.matmul_constant_zero_apply dot_S2560x1280_S1280x64_S2560x64_1_0_0_1_n_n none a b (ix2 r d)).trans ?_
  refine (Equiv.sum_comp (contrEquiv1 dot_S2560x1280_S1280x64_S2560x64_1_0_0_1_n_n 1280 rfl rfl).symm _).symm.trans ?_
  refine Finset.sum_congr rfl fun q _ => ?_
  have hk := contrEquiv1_symm_val dot_S2560x1280_S1280x64_S2560x64_1_0_0_1_n_n 1280 rfl rfl q
  congr 1
  · refine congrArg a (funext fun ax => Fin.ext ?_)
    match ax with
    | ⟨0, _⟩ => exact lhs_d5_0 _ _
    | ⟨1, _⟩ => exact (lhs_d5_1 _ _).trans hk
  · refine congrArg b (funext fun ax => Fin.ext ?_)
    match ax with
    | ⟨0, _⟩ => exact (rhs_d5_0 _ _).trans hk
    | ⟨1, _⟩ => exact rhs_d5_1 _ _

/-- The one-hot block of a grid point: entry `(r, q)` compares the row's word with the target word of edge `q`. -/
def onehot5 (i : grid5.Coords) (v7 : Vec Ideal S1x1280 .i32) : FVec Ideal S2560x1280 .bf16 :=
  truncf .bf16 (sitofp .f32 (extui 32 (cmpi .eq
    (broadcastTo S2560x1280
      (addi (iota .tc S2560x1 32 [0] iota_S2560x1_d0_w32)
        (broadcast S2560x1 (Scalar.muli (BitVec.ofNat 32 (i 0).val) 2560#32)))
      broadcasts_S2560x1_S2560x1280)
    (broadcastTo S2560x1280 (shapeCast S1x1280 v7 shapeCasts_S1x1280_S1x1280) broadcasts_S1x1280_S2560x1280))
    natLt_1_32)) bitsLt_bf16_f32

theorem onehot5_apply (i : grid5.Coords) (v7 : Vec Ideal S1x1280 .i32) (r : Fin 2560) (q : Fin 1280) :
    onehot5 i v7 (ix2 r q)
      = if BitVec.ofNat 32 (r.val + (i 0).val * 2560) = v7 (ix2 0 q) then 1 else 0 := by
  show (FloatOps.sitofp .f32 ((IntOp.cmpi .eq
      (broadcastTo S2560x1280 _ broadcasts_S2560x1_S2560x1280 (ix2 r q))
      (broadcastTo S2560x1280 _ broadcasts_S1x1280_S2560x1280 (ix2 r q))).setWidth 32) : Ideal .f32) = _
  rw [broadcastTo_a1_ab_apply, broadcastTo_1b_ab_apply, shapeCast_self, onehot_val]
  show (if IntOp.addi (iota .tc S2560x1 32 [0] iota_S2560x1_d0_w32 (ix2 r (0 : Fin 1)))
        (Scalar.muli (BitVec.ofNat 32 (i 0).val) 2560#32) = v7 (ix2 0 q) then (1 : EReal) else 0) = _
  rw [iota_single_apply]
  show (if IntOp.addi (BitVec.ofNat 32 r.val) (Scalar.muli (BitVec.ofNat 32 (i 0).val) 2560#32) = v7 (ix2 0 q)
        then (1 : EReal) else 0) = _
  rw [row_word]

/-- The payload as one expression in the one-hot block. -/
theorem k5_pay2_eq (i : grid5.Coords) (v7 : Vec Ideal S1x1280 .i32) (v15 : Vec Ideal S2560x64 .f32)
    (v16 : Vec Ideal S1280x64 .bf16) :
    k5_pay2 i v7 v15 v16
      = shapeCast S2560x64
          (addf v15 (matmul (φ₁ := .bf16) (φ₂ := .bf16) dot_S2560x1280_S1280x64_S2560x64_1_0_0_1_n_n none (onehot5 i v7)
            (shapeCast S1280x64 v16 shapeCasts_S1280x64_S1280x64 : FVec Ideal S1280x64 .bf16)
            (constant S2560x64 .f32 0x00000000#32)))
          shapeCasts_S2560x64_S2560x64 := rfl

/-- The update payload at `(r, d)`: the accumulator there plus the rows of the edge tile whose target is this row. -/
theorem k5_pay2_apply (i : grid5.Coords) (v7 : Vec Ideal S1x1280 .i32) (v15 : Vec Ideal S2560x64 .f32)
    (v16 : Vec Ideal S1280x64 .bf16) (r : Fin 2560) (d : Fin 64) :
    k5_pay2 i v7 v15 v16 (ix2 r d)
      = v15 (ix2 r d) + ∑ q : Fin 1280,
          (if BitVec.ofNat 32 (r.val + (i 0).val * 2560) = v7 (ix2 0 q) then 1 else 0) * v16 (ix2 q d) := by
  rw [k5_pay2_eq, shapeCast_self, addf_apply, matmul5_apply]
  refine congrArg (v15 (ix2 r d) + ·) (Finset.sum_congr rfl fun q _ => ?_)
  rw [onehot5_apply, shapeCast_self]

end Cert.KernelIdeal.H

end
-- ==== Proof.KI.V5Pay3.lean ====
import proofs.«421344_j1254130450614_1_alg».proof.Proof.KI.V5Pay

/-!
The third value region 5's body stores, read at one entry `(r, d)` at the ideal values.

At the last edge tile of a block of node rows the body adds the residual block (the previous layer's output rows of
the same nodes) to the accumulated block, and writes out the sum's rows normalised to zero mean and unit variance (the
divisor is the row length 64, as the program's own literal), scaled by the gain row, shifted by the bias row and
clamped at zero.
-/

noncomputable section

namespace Cert.KernelIdeal.H

open Cert.KernelIdeal Cert.KernelIdeal.Gen
open Idealize.ShloMosaic Idealize.ShloMosaic.ValueIdx
open scoped BigOperators

/-- The block that is normalised: the accumulated block plus the residual block, entry by entry. -/
def resSum5 (v26 v27 : Vec Ideal S2560x64 .f32) : FVec Ideal S2560x64 .f32 :=
  addf v26 (shapeCast S2560x64 v27 shapeCasts_S2560x64_S2560x64)

theorem resSum5_apply (v26 v27 : Vec Ideal S2560x64 .f32) (j : S2560x64.Idx) : resSum5 v26 v27 j = v26 j + v27 j := by
  unfold resSum5
  rw [addf_apply, shapeCast_self]

/-- The payload as one expression in the summed block and its mean column. -/
theorem k5_pay3_eq (v26 v27 : Vec Ideal S2560x64 .f32) (v48 : Vec Ideal S1x64 .f32) (v52 : Vec Ideal S1x64 .f32) :
    k5_pay3 v26 v27 v48 v52
      = maximumf
          (addf
            (mulf
              (mulf (subf (resSum5 v26 v27) (broadcastTo S2560x64 (meanCol5 (resSum5 v26 v27)) broadcasts_S2560x1_S2560x64))
                (broadcastTo S2560x64
                  (rsqrt (addf
                    (meanCol5 (mulf (subf (resSum5 v26 v27) (broadcastTo S2560x64 (meanCol5 (resSum5 v26 v27)) broadcasts_S2560x1_S2560x64))
                                    (subf (resSum5 v26 v27) (broadcastTo S2560x64 (meanCol5 (resSum5 v26 v27)) broadcasts_S2560x1_S2560x64))))
                    (broadcast S2560x1 (Scalar.ofBits .f32 0x3727C5AC#32))))
                  broadcasts_S2560x1_S2560x64))
              (broadcastTo S2560x64 (shapeCast S1x64 v48 shapeCasts_S1x64_S1x64) broadcasts_S1x64_S2560x64))
            (broadcastTo S2560x64 (shapeCast S1x64 v52 shapeCasts_S1x64_S1x64) broadcasts_S1x64_S2560x64))
          (broadcast S2560x64 (Scalar.ofBits .f32 0x00000000#32)) := rfl

/-- The flush payload at `(r, d)`: the row normalisation of the accumulated block plus the residual block, clamped
    at zero. -/
theorem k5_pay3_apply (v26 v27 : Vec Ideal S2560x64 .f32) (v48 : Vec Ideal S1x64 .f32) (v52 : Vec Ideal S1x64 .f32)
    (r : Fin 2560) (d : Fin 64) :
    k5_pay3 v26 v27 v48 v52 (ix2 r d)
      = Cert.Spec.relu (Cert.Spec.normMul (Ideal.ofBits .f32 0x42800000#32) (Ideal.ofBits .f32 0x3727C5AC#32)
          (fun r d => v26 (ix2 r d) + v27 (ix2 r d)) (fun d => v48 (ix2 0 d)) (fun d => v52 (ix2 0 d)) r d) := by
  rw [k5_pay3_eq]
  simp only [maximumf_apply, addf_apply, mulf_apply, subf_apply, rsqrt_apply, broadcast_apply,
    broadcastTo_a1_ab_apply, broadcastTo_1b_ab_apply, shapeCast_self, meanCol5_apply, resSum5_apply, scalar_ofBits,
    Ideal.ofBits_zero_f32]
  rfl

end Cert.KernelIdeal.H

end
-- ==== Proof.KI.V5Pieces.lean ====
/- Region 5 (scatter by a one-hot matrix product into an accumulator carried across the grid's second axis, then a
   row normalisation of the accumulator plus a residual block): WHAT EACH CASE OF THE BODY LEAVES, as the skeleton's
   payloads of the blocks it read.
   Case A (second coordinate 0): the accumulator is filled with zeros, read back, and updated: it ends at the update of
   the zero block. Cases B and C: it ends at the update of what the point before left. Case C (second coordinate
   1249) also stores the output block: the normalisation of the accumulator just updated plus the residual block, by
   the scale and shift rows, clamped at zero. Each store writes its whole buffer at zero offsets, so what the writes leave reads back as
   the last store's payload, and every load through the whole-buffer rectangle reads the buffer's contents. -/
import proofs.«421344_j1254130450614_1_alg».proof.Proof.KI.R5
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every load and store of the body, however spelt. -/
theorem hz5 : (![0, 0] : Fin 2 → Nat) = fun _ => 0 := funext fun a => by fin_cases a <;> rfl

/-- CASE A: the accumulator ends at the update, by the index block `x0` and the message block `x1`, of the zero block:
    the zero fill is read back by the update's load, and the update's store covers the buffer. -/
theorem sout5_A_0_eq (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : cond5_0 i) (hc1 : ¬cond5_1 i)
    (x0 : Vec F S1x1280 .i32) (x1 : Vec F S1280x64 .bf16) (x2 : Vec F S1x64 .f32) (x3 : Vec F S1x64 .f32) (x4 : Vec F S2560x64 .f32) :
    sout5_A_0 c i arg2 harg2 arg3 harg3 arg4 harg4 arg5 harg5 arg6 harg6 arg7 harg7 arg8 harg8 hc0 hc1 x0 x1 x2 x3 x4 = k5_pay2 i x0 (k5_pay1 (F := F)) x1 := by
  unfold sout5_A_0
  rw [View.read_writes_eq_canon _ _ _ (scover5_A_0 c i arg2 harg2 arg3 harg3 arg4 harg4 arg5 harg5 arg6 harg6 arg7 harg7 arg8 harg8 hc0 hc1 x0 x1 x2 x3 x4)]
  unfold kernelRun5_A
  dsimp only
  sl_unfold_words
  rw [View.canon_cons_unit_zero (S := S2560x64) hz5, View.readCov_unit_zero (S := S2560x64) _ hz5]
  simp only [View.readAt_eq_ld, harg2.read_unread, harg3.read_unread, View.ld_unit_zero (S := S1x1280) hz5, View.ld_unit_zero (S := S1280x64) hz5]

/-- CASE B: the accumulator ends at the update of `xs0`, what the point before left in it. -/
theorem sout5_B_0_eq (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : ¬cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    sout5_B_0 c i arg2 harg2 arg3 harg3 arg4 harg4 arg5 harg5 arg6 harg6 arg7 harg7 arg8 harg8 hc0 hc1 x0 x1 x2 x3 x4 xs0 = k5_pay2 i x0 xs0 x1 := by
  unfold sout5_B_0
  rw [View.read_writes_eq_canon _ _ _ (scover5_B_0 c i arg2 harg2 arg3 harg3 arg4 harg4 arg5 harg5 arg6 harg6 arg7 harg7 arg8 harg8 hc0 hc1 x0 x1 x2 x3 x4 xs0)]
  unfold kernelRun5_B
  dsimp only
  sl_unfold_words
  rw [View.canon_unit_zero hz5]
  simp only [View.readAt_eq_ld, harg2.read_unread, harg3.read_unread, harg8.read_unread, View.ld_unit_zero (S := S1x1280) hz5,
    View.ld_unit_zero (S := S1280x64) hz5, View.ld_unit_zero (S := S2560x64) hz5]

/-- CASE C: the accumulator ends at the update of `xs0`, as in case B. -/
theorem sout5_C_0_eq (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    sout5_C_0 c i arg2 harg2 arg3 harg3 arg4 harg4 arg5 harg5 arg6 harg6 arg7 harg7 arg8 harg8 hc0 hc1 x0 x1 x2 x3 x4 xs0 = k5_pay2 i x0 xs0 x1 := by
  unfold sout5_C_0
  rw [View.read_writes_eq_canon _ _ _ (scover5_C_0 c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero hz5]
  simp only [View.readAt_eq_ld, harg2.read_unread, harg3.read_unread, harg8.read_unread, View.ld_unit_zero (S := S1x1280) hz5,
    View.ld_unit_zero (S := S1280x64) hz5, View.ld_unit_zero (S := S2560x64) hz5]

/-- CASE C: the output block ends at the normalisation of the accumulator just updated (the store's load reads the
    update back) plus the residual block `x4`, scaled by the row `x2`, shifted by the row `x3` and clamped at zero. -/
theorem out5_C_5_eq (c : Dev nD) (i : grid5.Coords) (arg2 : Memref sig .tc .vmem S1x1280 .i32) (harg2 : arg2.IsWhole) (arg3 : Memref sig .tc .vmem S1280x64 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S2560x64 .f32) (harg6 : arg6.IsWhole) (arg7 : Memref sig .tc .vmem S2560x64 .f32) (harg7 : arg7.IsWhole) (arg8 : Memref sig .tc .vmem S2560x64 .f32) (harg8 : arg8.IsWhole) (hc0 : ¬cond5_0 i) (hc1 : cond5_1 i)
    (x0 : Vec F S1x1280 .i32) (x1 : Vec F S1280x64 .bf16) (x2 : Vec F S1x64 .f32) (x3 : Vec F S1x64 .f32) (x4 : Vec F S2560x64 .f32) (xs0 : Vec F S2560x64 .f32) :
    out5_C_5 c i arg2 harg2 arg3 harg3 arg4 harg4 arg5 harg5 arg6 harg6 arg7 harg7 arg8 harg8 hc0 hc1 x0 x1 x2 x3 x4 xs0 = k5_pay3 (k5_pay2 i x0 xs0 x1) x4 x2 x3 := by
  unfold out5_C_5
  rw [View.read_writes_eq_canon _ _ _ (cover5_C_5 c i arg2 harg2 arg3 harg3 arg4 harg4 arg5 harg5 arg6 harg6 arg7 harg7 arg8 harg8 hc0 hc1 x0 x1 x2 x3 x4 xs0)]
  unfold kernelRun5_C
  dsimp only
  sl_unfold_words
  rw [View.canon_unit_zero hz5]
  simp only [View.readCov_unit_zero (S := S2560x64) _ hz5, View.readAt_eq_ld, harg2.read_unread, harg3.read_unread, harg4.read_unread,
    harg5.read_unread, harg6.read_unread, harg8.read_unread, View.ld_unit_zero (S := S1x1280) hz5, View.ld_unit_zero (S := S1280x64) hz5,
    View.ld_unit_zero (S := S2560x64) hz5, View.ld_unit_zero (S := S1x64) hz5]

end Cert.KernelIdeal.H

end
-- ==== Proof.KI.V5.lean ====
/-
  Region 5's value over the extended reals: what the scatter and row-normalisation kernel of layer 2 leaves in its
  output array when the region ends.

  The grid has 40 x 1250 points; point t works on the block of 2560 node rows t / 1250 against the tile of 1280 edges
  t % 1250. An accumulator block is carried from point to point. At tile 0 it is reset to zero and the tile's
  contribution is added; at every later tile the tile's contribution is added to what it held. Tile i's contribution
  at entry (r, d) is the sum over the tile's edges of the indicator "the edge's target word names node row
  r + 2560 (t / 1250)" times the edge's message at lane d. So after tile i the accumulator holds the contributions of
  tiles 0 ... i (by induction on the point), and after tile 1249 it holds, for each node row of the block, the sum of
  the messages of all 1600000 edges whose target word names that row. At tile 1249 the residual block (the previous
  layer's rows of the same nodes) is added, each row of the sum is normalised to zero mean and unit variance, scaled,
  shifted and clamped at zero, and the result is stored into the output block, which is written back to rows
  (t / 1250) * 2560 ... of the output array; the 40 written-back blocks tile the array, so node row n is written by
  the last point of block n / 2560.

  Only these laws of the extended reals are used: sums in a commutative monoid, 0 + x = x, 0 * x = 0, 1 * x = x.
-/
import proofs.«421344_j1254130450614_1_alg».proof.Proof.KI.R5
import proofs.«421344_j1254130450614_1_alg».proof.Proof.KI.V5Pay3
import proofs.«421344_j1254130450614_1_alg».proof.Proof.KI.V5Pieces
import proofs.«421344_j1254130450614_1_alg».proof.Proof.LibTileSums
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Sums over the edges, tile by tile -/

section Tiles5
variable (col : Fin 1600000 → BitVec 32) (msg : Fin 1600000 → Fin 64 → EReal)

/-- What tile `i` of 1280 edges adds, at lane `d`, to the row whose word is `w` (nothing past the last tile). -/
def tileTerm5 (w : BitVec 32) (d : Fin 64) (i : ℕ) : EReal :=
  if h : i < 1250 then
    ∑ q : Fin 1280, (if w = col ⟨i * 1280 + q.val, by have := q.isLt; omega⟩ then (1 : EReal) else 0)
      * msg ⟨i * 1280 + q.val, by have := q.isLt; omega⟩ d
  else 0

/-- The 1250 tiles together: every edge whose target word is `w` contributes its message. -/
theorem tileTerm5_sum (w : BitVec 32) (d : Fin 64) :
    ∑ i ∈ Finset.range 1250, tileTerm5 col msg w d i = ∑ e : Fin 1600000, (if col e = w then msg e d else 0) := by
  rw [Finset.sum_range]
  refine Cert.LibTileSums.sum_tiles_of (A := 1250) (B := 1280) (n := 1600000) rfl
    (fun e => if col e = w then msg e d else 0) (fun i => tileTerm5 col msg w d i.val) fun i => ?_
  unfold tileTerm5
  rw [dif_pos i.isLt]
  refine Finset.sum_congr rfl fun q _ => ?_
  by_cases h : w = col ⟨i.val * 1280 + q.val, Cert.LibTileSums.tile_lt rfl i q⟩
  · rw [if_pos h, one_mul]; exact (if_pos h.symm).symm
  · rw [if_neg h, zero_mul]; exact (if_neg fun e => h e.symm).symm

end Tiles5

/-! ## The normalisation of a row depends on that row only -/

theorem normMul_row5 {N M D : ℕ} (c eps : EReal) (v : Fin N → Fin D → EReal) (w : Fin M → Fin D → EReal)
    (g b g' b' : Fin D → EReal) (n : Fin N) (m : Fin M) (h : ∀ d, v n d = w m d) (hg : ∀ d, g d = g' d)
    (hb : ∀ d, b d = b' d) (d : Fin D) :
    Cert.Spec.normMul c eps v g b n d = Cert.Spec.normMul c eps w g' b' m d := by
  have hv : v n = w m := funext h
  have hg' : g = g' := funext hg
  have hb' : b = b' := funext hb
  simp only [Cert.Spec.normMul, Cert.Spec.var, Cert.Spec.mean, hv, hg', hb']

/-! ## The region's arrays and blocks at their literal types -/

section Blocks5
variable (V : (c : Dev nD) → (b : Ref sig .tc) → Buf (Elt Ideal) ((c : Thread nD τ).loc b))

/-- The target words of the 1600000 edges, the messages, the scale, the shift and the residual rows, as the region
    finds them. -/
abbrev colArr5 (c : Dev nD) : Vec Ideal S1x1600000 .i32 := V c main_v21
abbrev msgArr5 (c : Dev nD) : Vec Ideal S1600000x64 .bf16 := V c main_v34
abbrev gArr5 (c : Dev nD) : Vec Ideal S1x64 .f32 := V c main_v35
abbrev bArr5 (c : Dev nD) : Vec Ideal S1x64 .f32 := V c main_v36
abbrev resArr5 (c : Dev nD) : Vec Ideal S102400x64 .f32 := V c main_v30

/-- The five input blocks at point `t`. -/
abbrev colBlk5 (c : Dev nD) (t : Fin cfg5.N) : Vec Ideal S1x1280 .i32 := iblk5 V c 0 t
abbrev msgBlk5 (c : Dev nD) (t : Fin cfg5.N) : Vec Ideal S1280x64 .bf16 := iblk5 V c 1 t
abbrev gBlk5 (c : Dev nD) (t : Fin cfg5.N) : Vec Ideal S1x64 .f32 := iblk5 V c 2 t
abbrev bBlk5 (c : Dev nD) (t : Fin cfg5.N) : Vec Ideal S1x64 .f32 := iblk5 V c 3 t
abbrev resBlk5 (c : Dev nD) (t : Fin cfg5.N) : Vec Ideal S2560x64 .f32 := iblk5 V c 4 t

/-- A number below `2 ^ 32`, as a 32-bit word and back, is itself. -/
theorem word_nat5 (x : ℕ) (hx : x < 4294967296) : (BitVec.ofNat 32 x).toNat = x := by
  rw [BitVec.toNat_ofNat]; exact Nat.mod_eq_of_lt hx

/-- The first coordinate of a point is its block of node rows. -/
theorem coords5_0' (t : Fin cfg5.N) : (grid5.coords t 0).val = t.val / 1250 := by
  rw [coords5_0 t]; have := lt_N5 t; exact Nat.mod_eq_of_lt (by omega)

/-- Edge `q` of the tile at point `t` is edge `(t mod 1250) · 1280 + q`: its target word … -/
theorem colBlk5_apply (c : Dev nD) (t : Fin cfg5.N) (q : Fin 1280) :
    colBlk5 V c t (ix2 0 q)
      = colArr5 V c (ix2 0 ⟨t.val % 1250 * 1280 + q.val, by have := q.isLt; have := Nat.mod_lt t.val (show 1250 > 0 by decide); omega⟩) := by
  show ((cfg5.win 0).blk t).view.read (Elt Ideal) (V c main_v21) (ix2 0 q) = _
  rw [View.read_apply]
  refine congrArg (V c main_v21) (funext fun a => Fin.ext ?_)
  have h1 : win5_0.index t 1 = t.val % 1250 := by
    show (BitVec.ofNat 32 (grid5.coords t 1).val).toNat = _
    rw [coords5_1 t]; exact word_nat5 _ (by have := Nat.mod_lt t.val (show 1250 > 0 by decide); omega)
  match a with
  | ⟨0, _⟩ => show win5_0.index t 0 * 1 + 1 * 0 = 0; show (0#32 : BitVec 32).toNat * 1 + 1 * 0 = 0; rfl
  | ⟨1, _⟩ => show win5_0.index t 1 * 1280 + 1 * q.val = t.val % 1250 * 1280 + q.val; rw [h1]; omega

/-- … and its message row. -/
theorem msgBlk5_apply (c : Dev nD) (t : Fin cfg5.N) (q : Fin 1280) (d : Fin 64) :
    msgBlk5 V c t (ix2 q d)
      = msgArr5 V c (ix2 ⟨t.val % 1250 * 1280 + q.val, by have := q.isLt; have := Nat.mod_lt t.val (show 1250 > 0 by decide); omega⟩ d) := by
  show ((cfg5.win 1).blk t).view.read (Elt Ideal) (V c main_v34) (ix2 q d) = _
  rw [View.read_apply]
  refine congrArg (V c main_v34) (funext fun a => Fin.ext ?_)
  have h0 : win5_1.index t 0 = t.val % 1250 := by
    show (BitVec.ofNat 32 (grid5.coords t 1).val).toNat = _
    rw [coords5_1 t]; exact word_nat5 _ (by have := Nat.mod_lt t.val (show 1250 > 0 by decide); omega)
  match a with
  | ⟨0, _⟩ => show win5_1.index t 0 * 1280 + 1 * q.val = t.val % 1250 * 1280 + q.val; rw [h0]; omega
  | ⟨1, _⟩ => show win5_1.index t 1 * 64 + 1 * d.val = d.val; show (0#32 : BitVec 32).toNat * 64 + 1 * d.val = d.val; simp

/-- The scale and the shift are one block each: every point reads the whole row. -/
theorem gBlk5_apply (c : Dev nD) (t : Fin cfg5.N) (d : Fin 64) : gBlk5 V c t (ix2 0 d) = gArr5 V c (ix2 0 d) := by
  show ((cfg5.win 2).blk t).view.read (Elt Ideal) (V c main_v35) (ix2 0 d) = _
  rw [View.read_apply]
  refine congrArg (V c main_v35) (funext fun a => Fin.ext ?_)
  match a with
  | ⟨0, _⟩ => show (0#32 : BitVec 32).toNat * 1 + 1 * 0 = 0; rfl
  | ⟨1, _⟩ => show (0#32 : BitVec 32).toNat * 64 + 1 * d.val = d.val; simp

theorem bBlk5_apply (c : Dev nD) (t : Fin cfg5.N) (d : Fin 64) : bBlk5 V c t (ix2 0 d) = bArr5 V c (ix2 0 d) := by
  show ((cfg5.win 3).blk t).view.read (Elt Ideal) (V c main_v36) (ix2 0 d) = _
  rw [View.read_apply]
  refine congrArg (V c main_v36) (funext fun a => Fin.ext ?_)
  match a with
  | ⟨0, _⟩ => show (0#32 : BitVec 32).toNat * 1 + 1 * 0 = 0; rfl
  | ⟨1, _⟩ => show (0#32 : BitVec 32).toNat * 64 + 1 * d.val = d.val; simp

/-- Row `r` of the residual block at point `t` is residual row `(t / 1250) · 2560 + r`: the block of node rows the
    point works on, all 64 lanes. -/
theorem resBlk5_apply (c : Dev nD) (t : Fin cfg5.N) (r : Fin 2560) (d : Fin 64) (hn : t.val / 1250 * 2560 + r.val < 102400) :
    resBlk5 V c t (ix2 r d) = resArr5 V c (ix2 (⟨t.val / 1250 * 2560 + r.val, hn⟩ : Fin 102400) d) := by
  show ((cfg5.win 4).blk t).view.read (Elt Ideal) (V c main_v30) (ix2 r d) = _
  rw [View.read_apply]
  refine congrArg (V c main_v30) (funext fun a => Fin.ext ?_)
  have h0 : win5_4.index t 0 = t.val / 1250 := by
    show (BitVec.ofNat 32 (grid5.coords t 0).val).toNat = _
    rw [coords5_0' t]; have := lt_N5 t; exact word_nat5 _ (by omega)
  match a with
  | ⟨0, _⟩ => show win5_4.index t 0 * 2560 + 1 * r.val = t.val / 1250 * 2560 + r.val; rw [h0]; omega
  | ⟨1, _⟩ => show win5_4.index t 1 * 64 + 1 * d.val = d.val; show (0#32 : BitVec 32).toNat * 64 + 1 * d.val = d.val; simp

/-- THE UPDATE AT A POINT: over an accumulator `xs`, entry `(r, d)` gains what the point's tile of edges sends to
    node row `r` of the point's block. -/
theorem pay5_at (c : Dev nD) (t : Fin cfg5.N) (xs : Vec Ideal S2560x64 .f32) (r : Fin 2560) (d : Fin 64) :
    k5_pay2 (grid5.coords t) (colBlk5 V c t) xs (msgBlk5 V c t) (ix2 r d)
      = xs (ix2 r d) + tileTerm5 (fun e => colArr5 V c (ix2 0 e)) (fun e d => msgArr5 V c (ix2 e d))
          (BitVec.ofNat 32 (r.val + t.val / 1250 * 2560)) d (t.val % 1250) := by
  rw [k5_pay2_apply, coords5_0']
  refine congrArg (xs (ix2 r d) + ·) ?_
  unfold tileTerm5
  rw [dif_pos (Nat.mod_lt _ (by decide))]
  refine Finset.sum_congr rfl fun q _ => ?_
  rw [colBlk5_apply, msgBlk5_apply]

end Blocks5

/-! ## What the accumulator holds after each point -/

section Acc5
variable (V : (c : Dev nD) → (b : Ref sig .tc) → Buf (Elt Ideal) ((c : Thread nD τ).loc b))

/-- The edges' target words and messages, and the residual rows, as plain functions. -/
abbrev colF5 (c : Dev nD) : Fin 1600000 → BitVec 32 := fun e => colArr5 V c (ix2 0 e)
abbrev msgF5 (c : Dev nD) : Fin 1600000 → Fin 64 → EReal := fun e d => msgArr5 V c (ix2 e d)
abbrev resF5 (c : Dev nD) : Fin 102400 → Fin 64 → EReal := fun n d => resArr5 V c (ix2 n d)

/-- At the first tile of a block of rows the accumulator is reset and holds that tile's contribution. -/
theorem acc5_first (c : Dev nD) (t : Fin cfg5.N) (h0 : t.val % 1250 = 0) (r : Fin 2560) (d : Fin 64) :
    (outsAt5 V c t.val t.isLt).2 (ix2 r d)
      = tileTerm5 (colF5 V c) (msgF5 V c) (BitVec.ofNat 32 (r.val + t.val / 1250 * 2560)) d 0 := by
  have h1 : ¬t.val % 1250 = 1249 := by omega
  rw [outsAt5_A V c t h0 h1]
  dsimp only
  refine (congrFun (sout5_A_0_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) (ix2 r d)).trans ?_
  refine (pay5_at V c t (k5_pay1 (F := Ideal)) r d).trans ?_
  rw [k5_pay1_apply, zero_add, h0]

/-- At every later tile it gains that tile's contribution. -/
theorem acc5_next (c : Dev nD) (t : Fin cfg5.N) (h0 : ¬t.val % 1250 = 0) (r : Fin 2560) (d : Fin 64) :
    (outsAt5 V c t.val t.isLt).2 (ix2 r d)
      = (outsAt5 V c (t.val - 1) (Nat.lt_of_le_of_lt (Nat.sub_le _ _) t.isLt)).2 (ix2 r d)
        + tileTerm5 (colF5 V c) (msgF5 V c) (BitVec.ofNat 32 (r.val + t.val / 1250 * 2560)) d (t.val % 1250) := by
  by_cases h1 : t.val % 1250 = 1249
  · rw [outsAt5_C V c t h0 h1]
    dsimp only
    refine (congrFun (sout5_C_0_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2) (ix2 r d)).trans ?_
    exact pay5_at V c t _ r d
  · rw [outsAt5_B V c t h0 h1]
    dsimp only
    refine (congrFun (sout5_B_0_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) (ix2 r d)).trans ?_
    exact pay5_at V c t _ r d

/-- So after point `n` it holds the contributions of the tiles `0 … n mod 1250` to the rows of block `n / 1250`. -/
theorem acc5_eq (c : Dev nD) : ∀ (n : ℕ) (hn : n < cfg5.N) (r : Fin 2560) (d : Fin 64),
    (outsAt5 V c n hn).2 (ix2 r d)
      = ∑ i ∈ Finset.range (n % 1250 + 1),
          tileTerm5 (colF5 V c) (msgF5 V c) (BitVec.ofNat 32 (r.val + n / 1250 * 2560)) d i
  | 0, hn, r, d => by
    refine (acc5_first V c ⟨0, hn⟩ (Nat.zero_mod _) r d).trans ?_
    show _ = ∑ i ∈ Finset.range (0 % 1250 + 1), _
    rw [Nat.zero_mod, Nat.zero_add, Finset.sum_range_one]
  | n + 1, hn, r, d => by
    by_cases h0 : (n + 1) % 1250 = 0
    · refine (acc5_first V c ⟨n + 1, hn⟩ h0 r d).trans ?_
      show tileTerm5 _ _ (BitVec.ofNat 32 (r.val + (n + 1) / 1250 * 2560)) d 0 = _
      rw [h0, Nat.zero_add, Finset.sum_range_one]
    · refine (acc5_next V c ⟨n + 1, hn⟩ h0 r d).trans ?_
      show (outsAt5 V c n _).2 (ix2 r d)
          + tileTerm5 _ _ (BitVec.ofNat 32 (r.val + (n + 1) / 1250 * 2560)) d ((n + 1) % 1250) = _
      rw [acc5_eq c n _ r d]
      have e1 : (n + 1) / 1250 = n / 1250 := by omega
      have e2 : (n + 1) % 1250 = n % 1250 + 1 := by omega
      rw [e1, e2]
      exact (Finset.sum_range_succ _ _).symm

end Acc5

/-! ## The output array -/

section Out5
variable (V : (c : Dev nD) → (b : Ref sig .tc) → Buf (Elt Ideal) ((c : Thread nD τ).loc b))

/-- Entry `(n, d)` of what the region's output ends holding: the messages summed onto node `n` plus the node's
    residual row, the row normalised, scaled, shifted and clamped at zero. -/
def outVal5 (c : Dev nD) (n : Fin 102400) (d : Fin 64) : EReal :=
  Cert.Spec.relu (Cert.Spec.normMul (Ideal.ofBits .f32 0x42800000#32) (Ideal.ofBits .f32 0x3727C5AC#32)
    (fun (n : Fin 102400) (d : Fin 64) => Cert.Spec.seg (colF5 V c) (msgF5 V c) n d + resF5 V c n d)
    (fun d => gArr5 V c (ix2 0 d)) (fun d => bArr5 V c (ix2 0 d)) n d)

/-- The same as contents of the output array. -/
def outArr5 (c : Dev nD) : Vec Ideal S102400x64 .f32 :=
  fun idx => outVal5 V c ⟨(idx 0).val, idx2_lt0 idx⟩ ⟨(idx 1).val, idx2_lt1 idx⟩

/-- The output's block at point `t` is the block of rows `t / 1250`, … -/
theorem index5_5_0 (t : Fin cfg5.N) : (cfg5.win 5).index t 0 = t.val / 1250 := by
  show (BitVec.ofNat 32 (grid5.coords t 0).val).toNat = _
  rw [coords5_0' t]; have := lt_N5 t; exact word_nat5 _ (by omega)
/-- … all 64 lanes. -/
theorem index5_5_1 (t : Fin cfg5.N) : (cfg5.win 5).index t 1 = 0 := rfl

/-- The last tile of a block of rows writes the block back. -/
theorem flush5_5_of (t : Fin cfg5.N) (h : t.val % 1250 = 1249) : (cfg5.win 5).flush t = true := by
  have hN := lt_N5 t
  unfold Pipeline.Window.flush
  rw [Bool.and_eq_true]
  refine ⟨rfl, ?_⟩
  rw [Bool.or_eq_true]
  by_cases hl : t.val + 1 = 50000
  · left; exact decide_eq_true (hl.trans N_5.symm)
  · right
    apply decide_eq_true
    have h' : t.val + 1 < cfg5.N := lt_of_lt_of_eq (by omega : t.val + 1 < 50000) N_5.symm
    refine ⟨h', fun e => ?_⟩
    have e0 := congrFun e 0
    rw [index5_5_0 ⟨t.val + 1, h'⟩, index5_5_0 t] at e0
    dsimp only at e0
    omega

/-- At the last tile of a block of rows, the rows of the accumulator are the segment sums of the block's nodes. -/
theorem acc5_last (c : Dev nD) (t : Fin cfg5.N) (h1 : t.val % 1250 = 1249) (r : Fin 2560) (d : Fin 64)
    (hn : t.val / 1250 * 2560 + r.val < 102400) :
    (outsAt5 V c t.val t.isLt).2 (ix2 r d) = Cert.Spec.seg (colF5 V c) (msgF5 V c) (⟨t.val / 1250 * 2560 + r.val, hn⟩ : Fin 102400) d := by
  rw [acc5_eq V c t.val t.isLt r d, h1, tileTerm5_sum]
  show _ = ∑ e, (if colF5 V c e = BitVec.ofNat 32 (t.val / 1250 * 2560 + r.val) then msgF5 V c e d else 0)
  rw [Nat.add_comm r.val]

/-- What the last tile of a block of rows leaves in the output's staging buffer. -/
theorem out5_at (c : Dev nD) (t : Fin cfg5.N) (h1 : t.val % 1250 = 1249) (r : Fin 2560) (d : Fin 64)
    (hn : t.val / 1250 * 2560 + r.val < 102400) :
    (outsAt5 V c t.val t.isLt).1 (ix2 r d) = outVal5 V c ⟨t.val / 1250 * 2560 + r.val, hn⟩ d := by
  have h0 : ¬t.val % 1250 = 0 := by omega
  have e : (outsAt5 V c t.val t.isLt).1
      = k5_pay3 (outsAt5 V c t.val t.isLt).2 (resBlk5 V c t) (gBlk5 V c t) (bBlk5 V c t) := by
    rw [outsAt5_C V c t h0 h1]
    dsimp only
    rw [out5_C_5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2,
      sout5_C_0_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2]
  refine (congrFun e (ix2 r d)).trans ?_
  refine (k5_pay3_apply _ _ _ _ r d).trans ?_
  refine congrArg Cert.Spec.relu ?_
  exact normMul_row5 _ _ _ _ _ _ _ _ r ⟨t.val / 1250 * 2560 + r.val, hn⟩
    (fun d => congrArg₂ (· + ·) (acc5_last V c t h1 r d hn) (resBlk5_apply V c t r d hn))
    (fun d => gBlk5_apply V c t d) (fun d => bBlk5_apply V c t d) d

/-- Reading any contents of the output array through a point's block is reading them at the block's entries. -/
theorem read_blk5_5 (G : Vec Ideal S102400x64 .f32) (t : Fin cfg5.N) (r : Fin 2560) (d : Fin 64) :
    ((cfg5.win 5).blk t).view.read (Elt Ideal) G (ix2 r d) = G (((cfg5.win 5).blk t).view.emb (ix2 r d)) := rfl

/-- The output's blocks are whole: what is written back of a staging buffer is the buffer. -/
theorem cut5_5 (X : Vec Ideal S2560x64 .f32) (t : Fin cfg5.N) (r : Fin 2560) (d : Fin 64) :
    (cfg5.win 5).cut (grid5.coords t) X (ix2 r d) = X (ix2 r d) := rfl

/-- Entry `(r, d)` of the block at point `t` is entry `(t / 1250 · 2560 + r, d)` of the array. -/
theorem emb5_5 (t : Fin cfg5.N) (r : Fin 2560) (d : Fin 64) (hn : t.val / 1250 * 2560 + r.val < 102400) :
    (((cfg5.win 5).blk t).view.emb (ix2 r d) : S102400x64.Idx)
      = ix2 (⟨t.val / 1250 * 2560 + r.val, hn⟩ : Fin 102400) d := by
  funext a
  apply Fin.ext
  match a with
  | ⟨0, _⟩ =>
    show (cfg5.win 5).index t 0 * 2560 + 1 * r.val = t.val / 1250 * 2560 + r.val
    rw [index5_5_0]; omega
  | ⟨1, _⟩ =>
    show (cfg5.win 5).index t 1 * 64 + 1 * d.val = d.val
    rw [index5_5_1]; omega

/-- WHAT A POINT WRITES BACK is its block of the output array's final contents. -/
theorem flushed5_5_eq (c : Dev nD) (t : Fin cfg5.N) (hf : (cfg5.win 5).flush t = true) :
    (dat5 (F := Ideal) V c).flushed 5 t = ((cfg5.win 5).blk t).view.read (Elt Ideal) (outArr5 V c) := by
  have h1 : t.val % 1250 = 1249 := by
    by_contra h
    rw [noFlush5_5_of t h] at hf
    exact Bool.false_ne_true hf
  have hN := lt_N5 t
  show (cfg5.win 5).cut (grid5.coords t) ((dat5 (F := Ideal) V c).after 5 t) = _
  rw [after5_5]
  funext y
  obtain ⟨r, d, rfl⟩ : ∃ (r : Fin 2560) (d : Fin 64), y = ix2 r d := ⟨y 0, y 1, eq_ix2 y⟩
  have hn : t.val / 1250 * 2560 + r.val < 102400 := by have := r.isLt; omega
  rw [read_blk5_5, cut5_5, emb5_5 t r d hn, out5_at V c t h1 r d hn]
  rfl

/-- Every entry of the output array lies in the block some point writes back: the last tile of its block of rows. -/
theorem cover5_5 (i : S102400x64.Idx) :
    ∃ t : Fin cfg5.N, (cfg5.win 5).flush t = true ∧ i ∈ ((cfg5.win 5).blk t).view.set := by
  have hi0 : (i 0).val < 102400 := idx2_lt0 i
  have hi1 : (i 1).val < 64 := idx2_lt1 i
  have ht : (i 0).val / 2560 * 1250 + 1249 < cfg5.N := lt_of_lt_of_eq (by omega : (i 0).val / 2560 * 1250 + 1249 < 50000) N_5.symm
  refine ⟨⟨(i 0).val / 2560 * 1250 + 1249, ht⟩, flush5_5_of _ (by dsimp only; omega), ?_⟩
  show i ∈ ((View.whole main_v37).slice (win5_5.rect ⟨(i 0).val / 2560 * 1250 + 1249, ht⟩)).set
  rw [View.set_slice_whole, Rect.mem_set_unit]
  intro a
  match a with
  | ⟨0, _⟩ =>
    show (cfg5.win 5).index ⟨_, ht⟩ 0 * 2560 ≤ (i 0).val ∧ (i 0).val < (cfg5.win 5).index ⟨_, ht⟩ 0 * 2560 + win5_5.xsize (grid5.coords ⟨_, ht⟩) 0
    rw [index5_5_0, show win5_5.xsize (grid5.coords ⟨_, ht⟩) 0 = 2560 from rfl]; dsimp only; omega
  | ⟨1, _⟩ =>
    show (cfg5.win 5).index ⟨_, ht⟩ 1 * 64 ≤ (i 1).val ∧ (i 1).val < (cfg5.win 5).index ⟨_, ht⟩ 1 * 64 + win5_5.xsize (grid5.coords ⟨_, ht⟩) 1
    rw [index5_5_1, show win5_5.xsize (grid5.coords ⟨_, ht⟩) 1 = 64 from rfl]; omega

/-- THE OUTPUT ARRAY after the region. -/
theorem arrAt5_final (c : Dev nD) : (dat5 (F := Ideal) V c).arrAt 5 cfg5.N = outArr5 V c :=
  (dat5 (F := Ideal) V c).arrAt_eq_of_cover 5 (outArr5 V c) (flushed5_5_eq V c) cover5_5

/-- Entry `(n, d)` of the output array after the region. -/
theorem arrAt5_out (c : Dev nD) (n : Fin 102400) (d : Fin 64) :
    (dat5 (F := Ideal) V c).arrAt 5 cfg5.N (ix2 n d)
      = Cert.Spec.relu (Cert.Spec.normMul (Ideal.ofBits .f32 0x42800000#32) (Ideal.ofBits .f32 0x3727C5AC#32)
          (fun (n : Fin 102400) (d : Fin 64) =>
            Cert.Spec.seg (fun e => colArr5 V c (ix2 0 e)) (fun e d => msgArr5 V c (ix2 e d)) n d + resArr5 V c (ix2 n d))
          (fun d => gArr5 V c (ix2 0 d)) (fun d => bArr5 V c (ix2 0 d)) n d) :=
  congrFun (arrAt5_final V c) (ix2 n d)

/-! ## The input windows' arrays are left as the region found them -/

theorem arrAt5_in (c : Dev nD) (w : Fin cfg5.W) (hw : (cfg5.win w).isOut = false) (t : ℕ) :
    (dat5 (F := Ideal) V c).arrAt w t = V c (Pipeline.arrRef spec5 w) :=
  ((dat5 (F := Ideal) V c).arrAt_in w hw t).trans (A_eq5 V c w)

theorem arrAt5_in_0 (c : Dev nD) (n : ℕ) : (dat5 (F := Ideal) V c).arrAt 0 n = V c main_v21 :=
  ((dat5 (F := Ideal) V c).arrAt_in 0 rfl n).trans (A_eq5 V c 0)
theorem arrAt5_in_1 (c : Dev nD) (n : ℕ) : (dat5 (F := Ideal) V c).arrAt 1 n = V c main_v34 :=
  ((dat5 (F := Ideal) V c).arrAt_in 1 rfl n).trans (A_eq5 V c 1)
theorem arrAt5_in_2 (c : Dev nD) (n : ℕ) : (dat5 (F := Ideal) V c).arrAt 2 n = V c main_v35 :=
  ((dat5 (F := Ideal) V c).arrAt_in 2 rfl n).trans (A_eq5 V c 2)
theorem arrAt5_in_3 (c : Dev nD) (n : ℕ) : (dat5 (F := Ideal) V c).arrAt 3 n = V c main_v36 :=
  ((dat5 (F := Ideal) V c).arrAt_in 3 rfl n).trans (A_eq5 V c 3)
theorem arrAt5_in_4 (c : Dev nD) (n : ℕ) : (dat5 (F := Ideal) V c).arrAt 4 n = V c main_v30 :=
  ((dat5 (F := Ideal) V c).arrAt_in 4 rfl n).trans (A_eq5 V c 4)

end Out5

end Cert.KernelIdeal.H

end
-- ==== Proof.KI.V6.lean ====
import proofs.«421344_j1254130450614_1_alg».proof.Proof.KI.R6
import proofs.«421344_j1254130450614_1_alg».proof.Proof.Spec
import Idealize.ShloMosaic.Lib.ValueIdx
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # Region 6 at the extended reals: the array it leaves is the dense map of the arrays it reads

Over the extended reals the narrowing of both factors to sixteen bits is the identity, the product into a zero
accumulator is the plain sum of products over the 64 contracted columns, and the bias row is added to every
row.  Point `t` of the grid computes rows `2048 t … 2048 t + 2047`; the fifty blocks tile the 102400 rows. -/

variable (V : (c : Dev nD) → (b : Ref sig .tc) → Buf (Elt Ideal) ((c : Thread nD τ).loc b))

/-! ## The payload at an index -/

/-- The operand indices of the product at output index `j` and contraction position `k`, axis by axis: the left
    factor is read at (row of `j`, `k`), the right one at (`k`, column of `j`). -/
theorem lhs6_0 (j : S2048x153.Idx) (k : dot_S2048x64_S64x153_S2048x153_1_0_0_1_n_n.contr.Idx) :
    (dot_S2048x64_S64x153_S2048x153_1_0_0_1_n_n.lhsIdx j k 0 : ℕ) = j 0 := by
  simp [DotDims.lhsIdx, dot_S2048x64_S64x153_S2048x153_1_0_0_1_n_n]; rfl
theorem lhs6_1 (j : S2048x153.Idx) (k : dot_S2048x64_S64x153_S2048x153_1_0_0_1_n_n.contr.Idx) :
    (dot_S2048x64_S64x153_S2048x153_1_0_0_1_n_n.lhsIdx j k 1 : ℕ) = k ⟨0, by decide⟩ := by
  simp [DotDims.lhsIdx, dot_S2048x64_S64x153_S2048x153_1_0_0_1_n_n]; rfl
theorem rhs6_0 (j : S2048x153.Idx) (k : dot_S2048x64_S64x153_S2048x153_1_0_0_1_n_n.contr.Idx) :
    (dot_S2048x64_S64x153_S2048x153_1_0_0_1_n_n.rhsIdx j k 0 : ℕ) = k ⟨0, by decide⟩ := by
  simp [DotDims.rhsIdx, dot_S2048x64_S64x153_S2048x153_1_0_0_1_n_n]; rfl
theorem rhs6_1 (j : S2048x153.Idx) (k : dot_S2048x64_S64x153_S2048x153_1_0_0_1_n_n.contr.Idx) :
    (dot_S2048x64_S64x153_S2048x153_1_0_0_1_n_n.rhsIdx j k 1 : ℕ) = j 1 := by
  simp [DotDims.rhsIdx, dot_S2048x64_S64x153_S2048x153_1_0_0_1_n_n]; rfl

/-- The stored value at (row `p`, column `q`) of a block: the sum over the contracted columns of row `p` of the
    first block against column `q` of the second, plus the bias at column `q`. -/
theorem pay6_apply (x0 : Vec Ideal S2048x64 .f32) (x1 : Vec Ideal S64x153 .f32) (x2 : Vec Ideal S1x153 .f32)
    (p : Fin 2048) (q : Fin 153) :
    k6_pay1 x0 x1 x2 (ix2 p q) = (∑ k : Fin 64, x0 (ix2 p k) * x1 (ix2 k q)) + x2 (ix2 0 q) := by
  unfold k6_pay1
  rw [addf_apply]
  simp only [shapeCast_self, matmul]
  rw [Ideal.matmul_constant_zero_apply,
    broadcastTo_apply x2 broadcasts_S1x153_S2048x153 (ix2 p q) (ix2 0 q)
      (fun a => match a with | ⟨0, _⟩ => rfl | ⟨1, _⟩ => rfl),
    ← Equiv.sum_comp (contrEquiv1 dot_S2048x64_S64x153_S2048x153_1_0_0_1_n_n 64 rfl rfl).symm]
  refine congrArg (· + x2 (ix2 0 q)) (Finset.sum_congr rfl fun k _ => ?_)
  have hk := contrEquiv1_symm_val dot_S2048x64_S64x153_S2048x153_1_0_0_1_n_n 64 rfl rfl k
  show x0 _ * x1 _ = _
  congr 1
  · refine congrArg x0 (Shape.idx_ext₂ ?_ ?_)
    · exact lhs6_0 _ _
    · exact (lhs6_1 _ _).trans hk
  · refine congrArg x1 (Shape.idx_ext₂ ?_ ?_)
    · exact (rhs6_0 _ _).trans hk
    · exact rhs6_1 _ _

/-! ## From blocks to the array -/

/-- The dense map of the three arrays as the region finds them, as one function of the output index. -/
def G6 (c : Dev nD) : S102400x153.Idx → EReal := fun i =>
  Cert.Spec.lin (N := 102400) (K := 64) (D := 153) (fun n k => V c main_v37 (ix2 n k))
    (fun k d => V c main_v38 (ix2 k d)) (fun d => V c main_v39 (ix2 0 d)) (i 0) (i 1)

theorem hz6 : (![0, 0] : Fin 2 → Nat) = fun _ => 0 := funext fun a => by fin_cases a <;> rfl

/-- Where each window's block sits at grid point `t`: the rows' and the result's blocks are the `t`-th block of
    2048 rows, the weights' and the bias' blocks are the whole arrays (checked point by point over the 50 points). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The result's block is written back at every point. -/
theorem flush6_3 : ∀ t : Fin cfg6.N, (cfg6.win 3).flush t = true :=
  (by decide +kernel : ∀ t : Fin grid6.N, win6_3.flush t = true)

/-- What point `t` writes back is the payload of the three blocks the point reads: the one store covers the
    buffer and each load reads a whole buffer. -/
theorem flushed6_pay (c : Dev nD) (t : Fin cfg6.N) :
    (dat6 V c).flushed 3 t = k6_pay1 (iblk6 V c 0 t) (iblk6 V c 1 t) (iblk6 V c 2 t) := by
  show (cfg6.win 3).cut (grid6.coords t) ((dat6 V c).after 3 t) = _
  rw [after6_3]
  unfold out6_3
  rw [View.canon_unit_zero hz6]
  simp only [View.ld_unit_zero (S := S2048x64) hz6, View.ld_unit_zero (S := S64x153) hz6,
    View.ld_unit_zero (S := S1x153) hz6]
  rfl

/-- Where the entries of point `t`'s blocks sit in their arrays, against the place of entry (`p`, `q`) of the
    result's block: the rows' block shares the result's rows, -/
theorem emb6_rows (t : Fin cfg6.N) (p : Fin 2048) (q : Fin 153) (k : Fin 64) :
    ((cfg6.win 0).blk t).view.emb (ix2 p k) = ix2 ((((cfg6.win 3).blk t).view.emb (ix2 p q)) 0) k := by
  obtain ⟨e00, e01, -, -, -, -, e30, e31⟩ := idx_facts6 t
  funext a; apply Fin.ext
  match a with
  | ⟨0, _⟩ =>
    show win6_0.index t (0 : Fin 2) * 2048 + 1 * p.val = win6_3.index t (0 : Fin 2) * 2048 + 1 * p.val
    omega
  | ⟨1, _⟩ =>
    show win6_0.index t (1 : Fin 2) * 64 + 1 * k.val = k.val
    omega

/-- the weights' block is the whole matrix and shares the result's columns, -/
theorem emb6_wts (t : Fin cfg6.N) (p : Fin 2048) (q : Fin 153) (k : Fin 64) :
    ((cfg6.win 1).blk t).view.emb (ix2 k q) = ix2 k ((((cfg6.win 3).blk t).view.emb (ix2 p q)) 1) := by
  obtain ⟨-, -, e10, e11, -, -, e30, e31⟩ := idx_facts6 t
  have hq : q.val < 153 := q.isLt
  funext a; apply Fin.ext
  match a with
  | ⟨0, _⟩ =>
    show win6_1.index t (0 : Fin 2) * 64 + 1 * k.val = k.val
    omega
  | ⟨1, _⟩ =>
    show win6_1.index t (1 : Fin 2) * 153 + 1 * q.val = win6_3.index t (1 : Fin 2) * 153 + 1 * q.val
    omega

/-- and the bias' block is the whole row and shares the result's columns. -/
theorem emb6_bias (t : Fin cfg6.N) (p : Fin 2048) (q : Fin 153) :
    ((cfg6.win 2).blk t).view.emb (ix2 0 q) = ix2 0 ((((cfg6.win 3).blk t).view.emb (ix2 p q)) 1) := by
  obtain ⟨-, -, -, -, e20, e21, e30, e31⟩ := idx_facts6 t
  have hq : q.val < 153 := q.isLt
  funext a; apply Fin.ext
  match a with
  | ⟨0, _⟩ =>
    show win6_2.index t (0 : Fin 2) * 1 + 1 * 0 = 0
    omega
  | ⟨1, _⟩ =>
    show win6_2.index t (1 : Fin 2) * 153 + 1 * q.val = win6_3.index t (1 : Fin 2) * 153 + 1 * q.val
    omega

/-- So the payload's value at entry (`p`, `q`) of blocks that read the three arrays at point `t` is the dense map
    at the entry's place in the result array. -/
theorem blocks6_eq (c : Dev nD) (t : Fin cfg6.N) (p : Fin 2048) (q : Fin 153)
    (x0 : Vec Ideal S2048x64 .f32) (x1 : Vec Ideal S64x153 .f32) (x2 : Vec Ideal S1x153 .f32)
    (b0 : ∀ y : S2048x64.Idx, x0 y = V c main_v37 (((cfg6.win 0).blk t).view.emb y))
    (b1 : ∀ y : S64x153.Idx, x1 y = V c main_v38 (((cfg6.win 1).blk t).view.emb y))
    (b2 : ∀ y : S1x153.Idx, x2 y = V c main_v39 (((cfg6.win 2).blk t).view.emb y)) :
    (∑ k : Fin 64, x0 (ix2 p k) * x1 (ix2 k q)) + x2 (ix2 0 q)
      = ((cfg6.win 3).blk t).view.read (Elt Ideal) (G6 V c) (ix2 p q) := by
  have r3 : ((cfg6.win 3).blk t).view.read (Elt Ideal) (G6 V c) (ix2 p q)
      = G6 V c (((cfg6.win 3).blk t).view.emb (ix2 p q)) := rfl
  refine Eq.trans ?_ r3.symm
  unfold G6 Cert.Spec.lin
  simp only [b0, b1, b2, emb6_rows t p q, emb6_wts t p q, emb6_bias t p q]
  rfl

/-- What point `t` writes back is block `t` of the dense map. -/
theorem flushed6_eq (c : Dev nD) (t : Fin cfg6.N) :
    (dat6 V c).flushed 3 t = ((cfg6.win 3).blk t).view.read (Elt Ideal) (G6 V c) := by
  rw [flushed6_pay]
  funext j
  obtain ⟨p, q, rfl⟩ : ∃ (p : Fin 2048) (q : Fin 153), j = ix2 p q := ⟨j 0, j 1, eq_ix2 j⟩
  exact (pay6_apply _ _ _ p q).trans
    (blocks6_eq V c t p q _ _ _ (fun _ => rfl) (fun _ => rfl) (fun _ => rfl))

/-- An index of the result array lies in point `t`'s block iff on each axis it lies in the block's range. -/
theorem mem_blk6 (t : Fin cfg6.N) (i : S102400x153.Idx) :
    i ∈ ((cfg6.win 3).blk t).view.set ↔ ∀ a : Fin 2, win6_3.index t a * S2048x153.size a ≤ (i a).val
      ∧ (i a).val < win6_3.index t a * S2048x153.size a + S2048x153.size a := by
  show i ∈ ((View.whole main_v40).slice (win6_3.rect t)).set ↔ _
  rw [View.set_slice_whole, Rect.mem_set_unit]
  exact Iff.rfl

/-- Every index of the result array is in the block of the point its row falls in: row `r` is in block `r / 2048`. -/
theorem cover6 (i : S102400x153.Idx) :
    ∃ t : Fin cfg6.N, (cfg6.win 3).flush t = true ∧ i ∈ ((cfg6.win 3).blk t).view.set := by
  have hi0 : (i 0).val < 102400 := (i 0).isLt
  have hi1 : (i 1).val < 153 := (i 1).isLt
  have ht : (i 0).val / 2048 < cfg6.N := by
    show (i 0).val / 2048 < grid6.N
    rw [N_6]; omega
  obtain ⟨-, -, -, -, -, -, e30, e31⟩ := idx_facts6 ⟨(i 0).val / 2048, ht⟩
  have e30' : win6_3.index ⟨(i 0).val / 2048, ht⟩ (0 : Fin 2) = (i 0).val / 2048 := e30
  refine ⟨⟨(i 0).val / 2048, ht⟩, flush6_3 _, ?_⟩
  rw [mem_blk6]
  intro a
  match a with
  | ⟨0, _⟩ =>
    show win6_3.index ⟨(i 0).val / 2048, ht⟩ (0 : Fin 2) * 2048 ≤ (i 0).val
      ∧ (i 0).val < win6_3.index ⟨(i 0).val / 2048, ht⟩ (0 : Fin 2) * 2048 + 2048
    omega
  | ⟨1, _⟩ =>
    show win6_3.index ⟨(i 0).val / 2048, ht⟩ (1 : Fin 2) * 153 ≤ (i 1).val
      ∧ (i 1).val < win6_3.index ⟨(i 0).val / 2048, ht⟩ (1 : Fin 2) * 153 + 153
    omega

/-- The result array after the region: the dense map of the three arrays read, at every index. -/
theorem arrAt6_out (c : Dev nD) (n : Fin 102400) (d : Fin 153) :
    (dat6 (F := Ideal) V c).arrAt 3 cfg6.N (ValueIdx.ix2 n d)
      = Cert.Spec.lin (fun n k => V c main_v37 (ix2 n k)) (fun k d => V c main_v38 (ix2 k d))
          (fun d => V c main_v39 (ix2 0 d)) n d := by
  rw [(dat6 V c).arrAt_eq_of_cover 3 (G6 V c) (fun t _ => flushed6_eq V c t) cover6]
  rfl

/-- The arrays the region only reads are as it found them. -/
theorem arrAt6_in (c : Dev nD) (w : Fin cfg6.W) (hw : w ≠ 3) :
    (dat6 V c).arrAt w cfg6.N = V c (Pipeline.arrRef spec6 w) := by
  have hin : (cfg6.win w).isOut = false := by
    match w, hw with
    | ⟨0, _⟩, _ => rfl
    | ⟨1, _⟩, _ => rfl
    | ⟨2, _⟩, _ => rfl
    | ⟨3, _⟩, h => exact absurd rfl h
  exact ((dat6 V c).arrAt_in w hin _).trans (A_eq6 V c w)

end Cert.KernelIdeal.H

end
-- ==== Proof.KI.V7Pay.lean ====
/-
  Region 7's three stored values, read at one entry over the extended reals.

  The gather kernel works on a block of 1280 edges against a tile of 2560 nodes at a time. For each edge row r it compares the
  edge's source-node word with the node numbers of the tile's 2560 columns (column q of tile j is node q + 2560 j), turns the
  comparison into a 0/1 coefficient, and multiplies that one-hot row into the tile's 2560 × 153 feature block: entry (r, d) of the
  product is the sum over the tile's columns of coefficient × feature, which is the feature row of the named node if it lies in
  this tile and 0 otherwise. The product is added to the running block; the running block starts at zero, and after the last
  tile each of its rows is scaled by the edge's gate. Over the extended reals the narrowing format changes are the identity, so
  the three statements below are exact.
-/
import proofs.«421344_j1254130450614_1_alg».proof.Proof.Gen.KernelIdeal.Skeleton
import Idealize.ShloMosaic.Lib.Pipeline.Value
import Idealize.ShloMosaic.Lib.ValueIdx
import Idealize.ShloMosaic.PureOps.Ideal.Laws
import proofs.«421344_j1254130450614_1_alg».proof.Proof.KI.V1Pay

noncomputable section

namespace Cert.KernelIdeal.H

open Cert.KernelIdeal Cert.KernelIdeal.Gen
open Idealize.ShloMosaic Idealize.ShloMosaic.ValueIdx
open scoped BigOperators

/-- The reset block is zero everywhere. -/
theorem k7_pay1_apply (r : Fin 1280) (d : Fin 153) : (k7_pay1 (F := Ideal)) (ix2 r d) = 0 := by
  unfold k7_pay1
  refine (congrFun (shapeCast_self _ _) (ix2 r d)).trans ?_
  exact Ideal.ofBits_zero_f32

/-- The written-back block is the accumulator scaled row by row by the gate column. -/
theorem k7_pay3_apply (v27 : Vec Ideal S1280x153 .f32) (v28 : Vec Ideal S1280x1 .f32) (r : Fin 1280) (d : Fin 153) :
    k7_pay3 (F := Ideal) v27 v28 (ix2 r d) = v27 (ix2 r d) * v28 (ix2 r (0 : Fin 1)) := by
  unfold k7_pay3
  show v27 (ix2 r d) * broadcastTo S1280x153 (shapeCast S1280x1 v28 shapeCasts_S1280x1_S1280x1) broadcasts_S1280x1_S1280x153 (ix2 r d) = _
  refine congrArg (v27 (ix2 r d) * ·) ?_
  refine (broadcastTo_apply _ broadcasts_S1280x1_S1280x153 (ix2 r d) (ix2 r (0 : Fin 1)) (fun a => ?_)).trans ?_
  · match a with
    | ⟨0, _⟩ => rfl
    | ⟨1, _⟩ => rfl
  · exact congrFun (shapeCast_self v28 _) _

/-! ### The gather matmul's operand indices, axis by axis

For a plain rows × contraction times contraction × columns product the left operand is read at
(output row, contraction position) and the right at (contraction position, output column). -/

theorem lhs_gather7_0 (j : S1280x153.Idx) (q : dot_S1280x2560_S2560x153_S1280x153_1_0_0_1_n_n.contr.Idx) :
    (dot_S1280x2560_S2560x153_S1280x153_1_0_0_1_n_n.lhsIdx j q 0).val = (j 0).val := by
  unfold DotDims.lhsIdx
  rw [dif_neg (show ¬(0 : Fin S1280x2560.rank) ∈ dot_S1280x2560_S2560x153_S1280x153_1_0_0_1_n_n.lhsBatch by decide), dif_pos (show (0 : Fin S1280x2560.rank) ∈ dot_S1280x2560_S2560x153_S1280x153_1_0_0_1_n_n.lhsNonContracting by decide)]
  rfl
theorem lhs_gather7_1 (j : S1280x153.Idx) (q : dot_S1280x2560_S2560x153_S1280x153_1_0_0_1_n_n.contr.Idx) :
    (dot_S1280x2560_S2560x153_S1280x153_1_0_0_1_n_n.lhsIdx j q 1).val = (q ⟨0, by decide⟩).val :=
  dot_S1280x2560_S2560x153_S1280x153_1_0_0_1_n_n.lhsIdx_val_of_single rfl j q
theorem rhs_gather7_0 (j : S1280x153.Idx) (q : dot_S1280x2560_S2560x153_S1280x153_1_0_0_1_n_n.contr.Idx) :
    (dot_S1280x2560_S2560x153_S1280x153_1_0_0_1_n_n.rhsIdx j q 0).val = (q ⟨0, by decide⟩).val :=
  dot_S1280x2560_S2560x153_S1280x153_1_0_0_1_n_n.rhsIdx_val_of_single rfl j q
theorem rhs_gather7_1 (j : S1280x153.Idx) (q : dot_S1280x2560_S2560x153_S1280x153_1_0_0_1_n_n.contr.Idx) :
    (dot_S1280x2560_S2560x153_S1280x153_1_0_0_1_n_n.rhsIdx j q 1).val = (j 1).val := by
  unfold DotDims.rhsIdx
  rw [dif_neg (show ¬(1 : Fin S2560x153.rank) ∈ dot_S1280x2560_S2560x153_S1280x153_1_0_0_1_n_n.rhsBatch by decide), dif_pos (show (1 : Fin S2560x153.rank) ∈ dot_S1280x2560_S2560x153_S1280x153_1_0_0_1_n_n.rhsNonContracting by decide)]
  rfl

/-- One tile's update at entry (r, d): the running value plus the sum over the tile's 2560 columns of the 0/1 coefficient
    "edge r's source word is the word of node q + 2560 j" times the tile's feature entry (q, d), j the node-tile coordinate. -/
theorem k7_pay2_apply (i : grid7.Coords) (v7 : Vec Ideal S1280x1 .i32) (v15 : Vec Ideal S2560x153 .f32)
    (v18 : Vec Ideal S1280x153 .f32) (r : Fin 1280) (d : Fin 153) :
    k7_pay2 (F := Ideal) i v7 v15 v18 (ix2 r d)
      = v18 (ix2 r d) + ∑ q : Fin 2560,
          (if v7 (ix2 r (0 : Fin 1)) = BitVec.ofNat 32 (q.val + (i 1).val * 2560) then (1 : EReal) else 0) * v15 (ix2 q d) := by
  unfold k7_pay2
  refine (congrFun (shapeCast_self _ _) (ix2 r d)).trans ?_
  refine (addf_apply _ _ _).trans ?_
  refine congrArg (v18 (ix2 r d) + ·) ?_
  refine (Ideal.matmul_constant_zero_apply dot_S1280x2560_S2560x153_S1280x153_1_0_0_1_n_n none _ _ (ix2 r d)).trans ?_
  rw [← Equiv.sum_comp (contrEquiv1 dot_S1280x2560_S2560x153_S1280x153_1_0_0_1_n_n 2560 rfl rfl).symm]
  refine Finset.sum_congr rfl fun k _ => ?_
  have hk := contrEquiv1_symm_val dot_S1280x2560_S2560x153_S1280x153_1_0_0_1_n_n 2560 rfl rfl k
  have el : dot_S1280x2560_S2560x153_S1280x153_1_0_0_1_n_n.lhsIdx (ix2 r d) ((contrEquiv1 dot_S1280x2560_S2560x153_S1280x153_1_0_0_1_n_n 2560 rfl rfl).symm k) = ix2 r k := funext fun a => Fin.ext (by
    match a with
    | ⟨0, _⟩ => exact lhs_gather7_0 _ _
    | ⟨1, _⟩ => exact (lhs_gather7_1 _ _).trans hk)
  have er : dot_S1280x2560_S2560x153_S1280x153_1_0_0_1_n_n.rhsIdx (ix2 r d) ((contrEquiv1 dot_S1280x2560_S2560x153_S1280x153_1_0_0_1_n_n 2560 rfl rfl).symm k) = ix2 k d := funext fun a => Fin.ext (by
    match a with
    | ⟨0, _⟩ => exact (rhs_gather7_0 _ _).trans hk
    | ⟨1, _⟩ => exact rhs_gather7_1 _ _)
  rw [el, er]
  have hX : broadcastTo S1280x2560 (shapeCast S1280x1 v7 shapeCasts_S1280x1_S1280x1) broadcasts_S1280x1_S1280x2560 (ix2 r k)
      = v7 (ix2 r (0 : Fin 1)) :=
    (broadcastTo_apply _ broadcasts_S1280x1_S1280x2560 (ix2 r k) (ix2 r (0 : Fin 1)) (fun a => by
      match a with
      | ⟨0, _⟩ => rfl
      | ⟨1, _⟩ => rfl)).trans (congrFun (shapeCast_self v7 _) _)
  have hY : broadcastTo S1280x2560 (addi (iota Kind.tc S1x2560 32 [1] iota_S1x2560_d1_w32)
        (broadcast S1x2560 (Scalar.muli (BitVec.ofNat 32 (i 1).val) 2560#32))) broadcasts_S1x2560_S1280x2560 (ix2 r k)
      = BitVec.ofNat 32 (k.val + (i 1).val * 2560) := by
    refine (broadcastTo_apply _ broadcasts_S1x2560_S1280x2560 (ix2 r k) (ix2 (0 : Fin 1) k) (fun a => by
      match a with
      | ⟨0, _⟩ => rfl
      | ⟨1, _⟩ => rfl)).trans ?_
    refine (congrArg (IntOp.addi · (Scalar.muli (BitVec.ofNat 32 (i 1).val) 2560#32))
      (iota_single_apply Kind.tc S1x2560 32 (1 : Fin S1x2560.rank) iota_S1x2560_d1_w32 (ix2 (0 : Fin 1) k))).trans ?_
    exact node_word k.val (i 1).val
  refine congrArg₂ (· * ·) ?_ (congrFun (shapeCast_self v15 shapeCasts_S2560x153_S2560x153) (ix2 k d))
  refine (congrArg₂ (fun x y => (FloatOps.sitofp .f32 ((IntOp.cmpi .eq x y).setWidth 32) : Ideal .f32)) hX hY).trans ?_
  exact onehot_word _ _

end Cert.KernelIdeal.H

end
-- ==== Proof.KI.V7.lean ====
/-
  Region 7's value over the extended reals: what the gather kernel's output array holds when the region ends.

  The grid has 1250 × 40 points; point t works on edge block t / 40 (1280 edges) against node tile t % 40 (2560 nodes). A scratch
  block is carried from point to point. At tile 0 it is reset to zero and the tile's product is added; at every later tile the
  tile's product is added to what it held. Tile j's product at entry (r, d) is the sum over the tile's nodes of the indicator
  "edge r's source word names node q + 2560 j" times that node's feature d. So after tile j the scratch holds the sum of the
  products of tiles 0 … j (by induction on the point), and after tile 39 it holds the sum over all 102400 nodes of indicator ×
  feature, which is the one feature row the source word names, or 0 when the word names no row. At tile 39 the scratch, scaled
  row by row by the edge's gate, is stored into the output block, and that block is written back to rows (t / 40) * 1280 … of the
  output array; the 1250 written-back blocks tile the array, so row e is written by the last point of edge block e / 1280.

  Only these laws of the extended reals are used: sums in a commutative monoid, 0 + x = x, 0 * x = 0, 1 * x = x.
-/
import proofs.«421344_j1254130450614_1_alg».proof.Proof.KI.R7
import proofs.«421344_j1254130450614_1_alg».proof.Proof.KI.V7Pay
import proofs.«421344_j1254130450614_1_alg».proof.Proof.LibTileSums
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibTileSums
open scoped BigOperators

/-! ## What each case of the body leaves, as values of the blocks it read -/

section Pieces
variable {F : FTy → Type} [FloatOps F]

theorem hz7 : (![0, 0] : Fin 2 → Nat) = fun _ => 0 := funext fun a => by fin_cases a <;> rfl

/-- At the first node tile the scratch is reset to the zero block and then updated: it ends at the update of zero. -/
theorem sout7_A_eq (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : cond7_0 i) (hc1 : ¬cond7_1 i) (x0 : Vec F S1280x1 .i32) (x1 : Vec F S1280x1 .f32) (x2 : Vec F S2560x153 .f32) :
    sout7_A_0 c i arg2 harg2 arg3 harg3 arg4 harg4 arg5 harg5 arg6 harg6 hc0 hc1 x0 x1 x2 = k7_pay2 i x0 x2 (k7_pay1 (F := F)) := by
  unfold sout7_A_0
  rw [View.read_writes_eq_canon _ _ _ (scover7_A_0 c i arg2 harg2 arg3 harg3 arg4 harg4 arg5 harg5 arg6 harg6 hc0 hc1 x0 x1 x2)]
  unfold kernelRun7_A
  dsimp only
  sl_unfold_words
  rw [View.canon_cons_unit_zero (S := S1280x153) hz7, View.readCov_unit_zero (S := S1280x153) _ hz7]
  simp only [View.readAt_eq_ld, harg2.read_unread, harg3.read_unread, harg4.read_unread, harg6.read_unread, View.ld_unit_zero (S := S1280x1) hz7, View.ld_unit_zero (S := S2560x153) hz7, View.ld_unit_zero (S := S1280x153) hz7]

/-- Away from the first and last node tiles the scratch ends at the update of what it held. -/
theorem sout7_B_eq (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : ¬cond7_1 i) (x0 : Vec F S1280x1 .i32) (x1 : Vec F S1280x1 .f32) (x2 : Vec F S2560x153 .f32) (xs0 : Vec F S1280x153 .f32) :
    sout7_B_0 c i arg2 harg2 arg3 harg3 arg4 harg4 arg5 harg5 arg6 harg6 hc0 hc1 x0 x1 x2 xs0 = k7_pay2 i x0 x2 xs0 := by
  unfold sout7_B_0
  rw [View.read_writes_eq_canon _ _ _ (scover7_B_0 c i arg2 harg2 arg3 harg3 arg4 harg4 arg5 harg5 arg6 harg6 hc0 hc1 x0 x1 x2 xs0)]
  unfold kernelRun7_B
  dsimp only
  sl_unfold_words
  rw [View.canon_unit_zero hz7]
  simp only [View.readAt_eq_ld, harg2.read_unread, harg3.read_unread, harg4.read_unread, harg6.read_unread, View.ld_unit_zero (S := S1280x1) hz7, View.ld_unit_zero (S := S2560x153) hz7, View.ld_unit_zero (S := S1280x153) hz7]

/-- At the last node tile the scratch is updated as elsewhere … -/
theorem sout7_C_eq (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i) (x0 : Vec F S1280x1 .i32) (x1 : Vec F S1280x1 .f32) (x2 : Vec F S2560x153 .f32) (xs0 : Vec F S1280x153 .f32) :
    sout7_C_0 c i arg2 harg2 arg3 harg3 arg4 harg4 arg5 harg5 arg6 harg6 hc0 hc1 x0 x1 x2 xs0 = k7_pay2 i x0 x2 xs0 := by
  unfold sout7_C_0
  rw [View.read_writes_eq_canon _ _ _ (scover7_C_0 c i arg2 harg2 arg3 harg3 arg4 harg4 arg5 harg5 arg6 harg6 hc0 hc1 x0 x1 x2 xs0)]
  unfold kernelRun7_C
  dsimp only
  sl_unfold_words
  rw [View.canon_unit_zero hz7]
  simp only [View.readAt_eq_ld, harg2.read_unread, harg3.read_unread, harg4.read_unread, harg6.read_unread, View.ld_unit_zero (S := S1280x1) hz7, View.ld_unit_zero (S := S2560x153) hz7, View.ld_unit_zero (S := S1280x153) hz7]

/-- … and the output block is the updated scratch, read back, scaled by the gate column. -/
theorem out7_C_eq (c : Dev nD) (i : grid7.Coords) (arg2 : Memref sig .tc .vmem S1280x1 .i32) (harg2 : arg2.IsWhole) (arg3 : Memref sig .tc .vmem S1280x1 .f32) (harg3 : arg3.IsWhole) (arg4 : Memref sig .tc .vmem S2560x153 .f32) (harg4 : arg4.IsWhole) (arg5 : Memref sig .tc .vmem S1280x153 .bf16) (harg5 : arg5.IsWhole) (arg6 : Memref sig .tc .vmem S1280x153 .f32) (harg6 : arg6.IsWhole) (hc0 : ¬cond7_0 i) (hc1 : cond7_1 i) (x0 : Vec F S1280x1 .i32) (x1 : Vec F S1280x1 .f32) (x2 : Vec F S2560x153 .f32) (xs0 : Vec F S1280x153 .f32) :
    out7_C_3 c i arg2 harg2 arg3 harg3 arg4 harg4 arg5 harg5 arg6 harg6 hc0 hc1 x0 x1 x2 xs0 = k7_pay3 (k7_pay2 i x0 x2 xs0) x1 := by
  unfold out7_C_3
  rw [View.read_writes_eq_canon _ _ _ (cover7_C_3 c i arg2 harg2 arg3 harg3 arg4 harg4 arg5 harg5 arg6 harg6 hc0 hc1 x0 x1 x2 xs0)]
  unfold kernelRun7_C
  dsimp only
  sl_unfold_words
  rw [View.canon_unit_zero hz7, View.readCov_unit_zero (S := S1280x153) _ hz7]
  simp only [View.readAt_eq_ld, harg2.read_unread, harg3.read_unread, harg4.read_unread, harg6.read_unread, View.ld_unit_zero (S := S1280x1) hz7, View.ld_unit_zero (S := S2560x153) hz7, View.ld_unit_zero (S := S1280x153) hz7]

end Pieces

variable (V : (c : Dev nD) → (b : Ref sig .tc) → Buf (Elt Ideal) ((c : Thread nD τ).loc b))

/-! ## The three arrays the region reads, at their literal types -/

/-- Each edge's source-node word. -/
abbrev srcArr7 (c : Dev nD) : Vec Ideal S1600000x1 .i32 := V c main_v20
/-- Each edge's gate. -/
abbrev gateArr7 (c : Dev nD) : Vec Ideal S1600000x1 .f32 := V c main_v22
/-- The node features (102400 rows, the last 2400 padding). -/
abbrev featArr7 (c : Dev nD) : Vec Ideal S102400x153 .f32 := V c main_v40

/-- The source word of row `r` of edge block `b` (0 past the last edge block, which no point reaches). -/
def srcRow7 (c : Dev nD) (b : ℕ) (r : Fin 1280) : BitVec 32 :=
  if h : b * 1280 + r.val < 1600000 then srcArr7 V c (ix2 ⟨b * 1280 + r.val, h⟩ (0 : Fin 1)) else 0

/-! ## The one-hot sums over the node tiles -/

/-- Row `n` of the node features at column `d`, and 0 past the last row. -/
def featRow7 (H : Vec Ideal S102400x153 .f32) (n : ℕ) (d : Fin 153) : EReal :=
  if h : n < 102400 then H (ix2 ⟨n, h⟩ d) else 0

/-- Node tile `j`'s contribution at column `d` for an edge whose source word is `w`: the sum over the tile's 2560 nodes of
    the indicator "w names node q + 2560 j" times that node's feature. -/
def tileSum7 (H : Vec Ideal S102400x153 .f32) (w : BitVec 32) (d : Fin 153) (j : ℕ) : EReal :=
  ∑ q : Fin 2560, (if w = BitVec.ofNat 32 (q.val + j * 2560) then (1 : EReal) else 0) * featRow7 H (j * 2560 + q.val) d

/-- After all 40 tiles the running sum is the feature row the word names, or 0 if it names no row. -/
theorem accum_tileSum7_last (H : Vec Ideal S102400x153 .f32) (w : BitVec 32) (d : Fin 153) :
    accum (tileSum7 H w d) 39 = if hw : w.toNat < 102400 then H (ix2 ⟨w.toNat, hw⟩ d) else 0 := by
  rw [accum_eq_sum]
  have h1 := sum_tiles (A := 40) (B := 2560) (n := 102400) rfl
    (fun k => (if w = BitVec.ofNat 32 k.val then (1 : EReal) else 0) * featRow7 H k.val d)
  have h2 := onehot_sum (n := 102400) (by norm_num) w (fun k => featRow7 H k.val d)
  refine (Finset.sum_congr rfl fun k _ => ?_).trans (h1.trans (h2.trans ?_))
  · unfold tileSum7
    refine Finset.sum_congr rfl fun q _ => ?_
    show _ = (if w = BitVec.ofNat 32 (k.val * 2560 + q.val) then (1 : EReal) else 0) * featRow7 H (k.val * 2560 + q.val) d
    rw [Nat.add_comm q.val]
  · by_cases hw : w.toNat < 102400
    · rw [dif_pos hw, dif_pos hw]
      show featRow7 H w.toNat d = _
      unfold featRow7
      rw [dif_pos hw]
    · rw [dif_neg hw, dif_neg hw]

/-! ## The windows' blocks, entry by entry

Point `t` of the 1250 × 40 grid works on edge block `t / 40` and node tile `t % 40`: the edge windows' blocks start at row
`(t / 40) * 1280` of their arrays, the feature window's at row `(t % 40) * 2560`. -/

theorem tr7_0_0 (t : Fin cfg7.N) : cc7_transform_0 (grid7.coords t) 0 = t.val / 40 := by
  show (BitVec.ofNat 32 (grid7.coords t 0).val).toNat = _
  rw [BitVec.toNat_ofNat, coords7_0]
  have := N7_lt t
  omega
theorem tr7_1_0 (t : Fin cfg7.N) : cc7_transform_1 (grid7.coords t) 0 = t.val / 40 := tr7_0_0 t
theorem tr7_3_0 (t : Fin cfg7.N) : cc7_transform_3 (grid7.coords t) 0 = t.val / 40 := tr7_0_0 t
theorem tr7_2_0 (t : Fin cfg7.N) : cc7_transform_2 (grid7.coords t) 0 = t.val % 40 := by
  show (BitVec.ofNat 32 (grid7.coords t 1).val).toNat = _
  rw [BitVec.toNat_ofNat, coords7_1]
  omega

/-- The source-word block at point `t`, row `r`: the source word of edge `(t / 40) * 1280 + r`. -/
theorem iblk7_0_apply (c : Dev nD) (t : Fin cfg7.N) (r : Fin 1280) (hr : t.val / 40 * 1280 + r.val < 1600000) :
    (iblk7 V c 0 t : Vec Ideal S1280x1 .i32) (ix2 r (0 : Fin 1))
      = V c main_v20 (ix2 ⟨t.val / 40 * 1280 + r.val, hr⟩ (0 : Fin 1)) := by
  unfold iblk7
  rw [View.read_apply]
  show V c main_v20 _ = V c main_v20 _
  congr 1
  funext a
  apply Fin.ext
  match a with
  | ⟨0, _⟩ =>
    show win7_0.index t 0 * 1280 + 1 * r.val = t.val / 40 * 1280 + r.val
    rw [show win7_0.index t 0 = t.val / 40 from tr7_0_0 t]; omega
  | ⟨1, _⟩ => rfl

/-- The gate block at point `t`, row `r`: the gate of edge `(t / 40) * 1280 + r`. -/
theorem iblk7_1_apply (c : Dev nD) (t : Fin cfg7.N) (r : Fin 1280) (hr : t.val / 40 * 1280 + r.val < 1600000) :
    (iblk7 V c 1 t : Vec Ideal S1280x1 .f32) (ix2 r (0 : Fin 1))
      = V c main_v22 (ix2 ⟨t.val / 40 * 1280 + r.val, hr⟩ (0 : Fin 1)) := by
  unfold iblk7
  rw [View.read_apply]
  show V c main_v22 _ = V c main_v22 _
  congr 1
  funext a
  apply Fin.ext
  match a with
  | ⟨0, _⟩ =>
    show win7_1.index t 0 * 1280 + 1 * r.val = t.val / 40 * 1280 + r.val
    rw [show win7_1.index t 0 = t.val / 40 from tr7_1_0 t]; omega
  | ⟨1, _⟩ => rfl

/-- The feature block at point `t`, entry `(q, d)`: node `(t % 40) * 2560 + q`'s feature `d`. -/
theorem iblk7_2_apply (c : Dev nD) (t : Fin cfg7.N) (q : Fin 2560) (d : Fin 153) (hq : t.val % 40 * 2560 + q.val < 102400) :
    (iblk7 V c 2 t : Vec Ideal S2560x153 .f32) (ix2 q d)
      = V c main_v40 (ix2 ⟨t.val % 40 * 2560 + q.val, hq⟩ d) := by
  unfold iblk7
  rw [View.read_apply]
  show V c main_v40 _ = V c main_v40 _
  congr 1
  funext a
  apply Fin.ext
  match a with
  | ⟨0, _⟩ =>
    show win7_2.index t 0 * 2560 + 1 * q.val = t.val % 40 * 2560 + q.val
    rw [show win7_2.index t 0 = t.val % 40 from tr7_2_0 t]; omega
  | ⟨1, _⟩ =>
    show win7_2.index t 1 * 153 + 1 * d.val = d.val
    rw [show win7_2.index t 1 = 0 from rfl]; omega

/-! ## The output's blocks: where they are written back, and which rows they hold -/

/-- The output's block is written back at the points ≡ 39 (mod 40): the next point, if any, starts the next edge block. -/
theorem flush7_3_of (t : Fin cfg7.N) (h : t.val % 40 = 39) : (cfg7.win 3).flush t = true := by
  have hN := N7_lt t
  unfold Pipeline.Window.flush
  rw [Bool.and_eq_true]
  refine ⟨rfl, ?_⟩
  rw [Bool.or_eq_true]
  by_cases hl : t.val + 1 = 50000
  · left; exact decide_eq_true (hl.trans N_7.symm)
  · right
    have hlt : t.val + 1 < cfg7.N := lt_of_lt_of_eq (by omega : t.val + 1 < 50000) N_7.symm
    refine decide_eq_true ⟨hlt, fun he => ?_⟩
    have h0 := congrFun he 0
    rw [index7_3, index7_3, tr7_3_0, tr7_3_0] at h0
    have h0' : (t.val + 1) / 40 = t.val / 40 := h0
    omega

/-- An index of the output array is in point `t`'s block iff each coordinate is in the block's range on its axis. -/
theorem mem_blk7_3 (t : Fin cfg7.N) (i : S1600000x153.Idx) :
    i ∈ ((cfg7.win 3).blk t).view.set ↔ ∀ a : Fin 2, win7_3.index t a * S1280x153.size a ≤ (i a).val ∧ (i a).val < win7_3.index t a * S1280x153.size a + S1280x153.size a := by
  show i ∈ ((View.whole main_v41).slice (win7_3.rect t)).set ↔ _
  rw [View.set_slice_whole, Rect.mem_set_unit]
  exact Iff.rfl

/-- The last point of edge block `e / 1280`. -/
def lastPt7 (e : Fin 1600000) : Fin cfg7.N := ⟨e.val / 1280 * 40 + 39, lt_of_lt_of_eq (by have := e.isLt; omega) N_7.symm⟩

theorem lastPt7_div (e : Fin 1600000) : (lastPt7 e).val / 40 = e.val / 1280 := by show (e.val / 1280 * 40 + 39) / 40 = _; omega
theorem lastPt7_mod (e : Fin 1600000) : (lastPt7 e).val % 40 = 39 := by show (e.val / 1280 * 40 + 39) % 40 = _; omega

/-- Every entry of the output array is in the block some written-back point holds: row `e`'s is the last point of its edge block. -/
theorem cover7_3 (i : S1600000x153.Idx) : ∃ t : Fin cfg7.N, (cfg7.win 3).flush t = true ∧ i ∈ ((cfg7.win 3).blk t).view.set := by
  have h0 : (i 0).val < 1600000 := (i 0).isLt
  have h1 : (i 1).val < 153 := (i 1).isLt
  refine ⟨lastPt7 ⟨(i 0).val, h0⟩, flush7_3_of _ (lastPt7_mod _), ?_⟩
  rw [mem_blk7_3]
  intro a
  match a with
  | ⟨0, _⟩ =>
    show win7_3.index (lastPt7 ⟨(i 0).val, h0⟩) 0 * 1280 ≤ (i 0).val ∧ (i 0).val < win7_3.index (lastPt7 ⟨(i 0).val, h0⟩) 0 * 1280 + 1280
    rw [show win7_3.index (lastPt7 ⟨(i 0).val, h0⟩) 0 = (lastPt7 ⟨(i 0).val, h0⟩).val / 40 from tr7_3_0 _, lastPt7_div]
    show (i 0).val / 1280 * 1280 ≤ (i 0).val ∧ (i 0).val < (i 0).val / 1280 * 1280 + 1280
    omega
  | ⟨1, _⟩ =>
    show win7_3.index (lastPt7 ⟨(i 0).val, h0⟩) 1 * 153 ≤ (i 1).val ∧ (i 1).val < win7_3.index (lastPt7 ⟨(i 0).val, h0⟩) 1 * 153 + 153
    rw [show win7_3.index (lastPt7 ⟨(i 0).val, h0⟩) 1 = 0 from rfl]
    omega

/-! ## One point's update, in terms of the arrays -/

/-- Edge `(t / 40) * 1280 + r` is an edge: the grid has 1250 edge blocks of 1280 rows. -/
theorem edge7_lt (t : Fin cfg7.N) (r : Fin 1280) : t.val / 40 * 1280 + r.val < 1600000 := by
  have := N7_lt t; have := r.isLt; omega

theorem srcRow7_eq (c : Dev nD) (t : Fin cfg7.N) (r : Fin 1280) :
    srcRow7 V c (t.val / 40) r = srcArr7 V c (ix2 ⟨t.val / 40 * 1280 + r.val, edge7_lt t r⟩ (0 : Fin 1)) := dif_pos (edge7_lt t r)

/-- The update at point `t`, entry `(r, d)`: the running value plus node tile `t % 40`'s contribution for the edge's source word. -/
theorem k7_pay2_at (c : Dev nD) (t : Fin cfg7.N) (xs : Vec Ideal S1280x153 .f32) (r : Fin 1280) (d : Fin 153) :
    k7_pay2 (F := Ideal) (grid7.coords t) (iblk7 V c 0 t) (iblk7 V c 2 t) xs (ix2 r d)
      = xs (ix2 r d) + tileSum7 (featArr7 V c) (srcRow7 V c (t.val / 40) r) d (t.val % 40) := by
  refine (k7_pay2_apply (grid7.coords t) (iblk7 V c 0 t) (iblk7 V c 2 t) xs r d).trans ?_
  refine congrArg (xs (ix2 r d) + ·) ?_
  rw [srcRow7_eq]
  unfold tileSum7
  refine Finset.sum_congr rfl fun q _ => ?_
  have hq : t.val % 40 * 2560 + q.val < 102400 := by have := q.isLt; omega
  rw [iblk7_0_apply V c t r (edge7_lt t r), iblk7_2_apply V c t q d hq, coords7_1]
  unfold featRow7
  rw [dif_pos hq]

/-! ## The scratch after each point: the running sum of the tile contributions -/

theorem step7_A (c : Dev nD) (t : Fin cfg7.N) (h0 : t.val % 40 = 0) (h1 : ¬t.val % 40 = 39) (r : Fin 1280) (d : Fin 153) :
    (outsAt7 V c t.val t.isLt).2 (ix2 r d) = 0 + tileSum7 (featArr7 V c) (srcRow7 V c (t.val / 40) r) d (t.val % 40) := by
  rw [outsAt7_A V c t h0 h1]
  dsimp only
  refine (congrFun (sout7_A_eq (F := Ideal) c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) (ix2 r d)).trans ?_
  refine (k7_pay2_at V c t (k7_pay1 (F := Ideal)) r d).trans ?_
  rw [k7_pay1_apply]

theorem step7_B (c : Dev nD) (t : Fin cfg7.N) (h0 : ¬t.val % 40 = 0) (h1 : ¬t.val % 40 = 39) (r : Fin 1280) (d : Fin 153) :
    (outsAt7 V c t.val t.isLt).2 (ix2 r d)
      = (outsAt7 V c (t.val - 1) (Nat.lt_of_le_of_lt (Nat.sub_le _ _) t.isLt)).2 (ix2 r d) + tileSum7 (featArr7 V c) (srcRow7 V c (t.val / 40) r) d (t.val % 40) := by
  rw [outsAt7_B V c t h0 h1]
  dsimp only
  refine (congrFun (sout7_B_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) (ix2 r d)).trans ?_
  exact k7_pay2_at V c t (outsAt7 V c (t.val - 1) (Nat.lt_of_le_of_lt (Nat.sub_le _ _) t.isLt)).2 r d

theorem step7_C (c : Dev nD) (t : Fin cfg7.N) (h0 : ¬t.val % 40 = 0) (h1 : t.val % 40 = 39) (r : Fin 1280) (d : Fin 153) :
    (outsAt7 V c t.val t.isLt).2 (ix2 r d)
      = (outsAt7 V c (t.val - 1) (Nat.lt_of_le_of_lt (Nat.sub_le _ _) t.isLt)).2 (ix2 r d) + tileSum7 (featArr7 V c) (srcRow7 V c (t.val / 40) r) d (t.val % 40) := by
  rw [outsAt7_C V c t h0 h1]
  dsimp only
  refine (congrFun (sout7_C_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) (ix2 r d)).trans ?_
  exact k7_pay2_at V c t (outsAt7 V c (t.val - 1) (Nat.lt_of_le_of_lt (Nat.sub_le _ _) t.isLt)).2 r d

/-- After point `n` the scratch entry `(r, d)` holds the running sum, over the node tiles `0 … n % 40`, of the tiles'
    contributions for the source word of row `r` of edge block `n / 40`. -/
theorem scratch7_eq (c : Dev nD) : ∀ (n : ℕ) (hn : n < cfg7.N) (r : Fin 1280) (d : Fin 153),
    (outsAt7 V c n hn).2 (ix2 r d) = accum (tileSum7 (featArr7 V c) (srcRow7 V c (n / 40) r) d) (n % 40)
  | 0, hn, r, d => step7_A V c ⟨0, hn⟩ rfl (by show ¬((0 : ℕ) % 40 = 39); omega) r d
  | n + 1, hn, r, d => by
    by_cases h0 : (n + 1) % 40 = 0
    · have h1 : ¬(n + 1) % 40 = 39 := by omega
      refine (step7_A V c ⟨n + 1, hn⟩ h0 h1 r d).trans ?_
      show 0 + tileSum7 (featArr7 V c) (srcRow7 V c ((n + 1) / 40) r) d ((n + 1) % 40) = _
      rw [h0]; rfl
    · have ih := scratch7_eq c n (Nat.lt_of_succ_lt hn) r d
      have hdiv : n / 40 = (n + 1) / 40 := by omega
      have hmod : (n + 1) % 40 = n % 40 + 1 := by omega
      have hstep : (outsAt7 V c (n + 1) hn).2 (ix2 r d)
          = (outsAt7 V c n (Nat.lt_of_succ_lt hn)).2 (ix2 r d) + tileSum7 (featArr7 V c) (srcRow7 V c ((n + 1) / 40) r) d ((n + 1) % 40) := by
        by_cases h1 : (n + 1) % 40 = 39
        · exact step7_C V c ⟨n + 1, hn⟩ h0 h1 r d
        · exact step7_B V c ⟨n + 1, hn⟩ h0 h1 r d
      rw [hstep, ih, hdiv, hmod]
      rfl

/-! ## The output block at a written-back point, and the array at the end -/

/-- Row `e`, column `d` of what the output array ends holding: the feature row the edge's source word names (0 if it names
    none) times the edge's gate. -/
def G7row (c : Dev nD) (e : Fin 1600000) (d : Fin 153) : EReal :=
  (if hw : (srcArr7 V c (ix2 e (0 : Fin 1))).toNat < 102400 then featArr7 V c (ix2 ⟨(srcArr7 V c (ix2 e (0 : Fin 1))).toNat, hw⟩ d) else 0)
    * gateArr7 V c (ix2 e (0 : Fin 1))

/-- The whole output array at the end of the region. -/
def G7 (c : Dev nD) : Vec Ideal S1600000x153 .bf16 := fun i => G7row V c (i 0) (i 1)

/-- At the last node tile the output block is the scratch, entry by entry, times the edge's gate. -/
theorem out7_C_val (c : Dev nD) (t : Fin cfg7.N) (h0 : ¬t.val % 40 = 0) (h1 : t.val % 40 = 39) (r : Fin 1280) (d : Fin 153) :
    (outsAt7 V c t.val t.isLt).1 (ix2 r d)
      = (outsAt7 V c t.val t.isLt).2 (ix2 r d) * gateArr7 V c (ix2 ⟨t.val / 40 * 1280 + r.val, edge7_lt t r⟩ (0 : Fin 1)) := by
  rw [outsAt7_C V c t h0 h1]
  dsimp only
  refine (congrFun (out7_C_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) (ix2 r d)).trans ?_
  refine (k7_pay3_apply _ (iblk7 V c 1 t) r d).trans ?_
  rw [iblk7_1_apply V c t r (edge7_lt t r)]
  refine congrArg (· * gateArr7 V c (ix2 ⟨t.val / 40 * 1280 + r.val, edge7_lt t r⟩ (0 : Fin 1))) ?_
  exact (congrFun (sout7_C_eq (F := Ideal) c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) (ix2 r d)).symm

/-- So at a written-back point the output block's entry `(r, d)` is row `(t / 40) * 1280 + r`, column `d` of `G7`. -/
theorem out7_at_flush (c : Dev nD) (t : Fin cfg7.N) (h1 : t.val % 40 = 39) (r : Fin 1280) (d : Fin 153) :
    (outsAt7 V c t.val t.isLt).1 (ix2 r d) = G7row V c ⟨t.val / 40 * 1280 + r.val, edge7_lt t r⟩ d := by
  have h0 : ¬t.val % 40 = 0 := by omega
  rw [out7_C_val V c t h0 h1 r d, scratch7_eq V c t.val t.isLt r d, h1, accum_tileSum7_last, srcRow7_eq]
  rfl

/-- What a written-back point writes back is its block of `G7`. -/
theorem flushed7_eq (c : Dev nD) (t : Fin cfg7.N) (hf : (cfg7.win 3).flush t = true) :
    (dat7 (F := Ideal) V c).flushed 3 t = ((cfg7.win 3).blk t).view.read (Elt Ideal) (G7 V c) := by
  have h1 : t.val % 40 = 39 := by
    by_contra h
    rw [noFlush7_3 t h] at hf
    exact Bool.false_ne_true hf
  show (cfg7.win 3).cut (grid7.coords t) ((dat7 (F := Ideal) V c).after 3 t) = _
  rw [after7_3]
  funext j
  obtain ⟨r, d, rfl⟩ : ∃ (r : Fin 1280) (d : Fin 153), j = ix2 r d := ⟨j 0, j 1, eq_ix2 j⟩
  have e0 : (((cfg7.win 3).blk t).view.emb (ix2 r d) : S1600000x153.Idx) = ix2 ⟨t.val / 40 * 1280 + r.val, edge7_lt t r⟩ d := by
    funext a
    apply Fin.ext
    match a with
    | ⟨0, _⟩ =>
      show win7_3.index t 0 * 1280 + 1 * r.val = t.val / 40 * 1280 + r.val
      rw [show win7_3.index t 0 = t.val / 40 from tr7_3_0 t]; omega
    | ⟨1, _⟩ =>
      show win7_3.index t 1 * 153 + 1 * d.val = d.val
      rw [show win7_3.index t 1 = 0 from rfl]; omega
  show (outsAt7 V c t.val t.isLt).1 (ix2 r d) = G7 V c (((cfg7.win 3).blk t).view.emb (ix2 r d))
  rw [e0, out7_at_flush V c t h1 r d]
  rfl

/-- The output array after the region: every row written by the last point of its edge block. -/
theorem arrAt7_out_eq (c : Dev nD) : (dat7 (F := Ideal) V c).arrAt 3 cfg7.N = G7 V c :=
  (dat7 (F := Ideal) V c).arrAt_eq_of_cover 3 (G7 V c) (flushed7_eq V c) cover7_3

/-- Row `e` of the output array, when the edge's source word names a feature row: that row times the edge's gate. -/
theorem arrAt7_out (c : Dev nD) (e : Fin 1600000) (d : Fin 153) (hrow : (srcArr7 V c (ix2 e (0 : Fin 1))).toNat < 102400) :
    (dat7 (F := Ideal) V c).arrAt 3 cfg7.N (ix2 e d)
      = featArr7 V c (ix2 ⟨(srcArr7 V c (ix2 e (0 : Fin 1))).toNat, hrow⟩ d) * gateArr7 V c (ix2 e (0 : Fin 1)) := by
  refine (congrFun (arrAt7_out_eq V c) (ix2 e d)).trans ?_
  show G7row V c e d = _
  unfold G7row
  rw [dif_pos hrow]

/-! ## The input windows' arrays are left as the region found them -/

theorem arrAt7_in_0 (c : Dev nD) (n : ℕ) : (dat7 (F := Ideal) V c).arrAt 0 n = V c main_v20 :=
  ((dat7 (F := Ideal) V c).arrAt_in 0 rfl n).trans (A_eq7 V c 0)
theorem arrAt7_in_1 (c : Dev nD) (n : ℕ) : (dat7 (F := Ideal) V c).arrAt 1 n = V c main_v22 :=
  ((dat7 (F := Ideal) V c).arrAt_in 1 rfl n).trans (A_eq7 V c 1)
theorem arrAt7_in_2 (c : Dev nD) (n : ℕ) : (dat7 (F := Ideal) V c).arrAt 2 n = V c main_v40 :=
  ((dat7 (F := Ideal) V c).arrAt_in 2 rfl n).trans (A_eq7 V c 2)

end Cert.KernelIdeal.H

end
-- ==== Proof.KI.V8Pieces.lean ====
/- Region 8 (scatter by a one-hot matrix product into an accumulator carried across the grid's second axis, then a
   row normalisation): WHAT EACH CASE OF THE BODY LEAVES, as the skeleton's payloads of the blocks it read.
   Case A (second coordinate 0): the accumulator is filled with zeros, read back, and updated: it ends at the update of
   the zero block. Cases B and C: it ends at the update of what the point before left. Case C (second coordinate
   1249) also stores the output block: the normalisation of the accumulator just updated, by the scale and shift rows.
   Each store writes its whole buffer at zero offsets, so what the writes leave reads back as the last store's
   payload, and every load through the whole-buffer rectangle reads the buffer's contents. -/
import proofs.«421344_j1254130450614_1_alg».proof.Proof.KI.R8
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every load and store of the body, however spelt. -/
theorem hz8 : (![0, 0] : Fin 2 → Nat) = fun _ => 0 := funext fun a => by fin_cases a <;> rfl

/-- CASE A: the accumulator ends at the update, by the index block `x0` and the message block `x1`, of the zero block:
    the zero fill is read back by the update's load, and the update's store covers the buffer. -/
theorem sout8_A_0_eq (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : cond8_0 i) (hc1 : ¬cond8_1 i)
    (x0 : Vec F S1x1280 .i32) (x1 : Vec F S1280x153 .bf16) (x2 : Vec F S1x153 .f32) (x3 : Vec F S1x153 .f32) :
    sout8_A_0 c i arg2 harg2 arg3 harg3 arg4 harg4 arg5 harg5 arg6 harg6 arg7 harg7 hc0 hc1 x0 x1 x2 x3 = k8_pay2 i x0 (k8_pay1 (F := F)) x1 := by
  unfold sout8_A_0
  rw [View.read_writes_eq_canon _ _ _ (scover8_A_0 c i arg2 harg2 arg3 harg3 arg4 harg4 arg5 harg5 arg6 harg6 arg7 harg7 hc0 hc1 x0 x1 x2 x3)]
  unfold kernelRun8_A
  dsimp only
  sl_unfold_words
  rw [View.canon_cons_unit_zero (S := S2560x153) hz8, View.readCov_unit_zero (S := S2560x153) _ hz8]
  simp only [View.readAt_eq_ld, harg2.read_unread, harg3.read_unread, View.ld_unit_zero (S := S1x1280) hz8, View.ld_unit_zero (S := S1280x153) hz8]

/-- CASE B: the accumulator ends at the update of `xs0`, what the point before left in it. -/
theorem sout8_B_0_eq (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : ¬cond8_1 i)
    (x0 : Vec F S1x1280 .i32) (x1 : Vec F S1280x153 .bf16) (x2 : Vec F S1x153 .f32) (x3 : Vec F S1x153 .f32) (xs0 : Vec F S2560x153 .f32) :
    sout8_B_0 c i arg2 harg2 arg3 harg3 arg4 harg4 arg5 harg5 arg6 harg6 arg7 harg7 hc0 hc1 x0 x1 x2 x3 xs0 = k8_pay2 i x0 xs0 x1 := by
  unfold sout8_B_0
  rw [View.read_writes_eq_canon _ _ _ (scover8_B_0 c i arg2 harg2 arg3 harg3 arg4 harg4 arg5 harg5 arg6 harg6 arg7 harg7 hc0 hc1 x0 x1 x2 x3 xs0)]
  unfold kernelRun8_B
  dsimp only
  sl_unfold_words
  rw [View.canon_unit_zero hz8]
  simp only [View.readAt_eq_ld, harg2.read_unread, harg3.read_unread, harg7.read_unread, View.ld_unit_zero (S := S1x1280) hz8,
    View.ld_unit_zero (S := S1280x153) hz8, View.ld_unit_zero (S := S2560x153) hz8]

/-- CASE C: the accumulator ends at the update of `xs0`, as in case B. -/
theorem sout8_C_0_eq (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) :
    sout8_C_0 c i arg2 harg2 arg3 harg3 arg4 harg4 arg5 harg5 arg6 harg6 arg7 harg7 hc0 hc1 x0 x1 x2 x3 xs0 = k8_pay2 i x0 xs0 x1 := by
  unfold sout8_C_0
  rw [View.read_writes_eq_canon _ _ _ (scover8_C_0 c i arg2 harg2 arg3 harg3 arg4 harg4 arg5 harg5 arg6 harg6 arg7 harg7 hc0 hc1 x0 x1 x2 x3 xs0)]
  unfold kernelRun8_C
  dsimp only
  sl_unfold_words
  rw [View.canon_unit_zero hz8]
  simp only [View.readAt_eq_ld, harg2.read_unread, harg3.read_unread, harg7.read_unread, View.ld_unit_zero (S := S1x1280) hz8,
    View.ld_unit_zero (S := S1280x153) hz8, View.ld_unit_zero (S := S2560x153) hz8]

/-- CASE C: the output block ends at the normalisation of the accumulator just updated (the store's load reads the
    update back), scaled by the row `x2` and shifted by the row `x3`. -/
theorem out8_C_4_eq (c : Dev nD) (i : grid8.Coords) (arg2 : Memref sig .tc .vmem S1x1280 .i32) (harg2 : arg2.IsWhole) (arg3 : Memref sig .tc .vmem S1280x153 .bf16) (harg3 : arg3.IsWhole) (arg4 : Memref sig .tc .vmem S1x153 .f32) (harg4 : arg4.IsWhole) (arg5 : Memref sig .tc .vmem S1x153 .f32) (harg5 : arg5.IsWhole) (arg6 : Memref sig .tc .vmem S2560x153 .f32) (harg6 : arg6.IsWhole) (arg7 : Memref sig .tc .vmem S2560x153 .f32) (harg7 : arg7.IsWhole) (hc0 : ¬cond8_0 i) (hc1 : cond8_1 i)
    (x0 : Vec F S1x1280 .i32) (x1 : Vec F S1280x153 .bf16) (x2 : Vec F S1x153 .f32) (x3 : Vec F S1x153 .f32) (xs0 : Vec F S2560x153 .f32) :
    out8_C_4 c i arg2 harg2 arg3 harg3 arg4 harg4 arg5 harg5 arg6 harg6 arg7 harg7 hc0 hc1 x0 x1 x2 x3 xs0 = k8_pay3 (k8_pay2 i x0 xs0 x1) x2 x3 := by
  unfold out8_C_4
  rw [View.read_writes_eq_canon _ _ _ (cover8_C_4 c i arg2 harg2 arg3 harg3 arg4 harg4 arg5 harg5 arg6 harg6 arg7 harg7 hc0 hc1 x0 x1 x2 x3 xs0)]
  unfold kernelRun8_C
  dsimp only
  sl_unfold_words
  rw [View.canon_unit_zero hz8]
  simp only [View.readCov_unit_zero (S := S2560x153) _ hz8, View.readAt_eq_ld, harg2.read_unread, harg3.read_unread, harg4.read_unread,
    harg5.read_unread, harg7.read_unread, View.ld_unit_zero (S := S1x1280) hz8, View.ld_unit_zero (S := S1280x153) hz8,
    View.ld_unit_zero (S := S2560x153) hz8, View.ld_unit_zero (S := S1x153) hz8]

end Cert.KernelIdeal.H

end
-- ==== Proof.KI.V8Pay.lean ====
import proofs.«421344_j1254130450614_1_alg».proof.Proof.Gen.KernelIdeal.Skeleton
import proofs.«421344_j1254130450614_1_alg».proof.Proof.KI.V2Pay
import proofs.«421344_j1254130450614_1_alg».proof.Proof.Spec
import Idealize.ShloMosaic.Lib.ValueLayout
import Idealize.ShloMosaic.PureOps.Ideal.Laws

/-!
The first two values region 8 stores (the reset of the accumulator and its update), read at one entry (r, d) at the ideal
values, with the row-mean lemmas at the row width of this region. The third value, the row normalisation, is read in the module beside this one.
-/

noncomputable section

namespace Cert.KernelIdeal.H

open Cert.KernelIdeal Cert.KernelIdeal.Gen
open Idealize.ShloMosaic Idealize.ShloMosaic.ValueIdx
open scoped BigOperators

/-! ## The reset payload -/

/-- The reset stores the zero block. -/
theorem k8_pay1_apply (r : Fin 2560) (d : Fin 153) : (k8_pay1 (F := Ideal)) (ix2 r d) = 0 := by
  unfold k8_pay1
  rw [shapeCast_self]
  show Ideal.ofBits .f32 0x00000000#32 = 0
  exact Ideal.ofBits_zero_f32

/-! ## The row-normalisation payload -/

/-- A lane sum with the zero accumulator: at row `r`, the sum of the row's 153 entries. -/
theorem lane_sum8 (v : FVec Ideal S2560x153 .f32) (r : Fin 2560) :
    multiReduction .add [1] S2560 v 0x00000000#32 reduces_S2560x153_S2560 (.inl rfl) rfl (ix1 r)
      = ∑ d : Fin 153, v (ix2 r d) := by
  refine (Ideal.multiReduction_add_single v 0x00000000#32 reduces_S2560x153_S2560 (.inl rfl) rfl (ix1 r)).trans ?_
  refine Finset.sum_congr rfl fun d _ => congrArg v ?_
  funext a
  match a with
  | ⟨0, _⟩ => rfl
  | ⟨1, _⟩ => rfl

/-- The column of row means of a block: each row's lane sum divided by the row length's literal. -/
def meanCol8 (v : FVec Ideal S2560x153 .f32) : FVec Ideal S2560x1 .f32 :=
  divf (shapeCast S2560x1 (multiReduction .add [1] S2560 v 0x00000000#32 reduces_S2560x153_S2560 (.inl rfl) rfl)
      shapeCasts_S2560_S2560x1)
    (broadcast S2560x1 (Scalar.ofBits .f32 0x43190000#32))

/-- The mean column at row `r` is the row's mean. -/
theorem meanCol8_apply (v : FVec Ideal S2560x153 .f32) (r : Fin 2560) (u : Fin 1) :
    meanCol8 v (ix2 r u)
      = Cert.Spec.mean (Ideal.ofBits .f32 0x43190000#32) (fun r d => v (ix2 r d)) r := by
  show Ideal.div (shapeCast S2560x1 _ shapeCasts_S2560_S2560x1 (ix2 r u)) (Ideal.ofBits .f32 0x43190000#32) = _
  rw [shapeCast_a_a1_apply, lane_sum8]
  rfl

/-! ## The update payload: a one-hot product added to the accumulator -/

/-- The left operand's row coordinate is the output's row … -/
theorem lhs_d8_0 (j : S2560x153.Idx) (k : dot_S2560x1280_S1280x153_S2560x153_1_0_0_1_n_n.contr.Idx) :
    (dot_S2560x1280_S1280x153_S2560x153_1_0_0_1_n_n.lhsIdx j k 0).val = (j 0).val := rfl
/-- … its column coordinate the contraction position … -/
theorem lhs_d8_1 (j : S2560x153.Idx) (k : dot_S2560x1280_S1280x153_S2560x153_1_0_0_1_n_n.contr.Idx) :
    (dot_S2560x1280_S1280x153_S2560x153_1_0_0_1_n_n.lhsIdx j k 1).val = (k ⟨0, by decide⟩).val :=
  dot_S2560x1280_S1280x153_S2560x153_1_0_0_1_n_n.lhsIdx_val_of_single rfl j k
/-- … the right operand's row coordinate the contraction position … -/
theorem rhs_d8_0 (j : S2560x153.Idx) (k : dot_S2560x1280_S1280x153_S2560x153_1_0_0_1_n_n.contr.Idx) :
    (dot_S2560x1280_S1280x153_S2560x153_1_0_0_1_n_n.rhsIdx j k 0).val = (k ⟨0, by decide⟩).val :=
  dot_S2560x1280_S1280x153_S2560x153_1_0_0_1_n_n.rhsIdx_val_of_single rfl j k
/-- … and its column coordinate the output's column. -/
theorem rhs_d8_1 (j : S2560x153.Idx) (k : dot_S2560x1280_S1280x153_S2560x153_1_0_0_1_n_n.contr.Idx) :
    (dot_S2560x1280_S1280x153_S2560x153_1_0_0_1_n_n.rhsIdx j k 1).val = (j 1).val := rfl

/-- The product into the zero accumulator at `(r, d)`: row `r` of the left operand against column `d` of the right. -/
theorem matmul8_apply (a : FVec Ideal S2560x1280 .bf16) (b : FVec Ideal S1280x153 .bf16) (r : Fin 2560) (d : Fin 153) :
    matmul dot_S2560x1280_S1280x153_S2560x153_1_0_0_1_n_n none a b (constant S2560x153 .f32 0x00000000#32) (ix2 r d)
      = ∑ q : Fin 1280, a (ix2 r q) * b (ix2 q d) := by
  refine (Ideal.matmul_constant_zero_apply dot_S2560x1280_S1280x153_S2560x153_1_0_0_1_n_n none a b (ix2 r d)).trans ?_
  refine (Equiv.sum_comp (contrEquiv1 dot_S2560x1280_S1280x153_S2560x153_1_0_0_1_n_n 1280 rfl rfl).symm _).symm.trans ?_
  refine Finset.sum_congr rfl fun q _ => ?_
  have hk := contrEquiv1_symm_val dot_S2560x1280_S1280x153_S2560x153_1_0_0_1_n_n 1280 rfl rfl q
  congr 1
  · refine congrArg a (funext fun ax => Fin.ext ?_)
    match ax with
    | ⟨0, _⟩ => exact lhs_d8_0 _ _
    | ⟨1, _⟩ => exact (lhs_d8_1 _ _).trans hk
  · refine congrArg b (funext fun ax => Fin.ext ?_)
    match ax with
    | ⟨0, _⟩ => exact (rhs_d8_0 _ _).trans hk
    | ⟨1, _⟩ => exact rhs_d8_1 _ _

/-- The one-hot block of a grid point: entry `(r, q)` compares the row's word with the target word of edge `q`. -/
def onehot8 (i : grid8.Coords) (v7 : Vec Ideal S1x1280 .i32) : FVec Ideal S2560x1280 .bf16 :=
  truncf .bf16 (sitofp .f32 (extui 32 (cmpi .eq
    (broadcastTo S2560x1280
      (addi (iota .tc S2560x1 32 [0] iota_S2560x1_d0_w32)
        (broadcast S2560x1 (Scalar.muli (BitVec.ofNat 32 (i 0).val) 2560#32)))
      broadcasts_S2560x1_S2560x1280)
    (broadcastTo S2560x1280 (shapeCast S1x1280 v7 shapeCasts_S1x1280_S1x1280) broadcasts_S1x1280_S2560x1280))
    natLt_1_32)) bitsLt_bf16_f32

theorem onehot8_apply (i : grid8.Coords) (v7 : Vec Ideal S1x1280 .i32) (r : Fin 2560) (q : Fin 1280) :
    onehot8 i v7 (ix2 r q)
      = if BitVec.ofNat 32 (r.val + (i 0).val * 2560) = v7 (ix2 0 q) then 1 else 0 := by
  show (FloatOps.sitofp .f32 ((IntOp.cmpi .eq
      (broadcastTo S2560x1280 _ broadcasts_S2560x1_S2560x1280 (ix2 r q))
      (broadcastTo S2560x1280 _ broadcasts_S1x1280_S2560x1280 (ix2 r q))).setWidth 32) : Ideal .f32) = _
  rw [broadcastTo_a1_ab_apply, broadcastTo_1b_ab_apply, shapeCast_self, onehot_val]
  show (if IntOp.addi (iota .tc S2560x1 32 [0] iota_S2560x1_d0_w32 (ix2 r (0 : Fin 1)))
        (Scalar.muli (BitVec.ofNat 32 (i 0).val) 2560#32) = v7 (ix2 0 q) then (1 : EReal) else 0) = _
  rw [iota_single_apply]
  show (if IntOp.addi (BitVec.ofNat 32 r.val) (Scalar.muli (BitVec.ofNat 32 (i 0).val) 2560#32) = v7 (ix2 0 q)
        then (1 : EReal) else 0) = _
  rw [row_word]

/-- The payload as one expression in the one-hot block. -/
theorem k8_pay2_eq (i : grid8.Coords) (v7 : Vec Ideal S1x1280 .i32) (v15 : Vec Ideal S2560x153 .f32)
    (v16 : Vec Ideal S1280x153 .bf16) :
    k8_pay2 i v7 v15 v16
      = shapeCast S2560x153
          (addf v15 (matmul (φ₁ := .bf16) (φ₂ := .bf16) dot_S2560x1280_S1280x153_S2560x153_1_0_0_1_n_n none (onehot8 i v7)
            (shapeCast S1280x153 v16 shapeCasts_S1280x153_S1280x153 : FVec Ideal S1280x153 .bf16)
            (constant S2560x153 .f32 0x00000000#32)))
          shapeCasts_S2560x153_S2560x153 := rfl

/-- The update payload at `(r, d)`: the accumulator there plus the rows of the edge tile whose target is this row. -/
theorem k8_pay2_apply (i : grid8.Coords) (v7 : Vec Ideal S1x1280 .i32) (v15 : Vec Ideal S2560x153 .f32)
    (v16 : Vec Ideal S1280x153 .bf16) (r : Fin 2560) (d : Fin 153) :
    k8_pay2 i v7 v15 v16 (ix2 r d)
      = v15 (ix2 r d) + ∑ q : Fin 1280,
          (if BitVec.ofNat 32 (r.val + (i 0).val * 2560) = v7 (ix2 0 q) then 1 else 0) * v16 (ix2 q d) := by
  rw [k8_pay2_eq, shapeCast_self, addf_apply, matmul8_apply]
  refine congrArg (v15 (ix2 r d) + ·) (Finset.sum_congr rfl fun q _ => ?_)
  rw [onehot8_apply, shapeCast_self]

end Cert.KernelIdeal.H

end
-- ==== Proof.KI.V8Pay3.lean ====
import proofs.«421344_j1254130450614_1_alg».proof.Proof.KI.V8Pay

/-!
The third value region 8's body stores, read at one entry `(r, d)` at the ideal values.

At the last edge tile of a block of node rows the body writes out the accumulated block's rows normalised to zero mean
and unit variance (the divisor is the row length 153, as the program's own literal), scaled by the gain row and shifted
by the bias row. Unlike the same kernel at the first two layers, this one does not clamp the result at zero.
-/

noncomputable section

namespace Cert.KernelIdeal.H

open Cert.KernelIdeal Cert.KernelIdeal.Gen
open Idealize.ShloMosaic Idealize.ShloMosaic.ValueIdx
open scoped BigOperators

/-- The payload as one expression in the mean column. -/
theorem k8_pay3_eq (v26 : Vec Ideal S2560x153 .f32) (v45 : Vec Ideal S1x153 .f32) (v49 : Vec Ideal S1x153 .f32) :
    k8_pay3 v26 v45 v49
      = addf
          (mulf
            (mulf (subf v26 (broadcastTo S2560x153 (meanCol8 v26) broadcasts_S2560x1_S2560x153))
              (broadcastTo S2560x153
                (rsqrt (addf
                  (meanCol8 (mulf (subf v26 (broadcastTo S2560x153 (meanCol8 v26) broadcasts_S2560x1_S2560x153))
                                  (subf v26 (broadcastTo S2560x153 (meanCol8 v26) broadcasts_S2560x1_S2560x153))))
                  (broadcast S2560x1 (Scalar.ofBits .f32 0x3727C5AC#32))))
                broadcasts_S2560x1_S2560x153))
            (broadcastTo S2560x153 (shapeCast S1x153 v45 shapeCasts_S1x153_S1x153) broadcasts_S1x153_S2560x153))
          (broadcastTo S2560x153 (shapeCast S1x153 v49 shapeCasts_S1x153_S1x153) broadcasts_S1x153_S2560x153) := rfl

/-- The flush payload at `(r, d)`: the row normalisation of the accumulated block, with no clamp after it. -/
theorem k8_pay3_apply (v26 : Vec Ideal S2560x153 .f32) (v45 : Vec Ideal S1x153 .f32) (v49 : Vec Ideal S1x153 .f32)
    (r : Fin 2560) (d : Fin 153) :
    k8_pay3 v26 v45 v49 (ix2 r d)
      = Cert.Spec.normMul (Ideal.ofBits .f32 0x43190000#32) (Ideal.ofBits .f32 0x3727C5AC#32)
          (fun r d => v26 (ix2 r d)) (fun d => v45 (ix2 0 d)) (fun d => v49 (ix2 0 d)) r d := by
  rw [k8_pay3_eq]
  simp only [addf_apply, mulf_apply, subf_apply, rsqrt_apply, broadcast_apply,
    broadcastTo_a1_ab_apply, broadcastTo_1b_ab_apply, shapeCast_self, meanCol8_apply, scalar_ofBits]
  rfl

end Cert.KernelIdeal.H

end
-- ==== Proof.KI.V8.lean ====
import proofs.«421344_j1254130450614_1_alg».proof.Proof.KI.V8Pieces
import proofs.«421344_j1254130450614_1_alg».proof.Proof.KI.V8Pay
import proofs.«421344_j1254130450614_1_alg».proof.Proof.KI.V8Pay3
import proofs.«421344_j1254130450614_1_alg».proof.Proof.LibTileSums
import Idealize.ShloMosaic.Lib.Pipeline.Value

/-!
What region 8 leaves in its output array, at the ideal values.

The grid is 40 blocks of 2560 node rows by 1250 tiles of 1280 edges, the tiles of one block run through first to last.
Write `col e` for the target word of edge `e` and `msg e` for its message row.  At tile `i` of block `j` the
accumulator gains, in row `r` and lane `d`, the messages `msg (1280 i + q) d` of the tile's edges whose target word is
the word of `2560 j + r`; the first tile starts from zero.  By induction on the point, after tile `i` the accumulator
holds the sum over the tiles up to `i`; after the last tile that is the sum over all 1600000 edges whose target is the
row — the segment sum.  That tile also writes the block back: each accumulated row normalised to zero mean and unit
variance, scaled and shifted.  Every row of the array lies in exactly one such block, so the array
ends holding that function of the four input arrays, and the input arrays are untouched.
-/

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Sums over the edges, tile by tile -/

section Tiles
variable (col : Fin 1600000 → BitVec 32) (msg : Fin 1600000 → Fin 153 → EReal)

/-- What tile `i` of 1280 edges adds, at lane `d`, to the row whose word is `w` (nothing past the last tile). -/
def tileTerm8 (w : BitVec 32) (d : Fin 153) (i : ℕ) : EReal :=
  if h : i < 1250 then
    ∑ q : Fin 1280, (if w = col ⟨i * 1280 + q.val, by have := q.isLt; omega⟩ then (1 : EReal) else 0)
      * msg ⟨i * 1280 + q.val, by have := q.isLt; omega⟩ d
  else 0

/-- The 1250 tiles together: every edge whose target word is `w` contributes its message. -/
theorem tileTerm8_sum (w : BitVec 32) (d : Fin 153) :
    ∑ i ∈ Finset.range 1250, tileTerm8 col msg w d i = ∑ e : Fin 1600000, (if col e = w then msg e d else 0) := by
  rw [Finset.sum_range]
  refine Cert.LibTileSums.sum_tiles_of (A := 1250) (B := 1280) (n := 1600000) rfl
    (fun e => if col e = w then msg e d else 0) (fun i => tileTerm8 col msg w d i.val) fun i => ?_
  unfold tileTerm8
  rw [dif_pos i.isLt]
  refine Finset.sum_congr rfl fun q _ => ?_
  by_cases h : w = col ⟨i.val * 1280 + q.val, Cert.LibTileSums.tile_lt rfl i q⟩
  · rw [if_pos h, one_mul]; exact (if_pos h.symm).symm
  · rw [if_neg h, zero_mul]; exact (if_neg fun e => h e.symm).symm

end Tiles

/-! ## The region's arrays and blocks at their literal types -/

section Blocks
variable (V : (c : Dev nD) → (b : Ref sig .tc) → Buf (Elt Ideal) ((c : Thread nD τ).loc b))

/-- The target words of the 1600000 edges, the messages, the scale and the shift, as the region finds them. -/
abbrev colArr8 (c : Dev nD) : Vec Ideal S1x1600000 .i32 := V c main_v21
abbrev msgArr8 (c : Dev nD) : Vec Ideal S1600000x153 .bf16 := V c main_v41
abbrev gArr8 (c : Dev nD) : Vec Ideal S1x153 .f32 := V c main_v42
abbrev bArr8 (c : Dev nD) : Vec Ideal S1x153 .f32 := V c main_v43

/-- The four input blocks at point `t`. -/
abbrev colBlk8 (c : Dev nD) (t : Fin cfg8.N) : Vec Ideal S1x1280 .i32 := iblk8 V c 0 t
abbrev msgBlk8 (c : Dev nD) (t : Fin cfg8.N) : Vec Ideal S1280x153 .bf16 := iblk8 V c 1 t
abbrev gBlk8 (c : Dev nD) (t : Fin cfg8.N) : Vec Ideal S1x153 .f32 := iblk8 V c 2 t
abbrev bBlk8 (c : Dev nD) (t : Fin cfg8.N) : Vec Ideal S1x153 .f32 := iblk8 V c 3 t

/-- Edge `q` of the tile at point `t` is edge `(t mod 1250) · 1280 + q`: its target word … -/
theorem colBlk8_apply (c : Dev nD) (t : Fin cfg8.N) (q : Fin 1280) :
    colBlk8 V c t (ix2 0 q)
      = colArr8 V c (ix2 0 ⟨t.val % 1250 * 1280 + q.val, by have := q.isLt; have := Nat.mod_lt t.val (show 1250 > 0 by decide); omega⟩) := by
  show ((cfg8.win 0).blk t).view.read (Elt Ideal) (V c main_v21) (ix2 0 q) = _
  rw [View.read_apply]
  refine congrArg (V c main_v21) (funext fun a => Fin.ext ?_)
  have h1 : win8_0.index t 1 = t.val % 1250 := by
    show (BitVec.ofNat 32 (grid8.coords t 1).val).toNat = _
    rw [coords8_1 t]; exact word_nat _ (by have := Nat.mod_lt t.val (show 1250 > 0 by decide); omega)
  match a with
  | ⟨0, _⟩ => show win8_0.index t 0 * 1 + 1 * 0 = 0; show (0#32 : BitVec 32).toNat * 1 + 1 * 0 = 0; rfl
  | ⟨1, _⟩ => show win8_0.index t 1 * 1280 + 1 * q.val = t.val % 1250 * 1280 + q.val; rw [h1]; omega

/-- … and its message row. -/
theorem msgBlk8_apply (c : Dev nD) (t : Fin cfg8.N) (q : Fin 1280) (d : Fin 153) :
    msgBlk8 V c t (ix2 q d)
      = msgArr8 V c (ix2 ⟨t.val % 1250 * 1280 + q.val, by have := q.isLt; have := Nat.mod_lt t.val (show 1250 > 0 by decide); omega⟩ d) := by
  show ((cfg8.win 1).blk t).view.read (Elt Ideal) (V c main_v41) (ix2 q d) = _
  rw [View.read_apply]
  refine congrArg (V c main_v41) (funext fun a => Fin.ext ?_)
  have h0 : win8_1.index t 0 = t.val % 1250 := by
    show (BitVec.ofNat 32 (grid8.coords t 1).val).toNat = _
    rw [coords8_1 t]; exact word_nat _ (by have := Nat.mod_lt t.val (show 1250 > 0 by decide); omega)
  match a with
  | ⟨0, _⟩ => show win8_1.index t 0 * 1280 + 1 * q.val = t.val % 1250 * 1280 + q.val; rw [h0]; omega
  | ⟨1, _⟩ => show win8_1.index t 1 * 153 + 1 * d.val = d.val; show (0#32 : BitVec 32).toNat * 153 + 1 * d.val = d.val; simp

/-- The scale and the shift are one block each: every point reads the whole row. -/
theorem gBlk8_apply (c : Dev nD) (t : Fin cfg8.N) (d : Fin 153) : gBlk8 V c t (ix2 0 d) = gArr8 V c (ix2 0 d) := by
  show ((cfg8.win 2).blk t).view.read (Elt Ideal) (V c main_v42) (ix2 0 d) = _
  rw [View.read_apply]
  refine congrArg (V c main_v42) (funext fun a => Fin.ext ?_)
  match a with
  | ⟨0, _⟩ => show (0#32 : BitVec 32).toNat * 1 + 1 * 0 = 0; rfl
  | ⟨1, _⟩ => show (0#32 : BitVec 32).toNat * 153 + 1 * d.val = d.val; simp

theorem bBlk8_apply (c : Dev nD) (t : Fin cfg8.N) (d : Fin 153) : bBlk8 V c t (ix2 0 d) = bArr8 V c (ix2 0 d) := by
  show ((cfg8.win 3).blk t).view.read (Elt Ideal) (V c main_v43) (ix2 0 d) = _
  rw [View.read_apply]
  refine congrArg (V c main_v43) (funext fun a => Fin.ext ?_)
  match a with
  | ⟨0, _⟩ => show (0#32 : BitVec 32).toNat * 1 + 1 * 0 = 0; rfl
  | ⟨1, _⟩ => show (0#32 : BitVec 32).toNat * 153 + 1 * d.val = d.val; simp

/-- The first coordinate of a point is its block of node rows. -/
theorem coords8_0' (t : Fin cfg8.N) : (grid8.coords t 0).val = t.val / 1250 := by
  rw [coords8_0 t]; have := lt_N8 t; exact Nat.mod_eq_of_lt (by omega)

/-- THE UPDATE AT A POINT: over an accumulator `xs`, entry `(r, d)` gains what the point's tile of edges sends to
    node row `r` of the point's block. -/
theorem pay8_at (c : Dev nD) (t : Fin cfg8.N) (xs : Vec Ideal S2560x153 .f32) (r : Fin 2560) (d : Fin 153) :
    k8_pay2 (grid8.coords t) (colBlk8 V c t) xs (msgBlk8 V c t) (ix2 r d)
      = xs (ix2 r d) + tileTerm8 (fun e => colArr8 V c (ix2 0 e)) (fun e d => msgArr8 V c (ix2 e d))
          (BitVec.ofNat 32 (r.val + t.val / 1250 * 2560)) d (t.val % 1250) := by
  rw [k8_pay2_apply, coords8_0']
  refine congrArg (xs (ix2 r d) + ·) ?_
  unfold tileTerm8
  rw [dif_pos (Nat.mod_lt _ (by decide))]
  refine Finset.sum_congr rfl fun q _ => ?_
  rw [colBlk8_apply, msgBlk8_apply]

end Blocks

/-! ## What the accumulator holds after each point -/

section Acc
variable (V : (c : Dev nD) → (b : Ref sig .tc) → Buf (Elt Ideal) ((c : Thread nD τ).loc b))

/-- The edges' target words and messages as plain functions of the edge. -/
abbrev colF8 (c : Dev nD) : Fin 1600000 → BitVec 32 := fun e => colArr8 V c (ix2 0 e)
abbrev msgF8 (c : Dev nD) : Fin 1600000 → Fin 153 → EReal := fun e d => msgArr8 V c (ix2 e d)

/-- At the first tile of a block of rows the accumulator is reset and holds that tile's contribution. -/
theorem acc8_first (c : Dev nD) (t : Fin cfg8.N) (h0 : t.val % 1250 = 0) (r : Fin 2560) (d : Fin 153) :
    (outsAt8 V c t.val t.isLt).2 (ix2 r d)
      = tileTerm8 (colF8 V c) (msgF8 V c) (BitVec.ofNat 32 (r.val + t.val / 1250 * 2560)) d 0 := by
  have h1 : ¬t.val % 1250 = 1249 := by omega
  rw [outsAt8_A V c t h0 h1]
  dsimp only
  refine (congrFun (sout8_A_0_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t)) (ix2 r d)).trans ?_
  refine (pay8_at V c t (k8_pay1 (F := Ideal)) r d).trans ?_
  rw [k8_pay1_apply, zero_add, h0]

/-- At every later tile it gains that tile's contribution. -/
theorem acc8_next (c : Dev nD) (t : Fin cfg8.N) (h0 : ¬t.val % 1250 = 0) (r : Fin 2560) (d : Fin 153) :
    (outsAt8 V c t.val t.isLt).2 (ix2 r d)
      = (outsAt8 V c (t.val - 1) (Nat.lt_of_le_of_lt (Nat.sub_le _ _) t.isLt)).2 (ix2 r d)
        + tileTerm8 (colF8 V c) (msgF8 V c) (BitVec.ofNat 32 (r.val + t.val / 1250 * 2560)) d (t.val % 1250) := by
  by_cases h1 : t.val % 1250 = 1249
  · rw [outsAt8_C V c t h0 h1]
    dsimp only
    refine (congrFun (sout8_C_0_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2) (ix2 r d)).trans ?_
    exact pay8_at V c t _ r d
  · rw [outsAt8_B V c t h0 h1]
    dsimp only
    refine (congrFun (sout8_B_0_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2) (ix2 r d)).trans ?_
    exact pay8_at V c t _ r d

/-- So after point `n` it holds the contributions of the tiles `0 … n mod 1250` to the rows of block `n / 1250`. -/
theorem acc8_eq (c : Dev nD) : ∀ (n : ℕ) (hn : n < cfg8.N) (r : Fin 2560) (d : Fin 153),
    (outsAt8 V c n hn).2 (ix2 r d)
      = ∑ i ∈ Finset.range (n % 1250 + 1),
          tileTerm8 (colF8 V c) (msgF8 V c) (BitVec.ofNat 32 (r.val + n / 1250 * 2560)) d i
  | 0, hn, r, d => by
    refine (acc8_first V c ⟨0, hn⟩ (Nat.zero_mod _) r d).trans ?_
    show _ = ∑ i ∈ Finset.range (0 % 1250 + 1), _
    rw [Nat.zero_mod, Nat.zero_add, Finset.sum_range_one]
  | n + 1, hn, r, d => by
    by_cases h0 : (n + 1) % 1250 = 0
    · refine (acc8_first V c ⟨n + 1, hn⟩ h0 r d).trans ?_
      show tileTerm8 _ _ (BitVec.ofNat 32 (r.val + (n + 1) / 1250 * 2560)) d 0 = _
      rw [h0, Nat.zero_add, Finset.sum_range_one]
    · refine (acc8_next V c ⟨n + 1, hn⟩ h0 r d).trans ?_
      show (outsAt8 V c n _).2 (ix2 r d)
          + tileTerm8 _ _ (BitVec.ofNat 32 (r.val + (n + 1) / 1250 * 2560)) d ((n + 1) % 1250) = _
      rw [acc8_eq c n _ r d]
      have e1 : (n + 1) / 1250 = n / 1250 := by omega
      have e2 : (n + 1) % 1250 = n % 1250 + 1 := by omega
      rw [e1, e2]
      exact (Finset.sum_range_succ _ _).symm

end Acc

/-! ## The output array -/

section Out
variable (V : (c : Dev nD) → (b : Ref sig .tc) → Buf (Elt Ideal) ((c : Thread nD τ).loc b))

/-- Entry `(n, d)` of what the region's output ends holding: the messages summed onto node `n`, the row normalised,
    scaled and shifted. -/
def outVal8 (c : Dev nD) (n : Fin 102400) (d : Fin 153) : EReal :=
  (Cert.Spec.normMul (Ideal.ofBits .f32 0x43190000#32) (Ideal.ofBits .f32 0x3727C5AC#32)
    (Cert.Spec.seg (colF8 V c) (msgF8 V c)) (fun d => gArr8 V c (ix2 0 d)) (fun d => bArr8 V c (ix2 0 d)) n d)

/-- The same as contents of the output array. -/
def outArr8 (c : Dev nD) : Vec Ideal S102400x153 .f32 :=
  fun idx => outVal8 V c ⟨(idx 0).val, idx2_lt0 idx⟩ ⟨(idx 1).val, idx2_lt1 idx⟩

/-- The output's block at point `t` is the block of rows `t / 1250`, … -/
theorem index8_4_0 (t : Fin cfg8.N) : (cfg8.win 4).index t 0 = t.val / 1250 := by
  show (BitVec.ofNat 32 (grid8.coords t 0).val).toNat = _
  rw [coords8_0' t]; have := lt_N8 t; exact word_nat _ (by omega)
/-- … all 153 lanes. -/
theorem index8_4_1 (t : Fin cfg8.N) : (cfg8.win 4).index t 1 = 0 := rfl

/-- The last tile of a block of rows writes the block back. -/
theorem flush8_4_of (t : Fin cfg8.N) (h : t.val % 1250 = 1249) : (cfg8.win 4).flush t = true := by
  have hN := lt_N8 t
  unfold Pipeline.Window.flush
  rw [Bool.and_eq_true]
  refine ⟨rfl, ?_⟩
  rw [Bool.or_eq_true]
  by_cases hl : t.val + 1 = 50000
  · left; exact decide_eq_true (hl.trans N_8.symm)
  · right
    apply decide_eq_true
    have h' : t.val + 1 < cfg8.N := lt_of_lt_of_eq (by omega : t.val + 1 < 50000) N_8.symm
    refine ⟨h', fun e => ?_⟩
    have e0 := congrFun e 0
    rw [index8_4_0 ⟨t.val + 1, h'⟩, index8_4_0 t] at e0
    dsimp only at e0
    omega

/-- At the last tile of a block of rows, the rows of the accumulator are the segment sums of the block's nodes. -/
theorem acc8_last (c : Dev nD) (t : Fin cfg8.N) (h1 : t.val % 1250 = 1249) (r : Fin 2560) (d : Fin 153)
    (hn : t.val / 1250 * 2560 + r.val < 102400) :
    (outsAt8 V c t.val t.isLt).2 (ix2 r d) = Cert.Spec.seg (colF8 V c) (msgF8 V c) (⟨t.val / 1250 * 2560 + r.val, hn⟩ : Fin 102400) d := by
  rw [acc8_eq V c t.val t.isLt r d, h1, tileTerm8_sum]
  show _ = ∑ e, (if colF8 V c e = BitVec.ofNat 32 (t.val / 1250 * 2560 + r.val) then msgF8 V c e d else 0)
  rw [Nat.add_comm r.val]

/-- What the last tile of a block of rows leaves in the output's staging buffer. -/
theorem out8_at (c : Dev nD) (t : Fin cfg8.N) (h1 : t.val % 1250 = 1249) (r : Fin 2560) (d : Fin 153)
    (hn : t.val / 1250 * 2560 + r.val < 102400) :
    (outsAt8 V c t.val t.isLt).1 (ix2 r d) = outVal8 V c ⟨t.val / 1250 * 2560 + r.val, hn⟩ d := by
  have h0 : ¬t.val % 1250 = 0 := by omega
  have e : (outsAt8 V c t.val t.isLt).1 = k8_pay3 (outsAt8 V c t.val t.isLt).2 (gBlk8 V c t) (bBlk8 V c t) := by
    rw [outsAt8_C V c t h0 h1]
    dsimp only
    rw [out8_C_4_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2,
      sout8_C_0_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2]
  refine (congrFun e (ix2 r d)).trans ?_
  refine (k8_pay3_apply _ _ _ r d).trans ?_
  exact normMul_row _ _ _ _ _ _ _ _ r ⟨t.val / 1250 * 2560 + r.val, hn⟩
    (fun d => acc8_last V c t h1 r d hn) (fun d => gBlk8_apply V c t d) (fun d => bBlk8_apply V c t d) d

/-- Reading any contents of the output array through a point's block is reading them at the block's entries. -/
theorem read_blk8_4 (G : Vec Ideal S102400x153 .f32) (t : Fin cfg8.N) (r : Fin 2560) (d : Fin 153) :
    ((cfg8.win 4).blk t).view.read (Elt Ideal) G (ix2 r d) = G (((cfg8.win 4).blk t).view.emb (ix2 r d)) := rfl

/-- The output's blocks are whole: what is written back of a staging buffer is the buffer. -/
theorem cut8_4 (X : Vec Ideal S2560x153 .f32) (t : Fin cfg8.N) (r : Fin 2560) (d : Fin 153) :
    (cfg8.win 4).cut (grid8.coords t) X (ix2 r d) = X (ix2 r d) := rfl

/-- Entry `(r, d)` of the block at point `t` is entry `(t / 1250 · 2560 + r, d)` of the array. -/
theorem emb8_4 (t : Fin cfg8.N) (r : Fin 2560) (d : Fin 153) (hn : t.val / 1250 * 2560 + r.val < 102400) :
    (((cfg8.win 4).blk t).view.emb (ix2 r d) : S102400x153.Idx)
      = ix2 (⟨t.val / 1250 * 2560 + r.val, hn⟩ : Fin 102400) d := by
  funext a
  apply Fin.ext
  match a with
  | ⟨0, _⟩ =>
    show (cfg8.win 4).index t 0 * 2560 + 1 * r.val = t.val / 1250 * 2560 + r.val
    rw [index8_4_0]; omega
  | ⟨1, _⟩ =>
    show (cfg8.win 4).index t 1 * 153 + 1 * d.val = d.val
    rw [index8_4_1]; omega

/-- WHAT A POINT WRITES BACK is its block of the output array's final contents. -/
theorem flushed8_4_eq (c : Dev nD) (t : Fin cfg8.N) (hf : (cfg8.win 4).flush t = true) :
    (dat8 V c).flushed 4 t = ((cfg8.win 4).blk t).view.read (Elt Ideal) (outArr8 V c) := by
  have h1 : t.val % 1250 = 1249 := by
    by_contra h
    rw [noFlush8_4_of t h] at hf
    exact Bool.false_ne_true hf
  have hN := lt_N8 t
  show (cfg8.win 4).cut (grid8.coords t) ((dat8 V c).after 4 t) = _
  rw [after8_4]
  funext y
  obtain ⟨r, d, rfl⟩ : ∃ (r : Fin 2560) (d : Fin 153), y = ix2 r d := ⟨y 0, y 1, eq_ix2 y⟩
  have hn : t.val / 1250 * 2560 + r.val < 102400 := by have := r.isLt; omega
  rw [read_blk8_4, cut8_4, emb8_4 t r d hn, out8_at V c t h1 r d hn]
  rfl

/-- Every entry of the output array lies in the block some point writes back: the last tile of its block of rows. -/
theorem cover8_4 (i : S102400x153.Idx) :
    ∃ t : Fin cfg8.N, (cfg8.win 4).flush t = true ∧ i ∈ ((cfg8.win 4).blk t).view.set := by
  have hi0 : (i 0).val < 102400 := idx2_lt0 i
  have hi1 : (i 1).val < 153 := idx2_lt1 i
  have ht : (i 0).val / 2560 * 1250 + 1249 < cfg8.N := lt_of_lt_of_eq (by omega : (i 0).val / 2560 * 1250 + 1249 < 50000) N_8.symm
  refine ⟨⟨(i 0).val / 2560 * 1250 + 1249, ht⟩, flush8_4_of _ (by dsimp only; omega), ?_⟩
  show i ∈ ((View.whole main_v44).slice (win8_4.rect ⟨(i 0).val / 2560 * 1250 + 1249, ht⟩)).set
  rw [View.set_slice_whole, Rect.mem_set_unit]
  intro a
  match a with
  | ⟨0, _⟩ =>
    show (cfg8.win 4).index ⟨_, ht⟩ 0 * 2560 ≤ (i 0).val ∧ (i 0).val < (cfg8.win 4).index ⟨_, ht⟩ 0 * 2560 + win8_4.xsize (grid8.coords ⟨_, ht⟩) 0
    rw [index8_4_0, show win8_4.xsize (grid8.coords ⟨_, ht⟩) 0 = 2560 from rfl]; dsimp only; omega
  | ⟨1, _⟩ =>
    show (cfg8.win 4).index ⟨_, ht⟩ 1 * 153 ≤ (i 1).val ∧ (i 1).val < (cfg8.win 4).index ⟨_, ht⟩ 1 * 153 + win8_4.xsize (grid8.coords ⟨_, ht⟩) 1
    rw [index8_4_1, show win8_4.xsize (grid8.coords ⟨_, ht⟩) 1 = 153 from rfl]; omega

/-- THE OUTPUT ARRAY after the region. -/
theorem arrAt8_final (c : Dev nD) : (dat8 V c).arrAt 4 cfg8.N = outArr8 V c :=
  (dat8 V c).arrAt_eq_of_cover 4 (outArr8 V c) (flushed8_4_eq V c) cover8_4

/-- Entry `(n, d)` of the output array after the region. -/
theorem arrAt8_out (c : Dev nD) (n : Fin 102400) (d : Fin 153) :
    (dat8 (F := Ideal) V c).arrAt 4 cfg8.N (ix2 n d)
      = (Cert.Spec.normMul (Ideal.ofBits .f32 0x43190000#32) (Ideal.ofBits .f32 0x3727C5AC#32)
          (Cert.Spec.seg (fun e => V c main_v21 (ix2 0 e)) (fun e d => V c main_v41 (ix2 e d)))
          (fun d => V c main_v42 (ix2 0 d)) (fun d => V c main_v43 (ix2 0 d)) n d) :=
  congrFun (arrAt8_final V c) (ix2 n d)

/-- The four input arrays are as the region found them. -/
theorem arrAt8_in (c : Dev nD) (w : Fin cfg8.W) (hw : (cfg8.win w).isOut = false) (t : ℕ) :
    (dat8 (F := Ideal) V c).arrAt w t = V c (Pipeline.arrRef spec8 w) :=
  ((dat8 V c).arrAt_in w hw t).trans (A_eq8 V c w)

end Out

end Cert.KernelIdeal.H

end
-- ==== Proof.KI.Result.lean ====
import proofs.«421344_j1254130450614_1_alg».proof.Proof.KI.Bridge
import proofs.«421344_j1254130450614_1_alg».proof.Proof.KI.V0
import proofs.«421344_j1254130450614_1_alg».proof.Proof.KI.V1
import proofs.«421344_j1254130450614_1_alg».proof.Proof.KI.V2
import proofs.«421344_j1254130450614_1_alg».proof.Proof.KI.V3
import proofs.«421344_j1254130450614_1_alg».proof.Proof.KI.V4
import proofs.«421344_j1254130450614_1_alg».proof.Proof.KI.V5
import proofs.«421344_j1254130450614_1_alg».proof.Proof.KI.V6
import proofs.«421344_j1254130450614_1_alg».proof.Proof.KI.V7
import proofs.«421344_j1254130450614_1_alg».proof.Proof.KI.V8

/-!
The kernel program's result from the printed precondition alone: each region's value is the one its value module
proves, at the contents the region is entered with; the composition of the three layers does the rest.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.ShloMosaic.ValueIdx
open Cert.Spec Cert.RefSide

section Regions

variable (m : (ℓ : Loc nD τ sig) → Buf (Elt Ideal) ℓ) (ρ : Dev nD → PrngReg) (c : Dev nD)

/-! ### Each region's value, at the contents it is entered with -/

theorem rv0 : RV0 m ρ c := fun n d => arrAt0_out (Vent0 m ρ) c n d
theorem rv1 : RV1 m ρ c := fun e d hrow => arrAt1_out (Vent1 m ρ) c e d hrow
theorem rv2 : RV2 m ρ c := fun n d => arrAt2_out (Vent2 m ρ) c n d
theorem rv3 : RV3 m ρ c := fun n d => arrAt3_out (Vent3 m ρ) c n d
theorem rv4 : RV4 m ρ c := fun e d hrow => arrAt4_out (Vent4 m ρ) c e d hrow
theorem rv5 : RV5 m ρ c := fun n d => arrAt5_out (Vent5 m ρ) c n d
theorem rv6 : RV6 m ρ c := fun n d => arrAt6_out (Vent6 m ρ) c n d
theorem rv7 : RV7 m ρ c := fun e d hrow => arrAt7_out (Vent7 m ρ) c e d hrow
theorem rv8 : RV8 m ρ c := fun n d => arrAt8_out (Vent8 m ρ) c n d

end Regions

/-- The result array of the kernel program, on its 100000 rows, is the reference's three layers of the launch
    arrays, whenever the printed precondition holds of them. -/
theorem kernel_result [Cert.Pre_finite_inputs.Facts]
    (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = fun _ => 1#1)
    (n : Fin 100000) (d : Fin 153) :
    (W22 (F := Ideal) m ρ c (Proc.devRef .tc main_v45)) (ValueIdx.ix2 n d)
      = Cert.RefSide.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) n d :=
  kernel_result_pre m ρ c (rv0 m ρ c) (rv1 m ρ c) (rv2 m ρ c) (rv3 m ρ c) (rv4 m ρ c) (rv5 m ρ c) (rv6 m ρ c) (rv7 m ρ c) (rv8 m ρ c) hpre n d

end Cert.KernelIdeal.H

end
-- ==== Proof.Ref.RunVal.lean ====
import proofs.«421344_j1254130450614_1_alg».proof.Proof.Ref.Run

/-!
The reference program's run, with its result spelt as the last stage function of the sixteen arguments'
launch contents: on every device every weakly fair execution of @main terminates, the result buffer holds
that stage, and each argument buffer holds what it was launched with.
-/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The run of @main read through the stage functions: the name of the result's term is unfolded. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
          = Cert.ReferenceIdeal.Read.val_main_v180 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  run m ρ

end Cert.RefSide

end
-- ==== Proof.Ref.Value1.lean ====
import proofs.«421344_j1254130450614_1_alg».proof.Proof.Ref.Read
import proofs.«421344_j1254130450614_1_alg».proof.Proof.Ref.Defs
import proofs.«421344_j1254130450614_1_alg».proof.Proof.Spec

/-!
The reference program's first layer, read at a node and a column.

A layer applies a dense map to the node features, gathers for every edge the table row its source word names,
scales it by the edge's gate, sums the scaled rows landing on each node, normalises every row and clamps at zero.
Every stage below reads one buffer of the program at an index as the stage's formula over the buffers before it;
the last statement reads the layer's output buffer as the first layer of the composed computation.
-/

noncomputable section

namespace Cert.RefSide

open Cert.ReferenceIdeal Cert.ReferenceIdeal.Gen Cert.ReferenceIdeal.Read
open Idealize.ShloMosaic Idealize.ShloMosaic.ValueIdx
open scoped BigOperators

/-- Two indices of rank 0, 1 or 2 with the same coordinates are equal. -/
macro "idx0" : tactic => `(tactic| (funext a; exact a.elim0))
macro "idx1" : tactic => `(tactic| (funext a; match a with | ⟨0, _⟩ => rfl))
macro "idx2" : tactic => `(tactic| (funext a; match a with | ⟨0, _⟩ => rfl | ⟨1, _⟩ => rfl))

section Args

variable (x0 : S100000x64.Idx → EReal) (x1 : S2x1600000.Idx → BitVec 32) (x2 : S100000.Idx → EReal)
  (x3 : S1600000.Idx → EReal) (x4 : S64x64.Idx → EReal) (x5 : S64.Idx → EReal) (x6 : S64x64.Idx → EReal)
  (x7 : S64.Idx → EReal) (x8 : S153x64.Idx → EReal) (x9 : S153.Idx → EReal)
  (x10 x11 x12 x13 : S64.Idx → EReal) (x14 x15 : S153.Idx → EReal)

/-! ## The index words and the gate -/

/-- The flattened first row of the edge list is the source words. -/
theorem v1_eq : val_main_v1 (F := Ideal) x1 = Cert.Gate.row0 x1 :=
  Cert.Gate.slice_row0 x1 slices_S2x1600000_S1x1600000_0_0 shapeCasts_S1x1600000_S1600000

/-- The flattened second row of the edge list is the target words. -/
theorem v3_eq : val_main_v3 (F := Ideal) x1 = Cert.Gate.row1 x1 :=
  Cert.Gate.slice_row1 x1 slices_S2x1600000_S1x1600000_1_0 shapeCasts_S1x1600000_S1600000

/-- The first layer's gate vector is the shared gate chain. -/
theorem v24_eq : val_main_v24 (F := Ideal) x1 x2 x3 = Cert.Gate.gateOf (F := Ideal) x2 x3 (val_main_v1 (F := Ideal) x1) := rfl

theorem v24_at (e : Fin 1600000) : val_main_v24 (F := Ideal) x1 x2 x3 (ix1 e) = gate x1 x2 x3 e := by
  rw [v24_eq, v1_eq]; rfl

/-! ## Layer 1 -/

/-- The dense stage. -/
theorem v8_at (n : Fin 100000) (k : Fin 64) :
    val_main_v8 (F := Ideal) x0 x4 x5 (ix2 n k) = Spec.lin (mat x0) (matT x4) (vec x5) n k := by
  rw [val_main_v8_apply, val_main_v5_apply, val_main_v7_apply, val_main_v6_apply]
  simp only [val_main_v4_apply]
  have e1 : ∀ j : Fin 64, lidx_main_v5 (ix2 n k) j = ix2 n j := fun j => by idx2
  have e2 : ∀ j : Fin 64, idx_main_v4 (ridx_main_v5 (ix2 n k) j) = ix2 k j := fun j => by idx2
  have e3 : idx_main_v6 (idx_main_v7 (ix2 n k)) = ix1 k := by idx1
  simp only [e1, e2, e3]
  rfl

/-- The wrapped source word, as the program computes it for the row gather. -/
theorem v31_at (e : Fin 1600000) :
    val_main_v31 (F := Ideal) x1 (ix2 e ⟨0, Nat.one_pos⟩) = normW (rowW x1 e) := by
  rw [val_main_v31_apply, val_main_v30_apply, val_main_v27_apply, val_main_v29_apply,
    val_main_v26_apply, val_main_c_6_apply, val_main_v28_apply, val_main_c_7_apply]
  have e0 : idx_main_v31 (ix2 e ⟨0, Nat.one_pos⟩) = ix1 e := by idx1
  rw [e0, v1_eq]
  rfl

/-- The gathered rows. -/
theorem v32_at (e : Fin 1600000) (k : Fin 64) :
    val_main_v32 (F := Ideal) x0 x1 x4 x5 (ix2 e k)
      = val_main_v8 (F := Ideal) x0 x4 x5 (ix2 (srcRow x1 e) k) := by
  unfold val_main_v32
  have hd : gather_S100000x64_S1600000x1_S1600000x64_1_0_n_n_0_1_164
      = Cert.RefOps.rowsDims 100000 1600000 64 gather_S100000x64_S1600000x1_S1600000x64_1_0_n_n_0_1_164_wf := rfl
  rw [hd, Cert.RefOps.gather_rows_apply (by decide), v31_at]
  rfl

/-- The gathered, gated rows. -/
theorem v34_at (e : Fin 1600000) (k : Fin 64) :
    val_main_v34 (F := Ideal) x0 x1 x2 x3 x4 x5 (ix2 e k)
      = gate x1 x2 x3 e * val_main_v8 (F := Ideal) x0 x4 x5 (ix2 (srcRow x1 e) k) := by
  rw [val_main_v34_apply, val_main_v33_apply, val_main_v25_apply, v32_at]
  have e1 : idx_main_v25 (idx_main_v33 (ix2 e k)) = ix1 e := by idx1
  rw [e1, v24_at]
  rfl

/-- The accumulating row scatter of the program, read at a node and a column. -/
theorem scatterAdd_at {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (c : Fin D) :
    Host.scatterAdd (F := Ideal) (φ := .f32) (Cert.RefOps.rowsScatter N E D wf) x idx upd (ix2 n c)
      = x (ix2 n c) + ∑ e : Fin E,
          if (idx (ix2 e ⟨0, Nat.one_pos⟩)).toInt = (n.val : Int) then upd (ix2 e c) else 0 :=
  Cert.RefOps.scatterAdd_rows_apply wf idx x upd n c

/-- The rows landing on each node, summed. -/
theorem v37_at (n : Fin 100000) (k : Fin 64) :
    val_main_v37 (F := Ideal) x0 x1 x2 x3 x4 x5 (ix2 n k)
      = Spec.seg (colW x1) (fun e k => val_main_v34 (F := Ideal) x0 x1 x2 x3 x4 x5 (ix2 e k)) n k := by
  unfold val_main_v37
  have hd : scatter_S100000x64_S1600000x1_S1600000x64_1_0_0_1
      = Cert.RefOps.rowsScatter 100000 1600000 64 scatter_S100000x64_S1600000x1_S1600000x64_1_0_0_1_wf := rfl
  rw [hd, scatterAdd_at]
  have hz : val_main_v35 (F := Ideal) (ix2 n k) = 0 := by
    rw [val_main_v35_apply, val_main_cst_8_apply]; exact Ideal.ofBits_zero_f32
  have hc : ∀ e : Fin 1600000, val_main_v36 (F := Ideal) x1 (ix2 e ⟨0, Nat.one_pos⟩) = colW x1 e := fun e => by
    rw [val_main_v36_apply, v3_eq]; rfl
  rw [hz, zero_add]
  unfold Spec.seg
  refine Finset.sum_congr rfl fun e _ => ?_
  rw [hc]
  exact if_congr (Cert.RefOps.toInt_eq_natCast_iff _ _ (by have := n.isLt; omega)) rfl rfl

/-- The row mean of the summed rows. -/
theorem v41_at (n : Fin 100000) :
    val_main_v41 (F := Ideal) x0 x1 x2 x3 x4 x5 (ix2 n ⟨0, Nat.one_pos⟩)
      = Spec.mean c64 (fun n k => val_main_v37 (F := Ideal) x0 x1 x2 x3 x4 x5 (ix2 n k)) n := by
  rw [val_main_v41_apply, val_main_v39_apply, val_main_v38_apply, val_main_v40_apply, val_main_cst_10_apply,
    val_main_cst_9_apply]
  have e1 : ∀ j : Fin 64, idx_main_v38 (idx_main_v39 (ix2 n ⟨0, Nat.one_pos⟩)) j = ix2 n j := fun j => by idx2
  simp only [e1, Ideal.ofBits_def, Ideal.ofBits_zero_f32, zero_add]
  rfl

/-- A summed row less its mean. -/
theorem v43_at (n : Fin 100000) (j : Fin 64) :
    val_main_v43 (F := Ideal) x0 x1 x2 x3 x4 x5 (ix2 n j)
      = val_main_v37 (F := Ideal) x0 x1 x2 x3 x4 x5 (ix2 n j)
        - Spec.mean c64 (fun n k => val_main_v37 (F := Ideal) x0 x1 x2 x3 x4 x5 (ix2 n k)) n := by
  rw [val_main_v43_apply, val_main_v42_apply]
  have e2 : idx_main_v42 (ix2 n j) = ix2 n ⟨0, Nat.one_pos⟩ := by idx2
  rw [e2, v41_at]
  rfl

/-- The row variance of the summed rows. -/
theorem v48_at (n : Fin 100000) :
    val_main_v48 (F := Ideal) x0 x1 x2 x3 x4 x5 (ix2 n ⟨0, Nat.one_pos⟩)
      = Spec.var c64 (fun n k => val_main_v37 (F := Ideal) x0 x1 x2 x3 x4 x5 (ix2 n k)) n := by
  rw [val_main_v48_apply, val_main_v46_apply, val_main_v45_apply, val_main_v47_apply, val_main_cst_12_apply,
    val_main_cst_11_apply]
  have hs : ∑ j : Fin 64, val_main_v44 (F := Ideal) x0 x1 x2 x3 x4 x5
        (idx_main_v45 (idx_main_v46 (ix2 n ⟨0, Nat.one_pos⟩)) j)
      = ∑ j : Fin 64,
          (val_main_v37 (F := Ideal) x0 x1 x2 x3 x4 x5 (ix2 n j)
            - Spec.mean c64 (fun n k => val_main_v37 (F := Ideal) x0 x1 x2 x3 x4 x5 (ix2 n k)) n)
          * (val_main_v37 (F := Ideal) x0 x1 x2 x3 x4 x5 (ix2 n j)
            - Spec.mean c64 (fun n k => val_main_v37 (F := Ideal) x0 x1 x2 x3 x4 x5 (ix2 n k)) n) :=
    Finset.sum_congr rfl fun j _ => by
      have e1 : idx_main_v45 (idx_main_v46 (ix2 n ⟨0, Nat.one_pos⟩)) j = ix2 n j := by idx2
      rw [e1, val_main_v44_apply, v43_at]
      rfl
  rw [hs]
  have hz : (FloatOps.ofBits (F := Ideal) .f32 0x00000000#32 : EReal) = 0 := Ideal.ofBits_zero_f32
  rw [hz, zero_add]
  rfl

/-- The normalised rows. -/
theorem v61_at (n : Fin 100000) (k : Fin 64) :
    val_main_v61 (F := Ideal) x0 x1 x2 x3 x4 x5 x10 x11 (ix2 n k)
      = Spec.normDiv c64 eps (fun n k => val_main_v37 (F := Ideal) x0 x1 x2 x3 x4 x5 (ix2 n k))
          (vec x10) (vec x11) n k := by
  rw [val_main_v61_apply, val_main_v58_apply, val_main_v55_apply, val_main_v50_apply, val_main_v49_apply,
    val_main_v54_apply, val_main_v53_apply, val_main_v52_apply, val_main_v51_apply, val_main_cst_13_apply,
    val_main_v57_apply, val_main_v56_apply, val_main_v60_apply, val_main_v59_apply]
  have e1 : idx_main_v49 (ix2 n k) = ix2 n ⟨0, Nat.one_pos⟩ := by idx2
  have e2 : idx_main_v54 (ix2 n k) = ix2 n ⟨0, Nat.one_pos⟩ := by idx2
  have e3 : idx_main_v56 (idx_main_v57 (ix2 n k)) = ix1 k := by idx1
  have e4 : idx_main_v59 (idx_main_v60 (ix2 n k)) = ix1 k := by idx1
  rw [e1, e2, e3, e4, v41_at, v48_at]
  rfl

/-- The summed rows are the aggregation of the dense stage's rows. -/
theorem S1_eq :
    (fun n k => val_main_v37 (F := Ideal) x0 x1 x2 x3 x4 x5 (ix2 n k))
      = Cert.Compose.agg (colW x1) (gate x1 x2 x3) (srcRow x1) (Spec.lin (mat x0) (matT x4) (vec x5)) := by
  funext n k
  have hm : (fun e k => val_main_v34 (F := Ideal) x0 x1 x2 x3 x4 x5 (ix2 e k))
      = fun e d => gate x1 x2 x3 e * Spec.lin (mat x0) (matT x4) (vec x5) (srcRow x1 e) d := by
    funext e k
    rw [v34_at, v8_at]
  rw [v37_at, hm]
  rfl

/-- LAYER 1: the program's first clamped buffer is the first layer's output. -/
theorem layer1 (n : Fin 100000) (k : Fin 64) :
    val_main_v62 (F := Ideal) x0 x1 x2 x3 x4 x5 x10 x11 (ix2 n k) = h1 x0 x1 x2 x3 x4 x5 x10 x11 n k := by
  rw [val_main_v62_apply, val_main_call2_v0_apply, val_main_call2_cst_apply, v61_at, S1_eq]
  have hz : (FloatOps.ofBits (F := Ideal) .f32 0x00000000#32 : EReal) = 0 := Ideal.ofBits_zero_f32
  rw [hz]
  rfl

end Args

end Cert.RefSide

end
-- ==== Proof.LibSegForms.lean ====
import proofs.«421344_j1254130450614_1_alg».proof.Proof.Spec
import Mathlib.Data.Fintype.BigOperators
import Mathlib.Algebra.BigOperators.Group.Finset.Piecewise

/-!
Other ways of writing the sum of the messages landing on a node.

The sum `Cert.Spec.seg` keeps message `e` when the target word of `e` is the node's number as a word.
The same sum arises with the word read as a signed integer, with the comparison turned around, with
the kept term written as a product with `1` or `0`, as a sum over the edges that pass the test, and as
a sum over pairs (edge, column) that pass the test and sit in the wanted column.  Node numbers stay
below `2 ^ 31`, where the signed and the unsigned reading of a word agree.
-/

noncomputable section

namespace Cert.LibSegForms

open Cert.Spec
open scoped BigOperators

variable {N D E : ℕ}

/-! ### Words and their signed reading -/

/-- Below `2 ^ 31` a word read as a signed integer is a given number exactly when it is that
    number's word. -/
theorem toInt_eq_iff (w : BitVec 32) {n : ℕ} (hn : n < 2 ^ 31) :
    w.toInt = (n : Int) ↔ w = BitVec.ofNat 32 n := by
  have hw : w.toNat < 2 ^ 32 := w.isLt
  constructor
  · intro h
    apply BitVec.eq_of_toNat_eq
    rw [BitVec.toNat_ofNat, Nat.mod_eq_of_lt (by omega)]
    rw [BitVec.toInt_eq_toNat_cond] at h
    split at h <;> omega
  · intro h
    rw [h, BitVec.toInt_eq_toNat_cond, BitVec.toNat_ofNat, Nat.mod_eq_of_lt (by omega)]
    rw [if_pos (by omega)]

/-- A word read as a signed integer that is a node's number lies in range as an unsigned one. -/
theorem toNat_lt_of_toInt_eq (w : BitVec 32) {n : ℕ} (hn : n < 2 ^ 31) (h : w.toInt = (n : Int)) :
    w.toNat = n := by
  rw [(toInt_eq_iff w hn).1 h, BitVec.toNat_ofNat, Nat.mod_eq_of_lt (by omega)]

/-! ### The same sum, written otherwise -/

/-- `0 + x = x`. -/
theorem zero_add_seg (col : Fin E → BitVec 32) (msg : Fin E → Fin D → EReal) (n : Fin N) (d : Fin D) :
    0 + seg col msg n d = seg col msg n d := zero_add _

/-- Any test equivalent to the word comparison gives the same sum. -/
theorem seg_eq_of_iff (col : Fin E → BitVec 32) (msg : Fin E → Fin D → EReal) (n : Fin N) (d : Fin D)
    (P : Fin E → Prop) [DecidablePred P] (hP : ∀ e, P e ↔ col e = BitVec.ofNat 32 n.val) :
    ∑ e, (if P e then msg e d else 0) = seg col msg n d := by
  unfold seg
  exact Finset.sum_congr rfl fun e _ => if_congr (hP e) rfl rfl

/-- The comparison turned around. -/
theorem seg_eq_symm (col : Fin E → BitVec 32) (msg : Fin E → Fin D → EReal) (n : Fin N) (d : Fin D) :
    ∑ e, (if BitVec.ofNat 32 n.val = col e then msg e d else 0) = seg col msg n d :=
  seg_eq_of_iff col msg n d _ fun _ => eq_comm

/-- The word read as a signed integer. -/
theorem seg_eq_toInt (hN : N ≤ 2 ^ 31) (col : Fin E → BitVec 32) (msg : Fin E → Fin D → EReal)
    (n : Fin N) (d : Fin D) :
    ∑ e, (if (col e).toInt = (n.val : Int) then msg e d else 0) = seg col msg n d :=
  seg_eq_of_iff col msg n d _ fun e => toInt_eq_iff (col e) (Nat.lt_of_lt_of_le n.isLt hN)

/-- The kept term as a product with `1` or `0`, the factor on the left. -/
theorem seg_eq_onehot_mul (col : Fin E → BitVec 32) (msg : Fin E → Fin D → EReal) (n : Fin N)
    (d : Fin D) :
    ∑ e, (if col e = BitVec.ofNat 32 n.val then (1 : EReal) else 0) * msg e d = seg col msg n d := by
  unfold seg
  refine Finset.sum_congr rfl fun e _ => ?_
  by_cases h : col e = BitVec.ofNat 32 n.val
  · rw [if_pos h, if_pos h, one_mul]
  · rw [if_neg h, if_neg h, zero_mul]

/-- The same with the comparison turned around. -/
theorem seg_eq_onehot_mul_symm (col : Fin E → BitVec 32) (msg : Fin E → Fin D → EReal) (n : Fin N)
    (d : Fin D) :
    ∑ e, (if BitVec.ofNat 32 n.val = col e then (1 : EReal) else 0) * msg e d = seg col msg n d := by
  rw [← seg_eq_onehot_mul]
  exact Finset.sum_congr rfl fun e _ => by rw [if_congr eq_comm rfl rfl]

/-- The factor on the right. -/
theorem seg_eq_mul_onehot (col : Fin E → BitVec 32) (msg : Fin E → Fin D → EReal) (n : Fin N)
    (d : Fin D) :
    ∑ e, msg e d * (if col e = BitVec.ofNat 32 n.val then (1 : EReal) else 0) = seg col msg n d := by
  rw [← seg_eq_onehot_mul]
  exact Finset.sum_congr rfl fun e _ => mul_comm _ _

/-- As a sum over the edges that pass the test. -/
theorem seg_eq_sum_filter (col : Fin E → BitVec 32) (msg : Fin E → Fin D → EReal) (n : Fin N)
    (d : Fin D) :
    ∑ e ∈ Finset.univ.filter (fun e => col e = BitVec.ofNat 32 n.val), msg e d = seg col msg n d := by
  unfold seg
  exact Finset.sum_filter _ _

/-! ### Pairs of an edge and a column -/

/-- A double sum over edges and columns that keeps the pairs passing a test on the edge and sitting
    in column `d` is the single sum over the edges passing the test, read at column `d`. -/
theorem sum_pairs_ite (P : Fin E → Prop) [DecidablePred P] (msg : Fin E → Fin D → EReal) (d : Fin D) :
    ∑ e : Fin E, ∑ d' : Fin D, (if P e ∧ d' = d then msg e d' else 0)
      = ∑ e, (if P e then msg e d else 0) := by
  refine Finset.sum_congr rfl fun e _ => ?_
  by_cases h : P e
  · rw [if_pos h]
    rw [Finset.sum_congr rfl fun d' _ => if_congr (and_iff_right h) rfl rfl]
    rw [Finset.sum_ite_eq' Finset.univ d (fun d' => msg e d'), if_pos (Finset.mem_univ d)]
  · rw [if_neg h]
    exact Finset.sum_eq_zero fun d' _ => if_neg fun hh => h hh.1

/-- The same over the product of the two index sets, as a sum over the pairs that pass. -/
theorem sum_filter_pairs (P : Fin E → Prop) [DecidablePred P] (msg : Fin E → Fin D → EReal) (d : Fin D) :
    ∑ p ∈ (Finset.univ : Finset (Fin E × Fin D)).filter (fun p => P p.1 ∧ p.2 = d), msg p.1 p.2
      = ∑ e, (if P e then msg e d else 0) := by
  rw [Finset.sum_filter, Fintype.sum_prod_type]
  exact sum_pairs_ite P msg d

/-- The pair form of the sum of the messages, with the word read as a signed integer. -/
theorem seg_eq_pairs_toInt (hN : N ≤ 2 ^ 31) (col : Fin E → BitVec 32) (msg : Fin E → Fin D → EReal)
    (n : Fin N) (d : Fin D) :
    ∑ e : Fin E, ∑ d' : Fin D, (if (col e).toInt = (n.val : Int) ∧ d' = d then msg e d' else 0)
      = seg col msg n d := by
  rw [sum_pairs_ite (fun e => (col e).toInt = (n.val : Int)) msg d]
  exact seg_eq_toInt hN col msg n d

end Cert.LibSegForms

end
-- ==== Proof.Ref.Value2.lean ====
/-
  The reference's second layer, read at a node and a column over the extended reals.

  The layer takes the first layer's output h, applies a dense map (row n of h against the transposed weights, plus a bias),
  gathers for every edge the dense row its wrapped source word names, scales it by the edge's gate, and sums onto each node
  the scaled rows of the edges whose target word is the node's number (the sum starts from zeros, so it is that sum). It adds
  h back, and normalises every row: subtract the row's mean, divide by the root of the row's variance plus a small offset,
  scale and shift column by column, clamp at zero. Each lemma reads one buffer of the program at an index as that stage's
  formula over the buffers before it. The mean, the variance and the normalisation are read over the residual sums as the
  program holds them; one last step names those sums as aggregate plus h, which makes the clamped result the second layer's
  output. The first layer's output enters as a hypothesis on the program's first clamped buffer.
-/
import proofs.«421344_j1254130450614_1_alg».proof.Proof.Ref.Read
import proofs.«421344_j1254130450614_1_alg».proof.Proof.Ref.Defs
import proofs.«421344_j1254130450614_1_alg».proof.Proof.Ref.Ops
import proofs.«421344_j1254130450614_1_alg».proof.Proof.Spec
import proofs.«421344_j1254130450614_1_alg».proof.Proof.Compose
import proofs.«421344_j1254130450614_1_alg».proof.Proof.LibSegForms
import proofs.«421344_j1254130450614_1_alg».proof.Proof.LibNormForms

noncomputable section

namespace Cert.RefSide

open Cert.ReferenceIdeal Cert.ReferenceIdeal.Gen Cert.ReferenceIdeal.Read
open Idealize.ShloMosaic Idealize.ShloMosaic.ValueIdx
open scoped BigOperators

namespace L2

/-- Two indices of rank 1 or 2 with the same coordinates are equal. -/
macro "l2idx1" : tactic => `(tactic| (funext a; match a with | ⟨0, _⟩ => rfl))
macro "l2idx2" : tactic => `(tactic| (funext a; match a with | ⟨0, _⟩ => rfl | ⟨1, _⟩ => rfl))

end L2

section Args

variable (x0 : S100000x64.Idx → EReal) (x1 : S2x1600000.Idx → BitVec 32) (x2 : S100000.Idx → EReal)
  (x3 : S1600000.Idx → EReal) (x4 : S64x64.Idx → EReal) (x5 : S64.Idx → EReal) (x6 : S64x64.Idx → EReal)
  (x7 : S64.Idx → EReal) (x10 x11 x12 x13 : S64.Idx → EReal)

/-! ## The index words and the gate, as layer 2 reads them -/

/-- The flattened first row of the edge list is the source words. -/
theorem L2.v1_eq : val_main_v1 (F := Ideal) x1 = Cert.Gate.row0 x1 :=
  Cert.Gate.slice_row0 x1 slices_S2x1600000_S1x1600000_0_0 shapeCasts_S1x1600000_S1600000

/-- The flattened second row of the edge list is the target words. -/
theorem L2.v3_eq : val_main_v3 (F := Ideal) x1 = Cert.Gate.row1 x1 :=
  Cert.Gate.slice_row1 x1 slices_S2x1600000_S1x1600000_1_0 shapeCasts_S1x1600000_S1600000

/-- The second layer's gate vector is the shared gate chain again. -/
theorem v83_eq : val_main_v83 (F := Ideal) x1 x2 x3 = Cert.Gate.gateOf (F := Ideal) x2 x3 (val_main_v1 (F := Ideal) x1) := rfl

theorem v83_at (e : Fin 1600000) : val_main_v83 (F := Ideal) x1 x2 x3 (ix1 e) = gate x1 x2 x3 e := by
  rw [v83_eq, L2.v1_eq]; rfl

/-- The gate, spread over the 64 columns of an edge's row. -/
theorem v92_at (e : Fin 1600000) (k : Fin 64) : val_main_v92 (F := Ideal) x1 x2 x3 (ix2 e k) = gate x1 x2 x3 e := by
  rw [val_main_v92_apply, val_main_v84_apply]
  have e1 : idx_main_v84 (idx_main_v92 (ix2 e k)) = ix1 e := by l2idx1
  rw [e1, v83_at]

/-! ## Layer 2 -/

/-- The dense stage, over the first layer's output. -/
theorem v67_at (hprev : ∀ (n : Fin 100000) (k : Fin 64), val_main_v62 (F := Ideal) x0 x1 x2 x3 x4 x5 x10 x11 (ix2 n k) = h1 x0 x1 x2 x3 x4 x5 x10 x11 n k) (n : Fin 100000) (k : Fin 64) :
    val_main_v67 (F := Ideal) x0 x1 x2 x3 x4 x5 x6 x7 x10 x11 (ix2 n k)
      = Spec.lin (h1 x0 x1 x2 x3 x4 x5 x10 x11) (matT x6) (vec x7) n k := by
  rw [val_main_v67_apply, val_main_v64_apply, val_main_v66_apply, val_main_v65_apply]
  simp only [val_main_v63_apply]
  have e1 : ∀ j : Fin 64, lidx_main_v64 (ix2 n k) j = ix2 n j := fun j => by l2idx2
  have e2 : ∀ j : Fin 64, idx_main_v63 (ridx_main_v64 (ix2 n k) j) = ix2 k j := fun j => by l2idx2
  have e3 : idx_main_v65 (idx_main_v66 (ix2 n k)) = ix1 k := by l2idx1
  simp only [e1, e2, e3, hprev]
  rfl

/-- The wrapped source word, as the program computes it again for this layer's row gather. -/
theorem v90_at (e : Fin 1600000) :
    val_main_v90 (F := Ideal) x1 (ix2 e ⟨0, Nat.one_pos⟩) = normW (rowW x1 e) := by
  rw [val_main_v90_apply, val_main_v89_apply, val_main_v86_apply, val_main_v88_apply,
    val_main_v85_apply, val_main_c_22_apply, val_main_v87_apply, val_main_c_23_apply]
  have e0 : idx_main_v90 (ix2 e ⟨0, Nat.one_pos⟩) = ix1 e := by l2idx1
  rw [e0, L2.v1_eq]
  rfl

/-- The gathered rows. -/
theorem v91_at (e : Fin 1600000) (k : Fin 64) :
    val_main_v91 (F := Ideal) x0 x1 x2 x3 x4 x5 x6 x7 x10 x11 (ix2 e k)
      = val_main_v67 (F := Ideal) x0 x1 x2 x3 x4 x5 x6 x7 x10 x11 (ix2 (srcRow x1 e) k) := by
  unfold val_main_v91
  have hd : gather_S100000x64_S1600000x1_S1600000x64_1_0_n_n_0_1_164
      = Cert.RefOps.rowsDims 100000 1600000 64 gather_S100000x64_S1600000x1_S1600000x64_1_0_n_n_0_1_164_wf := rfl
  rw [hd, Cert.RefOps.gather_rows_apply (by decide), v90_at]
  rfl

/-- The gathered, gated rows. -/
theorem v93_at (e : Fin 1600000) (k : Fin 64) :
    val_main_v93 (F := Ideal) x0 x1 x2 x3 x4 x5 x6 x7 x10 x11 (ix2 e k)
      = gate x1 x2 x3 e * val_main_v67 (F := Ideal) x0 x1 x2 x3 x4 x5 x6 x7 x10 x11 (ix2 (srcRow x1 e) k) := by
  rw [val_main_v93_apply, v92_at, v91_at]
  rfl

/-- The accumulating row scatter of the program, read at a node and a column. -/
theorem L2.scatterAdd_at {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (c : Fin D) :
    Host.scatterAdd (F := Ideal) (φ := .f32) (Cert.RefOps.rowsScatter N E D wf) x idx upd (ix2 n c)
      = x (ix2 n c) + ∑ e : Fin E,
          if (idx (ix2 e ⟨0, Nat.one_pos⟩)).toInt = (n.val : Int) then upd (ix2 e c) else 0 :=
  Cert.RefOps.scatterAdd_rows_apply wf idx x upd n c

/-- The rows landing on each node, summed: the scatter starts from zeros and adds, for every edge whose target word is the
    node's number, the edge's gated row. -/
theorem v96_at (n : Fin 100000) (k : Fin 64) :
    val_main_v96 (F := Ideal) x0 x1 x2 x3 x4 x5 x6 x7 x10 x11 (ix2 n k)
      = Spec.seg (colW x1) (fun e k => val_main_v93 (F := Ideal) x0 x1 x2 x3 x4 x5 x6 x7 x10 x11 (ix2 e k)) n k := by
  unfold val_main_v96
  have hd : scatter_S100000x64_S1600000x1_S1600000x64_1_0_0_1
      = Cert.RefOps.rowsScatter 100000 1600000 64 scatter_S100000x64_S1600000x1_S1600000x64_1_0_0_1_wf := rfl
  rw [hd]
  have h94 : ∀ i : S100000x64.Idx, val_main_v94 (F := Ideal) i = 0 := fun i => by
    rw [val_main_v94_apply, val_main_cst_24_apply]; exact Ideal.ofBits_zero_f32
  have h95 : ∀ e : Fin 1600000, val_main_v95 (F := Ideal) x1 (ix2 e ⟨0, Nat.one_pos⟩) = colW x1 e := fun e => by
    rw [val_main_v95_apply]
    have e0 : idx_main_v95 (ix2 e ⟨0, Nat.one_pos⟩) = ix1 e := by l2idx1
    rw [e0, L2.v3_eq]
    rfl
  generalize val_main_v94 (F := Ideal) = z at h94 ⊢
  generalize val_main_v95 (F := Ideal) x1 = idx at h95 ⊢
  generalize val_main_v93 (F := Ideal) x0 x1 x2 x3 x4 x5 x6 x7 x10 x11 = upd
  rw [L2.scatterAdd_at, h94, zero_add]
  refine (Finset.sum_congr rfl fun e _ => ?_).trans
    (Cert.LibSegForms.seg_eq_toInt (N := 100000) (by norm_num) (colW x1) (fun e k => upd (ix2 e k)) n k)
  rw [h95 e]

/-- The rows the second layer normalises: the aggregate of the dense stage plus the first layer's output. -/
def pre2 : Fin 100000 → Fin 64 → EReal := fun n d =>
  Cert.Compose.agg (colW x1) (gate x1 x2 x3) (srcRow x1) (Spec.lin (h1 x0 x1 x2 x3 x4 x5 x10 x11) (matT x6) (vec x7)) n d + h1 x0 x1 x2 x3 x4 x5 x10 x11 n d

/-- The second layer's output is the clamped normalisation of those rows. -/
theorem h2_eq (n : Fin 100000) (k : Fin 64) :
    h2 x0 x1 x2 x3 x4 x5 x6 x7 x10 x11 x12 x13 n k
      = Spec.relu (Spec.normDiv c64 eps (pre2 x0 x1 x2 x3 x4 x5 x6 x7 x10 x11) (vec x12) (vec x13) n k) := rfl

/-- The residual sum. -/
theorem v97_at (hprev : ∀ (n : Fin 100000) (k : Fin 64), val_main_v62 (F := Ideal) x0 x1 x2 x3 x4 x5 x10 x11 (ix2 n k) = h1 x0 x1 x2 x3 x4 x5 x10 x11 n k) (n : Fin 100000) (k : Fin 64) :
    val_main_v97 (F := Ideal) x0 x1 x2 x3 x4 x5 x6 x7 x10 x11 (ix2 n k) = pre2 x0 x1 x2 x3 x4 x5 x6 x7 x10 x11 n k := by
  rw [val_main_v97_apply, v96_at, hprev]
  unfold pre2 Cert.Compose.agg Spec.seg
  refine congrArg (· + h1 x0 x1 x2 x3 x4 x5 x10 x11 n k) ?_
  refine Finset.sum_congr rfl fun e _ => ?_
  dsimp only
  rw [v93_at, v67_at x0 x1 x2 x3 x4 x5 x6 x7 x10 x11 hprev]

/-- The row mean of the residual sums. -/
theorem v101_at (n : Fin 100000) :
    val_main_v101 (F := Ideal) x0 x1 x2 x3 x4 x5 x6 x7 x10 x11 (ix2 n ⟨0, Nat.one_pos⟩) = Spec.mean c64 (fun n k => val_main_v97 (F := Ideal) x0 x1 x2 x3 x4 x5 x6 x7 x10 x11 (ix2 n k)) n := by
  rw [val_main_v101_apply, val_main_v99_apply, val_main_v98_apply, val_main_v100_apply, val_main_cst_26_apply,
    val_main_cst_25_apply]
  have hs : ∑ j : Fin 64, val_main_v97 (F := Ideal) x0 x1 x2 x3 x4 x5 x6 x7 x10 x11 (idx_main_v98 (idx_main_v99 (ix2 n ⟨0, Nat.one_pos⟩)) j)
      = ∑ j : Fin 64, val_main_v97 (F := Ideal) x0 x1 x2 x3 x4 x5 x6 x7 x10 x11 (ix2 n j) :=
    Finset.sum_congr rfl fun j _ => by
      have e1 : idx_main_v98 (idx_main_v99 (ix2 n ⟨0, Nat.one_pos⟩)) j = ix2 n j := by l2idx2
      rw [e1]
  rw [hs]
  have hz : (FloatOps.ofBits (F := Ideal) .f32 0x00000000#32 : EReal) = 0 := Ideal.ofBits_zero_f32
  rw [hz, zero_add]
  rfl

/-- A residual sum less its row's mean. -/
theorem v103_at (n : Fin 100000) (j : Fin 64) :
    val_main_v103 (F := Ideal) x0 x1 x2 x3 x4 x5 x6 x7 x10 x11 (ix2 n j)
      = val_main_v97 (F := Ideal) x0 x1 x2 x3 x4 x5 x6 x7 x10 x11 (ix2 n j) - Spec.mean c64 (fun n k => val_main_v97 (F := Ideal) x0 x1 x2 x3 x4 x5 x6 x7 x10 x11 (ix2 n k)) n := by
  rw [val_main_v103_apply, val_main_v102_apply]
  have e2 : idx_main_v102 (ix2 n j) = ix2 n ⟨0, Nat.one_pos⟩ := by l2idx2
  rw [e2, v101_at]
  rfl

/-- The row variance of the residual sums. -/
theorem v108_at (n : Fin 100000) :
    val_main_v108 (F := Ideal) x0 x1 x2 x3 x4 x5 x6 x7 x10 x11 (ix2 n ⟨0, Nat.one_pos⟩) = Spec.var c64 (fun n k => val_main_v97 (F := Ideal) x0 x1 x2 x3 x4 x5 x6 x7 x10 x11 (ix2 n k)) n := by
  rw [val_main_v108_apply, val_main_v106_apply, val_main_v105_apply, val_main_v107_apply, val_main_cst_28_apply,
    val_main_cst_27_apply]
  have hs : ∑ j : Fin 64, val_main_v104 (F := Ideal) x0 x1 x2 x3 x4 x5 x6 x7 x10 x11 (idx_main_v105 (idx_main_v106 (ix2 n ⟨0, Nat.one_pos⟩)) j)
      = ∑ j : Fin 64,
          (val_main_v97 (F := Ideal) x0 x1 x2 x3 x4 x5 x6 x7 x10 x11 (ix2 n j) - Spec.mean c64 (fun n k => val_main_v97 (F := Ideal) x0 x1 x2 x3 x4 x5 x6 x7 x10 x11 (ix2 n k)) n)
          * (val_main_v97 (F := Ideal) x0 x1 x2 x3 x4 x5 x6 x7 x10 x11 (ix2 n j) - Spec.mean c64 (fun n k => val_main_v97 (F := Ideal) x0 x1 x2 x3 x4 x5 x6 x7 x10 x11 (ix2 n k)) n) :=
    Finset.sum_congr rfl fun j _ => by
      have e1 : idx_main_v105 (idx_main_v106 (ix2 n ⟨0, Nat.one_pos⟩)) j = ix2 n j := by l2idx2
      rw [e1, val_main_v104_apply, v103_at]
      rfl
  rw [hs]
  have hz : (FloatOps.ofBits (F := Ideal) .f32 0x00000000#32 : EReal) = 0 := Ideal.ofBits_zero_f32
  rw [hz, zero_add]
  rfl

/-- The normalised, scaled and shifted rows. -/
theorem v121_at (n : Fin 100000) (k : Fin 64) :
    val_main_v121 (F := Ideal) x0 x1 x2 x3 x4 x5 x6 x7 x10 x11 x12 x13 (ix2 n k)
      = Spec.normDiv c64 eps (fun n k => val_main_v97 (F := Ideal) x0 x1 x2 x3 x4 x5 x6 x7 x10 x11 (ix2 n k)) (vec x12) (vec x13) n k := by
  rw [val_main_v121_apply, val_main_v118_apply, val_main_v115_apply, val_main_v110_apply, val_main_v109_apply,
    val_main_v114_apply, val_main_v113_apply, val_main_v112_apply, val_main_v111_apply, val_main_cst_29_apply,
    val_main_v117_apply, val_main_v116_apply, val_main_v120_apply, val_main_v119_apply]
  have e1 : idx_main_v109 (ix2 n k) = ix2 n ⟨0, Nat.one_pos⟩ := by l2idx2
  have e2 : idx_main_v114 (ix2 n k) = ix2 n ⟨0, Nat.one_pos⟩ := by l2idx2
  have e3 : idx_main_v116 (idx_main_v117 (ix2 n k)) = ix1 k := by l2idx1
  have e4 : idx_main_v119 (idx_main_v120 (ix2 n k)) = ix1 k := by l2idx1
  rw [e1, e2, e3, e4, v101_at, v108_at]
  rfl

/-- The residual sums are the aggregate of the dense stage's rows plus the first layer's output. -/
theorem R2_eq (hprev : ∀ (n : Fin 100000) (k : Fin 64), val_main_v62 (F := Ideal) x0 x1 x2 x3 x4 x5 x10 x11 (ix2 n k) = h1 x0 x1 x2 x3 x4 x5 x10 x11 n k) : (fun n k => val_main_v97 (F := Ideal) x0 x1 x2 x3 x4 x5 x6 x7 x10 x11 (ix2 n k)) = pre2 x0 x1 x2 x3 x4 x5 x6 x7 x10 x11 :=
  funext fun n => funext fun k => v97_at x0 x1 x2 x3 x4 x5 x6 x7 x10 x11 hprev n k

/-- LAYER 2: the program's second clamped buffer is the second layer's output, given that its first clamped buffer is the
    first layer's. -/
theorem layer2 (hprev : ∀ (n : Fin 100000) (k : Fin 64), val_main_v62 (F := Ideal) x0 x1 x2 x3 x4 x5 x10 x11 (ix2 n k) = h1 x0 x1 x2 x3 x4 x5 x10 x11 n k) (n : Fin 100000) (k : Fin 64) :
    val_main_v122 (F := Ideal) x0 x1 x2 x3 x4 x5 x6 x7 x10 x11 x12 x13 (ix2 n k) = h2 x0 x1 x2 x3 x4 x5 x6 x7 x10 x11 x12 x13 n k := by
  rw [val_main_v122_apply, val_main_call5_v0_apply, val_main_call5_cst_apply, v121_at, R2_eq x0 x1 x2 x3 x4 x5 x6 x7 x10 x11 hprev, h2_eq]
  generalize Spec.normDiv c64 eps (pre2 x0 x1 x2 x3 x4 x5 x6 x7 x10 x11) (vec x12) (vec x13) n k = y
  have hz : (FloatOps.ofBits (F := Ideal) .f32 0x00000000#32 : EReal) = 0 := Ideal.ofBits_zero_f32
  rw [hz]
  rfl

end Args

end Cert.RefSide

end
-- ==== Proof.Ref.Value3.lean ====
import proofs.«421344_j1254130450614_1_alg».proof.Proof.Ref.Read
import proofs.«421344_j1254130450614_1_alg».proof.Proof.Ref.Defs
import proofs.«421344_j1254130450614_1_alg».proof.Proof.Spec
import proofs.«421344_j1254130450614_1_alg».proof.Proof.LibSegForms

/-!
The reference's third layer, read at a node and a column.

The layer applies a dense map of 64 columns to 153 to the second layer's output, gathers for every edge the row its
source word names, scales it by the edge's gate, sums the scaled rows landing on each node, and normalises every row of
153 entries to zero mean and unit variance before the scale and the shift; there is no clamp.  Each statement below
reads one buffer of the program at an index as the stage's formula over the buffers before it; the last one composes
them into the reference's result.  What the second layer's last buffer holds is taken as a hypothesis.
-/

noncomputable section

namespace Cert.RefSide

open Cert.ReferenceIdeal Cert.ReferenceIdeal.Gen Cert.ReferenceIdeal.Read
open Idealize.ShloMosaic Idealize.ShloMosaic.ValueIdx
open scoped BigOperators

/-- Two indices of rank 1 or 2 with the same coordinates are equal. -/
macro "coords1" : tactic => `(tactic| (funext a; match a with | ⟨0, _⟩ => rfl))
macro "coords2" : tactic => `(tactic| (funext a; match a with | ⟨0, _⟩ => rfl | ⟨1, _⟩ => rfl))

section Args

variable (x0 : S100000x64.Idx → EReal) (x1 : S2x1600000.Idx → BitVec 32) (x2 : S100000.Idx → EReal)
  (x3 : S1600000.Idx → EReal) (x4 : S64x64.Idx → EReal) (x5 : S64.Idx → EReal) (x6 : S64x64.Idx → EReal)
  (x7 : S64.Idx → EReal) (x8 : S153x64.Idx → EReal) (x9 : S153.Idx → EReal)
  (x10 x11 x12 x13 : S64.Idx → EReal) (x14 x15 : S153.Idx → EReal)

/-! ## The index words and the gate -/

/-- The flattened first row of the edge list is the source words, the second the target words. -/
private theorem words0 : val_main_v1 (F := Ideal) x1 = Cert.Gate.row0 x1 :=
  Cert.Gate.slice_row0 x1 slices_S2x1600000_S1x1600000_0_0 shapeCasts_S1x1600000_S1600000
private theorem words1 : val_main_v3 (F := Ideal) x1 = Cert.Gate.row1 x1 :=
  Cert.Gate.slice_row1 x1 slices_S2x1600000_S1x1600000_1_0 shapeCasts_S1x1600000_S1600000

/-- The third layer's gate vector is the shared gate chain again. -/
theorem v143_eq : val_main_v143 (F := Ideal) x1 x2 x3 = Cert.Gate.gateOf (F := Ideal) x2 x3 (val_main_v1 (F := Ideal) x1) := rfl

theorem v143_at (e : Fin 1600000) : val_main_v143 (F := Ideal) x1 x2 x3 (ix1 e) = gate x1 x2 x3 e := by
  rw [v143_eq, words0]; rfl

/-! ## The dense stage -/

/-- Row `n` of the second layer's output against column `d` of the transposed weights, plus the bias. -/
theorem v127_at (hprev : ∀ (n : Fin 100000) (k : Fin 64), val_main_v122 (F := Ideal) x0 x1 x2 x3 x4 x5 x6 x7 x10 x11 x12 x13 (ix2 n k) = h2 x0 x1 x2 x3 x4 x5 x6 x7 x10 x11 x12 x13 n k) (n : Fin 100000) (d : Fin 153) :
    val_main_v127 (F := Ideal) x0 x1 x2 x3 x4 x5 x6 x7 x8 x9 x10 x11 x12 x13 (ix2 n d)
      = Spec.lin (h2 x0 x1 x2 x3 x4 x5 x6 x7 x10 x11 x12 x13) (matT x8) (vec x9) n d := by
  rw [val_main_v127_apply, val_main_v124_apply, val_main_v126_apply, val_main_v125_apply]
  simp only [val_main_v123_apply]
  have e1 : ∀ j : Fin 64, lidx_main_v124 (ix2 n d) j = ix2 n j := fun j => by coords2
  have e2 : ∀ j : Fin 64, idx_main_v123 (ridx_main_v124 (ix2 n d) j) = ix2 d j := fun j => by coords2
  have e3 : idx_main_v125 (idx_main_v126 (ix2 n d)) = ix1 d := by coords1
  simp only [e1, e2, e3, hprev]
  rfl

/-! ## The gathered, gated rows -/

/-- The wrapped source word, as the program computes it for the row gather. -/
theorem v150_at (e : Fin 1600000) :
    val_main_v150 (F := Ideal) x1 (ix2 e ⟨0, Nat.one_pos⟩) = normW (rowW x1 e) := by
  rw [val_main_v150_apply, val_main_v149_apply, val_main_v146_apply, val_main_v148_apply,
    val_main_v145_apply, val_main_c_38_apply, val_main_v147_apply, val_main_c_39_apply]
  have e0 : idx_main_v150 (ix2 e ⟨0, Nat.one_pos⟩) = ix1 e := by coords1
  rw [e0, words0]
  rfl

/-- The gathered rows: edge `e` reads the row its source word names. -/
theorem v151_at (e : Fin 1600000) (d : Fin 153) :
    val_main_v151 (F := Ideal) x0 x1 x2 x3 x4 x5 x6 x7 x8 x9 x10 x11 x12 x13 (ix2 e d)
      = val_main_v127 (F := Ideal) x0 x1 x2 x3 x4 x5 x6 x7 x8 x9 x10 x11 x12 x13 (ix2 (srcRow x1 e) d) := by
  unfold val_main_v151
  generalize val_main_v127 (F := Ideal) x0 x1 x2 x3 x4 x5 x6 x7 x8 x9 x10 x11 x12 x13 = tbl
  have hd : gather_S100000x153_S1600000x1_S1600000x153_1_0_n_n_0_1_1153
      = Cert.RefOps.rowsDims 100000 1600000 153 gather_S100000x153_S1600000x1_S1600000x153_1_0_n_n_0_1_1153_wf := rfl
  rw [hd, Cert.RefOps.gather_rows_apply (by decide), v150_at]
  rfl

/-- The gathered rows, each scaled by its edge's gate. -/
theorem v153_at (e : Fin 1600000) (d : Fin 153) :
    val_main_v153 (F := Ideal) x0 x1 x2 x3 x4 x5 x6 x7 x8 x9 x10 x11 x12 x13 (ix2 e d)
      = gate x1 x2 x3 e * val_main_v127 (F := Ideal) x0 x1 x2 x3 x4 x5 x6 x7 x8 x9 x10 x11 x12 x13 (ix2 (srcRow x1 e) d) := by
  rw [val_main_v153_apply, val_main_v152_apply, val_main_v144_apply, v151_at]
  have e1 : idx_main_v144 (idx_main_v152 (ix2 e d)) = ix1 e := by coords1
  rw [e1, v143_at]
  rfl

/-! ## The rows landing on each node, summed -/

/-- The accumulating row scatter, read at a node and a column: the array's entry plus the updates of the edges whose
    index word, read signed, is the node's number. -/
private theorem scatterAdd_rows {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (c : Fin D) :
    Host.scatterAdd (F := Ideal) (φ := .f32) (Cert.RefOps.rowsScatter N E D wf) x idx upd (ix2 n c)
      = x (ix2 n c) + ∑ e : Fin E,
          if (idx (ix2 e ⟨0, Nat.one_pos⟩)).toInt = (n.val : Int) then upd (ix2 e c) else 0 :=
  Cert.RefOps.scatterAdd_rows_apply wf idx x upd n c

/-- The scatter's index words are the target words. -/
theorem v155_at (e : Fin 1600000) : val_main_v155 (F := Ideal) x1 (ix2 e ⟨0, Nat.one_pos⟩) = colW x1 e := by
  rw [val_main_v155_apply]
  have e0 : idx_main_v155 (ix2 e ⟨0, Nat.one_pos⟩) = ix1 e := by coords1
  rw [e0, words1]
  rfl

/-- The array scattered into is zero everywhere. -/
theorem v154_at (n : Fin 100000) (d : Fin 153) : val_main_v154 (F := Ideal) (ix2 n d) = 0 := by
  rw [val_main_v154_apply, val_main_cst_40_apply]
  exact Ideal.ofBits_zero_f32

/-- The scattered sums are the messages landing on each node, whatever the messages are. -/
theorem v156_seg (n : Fin 100000) (d : Fin 153) :
    val_main_v156 (F := Ideal) x0 x1 x2 x3 x4 x5 x6 x7 x8 x9 x10 x11 x12 x13 (ix2 n d)
      = Spec.seg (colW x1) (fun e d => val_main_v153 (F := Ideal) x0 x1 x2 x3 x4 x5 x6 x7 x8 x9 x10 x11 x12 x13 (ix2 e d)) n d := by
  unfold val_main_v156
  generalize val_main_v153 (F := Ideal) x0 x1 x2 x3 x4 x5 x6 x7 x8 x9 x10 x11 x12 x13 = upd
  have hd : scatter_S100000x153_S1600000x1_S1600000x153_1_0_0_1
      = Cert.RefOps.rowsScatter 100000 1600000 153 scatter_S100000x153_S1600000x1_S1600000x153_1_0_0_1_wf := rfl
  rw [hd, scatterAdd_rows, v154_at, zero_add]
  rw [← Cert.LibSegForms.seg_eq_toInt (N := 100000) (by decide) (colW x1) (fun e d => upd (ix2 e d)) n d]
  exact Finset.sum_congr rfl fun e _ => by rw [v155_at]

/-- The scattered sums are the aggregation of the dense stage's rows. -/
theorem v156_at (hprev : ∀ (n : Fin 100000) (k : Fin 64), val_main_v122 (F := Ideal) x0 x1 x2 x3 x4 x5 x6 x7 x10 x11 x12 x13 (ix2 n k) = h2 x0 x1 x2 x3 x4 x5 x6 x7 x10 x11 x12 x13 n k) (n : Fin 100000) (d : Fin 153) :
    val_main_v156 (F := Ideal) x0 x1 x2 x3 x4 x5 x6 x7 x8 x9 x10 x11 x12 x13 (ix2 n d)
      = Cert.Compose.agg (colW x1) (gate x1 x2 x3) (srcRow x1) (Spec.lin (h2 x0 x1 x2 x3 x4 x5 x6 x7 x10 x11 x12 x13) (matT x8) (vec x9)) n d := by
  rw [v156_seg]
  unfold Cert.Compose.agg
  refine congrArg (fun m => Spec.seg (colW x1) m n d) (funext fun e => funext fun d' => ?_)
  rw [v153_at, v127_at x0 x1 x2 x3 x4 x5 x6 x7 x8 x9 x10 x11 x12 x13 hprev]

/-! ## The row normalisation -/

/-- The summed rows as a curried array. -/
def rows3 : Fin 100000 → Fin 153 → EReal := fun n d => val_main_v156 (F := Ideal) x0 x1 x2 x3 x4 x5 x6 x7 x8 x9 x10 x11 x12 x13 (ix2 n d)

/-- The row's mean: the row's sum (from zero) divided by the row length. -/
theorem v160_at (n : Fin 100000) :
    val_main_v160 (F := Ideal) x0 x1 x2 x3 x4 x5 x6 x7 x8 x9 x10 x11 x12 x13 (ix2 n ⟨0, Nat.one_pos⟩) = Spec.mean c153 (rows3 x0 x1 x2 x3 x4 x5 x6 x7 x8 x9 x10 x11 x12 x13) n := by
  rw [val_main_v160_apply, val_main_v158_apply, val_main_v157_apply, val_main_v159_apply, val_main_cst_42_apply,
    val_main_cst_41_apply]
  have hs : (∑ k : Fin 153, val_main_v156 (F := Ideal) x0 x1 x2 x3 x4 x5 x6 x7 x8 x9 x10 x11 x12 x13
        (idx_main_v157 (idx_main_v158 (ix2 n ⟨0, Nat.one_pos⟩)) k)) = ∑ k : Fin 153, rows3 x0 x1 x2 x3 x4 x5 x6 x7 x8 x9 x10 x11 x12 x13 n k :=
    Finset.sum_congr rfl fun k _ => by
      rw [show idx_main_v157 (idx_main_v158 (ix2 n ⟨0, Nat.one_pos⟩)) k = ix2 n k from by coords2]
      rfl
  rw [hs]
  show Ideal.div (Ideal.ofBits .f32 0x00000000#32 + ∑ k : Fin 153, rows3 x0 x1 x2 x3 x4 x5 x6 x7 x8 x9 x10 x11 x12 x13 n k) c153 = _
  rw [Ideal.ofBits_zero_f32, zero_add]
  rfl

/-- The centred rows, as the program forms them for the squares … -/
theorem v162_at (n : Fin 100000) (d : Fin 153) :
    val_main_v162 (F := Ideal) x0 x1 x2 x3 x4 x5 x6 x7 x8 x9 x10 x11 x12 x13 (ix2 n d) = rows3 x0 x1 x2 x3 x4 x5 x6 x7 x8 x9 x10 x11 x12 x13 n d - Spec.mean c153 (rows3 x0 x1 x2 x3 x4 x5 x6 x7 x8 x9 x10 x11 x12 x13) n := by
  rw [val_main_v162_apply, val_main_v161_apply]
  have e1 : idx_main_v161 (ix2 n d) = ix2 n ⟨0, Nat.one_pos⟩ := by coords2
  rw [e1, v160_at]
  rfl

/-- … and again for the quotient. -/
theorem v169_at (n : Fin 100000) (d : Fin 153) :
    val_main_v169 (F := Ideal) x0 x1 x2 x3 x4 x5 x6 x7 x8 x9 x10 x11 x12 x13 (ix2 n d) = rows3 x0 x1 x2 x3 x4 x5 x6 x7 x8 x9 x10 x11 x12 x13 n d - Spec.mean c153 (rows3 x0 x1 x2 x3 x4 x5 x6 x7 x8 x9 x10 x11 x12 x13) n := by
  rw [val_main_v169_apply, val_main_v168_apply]
  have e1 : idx_main_v168 (ix2 n d) = ix2 n ⟨0, Nat.one_pos⟩ := by coords2
  rw [e1, v160_at]
  rfl

/-- The row's variance: the sum of the centred entries' squares (from zero) divided by the row length. -/
theorem v167_at (n : Fin 100000) :
    val_main_v167 (F := Ideal) x0 x1 x2 x3 x4 x5 x6 x7 x8 x9 x10 x11 x12 x13 (ix2 n ⟨0, Nat.one_pos⟩) = Spec.var c153 (rows3 x0 x1 x2 x3 x4 x5 x6 x7 x8 x9 x10 x11 x12 x13) n := by
  rw [val_main_v167_apply, val_main_v165_apply, val_main_v164_apply, val_main_v166_apply, val_main_cst_44_apply,
    val_main_cst_43_apply]
  have hs : (∑ k : Fin 153, val_main_v163 (F := Ideal) x0 x1 x2 x3 x4 x5 x6 x7 x8 x9 x10 x11 x12 x13
        (idx_main_v164 (idx_main_v165 (ix2 n ⟨0, Nat.one_pos⟩)) k))
      = ∑ k : Fin 153, (rows3 x0 x1 x2 x3 x4 x5 x6 x7 x8 x9 x10 x11 x12 x13 n k - Spec.mean c153 (rows3 x0 x1 x2 x3 x4 x5 x6 x7 x8 x9 x10 x11 x12 x13) n) * (rows3 x0 x1 x2 x3 x4 x5 x6 x7 x8 x9 x10 x11 x12 x13 n k - Spec.mean c153 (rows3 x0 x1 x2 x3 x4 x5 x6 x7 x8 x9 x10 x11 x12 x13) n) :=
    Finset.sum_congr rfl fun k _ => by
      rw [show idx_main_v164 (idx_main_v165 (ix2 n ⟨0, Nat.one_pos⟩)) k = ix2 n k from by coords2,
        val_main_v163_apply, v162_at]
      rfl
  rw [hs]
  show Ideal.div (Ideal.ofBits .f32 0x00000000#32
      + ∑ k : Fin 153, (rows3 x0 x1 x2 x3 x4 x5 x6 x7 x8 x9 x10 x11 x12 x13 n k - Spec.mean c153 (rows3 x0 x1 x2 x3 x4 x5 x6 x7 x8 x9 x10 x11 x12 x13) n) * (rows3 x0 x1 x2 x3 x4 x5 x6 x7 x8 x9 x10 x11 x12 x13 n k - Spec.mean c153 (rows3 x0 x1 x2 x3 x4 x5 x6 x7 x8 x9 x10 x11 x12 x13) n)) c153 = _
  rw [Ideal.ofBits_zero_f32, zero_add]
  rfl

/-- The last buffer: the centred entry divided by the root of the variance plus the offset, scaled and shifted. -/
theorem v180_norm (n : Fin 100000) (d : Fin 153) :
    val_main_v180 (F := Ideal) x0 x1 x2 x3 x4 x5 x6 x7 x8 x9 x10 x11 x12 x13 x14 x15 (ix2 n d)
      = Spec.normDiv c153 eps (rows3 x0 x1 x2 x3 x4 x5 x6 x7 x8 x9 x10 x11 x12 x13) (vec x14) (vec x15) n d := by
  rw [val_main_v180_apply, val_main_v177_apply, val_main_v174_apply, v169_at, val_main_v173_apply, val_main_v172_apply,
    val_main_v171_apply, val_main_v176_apply, val_main_v175_apply, val_main_v179_apply, val_main_v178_apply,
    val_main_v170_apply, val_main_cst_45_apply]
  have e1 : idx_main_v173 (ix2 n d) = ix2 n ⟨0, Nat.one_pos⟩ := by coords2
  have e2 : idx_main_v175 (idx_main_v176 (ix2 n d)) = ix1 d := by coords1
  have e3 : idx_main_v178 (idx_main_v179 (ix2 n d)) = ix1 d := by coords1
  rw [e1, e2, e3, v167_at]
  rfl

/-! ## The layer -/

/-- The reference's last buffer at node `n`, column `d` is the reference's result there, given what the second
    layer's last buffer holds. -/
theorem layer3 (hprev : ∀ (n : Fin 100000) (k : Fin 64), val_main_v122 (F := Ideal) x0 x1 x2 x3 x4 x5 x6 x7 x10 x11 x12 x13 (ix2 n k) = h2 x0 x1 x2 x3 x4 x5 x6 x7 x10 x11 x12 x13 n k) (n : Fin 100000) (d : Fin 153) :
    val_main_v180 (F := Ideal) x0 x1 x2 x3 x4 x5 x6 x7 x8 x9 x10 x11 x12 x13 x14 x15 (ix2 n d) = out x0 x1 x2 x3 x4 x5 x6 x7 x8 x9 x10 x11 x12 x13 x14 x15 n d := by
  rw [v180_norm]
  unfold out Cert.Compose.refOut
  exact congrArg (fun v => Spec.normDiv c153 eps v (vec x14) (vec x15) n d)
    (funext fun n' => funext fun d' => v156_at x0 x1 x2 x3 x4 x5 x6 x7 x8 x9 x10 x11 x12 x13 hprev n' d')

end Args

end Cert.RefSide

end
-- ==== Proof.Ref.Value.lean ====
import proofs.«421344_j1254130450614_1_alg».proof.Proof.Ref.Value1
import proofs.«421344_j1254130450614_1_alg».proof.Proof.Ref.Value2
import proofs.«421344_j1254130450614_1_alg».proof.Proof.Ref.Value3

/-!
The reference program's result, read at a node and a column, is the three layers composed: each layer's output
buffer is that layer's formula over the layer before it, and the chain starts at the arguments.
-/

noncomputable section

namespace Cert.RefSide

open Cert.ReferenceIdeal Cert.ReferenceIdeal.Gen Cert.ReferenceIdeal.Read
open Idealize.ShloMosaic Idealize.ShloMosaic.ValueIdx

/-- THE REFERENCE'S VALUE: its last buffer at node `n`, column `d`, as the composed layers of the arguments. -/
theorem value (x0 : S100000x64.Idx → EReal) (x1 : S2x1600000.Idx → BitVec 32) (x2 : S100000.Idx → EReal)
    (x3 : S1600000.Idx → EReal) (x4 : S64x64.Idx → EReal) (x5 : S64.Idx → EReal) (x6 : S64x64.Idx → EReal)
    (x7 : S64.Idx → EReal) (x8 : S153x64.Idx → EReal) (x9 : S153.Idx → EReal)
    (x10 x11 x12 x13 : S64.Idx → EReal) (x14 x15 : S153.Idx → EReal) (n : Fin 100000) (d : Fin 153) :
    val_main_v180 (F := Ideal) x0 x1 x2 x3 x4 x5 x6 x7 x8 x9 x10 x11 x12 x13 x14 x15 (ix2 n d)
      = out x0 x1 x2 x3 x4 x5 x6 x7 x8 x9 x10 x11 x12 x13 x14 x15 n d :=
  layer3 x0 x1 x2 x3 x4 x5 x6 x7 x8 x9 x10 x11 x12 x13 x14 x15
    (layer2 x0 x1 x2 x3 x4 x5 x6 x7 x10 x11 x12 x13 (layer1 x0 x1 x2 x3 x4 x5 x10 x11)) n d

end Cert.RefSide

end
-- ==== Proof.lean ====
/- The certificate's five claims.

   Both printed programs of the kernel are the same text, so one development, proved for any float family,
   gives the run of @main with the result buffer named: nine pipelined regions, each proved from its body's
   triples at the control cases of its grid, joined with the host stretches between them.  The frame claims
   drop the result.  For the value claim the result buffer is read back through the regions: three layers of
   dense map, one-hot gather, one-hot scatter and row normalisation on 102400 padded rows.  They agree with the
   reference's three layers on the first 100000 rows because every source row word lies in [0, 100000) (the
   added precondition): a one-hot row then picks exactly the row the reference's clamped gather reads, the
   padded rows are never picked and are cut by the final slice, the one-hot scatter and the reference's
   scatter-add both sum the messages whose target word names the node, and the reciprocal-root and
   divide-by-root forms of the normalisation agree since the variance plus epsilon is positive. -/
import proofs.«421344_j1254130450614_1_alg».proof.Defs
import proofs.«421344_j1254130450614_1_alg».proof.Proof.Gen.Kernel
import proofs.«421344_j1254130450614_1_alg».proof.Proof.Gen.KernelIdeal
import proofs.«421344_j1254130450614_1_alg».proof.Proof.Gen.ReferenceIdeal
import proofs.«421344_j1254130450614_1_alg».proof.Proof.Gen.Pre_finite_inputs
import proofs.«421344_j1254130450614_1_alg».proof.Proof.K.Asm
import proofs.«421344_j1254130450614_1_alg».proof.Proof.KI.Asm
import proofs.«421344_j1254130450614_1_alg».proof.Proof.KI.Result
import proofs.«421344_j1254130450614_1_alg».proof.Proof.Ref.RunVal
import proofs.«421344_j1254130450614_1_alg».proof.Proof.Ref.Value
import Idealize.ShloMosaic.Lib.ValueIdx
import Idealize.ShloMosaic.Adequacy
import Idealize.ShloMosaic.Init

noncomputable section

namespace Cert.Proof

open Idealize.ShloMosaic Idealize.SL.Sem

/-- The kernel's result buffer after the nine regions is the reference's last stage applied to the kernel's
    own arguments: index by index, the kernel's three layers and the reference's are one function. -/
theorem kernel_buf [Cert.Pre_finite_inputs.Facts] (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.H.W22 (F := Ideal) m ρ c (Proc.devRef .tc Cert.KernelIdeal.main_v45)
      = Cert.ReferenceIdeal.Read.val_main_v180 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  funext i
  obtain ⟨n, d, rfl⟩ : ∃ (n : Fin 100000) (d : Fin 153), i = ValueIdx.ix2 n d := ⟨i 0, i 1, ValueIdx.eq_ix2 i⟩
  exact (Cert.KernelIdeal.H.kernel_result m ρ c (hpre c) n d).trans (Cert.RefSide.value _ _ _ _ _ _ _ _ _ _ _ _ _ _ _ _ n d).symm

theorem claim : Cert.Claim :=
  ⟨Cert.Kernel.Gen.facts, Cert.KernelIdeal.Gen.facts, Cert.ReferenceIdeal.Gen.facts, Cert.Pre_finite_inputs.Gen.facts,
    -- the word-level program runs and keeps its arguments: the nine regions' run with the result dropped
    fun m ρ _ => (θ_run (Cert.Kernel.defs (F := Bits)) _ _).mono (fun _ h c => (h c).2)
      (Cert.Kernel.H.run_main (F := Bits) m ρ),
    -- the same for the idealized program
    fun m ρ _ => (θ_run (Cert.KernelIdeal.defs (F := Ideal)) _ _).mono (fun _ h c => (h c).2)
      (Cert.KernelIdeal.H.run_main (F := Ideal) m ρ),
    -- the reference runs and keeps its arguments: its run with the result dropped
    fun m ρ _ => (θ_run (Cert.ReferenceIdeal.defs (F := Ideal)) _ _).mono (fun _ h c => (h c).2)
      (Cert.RefSide.run_val (F := Ideal) m ρ),
    -- the ideal pass rewrote nothing
    trivial,
    -- both programs end with the reference's last stage of the kernel's arguments
    fun m ρ m' ρ' hpre hagree =>
      ⟨fun c => Cert.ReferenceIdeal.Read.val_main_v180 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
        (θ_run (Cert.KernelIdeal.defs (F := Ideal)) _ _).mono
          (fun _ h c => ⟨(h c).1.trans (kernel_buf m ρ hpre c), (h c).2⟩)
          (Cert.KernelIdeal.H.run_main (F := Ideal) m ρ),
        (θ_run (Cert.ReferenceIdeal.defs (F := Ideal)) _ _).mono
          (fun _ h c => ⟨by
              rw [(h c).1, (hagree c).1, (hagree c).2.1, (hagree c).2.2.1, (hagree c).2.2.2.1, (hagree c).2.2.2.2.1,
                (hagree c).2.2.2.2.2.1, (hagree c).2.2.2.2.2.2.1, (hagree c).2.2.2.2.2.2.2.1, (hagree c).2.2.2.2.2.2.2.2.1,
                (hagree c).2.2.2.2.2.2.2.2.2.1, (hagree c).2.2.2.2.2.2.2.2.2.2.1, (hagree c).2.2.2.2.2.2.2.2.2.2.2.1,
                (hagree c).2.2.2.2.2.2.2.2.2.2.2.2.1, (hagree c).2.2.2.2.2.2.2.2.2.2.2.2.2.1,
                (hagree c).2.2.2.2.2.2.2.2.2.2.2.2.2.2.1, (hagree c).2.2.2.2.2.2.2.2.2.2.2.2.2.2.2], (h c).2⟩)
          (Cert.RefSide.run_val (F := Ideal) m' ρ')⟩⟩

end Cert.Proof

end
